-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v357)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v357) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v391) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x100000x6 : Shape := ⟨3, ![2, 100000, 6]⟩
abbrev S2x2x1600000 : Shape := ⟨3, ![2, 2, 1600000]⟩
abbrev S2x100000 : Shape := ⟨2, ![2, 100000]⟩
abbrev S2x36x6 : Shape := ⟨3, ![2, 36, 6]⟩
abbrev S2x36 : Shape := ⟨2, ![2, 36]⟩
abbrev S2x36x36 : Shape := ⟨3, ![2, 36, 36]⟩
abbrev S2x3x36 : Shape := ⟨3, ![2, 3, 36]⟩
abbrev S54x72 : Shape := ⟨2, ![54, 72]⟩
abbrev S54 : Shape := ⟨1, ![54]⟩
abbrev S18x54 : Shape := ⟨2, ![18, 54]⟩
abbrev S18 : Shape := ⟨1, ![18]⟩
abbrev S1x18 : Shape := ⟨2, ![1, 18]⟩
abbrev S1 : Shape := ⟨1, ![1]⟩
abbrev S_ : Shape := ⟨0, ![]⟩

class Facts : Prop where
  bcast_S_S2x100000x6 : S_.BroadcastsInDim S2x100000x6 (![] : Fin 0 → Fin S2x100000x6.rank)
  reducesTo_S2x100000x6_S_d0_1_2 : S2x100000x6.ReducesTo [0, 1, 2] S_
  h_S_ : 0 < S_.numel
  bcast_S_S2x36x6 : S_.BroadcastsInDim S2x36x6 (![] : Fin 0 → Fin S2x36x6.rank)
  reducesTo_S2x36x6_S_d0_1_2 : S2x36x6.ReducesTo [0, 1, 2] S_
  bcast_S_S2x36 : S_.BroadcastsInDim S2x36 (![] : Fin 0 → Fin S2x36.rank)
  reducesTo_S2x36_S_d0_1 : S2x36.ReducesTo [0, 1] S_
  bcast_S_S2x36x36 : S_.BroadcastsInDim S2x36x36 (![] : Fin 0 → Fin S2x36x36.rank)
  reducesTo_S2x36x36_S_d0_1_2 : S2x36x36.ReducesTo [0, 1, 2] S_
  bcast_S_S2x3x36 : S_.BroadcastsInDim S2x3x36 (![] : Fin 0 → Fin S2x3x36.rank)
  reducesTo_S2x3x36_S_d0_1_2 : S2x3x36.ReducesTo [0, 1, 2] S_
  bcast_S_S54x72 : S_.BroadcastsInDim S54x72 (![] : Fin 0 → Fin S54x72.rank)
  reducesTo_S54x72_S_d0_1 : S54x72.ReducesTo [0, 1] S_
  bcast_S_S54 : S_.BroadcastsInDim S54 (![] : Fin 0 → Fin S54.rank)
  reducesTo_S54_S_d0 : S54.ReducesTo [0] S_
  bcast_S_S18x54 : S_.BroadcastsInDim S18x54 (![] : Fin 0 → Fin S18x54.rank)
  reducesTo_S18x54_S_d0_1 : S18x54.ReducesTo [0, 1] S_
  bcast_S_S18 : S_.BroadcastsInDim S18 (![] : Fin 0 → Fin S18.rank)
  reducesTo_S18_S_d0 : S18.ReducesTo [0] S_
  bcast_S_S1x18 : S_.BroadcastsInDim S1x18 (![] : Fin 0 → Fin S1x18.rank)
  reducesTo_S1x18_S_d0_1 : S1x18.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  main_v103

def fn_part5 {F : FTy → Type} [FloatOps F] (main_arg20 : FVec F S18 .f32) (main_arg21 : FVec F S1x18 .f32) (main_arg22 : FVec F S1 .f32) (main_v83 : IVec S_ 1) (main_v84 : FVec F S18x54 .f32) (main_cst_32 : FVec F S_ .f32) : IVec S_ 1 :=
  let main_v85 : FVec F S18x54 .f32 := broadcastInDim S18x54 ![] bcast_S_S18x54 main_cst_32
  let main_v86 : IVec S18x54 1 := cmpf .olt main_v84 main_v85
  let main_c_33 : IVec S_ 1 := constantI S_ 1 1#1
  let main_v87 : IVec S_ 1 := (fun x v => Host.reduce IntOp.andi x v reducesTo_S18x54_S_d0_1 h_S_) main_v86 main_c_33
  let main_v88 : IVec S_ 1 := andi main_v83 main_v87
  let main_v89 : FVec F S18 .f32 := Host.absf main_arg20
  let main_cst_34 : FVec F S_ .f32 := constant S_ .f32 0x7F800000#32
  let main_v90 : FVec F S18 .f32 := broadcastInDim S18 ![] bcast_S_S18 main_cst_34
  let main_v91 : IVec S18 1 := cmpf .olt main_v89 main_v90
  let main_c_35 : IVec S_ 1 := constantI S_ 1 1#1
  let main_v92 : IVec S_ 1 := (fun x v => Host.reduce IntOp.andi x v reducesTo_S18_S_d0 h_S_) main_v91 main_c_35
  let main_v93 : IVec S_ 1 := andi main_v88 main_v92
  let main_v94 : FVec F S1x18 .f32 := Host.absf main_arg21
  let main_cst_36 : FVec F S_ .f32 := constant S_ .f32 0x7F800000#32
  let main_v95 : FVec F S1x18 .f32 := broadcastInDim S1x18 ![] bcast_S_S1x18 main_cst_36
  let main_v96 : IVec S1x18 1 := cmpf .olt main_v94 main_v95
  let main_c_37 : IVec S_ 1 := constantI S_ 1 1#1
  let main_v97 : IVec S_ 1 := (fun x v => Host.reduce IntOp.andi x v reducesTo_S1x18_S_d0_1 h_S_) main_v96 main_c_37
  let main_v98 : IVec S_ 1 := andi main_v93 main_v97
  let main_v99 : FVec F S1 .f32 := Host.absf main_arg22
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_v98 main_v101 main_c_39

def fn_part4 {F : FTy → Type} [FloatOps F] (main_arg16 : FVec F S2x3x36 .f32) (main_arg17 : FVec F S54x72 .f32) (main_arg18 : FVec F S54 .f32) (main_arg19 : FVec F S18x54 .f32) (main_arg20 : FVec F S18 .f32) (main_arg21 : FVec F S1x18 .f32) (main_arg22 : FVec F S1 .f32) (main_v63 : IVec S_ 1) (main_v67 : IVec S_ 1) : IVec S_ 1 :=
  let main_v68 : IVec S_ 1 := andi main_v63 main_v67
  let main_v69 : FVec F S2x3x36 .f32 := Host.absf main_arg16
  let main_cst_26 : FVec F S_ .f32 := constant S_ .f32 0x7F800000#32
  let main_v70 : FVec F S2x3x36 .f32 := broadcastInDim S2x3x36 ![] bcast_S_S2x3x36 main_cst_26
  let main_v71 : IVec S2x3x36 1 := cmpf .olt main_v69 main_v70
  let main_c_27 : IVec S_ 1 := constantI S_ 1 1#1
  let main_v72 : IVec S_ 1 := (fun x v => Host.reduce IntOp.andi x v reducesTo_S2x3x36_S_d0_1_2 h_S_) main_v71 main_c_27
  let main_v73 : IVec S_ 1 := andi main_v68 main_v72
  let main_v74 : FVec F S54x72 .f32 := Host.absf main_arg17
  let main_cst_28 : FVec F S_ .f32 := constant S_ .f32 0x7F800000#32
  let main_v75 : FVec F S54x72 .f32 := broadcastInDim S54x72 ![] bcast_S_S54x72 main_cst_28
  let main_v76 : IVec S54x72 1 := cmpf .olt main_v74 main_v75
  let main_c_29 : IVec S_ 1 := constantI S_ 1 1#1
  let main_v77 : IVec S_ 1 := (fun x v => Host.reduce IntOp.andi x v reducesTo_S54x72_S_d0_1 h_S_) main_v76 main_c_29
  let main_v78 : IVec S_ 1 := andi main_v73 main_v77
  let main_v79 : FVec F S54 .f32 := Host.absf main_arg18
  let main_cst_30 : FVec F S_ .f32 := constant S_ .f32 0x7F800000#32
  let main_v80 : FVec F S54 .f32 := broadcastInDim S54 ![] bcast_S_S54 main_cst_30
  let main_v81 : IVec S54 1 := cmpf .olt main_v79 main_v80
  let main_c_31 : IVec S_ 1 := constantI S_ 1 1#1
  let main_v82 : IVec S_ 1 := (fun x v => Host.reduce IntOp.andi x v reducesTo_S54_S_d0 h_S_) main_v81 main_c_31
  let main_v83 : IVec S_ 1 := andi main_v78 main_v82
  let main_v84 : FVec F S18x54 .f32 := Host.absf main_arg19
  let main_cst_32 : FVec F S_ .f32 := constant S_ .f32 0x7F800000#32
  fn_part5 (F := F) main_arg20 main_arg21 main_arg22 main_v83 main_v84 main_cst_32

def fn_part3 {F : FTy → Type} [FloatOps F] (main_arg13 : FVec F S2x36x36 .f32) (main_arg14 : FVec F S2x36 .f32) (main_arg15 : FVec F S2x3x36 .f32) (main_arg16 : FVec F S2x3x36 .f32) (main_arg17 : FVec F S54x72 .f32) (main_arg18 : FVec F S54 .f32) (main_arg19 : FVec F S18x54 .f32) (main_arg20 : FVec F S18 .f32) (main_arg21 : FVec F S1x18 .f32) (main_arg22 : FVec F S1 .f32) (main_v48 : IVec S_ 1) (main_v49 : FVec F S2x36 .f32) (main_v50 : FVec F S2x36 .f32) : IVec S_ 1 :=
  let main_v51 : IVec S2x36 1 := cmpf .olt main_v49 main_v50
  let main_c_19 : IVec S_ 1 := constantI S_ 1 1#1
  let main_v52 : IVec S_ 1 := (fun x v => Host.reduce IntOp.andi x v reducesTo_S2x36_S_d0_1 h_S_) main_v51 main_c_19
  let main_v53 : IVec S_ 1 := andi main_v48 main_v52
  let main_v54 : FVec F S2x36x36 .f32 := Host.absf main_arg13
  let main_cst_20 : FVec F S_ .f32 := constant S_ .f32 0x7F800000#32
  let main_v55 : FVec F S2x36x36 .f32 := broadcastInDim S2x36x36 ![] bcast_S_S2x36x36 main_cst_20
  let main_v56 : IVec S2x36x36 1 := cmpf .olt main_v54 main_v55
  let main_c_21 : IVec S_ 1 := constantI S_ 1 1#1
  let main_v57 : IVec S_ 1 := (fun x v => Host.reduce IntOp.andi x v reducesTo_S2x36x36_S_d0_1_2 h_S_) main_v56 main_c_21
  let main_v58 : IVec S_ 1 := andi main_v53 main_v57
  let main_v59 : FVec F S2x36 .f32 := Host.absf main_arg14
  let main_cst_22 : FVec F S_ .f32 := constant S_ .f32 0x7F800000#32
  let main_v60 : FVec F S2x36 .f32 := broadcastInDim S2x36 ![] bcast_S_S2x36 main_cst_22
  let main_v61 : IVec S2x36 1 := cmpf .olt main_v59 main_v60
  let main_c_23 : IVec S_ 1 := constantI S_ 1 1#1
  let main_v62 : IVec S_ 1 := (fun x v => Host.reduce IntOp.andi x v reducesTo_S2x36_S_d0_1 h_S_) main_v61 main_c_23
  let main_v63 : IVec S_ 1 := andi main_v58 main_v62
  let main_v64 : FVec F S2x3x36 .f32 := Host.absf main_arg15
  let main_cst_24 : FVec F S_ .f32 := constant S_ .f32 0x7F800000#32
  let main_v65 : FVec F S2x3x36 .f32 := broadcastInDim S2x3x36 ![] bcast_S_S2x3x36 main_cst_24
  let main_v66 : IVec S2x3x36 1 := cmpf .olt main_v64 main_v65
  let main_c_25 : IVec S_ 1 := constantI S_ 1 1#1
  let main_v67 : IVec S_ 1 := (fun x v => Host.reduce IntOp.andi x v reducesTo_S2x3x36_S_d0_1_2 h_S_) main_v66 main_c_25
  fn_part4 (F := F) main_arg16 main_arg17 main_arg18 main_arg19 main_arg20 main_arg21 main_arg22 main_v63 main_v67

def fn_part2 {F : FTy → Type} [FloatOps F] (main_arg9 : FVec F S2x36x36 .f32) (main_arg10 : FVec F S2x36 .f32) (main_arg11 : FVec F S2x36x36 .f32) (main_arg12 : FVec F S2x36 .f32) (main_arg13 : FVec F S2x36x36 .f32) (main_arg14 : FVec F S2x36 .f32) (main_arg15 : FVec F S2x3x36 .f32) (main_arg16 : FVec F S2x3x36 .f32) (main_arg17 : FVec F S54x72 .f32) (main_arg18 : FVec F S54 .f32) (main_arg19 : FVec F S18x54 .f32) (main_arg20 : FVec F S18 .f32) (main_arg21 : FVec F S1x18 .f32) (main_arg22 : FVec F S1 .f32) (main_v33 : IVec S_ 1) : IVec S_ 1 :=
  let main_v34 : FVec F S2x36x36 .f32 := Host.absf main_arg9
  let main_cst_12 : FVec F S_ .f32 := constant S_ .f32 0x7F800000#32
  let main_v35 : FVec F S2x36x36 .f32 := broadcastInDim S2x36x36 ![] bcast_S_S2x36x36 main_cst_12
  let main_v36 : IVec S2x36x36 1 := cmpf .olt main_v34 main_v35
  let main_c_13 : IVec S_ 1 := constantI S_ 1 1#1
  let main_v37 : IVec S_ 1 := (fun x v => Host.reduce IntOp.andi x v reducesTo_S2x36x36_S_d0_1_2 h_S_) main_v36 main_c_13
  let main_v38 : IVec S_ 1 := andi main_v33 main_v37
  let main_v39 : FVec F S2x36 .f32 := Host.absf main_arg10
  let main_cst_14 : FVec F S_ .f32 := constant S_ .f32 0x7F800000#32
  let main_v40 : FVec F S2x36 .f32 := broadcastInDim S2x36 ![] bcast_S_S2x36 main_cst_14
  let main_v41 : IVec S2x36 1 := cmpf .olt main_v39 main_v40
  let main_c_15 : IVec S_ 1 := constantI S_ 1 1#1
  let main_v42 : IVec S_ 1 := (fun x v => Host.reduce IntOp.andi x v reducesTo_S2x36_S_d0_1 h_S_) main_v41 main_c_15
  let main_v43 : IVec S_ 1 := andi main_v38 main_v42
  let main_v44 : FVec F S2x36x36 .f32 := Host.absf main_arg11
  let main_cst_16 : FVec F S_ .f32 := constant S_ .f32 0x7F800000#32
  let main_v45 : FVec F S2x36x36 .f32 := broadcastInDim S2x36x36 ![] bcast_S_S2x36x36 main_cst_16
  let main_v46 : IVec S2x36x36 1 := cmpf .olt main_v44 main_v45
  let main_c_17 : IVec S_ 1 := constantI S_ 1 1#1
  let main_v47 : IVec S_ 1 := (fun x v => Host.reduce IntOp.andi x v reducesTo_S2x36x36_S_d0_1_2 h_S_) main_v46 main_c_17
  let main_v48 : IVec S_ 1 := andi main_v43 main_v47
  let main_v49 : FVec F S2x36 .f32 := Host.absf main_arg12
  let main_cst_18 : FVec F S_ .f32 := constant S_ .f32 0x7F800000#32
  let main_v50 : FVec F S2x36 .f32 := broadcastInDim S2x36 ![] bcast_S_S2x36 main_cst_18
  fn_part3 (F := F) main_arg13 main_arg14 main_arg15 main_arg16 main_arg17 main_arg18 main_arg19 main_arg20 main_arg21 main_arg22 main_v48 main_v49 main_v50

def fn_part1 {F : FTy → Type} [FloatOps F] (main_arg6 : FVec F S2x36 .f32) (main_arg7 : FVec F S2x36x36 .f32) (main_arg8 : FVec F S2x36 .f32) (main_arg9 : FVec F S2x36x36 .f32) (main_arg10 : FVec F S2x36 .f32) (main_arg11 : FVec F S2x36x36 .f32) (main_arg12 : FVec F S2x36 .f32) (main_arg13 : FVec F S2x36x36 .f32) (main_arg14 : FVec F S2x36 .f32) (main_arg15 : FVec F S2x3x36 .f32) (main_arg16 : FVec F S2x3x36 .f32) (main_arg17 : FVec F S54x72 .f32) (main_arg18 : FVec F S54 .f32) (main_arg19 : FVec F S18x54 .f32) (main_arg20 : FVec F S18 .f32) (main_arg21 : FVec F S1x18 .f32) (main_arg22 : FVec F S1 .f32) (main_v13 : IVec S_ 1) (main_v16 : IVec S2x36x36 1) : IVec S_ 1 :=
  let main_c_5 : IVec S_ 1 := constantI S_ 1 1#1
  let main_v17 : IVec S_ 1 := (fun x v => Host.reduce IntOp.andi x v reducesTo_S2x36x36_S_d0_1_2 h_S_) main_v16 main_c_5
  let main_v18 : IVec S_ 1 := andi main_v13 main_v17
  let main_v19 : FVec F S2x36 .f32 := Host.absf main_arg6
  let main_cst_6 : FVec F S_ .f32 := constant S_ .f32 0x7F800000#32
  let main_v20 : FVec F S2x36 .f32 := broadcastInDim S2x36 ![] bcast_S_S2x36 main_cst_6
  let main_v21 : IVec S2x36 1 := cmpf .olt main_v19 main_v20
  let main_c_7 : IVec S_ 1 := constantI S_ 1 1#1
  let main_v22 : IVec S_ 1 := (fun x v => Host.reduce IntOp.andi x v reducesTo_S2x36_S_d0_1 h_S_) main_v21 main_c_7
  let main_v23 : IVec S_ 1 := andi main_v18 main_v22
  let main_v24 : FVec F S2x36x36 .f32 := Host.absf main_arg7
  let main_cst_8 : FVec F S_ .f32 := constant S_ .f32 0x7F800000#32
  let main_v25 : FVec F S2x36x36 .f32 := broadcastInDim S2x36x36 ![] bcast_S_S2x36x36 main_cst_8
  let main_v26 : IVec S2x36x36 1 := cmpf .olt main_v24 main_v25
  let main_c_9 : IVec S_ 1 := constantI S_ 1 1#1
  let main_v27 : IVec S_ 1 := (fun x v => Host.reduce IntOp.andi x v reducesTo_S2x36x36_S_d0_1_2 h_S_) main_v26 main_c_9
  let main_v28 : IVec S_ 1 := andi main_v23 main_v27
  let main_v29 : FVec F S2x36 .f32 := Host.absf main_arg8
  let main_cst_10 : FVec F S_ .f32 := constant S_ .f32 0x7F800000#32
  let main_v30 : FVec F S2x36 .f32 := broadcastInDim S2x36 ![] bcast_S_S2x36 main_cst_10
  let main_v31 : IVec S2x36 1 := cmpf .olt main_v29 main_v30
  let main_c_11 : IVec S_ 1 := constantI S_ 1 1#1
  let main_v32 : IVec S_ 1 := (fun x v => Host.reduce IntOp.andi x v reducesTo_S2x36_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S2x100000x6 .f32) (main_arg1 : IVec S2x2x1600000 32) (main_arg2 : IVec S2x100000 32) (main_arg3 : FVec F S2x36x6 .f32) (main_arg4 : FVec F S2x36 .f32) (main_arg5 : FVec F S2x36x36 .f32) (main_arg6 : FVec F S2x36 .f32) (main_arg7 : FVec F S2x36x36 .f32) (main_arg8 : FVec F S2x36 .f32) (main_arg9 : FVec F S2x36x36 .f32) (main_arg10 : FVec F S2x36 .f32) (main_arg11 : FVec F S2x36x36 .f32) (main_arg12 : FVec F S2x36 .f32) (main_arg13 : FVec F S2x36x36 .f32) (main_arg14 : FVec F S2x36 .f32) (main_arg15 : FVec F S2x3x36 .f32) (main_arg16 : FVec F S2x3x36 .f32) (main_arg17 : FVec F S54x72 .f32) (main_arg18 : FVec F S54 .f32) (main_arg19 : FVec F S18x54 .f32) (main_arg20 : FVec F S18 .f32) (main_arg21 : FVec F S1x18 .f32) (main_arg22 : FVec F S1 .f32) : IVec S_ 1 :=
  let main_v0 : FVec F S2x100000x6 .f32 := Host.absf main_arg0
  let main_cst : FVec F S_ .f32 := constant S_ .f32 0x7F800000#32
  let main_v1 : FVec F S2x100000x6 .f32 := broadcastInDim S2x100000x6 ![] bcast_S_S2x100000x6 main_cst
  let main_v2 : IVec S2x100000x6 1 := cmpf .olt main_v0 main_v1
  let main_c : IVec S_ 1 := constantI S_ 1 1#1
  let main_v3 : IVec S_ 1 := (fun x v => Host.reduce IntOp.andi x v reducesTo_S2x100000x6_S_d0_1_2 h_S_) main_v2 main_c
  let main_v4 : FVec F S2x36x6 .f32 := Host.absf main_arg3
  let main_cst_0 : FVec F S_ .f32 := constant S_ .f32 0x7F800000#32
  let main_v5 : FVec F S2x36x6 .f32 := broadcastInDim S2x36x6 ![] bcast_S_S2x36x6 main_cst_0
  let main_v6 : IVec S2x36x6 1 := cmpf .olt main_v4 main_v5
  let main_c_1 : IVec S_ 1 := constantI S_ 1 1#1
  let main_v7 : IVec S_ 1 := (fun x v => Host.reduce IntOp.andi x v reducesTo_S2x36x6_S_d0_1_2 h_S_) main_v6 main_c_1
  let main_v8 : IVec S_ 1 := andi main_v3 main_v7
  let main_v9 : FVec F S2x36 .f32 := Host.absf main_arg4
  let main_cst_2 : FVec F S_ .f32 := constant S_ .f32 0x7F800000#32
  let main_v10 : FVec F S2x36 .f32 := broadcastInDim S2x36 ![] bcast_S_S2x36 main_cst_2
  let main_v11 : IVec S2x36 1 := cmpf .olt main_v9 main_v10
  let main_c_3 : IVec S_ 1 := constantI S_ 1 1#1
  let main_v12 : IVec S_ 1 := (fun x v => Host.reduce IntOp.andi x v reducesTo_S2x36_S_d0_1 h_S_) main_v11 main_c_3
  let main_v13 : IVec S_ 1 := andi main_v8 main_v12
  let main_v14 : FVec F S2x36x36 .f32 := Host.absf main_arg5
  let main_cst_4 : FVec F S_ .f32 := constant S_ .f32 0x7F800000#32
  let main_v15 : FVec F S2x36x36 .f32 := broadcastInDim S2x36x36 ![] bcast_S_S2x36x36 main_cst_4
  let main_v16 : IVec S2x36x36 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S2x100000x6 : Shape := ⟨3, ![2, 100000, 6]⟩
abbrev S2x2x1600000 : Shape := ⟨3, ![2, 2, 1600000]⟩
abbrev S2x100000 : Shape := ⟨2, ![2, 100000]⟩
abbrev S2x36x6 : Shape := ⟨3, ![2, 36, 6]⟩
abbrev S2x36 : Shape := ⟨2, ![2, 36]⟩
abbrev S2x36x36 : Shape := ⟨3, ![2, 36, 36]⟩
abbrev S2x3x36 : Shape := ⟨3, ![2, 3, 36]⟩
abbrev S54x72 : Shape := ⟨2, ![54, 72]⟩
abbrev S54 : Shape := ⟨1, ![54]⟩
abbrev S18x54 : Shape := ⟨2, ![18, 54]⟩
abbrev S18 : Shape := ⟨1, ![18]⟩
abbrev S1x18 : Shape := ⟨2, ![1, 18]⟩
abbrev S1 : Shape := ⟨1, ![1]⟩
abbrev S1x1x1600000 : Shape := ⟨3, ![1, 1, 1600000]⟩
abbrev S1600000 : Shape := ⟨1, ![1600000]⟩
abbrev S1x100000x6 : Shape := ⟨3, ![1, 100000, 6]⟩
abbrev S100000x6 : Shape := ⟨2, ![100000, 6]⟩
abbrev S_ : Shape := ⟨0, ![]⟩
abbrev S1600000x1 : Shape := ⟨2, ![1600000, 1]⟩
abbrev S1600000x6 : Shape := ⟨2, ![1600000, 6]⟩
abbrev S1x36x6 : Shape := ⟨3, ![1, 36, 6]⟩
abbrev S36x6 : Shape := ⟨2, ![36, 6]⟩
abbrev S1x36 : Shape := ⟨2, ![1, 36]⟩
abbrev S36 : Shape := ⟨1, ![36]⟩
abbrev S1x36x36 : Shape := ⟨3, ![1, 36, 36]⟩
abbrev S36x36 : Shape := ⟨2, ![36, 36]⟩
abbrev S6x36 : Shape := ⟨2, ![6, 36]⟩
abbrev S100000x36 : Shape := ⟨2, ![100000, 36]⟩
abbrev S160x36 : Shape := ⟨2, ![160, 36]⟩
abbrev S5000x6 : Shape := ⟨2, ![5000, 6]⟩
abbrev S5000x36 : Shape := ⟨2, ![5000, 36]⟩
abbrev S8x36 : Shape := ⟨2, ![8, 36]⟩
abbrev S1x1x36 : Shape := ⟨3, ![1, 1, 36]⟩
abbrev S1600000x36 : Shape := ⟨2, ![1600000, 36]⟩
abbrev S1x100000 : Shape := ⟨2, ![1, 100000]⟩
abbrev S100000 : Shape := ⟨1, ![100000]⟩
abbrev S100000x1 : Shape := ⟨2, ![100000, 1]⟩
abbrev S512x36 : Shape := ⟨2, ![512, 36]⟩
abbrev S2000x36 : Shape := ⟨2, ![2000, 36]⟩
abbrev S2000x1 : Shape := ⟨2, ![2000, 1]⟩
abbrev S2000x512 : Shape := ⟨2, ![2000, 512]⟩
abbrev S512 : Shape := ⟨1, ![512]⟩
abbrev S512x1 : Shape := ⟨2, ![512, 1]⟩
abbrev S512x72 : Shape := ⟨2, ![512, 72]⟩
abbrev S72x54 : Shape := ⟨2, ![72, 54]⟩
abbrev S512x54 : Shape := ⟨2, ![512, 54]⟩
abbrev S1x54 : Shape := ⟨2, ![1, 54]⟩
abbrev S54x18 : Shape := ⟨2, ![54, 18]⟩
abbrev S512x18 : Shape := ⟨2, ![512, 18]⟩
abbrev S18x1 : Shape := ⟨2, ![18, 1]⟩
abbrev S1x1 : Shape := ⟨2, ![1, 1]⟩

abbrev nBuf : Space → Nat
  | .hbm => 451
  | .vmem => 90
  | .smem => 0
  | _ => 0

abbrev hbmTy0_0 (i : Nat) : BufTy := match i % 128 with
  | 0 => ⟨S2x100000x6, .f32⟩
  | 1 => ⟨S2x2x1600000, .i32⟩
  | 2 => ⟨S2x100000, .i32⟩
  | 3 => ⟨S2x36x6, .f32⟩
  | 4 => ⟨S2x36, .f32⟩
  | 5 => ⟨S2x36x36, .f32⟩
  | 6 => ⟨S2x36, .f32⟩
  | 7 => ⟨S2x36x36, .f32⟩
  | 8 => ⟨S2x36, .f32⟩
  | 9 => ⟨S2x36x36, .f32⟩
  | 10 => ⟨S2x36, .f32⟩
  | 11 => ⟨S2x36x36, .f32⟩
  | 12 => ⟨S2x36, .f32⟩
  | 13 => ⟨S2x36x36, .f32⟩
  | 14 => ⟨S2x36, .f32⟩
  | 15 => ⟨S2x3x36, .f32⟩
  | 16 => ⟨S2x3x36, .f32⟩
  | 17 => ⟨S54x72, .f32⟩
  | 18 => ⟨S54, .f32⟩
  | 19 => ⟨S18x54, .f32⟩
  | 20 => ⟨S18, .f32⟩
  | 21 => ⟨S1x18, .f32⟩
  | 22 => ⟨S1, .f32⟩
  | 23 => ⟨S1x1x1600000, .i32⟩
  | 24 => ⟨S1600000, .i32⟩
  | 25 => ⟨S1x1x1600000, .i32⟩
  | 26 => ⟨S1600000, .i32⟩
  | 27 => ⟨S1x100000x6, .f32⟩
  | 28 => ⟨S100000x6, .f32⟩
  | 29 => ⟨S100000x6, .bf16⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x6, .bf16⟩
  | 39 => ⟨S1600000x6, .f32⟩
  | 40 => ⟨S_, .f32⟩
  | 41 => ⟨S100000x6, .f32⟩
  | 42 => ⟨S1600000x1, .i32⟩
  | 43 => ⟨S100000x6, .f32⟩
  | 44 => ⟨S100000x6, .f32⟩
  | 45 => ⟨S1x36x6, .f32⟩
  | 46 => ⟨S36x6, .f32⟩
  | 47 => ⟨S1x36, .f32⟩
  | 48 => ⟨S36, .f32⟩
  | 49 => ⟨S1x36x36, .f32⟩
  | 50 => ⟨S36x36, .f32⟩
  | 51 => ⟨S1x36, .f32⟩
  | 52 => ⟨S36, .f32⟩
  | 53 => ⟨S6x36, .f32⟩
  | 54 => ⟨S36x36, .f32⟩
  | 55 => ⟨S1x36, .f32⟩
  | 56 => ⟨S1x36, .f32⟩
  | 57 => ⟨S100000x36, .f32⟩
  | 58 => ⟨S160x36, .f32⟩
  | 59 => ⟨S160x36, .f32⟩
  | 60 => ⟨S_, .f32⟩
  | 61 => ⟨S36, .f32⟩
  | 62 => ⟨S_, .f32⟩
  | 63 => ⟨S36, .f32⟩
  | 64 => ⟨S_, .f32⟩
  | 65 => ⟨S36, .f32⟩
  | 66 => ⟨S36, .f32⟩
  | 67 => ⟨S_, .f32⟩
  | 68 => ⟨S36, .f32⟩
  | 69 => ⟨S36, .f32⟩
  | 70 => ⟨S36, .f32⟩
  | 71 => ⟨S36, .f32⟩
  | 72 => ⟨S1x1x36, .f32⟩
  | 73 => ⟨S36, .f32⟩
  | 74 => ⟨S1x1x36, .f32⟩
  | 75 => ⟨S36, .f32⟩
  | 76 => ⟨S_, .f32⟩
  | 77 => ⟨S36, .f32⟩
  | 78 => ⟨S36, .f32⟩
  | 79 => ⟨S36, .f32⟩
  | 80 => ⟨S1x36, .f32⟩
  | 81 => ⟨S1x36, .f32⟩
  | 82 => ⟨S100000x36, .f32⟩
  | 83 => ⟨S100000x36, .f32⟩
  | 84 => ⟨S100000x36, .f32⟩
  | 85 => ⟨S100000x36, .f32⟩
  | 86 => ⟨S1x36, .f32⟩
  | 87 => ⟨S100000x36, .f32⟩
  | 88 => ⟨S100000x36, .f32⟩
  | 89 => ⟨S1x36, .f32⟩
  | 90 => ⟨S100000x36, .f32⟩
  | 91 => ⟨S100000x36, .f32⟩
  | 92 => ⟨S100000x36, .bf16⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x36, .bf16⟩
  | 102 => ⟨S1600000x36, .f32⟩
  | 103 => ⟨S_, .f32⟩
  | 104 => ⟨S100000x36, .f32⟩
  | 105 => ⟨S1600000x1, .i32⟩
  | 106 => ⟨S100000x36, .f32⟩
  | 107 => ⟨S100000x36, .f32⟩
  | 108 => ⟨S1x36x36, .f32⟩
  | 109 => ⟨S36x36, .f32⟩
  | 110 => ⟨S1x36, .f32⟩
  | 111 => ⟨S36, .f32⟩
  | 112 => ⟨S1x36x36, .f32⟩
  | 113 => ⟨S36x36, .f32⟩
  | 114 => ⟨S1x36, .f32⟩
  | 115 => ⟨S36, .f32⟩
  | 116 => ⟨S36x36, .f32⟩
  | 117 => ⟨S36x36, .f32⟩
  | 118 => ⟨S1x36, .f32⟩
  | 119 => ⟨S1x36, .f32⟩
  | 120 => ⟨S100000x36, .f32⟩
  | 121 => ⟨S160x36, .f32⟩
  | 122 => ⟨S160x36, .f32⟩
  | 123 => ⟨S_, .f32⟩
  | 124 => ⟨S36, .f32⟩
  | 125 => ⟨S_, .f32⟩
  | 126 => ⟨S36, .f32⟩
  | 127 => ⟨S_, .f32⟩
  | _ => ⟨S2x100000x6, .f32⟩

abbrev hbmTy0_1 (i : Nat) : BufTy := match i % 128 with
  | 0 => ⟨S36, .f32⟩
  | 1 => ⟨S36, .f32⟩
  | 2 => ⟨S_, .f32⟩
  | 3 => ⟨S36, .f32⟩
  | 4 => ⟨S36, .f32⟩
  | 5 => ⟨S36, .f32⟩
  | 6 => ⟨S36, .f32⟩
  | 7 => ⟨S1x1x36, .f32⟩
  | 8 => ⟨S36, .f32⟩
  | 9 => ⟨S1x1x36, .f32⟩
  | 10 => ⟨S36, .f32⟩
  | 11 => ⟨S_, .f32⟩
  | 12 => ⟨S36, .f32⟩
  | 13 => ⟨S36, .f32⟩
  | 14 => ⟨S36, .f32⟩
  | 15 => ⟨S1x36, .f32⟩
  | 16 => ⟨S1x36, .f32⟩
  | 17 => ⟨S100000x36, .f32⟩
  | 18 => ⟨S100000x36, .f32⟩
  | 19 => ⟨S100000x36, .f32⟩
  | 20 => ⟨S100000x36, .f32⟩
  | 21 => ⟨S1x36, .f32⟩
  | 22 => ⟨S100000x36, .f32⟩
  | 23 => ⟨S100000x36, .f32⟩
  | 24 => ⟨S1x36, .f32⟩
  | 25 => ⟨S100000x36, .f32⟩
  | 26 => ⟨S100000x36, .f32⟩
  | 27 => ⟨S100000x36, .bf16⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x36, .bf16⟩
  | 37 => ⟨S1600000x36, .f32⟩
  | 38 => ⟨S_, .f32⟩
  | 39 => ⟨S100000x36, .f32⟩
  | 40 => ⟨S1600000x1, .i32⟩
  | 41 => ⟨S100000x36, .f32⟩
  | 42 => ⟨S100000x36, .f32⟩
  | 43 => ⟨S1x36x36, .f32⟩
  | 44 => ⟨S36x36, .f32⟩
  | 45 => ⟨S1x36, .f32⟩
  | 46 => ⟨S36, .f32⟩
  | 47 => ⟨S1x36x36, .f32⟩
  | 48 => ⟨S36x36, .f32⟩
  | 49 => ⟨S1x36, .f32⟩
  | 50 => ⟨S36, .f32⟩
  | 51 => ⟨S36x36, .f32⟩
  | 52 => ⟨S36x36, .f32⟩
  | 53 => ⟨S1x36, .f32⟩
  | 54 => ⟨S1x36, .f32⟩
  | 55 => ⟨S100000x36, .f32⟩
  | 56 => ⟨S160x36, .f32⟩
  | 57 => ⟨S160x36, .f32⟩
  | 58 => ⟨S_, .f32⟩
  | 59 => ⟨S36, .f32⟩
  | 60 => ⟨S_, .f32⟩
  | 61 => ⟨S36, .f32⟩
  | 62 => ⟨S_, .f32⟩
  | 63 => ⟨S36, .f32⟩
  | 64 => ⟨S36, .f32⟩
  | 65 => ⟨S_, .f32⟩
  | 66 => ⟨S36, .f32⟩
  | 67 => ⟨S36, .f32⟩
  | 68 => ⟨S36, .f32⟩
  | 69 => ⟨S36, .f32⟩
  | 70 => ⟨S1x1x36, .f32⟩
  | 71 => ⟨S36, .f32⟩
  | 72 => ⟨S1x1x36, .f32⟩
  | 73 => ⟨S36, .f32⟩
  | 74 => ⟨S1x100000, .i32⟩
  | 75 => ⟨S100000, .i32⟩
  | 76 => ⟨S100000x1, .i32⟩
  | 77 => ⟨S1x36, .f32⟩
  | 78 => ⟨S1x36, .f32⟩
  | 79 => ⟨S1x36, .f32⟩
  | 80 => ⟨S1x36, .f32⟩
  | 81 => ⟨S512x36, .f32⟩
  | 82 => ⟨S_, .f32⟩
  | 83 => ⟨S100000, .f32⟩
  | 84 => ⟨S_, .f32⟩
  | 85 => ⟨S512, .f32⟩
  | 86 => ⟨S100000x1, .i32⟩
  | 87 => ⟨S512, .f32⟩
  | 88 => ⟨S_, .f32⟩
  | 89 => ⟨S512, .f32⟩
  | 90 => ⟨S512, .f32⟩
  | 91 => ⟨S512x1, .f32⟩
  | 92 => ⟨S512x36, .f32⟩
  | 93 => ⟨S512x36, .f32⟩
  | 94 => ⟨S1x1x1600000, .i32⟩
  | 95 => ⟨S1600000, .i32⟩
  | 96 => ⟨S1x1x1600000, .i32⟩
  | 97 => ⟨S1600000, .i32⟩
  | 98 => ⟨S1x100000x6, .f32⟩
  | 99 => ⟨S100000x6, .f32⟩
  | 100 => ⟨S100000x6, .bf16⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000x6, .bf16⟩
  | 110 => ⟨S1600000x6, .f32⟩
  | 111 => ⟨S_, .f32⟩
  | 112 => ⟨S100000x6, .f32⟩
  | 113 => ⟨S1600000x1, .i32⟩
  | 114 => ⟨S100000x6, .f32⟩
  | 115 => ⟨S100000x6, .f32⟩
  | 116 => ⟨S1x36x6, .f32⟩
  | 117 => ⟨S36x6, .f32⟩
  | 118 => ⟨S1x36, .f32⟩
  | 119 => ⟨S36, .f32⟩
  | 120 => ⟨S1x36x36, .f32⟩
  | 121 => ⟨S36x36, .f32⟩
  | 122 => ⟨S1x36, .f32⟩
  | 123 => ⟨S36, .f32⟩
  | 124 => ⟨S6x36, .f32⟩
  | 125 => ⟨S36x36, .f32⟩
  | 126 => ⟨S1x36, .f32⟩
  | 127 => ⟨S1x36, .f32⟩
  | _ => ⟨S2x100000x6, .f32⟩

abbrev hbmTy0_2 (i : Nat) : BufTy := match i % 128 with
  | 0 => ⟨S100000x36, .f32⟩
  | 1 => ⟨S160x36, .f32⟩
  | 2 => ⟨S160x36, .f32⟩
  | 3 => ⟨S_, .f32⟩
  | 4 => ⟨S36, .f32⟩
  | 5 => ⟨S_, .f32⟩
  | 6 => ⟨S36, .f32⟩
  | 7 => ⟨S_, .f32⟩
  | 8 => ⟨S36, .f32⟩
  | 9 => ⟨S36, .f32⟩
  | 10 => ⟨S_, .f32⟩
  | 11 => ⟨S36, .f32⟩
  | 12 => ⟨S36, .f32⟩
  | 13 => ⟨S36, .f32⟩
  | 14 => ⟨S36, .f32⟩
  | 15 => ⟨S1x1x36, .f32⟩
  | 16 => ⟨S36, .f32⟩
  | 17 => ⟨S1x1x36, .f32⟩
  | 18 => ⟨S36, .f32⟩
  | 19 => ⟨S_, .f32⟩
  | 20 => ⟨S36, .f32⟩
  | 21 => ⟨S36, .f32⟩
  | 22 => ⟨S36, .f32⟩
  | 23 => ⟨S1x36, .f32⟩
  | 24 => ⟨S1x36, .f32⟩
  | 25 => ⟨S100000x36, .f32⟩
  | 26 => ⟨S100000x36, .f32⟩
  | 27 => ⟨S100000x36, .f32⟩
  | 28 => ⟨S100000x36, .f32⟩
  | 29 => ⟨S1x36, .f32⟩
  | 30 => ⟨S100000x36, .f32⟩
  | 31 => ⟨S100000x36, .f32⟩
  | 32 => ⟨S1x36, .f32⟩
  | 33 => ⟨S100000x36, .f32⟩
  | 34 => ⟨S100000x36, .f32⟩
  | 35 => ⟨S100000x36, .bf16⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x36, .bf16⟩
  | 45 => ⟨S1600000x36, .f32⟩
  | 46 => ⟨S_, .f32⟩
  | 47 => ⟨S100000x36, .f32⟩
  | 48 => ⟨S1600000x1, .i32⟩
  | 49 => ⟨S100000x36, .f32⟩
  | 50 => ⟨S100000x36, .f32⟩
  | 51 => ⟨S1x36x36, .f32⟩
  | 52 => ⟨S36x36, .f32⟩
  | 53 => ⟨S1x36, .f32⟩
  | 54 => ⟨S36, .f32⟩
  | 55 => ⟨S1x36x36, .f32⟩
  | 56 => ⟨S36x36, .f32⟩
  | 57 => ⟨S1x36, .f32⟩
  | 58 => ⟨S36, .f32⟩
  | 59 => ⟨S36x36, .f32⟩
  | 60 => ⟨S36x36, .f32⟩
  | 61 => ⟨S1x36, .f32⟩
  | 62 => ⟨S1x36, .f32⟩
  | 63 => ⟨S100000x36, .f32⟩
  | 64 => ⟨S160x36, .f32⟩
  | 65 => ⟨S160x36, .f32⟩
  | 66 => ⟨S_, .f32⟩
  | 67 => ⟨S36, .f32⟩
  | 68 => ⟨S_, .f32⟩
  | 69 => ⟨S36, .f32⟩
  | 70 => ⟨S_, .f32⟩
  | 71 => ⟨S36, .f32⟩
  | 72 => ⟨S36, .f32⟩
  | 73 => ⟨S_, .f32⟩
  | 74 => ⟨S36, .f32⟩
  | 75 => ⟨S36, .f32⟩
  | 76 => ⟨S36, .f32⟩
  | 77 => ⟨S36, .f32⟩
  | 78 => ⟨S1x1x36, .f32⟩
  | 79 => ⟨S36, .f32⟩
  | 80 => ⟨S1x1x36, .f32⟩
  | 81 => ⟨S36, .f32⟩
  | 82 => ⟨S_, .f32⟩
  | 83 => ⟨S36, .f32⟩
  | 84 => ⟨S36, .f32⟩
  | 85 => ⟨S36, .f32⟩
  | 86 => ⟨S1x36, .f32⟩
  | 87 => ⟨S1x36, .f32⟩
  | 88 => ⟨S100000x36, .f32⟩
  | 89 => ⟨S100000x36, .f32⟩
  | 90 => ⟨S100000x36, .f32⟩
  | 91 => ⟨S100000x36, .f32⟩
  | 92 => ⟨S1x36, .f32⟩
  | 93 => ⟨S100000x36, .f32⟩
  | 94 => ⟨S100000x36, .f32⟩
  | 95 => ⟨S1x36, .f32⟩
  | 96 => ⟨S100000x36, .f32⟩
  | 97 => ⟨S100000x36, .f32⟩
  | 98 => ⟨S100000x36, .bf16⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x36, .bf16⟩
  | 108 => ⟨S1600000x36, .f32⟩
  | 109 => ⟨S_, .f32⟩
  | 110 => ⟨S100000x36, .f32⟩
  | 111 => ⟨S1600000x1, .i32⟩
  | 112 => ⟨S100000x36, .f32⟩
  | 113 => ⟨S100000x36, .f32⟩
  | 114 => ⟨S1x36x36, .f32⟩
  | 115 => ⟨S36x36, .f32⟩
  | 116 => ⟨S1x36, .f32⟩
  | 117 => ⟨S36, .f32⟩
  | 118 => ⟨S1x36x36, .f32⟩
  | 119 => ⟨S36x36, .f32⟩
  | 120 => ⟨S1x36, .f32⟩
  | 121 => ⟨S36, .f32⟩
  | 122 => ⟨S36x36, .f32⟩
  | 123 => ⟨S36x36, .f32⟩
  | 124 => ⟨S1x36, .f32⟩
  | 125 => ⟨S1x36, .f32⟩
  | 126 => ⟨S100000x36, .f32⟩
  | 127 => ⟨S160x36, .f32⟩
  | _ => ⟨S2x100000x6, .f32⟩

abbrev hbmTy0_3 (i : Nat) : BufTy := match i % 128 with
  | 0 => ⟨S160x36, .f32⟩
  | 1 => ⟨S_, .f32⟩
  | 2 => ⟨S36, .f32⟩
  | 3 => ⟨S_, .f32⟩
  | 4 => ⟨S36, .f32⟩
  | 5 => ⟨S_, .f32⟩
  | 6 => ⟨S36, .f32⟩
  | 7 => ⟨S36, .f32⟩
  | 8 => ⟨S_, .f32⟩
  | 9 => ⟨S36, .f32⟩
  | 10 => ⟨S36, .f32⟩
  | 11 => ⟨S36, .f32⟩
  | 12 => ⟨S36, .f32⟩
  | 13 => ⟨S1x1x36, .f32⟩
  | 14 => ⟨S36, .f32⟩
  | 15 => ⟨S1x1x36, .f32⟩
  | 16 => ⟨S36, .f32⟩
  | 17 => ⟨S1x100000, .i32⟩
  | 18 => ⟨S100000, .i32⟩
  | 19 => ⟨S100000x1, .i32⟩
  | 20 => ⟨S1x36, .f32⟩
  | 21 => ⟨S1x36, .f32⟩
  | 22 => ⟨S1x36, .f32⟩
  | 23 => ⟨S1x36, .f32⟩
  | 24 => ⟨S512x36, .f32⟩
  | 25 => ⟨S_, .f32⟩
  | 26 => ⟨S100000, .f32⟩
  | 27 => ⟨S_, .f32⟩
  | 28 => ⟨S512, .f32⟩
  | 29 => ⟨S100000x1, .i32⟩
  | 30 => ⟨S512, .f32⟩
  | 31 => ⟨S_, .f32⟩
  | 32 => ⟨S512, .f32⟩
  | 33 => ⟨S512, .f32⟩
  | 34 => ⟨S512x1, .f32⟩
  | 35 => ⟨S512x36, .f32⟩
  | 36 => ⟨S512x36, .f32⟩
  | 37 => ⟨S512x72, .f32⟩
  | 38 => ⟨S72x54, .f32⟩
  | 39 => ⟨S512x54, .f32⟩
  | 40 => ⟨S1x54, .f32⟩
  | 41 => ⟨S512x54, .f32⟩
  | 42 => ⟨S512x54, .f32⟩
  | 43 => ⟨S_, .f32⟩
  | 44 => ⟨S512x54, .f32⟩
  | 45 => ⟨S512x54, .f32⟩
  | 46 => ⟨S54x18, .f32⟩
  | 47 => ⟨S512x18, .f32⟩
  | 48 => ⟨S1x18, .f32⟩
  | 49 => ⟨S512x18, .f32⟩
  | 50 => ⟨S512x18, .f32⟩
  | 51 => ⟨S_, .f32⟩
  | 52 => ⟨S512x18, .f32⟩
  | 53 => ⟨S512x18, .f32⟩
  | 54 => ⟨S18x1, .f32⟩
  | 55 => ⟨S512x1, .f32⟩
  | 56 => ⟨S1x1, .f32⟩
  | 57 => ⟨S512x1, .f32⟩
  | 58 => ⟨S512x1, .f32⟩
  | 59 => ⟨S512x1, .f32⟩
  | 60 => ⟨S512x1, .f32⟩
  | 61 => ⟨S_, .f32⟩
  | 62 => ⟨S512x1, .f32⟩
  | 63 => ⟨S512x1, .f32⟩
  | 64 => ⟨S_, .f32⟩
  | 65 => ⟨S512x1, .f32⟩
  | 66 => ⟨S512x1, .f32⟩
  | _ => ⟨S2x100000x6, .f32⟩

abbrev hbmTy (i : Nat) : BufTy := match i / 128 with
  | 0 => hbmTy0_0 i
  | 1 => hbmTy0_1 i
  | 2 => hbmTy0_2 i
  | 3 => hbmTy0_3 i
  | _ => ⟨S2x100000x6, .f32⟩

abbrev bufTy : (tb : Table) → Fin (tcTables nBuf tb) → BufTy
  | .hbm, ⟨i, _⟩ => hbmTy i
  | .local _ .vmem, ⟨0, _⟩ => ⟨S5000x6, .f32⟩
  | .local _ .vmem, ⟨1, _⟩ => ⟨S5000x6, .f32⟩
  | .local _ .vmem, ⟨2, _⟩ => ⟨S6x36, .f32⟩
  | .local _ .vmem, ⟨3, _⟩ => ⟨S1x36, .f32⟩
  | .local _ .vmem, ⟨4, _⟩ => ⟨S36x36, .f32⟩
  | .local _ .vmem, ⟨5, _⟩ => ⟨S1x36, .f32⟩
  | .local _ .vmem, ⟨6, _⟩ => ⟨S5000x36, .f32⟩
  | .local _ .vmem, ⟨7, _⟩ => ⟨S5000x36, .f32⟩
  | .local _ .vmem, ⟨8, _⟩ => ⟨S8x36, .f32⟩
  | .local _ .vmem, ⟨9, _⟩ => ⟨S8x36, .f32⟩
  | .local _ .vmem, ⟨10, _⟩ => ⟨S8x36, .f32⟩
  | .local _ .vmem, ⟨11, _⟩ => ⟨S8x36, .f32⟩
  | .local _ .vmem, ⟨12, _⟩ => ⟨S5000x36, .f32⟩
  | .local _ .vmem, ⟨13, _⟩ => ⟨S5000x36, .f32⟩
  | .local _ .vmem, ⟨14, _⟩ => ⟨S36x36, .f32⟩
  | .local _ .vmem, ⟨15, _⟩ => ⟨S1x36, .f32⟩
  | .local _ .vmem, ⟨16, _⟩ => ⟨S36x36, .f32⟩
  | .local _ .vmem, ⟨17, _⟩ => ⟨S1x36, .f32⟩
  | .local _ .vmem, ⟨18, _⟩ => ⟨S5000x36, .f32⟩
  | .local _ .vmem, ⟨19, _⟩ => ⟨S5000x36, .f32⟩
  | .local _ .vmem, ⟨20, _⟩ => ⟨S8x36, .f32⟩
  | .local _ .vmem, ⟨21, _⟩ => ⟨S8x36, .f32⟩
  | .local _ .vmem, ⟨22, _⟩ => ⟨S8x36, .f32⟩
  | .local _ .vmem, ⟨23, _⟩ => ⟨S8x36, .f32⟩
  | .local _ .vmem, ⟨24, _⟩ => ⟨S5000x36, .f32⟩
  | .local _ .vmem, ⟨25, _⟩ => ⟨S5000x36, .f32⟩
  | .local _ .vmem, ⟨26, _⟩ => ⟨S36x36, .f32⟩
  | .local _ .vmem, ⟨27, _⟩ => ⟨S1x36, .f32⟩
  | .local _ .vmem, ⟨28, _⟩ => ⟨S36x36, .f32⟩
  | .local _ .vmem, ⟨29, _⟩ => ⟨S1x36, .f32⟩
  | .local _ .vmem, ⟨30, _⟩ => ⟨S5000x36, .f32⟩
  | .local _ .vmem, ⟨31, _⟩ => ⟨S5000x36, .f32⟩
  | .local _ .vmem, ⟨32, _⟩ => ⟨S8x36, .f32⟩
  | .local _ .vmem, ⟨33, _⟩ => ⟨S8x36, .f32⟩
  | .local _ .vmem, ⟨34, _⟩ => ⟨S8x36, .f32⟩
  | .local _ .vmem, ⟨35, _⟩ => ⟨S8x36, .f32⟩
  | .local _ .vmem, ⟨36, _⟩ => ⟨S2000x36, .f32⟩
  | .local _ .vmem, ⟨37, _⟩ => ⟨S2000x36, .f32⟩
  | .local _ .vmem, ⟨38, _⟩ => ⟨S1x36, .f32⟩
  | .local _ .vmem, ⟨39, _⟩ => ⟨S1x36, .f32⟩
  | .local _ .vmem, ⟨40, _⟩ => ⟨S1x36, .f32⟩
  | .local _ .vmem, ⟨41, _⟩ => ⟨S1x36, .f32⟩
  | .local _ .vmem, ⟨42, _⟩ => ⟨S2000x1, .i32⟩
  | .local _ .vmem, ⟨43, _⟩ => ⟨S2000x1, .i32⟩
  | .local _ .vmem, ⟨44, _⟩ => ⟨S512x36, .f32⟩
  | .local _ .vmem, ⟨45, _⟩ => ⟨S5000x6, .f32⟩
  | .local _ .vmem, ⟨46, _⟩ => ⟨S5000x6, .f32⟩
  | .local _ .vmem, ⟨47, _⟩ => ⟨S6x36, .f32⟩
  | .local _ .vmem, ⟨48, _⟩ => ⟨S1x36, .f32⟩
  | .local _ .vmem, ⟨49, _⟩ => ⟨S36x36, .f32⟩
  | .local _ .vmem, ⟨50, _⟩ => ⟨S1x36, .f32⟩
  | .local _ .vmem, ⟨51, _⟩ => ⟨S5000x36, .f32⟩
  | .local _ .vmem, ⟨52, _⟩ => ⟨S5000x36, .f32⟩
  | .local _ .vmem, ⟨53, _⟩ => ⟨S8x36, .f32⟩
  | .local _ .vmem, ⟨54, _⟩ => ⟨S8x36, .f32⟩
  | .local _ .vmem, ⟨55, _⟩ => ⟨S8x36, .f32⟩
  | .local _ .vmem, ⟨56, _⟩ => ⟨S8x36, .f32⟩
  | .local _ .vmem, ⟨57, _⟩ => ⟨S5000x36, .f32⟩
  | .local _ .vmem, ⟨58, _⟩ => ⟨S5000x36, .f32⟩
  | .local _ .vmem, ⟨59, _⟩ => ⟨S36x36, .f32⟩
  | .local _ .vmem, ⟨60, _⟩ => ⟨S1x36, .f32⟩
  | .local _ .vmem, ⟨61, _⟩ => ⟨S36x36, .f32⟩
  | .local _ .vmem, ⟨62, _⟩ => ⟨S1x36, .f32⟩
  | .local _ .vmem, ⟨63, _⟩ => ⟨S5000x36, .f32⟩
  | .local _ .vmem, ⟨64, _⟩ => ⟨S5000x36, .f32⟩
  | .local _ .vmem, ⟨65, _⟩ => ⟨S8x36, .f32⟩
  | .local _ .vmem, ⟨66, _⟩ => ⟨S8x36, .f32⟩
  | .local _ .vmem, ⟨67, _⟩ => ⟨S8x36, .f32⟩
  | .local _ .vmem, ⟨68, _⟩ => ⟨S8x36, .f32⟩
  | .local _ .vmem, ⟨69, _⟩ => ⟨S5000x36, .f32⟩
  | .local _ .vmem, ⟨70, _⟩ => ⟨S5000x36, .f32⟩
  | .local _ .vmem, ⟨71, _⟩ => ⟨S36x36, .f32⟩
  | .local _ .vmem, ⟨72, _⟩ => ⟨S1x36, .f32⟩
  | .local _ .vmem, ⟨73, _⟩ => ⟨S36x36, .f32⟩
  | .local _ .vmem, ⟨74, _⟩ => ⟨S1x36, .f32⟩
  | .local _ .vmem, ⟨75, _⟩ => ⟨S5000x36, .f32⟩
  | .local _ .vmem, ⟨76, _⟩ => ⟨S5000x36, .f32⟩
  | .local _ .vmem, ⟨77, _⟩ => ⟨S8x36, .f32⟩
  | .local _ .vmem, ⟨78, _⟩ => ⟨S8x36, .f32⟩
  | .local _ .vmem, ⟨79, _⟩ => ⟨S8x36, .f32⟩
  | .local _ .vmem, ⟨80, _⟩ => ⟨S8x36, .f32⟩
  | .local _ .vmem, ⟨81, _⟩ => ⟨S2000x36, .f32⟩
  | .local _ .vmem, ⟨82, _⟩ => ⟨S2000x36, .f32⟩
  | .local _ .vmem, ⟨83, _⟩ => ⟨S1x36, .f32⟩
  | .local _ .vmem, ⟨84, _⟩ => ⟨S1x36, .f32⟩
  | .local _ .vmem, ⟨85, _⟩ => ⟨S1x36, .f32⟩
  | .local _ .vmem, ⟨86, _⟩ => ⟨S1x36, .f32⟩
  | .local _ .vmem, ⟨87, _⟩ => ⟨S2000x1, .i32⟩
  | .local _ .vmem, ⟨88, _⟩ => ⟨S2000x1, .i32⟩
  | .local _ .vmem, ⟨89, _⟩ => ⟨S512x36, .f32⟩
  | _, _ => ⟨S2x100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c : Ref sig .tc := ⟨.hbm, 30, rfl⟩
abbrev main_v7 : Ref sig .tc := ⟨.hbm, 31, rfl⟩
abbrev main_v8 : Ref sig .tc := ⟨.hbm, 32, rfl⟩
abbrev main_c_0 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31_0 : Ref sig .tc := ⟨.hbm, 57, rfl⟩
abbrev main_v31_1 : Ref sig .tc := ⟨.hbm, 58, rfl⟩
abbrev main_v31_2 : Ref sig .tc := ⟨.hbm, 59, rfl⟩
abbrev main_cst_1 : Ref sig .tc := ⟨.hbm, 60, rfl⟩
abbrev main_v32 : Ref sig .tc := ⟨.hbm, 61, rfl⟩
abbrev main_cst_2 : Ref sig .tc := ⟨.hbm, 62, rfl⟩
abbrev main_v33 : Ref sig .tc := ⟨.hbm, 63, rfl⟩
abbrev main_cst_3 : Ref sig .tc := ⟨.hbm, 64, rfl⟩
abbrev main_v34 : Ref sig .tc := ⟨.hbm, 65, rfl⟩
abbrev main_v35 : Ref sig .tc := ⟨.hbm, 66, rfl⟩
abbrev main_cst_4 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_5 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_c_6 : Ref sig .tc := ⟨.hbm, 93, rfl⟩
abbrev main_v60 : Ref sig .tc := ⟨.hbm, 94, rfl⟩
abbrev main_v61 : Ref sig .tc := ⟨.hbm, 95, rfl⟩
abbrev main_c_7 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_8 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84_0 : Ref sig .tc := ⟨.hbm, 120, rfl⟩
abbrev main_v84_1 : Ref sig .tc := ⟨.hbm, 121, rfl⟩
abbrev main_v84_2 : Ref sig .tc := ⟨.hbm, 122, rfl⟩
abbrev main_cst_9 : Ref sig .tc := ⟨.hbm, 123, rfl⟩
abbrev main_v85 : Ref sig .tc := ⟨.hbm, 124, rfl⟩
abbrev main_cst_10 : Ref sig .tc := ⟨.hbm, 125, rfl⟩
abbrev main_v86 : Ref sig .tc := ⟨.hbm, 126, rfl⟩
abbrev main_cst_11 : Ref sig .tc := ⟨.hbm, 127, rfl⟩
abbrev main_v87 : Ref sig .tc := ⟨.hbm, 128, rfl⟩
abbrev main_v88 : Ref sig .tc := ⟨.hbm, 129, rfl⟩
abbrev main_cst_12 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_13 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_c_14 : Ref sig .tc := ⟨.hbm, 156, rfl⟩
abbrev main_v113 : Ref sig .tc := ⟨.hbm, 157, rfl⟩
abbrev main_v114 : Ref sig .tc := ⟨.hbm, 158, rfl⟩
abbrev main_c_15 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_cst_16 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137_0 : Ref sig .tc := ⟨.hbm, 183, rfl⟩
abbrev main_v137_1 : Ref sig .tc := ⟨.hbm, 184, rfl⟩
abbrev main_v137_2 : Ref sig .tc := ⟨.hbm, 185, rfl⟩
abbrev main_cst_17 : Ref sig .tc := ⟨.hbm, 186, rfl⟩
abbrev main_v138 : Ref sig .tc := ⟨.hbm, 187, rfl⟩
abbrev main_cst_18 : Ref sig .tc := ⟨.hbm, 188, rfl⟩
abbrev main_v139 : Ref sig .tc := ⟨.hbm, 189, rfl⟩
abbrev main_cst_19 : Ref sig .tc := ⟨.hbm, 190, rfl⟩
abbrev main_v140 : Ref sig .tc := ⟨.hbm, 191, rfl⟩
abbrev main_v141 : Ref sig .tc := ⟨.hbm, 192, rfl⟩
abbrev main_cst_20 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_cst_21 : Ref sig .tc := ⟨.hbm, 210, rfl⟩
abbrev main_v158 : Ref sig .tc := ⟨.hbm, 211, rfl⟩
abbrev main_cst_22 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_cst_23 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_c_24 : Ref sig .tc := ⟨.hbm, 229, rfl⟩
abbrev main_v174 : Ref sig .tc := ⟨.hbm, 230, rfl⟩
abbrev main_v175 : Ref sig .tc := ⟨.hbm, 231, rfl⟩
abbrev main_c_25 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_cst_26 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198_0 : Ref sig .tc := ⟨.hbm, 256, rfl⟩
abbrev main_v198_1 : Ref sig .tc := ⟨.hbm, 257, rfl⟩
abbrev main_v198_2 : Ref sig .tc := ⟨.hbm, 258, rfl⟩
abbrev main_cst_27 : Ref sig .tc := ⟨.hbm, 259, rfl⟩
abbrev main_v199 : Ref sig .tc := ⟨.hbm, 260, rfl⟩
abbrev main_cst_28 : Ref sig .tc := ⟨.hbm, 261, rfl⟩
abbrev main_v200 : Ref sig .tc := ⟨.hbm, 262, rfl⟩
abbrev main_cst_29 : Ref sig .tc := ⟨.hbm, 263, rfl⟩
abbrev main_v201 : Ref sig .tc := ⟨.hbm, 264, rfl⟩
abbrev main_v202 : Ref sig .tc := ⟨.hbm, 265, rfl⟩
abbrev main_cst_30 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩
abbrev main_v210 : Ref sig .tc := ⟨.hbm, 274, rfl⟩
abbrev main_cst_31 : Ref sig .tc := ⟨.hbm, 275, rfl⟩
abbrev main_v211 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_v222 : Ref sig .tc := ⟨.hbm, 287, rfl⟩
abbrev main_v223 : Ref sig .tc := ⟨.hbm, 288, rfl⟩
abbrev main_v224 : Ref sig .tc := ⟨.hbm, 289, rfl⟩
abbrev main_v225 : Ref sig .tc := ⟨.hbm, 290, rfl⟩
abbrev main_v226 : Ref sig .tc := ⟨.hbm, 291, rfl⟩
abbrev main_c_32 : Ref sig .tc := ⟨.hbm, 292, rfl⟩
abbrev main_v227 : Ref sig .tc := ⟨.hbm, 293, rfl⟩
abbrev main_v228 : Ref sig .tc := ⟨.hbm, 294, rfl⟩
abbrev main_c_33 : Ref sig .tc := ⟨.hbm, 295, rfl⟩
abbrev main_v229 : Ref sig .tc := ⟨.hbm, 296, rfl⟩
abbrev main_v230 : Ref sig .tc := ⟨.hbm, 297, rfl⟩
abbrev main_v231 : Ref sig .tc := ⟨.hbm, 298, rfl⟩
abbrev main_v232 : Ref sig .tc := ⟨.hbm, 299, rfl⟩
abbrev main_v233 : Ref sig .tc := ⟨.hbm, 300, rfl⟩
abbrev main_v234 : Ref sig .tc := ⟨.hbm, 301, rfl⟩
abbrev main_cst_34 : Ref sig .tc := ⟨.hbm, 302, rfl⟩
abbrev main_v235 : Ref sig .tc := ⟨.hbm, 303, rfl⟩
abbrev main_v236 : Ref sig .tc := ⟨.hbm, 304, rfl⟩
abbrev main_v237 : Ref sig .tc := ⟨.hbm, 305, rfl⟩
abbrev main_v238 : Ref sig .tc := ⟨.hbm, 306, rfl⟩
abbrev main_v239 : Ref sig .tc := ⟨.hbm, 307, rfl⟩
abbrev main_v240 : Ref sig .tc := ⟨.hbm, 308, rfl⟩
abbrev main_v241 : Ref sig .tc := ⟨.hbm, 309, rfl⟩
abbrev main_v242 : Ref sig .tc := ⟨.hbm, 310, rfl⟩
abbrev main_v243 : Ref sig .tc := ⟨.hbm, 311, rfl⟩
abbrev main_v244 : Ref sig .tc := ⟨.hbm, 312, rfl⟩
abbrev main_v245 : Ref sig .tc := ⟨.hbm, 313, rfl⟩
abbrev main_v246 : Ref sig .tc := ⟨.hbm, 314, rfl⟩
abbrev main_v247 : Ref sig .tc := ⟨.hbm, 315, rfl⟩
abbrev main_v248 : Ref sig .tc := ⟨.hbm, 316, rfl⟩
abbrev main_v249 : Ref sig .tc := ⟨.hbm, 317, rfl⟩
abbrev main_v250 : Ref sig .tc := ⟨.hbm, 318, rfl⟩
abbrev main_v251_0 : Ref sig .tc := ⟨.hbm, 319, rfl⟩
abbrev main_v251_1 : Ref sig .tc := ⟨.hbm, 320, rfl⟩
abbrev main_v251_2 : Ref sig .tc := ⟨.hbm, 321, rfl⟩
abbrev main_cst_35 : Ref sig .tc := ⟨.hbm, 322, rfl⟩
abbrev main_v252 : Ref sig .tc := ⟨.hbm, 323, rfl⟩
abbrev main_cst_36 : Ref sig .tc := ⟨.hbm, 324, rfl⟩
abbrev main_v253 : Ref sig .tc := ⟨.hbm, 325, rfl⟩
abbrev main_cst_37 : Ref sig .tc := ⟨.hbm, 326, rfl⟩
abbrev main_v254 : Ref sig .tc := ⟨.hbm, 327, rfl⟩
abbrev main_v255 : Ref sig .tc := ⟨.hbm, 328, rfl⟩
abbrev main_cst_38 : Ref sig .tc := ⟨.hbm, 329, rfl⟩
abbrev main_v256 : Ref sig .tc := ⟨.hbm, 330, rfl⟩
abbrev main_v257 : Ref sig .tc := ⟨.hbm, 331, rfl⟩
abbrev main_v258 : Ref sig .tc := ⟨.hbm, 332, rfl⟩
abbrev main_v259 : Ref sig .tc := ⟨.hbm, 333, rfl⟩
abbrev main_v260 : Ref sig .tc := ⟨.hbm, 334, rfl⟩
abbrev main_v261 : Ref sig .tc := ⟨.hbm, 335, rfl⟩
abbrev main_v262 : Ref sig .tc := ⟨.hbm, 336, rfl⟩
abbrev main_v263 : Ref sig .tc := ⟨.hbm, 337, rfl⟩
abbrev main_cst_39 : Ref sig .tc := ⟨.hbm, 338, rfl⟩
abbrev main_v264 : Ref sig .tc := ⟨.hbm, 339, rfl⟩
abbrev main_v265 : Ref sig .tc := ⟨.hbm, 340, rfl⟩
abbrev main_v266 : Ref sig .tc := ⟨.hbm, 341, rfl⟩
abbrev main_v267 : Ref sig .tc := ⟨.hbm, 342, rfl⟩
abbrev main_v268 : Ref sig .tc := ⟨.hbm, 343, rfl⟩
abbrev main_v269 : Ref sig .tc := ⟨.hbm, 344, rfl⟩
abbrev main_v270 : Ref sig .tc := ⟨.hbm, 345, rfl⟩
abbrev main_v271 : Ref sig .tc := ⟨.hbm, 346, rfl⟩
abbrev main_v272 : Ref sig .tc := ⟨.hbm, 347, rfl⟩
abbrev main_v273 : Ref sig .tc := ⟨.hbm, 348, rfl⟩
abbrev main_v274 : Ref sig .tc := ⟨.hbm, 349, rfl⟩
abbrev main_v275 : Ref sig .tc := ⟨.hbm, 350, rfl⟩
abbrev main_v276 : Ref sig .tc := ⟨.hbm, 351, rfl⟩
abbrev main_v277 : Ref sig .tc := ⟨.hbm, 352, rfl⟩
abbrev main_v278 : Ref sig .tc := ⟨.hbm, 353, rfl⟩
abbrev main_v279 : Ref sig .tc := ⟨.hbm, 354, rfl⟩
abbrev main_c_40 : Ref sig .tc := ⟨.hbm, 355, rfl⟩
abbrev main_v280 : Ref sig .tc := ⟨.hbm, 356, rfl⟩
abbrev main_v281 : Ref sig .tc := ⟨.hbm, 357, rfl⟩
abbrev main_c_41 : Ref sig .tc := ⟨.hbm, 358, rfl⟩
abbrev main_v282 : Ref sig .tc := ⟨.hbm, 359, rfl⟩
abbrev main_v283 : Ref sig .tc := ⟨.hbm, 360, rfl⟩
abbrev main_v284 : Ref sig .tc := ⟨.hbm, 361, rfl⟩
abbrev main_v285 : Ref sig .tc := ⟨.hbm, 362, rfl⟩
abbrev main_v286 : Ref sig .tc := ⟨.hbm, 363, rfl⟩
abbrev main_v287 : Ref sig .tc := ⟨.hbm, 364, rfl⟩
abbrev main_cst_42 : Ref sig .tc := ⟨.hbm, 365, rfl⟩
abbrev main_v288 : Ref sig .tc := ⟨.hbm, 366, rfl⟩
abbrev main_v289 : Ref sig .tc := ⟨.hbm, 367, rfl⟩
abbrev main_v290 : Ref sig .tc := ⟨.hbm, 368, rfl⟩
abbrev main_v291 : Ref sig .tc := ⟨.hbm, 369, rfl⟩
abbrev main_v292 : Ref sig .tc := ⟨.hbm, 370, rfl⟩
abbrev main_v293 : Ref sig .tc := ⟨.hbm, 371, rfl⟩
abbrev main_v294 : Ref sig .tc := ⟨.hbm, 372, rfl⟩
abbrev main_v295 : Ref sig .tc := ⟨.hbm, 373, rfl⟩
abbrev main_v296 : Ref sig .tc := ⟨.hbm, 374, rfl⟩
abbrev main_v297 : Ref sig .tc := ⟨.hbm, 375, rfl⟩
abbrev main_v298 : Ref sig .tc := ⟨.hbm, 376, rfl⟩
abbrev main_v299 : Ref sig .tc := ⟨.hbm, 377, rfl⟩
abbrev main_v300 : Ref sig .tc := ⟨.hbm, 378, rfl⟩
abbrev main_v301 : Ref sig .tc := ⟨.hbm, 379, rfl⟩
abbrev main_v302 : Ref sig .tc := ⟨.hbm, 380, rfl⟩
abbrev main_v303 : Ref sig .tc := ⟨.hbm, 381, rfl⟩
abbrev main_v304_0 : Ref sig .tc := ⟨.hbm, 382, rfl⟩
abbrev main_v304_1 : Ref sig .tc := ⟨.hbm, 383, rfl⟩
abbrev main_v304_2 : Ref sig .tc := ⟨.hbm, 384, rfl⟩
abbrev main_cst_43 : Ref sig .tc := ⟨.hbm, 385, rfl⟩
abbrev main_v305 : Ref sig .tc := ⟨.hbm, 386, rfl⟩
abbrev main_cst_44 : Ref sig .tc := ⟨.hbm, 387, rfl⟩
abbrev main_v306 : Ref sig .tc := ⟨.hbm, 388, rfl⟩
abbrev main_cst_45 : Ref sig .tc := ⟨.hbm, 389, rfl⟩
abbrev main_v307 : Ref sig .tc := ⟨.hbm, 390, rfl⟩
abbrev main_v308 : Ref sig .tc := ⟨.hbm, 391, rfl⟩
abbrev main_cst_46 : Ref sig .tc := ⟨.hbm, 392, rfl⟩
abbrev main_v309 : Ref sig .tc := ⟨.hbm, 393, rfl⟩
abbrev main_v310 : Ref sig .tc := ⟨.hbm, 394, rfl⟩
abbrev main_v311 : Ref sig .tc := ⟨.hbm, 395, rfl⟩
abbrev main_v312 : Ref sig .tc := ⟨.hbm, 396, rfl⟩
abbrev main_v313 : Ref sig .tc := ⟨.hbm, 397, rfl⟩
abbrev main_v314 : Ref sig .tc := ⟨.hbm, 398, rfl⟩
abbrev main_v315 : Ref sig .tc := ⟨.hbm, 399, rfl⟩
abbrev main_v316 : Ref sig .tc := ⟨.hbm, 400, rfl⟩
abbrev main_v317 : Ref sig .tc := ⟨.hbm, 401, rfl⟩
abbrev main_v318 : Ref sig .tc := ⟨.hbm, 402, rfl⟩
abbrev main_v319 : Ref sig .tc := ⟨.hbm, 403, rfl⟩
abbrev main_v320 : Ref sig .tc := ⟨.hbm, 404, rfl⟩
abbrev main_v321 : Ref sig .tc := ⟨.hbm, 405, rfl⟩
abbrev main_v322 : Ref sig .tc := ⟨.hbm, 406, rfl⟩
abbrev main_v323 : Ref sig .tc := ⟨.hbm, 407, rfl⟩
abbrev main_v324 : Ref sig .tc := ⟨.hbm, 408, rfl⟩
abbrev main_cst_47 : Ref sig .tc := ⟨.hbm, 409, rfl⟩
abbrev main_v325 : Ref sig .tc := ⟨.hbm, 410, rfl⟩
abbrev main_cst_48 : Ref sig .tc := ⟨.hbm, 411, rfl⟩
abbrev main_v326 : Ref sig .tc := ⟨.hbm, 412, rfl⟩
abbrev main_v327 : Ref sig .tc := ⟨.hbm, 413, rfl⟩
abbrev main_v328 : Ref sig .tc := ⟨.hbm, 414, rfl⟩
abbrev main_cst_49 : Ref sig .tc := ⟨.hbm, 415, rfl⟩
abbrev main_v329 : Ref sig .tc := ⟨.hbm, 416, rfl⟩
abbrev main_v330 : Ref sig .tc := ⟨.hbm, 417, rfl⟩
abbrev main_v331 : Ref sig .tc := ⟨.hbm, 418, rfl⟩
abbrev main_v332 : Ref sig .tc := ⟨.hbm, 419, rfl⟩
abbrev main_v333 : Ref sig .tc := ⟨.hbm, 420, rfl⟩
abbrev main_v334 : Ref sig .tc := ⟨.hbm, 421, rfl⟩
abbrev main_v335 : Ref sig .tc := ⟨.hbm, 422, rfl⟩
abbrev main_v336 : Ref sig .tc := ⟨.hbm, 423, rfl⟩
abbrev main_v337 : Ref sig .tc := ⟨.hbm, 424, rfl⟩
abbrev main_v338 : Ref sig .tc := ⟨.hbm, 425, rfl⟩
abbrev main_v339 : Ref sig .tc := ⟨.hbm, 426, rfl⟩
abbrev main_call0_cst : Ref sig .tc := ⟨.hbm, 427, rfl⟩
abbrev main_call0_v0 : Ref sig .tc := ⟨.hbm, 428, rfl⟩
abbrev main_v340 : Ref sig .tc := ⟨.hbm, 429, rfl⟩
abbrev main_v341 : Ref sig .tc := ⟨.hbm, 430, rfl⟩
abbrev main_v342 : Ref sig .tc := ⟨.hbm, 431, rfl⟩
abbrev main_v343 : Ref sig .tc := ⟨.hbm, 432, rfl⟩
abbrev main_v344 : Ref sig .tc := ⟨.hbm, 433, rfl⟩
abbrev main_v345 : Ref sig .tc := ⟨.hbm, 434, rfl⟩
abbrev main_call1_cst : Ref sig .tc := ⟨.hbm, 435, rfl⟩
abbrev main_call1_v0 : Ref sig .tc := ⟨.hbm, 436, rfl⟩
abbrev main_v346 : Ref sig .tc := ⟨.hbm, 437, rfl⟩
abbrev main_v347 : Ref sig .tc := ⟨.hbm, 438, rfl⟩
abbrev main_v348 : Ref sig .tc := ⟨.hbm, 439, rfl⟩
abbrev main_v349 : Ref sig .tc := ⟨.hbm, 440, rfl⟩
abbrev main_v350 : Ref sig .tc := ⟨.hbm, 441, rfl⟩
abbrev main_v351 : Ref sig .tc := ⟨.hbm, 442, rfl⟩
abbrev main_v352 : Ref sig .tc := ⟨.hbm, 443, rfl⟩
abbrev main_v353 : Ref sig .tc := ⟨.hbm, 444, rfl⟩
abbrev main_cst_50 : Ref sig .tc := ⟨.hbm, 445, rfl⟩
abbrev main_v354 : Ref sig .tc := ⟨.hbm, 446, rfl⟩
abbrev main_v355 : Ref sig .tc := ⟨.hbm, 447, rfl⟩
abbrev main_cst_51 : Ref sig .tc := ⟨.hbm, 448, rfl⟩
abbrev main_v356 : Ref sig .tc := ⟨.hbm, 449, rfl⟩
abbrev main_v357 : Ref sig .tc := ⟨.hbm, 450, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg5_1 : Ref sig .tc := ⟨.vmem, 43, rfl⟩
abbrev cc3_stg6_0 : Ref sig .tc := ⟨.vmem, 44, rfl⟩
abbrev cc4_stg0_0 : Ref sig .tc := ⟨.vmem, 45, rfl⟩
abbrev cc4_stg0_1 : Ref sig .tc := ⟨.vmem, 46, rfl⟩
abbrev cc4_stg1_0 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg5_0 : Ref sig .tc := ⟨.vmem, 51, rfl⟩
abbrev cc4_stg5_1 : Ref sig .tc := ⟨.vmem, 52, rfl⟩
abbrev cc4_stg6_0 : Ref sig .tc := ⟨.vmem, 53, rfl⟩
abbrev cc4_stg6_1 : Ref sig .tc := ⟨.vmem, 54, rfl⟩
abbrev cc4_stg7_0 : Ref sig .tc := ⟨.vmem, 55, rfl⟩
abbrev cc4_stg7_1 : Ref sig .tc := ⟨.vmem, 56, rfl⟩
abbrev cc5_stg0_0 : Ref sig .tc := ⟨.vmem, 57, rfl⟩
abbrev cc5_stg0_1 : Ref sig .tc := ⟨.vmem, 58, rfl⟩
abbrev cc5_stg1_0 : Ref sig .tc := ⟨.vmem, 59, rfl⟩
abbrev cc5_stg2_0 : Ref sig .tc := ⟨.vmem, 60, rfl⟩
abbrev cc5_stg3_0 : Ref sig .tc := ⟨.vmem, 61, rfl⟩
abbrev cc5_stg4_0 : Ref sig .tc := ⟨.vmem, 62, rfl⟩
abbrev cc5_stg5_0 : Ref sig .tc := ⟨.vmem, 63, rfl⟩
abbrev cc5_stg5_1 : Ref sig .tc := ⟨.vmem, 64, rfl⟩
abbrev cc5_stg6_0 : Ref sig .tc := ⟨.vmem, 65, rfl⟩
abbrev cc5_stg6_1 : Ref sig .tc := ⟨.vmem, 66, rfl⟩
abbrev cc5_stg7_0 : Ref sig .tc := ⟨.vmem, 67, rfl⟩
abbrev cc5_stg7_1 : Ref sig .tc := ⟨.vmem, 68, rfl⟩
abbrev cc6_stg0_0 : Ref sig .tc := ⟨.vmem, 69, rfl⟩
abbrev cc6_stg0_1 : Ref sig .tc := ⟨.vmem, 70, rfl⟩
abbrev cc6_stg1_0 : Ref sig .tc := ⟨.vmem, 71, rfl⟩
abbrev cc6_stg2_0 : Ref sig .tc := ⟨.vmem, 72, rfl⟩
abbrev cc6_stg3_0 : Ref sig .tc := ⟨.vmem, 73, rfl⟩
abbrev cc6_stg4_0 : Ref sig .tc := ⟨.vmem, 74, rfl⟩
abbrev cc6_stg5_0 : Ref sig .tc := ⟨.vmem, 75, rfl⟩
abbrev cc6_stg5_1 : Ref sig .tc := ⟨.vmem, 76, rfl⟩
abbrev cc6_stg6_0 : Ref sig .tc := ⟨.vmem, 77, rfl⟩
abbrev cc6_stg6_1 : Ref sig .tc := ⟨.vmem, 78, rfl⟩
abbrev cc6_stg7_0 : Ref sig .tc := ⟨.vmem, 79, rfl⟩
abbrev cc6_stg7_1 : Ref sig .tc := ⟨.vmem, 80, rfl⟩
abbrev cc7_stg0_0 : Ref sig .tc := ⟨.vmem, 81, rfl⟩
abbrev cc7_stg0_1 : Ref sig .tc := ⟨.vmem, 82, rfl⟩
abbrev cc7_stg1_0 : Ref sig .tc := ⟨.vmem, 83, rfl⟩
abbrev cc7_stg2_0 : Ref sig .tc := ⟨.vmem, 84, rfl⟩
abbrev cc7_stg3_0 : Ref sig .tc := ⟨.vmem, 85, rfl⟩
abbrev cc7_stg4_0 : Ref sig .tc := ⟨.vmem, 86, rfl⟩
abbrev cc7_stg5_0 : Ref sig .tc := ⟨.vmem, 87, rfl⟩
abbrev cc7_stg5_1 : Ref sig .tc := ⟨.vmem, 88, rfl⟩
abbrev cc7_stg6_0 : Ref sig .tc := ⟨.vmem, 89, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem5_1 : DmaSem sig := 31
abbrev cc2_sem6_0 : DmaSem sig := 32
abbrev cc2_sem6_1 : DmaSem sig := 33
abbrev cc2_sem7_0 : DmaSem sig := 34
abbrev cc2_sem7_1 : DmaSem sig := 35
abbrev cc3_sem0_0 : DmaSem sig := 36
abbrev cc3_sem0_1 : DmaSem sig := 37
abbrev cc3_sem1_0 : DmaSem sig := 38
abbrev cc3_sem2_0 : DmaSem sig := 39
abbrev cc3_sem3_0 : DmaSem sig := 40
abbrev cc3_sem4_0 : DmaSem sig := 41
abbrev cc3_sem5_0 : DmaSem sig := 42
abbrev cc3_sem5_1 : DmaSem sig := 43
abbrev cc3_sem6_0 : DmaSem sig := 44
abbrev cc4_sem0_0 : DmaSem sig := 45
abbrev cc4_sem0_1 : DmaSem sig := 46
abbrev cc4_sem1_0 : DmaSem sig := 47
abbrev cc4_sem2_0 : DmaSem sig := 48
abbrev cc4_sem3_0 : DmaSem sig := 49
abbrev cc4_sem4_0 : DmaSem sig := 50
abbrev cc4_sem5_0 : DmaSem sig := 51
abbrev cc4_sem5_1 : DmaSem sig := 52
abbrev cc4_sem6_0 : DmaSem sig := 53
abbrev cc4_sem6_1 : DmaSem sig := 54
abbrev cc4_sem7_0 : DmaSem sig := 55
abbrev cc4_sem7_1 : DmaSem sig := 56
abbrev cc5_sem0_0 : DmaSem sig := 57
abbrev cc5_sem0_1 : DmaSem sig := 58
abbrev cc5_sem1_0 : DmaSem sig := 59
abbrev cc5_sem2_0 : DmaSem sig := 60
abbrev cc5_sem3_0 : DmaSem sig := 61
abbrev cc5_sem4_0 : DmaSem sig := 62
abbrev cc5_sem5_0 : DmaSem sig := 63
abbrev cc5_sem5_1 : DmaSem sig := 64
abbrev cc5_sem6_0 : DmaSem sig := 65
abbrev cc5_sem6_1 : DmaSem sig := 66
abbrev cc5_sem7_0 : DmaSem sig := 67
abbrev cc5_sem7_1 : DmaSem sig := 68
abbrev cc6_sem0_0 : DmaSem sig := 69
abbrev cc6_sem0_1 : DmaSem sig := 70
abbrev cc6_sem1_0 : DmaSem sig := 71
abbrev cc6_sem2_0 : DmaSem sig := 72
abbrev cc6_sem3_0 : DmaSem sig := 73
abbrev cc6_sem4_0 : DmaSem sig := 74
abbrev cc6_sem5_0 : DmaSem sig := 75
abbrev cc6_sem5_1 : DmaSem sig := 76
abbrev cc6_sem6_0 : DmaSem sig := 77
abbrev cc6_sem6_1 : DmaSem sig := 78
abbrev cc6_sem7_0 : DmaSem sig := 79
abbrev cc6_sem7_1 : DmaSem sig := 80
abbrev cc7_sem0_0 : DmaSem sig := 81
abbrev cc7_sem0_1 : DmaSem sig := 82
abbrev cc7_sem1_0 : DmaSem sig := 83
abbrev cc7_sem2_0 : DmaSem sig := 84
abbrev cc7_sem3_0 : DmaSem sig := 85
abbrev cc7_sem4_0 : DmaSem sig := 86
abbrev cc7_sem5_0 : DmaSem sig := 87
abbrev cc7_sem5_1 : DmaSem sig := 88
abbrev cc7_sem6_0 : DmaSem sig := 89

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x36 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x36 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S36x36 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x36 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x36 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x36 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x36 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x36 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S36x36 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x36 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S36x36 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x36 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x36 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8x36 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S8x36 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x36 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S36x36 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x36 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S36x36 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x36 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x36 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S8x36 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S8x36 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x36 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x36 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x36 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x36 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x36 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x1 .i32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S512x36 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x6 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S6x36 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x36 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S36x36 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x36 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x36 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S8x36 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S8x36 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x36 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S36x36 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x36 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S36x36 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x36 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x36 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S8x36 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S8x36 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x36 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S36x36 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x36 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S36x36 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x36 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x36 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S8x36 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S8x36 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S2000x36 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x36 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x36 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x36 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x36 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S2000x1 .i32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 1 → Memref sig .tc .vmem S512x36 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

class Facts₀ : Prop where
  slices_S2x2x1600000_S1x1x1600000_0_0_0 : S2x2x1600000.Slices ![0, 0, 0] S1x1x1600000
  shapeCasts_S1x1x1600000_S1600000 : S1x1x1600000.ShapeCasts S1600000
  slices_S2x2x1600000_S1x1x1600000_0_1_0 : S2x2x1600000.Slices ![0, 1, 0] S1x1x1600000
  slices_S2x100000x6_S1x100000x6_0_0_0 : S2x100000x6.Slices ![0, 0, 0] S1x100000x6
  shapeCasts_S1x100000x6_S100000x6 : S1x100000x6.ShapeCasts S100000x6
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x6 : S_.BroadcastsInDim S100000x6 (![] : Fin 0 → Fin S100000x6.rank)
  slices_S2x36x6_S1x36x6_0_0_0 : S2x36x6.Slices ![0, 0, 0] S1x36x6
  shapeCasts_S1x36x6_S36x6 : S1x36x6.ShapeCasts S36x6
  slices_S2x36_S1x36_0_0 : S2x36.Slices ![0, 0] S1x36
  shapeCasts_S1x36_S36 : S1x36.ShapeCasts S36
  slices_S2x36x36_S1x36x36_0_0_0 : S2x36x36.Slices ![0, 0, 0] S1x36x36
  shapeCasts_S1x36x36_S36x36 : S1x36x36.ShapeCasts S36x36
  transposes_S36x6_S6x36_1_0 : S36x6.Transposes [1, 0] S6x36
  transposes_S36x36_S36x36_1_0 : S36x36.Transposes [1, 0] S36x36
  shapeCasts_S36_S1x36 : S36.ShapeCasts S1x36
  inb_S5000x6_S5000x6_0_0 : ∀ a, (![0, 0] : Fin 2 → Nat) a + S5000x6.size a ≤ S5000x6.size a
  h_S5000x6 : 0 < S5000x6.numel
  shapeCasts_S5000x6_S5000x6 : S5000x6.ShapeCasts S5000x6
  inb_S6x36_S6x36_0_0 : ∀ a, (![0, 0] : Fin 2 → Nat) a + S6x36.size a ≤ S6x36.size a
  h_S6x36 : 0 < S6x36.numel
  shapeCasts_S6x36_S6x36 : S6x36.ShapeCasts S6x36
  inb_S1x36_S1x36_0_0 : ∀ a, (![0, 0] : Fin 2 → Nat) a + S1x36.size a ≤ S1x36.size a
  h_S1x36 : 0 < S1x36.numel
  shapeCasts_S1x36_S1x36 : S1x36.ShapeCasts S1x36
  broadcasts_S1x36_S5000x36 : S1x36.Broadcasts S5000x36
  inb_S36x36_S36x36_0_0 : ∀ a, (![0, 0] : Fin 2 → Nat) a + S36x36.size a ≤ S36x36.size a
  h_S36x36 : 0 < S36x36.numel
  shapeCasts_S36x36_S36x36 : S36x36.ShapeCasts S36x36
  inb_S5000x36_S5000x36_0_0 : ∀ a, (![0, 0] : Fin 2 → Nat) a + S5000x36.size a ≤ S5000x36.size a
  h_S5000x36 : 0 < S5000x36.numel
  reduces_S5000x36_S36 : S5000x36.Reduces [0] S36
  iota_S8x36_d0_w32 : S8x36.Iotas .tc 32 [0]
  broadcasts_S1x36_S8x36 : S1x36.Broadcasts S8x36
  inb_S8x36_S8x36_0_0 : ∀ a, (![0, 0] : Fin 2 → Nat) a + S8x36.size a ≤ S8x36.size a
  h_S8x36 : 0 < S8x36.numel
  reducesTo_S160x36_S36_d0 : S160x36.ReducesTo [0] S36
  h_S_ : 0 < S_.numel
  bcast_S_S36 : S_.BroadcastsInDim S36 (![] : Fin 0 → Fin S36.rank)
  slices_S2x3x36_S1x1x36_0_0_0 : S2x3x36.Slices ![0, 0, 0] S1x1x36
  shapeCasts_S1x1x36_S36 : S1x1x36.ShapeCasts S36
  bcast_S36_S1x36_1 : S36.BroadcastsInDim S1x36 (![1] : Fin 1 → Fin S1x36.rank)
  bcast_S1x36_S100000x36_0_1 : S1x36.BroadcastsInDim S100000x36 (![0, 1] : Fin 2 → Fin S100000x36.rank)
  bcast_S_S100000x36 : S_.BroadcastsInDim S100000x36 (![] : Fin 0 → Fin S100000x36.rank)
  shapeCasts_S5000x36_S5000x36 : S5000x36.ShapeCasts S5000x36
  slices_S2x3x36_S1x1x36_0_1_0 : S2x3x36.Slices ![0, 1, 0] S1x1x36
  slices_S2x3x36_S1x1x36_0_2_0 : S2x3x36.Slices ![0, 2, 0] S1x1x36
  slices_S2x100000_S1x100000_0_0 : S2x100000.Slices ![0, 0] S1x100000
  shapeCasts_S1x100000_S100000 : S1x100000.ShapeCasts S100000
  shapeCasts_S100000_S100000x1 : S100000.ShapeCasts S100000x1
  inb_S512x36_S512x36_0_0 : ∀ a, (![0, 0] : Fin 2 → Nat) a + S512x36.size a ≤ S512x36.size a
  h_S512x36 : 0 < S512x36.numel
  inb_S2000x36_S2000x36_0_0 : ∀ a, (![0, 0] : Fin 2 → Nat) a + S2000x36.size a ≤ S2000x36.size a
  h_S2000x36 : 0 < S2000x36.numel
  shapeCasts_S2000x36_S2000x36 : S2000x36.ShapeCasts S2000x36
  broadcasts_S1x36_S2000x36 : S1x36.Broadcasts S2000x36
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x512_d1_w32 : S2000x512.Iotas .tc 32 [1]
  broadcasts_S2000x1_S2000x512 : S2000x1.Broadcasts S2000x512
  natLt_1_32 : 1 < 32
  shapeCasts_S512x36_S512x36 : S512x36.ShapeCasts S512x36
  bcast_S_S100000 : S_.BroadcastsInDim S100000 (![] : Fin 0 → Fin S100000.rank)
  bcast_S_S512 : S_.BroadcastsInDim S512 (![] : Fin 0 → Fin S512.rank)
  bcast_S100000_S100000x1_0 : S100000.BroadcastsInDim S100000x1 (![0] : Fin 1 → Fin S100000x1.rank)
  bcast_S512_S512x1_0 : S512.BroadcastsInDim S512x1 (![0] : Fin 1 → Fin S512x1.rank)
  bcast_S512x1_S512x36_0_1 : S512x1.BroadcastsInDim S512x36 (![0, 1] : Fin 2 → Fin S512x36.rank)
  slices_S2x2x1600000_S1x1x1600000_1_0_0 : S2x2x1600000.Slices ![1, 0, 0] S1x1x1600000
  slices_S2x2x1600000_S1x1x1600000_1_1_0 : S2x2x1600000.Slices ![1, 1, 0] S1x1x1600000
  slices_S2x100000x6_S1x100000x6_1_0_0 : S2x100000x6.Slices ![1, 0, 0] S1x100000x6
  slices_S2x36x6_S1x36x6_1_0_0 : S2x36x6.Slices ![1, 0, 0] S1x36x6
  slices_S2x36_S1x36_1_0 : S2x36.Slices ![1, 0] S1x36
  slices_S2x36x36_S1x36x36_1_0_0 : S2x36x36.Slices ![1, 0, 0] S1x36x36
  slices_S2x3x36_S1x1x36_1_0_0 : S2x3x36.Slices ![1, 0, 0] S1x1x36
  slices_S2x3x36_S1x1x36_1_1_0 : S2x3x36.Slices ![1, 1, 0] S1x1x36
  slices_S2x3x36_S1x1x36_1_2_0 : S2x3x36.Slices ![1, 2, 0] S1x1x36
  slices_S2x100000_S1x100000_1_0 : S2x100000.Slices ![1, 0] S1x100000
  concatenates_S512x36_S512x36_S512x72_d1 : Shape.Concatenates [S512x36, S512x36] S512x72 1
  transposes_S54x72_S72x54_1_0 : S54x72.Transposes [1, 0] S72x54
  bcast_S54_S1x54_1 : S54.BroadcastsInDim S1x54 (![1] : Fin 1 → Fin S1x54.rank)
  bcast_S1x54_S512x54_0_1 : S1x54.BroadcastsInDim S512x54 (![0, 1] : Fin 2 → Fin S512x54.rank)
  bcast_S_S512x54 : S_.BroadcastsInDim S512x54 (![] : Fin 0 → Fin S512x54.rank)
  transposes_S18x54_S54x18_1_0 : S18x54.Transposes [1, 0] S54x18
  bcast_S18_S1x18_1 : S18.BroadcastsInDim S1x18 (![1] : Fin 1 → Fin S1x18.rank)
  bcast_S1x18_S512x18_0_1 : S1x18.BroadcastsInDim S512x18 (![0, 1] : Fin 2 → Fin S512x18.rank)
  bcast_S_S512x18 : S_.BroadcastsInDim S512x18 (![] : Fin 0 → Fin S512x18.rank)
  transposes_S1x18_S18x1_1_0 : S1x18.Transposes [1, 0] S18x1
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  bcast_S_S512x1 : S_.BroadcastsInDim S512x1 (![] : Fin 0 → Fin S512x1.rank)
  gather_S100000x6_S1600000x1_S1600000x6_1_0_n_n_0_1_16_wf : GatherDims.WF S100000x6 S1600000x1 S1600000x6 [1] [0] [] [0] [] 1 ![1, 6]
  scatter_S100000x6_S1600000x1_S1600000x6_1_0_0_1_wf : ScatterDims.WF S100000x6 S1600000x1 S1600000x6 [1] [0] [0] 1
  dot_S5000x6_S6x36_S5000x36_1_0_0_1_n_n_wf : DotDims.WF S5000x6 S6x36 S5000x36 [1] [0] [0] [1] [] []
  dot_S5000x36_S36x36_S5000x36_1_0_0_1_n_n_wf : DotDims.WF S5000x36 S36x36 S5000x36 [1] [0] [0] [1] [] []
  gather_S100000x36_S1600000x1_S1600000x36_1_0_n_n_0_1_136_wf : GatherDims.WF S100000x36 S1600000x1 S1600000x36 [1] [0] [] [0] [] 1 ![1, 36]
  scatter_S100000x36_S1600000x1_S1600000x36_1_0_0_1_wf : ScatterDims.WF S100000x36 S1600000x1 S1600000x36 [1] [0] [0] 1
  dot_S2000x512_S2000x36_S512x36_0_0_1_1_n_n_wf : DotDims.WF S2000x512 S2000x36 S512x36 [0] [0] [1] [1] [] []
  scatter_S512_S100000x1_S100000_n_0_0_1_wf : ScatterDims.WF S512 S100000x1 S100000 [] [0] [0] 1
  dot_S512x72_S72x54_S512x54_1_0_0_1_n_n_wf : DotDims.WF S512x72 S72x54 S512x54 [1] [0] [0] [1] [] []
  dot_S512x54_S54x18_S512x18_1_0_0_1_n_n_wf : DotDims.WF S512x54 S54x18 S512x18 [1] [0] [0] [1] [] []
  dot_S512x18_S18x1_S512x1_1_0_0_1_n_n_wf : DotDims.WF S512x18 S18x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x6.size a ≤ S100000x6.size a
  hwx0_0 : ∀ i : grid0.Coords, EltTy.bits .f32 = 32 ∨ (Rect.block (s := S100000x6) S5000x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x36.size a ≤ S6x36.size a
  hwx0_1 : ∀ i : grid0.Coords, EltTy.bits .f32 = 32 ∨ (Rect.block (s := S6x36) S6x36.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x36.size a ≤ S1x36.size a
  hwx0_2 : ∀ i : grid0.Coords, EltTy.bits .f32 = 32 ∨ (Rect.block (s := S1x36) S1x36.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S36x36.size a ≤ S36x36.size a
  hwx0_3 : ∀ i : grid0.Coords, EltTy.bits .f32 = 32 ∨ (Rect.block (s := S36x36) S36x36.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x36.size a ≤ S1x36.size a
  hwx0_4 : ∀ i : grid0.Coords, EltTy.bits .f32 = 32 ∨ (Rect.block (s := S1x36) S1x36.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x36.size a ≤ S100000x36.size a
  hwx0_5 : ∀ i : grid0.Coords, EltTy.bits .f32 = 32 ∨ (Rect.block (s := S100000x36) S5000x36.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x36.size a ≤ S160x36.size a
  hwx0_6 : ∀ i : grid0.Coords, EltTy.bits .f32 = 32 ∨ (Rect.block (s := S160x36) S8x36.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x36.size a ≤ S160x36.size a
  hwx0_7 : ∀ i : grid0.Coords, EltTy.bits .f32 = 32 ∨ (Rect.block (s := S160x36) S8x36.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x36.size a ≤ S100000x36.size a
  hwx1_0 : ∀ i : grid1.Coords, EltTy.bits .f32 = 32 ∨ (Rect.block (s := S100000x36) S5000x36.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S36x36.size a ≤ S36x36.size a
  hwx1_1 : ∀ i : grid1.Coords, EltTy.bits .f32 = 32 ∨ (Rect.block (s := S36x36) S36x36.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x36.size a ≤ S1x36.size a
  hwx1_2 : ∀ i : grid1.Coords, EltTy.bits .f32 = 32 ∨ (Rect.block (s := S1x36) S1x36.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S36x36.size a ≤ S36x36.size a
  hwx1_3 : ∀ i : grid1.Coords, EltTy.bits .f32 = 32 ∨ (Rect.block (s := S36x36) S36x36.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x36.size a ≤ S1x36.size a
  hwx1_4 : ∀ i : grid1.Coords, EltTy.bits .f32 = 32 ∨ (Rect.block (s := S1x36) S1x36.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x36.size a ≤ S100000x36.size a
  hwx1_5 : ∀ i : grid1.Coords, EltTy.bits .f32 = 32 ∨ (Rect.block (s := S100000x36) S5000x36.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8x36.size a ≤ S160x36.size a
  hwx1_6 : ∀ i : grid1.Coords, EltTy.bits .f32 = 32 ∨ (Rect.block (s := S160x36) S8x36.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8x36.size a ≤ S160x36.size a
  hwx1_7 : ∀ i : grid1.Coords, EltTy.bits .f32 = 32 ∨ (Rect.block (s := S160x36) S8x36.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x36.size a ≤ S100000x36.size a
  hwx2_0 : ∀ i : grid2.Coords, EltTy.bits .f32 = 32 ∨ (Rect.block (s := S100000x36) S5000x36.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S36x36.size a ≤ S36x36.size a
  hwx2_1 : ∀ i : grid2.Coords, EltTy.bits .f32 = 32 ∨ (Rect.block (s := S36x36) S36x36.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x36.size a ≤ S1x36.size a
  hwx2_2 : ∀ i : grid2.Coords, EltTy.bits .f32 = 32 ∨ (Rect.block (s := S1x36) S1x36.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S36x36.size a ≤ S36x36.size a
  hwx2_3 : ∀ i : grid2.Coords, EltTy.bits .f32 = 32 ∨ (Rect.block (s := S36x36) S36x36.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x36.size a ≤ S1x36.size a
  hwx2_4 : ∀ i : grid2.Coords, EltTy.bits .f32 = 32 ∨ (Rect.block (s := S1x36) S1x36.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x36.size a ≤ S100000x36.size a
  hwx2_5 : ∀ i : grid2.Coords, EltTy.bits .f32 = 32 ∨ (Rect.block (s := S100000x36) S5000x36.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8x36.size a ≤ S160x36.size a
  hwx2_6 : ∀ i : grid2.Coords, EltTy.bits .f32 = 32 ∨ (Rect.block (s := S160x36) S8x36.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S8x36.size a ≤ S160x36.size a
  hwx2_7 : ∀ i : grid2.Coords, EltTy.bits .f32 = 32 ∨ (Rect.block (s := S160x36) S8x36.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x36.size a ≤ S100000x36.size a
  hwx3_0 : ∀ i : grid3.Coords, EltTy.bits .f32 = 32 ∨ (Rect.block (s := S100000x36) S2000x36.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x36.size a ≤ S1x36.size a
  hwx3_1 : ∀ i : grid3.Coords, EltTy.bits .f32 = 32 ∨ (Rect.block (s := S1x36) S1x36.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x36.size a ≤ S1x36.size a
  hwx3_2 : ∀ i : grid3.Coords, EltTy.bits .f32 = 32 ∨ (Rect.block (s := S1x36) S1x36.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x36.size a ≤ S1x36.size a
  hwx3_3 : ∀ i : grid3.Coords, EltTy.bits .f32 = 32 ∨ (Rect.block (s := S1x36) S1x36.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x36.size a ≤ S1x36.size a
  hwx3_4 : ∀ i : grid3.Coords, EltTy.bits .f32 = 32 ∨ (Rect.block (s := S1x36) S1x36.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x1.size a ≤ S100000x1.size a
  hwx3_5 : ∀ i : grid3.Coords, EltTy.bits .i32 = 32 ∨ (Rect.block (s := S100000x1) S2000x1.size (cc3_transform_5 i) (hinb3_5 i)).WholeWords (EltTy.packing .i32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S512x36.size a ≤ S512x36.size a
  hwx3_6 : ∀ i : grid3.Coords, EltTy.bits .f32 = 32 ∨ (Rect.block (s := S512x36) S512x36.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x6.size a ≤ S100000x6.size a
  hwx4_0 : ∀ i : grid4.Coords, EltTy.bits .f32 = 32 ∨ (Rect.block (s := S100000x6) S5000x6.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S6x36.size a ≤ S6x36.size a
  hwx4_1 : ∀ i : grid4.Coords, EltTy.bits .f32 = 32 ∨ (Rect.block (s := S6x36) S6x36.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x36.size a ≤ S1x36.size a
  hwx4_2 : ∀ i : grid4.Coords, EltTy.bits .f32 = 32 ∨ (Rect.block (s := S1x36) S1x36.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S36x36.size a ≤ S36x36.size a
  hwx4_3 : ∀ i : grid4.Coords, EltTy.bits .f32 = 32 ∨ (Rect.block (s := S36x36) S36x36.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x36.size a ≤ S1x36.size a
  hwx4_4 : ∀ i : grid4.Coords, EltTy.bits .f32 = 32 ∨ (Rect.block (s := S1x36) S1x36.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x36.size a ≤ S100000x36.size a
  hwx4_5 : ∀ i : grid4.Coords, EltTy.bits .f32 = 32 ∨ (Rect.block (s := S100000x36) S5000x36.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S8x36.size a ≤ S160x36.size a
  hwx4_6 : ∀ i : grid4.Coords, EltTy.bits .f32 = 32 ∨ (Rect.block (s := S160x36) S8x36.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S8x36.size a ≤ S160x36.size a
  hwx4_7 : ∀ i : grid4.Coords, EltTy.bits .f32 = 32 ∨ (Rect.block (s := S160x36) S8x36.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x36.size a ≤ S100000x36.size a
  hwx5_0 : ∀ i : grid5.Coords, EltTy.bits .f32 = 32 ∨ (Rect.block (s := S100000x36) S5000x36.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S36x36.size a ≤ S36x36.size a
  hwx5_1 : ∀ i : grid5.Coords, EltTy.bits .f32 = 32 ∨ (Rect.block (s := S36x36) S36x36.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x36.size a ≤ S1x36.size a
  hwx5_2 : ∀ i : grid5.Coords, EltTy.bits .f32 = 32 ∨ (Rect.block (s := S1x36) S1x36.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S36x36.size a ≤ S36x36.size a
  hwx5_3 : ∀ i : grid5.Coords, EltTy.bits .f32 = 32 ∨ (Rect.block (s := S36x36) S36x36.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x36.size a ≤ S1x36.size a
  hwx5_4 : ∀ i : grid5.Coords, EltTy.bits .f32 = 32 ∨ (Rect.block (s := S1x36) S1x36.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x36.size a ≤ S100000x36.size a
  hwx5_5 : ∀ i : grid5.Coords, EltTy.bits .f32 = 32 ∨ (Rect.block (s := S100000x36) S5000x36.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S8x36.size a ≤ S160x36.size a
  hwx5_6 : ∀ i : grid5.Coords, EltTy.bits .f32 = 32 ∨ (Rect.block (s := S160x36) S8x36.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S8x36.size a ≤ S160x36.size a
  hwx5_7 : ∀ i : grid5.Coords, EltTy.bits .f32 = 32 ∨ (Rect.block (s := S160x36) S8x36.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x36.size a ≤ S100000x36.size a
  hwx6_0 : ∀ i : grid6.Coords, EltTy.bits .f32 = 32 ∨ (Rect.block (s := S100000x36) S5000x36.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S36x36.size a ≤ S36x36.size a
  hwx6_1 : ∀ i : grid6.Coords, EltTy.bits .f32 = 32 ∨ (Rect.block (s := S36x36) S36x36.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x36.size a ≤ S1x36.size a
  hwx6_2 : ∀ i : grid6.Coords, EltTy.bits .f32 = 32 ∨ (Rect.block (s := S1x36) S1x36.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S36x36.size a ≤ S36x36.size a
  hwx6_3 : ∀ i : grid6.Coords, EltTy.bits .f32 = 32 ∨ (Rect.block (s := S36x36) S36x36.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x36.size a ≤ S1x36.size a
  hwx6_4 : ∀ i : grid6.Coords, EltTy.bits .f32 = 32 ∨ (Rect.block (s := S1x36) S1x36.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x36.size a ≤ S100000x36.size a
  hwx6_5 : ∀ i : grid6.Coords, EltTy.bits .f32 = 32 ∨ (Rect.block (s := S100000x36) S5000x36.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S8x36.size a ≤ S160x36.size a
  hwx6_6 : ∀ i : grid6.Coords, EltTy.bits .f32 = 32 ∨ (Rect.block (s := S160x36) S8x36.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S8x36.size a ≤ S160x36.size a
  hwx6_7 : ∀ i : grid6.Coords, EltTy.bits .f32 = 32 ∨ (Rect.block (s := S160x36) S8x36.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x36.size a ≤ S100000x36.size a
  hwx7_0 : ∀ i : grid7.Coords, EltTy.bits .f32 = 32 ∨ (Rect.block (s := S100000x36) S2000x36.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x36.size a ≤ S1x36.size a
  hwx7_1 : ∀ i : grid7.Coords, EltTy.bits .f32 = 32 ∨ (Rect.block (s := S1x36) S1x36.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x36.size a ≤ S1x36.size a
  hwx7_2 : ∀ i : grid7.Coords, EltTy.bits .f32 = 32 ∨ (Rect.block (s := S1x36) S1x36.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x36.size a ≤ S1x36.size a
  hwx7_3 : ∀ i : grid7.Coords, EltTy.bits .f32 = 32 ∨ (Rect.block (s := S1x36) S1x36.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x36.size a ≤ S1x36.size a
  hwx7_4 : ∀ i : grid7.Coords, EltTy.bits .f32 = 32 ∨ (Rect.block (s := S1x36) S1x36.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2000x1.size a ≤ S100000x1.size a
  hwx7_5 : ∀ i : grid7.Coords, EltTy.bits .i32 = 32 ∨ (Rect.block (s := S100000x1) S2000x1.size (cc7_transform_5 i) (hinb7_5 i)).WholeWords (EltTy.packing .i32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S512x36.size a ≤ S512x36.size a
  hwx7_6 : ∀ i : grid7.Coords, EltTy.bits .f32 = 32 ∨ (Rect.block (s := S512x36) S512x36.size (cc7_transform_6 i) (hinb7_6 i)).WholeWords (EltTy.packing .f32)

variable [Facts₀]

def gather_S100000x6_S1600000x1_S1600000x6_1_0_n_n_0_1_16 : GatherDims S100000x6 S1600000x1 S1600000x6 where
  offsetDims := [1]
  collapsedSliceDims := [0]
  operandBatchingDims := []
  startIndicesBatchingDims := []
  startIndexMap := [0]
  indexVectorDim := 1
  sliceSizes := ![1, 6]
  wf := gather_S100000x6_S1600000x1_S1600000x6_1_0_n_n_0_1_16_wf
def scatter_S100000x6_S1600000x1_S1600000x6_1_0_0_1 : ScatterDims S100000x6 S1600000x1 S1600000x6 where
  updateWindowDims := [1]
  insertedWindowDims := [0]
  scatterDimsToOperandDims := [0]
  indexVectorDim := 1
  wf := scatter_S100000x6_S1600000x1_S1600000x6_1_0_0_1_wf
def dot_S5000x6_S6x36_S5000x36_1_0_0_1_n_n : DotDims S5000x6 S6x36 S5000x36 where
  lhsContracting := [1]
  rhsContracting := [0]
  lhsNonContracting := [0]
  rhsNonContracting := [1]
  lhsBatch := []
  rhsBatch := []
  wf := dot_S5000x6_S6x36_S5000x36_1_0_0_1_n_n_wf
def dot_S5000x36_S36x36_S5000x36_1_0_0_1_n_n : DotDims S5000x36 S36x36 S5000x36 where
  lhsContracting := [1]
  rhsContracting := [0]
  lhsNonContracting := [0]
  rhsNonContracting := [1]
  lhsBatch := []
  rhsBatch := []
  wf := dot_S5000x36_S36x36_S5000x36_1_0_0_1_n_n_wf
def gather_S100000x36_S1600000x1_S1600000x36_1_0_n_n_0_1_136 : GatherDims S100000x36 S1600000x1 S1600000x36 where
  offsetDims := [1]
  collapsedSliceDims := [0]
  operandBatchingDims := []
  startIndicesBatchingDims := []
  startIndexMap := [0]
  indexVectorDim := 1
  sliceSizes := ![1, 36]
  wf := gather_S100000x36_S1600000x1_S1600000x36_1_0_n_n_0_1_136_wf
def scatter_S100000x36_S1600000x1_S1600000x36_1_0_0_1 : ScatterDims S100000x36 S1600000x1 S1600000x36 where
  updateWindowDims := [1]
  insertedWindowDims := [0]
  scatterDimsToOperandDims := [0]
  indexVectorDim := 1
  wf := scatter_S100000x36_S1600000x1_S1600000x36_1_0_0_1_wf
def dot_S2000x512_S2000x36_S512x36_0_0_1_1_n_n : DotDims S2000x512 S2000x36 S512x36 where
  lhsContracting := [0]
  rhsContracting := [0]
  lhsNonContracting := [1]
  rhsNonContracting := [1]
  lhsBatch := []
  rhsBatch := []
  wf := dot_S2000x512_S2000x36_S512x36_0_0_1_1_n_n_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x72_S72x54_S512x54_1_0_0_1_n_n : DotDims S512x72 S72x54 S512x54 where
  lhsContracting := [1]
  rhsContracting := [0]
  lhsNonContracting := [0]
  rhsNonContracting := [1]
  lhsBatch := []
  rhsBatch := []
  wf := dot_S512x72_S72x54_S512x54_1_0_0_1_n_n_wf
def dot_S512x54_S54x18_S512x18_1_0_0_1_n_n : DotDims S512x54 S54x18 S512x18 where
  lhsContracting := [1]
  rhsContracting := [0]
  lhsNonContracting := [0]
  rhsNonContracting := [1]
  lhsBatch := []
  rhsBatch := []
  wf := dot_S512x54_S54x18_S512x18_1_0_0_1_n_n_wf
def dot_S512x18_S18x1_S512x1_1_0_0_1_n_n : DotDims S512x18 S18x1 S512x1 where
  lhsContracting := [1]
  rhsContracting := [0]
  lhsNonContracting := [0]
  rhsNonContracting := [1]
  lhsBatch := []
  rhsBatch := []
  wf := dot_S512x18_S18x1_S512x1_1_0_0_1_n_n_wf

abbrev win0_0 : Pipeline.Window sig grid0 :=
  Pipeline.Window.ofSpec (Memref.whole main_v18) S5000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S6x36.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x36.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S36x36.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x36.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31_0) S5000x36.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v31_1) S8x36.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v31_2) S8x36.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v71) S5000x36.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v80) S36x36.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v82) S1x36.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v81) S36x36.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v83) S1x36.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v84_0) S5000x36.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v84_1) S8x36.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v84_2) S8x36.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v124) S5000x36.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v133) S36x36.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v135) S1x36.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v134) S36x36.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v136) S1x36.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v137_0) S5000x36.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v137_1) S8x36.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v137_2) S8x36.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v137_0) S2000x36.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v153) S1x36.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v154) S1x36.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v155) S1x36.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v156) S1x36.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v152) S2000x1.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v157) S512x36.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v185) S5000x6.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v194) S6x36.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v196) S1x36.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v195) S36x36.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v197) S1x36.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v198_0) S5000x36.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v198_1) S8x36.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v198_2) S8x36.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v238) S5000x36.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v247) S36x36.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v249) S1x36.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v248) S36x36.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v250) S1x36.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v251_0) S5000x36.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v251_1) S8x36.size cc5_transform_6 reads5_6 true false 2 stage5_6 sem5_6
    hrank5 hreads5_6 hinb5_6 nbuf5_6 (Memref.isWhole_whole _) hwx5_6 hstage5_6

abbrev win5_7 : Pipeline.Window sig grid5 :=
  Pipeline.Window.ofSpec (Memref.whole main_v251_2) S8x36.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v291) S5000x36.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v300) S36x36.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v302) S1x36.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v301) S36x36.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v303) S1x36.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v304_0) S5000x36.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v304_1) S8x36.size cc6_transform_6 reads6_6 true false 2 stage6_6 sem6_6
    hrank6 hreads6_6 hinb6_6 nbuf6_6 (Memref.isWhole_whole _) hwx6_6 hstage6_6

abbrev win6_7 : Pipeline.Window sig grid6 :=
  Pipeline.Window.ofSpec (Memref.whole main_v304_2) S8x36.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v304_0) S2000x36.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v320) S1x36.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v321) S1x36.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v322) S1x36.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v323) S1x36.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v319) S2000x1.size cc7_transform_5 reads7_5 false false 2 stage7_5 sem7_5
    hrank7 hreads7_5 hinb7_5 nbuf7_5 (Memref.isWhole_whole _) hwx7_5 hstage7_5

abbrev win7_6 : Pipeline.Window sig grid7 :=
  Pipeline.Window.ofSpec (Memref.whole main_v324) S512x36.size cc7_transform_6 reads7_6 true true 1 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

class Facts : Prop extends Facts₀ where

variable [Facts]
-- ==== ReferenceIdeal.lean ====
abbrev S2x100000x6 : Shape := ⟨3, ![2, 100000, 6]⟩
abbrev S2x2x1600000 : Shape := ⟨3, ![2, 2, 1600000]⟩
abbrev S2x100000 : Shape := ⟨2, ![2, 100000]⟩
abbrev S2x36x6 : Shape := ⟨3, ![2, 36, 6]⟩
abbrev S2x36 : Shape := ⟨2, ![2, 36]⟩
abbrev S2x36x36 : Shape := ⟨3, ![2, 36, 36]⟩
abbrev S2x3x36 : Shape := ⟨3, ![2, 3, 36]⟩
abbrev S54x72 : Shape := ⟨2, ![54, 72]⟩
abbrev S54 : Shape := ⟨1, ![54]⟩
abbrev S18x54 : Shape := ⟨2, ![18, 54]⟩
abbrev S18 : Shape := ⟨1, ![18]⟩
abbrev S1x18 : Shape := ⟨2, ![1, 18]⟩
abbrev S1 : Shape := ⟨1, ![1]⟩
abbrev S1x1x1600000 : Shape := ⟨3, ![1, 1, 1600000]⟩
abbrev S1600000 : Shape := ⟨1, ![1600000]⟩
abbrev S1x100000x6 : Shape := ⟨3, ![1, 100000, 6]⟩
abbrev S100000x6 : Shape := ⟨2, ![100000, 6]⟩
abbrev S1x36x6 : Shape := ⟨3, ![1, 36, 6]⟩
abbrev S36x6 : Shape := ⟨2, ![36, 6]⟩
abbrev S1x36 : Shape := ⟨2, ![1, 36]⟩
abbrev S36 : Shape := ⟨1, ![36]⟩
abbrev S1x36x36 : Shape := ⟨3, ![1, 36, 36]⟩
abbrev S36x36 : Shape := ⟨2, ![36, 36]⟩
abbrev S_ : Shape := ⟨0, ![]⟩
abbrev S1600000x1 : Shape := ⟨2, ![1600000, 1]⟩
abbrev S1600000x6 : Shape := ⟨2, ![1600000, 6]⟩
abbrev S6x36 : Shape := ⟨2, ![6, 36]⟩
abbrev S100000x36 : Shape := ⟨2, ![100000, 36]⟩
abbrev S1x1x36 : Shape := ⟨3, ![1, 1, 36]⟩
abbrev S1600000x36 : Shape := ⟨2, ![1600000, 36]⟩
abbrev S1x100000 : Shape := ⟨2, ![1, 100000]⟩
abbrev S100000 : Shape := ⟨1, ![100000]⟩
abbrev S512x36 : Shape := ⟨2, ![512, 36]⟩
abbrev S100000x1 : Shape := ⟨2, ![100000, 1]⟩
abbrev S512 : Shape := ⟨1, ![512]⟩
abbrev S512x1 : Shape := ⟨2, ![512, 1]⟩
abbrev S512x72 : Shape := ⟨2, ![512, 72]⟩
abbrev S72x54 : Shape := ⟨2, ![72, 54]⟩
abbrev S512x54 : Shape := ⟨2, ![512, 54]⟩
abbrev S1x54 : Shape := ⟨2, ![1, 54]⟩
abbrev S54x18 : Shape := ⟨2, ![54, 18]⟩
abbrev S512x18 : Shape := ⟨2, ![512, 18]⟩
abbrev S18x1 : Shape := ⟨2, ![18, 1]⟩
abbrev S1x1 : Shape := ⟨2, ![1, 1]⟩

abbrev nBuf : Space → Nat
  | .hbm => 621
  | .vmem => 0
  | .smem => 0
  | _ => 0

abbrev hbmTy0_0 (i : Nat) : BufTy := match i % 128 with
  | 0 => ⟨S2x100000x6, .f32⟩
  | 1 => ⟨S2x2x1600000, .i32⟩
  | 2 => ⟨S2x100000, .i32⟩
  | 3 => ⟨S2x36x6, .f32⟩
  | 4 => ⟨S2x36, .f32⟩
  | 5 => ⟨S2x36x36, .f32⟩
  | 6 => ⟨S2x36, .f32⟩
  | 7 => ⟨S2x36x36, .f32⟩
  | 8 => ⟨S2x36, .f32⟩
  | 9 => ⟨S2x36x36, .f32⟩
  | 10 => ⟨S2x36, .f32⟩
  | 11 => ⟨S2x36x36, .f32⟩
  | 12 => ⟨S2x36, .f32⟩
  | 13 => ⟨S2x36x36, .f32⟩
  | 14 => ⟨S2x36, .f32⟩
  | 15 => ⟨S2x3x36, .f32⟩
  | 16 => ⟨S2x3x36, .f32⟩
  | 17 => ⟨S54x72, .f32⟩
  | 18 => ⟨S54, .f32⟩
  | 19 => ⟨S18x54, .f32⟩
  | 20 => ⟨S18, .f32⟩
  | 21 => ⟨S1x18, .f32⟩
  | 22 => ⟨S1, .f32⟩
  | 23 => ⟨S1x1x1600000, .i32⟩
  | 24 => ⟨S1600000, .i32⟩
  | 25 => ⟨S1x1x1600000, .i32⟩
  | 26 => ⟨S1600000, .i32⟩
  | 27 => ⟨S1x100000x6, .f32⟩
  | 28 => ⟨S100000x6, .f32⟩
  | 29 => ⟨S1x36x6, .f32⟩
  | 30 => ⟨S36x6, .f32⟩
  | 31 => ⟨S1x36, .f32⟩
  | 32 => ⟨S36, .f32⟩
  | 33 => ⟨S1x36x36, .f32⟩
  | 34 => ⟨S36x36, .f32⟩
  | 35 => ⟨S1x36, .f32⟩
  | 36 => ⟨S36, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000x6, .f32⟩
  | 46 => ⟨S_, .f32⟩
  | 47 => ⟨S100000x6, .f32⟩
  | 48 => ⟨S1600000x1, .i32⟩
  | 49 => ⟨S100000x6, .f32⟩
  | 50 => ⟨S100000x6, .f32⟩
  | 51 => ⟨S6x36, .f32⟩
  | 52 => ⟨S100000x36, .f32⟩
  | 53 => ⟨S1x36, .f32⟩
  | 54 => ⟨S100000x36, .f32⟩
  | 55 => ⟨S100000x36, .f32⟩
  | 56 => ⟨S_, .f32⟩
  | 57 => ⟨S100000x36, .f32⟩
  | 58 => ⟨S100000x36, .f32⟩
  | 59 => ⟨S36x36, .f32⟩
  | 60 => ⟨S100000x36, .f32⟩
  | 61 => ⟨S1x36, .f32⟩
  | 62 => ⟨S100000x36, .f32⟩
  | 63 => ⟨S100000x36, .f32⟩
  | 64 => ⟨S_, .f32⟩
  | 65 => ⟨S100000x36, .f32⟩
  | 66 => ⟨S100000x36, .f32⟩
  | 67 => ⟨S1x1x36, .f32⟩
  | 68 => ⟨S36, .f32⟩
  | 69 => ⟨S1x1x36, .f32⟩
  | 70 => ⟨S36, .f32⟩
  | 71 => ⟨S_, .f32⟩
  | 72 => ⟨S36, .f32⟩
  | 73 => ⟨S_, .f32⟩
  | 74 => ⟨S36, .f32⟩
  | 75 => ⟨S36, .f32⟩
  | 76 => ⟨S_, .i32⟩
  | 77 => ⟨S_, .f32⟩
  | 78 => ⟨S36, .f32⟩
  | 79 => ⟨S1x36, .f32⟩
  | 80 => ⟨S_, .f32⟩
  | 81 => ⟨S1x36, .f32⟩
  | 82 => ⟨S1x36, .f32⟩
  | 83 => ⟨S100000x36, .f32⟩
  | 84 => ⟨S100000x36, .f32⟩
  | 85 => ⟨S100000x36, .f32⟩
  | 86 => ⟨S_, .f32⟩
  | 87 => ⟨S_, .f32⟩
  | 88 => ⟨S_, .f32⟩
  | 89 => ⟨S_, .f32⟩
  | 90 => ⟨S36, .f32⟩
  | 91 => ⟨S36, .f32⟩
  | 92 => ⟨S36, .f32⟩
  | 93 => ⟨S_, .f32⟩
  | 94 => ⟨S_, .i1⟩
  | 95 => ⟨S_, .f32⟩
  | 96 => ⟨S_, .f32⟩
  | 97 => ⟨S36, .f32⟩
  | 98 => ⟨S36, .f32⟩
  | 99 => ⟨S1x36, .f32⟩
  | 100 => ⟨S100000x36, .f32⟩
  | 101 => ⟨S100000x36, .f32⟩
  | 102 => ⟨S1x36, .f32⟩
  | 103 => ⟨S100000x36, .f32⟩
  | 104 => ⟨S100000x36, .f32⟩
  | 105 => ⟨S_, .f32⟩
  | 106 => ⟨S36, .f32⟩
  | 107 => ⟨S36, .f32⟩
  | 108 => ⟨S36, .f32⟩
  | 109 => ⟨S1x36, .f32⟩
  | 110 => ⟨S100000x36, .f32⟩
  | 111 => ⟨S100000x36, .f32⟩
  | 112 => ⟨S1x36, .f32⟩
  | 113 => ⟨S100000x36, .f32⟩
  | 114 => ⟨S100000x36, .f32⟩
  | 115 => ⟨S1x36x36, .f32⟩
  | 116 => ⟨S36x36, .f32⟩
  | 117 => ⟨S1x36, .f32⟩
  | 118 => ⟨S36, .f32⟩
  | 119 => ⟨S1x36x36, .f32⟩
  | 120 => ⟨S36x36, .f32⟩
  | 121 => ⟨S1x36, .f32⟩
  | 122 => ⟨S36, .f32⟩
  | 123 => ⟨S_, .i32⟩
  | 124 => ⟨S1600000, .i32⟩
  | 125 => ⟨S1600000, .i1⟩
  | 126 => ⟨S_, .i32⟩
  | 127 => ⟨S1600000, .i32⟩
  | _ => ⟨S2x100000x6, .f32⟩

abbrev hbmTy0_1 (i : Nat) : BufTy := match i % 128 with
  | 0 => ⟨S1600000, .i32⟩
  | 1 => ⟨S1600000, .i32⟩
  | 2 => ⟨S1600000x1, .i32⟩
  | 3 => ⟨S1600000x36, .f32⟩
  | 4 => ⟨S_, .f32⟩
  | 5 => ⟨S100000x36, .f32⟩
  | 6 => ⟨S1600000x1, .i32⟩
  | 7 => ⟨S100000x36, .f32⟩
  | 8 => ⟨S100000x36, .f32⟩
  | 9 => ⟨S36x36, .f32⟩
  | 10 => ⟨S100000x36, .f32⟩
  | 11 => ⟨S1x36, .f32⟩
  | 12 => ⟨S100000x36, .f32⟩
  | 13 => ⟨S100000x36, .f32⟩
  | 14 => ⟨S_, .f32⟩
  | 15 => ⟨S100000x36, .f32⟩
  | 16 => ⟨S100000x36, .f32⟩
  | 17 => ⟨S36x36, .f32⟩
  | 18 => ⟨S100000x36, .f32⟩
  | 19 => ⟨S1x36, .f32⟩
  | 20 => ⟨S100000x36, .f32⟩
  | 21 => ⟨S100000x36, .f32⟩
  | 22 => ⟨S_, .f32⟩
  | 23 => ⟨S100000x36, .f32⟩
  | 24 => ⟨S100000x36, .f32⟩
  | 25 => ⟨S1x1x36, .f32⟩
  | 26 => ⟨S36, .f32⟩
  | 27 => ⟨S1x1x36, .f32⟩
  | 28 => ⟨S36, .f32⟩
  | 29 => ⟨S_, .f32⟩
  | 30 => ⟨S36, .f32⟩
  | 31 => ⟨S_, .f32⟩
  | 32 => ⟨S36, .f32⟩
  | 33 => ⟨S36, .f32⟩
  | 34 => ⟨S_, .i32⟩
  | 35 => ⟨S_, .f32⟩
  | 36 => ⟨S36, .f32⟩
  | 37 => ⟨S1x36, .f32⟩
  | 38 => ⟨S_, .f32⟩
  | 39 => ⟨S1x36, .f32⟩
  | 40 => ⟨S1x36, .f32⟩
  | 41 => ⟨S100000x36, .f32⟩
  | 42 => ⟨S100000x36, .f32⟩
  | 43 => ⟨S100000x36, .f32⟩
  | 44 => ⟨S_, .f32⟩
  | 45 => ⟨S_, .f32⟩
  | 46 => ⟨S_, .f32⟩
  | 47 => ⟨S_, .f32⟩
  | 48 => ⟨S36, .f32⟩
  | 49 => ⟨S36, .f32⟩
  | 50 => ⟨S36, .f32⟩
  | 51 => ⟨S_, .f32⟩
  | 52 => ⟨S_, .i1⟩
  | 53 => ⟨S_, .f32⟩
  | 54 => ⟨S_, .f32⟩
  | 55 => ⟨S36, .f32⟩
  | 56 => ⟨S36, .f32⟩
  | 57 => ⟨S1x36, .f32⟩
  | 58 => ⟨S100000x36, .f32⟩
  | 59 => ⟨S100000x36, .f32⟩
  | 60 => ⟨S1x36, .f32⟩
  | 61 => ⟨S100000x36, .f32⟩
  | 62 => ⟨S100000x36, .f32⟩
  | 63 => ⟨S_, .f32⟩
  | 64 => ⟨S36, .f32⟩
  | 65 => ⟨S36, .f32⟩
  | 66 => ⟨S36, .f32⟩
  | 67 => ⟨S1x36, .f32⟩
  | 68 => ⟨S100000x36, .f32⟩
  | 69 => ⟨S100000x36, .f32⟩
  | 70 => ⟨S1x36, .f32⟩
  | 71 => ⟨S100000x36, .f32⟩
  | 72 => ⟨S100000x36, .f32⟩
  | 73 => ⟨S1x36x36, .f32⟩
  | 74 => ⟨S36x36, .f32⟩
  | 75 => ⟨S1x36, .f32⟩
  | 76 => ⟨S36, .f32⟩
  | 77 => ⟨S1x36x36, .f32⟩
  | 78 => ⟨S36x36, .f32⟩
  | 79 => ⟨S1x36, .f32⟩
  | 80 => ⟨S36, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000x36, .f32⟩
  | 90 => ⟨S_, .f32⟩
  | 91 => ⟨S100000x36, .f32⟩
  | 92 => ⟨S1600000x1, .i32⟩
  | 93 => ⟨S100000x36, .f32⟩
  | 94 => ⟨S100000x36, .f32⟩
  | 95 => ⟨S36x36, .f32⟩
  | 96 => ⟨S100000x36, .f32⟩
  | 97 => ⟨S1x36, .f32⟩
  | 98 => ⟨S100000x36, .f32⟩
  | 99 => ⟨S100000x36, .f32⟩
  | 100 => ⟨S_, .f32⟩
  | 101 => ⟨S100000x36, .f32⟩
  | 102 => ⟨S100000x36, .f32⟩
  | 103 => ⟨S36x36, .f32⟩
  | 104 => ⟨S100000x36, .f32⟩
  | 105 => ⟨S1x36, .f32⟩
  | 106 => ⟨S100000x36, .f32⟩
  | 107 => ⟨S100000x36, .f32⟩
  | 108 => ⟨S_, .f32⟩
  | 109 => ⟨S100000x36, .f32⟩
  | 110 => ⟨S100000x36, .f32⟩
  | 111 => ⟨S1x1x36, .f32⟩
  | 112 => ⟨S36, .f32⟩
  | 113 => ⟨S1x1x36, .f32⟩
  | 114 => ⟨S36, .f32⟩
  | 115 => ⟨S_, .f32⟩
  | 116 => ⟨S36, .f32⟩
  | 117 => ⟨S_, .f32⟩
  | 118 => ⟨S36, .f32⟩
  | 119 => ⟨S36, .f32⟩
  | 120 => ⟨S_, .i32⟩
  | 121 => ⟨S_, .f32⟩
  | 122 => ⟨S36, .f32⟩
  | 123 => ⟨S1x36, .f32⟩
  | 124 => ⟨S_, .f32⟩
  | 125 => ⟨S1x36, .f32⟩
  | 126 => ⟨S1x36, .f32⟩
  | 127 => ⟨S100000x36, .f32⟩
  | _ => ⟨S2x100000x6, .f32⟩

abbrev hbmTy0_2 (i : Nat) : BufTy := match i % 128 with
  | 0 => ⟨S100000x36, .f32⟩
  | 1 => ⟨S100000x36, .f32⟩
  | 2 => ⟨S_, .f32⟩
  | 3 => ⟨S_, .f32⟩
  | 4 => ⟨S_, .f32⟩
  | 5 => ⟨S_, .f32⟩
  | 6 => ⟨S36, .f32⟩
  | 7 => ⟨S36, .f32⟩
  | 8 => ⟨S36, .f32⟩
  | 9 => ⟨S_, .f32⟩
  | 10 => ⟨S_, .i1⟩
  | 11 => ⟨S_, .f32⟩
  | 12 => ⟨S_, .f32⟩
  | 13 => ⟨S36, .f32⟩
  | 14 => ⟨S36, .f32⟩
  | 15 => ⟨S1x36, .f32⟩
  | 16 => ⟨S100000x36, .f32⟩
  | 17 => ⟨S100000x36, .f32⟩
  | 18 => ⟨S1x36, .f32⟩
  | 19 => ⟨S100000x36, .f32⟩
  | 20 => ⟨S100000x36, .f32⟩
  | 21 => ⟨S_, .f32⟩
  | 22 => ⟨S36, .f32⟩
  | 23 => ⟨S36, .f32⟩
  | 24 => ⟨S36, .f32⟩
  | 25 => ⟨S1x36, .f32⟩
  | 26 => ⟨S100000x36, .f32⟩
  | 27 => ⟨S100000x36, .f32⟩
  | 28 => ⟨S1x36, .f32⟩
  | 29 => ⟨S100000x36, .f32⟩
  | 30 => ⟨S100000x36, .f32⟩
  | 31 => ⟨S1x100000, .i32⟩
  | 32 => ⟨S100000, .i32⟩
  | 33 => ⟨S_, .f32⟩
  | 34 => ⟨S512x36, .f32⟩
  | 35 => ⟨S100000x1, .i32⟩
  | 36 => ⟨S512x36, .f32⟩
  | 37 => ⟨S_, .f32⟩
  | 38 => ⟨S100000, .f32⟩
  | 39 => ⟨S1x100000, .i32⟩
  | 40 => ⟨S100000, .i32⟩
  | 41 => ⟨S_, .f32⟩
  | 42 => ⟨S512, .f32⟩
  | 43 => ⟨S100000x1, .i32⟩
  | 44 => ⟨S512, .f32⟩
  | 45 => ⟨S_, .f32⟩
  | 46 => ⟨S512, .f32⟩
  | 47 => ⟨S512, .f32⟩
  | 48 => ⟨S512x1, .f32⟩
  | 49 => ⟨S512x36, .f32⟩
  | 50 => ⟨S512x36, .f32⟩
  | 51 => ⟨S1x1x1600000, .i32⟩
  | 52 => ⟨S1600000, .i32⟩
  | 53 => ⟨S1x1x1600000, .i32⟩
  | 54 => ⟨S1600000, .i32⟩
  | 55 => ⟨S1x100000x6, .f32⟩
  | 56 => ⟨S100000x6, .f32⟩
  | 57 => ⟨S1x36x6, .f32⟩
  | 58 => ⟨S36x6, .f32⟩
  | 59 => ⟨S1x36, .f32⟩
  | 60 => ⟨S36, .f32⟩
  | 61 => ⟨S1x36x36, .f32⟩
  | 62 => ⟨S36x36, .f32⟩
  | 63 => ⟨S1x36, .f32⟩
  | 64 => ⟨S36, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x6, .f32⟩
  | 74 => ⟨S_, .f32⟩
  | 75 => ⟨S100000x6, .f32⟩
  | 76 => ⟨S1600000x1, .i32⟩
  | 77 => ⟨S100000x6, .f32⟩
  | 78 => ⟨S100000x6, .f32⟩
  | 79 => ⟨S6x36, .f32⟩
  | 80 => ⟨S100000x36, .f32⟩
  | 81 => ⟨S1x36, .f32⟩
  | 82 => ⟨S100000x36, .f32⟩
  | 83 => ⟨S100000x36, .f32⟩
  | 84 => ⟨S_, .f32⟩
  | 85 => ⟨S100000x36, .f32⟩
  | 86 => ⟨S100000x36, .f32⟩
  | 87 => ⟨S36x36, .f32⟩
  | 88 => ⟨S100000x36, .f32⟩
  | 89 => ⟨S1x36, .f32⟩
  | 90 => ⟨S100000x36, .f32⟩
  | 91 => ⟨S100000x36, .f32⟩
  | 92 => ⟨S_, .f32⟩
  | 93 => ⟨S100000x36, .f32⟩
  | 94 => ⟨S100000x36, .f32⟩
  | 95 => ⟨S1x1x36, .f32⟩
  | 96 => ⟨S36, .f32⟩
  | 97 => ⟨S1x1x36, .f32⟩
  | 98 => ⟨S36, .f32⟩
  | 99 => ⟨S_, .f32⟩
  | 100 => ⟨S36, .f32⟩
  | 101 => ⟨S_, .f32⟩
  | 102 => ⟨S36, .f32⟩
  | 103 => ⟨S36, .f32⟩
  | 104 => ⟨S_, .i32⟩
  | 105 => ⟨S_, .f32⟩
  | 106 => ⟨S36, .f32⟩
  | 107 => ⟨S1x36, .f32⟩
  | 108 => ⟨S_, .f32⟩
  | 109 => ⟨S1x36, .f32⟩
  | 110 => ⟨S1x36, .f32⟩
  | 111 => ⟨S100000x36, .f32⟩
  | 112 => ⟨S100000x36, .f32⟩
  | 113 => ⟨S100000x36, .f32⟩
  | 114 => ⟨S_, .f32⟩
  | 115 => ⟨S_, .f32⟩
  | 116 => ⟨S_, .f32⟩
  | 117 => ⟨S_, .f32⟩
  | 118 => ⟨S36, .f32⟩
  | 119 => ⟨S36, .f32⟩
  | 120 => ⟨S36, .f32⟩
  | 121 => ⟨S_, .f32⟩
  | 122 => ⟨S_, .i1⟩
  | 123 => ⟨S_, .f32⟩
  | 124 => ⟨S_, .f32⟩
  | 125 => ⟨S36, .f32⟩
  | 126 => ⟨S36, .f32⟩
  | 127 => ⟨S1x36, .f32⟩
  | _ => ⟨S2x100000x6, .f32⟩

abbrev hbmTy0_3 (i : Nat) : BufTy := match i % 128 with
  | 0 => ⟨S100000x36, .f32⟩
  | 1 => ⟨S100000x36, .f32⟩
  | 2 => ⟨S1x36, .f32⟩
  | 3 => ⟨S100000x36, .f32⟩
  | 4 => ⟨S100000x36, .f32⟩
  | 5 => ⟨S_, .f32⟩
  | 6 => ⟨S36, .f32⟩
  | 7 => ⟨S36, .f32⟩
  | 8 => ⟨S36, .f32⟩
  | 9 => ⟨S1x36, .f32⟩
  | 10 => ⟨S100000x36, .f32⟩
  | 11 => ⟨S100000x36, .f32⟩
  | 12 => ⟨S1x36, .f32⟩
  | 13 => ⟨S100000x36, .f32⟩
  | 14 => ⟨S100000x36, .f32⟩
  | 15 => ⟨S1x36x36, .f32⟩
  | 16 => ⟨S36x36, .f32⟩
  | 17 => ⟨S1x36, .f32⟩
  | 18 => ⟨S36, .f32⟩
  | 19 => ⟨S1x36x36, .f32⟩
  | 20 => ⟨S36x36, .f32⟩
  | 21 => ⟨S1x36, .f32⟩
  | 22 => ⟨S36, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x36, .f32⟩
  | 32 => ⟨S_, .f32⟩
  | 33 => ⟨S100000x36, .f32⟩
  | 34 => ⟨S1600000x1, .i32⟩
  | 35 => ⟨S100000x36, .f32⟩
  | 36 => ⟨S100000x36, .f32⟩
  | 37 => ⟨S36x36, .f32⟩
  | 38 => ⟨S100000x36, .f32⟩
  | 39 => ⟨S1x36, .f32⟩
  | 40 => ⟨S100000x36, .f32⟩
  | 41 => ⟨S100000x36, .f32⟩
  | 42 => ⟨S_, .f32⟩
  | 43 => ⟨S100000x36, .f32⟩
  | 44 => ⟨S100000x36, .f32⟩
  | 45 => ⟨S36x36, .f32⟩
  | 46 => ⟨S100000x36, .f32⟩
  | 47 => ⟨S1x36, .f32⟩
  | 48 => ⟨S100000x36, .f32⟩
  | 49 => ⟨S100000x36, .f32⟩
  | 50 => ⟨S_, .f32⟩
  | 51 => ⟨S100000x36, .f32⟩
  | 52 => ⟨S100000x36, .f32⟩
  | 53 => ⟨S1x1x36, .f32⟩
  | 54 => ⟨S36, .f32⟩
  | 55 => ⟨S1x1x36, .f32⟩
  | 56 => ⟨S36, .f32⟩
  | 57 => ⟨S_, .f32⟩
  | 58 => ⟨S36, .f32⟩
  | 59 => ⟨S_, .f32⟩
  | 60 => ⟨S36, .f32⟩
  | 61 => ⟨S36, .f32⟩
  | 62 => ⟨S_, .i32⟩
  | 63 => ⟨S_, .f32⟩
  | 64 => ⟨S36, .f32⟩
  | 65 => ⟨S1x36, .f32⟩
  | 66 => ⟨S_, .f32⟩
  | 67 => ⟨S1x36, .f32⟩
  | 68 => ⟨S1x36, .f32⟩
  | 69 => ⟨S100000x36, .f32⟩
  | 70 => ⟨S100000x36, .f32⟩
  | 71 => ⟨S100000x36, .f32⟩
  | 72 => ⟨S_, .f32⟩
  | 73 => ⟨S_, .f32⟩
  | 74 => ⟨S_, .f32⟩
  | 75 => ⟨S_, .f32⟩
  | 76 => ⟨S36, .f32⟩
  | 77 => ⟨S36, .f32⟩
  | 78 => ⟨S36, .f32⟩
  | 79 => ⟨S_, .f32⟩
  | 80 => ⟨S_, .i1⟩
  | 81 => ⟨S_, .f32⟩
  | 82 => ⟨S_, .f32⟩
  | 83 => ⟨S36, .f32⟩
  | 84 => ⟨S36, .f32⟩
  | 85 => ⟨S1x36, .f32⟩
  | 86 => ⟨S100000x36, .f32⟩
  | 87 => ⟨S100000x36, .f32⟩
  | 88 => ⟨S1x36, .f32⟩
  | 89 => ⟨S100000x36, .f32⟩
  | 90 => ⟨S100000x36, .f32⟩
  | 91 => ⟨S_, .f32⟩
  | 92 => ⟨S36, .f32⟩
  | 93 => ⟨S36, .f32⟩
  | 94 => ⟨S36, .f32⟩
  | 95 => ⟨S1x36, .f32⟩
  | 96 => ⟨S100000x36, .f32⟩
  | 97 => ⟨S100000x36, .f32⟩
  | 98 => ⟨S1x36, .f32⟩
  | 99 => ⟨S100000x36, .f32⟩
  | 100 => ⟨S100000x36, .f32⟩
  | 101 => ⟨S1x36x36, .f32⟩
  | 102 => ⟨S36x36, .f32⟩
  | 103 => ⟨S1x36, .f32⟩
  | 104 => ⟨S36, .f32⟩
  | 105 => ⟨S1x36x36, .f32⟩
  | 106 => ⟨S36x36, .f32⟩
  | 107 => ⟨S1x36, .f32⟩
  | 108 => ⟨S36, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x36, .f32⟩
  | 118 => ⟨S_, .f32⟩
  | 119 => ⟨S100000x36, .f32⟩
  | 120 => ⟨S1600000x1, .i32⟩
  | 121 => ⟨S100000x36, .f32⟩
  | 122 => ⟨S100000x36, .f32⟩
  | 123 => ⟨S36x36, .f32⟩
  | 124 => ⟨S100000x36, .f32⟩
  | 125 => ⟨S1x36, .f32⟩
  | 126 => ⟨S100000x36, .f32⟩
  | 127 => ⟨S100000x36, .f32⟩
  | _ => ⟨S2x100000x6, .f32⟩

abbrev hbmTy0_4 (i : Nat) : BufTy := match i % 128 with
  | 0 => ⟨S_, .f32⟩
  | 1 => ⟨S100000x36, .f32⟩
  | 2 => ⟨S100000x36, .f32⟩
  | 3 => ⟨S36x36, .f32⟩
  | 4 => ⟨S100000x36, .f32⟩
  | 5 => ⟨S1x36, .f32⟩
  | 6 => ⟨S100000x36, .f32⟩
  | 7 => ⟨S100000x36, .f32⟩
  | 8 => ⟨S_, .f32⟩
  | 9 => ⟨S100000x36, .f32⟩
  | 10 => ⟨S100000x36, .f32⟩
  | 11 => ⟨S1x1x36, .f32⟩
  | 12 => ⟨S36, .f32⟩
  | 13 => ⟨S1x1x36, .f32⟩
  | 14 => ⟨S36, .f32⟩
  | 15 => ⟨S_, .f32⟩
  | 16 => ⟨S36, .f32⟩
  | 17 => ⟨S_, .f32⟩
  | 18 => ⟨S36, .f32⟩
  | 19 => ⟨S36, .f32⟩
  | 20 => ⟨S_, .i32⟩
  | 21 => ⟨S_, .f32⟩
  | 22 => ⟨S36, .f32⟩
  | 23 => ⟨S1x36, .f32⟩
  | 24 => ⟨S_, .f32⟩
  | 25 => ⟨S1x36, .f32⟩
  | 26 => ⟨S1x36, .f32⟩
  | 27 => ⟨S100000x36, .f32⟩
  | 28 => ⟨S100000x36, .f32⟩
  | 29 => ⟨S100000x36, .f32⟩
  | 30 => ⟨S_, .f32⟩
  | 31 => ⟨S_, .f32⟩
  | 32 => ⟨S_, .f32⟩
  | 33 => ⟨S_, .f32⟩
  | 34 => ⟨S36, .f32⟩
  | 35 => ⟨S36, .f32⟩
  | 36 => ⟨S36, .f32⟩
  | 37 => ⟨S_, .f32⟩
  | 38 => ⟨S_, .i1⟩
  | 39 => ⟨S_, .f32⟩
  | 40 => ⟨S_, .f32⟩
  | 41 => ⟨S36, .f32⟩
  | 42 => ⟨S36, .f32⟩
  | 43 => ⟨S1x36, .f32⟩
  | 44 => ⟨S100000x36, .f32⟩
  | 45 => ⟨S100000x36, .f32⟩
  | 46 => ⟨S1x36, .f32⟩
  | 47 => ⟨S100000x36, .f32⟩
  | 48 => ⟨S100000x36, .f32⟩
  | 49 => ⟨S_, .f32⟩
  | 50 => ⟨S36, .f32⟩
  | 51 => ⟨S36, .f32⟩
  | 52 => ⟨S36, .f32⟩
  | 53 => ⟨S1x36, .f32⟩
  | 54 => ⟨S100000x36, .f32⟩
  | 55 => ⟨S100000x36, .f32⟩
  | 56 => ⟨S1x36, .f32⟩
  | 57 => ⟨S100000x36, .f32⟩
  | 58 => ⟨S100000x36, .f32⟩
  | 59 => ⟨S1x100000, .i32⟩
  | 60 => ⟨S100000, .i32⟩
  | 61 => ⟨S_, .f32⟩
  | 62 => ⟨S512x36, .f32⟩
  | 63 => ⟨S100000x1, .i32⟩
  | 64 => ⟨S512x36, .f32⟩
  | 65 => ⟨S_, .f32⟩
  | 66 => ⟨S100000, .f32⟩
  | 67 => ⟨S1x100000, .i32⟩
  | 68 => ⟨S100000, .i32⟩
  | 69 => ⟨S_, .f32⟩
  | 70 => ⟨S512, .f32⟩
  | 71 => ⟨S100000x1, .i32⟩
  | 72 => ⟨S512, .f32⟩
  | 73 => ⟨S_, .f32⟩
  | 74 => ⟨S512, .f32⟩
  | 75 => ⟨S512, .f32⟩
  | 76 => ⟨S512x1, .f32⟩
  | 77 => ⟨S512x36, .f32⟩
  | 78 => ⟨S512x36, .f32⟩
  | 79 => ⟨S512x72, .f32⟩
  | 80 => ⟨S72x54, .f32⟩
  | 81 => ⟨S512x54, .f32⟩
  | 82 => ⟨S1x54, .f32⟩
  | 83 => ⟨S512x54, .f32⟩
  | 84 => ⟨S512x54, .f32⟩
  | 85 => ⟨S_, .f32⟩
  | 86 => ⟨S512x54, .f32⟩
  | 87 => ⟨S512x54, .f32⟩
  | 88 => ⟨S54x18, .f32⟩
  | 89 => ⟨S512x18, .f32⟩
  | 90 => ⟨S1x18, .f32⟩
  | 91 => ⟨S512x18, .f32⟩
  | 92 => ⟨S512x18, .f32⟩
  | 93 => ⟨S_, .f32⟩
  | 94 => ⟨S512x18, .f32⟩
  | 95 => ⟨S512x18, .f32⟩
  | 96 => ⟨S18x1, .f32⟩
  | 97 => ⟨S512x1, .f32⟩
  | 98 => ⟨S1x1, .f32⟩
  | 99 => ⟨S512x1, .f32⟩
  | 100 => ⟨S512x1, .f32⟩
  | 101 => ⟨S512x1, .f32⟩
  | 102 => ⟨S512x1, .f32⟩
  | 103 => ⟨S_, .f32⟩
  | 104 => ⟨S512x1, .f32⟩
  | 105 => ⟨S512x1, .f32⟩
  | 106 => ⟨S_, .f32⟩
  | 107 => ⟨S512x1, .f32⟩
  | 108 => ⟨S512x1, .f32⟩
  | _ => ⟨S2x100000x6, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x100000x6, .f32⟩

abbrev bufTy : (tb : Table) → Fin (tcTables nBuf tb) → BufTy
  | .hbm, ⟨i, _⟩ => hbmTy i
  | _, _ => ⟨S2x100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_c : Ref sig .tc := ⟨.hbm, 37, rfl⟩
abbrev main_v14 : Ref sig .tc := ⟨.hbm, 38, rfl⟩
abbrev main_v15 : Ref sig .tc := ⟨.hbm, 39, rfl⟩
abbrev main_c_0 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_call0_cst : Ref sig .tc := ⟨.hbm, 56, rfl⟩
abbrev main_call0_v0 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_call1_cst : Ref sig .tc := ⟨.hbm, 64, rfl⟩
abbrev main_call1_v0 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_1 : Ref sig .tc := ⟨.hbm, 71, rfl⟩
abbrev main_v41 : Ref sig .tc := ⟨.hbm, 72, rfl⟩
abbrev main_cst_2 : Ref sig .tc := ⟨.hbm, 73, rfl⟩
abbrev main_v42 : Ref sig .tc := ⟨.hbm, 74, rfl⟩
abbrev main_v43 : Ref sig .tc := ⟨.hbm, 75, rfl⟩
abbrev main_c_3 : Ref sig .tc := ⟨.hbm, 76, rfl⟩
abbrev main_call2_cst : Ref sig .tc := ⟨.hbm, 77, rfl⟩
abbrev main_call2_v0 : Ref sig .tc := ⟨.hbm, 78, rfl⟩
abbrev main_call2_v1 : Ref sig .tc := ⟨.hbm, 79, rfl⟩
abbrev main_call2_cst_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_v6 : Ref sig .tc := ⟨.hbm, 85, rfl⟩
abbrev main_call2_v7 : Ref sig .tc := ⟨.hbm, 86, rfl⟩
abbrev main_call2_cst_1 : Ref sig .tc := ⟨.hbm, 87, rfl⟩
abbrev main_call2_v8 : Ref sig .tc := ⟨.hbm, 88, rfl⟩
abbrev main_call2_cst_2 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_cst_3 : Ref sig .tc := ⟨.hbm, 93, rfl⟩
abbrev main_call2_v12 : Ref sig .tc := ⟨.hbm, 94, rfl⟩
abbrev main_call2_cst_4 : Ref sig .tc := ⟨.hbm, 95, rfl⟩
abbrev main_call2_call0_v0 : Ref sig .tc := ⟨.hbm, 96, rfl⟩
abbrev main_call2_call0_v1 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_cst_4 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_c_5 : Ref sig .tc := ⟨.hbm, 123, rfl⟩
abbrev main_v68 : Ref sig .tc := ⟨.hbm, 124, rfl⟩
abbrev main_v69 : Ref sig .tc := ⟨.hbm, 125, rfl⟩
abbrev main_c_6 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_cst_7 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_call3_cst : Ref sig .tc := ⟨.hbm, 142, rfl⟩
abbrev main_call3_v0 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_call4_cst : Ref sig .tc := ⟨.hbm, 150, rfl⟩
abbrev main_call4_v0 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_cst_8 : Ref sig .tc := ⟨.hbm, 157, rfl⟩
abbrev main_v95 : Ref sig .tc := ⟨.hbm, 158, rfl⟩
abbrev main_cst_9 : Ref sig .tc := ⟨.hbm, 159, rfl⟩
abbrev main_v96 : Ref sig .tc := ⟨.hbm, 160, rfl⟩
abbrev main_v97 : Ref sig .tc := ⟨.hbm, 161, rfl⟩
abbrev main_c_10 : Ref sig .tc := ⟨.hbm, 162, rfl⟩
abbrev main_call5_cst : Ref sig .tc := ⟨.hbm, 163, rfl⟩
abbrev main_call5_v0 : Ref sig .tc := ⟨.hbm, 164, rfl⟩
abbrev main_call5_v1 : Ref sig .tc := ⟨.hbm, 165, rfl⟩
abbrev main_call5_cst_0 : Ref sig .tc := ⟨.hbm, 166, rfl⟩
abbrev main_call5_v2 : Ref sig .tc := ⟨.hbm, 167, rfl⟩
abbrev main_call5_v3 : Ref sig .tc := ⟨.hbm, 168, rfl⟩
abbrev main_call5_v4 : Ref sig .tc := ⟨.hbm, 169, rfl⟩
abbrev main_call5_v5 : Ref sig .tc := ⟨.hbm, 170, rfl⟩
abbrev main_call5_v6 : Ref sig .tc := ⟨.hbm, 171, rfl⟩
abbrev main_call5_v7 : Ref sig .tc := ⟨.hbm, 172, rfl⟩
abbrev main_call5_cst_1 : Ref sig .tc := ⟨.hbm, 173, rfl⟩
abbrev main_call5_v8 : Ref sig .tc := ⟨.hbm, 174, rfl⟩
abbrev main_call5_cst_2 : Ref sig .tc := ⟨.hbm, 175, rfl⟩
abbrev main_call5_v9 : Ref sig .tc := ⟨.hbm, 176, rfl⟩
abbrev main_call5_v10 : Ref sig .tc := ⟨.hbm, 177, rfl⟩
abbrev main_call5_v11 : Ref sig .tc := ⟨.hbm, 178, rfl⟩
abbrev main_call5_cst_3 : Ref sig .tc := ⟨.hbm, 179, rfl⟩
abbrev main_call5_v12 : Ref sig .tc := ⟨.hbm, 180, rfl⟩
abbrev main_call5_cst_4 : Ref sig .tc := ⟨.hbm, 181, rfl⟩
abbrev main_call5_call0_v0 : Ref sig .tc := ⟨.hbm, 182, rfl⟩
abbrev main_call5_call0_v1 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_cst_11 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_c_12 : Ref sig .tc := ⟨.hbm, 209, rfl⟩
abbrev main_v122 : Ref sig .tc := ⟨.hbm, 210, rfl⟩
abbrev main_v123 : Ref sig .tc := ⟨.hbm, 211, rfl⟩
abbrev main_c_13 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_cst_14 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_v132 : Ref sig .tc := ⟨.hbm, 222, rfl⟩
abbrev main_v133 : Ref sig .tc := ⟨.hbm, 223, rfl⟩
abbrev main_v134 : Ref sig .tc := ⟨.hbm, 224, rfl⟩
abbrev main_v135 : Ref sig .tc := ⟨.hbm, 225, rfl⟩
abbrev main_v136 : Ref sig .tc := ⟨.hbm, 226, rfl⟩
abbrev main_v137 : Ref sig .tc := ⟨.hbm, 227, rfl⟩
abbrev main_call6_cst : Ref sig .tc := ⟨.hbm, 228, rfl⟩
abbrev main_call6_v0 : Ref sig .tc := ⟨.hbm, 229, rfl⟩
abbrev main_v138 : Ref sig .tc := ⟨.hbm, 230, rfl⟩
abbrev main_v139 : Ref sig .tc := ⟨.hbm, 231, rfl⟩
abbrev main_v140 : Ref sig .tc := ⟨.hbm, 232, rfl⟩
abbrev main_v141 : Ref sig .tc := ⟨.hbm, 233, rfl⟩
abbrev main_v142 : Ref sig .tc := ⟨.hbm, 234, rfl⟩
abbrev main_v143 : Ref sig .tc := ⟨.hbm, 235, rfl⟩
abbrev main_call7_cst : Ref sig .tc := ⟨.hbm, 236, rfl⟩
abbrev main_call7_v0 : Ref sig .tc := ⟨.hbm, 237, rfl⟩
abbrev main_v144 : Ref sig .tc := ⟨.hbm, 238, rfl⟩
abbrev main_v145 : Ref sig .tc := ⟨.hbm, 239, rfl⟩
abbrev main_v146 : Ref sig .tc := ⟨.hbm, 240, rfl⟩
abbrev main_v147 : Ref sig .tc := ⟨.hbm, 241, rfl⟩
abbrev main_v148 : Ref sig .tc := ⟨.hbm, 242, rfl⟩
abbrev main_cst_15 : Ref sig .tc := ⟨.hbm, 243, rfl⟩
abbrev main_v149 : Ref sig .tc := ⟨.hbm, 244, rfl⟩
abbrev main_cst_16 : Ref sig .tc := ⟨.hbm, 245, rfl⟩
abbrev main_v150 : Ref sig .tc := ⟨.hbm, 246, rfl⟩
abbrev main_v151 : Ref sig .tc := ⟨.hbm, 247, rfl⟩
abbrev main_c_17 : Ref sig .tc := ⟨.hbm, 248, rfl⟩
abbrev main_call8_cst : Ref sig .tc := ⟨.hbm, 249, rfl⟩
abbrev main_call8_v0 : Ref sig .tc := ⟨.hbm, 250, rfl⟩
abbrev main_call8_v1 : Ref sig .tc := ⟨.hbm, 251, rfl⟩
abbrev main_call8_cst_0 : Ref sig .tc := ⟨.hbm, 252, rfl⟩
abbrev main_call8_v2 : Ref sig .tc := ⟨.hbm, 253, rfl⟩
abbrev main_call8_v3 : Ref sig .tc := ⟨.hbm, 254, rfl⟩
abbrev main_call8_v4 : Ref sig .tc := ⟨.hbm, 255, rfl⟩
abbrev main_call8_v5 : Ref sig .tc := ⟨.hbm, 256, rfl⟩
abbrev main_call8_v6 : Ref sig .tc := ⟨.hbm, 257, rfl⟩
abbrev main_call8_v7 : Ref sig .tc := ⟨.hbm, 258, rfl⟩
abbrev main_call8_cst_1 : Ref sig .tc := ⟨.hbm, 259, rfl⟩
abbrev main_call8_v8 : Ref sig .tc := ⟨.hbm, 260, rfl⟩
abbrev main_call8_cst_2 : Ref sig .tc := ⟨.hbm, 261, rfl⟩
abbrev main_call8_v9 : Ref sig .tc := ⟨.hbm, 262, rfl⟩
abbrev main_call8_v10 : Ref sig .tc := ⟨.hbm, 263, rfl⟩
abbrev main_call8_v11 : Ref sig .tc := ⟨.hbm, 264, rfl⟩
abbrev main_call8_cst_3 : Ref sig .tc := ⟨.hbm, 265, rfl⟩
abbrev main_call8_v12 : Ref sig .tc := ⟨.hbm, 266, rfl⟩
abbrev main_call8_cst_4 : Ref sig .tc := ⟨.hbm, 267, rfl⟩
abbrev main_call8_call0_v0 : Ref sig .tc := ⟨.hbm, 268, rfl⟩
abbrev main_call8_call0_v1 : Ref sig .tc := ⟨.hbm, 269, rfl⟩
abbrev main_v152 : Ref sig .tc := ⟨.hbm, 270, rfl⟩
abbrev main_v153 : Ref sig .tc := ⟨.hbm, 271, rfl⟩
abbrev main_v154 : Ref sig .tc := ⟨.hbm, 272, rfl⟩
abbrev main_v155 : Ref sig .tc := ⟨.hbm, 273, rfl⟩
abbrev main_v156 : Ref sig .tc := ⟨.hbm, 274, rfl⟩
abbrev main_v157 : Ref sig .tc := ⟨.hbm, 275, rfl⟩
abbrev main_v158 : Ref sig .tc := ⟨.hbm, 276, rfl⟩
abbrev main_cst_18 : Ref sig .tc := ⟨.hbm, 277, rfl⟩
abbrev main_v159 : Ref sig .tc := ⟨.hbm, 278, rfl⟩
abbrev main_v160 : Ref sig .tc := ⟨.hbm, 279, rfl⟩
abbrev main_v161 : Ref sig .tc := ⟨.hbm, 280, rfl⟩
abbrev main_v162 : Ref sig .tc := ⟨.hbm, 281, rfl⟩
abbrev main_v163 : Ref sig .tc := ⟨.hbm, 282, rfl⟩
abbrev main_v164 : Ref sig .tc := ⟨.hbm, 283, rfl⟩
abbrev main_v165 : Ref sig .tc := ⟨.hbm, 284, rfl⟩
abbrev main_v166 : Ref sig .tc := ⟨.hbm, 285, rfl⟩
abbrev main_v167 : Ref sig .tc := ⟨.hbm, 286, rfl⟩
abbrev main_v168 : Ref sig .tc := ⟨.hbm, 287, rfl⟩
abbrev main_v169 : Ref sig .tc := ⟨.hbm, 288, rfl⟩
abbrev main_cst_19 : Ref sig .tc := ⟨.hbm, 289, rfl⟩
abbrev main_v170 : Ref sig .tc := ⟨.hbm, 290, rfl⟩
abbrev main_v171 : Ref sig .tc := ⟨.hbm, 291, rfl⟩
abbrev main_v172 : Ref sig .tc := ⟨.hbm, 292, rfl⟩
abbrev main_cst_20 : Ref sig .tc := ⟨.hbm, 293, rfl⟩
abbrev main_v173 : Ref sig .tc := ⟨.hbm, 294, rfl⟩
abbrev main_v174 : Ref sig .tc := ⟨.hbm, 295, rfl⟩
abbrev main_v175 : Ref sig .tc := ⟨.hbm, 296, rfl⟩
abbrev main_cst_21 : Ref sig .tc := ⟨.hbm, 297, rfl⟩
abbrev main_v176 : Ref sig .tc := ⟨.hbm, 298, rfl⟩
abbrev main_v177 : Ref sig .tc := ⟨.hbm, 299, rfl⟩
abbrev main_v178 : Ref sig .tc := ⟨.hbm, 300, rfl⟩
abbrev main_cst_22 : Ref sig .tc := ⟨.hbm, 301, rfl⟩
abbrev main_v179 : Ref sig .tc := ⟨.hbm, 302, rfl⟩
abbrev main_v180 : Ref sig .tc := ⟨.hbm, 303, rfl⟩
abbrev main_v181 : Ref sig .tc := ⟨.hbm, 304, rfl⟩
abbrev main_v182 : Ref sig .tc := ⟨.hbm, 305, rfl⟩
abbrev main_v183 : Ref sig .tc := ⟨.hbm, 306, rfl⟩
abbrev main_v184 : Ref sig .tc := ⟨.hbm, 307, rfl⟩
abbrev main_v185 : Ref sig .tc := ⟨.hbm, 308, rfl⟩
abbrev main_v186 : Ref sig .tc := ⟨.hbm, 309, rfl⟩
abbrev main_v187 : Ref sig .tc := ⟨.hbm, 310, rfl⟩
abbrev main_v188 : Ref sig .tc := ⟨.hbm, 311, rfl⟩
abbrev main_v189 : Ref sig .tc := ⟨.hbm, 312, rfl⟩
abbrev main_v190 : Ref sig .tc := ⟨.hbm, 313, rfl⟩
abbrev main_v191 : Ref sig .tc := ⟨.hbm, 314, rfl⟩
abbrev main_v192 : Ref sig .tc := ⟨.hbm, 315, rfl⟩
abbrev main_v193 : Ref sig .tc := ⟨.hbm, 316, rfl⟩
abbrev main_v194 : Ref sig .tc := ⟨.hbm, 317, rfl⟩
abbrev main_v195 : Ref sig .tc := ⟨.hbm, 318, rfl⟩
abbrev main_v196 : Ref sig .tc := ⟨.hbm, 319, rfl⟩
abbrev main_v197 : Ref sig .tc := ⟨.hbm, 320, rfl⟩
abbrev main_c_23 : Ref sig .tc := ⟨.hbm, 321, rfl⟩
abbrev main_v198 : Ref sig .tc := ⟨.hbm, 322, rfl⟩
abbrev main_v199 : Ref sig .tc := ⟨.hbm, 323, rfl⟩
abbrev main_c_24 : Ref sig .tc := ⟨.hbm, 324, rfl⟩
abbrev main_v200 : Ref sig .tc := ⟨.hbm, 325, rfl⟩
abbrev main_v201 : Ref sig .tc := ⟨.hbm, 326, rfl⟩
abbrev main_v202 : Ref sig .tc := ⟨.hbm, 327, rfl⟩
abbrev main_v203 : Ref sig .tc := ⟨.hbm, 328, rfl⟩
abbrev main_v204 : Ref sig .tc := ⟨.hbm, 329, rfl⟩
abbrev main_cst_25 : Ref sig .tc := ⟨.hbm, 330, rfl⟩
abbrev main_v205 : Ref sig .tc := ⟨.hbm, 331, rfl⟩
abbrev main_v206 : Ref sig .tc := ⟨.hbm, 332, rfl⟩
abbrev main_v207 : Ref sig .tc := ⟨.hbm, 333, rfl⟩
abbrev main_v208 : Ref sig .tc := ⟨.hbm, 334, rfl⟩
abbrev main_v209 : Ref sig .tc := ⟨.hbm, 335, rfl⟩
abbrev main_v210 : Ref sig .tc := ⟨.hbm, 336, rfl⟩
abbrev main_v211 : Ref sig .tc := ⟨.hbm, 337, rfl⟩
abbrev main_v212 : Ref sig .tc := ⟨.hbm, 338, rfl⟩
abbrev main_v213 : Ref sig .tc := ⟨.hbm, 339, rfl⟩
abbrev main_call9_cst : Ref sig .tc := ⟨.hbm, 340, rfl⟩
abbrev main_call9_v0 : Ref sig .tc := ⟨.hbm, 341, rfl⟩
abbrev main_v214 : Ref sig .tc := ⟨.hbm, 342, rfl⟩
abbrev main_v215 : Ref sig .tc := ⟨.hbm, 343, rfl⟩
abbrev main_v216 : Ref sig .tc := ⟨.hbm, 344, rfl⟩
abbrev main_v217 : Ref sig .tc := ⟨.hbm, 345, rfl⟩
abbrev main_v218 : Ref sig .tc := ⟨.hbm, 346, rfl⟩
abbrev main_v219 : Ref sig .tc := ⟨.hbm, 347, rfl⟩
abbrev main_call10_cst : Ref sig .tc := ⟨.hbm, 348, rfl⟩
abbrev main_call10_v0 : Ref sig .tc := ⟨.hbm, 349, rfl⟩
abbrev main_v220 : Ref sig .tc := ⟨.hbm, 350, rfl⟩
abbrev main_v221 : Ref sig .tc := ⟨.hbm, 351, rfl⟩
abbrev main_v222 : Ref sig .tc := ⟨.hbm, 352, rfl⟩
abbrev main_v223 : Ref sig .tc := ⟨.hbm, 353, rfl⟩
abbrev main_v224 : Ref sig .tc := ⟨.hbm, 354, rfl⟩
abbrev main_cst_26 : Ref sig .tc := ⟨.hbm, 355, rfl⟩
abbrev main_v225 : Ref sig .tc := ⟨.hbm, 356, rfl⟩
abbrev main_cst_27 : Ref sig .tc := ⟨.hbm, 357, rfl⟩
abbrev main_v226 : Ref sig .tc := ⟨.hbm, 358, rfl⟩
abbrev main_v227 : Ref sig .tc := ⟨.hbm, 359, rfl⟩
abbrev main_c_28 : Ref sig .tc := ⟨.hbm, 360, rfl⟩
abbrev main_call11_cst : Ref sig .tc := ⟨.hbm, 361, rfl⟩
abbrev main_call11_v0 : Ref sig .tc := ⟨.hbm, 362, rfl⟩
abbrev main_call11_v1 : Ref sig .tc := ⟨.hbm, 363, rfl⟩
abbrev main_call11_cst_0 : Ref sig .tc := ⟨.hbm, 364, rfl⟩
abbrev main_call11_v2 : Ref sig .tc := ⟨.hbm, 365, rfl⟩
abbrev main_call11_v3 : Ref sig .tc := ⟨.hbm, 366, rfl⟩
abbrev main_call11_v4 : Ref sig .tc := ⟨.hbm, 367, rfl⟩
abbrev main_call11_v5 : Ref sig .tc := ⟨.hbm, 368, rfl⟩
abbrev main_call11_v6 : Ref sig .tc := ⟨.hbm, 369, rfl⟩
abbrev main_call11_v7 : Ref sig .tc := ⟨.hbm, 370, rfl⟩
abbrev main_call11_cst_1 : Ref sig .tc := ⟨.hbm, 371, rfl⟩
abbrev main_call11_v8 : Ref sig .tc := ⟨.hbm, 372, rfl⟩
abbrev main_call11_cst_2 : Ref sig .tc := ⟨.hbm, 373, rfl⟩
abbrev main_call11_v9 : Ref sig .tc := ⟨.hbm, 374, rfl⟩
abbrev main_call11_v10 : Ref sig .tc := ⟨.hbm, 375, rfl⟩
abbrev main_call11_v11 : Ref sig .tc := ⟨.hbm, 376, rfl⟩
abbrev main_call11_cst_3 : Ref sig .tc := ⟨.hbm, 377, rfl⟩
abbrev main_call11_v12 : Ref sig .tc := ⟨.hbm, 378, rfl⟩
abbrev main_call11_cst_4 : Ref sig .tc := ⟨.hbm, 379, rfl⟩
abbrev main_call11_call0_v0 : Ref sig .tc := ⟨.hbm, 380, rfl⟩
abbrev main_call11_call0_v1 : Ref sig .tc := ⟨.hbm, 381, rfl⟩
abbrev main_v228 : Ref sig .tc := ⟨.hbm, 382, rfl⟩
abbrev main_v229 : Ref sig .tc := ⟨.hbm, 383, rfl⟩
abbrev main_v230 : Ref sig .tc := ⟨.hbm, 384, rfl⟩
abbrev main_v231 : Ref sig .tc := ⟨.hbm, 385, rfl⟩
abbrev main_v232 : Ref sig .tc := ⟨.hbm, 386, rfl⟩
abbrev main_v233 : Ref sig .tc := ⟨.hbm, 387, rfl⟩
abbrev main_v234 : Ref sig .tc := ⟨.hbm, 388, rfl⟩
abbrev main_cst_29 : Ref sig .tc := ⟨.hbm, 389, rfl⟩
abbrev main_v235 : Ref sig .tc := ⟨.hbm, 390, rfl⟩
abbrev main_v236 : Ref sig .tc := ⟨.hbm, 391, rfl⟩
abbrev main_v237 : Ref sig .tc := ⟨.hbm, 392, rfl⟩
abbrev main_v238 : Ref sig .tc := ⟨.hbm, 393, rfl⟩
abbrev main_v239 : Ref sig .tc := ⟨.hbm, 394, rfl⟩
abbrev main_v240 : Ref sig .tc := ⟨.hbm, 395, rfl⟩
abbrev main_v241 : Ref sig .tc := ⟨.hbm, 396, rfl⟩
abbrev main_v242 : Ref sig .tc := ⟨.hbm, 397, rfl⟩
abbrev main_v243 : Ref sig .tc := ⟨.hbm, 398, rfl⟩
abbrev main_v244 : Ref sig .tc := ⟨.hbm, 399, rfl⟩
abbrev main_v245 : Ref sig .tc := ⟨.hbm, 400, rfl⟩
abbrev main_v246 : Ref sig .tc := ⟨.hbm, 401, rfl⟩
abbrev main_v247 : Ref sig .tc := ⟨.hbm, 402, rfl⟩
abbrev main_v248 : Ref sig .tc := ⟨.hbm, 403, rfl⟩
abbrev main_v249 : Ref sig .tc := ⟨.hbm, 404, rfl⟩
abbrev main_v250 : Ref sig .tc := ⟨.hbm, 405, rfl⟩
abbrev main_v251 : Ref sig .tc := ⟨.hbm, 406, rfl⟩
abbrev main_c_30 : Ref sig .tc := ⟨.hbm, 407, rfl⟩
abbrev main_v252 : Ref sig .tc := ⟨.hbm, 408, rfl⟩
abbrev main_v253 : Ref sig .tc := ⟨.hbm, 409, rfl⟩
abbrev main_c_31 : Ref sig .tc := ⟨.hbm, 410, rfl⟩
abbrev main_v254 : Ref sig .tc := ⟨.hbm, 411, rfl⟩
abbrev main_v255 : Ref sig .tc := ⟨.hbm, 412, rfl⟩
abbrev main_v256 : Ref sig .tc := ⟨.hbm, 413, rfl⟩
abbrev main_v257 : Ref sig .tc := ⟨.hbm, 414, rfl⟩
abbrev main_v258 : Ref sig .tc := ⟨.hbm, 415, rfl⟩
abbrev main_cst_32 : Ref sig .tc := ⟨.hbm, 416, rfl⟩
abbrev main_v259 : Ref sig .tc := ⟨.hbm, 417, rfl⟩
abbrev main_v260 : Ref sig .tc := ⟨.hbm, 418, rfl⟩
abbrev main_v261 : Ref sig .tc := ⟨.hbm, 419, rfl⟩
abbrev main_v262 : Ref sig .tc := ⟨.hbm, 420, rfl⟩
abbrev main_v263 : Ref sig .tc := ⟨.hbm, 421, rfl⟩
abbrev main_v264 : Ref sig .tc := ⟨.hbm, 422, rfl⟩
abbrev main_v265 : Ref sig .tc := ⟨.hbm, 423, rfl⟩
abbrev main_v266 : Ref sig .tc := ⟨.hbm, 424, rfl⟩
abbrev main_v267 : Ref sig .tc := ⟨.hbm, 425, rfl⟩
abbrev main_call12_cst : Ref sig .tc := ⟨.hbm, 426, rfl⟩
abbrev main_call12_v0 : Ref sig .tc := ⟨.hbm, 427, rfl⟩
abbrev main_v268 : Ref sig .tc := ⟨.hbm, 428, rfl⟩
abbrev main_v269 : Ref sig .tc := ⟨.hbm, 429, rfl⟩
abbrev main_v270 : Ref sig .tc := ⟨.hbm, 430, rfl⟩
abbrev main_v271 : Ref sig .tc := ⟨.hbm, 431, rfl⟩
abbrev main_v272 : Ref sig .tc := ⟨.hbm, 432, rfl⟩
abbrev main_v273 : Ref sig .tc := ⟨.hbm, 433, rfl⟩
abbrev main_call13_cst : Ref sig .tc := ⟨.hbm, 434, rfl⟩
abbrev main_call13_v0 : Ref sig .tc := ⟨.hbm, 435, rfl⟩
abbrev main_v274 : Ref sig .tc := ⟨.hbm, 436, rfl⟩
abbrev main_v275 : Ref sig .tc := ⟨.hbm, 437, rfl⟩
abbrev main_v276 : Ref sig .tc := ⟨.hbm, 438, rfl⟩
abbrev main_v277 : Ref sig .tc := ⟨.hbm, 439, rfl⟩
abbrev main_v278 : Ref sig .tc := ⟨.hbm, 440, rfl⟩
abbrev main_cst_33 : Ref sig .tc := ⟨.hbm, 441, rfl⟩
abbrev main_v279 : Ref sig .tc := ⟨.hbm, 442, rfl⟩
abbrev main_cst_34 : Ref sig .tc := ⟨.hbm, 443, rfl⟩
abbrev main_v280 : Ref sig .tc := ⟨.hbm, 444, rfl⟩
abbrev main_v281 : Ref sig .tc := ⟨.hbm, 445, rfl⟩
abbrev main_c_35 : Ref sig .tc := ⟨.hbm, 446, rfl⟩
abbrev main_call14_cst : Ref sig .tc := ⟨.hbm, 447, rfl⟩
abbrev main_call14_v0 : Ref sig .tc := ⟨.hbm, 448, rfl⟩
abbrev main_call14_v1 : Ref sig .tc := ⟨.hbm, 449, rfl⟩
abbrev main_call14_cst_0 : Ref sig .tc := ⟨.hbm, 450, rfl⟩
abbrev main_call14_v2 : Ref sig .tc := ⟨.hbm, 451, rfl⟩
abbrev main_call14_v3 : Ref sig .tc := ⟨.hbm, 452, rfl⟩
abbrev main_call14_v4 : Ref sig .tc := ⟨.hbm, 453, rfl⟩
abbrev main_call14_v5 : Ref sig .tc := ⟨.hbm, 454, rfl⟩
abbrev main_call14_v6 : Ref sig .tc := ⟨.hbm, 455, rfl⟩
abbrev main_call14_v7 : Ref sig .tc := ⟨.hbm, 456, rfl⟩
abbrev main_call14_cst_1 : Ref sig .tc := ⟨.hbm, 457, rfl⟩
abbrev main_call14_v8 : Ref sig .tc := ⟨.hbm, 458, rfl⟩
abbrev main_call14_cst_2 : Ref sig .tc := ⟨.hbm, 459, rfl⟩
abbrev main_call14_v9 : Ref sig .tc := ⟨.hbm, 460, rfl⟩
abbrev main_call14_v10 : Ref sig .tc := ⟨.hbm, 461, rfl⟩
abbrev main_call14_v11 : Ref sig .tc := ⟨.hbm, 462, rfl⟩
abbrev main_call14_cst_3 : Ref sig .tc := ⟨.hbm, 463, rfl⟩
abbrev main_call14_v12 : Ref sig .tc := ⟨.hbm, 464, rfl⟩
abbrev main_call14_cst_4 : Ref sig .tc := ⟨.hbm, 465, rfl⟩
abbrev main_call14_call0_v0 : Ref sig .tc := ⟨.hbm, 466, rfl⟩
abbrev main_call14_call0_v1 : Ref sig .tc := ⟨.hbm, 467, rfl⟩
abbrev main_v282 : Ref sig .tc := ⟨.hbm, 468, rfl⟩
abbrev main_v283 : Ref sig .tc := ⟨.hbm, 469, rfl⟩
abbrev main_v284 : Ref sig .tc := ⟨.hbm, 470, rfl⟩
abbrev main_v285 : Ref sig .tc := ⟨.hbm, 471, rfl⟩
abbrev main_v286 : Ref sig .tc := ⟨.hbm, 472, rfl⟩
abbrev main_v287 : Ref sig .tc := ⟨.hbm, 473, rfl⟩
abbrev main_v288 : Ref sig .tc := ⟨.hbm, 474, rfl⟩
abbrev main_cst_36 : Ref sig .tc := ⟨.hbm, 475, rfl⟩
abbrev main_v289 : Ref sig .tc := ⟨.hbm, 476, rfl⟩
abbrev main_v290 : Ref sig .tc := ⟨.hbm, 477, rfl⟩
abbrev main_v291 : Ref sig .tc := ⟨.hbm, 478, rfl⟩
abbrev main_v292 : Ref sig .tc := ⟨.hbm, 479, rfl⟩
abbrev main_v293 : Ref sig .tc := ⟨.hbm, 480, rfl⟩
abbrev main_v294 : Ref sig .tc := ⟨.hbm, 481, rfl⟩
abbrev main_v295 : Ref sig .tc := ⟨.hbm, 482, rfl⟩
abbrev main_v296 : Ref sig .tc := ⟨.hbm, 483, rfl⟩
abbrev main_v297 : Ref sig .tc := ⟨.hbm, 484, rfl⟩
abbrev main_v298 : Ref sig .tc := ⟨.hbm, 485, rfl⟩
abbrev main_v299 : Ref sig .tc := ⟨.hbm, 486, rfl⟩
abbrev main_v300 : Ref sig .tc := ⟨.hbm, 487, rfl⟩
abbrev main_v301 : Ref sig .tc := ⟨.hbm, 488, rfl⟩
abbrev main_v302 : Ref sig .tc := ⟨.hbm, 489, rfl⟩
abbrev main_v303 : Ref sig .tc := ⟨.hbm, 490, rfl⟩
abbrev main_v304 : Ref sig .tc := ⟨.hbm, 491, rfl⟩
abbrev main_v305 : Ref sig .tc := ⟨.hbm, 492, rfl⟩
abbrev main_c_37 : Ref sig .tc := ⟨.hbm, 493, rfl⟩
abbrev main_v306 : Ref sig .tc := ⟨.hbm, 494, rfl⟩
abbrev main_v307 : Ref sig .tc := ⟨.hbm, 495, rfl⟩
abbrev main_c_38 : Ref sig .tc := ⟨.hbm, 496, rfl⟩
abbrev main_v308 : Ref sig .tc := ⟨.hbm, 497, rfl⟩
abbrev main_v309 : Ref sig .tc := ⟨.hbm, 498, rfl⟩
abbrev main_v310 : Ref sig .tc := ⟨.hbm, 499, rfl⟩
abbrev main_v311 : Ref sig .tc := ⟨.hbm, 500, rfl⟩
abbrev main_v312 : Ref sig .tc := ⟨.hbm, 501, rfl⟩
abbrev main_cst_39 : Ref sig .tc := ⟨.hbm, 502, rfl⟩
abbrev main_v313 : Ref sig .tc := ⟨.hbm, 503, rfl⟩
abbrev main_v314 : Ref sig .tc := ⟨.hbm, 504, rfl⟩
abbrev main_v315 : Ref sig .tc := ⟨.hbm, 505, rfl⟩
abbrev main_v316 : Ref sig .tc := ⟨.hbm, 506, rfl⟩
abbrev main_v317 : Ref sig .tc := ⟨.hbm, 507, rfl⟩
abbrev main_v318 : Ref sig .tc := ⟨.hbm, 508, rfl⟩
abbrev main_v319 : Ref sig .tc := ⟨.hbm, 509, rfl⟩
abbrev main_v320 : Ref sig .tc := ⟨.hbm, 510, rfl⟩
abbrev main_v321 : Ref sig .tc := ⟨.hbm, 511, rfl⟩
abbrev main_call15_cst : Ref sig .tc := ⟨.hbm, 512, rfl⟩
abbrev main_call15_v0 : Ref sig .tc := ⟨.hbm, 513, rfl⟩
abbrev main_v322 : Ref sig .tc := ⟨.hbm, 514, rfl⟩
abbrev main_v323 : Ref sig .tc := ⟨.hbm, 515, rfl⟩
abbrev main_v324 : Ref sig .tc := ⟨.hbm, 516, rfl⟩
abbrev main_v325 : Ref sig .tc := ⟨.hbm, 517, rfl⟩
abbrev main_v326 : Ref sig .tc := ⟨.hbm, 518, rfl⟩
abbrev main_v327 : Ref sig .tc := ⟨.hbm, 519, rfl⟩
abbrev main_call16_cst : Ref sig .tc := ⟨.hbm, 520, rfl⟩
abbrev main_call16_v0 : Ref sig .tc := ⟨.hbm, 521, rfl⟩
abbrev main_v328 : Ref sig .tc := ⟨.hbm, 522, rfl⟩
abbrev main_v329 : Ref sig .tc := ⟨.hbm, 523, rfl⟩
abbrev main_v330 : Ref sig .tc := ⟨.hbm, 524, rfl⟩
abbrev main_v331 : Ref sig .tc := ⟨.hbm, 525, rfl⟩
abbrev main_v332 : Ref sig .tc := ⟨.hbm, 526, rfl⟩
abbrev main_cst_40 : Ref sig .tc := ⟨.hbm, 527, rfl⟩
abbrev main_v333 : Ref sig .tc := ⟨.hbm, 528, rfl⟩
abbrev main_cst_41 : Ref sig .tc := ⟨.hbm, 529, rfl⟩
abbrev main_v334 : Ref sig .tc := ⟨.hbm, 530, rfl⟩
abbrev main_v335 : Ref sig .tc := ⟨.hbm, 531, rfl⟩
abbrev main_c_42 : Ref sig .tc := ⟨.hbm, 532, rfl⟩
abbrev main_call17_cst : Ref sig .tc := ⟨.hbm, 533, rfl⟩
abbrev main_call17_v0 : Ref sig .tc := ⟨.hbm, 534, rfl⟩
abbrev main_call17_v1 : Ref sig .tc := ⟨.hbm, 535, rfl⟩
abbrev main_call17_cst_0 : Ref sig .tc := ⟨.hbm, 536, rfl⟩
abbrev main_call17_v2 : Ref sig .tc := ⟨.hbm, 537, rfl⟩
abbrev main_call17_v3 : Ref sig .tc := ⟨.hbm, 538, rfl⟩
abbrev main_call17_v4 : Ref sig .tc := ⟨.hbm, 539, rfl⟩
abbrev main_call17_v5 : Ref sig .tc := ⟨.hbm, 540, rfl⟩
abbrev main_call17_v6 : Ref sig .tc := ⟨.hbm, 541, rfl⟩
abbrev main_call17_v7 : Ref sig .tc := ⟨.hbm, 542, rfl⟩
abbrev main_call17_cst_1 : Ref sig .tc := ⟨.hbm, 543, rfl⟩
abbrev main_call17_v8 : Ref sig .tc := ⟨.hbm, 544, rfl⟩
abbrev main_call17_cst_2 : Ref sig .tc := ⟨.hbm, 545, rfl⟩
abbrev main_call17_v9 : Ref sig .tc := ⟨.hbm, 546, rfl⟩
abbrev main_call17_v10 : Ref sig .tc := ⟨.hbm, 547, rfl⟩
abbrev main_call17_v11 : Ref sig .tc := ⟨.hbm, 548, rfl⟩
abbrev main_call17_cst_3 : Ref sig .tc := ⟨.hbm, 549, rfl⟩
abbrev main_call17_v12 : Ref sig .tc := ⟨.hbm, 550, rfl⟩
abbrev main_call17_cst_4 : Ref sig .tc := ⟨.hbm, 551, rfl⟩
abbrev main_call17_call0_v0 : Ref sig .tc := ⟨.hbm, 552, rfl⟩
abbrev main_call17_call0_v1 : Ref sig .tc := ⟨.hbm, 553, rfl⟩
abbrev main_v336 : Ref sig .tc := ⟨.hbm, 554, rfl⟩
abbrev main_v337 : Ref sig .tc := ⟨.hbm, 555, rfl⟩
abbrev main_v338 : Ref sig .tc := ⟨.hbm, 556, rfl⟩
abbrev main_v339 : Ref sig .tc := ⟨.hbm, 557, rfl⟩
abbrev main_v340 : Ref sig .tc := ⟨.hbm, 558, rfl⟩
abbrev main_v341 : Ref sig .tc := ⟨.hbm, 559, rfl⟩
abbrev main_v342 : Ref sig .tc := ⟨.hbm, 560, rfl⟩
abbrev main_cst_43 : Ref sig .tc := ⟨.hbm, 561, rfl⟩
abbrev main_v343 : Ref sig .tc := ⟨.hbm, 562, rfl⟩
abbrev main_v344 : Ref sig .tc := ⟨.hbm, 563, rfl⟩
abbrev main_v345 : Ref sig .tc := ⟨.hbm, 564, rfl⟩
abbrev main_v346 : Ref sig .tc := ⟨.hbm, 565, rfl⟩
abbrev main_v347 : Ref sig .tc := ⟨.hbm, 566, rfl⟩
abbrev main_v348 : Ref sig .tc := ⟨.hbm, 567, rfl⟩
abbrev main_v349 : Ref sig .tc := ⟨.hbm, 568, rfl⟩
abbrev main_v350 : Ref sig .tc := ⟨.hbm, 569, rfl⟩
abbrev main_v351 : Ref sig .tc := ⟨.hbm, 570, rfl⟩
abbrev main_v352 : Ref sig .tc := ⟨.hbm, 571, rfl⟩
abbrev main_v353 : Ref sig .tc := ⟨.hbm, 572, rfl⟩
abbrev main_cst_44 : Ref sig .tc := ⟨.hbm, 573, rfl⟩
abbrev main_v354 : Ref sig .tc := ⟨.hbm, 574, rfl⟩
abbrev main_v355 : Ref sig .tc := ⟨.hbm, 575, rfl⟩
abbrev main_v356 : Ref sig .tc := ⟨.hbm, 576, rfl⟩
abbrev main_cst_45 : Ref sig .tc := ⟨.hbm, 577, rfl⟩
abbrev main_v357 : Ref sig .tc := ⟨.hbm, 578, rfl⟩
abbrev main_v358 : Ref sig .tc := ⟨.hbm, 579, rfl⟩
abbrev main_v359 : Ref sig .tc := ⟨.hbm, 580, rfl⟩
abbrev main_cst_46 : Ref sig .tc := ⟨.hbm, 581, rfl⟩
abbrev main_v360 : Ref sig .tc := ⟨.hbm, 582, rfl⟩
abbrev main_v361 : Ref sig .tc := ⟨.hbm, 583, rfl⟩
abbrev main_v362 : Ref sig .tc := ⟨.hbm, 584, rfl⟩
abbrev main_cst_47 : Ref sig .tc := ⟨.hbm, 585, rfl⟩
abbrev main_v363 : Ref sig .tc := ⟨.hbm, 586, rfl⟩
abbrev main_v364 : Ref sig .tc := ⟨.hbm, 587, rfl⟩
abbrev main_v365 : Ref sig .tc := ⟨.hbm, 588, rfl⟩
abbrev main_v366 : Ref sig .tc := ⟨.hbm, 589, rfl⟩
abbrev main_v367 : Ref sig .tc := ⟨.hbm, 590, rfl⟩
abbrev main_v368 : Ref sig .tc := ⟨.hbm, 591, rfl⟩
abbrev main_v369 : Ref sig .tc := ⟨.hbm, 592, rfl⟩
abbrev main_v370 : Ref sig .tc := ⟨.hbm, 593, rfl⟩
abbrev main_v371 : Ref sig .tc := ⟨.hbm, 594, rfl⟩
abbrev main_v372 : Ref sig .tc := ⟨.hbm, 595, rfl⟩
abbrev main_v373 : Ref sig .tc := ⟨.hbm, 596, rfl⟩
abbrev main_call18_cst : Ref sig .tc := ⟨.hbm, 597, rfl⟩
abbrev main_call18_v0 : Ref sig .tc := ⟨.hbm, 598, rfl⟩
abbrev main_v374 : Ref sig .tc := ⟨.hbm, 599, rfl⟩
abbrev main_v375 : Ref sig .tc := ⟨.hbm, 600, rfl⟩
abbrev main_v376 : Ref sig .tc := ⟨.hbm, 601, rfl⟩
abbrev main_v377 : Ref sig .tc := ⟨.hbm, 602, rfl⟩
abbrev main_v378 : Ref sig .tc := ⟨.hbm, 603, rfl⟩
abbrev main_v379 : Ref sig .tc := ⟨.hbm, 604, rfl⟩
abbrev main_call19_cst : Ref sig .tc := ⟨.hbm, 605, rfl⟩
abbrev main_call19_v0 : Ref sig .tc := ⟨.hbm, 606, rfl⟩
abbrev main_v380 : Ref sig .tc := ⟨.hbm, 607, rfl⟩
abbrev main_v381 : Ref sig .tc := ⟨.hbm, 608, rfl⟩
abbrev main_v382 : Ref sig .tc := ⟨.hbm, 609, rfl⟩
abbrev main_v383 : Ref sig .tc := ⟨.hbm, 610, rfl⟩
abbrev main_v384 : Ref sig .tc := ⟨.hbm, 611, rfl⟩
abbrev main_v385 : Ref sig .tc := ⟨.hbm, 612, rfl⟩
abbrev main_v386 : Ref sig .tc := ⟨.hbm, 613, rfl⟩
abbrev main_v387 : Ref sig .tc := ⟨.hbm, 614, rfl⟩
abbrev main_cst_48 : Ref sig .tc := ⟨.hbm, 615, rfl⟩
abbrev main_v388 : Ref sig .tc := ⟨.hbm, 616, rfl⟩
abbrev main_v389 : Ref sig .tc := ⟨.hbm, 617, rfl⟩
abbrev main_cst_49 : Ref sig .tc := ⟨.hbm, 618, rfl⟩
abbrev main_v390 : Ref sig .tc := ⟨.hbm, 619, rfl⟩
abbrev main_v391 : Ref sig .tc := ⟨.hbm, 620, rfl⟩

abbrev nD : Nat := 1
abbrev τ : Topo := Topo.v7x

variable {F : FTy → Type} [FloatOps F]

class Facts₀ : Prop where
  slices_S2x2x1600000_S1x1x1600000_0_0_0 : S2x2x1600000.Slices ![0, 0, 0] S1x1x1600000
  shapeCasts_S1x1x1600000_S1600000 : S1x1x1600000.ShapeCasts S1600000
  slices_S2x2x1600000_S1x1x1600000_0_1_0 : S2x2x1600000.Slices ![0, 1, 0] S1x1x1600000
  slices_S2x100000x6_S1x100000x6_0_0_0 : S2x100000x6.Slices ![0, 0, 0] S1x100000x6
  shapeCasts_S1x100000x6_S100000x6 : S1x100000x6.ShapeCasts S100000x6
  slices_S2x36x6_S1x36x6_0_0_0 : S2x36x6.Slices ![0, 0, 0] S1x36x6
  shapeCasts_S1x36x6_S36x6 : S1x36x6.ShapeCasts S36x6
  slices_S2x36_S1x36_0_0 : S2x36.Slices ![0, 0] S1x36
  shapeCasts_S1x36_S36 : S1x36.ShapeCasts S36
  slices_S2x36x36_S1x36x36_0_0_0 : S2x36x36.Slices ![0, 0, 0] S1x36x36
  shapeCasts_S1x36x36_S36x36 : S1x36x36.ShapeCasts S36x36
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x6 : S_.BroadcastsInDim S100000x6 (![] : Fin 0 → Fin S100000x6.rank)
  transposes_S36x6_S6x36_1_0 : S36x6.Transposes [1, 0] S6x36
  bcast_S36_S1x36_1 : S36.BroadcastsInDim S1x36 (![1] : Fin 1 → Fin S1x36.rank)
  bcast_S1x36_S100000x36_0_1 : S1x36.BroadcastsInDim S100000x36 (![0, 1] : Fin 2 → Fin S100000x36.rank)
  bcast_S_S100000x36 : S_.BroadcastsInDim S100000x36 (![] : Fin 0 → Fin S100000x36.rank)
  transposes_S36x36_S36x36_1_0 : S36x36.Transposes [1, 0] S36x36
  slices_S2x3x36_S1x1x36_0_0_0 : S2x3x36.Slices ![0, 0, 0] S1x1x36
  shapeCasts_S1x1x36_S36 : S1x1x36.ShapeCasts S36
  reducesTo_S100000x36_S36_d0 : S100000x36.ReducesTo [0] S36
  h_S_ : 0 < S_.numel
  bcast_S_S36 : S_.BroadcastsInDim S36 (![] : Fin 0 → Fin S36.rank)
  bcast_S_S1x36 : S_.BroadcastsInDim S1x36 (![] : Fin 0 → Fin S1x36.rank)
  slices_S2x3x36_S1x1x36_0_1_0 : S2x3x36.Slices ![0, 1, 0] S1x1x36
  slices_S2x3x36_S1x1x36_0_2_0 : S2x3x36.Slices ![0, 2, 0] S1x1x36
  slices_S2x100000_S1x100000_0_0 : S2x100000.Slices ![0, 0] S1x100000
  shapeCasts_S1x100000_S100000 : S1x100000.ShapeCasts S100000
  bcast_S_S512x36 : S_.BroadcastsInDim S512x36 (![] : Fin 0 → Fin S512x36.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x36_0_1 : S512x1.BroadcastsInDim S512x36 (![0, 1] : Fin 2 → Fin S512x36.rank)
  slices_S2x2x1600000_S1x1x1600000_1_0_0 : S2x2x1600000.Slices ![1, 0, 0] S1x1x1600000
  slices_S2x2x1600000_S1x1x1600000_1_1_0 : S2x2x1600000.Slices ![1, 1, 0] S1x1x1600000
  slices_S2x100000x6_S1x100000x6_1_0_0 : S2x100000x6.Slices ![1, 0, 0] S1x100000x6
  slices_S2x36x6_S1x36x6_1_0_0 : S2x36x6.Slices ![1, 0, 0] S1x36x6
  slices_S2x36_S1x36_1_0 : S2x36.Slices ![1, 0] S1x36
  slices_S2x36x36_S1x36x36_1_0_0 : S2x36x36.Slices ![1, 0, 0] S1x36x36
  slices_S2x3x36_S1x1x36_1_0_0 : S2x3x36.Slices ![1, 0, 0] S1x1x36
  slices_S2x3x36_S1x1x36_1_1_0 : S2x3x36.Slices ![1, 1, 0] S1x1x36
  slices_S2x3x36_S1x1x36_1_2_0 : S2x3x36.Slices ![1, 2, 0] S1x1x36
  slices_S2x100000_S1x100000_1_0 : S2x100000.Slices ![1, 0] S1x100000
  concatenates_S512x36_S512x36_S512x72_d1 : Shape.Concatenates [S512x36, S512x36] S512x72 1
  transposes_S54x72_S72x54_1_0 : S54x72.Transposes [1, 0] S72x54
  bcast_S54_S1x54_1 : S54.BroadcastsInDim S1x54 (![1] : Fin 1 → Fin S1x54.rank)
  bcast_S1x54_S512x54_0_1 : S1x54.BroadcastsInDim S512x54 (![0, 1] : Fin 2 → Fin S512x54.rank)
  bcast_S_S512x54 : S_.BroadcastsInDim S512x54 (![] : Fin 0 → Fin S512x54.rank)
  transposes_S18x54_S54x18_1_0 : S18x54.Transposes [1, 0] S54x18
  bcast_S18_S1x18_1 : S18.BroadcastsInDim S1x18 (![1] : Fin 1 → Fin S1x18.rank)
  bcast_S1x18_S512x18_0_1 : S1x18.BroadcastsInDim S512x18 (![0, 1] : Fin 2 → Fin S512x18.rank)
  bcast_S_S512x18 : S_.BroadcastsInDim S512x18 (![] : Fin 0 → Fin S512x18.rank)
  transposes_S1x18_S18x1_1_0 : S1x18.Transposes [1, 0] S18x1
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  bcast_S_S512x1 : S_.BroadcastsInDim S512x1 (![] : Fin 0 → Fin S512x1.rank)
  gather_S100000x6_S1600000x1_S1600000x6_1_0_n_n_0_1_16_wf : GatherDims.WF S100000x6 S1600000x1 S1600000x6 [1] [0] [] [0] [] 1 ![1, 6]
  scatter_S100000x6_S1600000x1_S1600000x6_1_0_0_1_wf : ScatterDims.WF S100000x6 S1600000x1 S1600000x6 [1] [0] [0] 1
  dot_S100000x6_S6x36_S100000x36_1_0_0_1_n_n_wf : DotDims.WF S100000x6 S6x36 S100000x36 [1] [0] [0] [1] [] []
  dot_S100000x36_S36x36_S100000x36_1_0_0_1_n_n_wf : DotDims.WF S100000x36 S36x36 S100000x36 [1] [0] [0] [1] [] []
  gather_S100000x36_S1600000x1_S1600000x36_1_0_n_n_0_1_136_wf : GatherDims.WF S100000x36 S1600000x1 S1600000x36 [1] [0] [] [0] [] 1 ![1, 36]
  scatter_S100000x36_S1600000x1_S1600000x36_1_0_0_1_wf : ScatterDims.WF S100000x36 S1600000x1 S1600000x36 [1] [0] [0] 1
  scatter_S512x36_S100000x1_S100000x36_1_0_0_1_wf : ScatterDims.WF S512x36 S100000x1 S100000x36 [1] [0] [0] 1
  scatter_S512_S100000x1_S100000_n_0_0_1_wf : ScatterDims.WF S512 S100000x1 S100000 [] [0] [0] 1
  dot_S512x72_S72x54_S512x54_1_0_0_1_n_n_wf : DotDims.WF S512x72 S72x54 S512x54 [1] [0] [0] [1] [] []
  dot_S512x54_S54x18_S512x18_1_0_0_1_n_n_wf : DotDims.WF S512x54 S54x18 S512x18 [1] [0] [0] [1] [] []
  dot_S512x18_S18x1_S512x1_1_0_0_1_n_n_wf : DotDims.WF S512x18 S18x1 S512x1 [1] [0] [0] [1] [] []

variable [Facts₀]

def gather_S100000x6_S1600000x1_S1600000x6_1_0_n_n_0_1_16 : GatherDims S100000x6 S1600000x1 S1600000x6 where
  offsetDims := [1]
  collapsedSliceDims := [0]
  operandBatchingDims := []
  startIndicesBatchingDims := []
  startIndexMap := [0]
  indexVectorDim := 1
  sliceSizes := ![1, 6]
  wf := gather_S100000x6_S1600000x1_S1600000x6_1_0_n_n_0_1_16_wf
def scatter_S100000x6_S1600000x1_S1600000x6_1_0_0_1 : ScatterDims S100000x6 S1600000x1 S1600000x6 where
  updateWindowDims := [1]
  insertedWindowDims := [0]
  scatterDimsToOperandDims := [0]
  indexVectorDim := 1
  wf := scatter_S100000x6_S1600000x1_S1600000x6_1_0_0_1_wf
def dot_S100000x6_S6x36_S100000x36_1_0_0_1_n_n : DotDims S100000x6 S6x36 S100000x36 where
  lhsContracting := [1]
  rhsContracting := [0]
  lhsNonContracting := [0]
  rhsNonContracting := [1]
  lhsBatch := []
  rhsBatch := []
  wf := dot_S100000x6_S6x36_S100000x36_1_0_0_1_n_n_wf
def dot_S100000x36_S36x36_S100000x36_1_0_0_1_n_n : DotDims S100000x36 S36x36 S100000x36 where
  lhsContracting := [1]
  rhsContracting := [0]
  lhsNonContracting := [0]
  rhsNonContracting := [1]
  lhsBatch := []
  rhsBatch := []
  wf := dot_S100000x36_S36x36_S100000x36_1_0_0_1_n_n_wf
def gather_S100000x36_S1600000x1_S1600000x36_1_0_n_n_0_1_136 : GatherDims S100000x36 S1600000x1 S1600000x36 where
  offsetDims := [1]
  collapsedSliceDims := [0]
  operandBatchingDims := []
  startIndicesBatchingDims := []
  startIndexMap := [0]
  indexVectorDim := 1
  sliceSizes := ![1, 36]
  wf := gather_S100000x36_S1600000x1_S1600000x36_1_0_n_n_0_1_136_wf
def scatter_S100000x36_S1600000x1_S1600000x36_1_0_0_1 : ScatterDims S100000x36 S1600000x1 S1600000x36 where
  updateWindowDims := [1]
  insertedWindowDims := [0]
  scatterDimsToOperandDims := [0]
  indexVectorDim := 1
  wf := scatter_S100000x36_S1600000x1_S1600000x36_1_0_0_1_wf
def scatter_S512x36_S100000x1_S100000x36_1_0_0_1 : ScatterDims S512x36 S100000x1 S100000x36 where
  updateWindowDims := [1]
  insertedWindowDims := [0]
  scatterDimsToOperandDims := [0]
  indexVectorDim := 1
  wf := scatter_S512x36_S100000x1_S100000x36_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x72_S72x54_S512x54_1_0_0_1_n_n : DotDims S512x72 S72x54 S512x54 where
  lhsContracting := [1]
  rhsContracting := [0]
  lhsNonContracting := [0]
  rhsNonContracting := [1]
  lhsBatch := []
  rhsBatch := []
  wf := dot_S512x72_S72x54_S512x54_1_0_0_1_n_n_wf
def dot_S512x54_S54x18_S512x18_1_0_0_1_n_n : DotDims S512x54 S54x18 S512x18 where
  lhsContracting := [1]
  rhsContracting := [0]
  lhsNonContracting := [0]
  rhsNonContracting := [1]
  lhsBatch := []
  rhsBatch := []
  wf := dot_S512x54_S54x18_S512x18_1_0_0_1_n_n_wf
def dot_S512x18_S18x1_S512x1_1_0_0_1_n_n : DotDims S512x18 S18x1 S512x1 where
  lhsContracting := [1]
  rhsContracting := [0]
  lhsNonContracting := [0]
  rhsNonContracting := [1]
  lhsBatch := []
  rhsBatch := []
  wf := dot_S512x18_S18x1_S512x1_1_0_0_1_n_n_wf

class Facts : Prop extends Facts₀ where

variable [Facts]
-- ==== Proof.RefOps.lean ====
import proofs.«408188_j34256659153341_2_alg».proof.Proof.Gen.ReferenceIdeal

/-! The reference program's @main as lists of its host operations, one list per window of the printed
    program, each call's operations listed at the call site over that call's buffer record. -/

noncomputable section

namespace Cert.ReferenceIdeal.RefRun

open Cert.ReferenceIdeal Cert.ReferenceIdeal.Gen Idealize.ShloMosaic Idealize.SL.Sem

variable {F : FTy → Type} [FloatOps F]

/-- Window 0 of @main: its 85 operations, in order. -/
abbrev ops0 : List (HloOp τ sig (Elt F)) :=
  [ StableHlo.unary main_arg1 main_v0 ((extractStridedSlice S1x1x1600000 ![0, 0, 0] · slices_S2x2x1600000_S1x1x1600000_0_0_0) : (⟨S2x2x1600000, .i32⟩ : BufTy).Contents (Elt F) → (⟨S1x1x1600000, .i32⟩ : BufTy).Contents (Elt F)),
    StableHlo.reshape main_v0 main_v1 rfl shapeCasts_S1x1x1600000_S1600000,
    StableHlo.unary main_arg1 main_v2 ((extractStridedSlice S1x1x1600000 ![0, 1, 0] · slices_S2x2x1600000_S1x1x1600000_0_1_0) : (⟨S2x2x1600000, .i32⟩ : BufTy).Contents (Elt F) → (⟨S1x1x1600000, .i32⟩ : BufTy).Contents (Elt F)),
    StableHlo.reshape main_v2 main_v3 rfl shapeCasts_S1x1x1600000_S1600000,
    StableHlo.unary main_arg0 main_v4 ((extractStridedSlice S1x100000x6 ![0, 0, 0] · slices_S2x100000x6_S1x100000x6_0_0_0) : (⟨S2x100000x6, .f32⟩ : BufTy).Contents (Elt F) → (⟨S1x100000x6, .f32⟩ : BufTy).Contents (Elt F)),
    StableHlo.reshape main_v4 main_v5 rfl shapeCasts_S1x100000x6_S100000x6,
    StableHlo.unary main_arg3 main_v6 ((extractStridedSlice S1x36x6 ![0, 0, 0] · slices_S2x36x6_S1x36x6_0_0_0) : (⟨S2x36x6, .f32⟩ : BufTy).Contents (Elt F) → (⟨S1x36x6, .f32⟩ : BufTy).Contents (Elt F)),
    StableHlo.reshape main_v6 main_v7 rfl shapeCasts_S1x36x6_S36x6,
    StableHlo.unary main_arg4 main_v8 ((extractStridedSlice S1x36 ![0, 0] · slices_S2x36_S1x36_0_0) : (⟨S2x36, .f32⟩ : BufTy).Contents (Elt F) → (⟨S1x36, .f32⟩ : BufTy).Contents (Elt F)),
    StableHlo.reshape main_v8 main_v9 rfl shapeCasts_S1x36_S36,
    StableHlo.unary main_arg5 main_v10 ((extractStridedSlice S1x36x36 ![0, 0, 0] · slices_S2x36x36_S1x36x36_0_0_0) : (⟨S2x36x36, .f32⟩ : BufTy).Contents (Elt F) → (⟨S1x36x36, .f32⟩ : BufTy).Contents (Elt F)),
    StableHlo.reshape main_v10 main_v11 rfl shapeCasts_S1x36x36_S36x36,
    StableHlo.unary main_arg6 main_v12 ((extractStridedSlice S1x36 ![0, 0] · slices_S2x36_S1x36_0_0) : (⟨S2x36, .f32⟩ : BufTy).Contents (Elt F) → (⟨S1x36, .f32⟩ : BufTy).Contents (Elt F)),
    StableHlo.reshape main_v12 main_v13 rfl shapeCasts_S1x36_S36,
    StableHlo.nullary main_c (constantI S_ 32 0#32),
    StableHlo.unary main_c main_v14 (broadcastInDim S1600000 ![] bcast_S_S1600000 : (⟨S_, .i32⟩ : BufTy).Contents (Elt F) → (⟨S1600000, .i32⟩ : BufTy).Contents (Elt F)),
    StableHlo.binary main_v1 main_v14 main_v15 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v16 (broadcastInDim S1600000 ![] bcast_S_S1600000 : (⟨S_, .i32⟩ : BufTy).Contents (Elt F) → (⟨S1600000, .i32⟩ : BufTy).Contents (Elt F)),
    StableHlo.binary main_v1 main_v16 main_v17 (addi : (⟨S1600000, .i32⟩ : BufTy).Contents (Elt F) → (⟨S1600000, .i32⟩ : BufTy).Contents (Elt F) → (⟨S1600000, .i32⟩ : BufTy).Contents (Elt F)),
    StableHlo.ternary main_v15 main_v17 main_v1 main_v18 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v18 main_v19 (broadcastInDim S1600000x1 ![0] bcast_S1600000_S1600000x1_0 : (⟨S1600000, .i32⟩ : BufTy).Contents (Elt F) → (⟨S1600000x1, .i32⟩ : BufTy).Contents (Elt F)),
    StableHlo.binary main_v5 main_v19 main_v20 ((fun x i => Host.gather gather_S100000x6_S1600000x1_S1600000x6_1_0_n_n_0_1_16 x i) : (⟨S100000x6, .f32⟩ : BufTy).Contents (Elt F) → (⟨S1600000x1, .i32⟩ : BufTy).Contents (Elt F) → (⟨S1600000x6, .f32⟩ : BufTy).Contents (Elt F)),
    StableHlo.nullary main_cst (constant S_ .f32 0x00000000#32),
    StableHlo.unary main_cst main_v21 (broadcastInDim S100000x6 ![] bcast_S_S100000x6 : (⟨S_, .f32⟩ : BufTy).Contents (Elt F) → (⟨S100000x6, .f32⟩ : BufTy).Contents (Elt F)),
    StableHlo.unary main_v3 main_v22 (broadcastInDim S1600000x1 ![0] bcast_S1600000_S1600000x1_0 : (⟨S1600000, .i32⟩ : BufTy).Contents (Elt F) → (⟨S1600000x1, .i32⟩ : BufTy).Contents (Elt F)),
    StableHlo.ternary main_v21 main_v22 main_v20 main_v23 ((fun x i u => Host.scatterAdd scatter_S100000x6_S1600000x1_S1600000x6_1_0_0_1 x i u) : (⟨S100000x6, .f32⟩ : BufTy).Contents (Elt F) → (⟨S1600000x1, .i32⟩ : BufTy).Contents (Elt F) → (⟨S1600000x6, .f32⟩ : BufTy).Contents (Elt F) → (⟨S100000x6, .f32⟩ : BufTy).Contents (Elt F)),
    StableHlo.binary main_v5 main_v23 main_v24 (addf : (⟨S100000x6, .f32⟩ : BufTy).Contents (Elt F) → (⟨S100000x6, .f32⟩ : BufTy).Contents (Elt F) → (⟨S100000x6, .f32⟩ : BufTy).Contents (Elt F)),
    StableHlo.unary main_v7 main_v25 ((transpose S6x36 [1, 0] · transposes_S36x6_S6x36_1_0) : (⟨S36x6, .f32⟩ : BufTy).Contents (Elt F) → (⟨S6x36, .f32⟩ : BufTy).Contents (Elt F)),
    StableHlo.binary main_v24 main_v25 main_v26 ((fun l r => Host.dotGeneral dot_S100000x6_S6x36_S100000x36_1_0_0_1_n_n none l r) : (⟨S100000x6, .f32⟩ : BufTy).Contents (Elt F) → (⟨S6x36, .f32⟩ : BufTy).Contents (Elt F) → (⟨S100000x36, .f32⟩ : BufTy).Contents (Elt F)),
    StableHlo.unary main_v9 main_v27 (broadcastInDim S1x36 ![1] bcast_S36_S1x36_1 : (⟨S36, .f32⟩ : BufTy).Contents (Elt F) → (⟨S1x36, .f32⟩ : BufTy).Contents (Elt F)),
    StableHlo.unary main_v27 main_v28 (broadcastInDim S100000x36 ![0, 1] bcast_S1x36_S100000x36_0_1 : (⟨S1x36, .f32⟩ : BufTy).Contents (Elt F) → (⟨S100000x36, .f32⟩ : BufTy).Contents (Elt F)),
    StableHlo.binary main_v26 main_v28 main_v29 (addf : (⟨S100000x36, .f32⟩ : BufTy).Contents (Elt F) → (⟨S100000x36, .f32⟩ : BufTy).Contents (Elt F) → (⟨S100000x36, .f32⟩ : BufTy).Contents (Elt F)),
    StableHlo.TRef.nullary main_call0.cst (constant S_ .f32 0x00000000#32),
    StableHlo.TRef.unary main_call0.cst main_call0.v0 (broadcastInDim S100000x36 ![] bcast_S_S100000x36),
    StableHlo.TRef.binary (.of main_v29) main_call0.v0 main_call0.v1 maximumf,
    StableHlo.unary main_v11 main_v31 ((transpose S36x36 [1, 0] · transposes_S36x36_S36x36_1_0) : (⟨S36x36, .f32⟩ : BufTy).Contents (Elt F) → (⟨S36x36, .f32⟩ : BufTy).Contents (Elt F)),
    StableHlo.binary main_v30 main_v31 main_v32 ((fun l r => Host.dotGeneral dot_S100000x36_S36x36_S100000x36_1_0_0_1_n_n none l r) : (⟨S100000x36, .f32⟩ : BufTy).Contents (Elt F) → (⟨S36x36, .f32⟩ : BufTy).Contents (Elt F) → (⟨S100000x36, .f32⟩ : BufTy).Contents (Elt F)),
    StableHlo.unary main_v13 main_v33 (broadcastInDim S1x36 ![1] bcast_S36_S1x36_1 : (⟨S36, .f32⟩ : BufTy).Contents (Elt F) → (⟨S1x36, .f32⟩ : BufTy).Contents (Elt F)),
    StableHlo.unary main_v33 main_v34 (broadcastInDim S100000x36 ![0, 1] bcast_S1x36_S100000x36_0_1 : (⟨S1x36, .f32⟩ : BufTy).Contents (Elt F) → (⟨S100000x36, .f32⟩ : BufTy).Contents (Elt F)),
    StableHlo.binary main_v32 main_v34 main_v35 (addf : (⟨S100000x36, .f32⟩ : BufTy).Contents (Elt F) → (⟨S100000x36, .f32⟩ : BufTy).Contents (Elt F) → (⟨S100000x36, .f32⟩ : BufTy).Contents (Elt F)),
    StableHlo.TRef.nullary main_call1.cst (constant S_ .f32 0x00000000#32),
    StableHlo.TRef.unary main_call1.cst main_call1.v0 (broadcastInDim S100000x36 ![] bcast_S_S100000x36),
    StableHlo.TRef.binary (.of main_v35) main_call1.v0 main_call1.v1 maximumf,
    StableHlo.unary main_arg15 main_v37 ((extractStridedSlice S1x1x36 ![0, 0, 0] · slices_S2x3x36_S1x1x36_0_0_0) : (⟨S2x3x36, .f32⟩ : BufTy).Contents (Elt F) → (⟨S1x1x36, .f32⟩ : BufTy).Contents (Elt F)),
    StableHlo.reshape main_v37 main_v38 rfl shapeCasts_S1x1x36_S36,
    StableHlo.unary main_arg16 main_v39 ((extractStridedSlice S1x1x36 ![0, 0, 0] · slices_S2x3x36_S1x1x36_0_0_0) : (⟨S2x3x36, .f32⟩ : BufTy).Contents (Elt F) → (⟨S1x1x36, .f32⟩ : BufTy).Contents (Elt F)),
    StableHlo.reshape main_v39 main_v40 rfl shapeCasts_S1x1x36_S36,
    StableHlo.nullary main_cst_1 (constant S_ .f32 0x00000000#32),
    StableHlo.binary main_v36 main_cst_1 main_v41 ((fun x v => Host.reduceAdd x v reducesTo_S100000x36_S36_d0 h_S_) : (⟨S100000x36, .f32⟩ : BufTy).Contents (Elt F) → (⟨S_, .f32⟩ : BufTy).Contents (Elt F) → (⟨S36, .f32⟩ : BufTy).Contents (Elt F)),
    StableHlo.nullary main_cst_2 (constant S_ .f32 0x47C35000#32),
    StableHlo.unary main_cst_2 main_v42 (broadcastInDim S36 ![] bcast_S_S36 : (⟨S_, .f32⟩ : BufTy).Contents (Elt F) → (⟨S36, .f32⟩ : BufTy).Contents (Elt F)),
    StableHlo.binary main_v41 main_v42 main_v43 (Host.divf : (⟨S36, .f32⟩ : BufTy).Contents (Elt F) → (⟨S36, .f32⟩ : BufTy).Contents (Elt F) → (⟨S36, .f32⟩ : BufTy).Contents (Elt F)),
    StableHlo.nullary main_c_3 (constantI S_ 32 0#32),
    StableHlo.TRef.nullary main_call2.cst (constant S_ .f32 0x00000000#32),
    StableHlo.TRef.binary (.of main_v36) main_call2.cst main_call2.v0 (fun x v => Host.reduceAdd x v reducesTo_S100000x36_S36_d0 h_S_),
    StableHlo.TRef.unary main_call2.v0 main_call2.v1 (broadcastInDim S1x36 ![1] bcast_S36_S1x36_1),
    StableHlo.TRef.nullary main_call2.cst_0 (constant S_ .f32 0x47C35000#32),
    StableHlo.TRef.unary main_call2.cst_0 main_call2.v2 (broadcastInDim S1x36 ![] bcast_S_S1x36),
    StableHlo.TRef.binary main_call2.v1 main_call2.v2 main_call2.v3 Host.divf,
    StableHlo.TRef.unary main_call2.v3 main_call2.v4 (broadcastInDim S100000x36 ![0, 1] bcast_S1x36_S100000x36_0_1),
    StableHlo.TRef.binary (.of main_v36) main_call2.v4 main_call2.v5 subf,
    StableHlo.TRef.binary main_call2.v5 main_call2.v5 main_call2.v6 mulf,
    StableHlo.TRef.unary (.of main_c_3) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x36_S36_d0 h_S_),
    StableHlo.TRef.unary main_call2.v8 main_call2.v10 (broadcastInDim S36 ![] bcast_S_S36),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S36 ![] bcast_S_S36),
    StableHlo.TRef.ternary main_call2.v12 main_call2.v11 main_call2.call0.v1 main_call2.call0.v2 (fun p a b => select (broadcastInDim S36 ![] bcast_S_S36 p) a b),
    StableHlo.unary main_v43 main_v45 (broadcastInDim S1x36 ![1] bcast_S36_S1x36_1 : (⟨S36, .f32⟩ : BufTy).Contents (Elt F) → (⟨S1x36, .f32⟩ : BufTy).Contents (Elt F)),
    StableHlo.unary main_v45 main_v46 (broadcastInDim S100000x36 ![0, 1] bcast_S1x36_S100000x36_0_1 : (⟨S1x36, .f32⟩ : BufTy).Contents (Elt F) → (⟨S100000x36, .f32⟩ : BufTy).Contents (Elt F)),
    StableHlo.binary main_v36 main_v46 main_v47 (subf : (⟨S100000x36, .f32⟩ : BufTy).Contents (Elt F) → (⟨S100000x36, .f32⟩ : BufTy).Contents (Elt F) → (⟨S100000x36, .f32⟩ : BufTy).Contents (Elt F)),
    StableHlo.unary main_v38 main_v48 (broadcastInDim S1x36 ![1] bcast_S36_S1x36_1 : (⟨S36, .f32⟩ : BufTy).Contents (Elt F) → (⟨S1x36, .f32⟩ : BufTy).Contents (Elt F)),
    StableHlo.unary main_v48 main_v49 (broadcastInDim S100000x36 ![0, 1] bcast_S1x36_S100000x36_0_1 : (⟨S1x36, .f32⟩ : BufTy).Contents (Elt F) → (⟨S100000x36, .f32⟩ : BufTy).Contents (Elt F)),
    StableHlo.binary main_v49 main_v47 main_v50 (mulf : (⟨S100000x36, .f32⟩ : BufTy).Contents (Elt F) → (⟨S100000x36, .f32⟩ : BufTy).Contents (Elt F) → (⟨S100000x36, .f32⟩ : BufTy).Contents (Elt F)),
    StableHlo.nullary main_cst_4 (constant S_ .f32 0x3727C5AC#32),
    StableHlo.unary main_cst_4 main_v51 (broadcastInDim S36 ![] bcast_S_S36 : (⟨S_, .f32⟩ : BufTy).Contents (Elt F) → (⟨S36, .f32⟩ : BufTy).Contents (Elt F)),
    StableHlo.binary main_v44 main_v51 main_v52 (addf : (⟨S36, .f32⟩ : BufTy).Contents (Elt F) → (⟨S36, .f32⟩ : BufTy).Contents (Elt F) → (⟨S36, .f32⟩ : BufTy).Contents (Elt F)) ]

/-- Window 1 of @main: its 85 operations, in order. -/
abbrev ops1 : List (HloOp τ sig (Elt F)) :=
  [ StableHlo.unary main_v52 main_v53 (Host.rsqrt : (⟨S36, .f32⟩ : BufTy).Contents (Elt F) → (⟨S36, .f32⟩ : BufTy).Contents (Elt F)),
    StableHlo.unary main_v53 main_v54 (broadcastInDim S1x36 ![1] bcast_S36_S1x36_1 : (⟨S36, .f32⟩ : BufTy).Contents (Elt F) → (⟨S1x36, .f32⟩ : BufTy).Contents (Elt F)),
    StableHlo.unary main_v54 main_v55 (broadcastInDim S100000x36 ![0, 1] bcast_S1x36_S100000x36_0_1 : (⟨S1x36, .f32⟩ : BufTy).Contents (Elt F) → (⟨S100000x36, .f32⟩ : BufTy).Contents (Elt F)),
    StableHlo.binary main_v50 main_v55 main_v56 (mulf : (⟨S100000x36, .f32⟩ : BufTy).Contents (Elt F) → (⟨S100000x36, .f32⟩ : BufTy).Contents (Elt F) → (⟨S100000x36, .f32⟩ : BufTy).Contents (Elt F)),
    StableHlo.unary main_v40 main_v57 (broadcastInDim S1x36 ![1] bcast_S36_S1x36_1 : (⟨S36, .f32⟩ : BufTy).Contents (Elt F) → (⟨S1x36, .f32⟩ : BufTy).Contents (Elt F)),
    StableHlo.unary main_v57 main_v58 (broadcastInDim S100000x36 ![0, 1] bcast_S1x36_S100000x36_0_1 : (⟨S1x36, .f32⟩ : BufTy).Contents (Elt F) → (⟨S100000x36, .f32⟩ : BufTy).Contents (Elt F)),
    StableHlo.binary main_v56 main_v58 main_v59 (addf : (⟨S100000x36, .f32⟩ : BufTy).Contents (Elt F) → (⟨S100000x36, .f32⟩ : BufTy).Contents (Elt F) → (⟨S100000x36, .f32⟩ : BufTy).Contents (Elt F)),
    StableHlo.unary main_arg7 main_v60 ((extractStridedSlice S1x36x36 ![0, 0, 0] · slices_S2x36x36_S1x36x36_0_0_0) : (⟨S2x36x36, .f32⟩ : BufTy).Contents (Elt F) → (⟨S1x36x36, .f32⟩ : BufTy).Contents (Elt F)),
    StableHlo.reshape main_v60 main_v61 rfl shapeCasts_S1x36x36_S36x36,
    StableHlo.unary main_arg8 main_v62 ((extractStridedSlice S1x36 ![0, 0] · slices_S2x36_S1x36_0_0) : (⟨S2x36, .f32⟩ : BufTy).Contents (Elt F) → (⟨S1x36, .f32⟩ : BufTy).Contents (Elt F)),
    StableHlo.reshape main_v62 main_v63 rfl shapeCasts_S1x36_S36,
    StableHlo.unary main_arg9 main_v64 ((extractStridedSlice S1x36x36 ![0, 0, 0] · slices_S2x36x36_S1x36x36_0_0_0) : (⟨S2x36x36, .f32⟩ : BufTy).Contents (Elt F) → (⟨S1x36x36, .f32⟩ : BufTy).Contents (Elt F)),
    StableHlo.reshape main_v64 main_v65 rfl shapeCasts_S1x36x36_S36x36,
    StableHlo.unary main_arg10 main_v66 ((extractStridedSlice S1x36 ![0, 0] · slices_S2x36_S1x36_0_0) : (⟨S2x36, .f32⟩ : BufTy).Contents (Elt F) → (⟨S1x36, .f32⟩ : BufTy).Contents (Elt F)),
    StableHlo.reshape main_v66 main_v67 rfl shapeCasts_S1x36_S36,
    StableHlo.nullary main_c_5 (constantI S_ 32 0#32),
    StableHlo.unary main_c_5 main_v68 (broadcastInDim S1600000 ![] bcast_S_S1600000 : (⟨S_, .i32⟩ : BufTy).Contents (Elt F) → (⟨S1600000, .i32⟩ : BufTy).Contents (Elt F)),
    StableHlo.binary main_v1 main_v68 main_v69 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v70 (broadcastInDim S1600000 ![] bcast_S_S1600000 : (⟨S_, .i32⟩ : BufTy).Contents (Elt F) → (⟨S1600000, .i32⟩ : BufTy).Contents (Elt F)),
    StableHlo.binary main_v1 main_v70 main_v71 (addi : (⟨S1600000, .i32⟩ : BufTy).Contents (Elt F) → (⟨S1600000, .i32⟩ : BufTy).Contents (Elt F) → (⟨S1600000, .i32⟩ : BufTy).Contents (Elt F)),
    StableHlo.ternary main_v69 main_v71 main_v1 main_v72 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v72 main_v73 (broadcastInDim S1600000x1 ![0] bcast_S1600000_S1600000x1_0 : (⟨S1600000, .i32⟩ : BufTy).Contents (Elt F) → (⟨S1600000x1, .i32⟩ : BufTy).Contents (Elt F)),
    StableHlo.binary main_v59 main_v73 main_v74 ((fun x i => Host.gather gather_S100000x36_S1600000x1_S1600000x36_1_0_n_n_0_1_136 x i) : (⟨S100000x36, .f32⟩ : BufTy).Contents (Elt F) → (⟨S1600000x1, .i32⟩ : BufTy).Contents (Elt F) → (⟨S1600000x36, .f32⟩ : BufTy).Contents (Elt F)),
    StableHlo.nullary main_cst_7 (constant S_ .f32 0x00000000#32),
    StableHlo.unary main_cst_7 main_v75 (broadcastInDim S100000x36 ![] bcast_S_S100000x36 : (⟨S_, .f32⟩ : BufTy).Contents (Elt F) → (⟨S100000x36, .f32⟩ : BufTy).Contents (Elt F)),
    StableHlo.unary main_v3 main_v76 (broadcastInDim S1600000x1 ![0] bcast_S1600000_S1600000x1_0 : (⟨S1600000, .i32⟩ : BufTy).Contents (Elt F) → (⟨S1600000x1, .i32⟩ : BufTy).Contents (Elt F)),
    StableHlo.ternary main_v75 main_v76 main_v74 main_v77 ((fun x i u => Host.scatterAdd scatter_S100000x36_S1600000x1_S1600000x36_1_0_0_1 x i u) : (⟨S100000x36, .f32⟩ : BufTy).Contents (Elt F) → (⟨S1600000x1, .i32⟩ : BufTy).Contents (Elt F) → (⟨S1600000x36, .f32⟩ : BufTy).Contents (Elt F) → (⟨S100000x36, .f32⟩ : BufTy).Contents (Elt F)),
    StableHlo.binary main_v59 main_v77 main_v78 (addf : (⟨S100000x36, .f32⟩ : BufTy).Contents (Elt F) → (⟨S100000x36, .f32⟩ : BufTy).Contents (Elt F) → (⟨S100000x36, .f32⟩ : BufTy).Contents (Elt F)),
    StableHlo.unary main_v61 main_v79 ((transpose S36x36 [1, 0] · transposes_S36x36_S36x36_1_0) : (⟨S36x36, .f32⟩ : BufTy).Contents (Elt F) → (⟨S36x36, .f32⟩ : BufTy).Contents (Elt F)),
    StableHlo.binary main_v78 main_v79 main_v80 ((fun l r => Host.dotGeneral dot_S100000x36_S36x36_S100000x36_1_0_0_1_n_n none l r) : (⟨S100000x36, .f32⟩ : BufTy).Contents (Elt F) → (⟨S36x36, .f32⟩ : BufTy).Contents (Elt F) → (⟨S100000x36, .f32⟩ : BufTy).Contents (Elt F)),
    StableHlo.unary main_v63 main_v81 (broadcastInDim S1x36 ![1] bcast_S36_S1x36_1 : (⟨S36, .f32⟩ : BufTy).Contents (Elt F) → (⟨S1x36, .f32⟩ : BufTy).Contents (Elt F)),
    StableHlo.unary main_v81 main_v82 (broadcastInDim S100000x36 ![0, 1] bcast_S1x36_S100000x36_0_1 : (⟨S1x36, .f32⟩ : BufTy).Contents (Elt F) → (⟨S100000x36, .f32⟩ : BufTy).Contents (Elt F)),
    StableHlo.binary main_v80 main_v82 main_v83 (addf : (⟨S100000x36, .f32⟩ : BufTy).Contents (Elt F) → (⟨S100000x36, .f32⟩ : BufTy).Contents (Elt F) → (⟨S100000x36, .f32⟩ : BufTy).Contents (Elt F)),
    StableHlo.TRef.nullary main_call3.cst (constant S_ .f32 0x00000000#32),
    StableHlo.TRef.unary main_call3.cst main_call3.v0 (broadcastInDim S100000x36 ![] bcast_S_S100000x36),
    StableHlo.TRef.binary (.of main_v83) main_call3.v0 main_call3.v1 maximumf,
    StableHlo.unary main_v65 main_v85 ((transpose S36x36 [1, 0] · transposes_S36x36_S36x36_1_0) : (⟨S36x36, .f32⟩ : BufTy).Contents (Elt F) → (⟨S36x36, .f32⟩ : BufTy).Contents (Elt F)),
    StableHlo.binary main_v84 main_v85 main_v86 ((fun l r => Host.dotGeneral dot_S100000x36_S36x36_S100000x36_1_0_0_1_n_n none l r) : (⟨S100000x36, .f32⟩ : BufTy).Contents (Elt F) → (⟨S36x36, .f32⟩ : BufTy).Contents (Elt F) → (⟨S100000x36, .f32⟩ : BufTy).Contents (Elt F)),
    StableHlo.unary main_v67 main_v87 (broadcastInDim S1x36 ![1] bcast_S36_S1x36_1 : (⟨S36, .f32⟩ : BufTy).Contents (Elt F) → (⟨S1x36, .f32⟩ : BufTy).Contents (Elt F)),
    StableHlo.unary main_v87 main_v88 (broadcastInDim S100000x36 ![0, 1] bcast_S1x36_S100000x36_0_1 : (⟨S1x36, .f32⟩ : BufTy).Contents (Elt F) → (⟨S100000x36, .f32⟩ : BufTy).Contents (Elt F)),
    StableHlo.binary main_v86 main_v88 main_v89 (addf : (⟨S100000x36, .f32⟩ : BufTy).Contents (Elt F) → (⟨S100000x36, .f32⟩ : BufTy).Contents (Elt F) → (⟨S100000x36, .f32⟩ : BufTy).Contents (Elt F)),
    StableHlo.TRef.nullary main_call4.cst (constant S_ .f32 0x00000000#32),
    StableHlo.TRef.unary main_call4.cst main_call4.v0 (broadcastInDim S100000x36 ![] bcast_S_S100000x36),
    StableHlo.TRef.binary (.of main_v89) main_call4.v0 main_call4.v1 maximumf,
    StableHlo.unary main_arg15 main_v91 ((extractStridedSlice S1x1x36 ![0, 1, 0] · slices_S2x3x36_S1x1x36_0_1_0) : (⟨S2x3x36, .f32⟩ : BufTy).Contents (Elt F) → (⟨S1x1x36, .f32⟩ : BufTy).Contents (Elt F)),
    StableHlo.reshape main_v91 main_v92 rfl shapeCasts_S1x1x36_S36,
    StableHlo.unary main_arg16 main_v93 ((extractStridedSlice S1x1x36 ![0, 1, 0] · slices_S2x3x36_S1x1x36_0_1_0) : (⟨S2x3x36, .f32⟩ : BufTy).Contents (Elt F) → (⟨S1x1x36, .f32⟩ : BufTy).Contents (Elt F)),
    StableHlo.reshape main_v93 main_v94 rfl shapeCasts_S1x1x36_S36,
    StableHlo.nullary main_cst_8 (constant S_ .f32 0x00000000#32),
    StableHlo.binary main_v90 main_cst_8 main_v95 ((fun x v => Host.reduceAdd x v reducesTo_S100000x36_S36_d0 h_S_) : (⟨S100000x36, .f32⟩ : BufTy).Contents (Elt F) → (⟨S_, .f32⟩ : BufTy).Contents (Elt F) → (⟨S36, .f32⟩ : BufTy).Contents (Elt F)),
    StableHlo.nullary main_cst_9 (constant S_ .f32 0x47C35000#32),
    StableHlo.unary main_cst_9 main_v96 (broadcastInDim S36 ![] bcast_S_S36 : (⟨S_, .f32⟩ : BufTy).Contents (Elt F) → (⟨S36, .f32⟩ : BufTy).Contents (Elt F)),
    StableHlo.binary main_v95 main_v96 main_v97 (Host.divf : (⟨S36, .f32⟩ : BufTy).Contents (Elt F) → (⟨S36, .f32⟩ : BufTy).Contents (Elt F) → (⟨S36, .f32⟩ : BufTy).Contents (Elt F)),
    StableHlo.nullary main_c_10 (constantI S_ 32 0#32),
    StableHlo.TRef.nullary main_call5.cst (constant S_ .f32 0x00000000#32),
    StableHlo.TRef.binary (.of main_v90) main_call5.cst main_call5.v0 (fun x v => Host.reduceAdd x v reducesTo_S100000x36_S36_d0 h_S_),
    StableHlo.TRef.unary main_call5.v0 main_call5.v1 (broadcastInDim S1x36 ![1] bcast_S36_S1x36_1),
    StableHlo.TRef.nullary main_call5.cst_0 (constant S_ .f32 0x47C35000#32),
    StableHlo.TRef.unary main_call5.cst_0 main_call5.v2 (broadcastInDim S1x36 ![] bcast_S_S1x36),
    StableHlo.TRef.binary main_call5.v1 main_call5.v2 main_call5.v3 Host.divf,
    StableHlo.TRef.unary main_call5.v3 main_call5.v4 (broadcastInDim S100000x36 ![0, 1] bcast_S1x36_S100000x36_0_1),
    StableHlo.TRef.binary (.of main_v90) main_call5.v4 main_call5.v5 subf,
    StableHlo.TRef.binary main_call5.v5 main_call5.v5 main_call5.v6 mulf,
    StableHlo.TRef.unary (.of main_c_10) main_call5.v7 (sitofp .f32),
    StableHlo.TRef.nullary main_call5.cst_1 (constant S_ .f32 0x47C35000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x36_S36_d0 h_S_),
    StableHlo.TRef.unary main_call5.v8 main_call5.v10 (broadcastInDim S36 ![] bcast_S_S36),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S36 ![] bcast_S_S36),
    StableHlo.TRef.ternary main_call5.v12 main_call5.v11 main_call5.call0.v1 main_call5.call0.v2 (fun p a b => select (broadcastInDim S36 ![] bcast_S_S36 p) a b),
    StableHlo.unary main_v97 main_v99 (broadcastInDim S1x36 ![1] bcast_S36_S1x36_1 : (⟨S36, .f32⟩ : BufTy).Contents (Elt F) → (⟨S1x36, .f32⟩ : BufTy).Contents (Elt F)),
    StableHlo.unary main_v99 main_v100 (broadcastInDim S100000x36 ![0, 1] bcast_S1x36_S100000x36_0_1 : (⟨S1x36, .f32⟩ : BufTy).Contents (Elt F) → (⟨S100000x36, .f32⟩ : BufTy).Contents (Elt F)),
    StableHlo.binary main_v90 main_v100 main_v101 (subf : (⟨S100000x36, .f32⟩ : BufTy).Contents (Elt F) → (⟨S100000x36, .f32⟩ : BufTy).Contents (Elt F) → (⟨S100000x36, .f32⟩ : BufTy).Contents (Elt F)),
    StableHlo.unary main_v92 main_v102 (broadcastInDim S1x36 ![1] bcast_S36_S1x36_1 : (⟨S36, .f32⟩ : BufTy).Contents (Elt F) → (⟨S1x36, .f32⟩ : BufTy).Contents (Elt F)),
    StableHlo.unary main_v102 main_v103 (broadcastInDim S100000x36 ![0, 1] bcast_S1x36_S100000x36_0_1 : (⟨S1x36, .f32⟩ : BufTy).Contents (Elt F) → (⟨S100000x36, .f32⟩ : BufTy).Contents (Elt F)),
    StableHlo.binary main_v103 main_v101 main_v104 (mulf : (⟨S100000x36, .f32⟩ : BufTy).Contents (Elt F) → (⟨S100000x36, .f32⟩ : BufTy).Contents (Elt F) → (⟨S100000x36, .f32⟩ : BufTy).Contents (Elt F)),
    StableHlo.nullary main_cst_11 (constant S_ .f32 0x3727C5AC#32),
    StableHlo.unary main_cst_11 main_v105 (broadcastInDim S36 ![] bcast_S_S36 : (⟨S_, .f32⟩ : BufTy).Contents (Elt F) → (⟨S36, .f32⟩ : BufTy).Contents (Elt F)) ]

/-- Window 2 of @main: its 85 operations, in order. -/
abbrev ops2 : List (HloOp τ sig (Elt F)) :=
  [ StableHlo.binary main_v98 main_v105 main_v106 (addf : (⟨S36, .f32⟩ : BufTy).Contents (Elt F) → (⟨S36, .f32⟩ : BufTy).Contents (Elt F) → (⟨S36, .f32⟩ : BufTy).Contents (Elt F)),
    StableHlo.unary main_v106 main_v107 (Host.rsqrt : (⟨S36, .f32⟩ : BufTy).Contents (Elt F) → (⟨S36, .f32⟩ : BufTy).Contents (Elt F)),
    StableHlo.unary main_v107 main_v108 (broadcastInDim S1x36 ![1] bcast_S36_S1x36_1 : (⟨S36, .f32⟩ : BufTy).Contents (Elt F) → (⟨S1x36, .f32⟩ : BufTy).Contents (Elt F)),
    StableHlo.unary main_v108 main_v109 (broadcastInDim S100000x36 ![0, 1] bcast_S1x36_S100000x36_0_1 : (⟨S1x36, .f32⟩ : BufTy).Contents (Elt F) → (⟨S100000x36, .f32⟩ : BufTy).Contents (Elt F)),
    StableHlo.binary main_v104 main_v109 main_v110 (mulf : (⟨S100000x36, .f32⟩ : BufTy).Contents (Elt F) → (⟨S100000x36, .f32⟩ : BufTy).Contents (Elt F) → (⟨S100000x36, .f32⟩ : BufTy).Contents (Elt F)),
    StableHlo.unary main_v94 main_v111 (broadcastInDim S1x36 ![1] bcast_S36_S1x36_1 : (⟨S36, .f32⟩ : BufTy).Contents (Elt F) → (⟨S1x36, .f32⟩ : BufTy).Contents (Elt F)),
    StableHlo.unary main_v111 main_v112 (broadcastInDim S100000x36 ![0, 1] bcast_S1x36_S100000x36_0_1 : (⟨S1x36, .f32⟩ : BufTy).Contents (Elt F) → (⟨S100000x36, .f32⟩ : BufTy).Contents (Elt F)),
    StableHlo.binary main_v110 main_v112 main_v113 (addf : (⟨S100000x36, .f32⟩ : BufTy).Contents (Elt F) → (⟨S100000x36, .f32⟩ : BufTy).Contents (Elt F) → (⟨S100000x36, .f32⟩ : BufTy).Contents (Elt F)),
    StableHlo.unary main_arg11 main_v114 ((extractStridedSlice S1x36x36 ![0, 0, 0] · slices_S2x36x36_S1x36x36_0_0_0) : (⟨S2x36x36, .f32⟩ : BufTy).Contents (Elt F) → (⟨S1x36x36, .f32⟩ : BufTy).Contents (Elt F)),
    StableHlo.reshape main_v114 main_v115 rfl shapeCasts_S1x36x36_S36x36,
    StableHlo.unary main_arg12 main_v116 ((extractStridedSlice S1x36 ![0, 0] · slices_S2x36_S1x36_0_0) : (⟨S2x36, .f32⟩ : BufTy).Contents (Elt F) → (⟨S1x36, .f32⟩ : BufTy).Contents (Elt F)),
    StableHlo.reshape main_v116 main_v117 rfl shapeCasts_S1x36_S36,
    StableHlo.unary main_arg13 main_v118 ((extractStridedSlice S1x36x36 ![0, 0, 0] · slices_S2x36x36_S1x36x36_0_0_0) : (⟨S2x36x36, .f32⟩ : BufTy).Contents (Elt F) → (⟨S1x36x36, .f32⟩ : BufTy).Contents (Elt F)),
    StableHlo.reshape main_v118 main_v119 rfl shapeCasts_S1x36x36_S36x36,
    StableHlo.unary main_arg14 main_v120 ((extractStridedSlice S1x36 ![0, 0] · slices_S2x36_S1x36_0_0) : (⟨S2x36, .f32⟩ : BufTy).Contents (Elt F) → (⟨S1x36, .f32⟩ : BufTy).Contents (Elt F)),
    StableHlo.reshape main_v120 main_v121 rfl shapeCasts_S1x36_S36,
    StableHlo.nullary main_c_12 (constantI S_ 32 0#32),
    StableHlo.unary main_c_12 main_v122 (broadcastInDim S1600000 ![] bcast_S_S1600000 : (⟨S_, .i32⟩ : BufTy).Contents (Elt F) → (⟨S1600000, .i32⟩ : BufTy).Contents (Elt F)),
    StableHlo.binary main_v1 main_v122 main_v123 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v124 (broadcastInDim S1600000 ![] bcast_S_S1600000 : (⟨S_, .i32⟩ : BufTy).Contents (Elt F) → (⟨S1600000, .i32⟩ : BufTy).Contents (Elt F)),
    StableHlo.binary main_v1 main_v124 main_v125 (addi : (⟨S1600000, .i32⟩ : BufTy).Contents (Elt F) → (⟨S1600000, .i32⟩ : BufTy).Contents (Elt F) → (⟨S1600000, .i32⟩ : BufTy).Contents (Elt F)),
    StableHlo.ternary main_v123 main_v125 main_v1 main_v126 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v126 main_v127 (broadcastInDim S1600000x1 ![0] bcast_S1600000_S1600000x1_0 : (⟨S1600000, .i32⟩ : BufTy).Contents (Elt F) → (⟨S1600000x1, .i32⟩ : BufTy).Contents (Elt F)),
    StableHlo.binary main_v113 main_v127 main_v128 ((fun x i => Host.gather gather_S100000x36_S1600000x1_S1600000x36_1_0_n_n_0_1_136 x i) : (⟨S100000x36, .f32⟩ : BufTy).Contents (Elt F) → (⟨S1600000x1, .i32⟩ : BufTy).Contents (Elt F) → (⟨S1600000x36, .f32⟩ : BufTy).Contents (Elt F)),
    StableHlo.nullary main_cst_14 (constant S_ .f32 0x00000000#32),
    StableHlo.unary main_cst_14 main_v129 (broadcastInDim S100000x36 ![] bcast_S_S100000x36 : (⟨S_, .f32⟩ : BufTy).Contents (Elt F) → (⟨S100000x36, .f32⟩ : BufTy).Contents (Elt F)),
    StableHlo.unary main_v3 main_v130 (broadcastInDim S1600000x1 ![0] bcast_S1600000_S1600000x1_0 : (⟨S1600000, .i32⟩ : BufTy).Contents (Elt F) → (⟨S1600000x1, .i32⟩ : BufTy).Contents (Elt F)),
    StableHlo.ternary main_v129 main_v130 main_v128 main_v131 ((fun x i u => Host.scatterAdd scatter_S100000x36_S1600000x1_S1600000x36_1_0_0_1 x i u) : (⟨S100000x36, .f32⟩ : BufTy).Contents (Elt F) → (⟨S1600000x1, .i32⟩ : BufTy).Contents (Elt F) → (⟨S1600000x36, .f32⟩ : BufTy).Contents (Elt F) → (⟨S100000x36, .f32⟩ : BufTy).Contents (Elt F)),
    StableHlo.binary main_v113 main_v131 main_v132 (addf : (⟨S100000x36, .f32⟩ : BufTy).Contents (Elt F) → (⟨S100000x36, .f32⟩ : BufTy).Contents (Elt F) → (⟨S100000x36, .f32⟩ : BufTy).Contents (Elt F)),
    StableHlo.unary main_v115 main_v133 ((transpose S36x36 [1, 0] · transposes_S36x36_S36x36_1_0) : (⟨S36x36, .f32⟩ : BufTy).Contents (Elt F) → (⟨S36x36, .f32⟩ : BufTy).Contents (Elt F)),
    StableHlo.binary main_v132 main_v133 main_v134 ((fun l r => Host.dotGeneral dot_S100000x36_S36x36_S100000x36_1_0_0_1_n_n none l r) : (⟨S100000x36, .f32⟩ : BufTy).Contents (Elt F) → (⟨S36x36, .f32⟩ : BufTy).Contents (Elt F) → (⟨S100000x36, .f32⟩ : BufTy).Contents (Elt F)),
    StableHlo.unary main_v117 main_v135 (broadcastInDim S1x36 ![1] bcast_S36_S1x36_1 : (⟨S36, .f32⟩ : BufTy).Contents (Elt F) → (⟨S1x36, .f32⟩ : BufTy).Contents (Elt F)),
    StableHlo.unary main_v135 main_v136 (broadcastInDim S100000x36 ![0, 1] bcast_S1x36_S100000x36_0_1 : (⟨S1x36, .f32⟩ : BufTy).Contents (Elt F) → (⟨S100000x36, .f32⟩ : BufTy).Contents (Elt F)),
    StableHlo.binary main_v134 main_v136 main_v137 (addf : (⟨S100000x36, .f32⟩ : BufTy).Contents (Elt F) → (⟨S100000x36, .f32⟩ : BufTy).Contents (Elt F) → (⟨S100000x36, .f32⟩ : BufTy).Contents (Elt F)),
    StableHlo.TRef.nullary main_call6.cst (constant S_ .f32 0x00000000#32),
    StableHlo.TRef.unary main_call6.cst main_call6.v0 (broadcastInDim S100000x36 ![] bcast_S_S100000x36),
    StableHlo.TRef.binary (.of main_v137) main_call6.v0 main_call6.v1 maximumf,
    StableHlo.unary main_v119 main_v139 ((transpose S36x36 [1, 0] · transposes_S36x36_S36x36_1_0) : (⟨S36x36, .f32⟩ : BufTy).Contents (Elt F) → (⟨S36x36, .f32⟩ : BufTy).Contents (Elt F)),
    StableHlo.binary main_v138 main_v139 main_v140 ((fun l r => Host.dotGeneral dot_S100000x36_S36x36_S100000x36_1_0_0_1_n_n none l r) : (⟨S100000x36, .f32⟩ : BufTy).Contents (Elt F) → (⟨S36x36, .f32⟩ : BufTy).Contents (Elt F) → (⟨S100000x36, .f32⟩ : BufTy).Contents (Elt F)),
    StableHlo.unary main_v121 main_v141 (broadcastInDim S1x36 ![1] bcast_S36_S1x36_1 : (⟨S36, .f32⟩ : BufTy).Contents (Elt F) → (⟨S1x36, .f32⟩ : BufTy).Contents (Elt F)),
    StableHlo.unary main_v141 main_v142 (broadcastInDim S100000x36 ![0, 1] bcast_S1x36_S100000x36_0_1 : (⟨S1x36, .f32⟩ : BufTy).Contents (Elt F) → (⟨S100000x36, .f32⟩ : BufTy).Contents (Elt F)),
    StableHlo.binary main_v140 main_v142 main_v143 (addf : (⟨S100000x36, .f32⟩ : BufTy).Contents (Elt F) → (⟨S100000x36, .f32⟩ : BufTy).Contents (Elt F) → (⟨S100000x36, .f32⟩ : BufTy).Contents (Elt F)),
    StableHlo.TRef.nullary main_call7.cst (constant S_ .f32 0x00000000#32),
    StableHlo.TRef.unary main_call7.cst main_call7.v0 (broadcastInDim S100000x36 ![] bcast_S_S100000x36),
    StableHlo.TRef.binary (.of main_v143) main_call7.v0 main_call7.v1 maximumf,
    StableHlo.unary main_arg15 main_v145 ((extractStridedSlice S1x1x36 ![0, 2, 0] · slices_S2x3x36_S1x1x36_0_2_0) : (⟨S2x3x36, .f32⟩ : BufTy).Contents (Elt F) → (⟨S1x1x36, .f32⟩ : BufTy).Contents (Elt F)),
    StableHlo.reshape main_v145 main_v146 rfl shapeCasts_S1x1x36_S36,
    StableHlo.unary main_arg16 main_v147 ((extractStridedSlice S1x1x36 ![0, 2, 0] · slices_S2x3x36_S1x1x36_0_2_0) : (⟨S2x3x36, .f32⟩ : BufTy).Contents (Elt F) → (⟨S1x1x36, .f32⟩ : BufTy).Contents (Elt F)),
    StableHlo.reshape main_v147 main_v148 rfl shapeCasts_S1x1x36_S36,
    StableHlo.nullary main_cst_15 (constant S_ .f32 0x00000000#32),
    StableHlo.binary main_v144 main_cst_15 main_v149 ((fun x v => Host.reduceAdd x v reducesTo_S100000x36_S36_d0 h_S_) : (⟨S100000x36, .f32⟩ : BufTy).Contents (Elt F) → (⟨S_, .f32⟩ : BufTy).Contents (Elt F) → (⟨S36, .f32⟩ : BufTy).Contents (Elt F)),
    StableHlo.nullary main_cst_16 (constant S_ .f32 0x47C35000#32),
    StableHlo.unary main_cst_16 main_v150 (broadcastInDim S36 ![] bcast_S_S36 : (⟨S_, .f32⟩ : BufTy).Contents (Elt F) → (⟨S36, .f32⟩ : BufTy).Contents (Elt F)),
    StableHlo.binary main_v149 main_v150 main_v151 (Host.divf : (⟨S36, .f32⟩ : BufTy).Contents (Elt F) → (⟨S36, .f32⟩ : BufTy).Contents (Elt F) → (⟨S36, .f32⟩ : BufTy).Contents (Elt F)),
    StableHlo.nullary main_c_17 (constantI S_ 32 0#32),
    StableHlo.TRef.nullary main_call8.cst (constant S_ .f32 0x00000000#32),
    StableHlo.TRef.binary (.of main_v144) main_call8.cst main_call8.v0 (fun x v => Host.reduceAdd x v reducesTo_S100000x36_S36_d0 h_S_),
    StableHlo.TRef.unary main_call8.v0 main_call8.v1 (broadcastInDim S1x36 ![1] bcast_S36_S1x36_1),
    StableHlo.TRef.nullary main_call8.cst_0 (constant S_ .f32 0x47C35000#32),
    StableHlo.TRef.unary main_call8.cst_0 main_call8.v2 (broadcastInDim S1x36 ![] bcast_S_S1x36),
    StableHlo.TRef.binary main_call8.v1 main_call8.v2 main_call8.v3 Host.divf,
    StableHlo.TRef.unary main_call8.v3 main_call8.v4 (broadcastInDim S100000x36 ![0, 1] bcast_S1x36_S100000x36_0_1),
    StableHlo.TRef.binary (.of main_v144) main_call8.v4 main_call8.v5 subf,
    StableHlo.TRef.binary main_call8.v5 main_call8.v5 main_call8.v6 mulf,
    StableHlo.TRef.unary (.of main_c_17) main_call8.v7 (sitofp .f32),
    StableHlo.TRef.nullary main_call8.cst_1 (constant S_ .f32 0x47C35000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S100000x36_S36_d0 h_S_),
    StableHlo.TRef.unary main_call8.v8 main_call8.v10 (broadcastInDim S36 ![] bcast_S_S36),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S36 ![] bcast_S_S36),
    StableHlo.TRef.ternary main_call8.v12 main_call8.v11 main_call8.call0.v1 main_call8.call0.v2 (fun p a b => select (broadcastInDim S36 ![] bcast_S_S36 p) a b),
    StableHlo.unary main_v151 main_v153 (broadcastInDim S1x36 ![1] bcast_S36_S1x36_1 : (⟨S36, .f32⟩ : BufTy).Contents (Elt F) → (⟨S1x36, .f32⟩ : BufTy).Contents (Elt F)),
    StableHlo.unary main_v153 main_v154 (broadcastInDim S100000x36 ![0, 1] bcast_S1x36_S100000x36_0_1 : (⟨S1x36, .f32⟩ : BufTy).Contents (Elt F) → (⟨S100000x36, .f32⟩ : BufTy).Contents (Elt F)),
    StableHlo.binary main_v144 main_v154 main_v155 (subf : (⟨S100000x36, .f32⟩ : BufTy).Contents (Elt F) → (⟨S100000x36, .f32⟩ : BufTy).Contents (Elt F) → (⟨S100000x36, .f32⟩ : BufTy).Contents (Elt F)),
    StableHlo.unary main_v146 main_v156 (broadcastInDim S1x36 ![1] bcast_S36_S1x36_1 : (⟨S36, .f32⟩ : BufTy).Contents (Elt F) → (⟨S1x36, .f32⟩ : BufTy).Contents (Elt F)),
    StableHlo.unary main_v156 main_v157 (broadcastInDim S100000x36 ![0, 1] bcast_S1x36_S100000x36_0_1 : (⟨S1x36, .f32⟩ : BufTy).Contents (Elt F) → (⟨S100000x36, .f32⟩ : BufTy).Contents (Elt F)),
    StableHlo.binary main_v157 main_v155 main_v158 (mulf : (⟨S100000x36, .f32⟩ : BufTy).Contents (Elt F) → (⟨S100000x36, .f32⟩ : BufTy).Contents (Elt F) → (⟨S100000x36, .f32⟩ : BufTy).Contents (Elt F)),
    StableHlo.nullary main_cst_18 (constant S_ .f32 0x3727C5AC#32) ]

/-- Window 3 of @main: its 60 operations, in order. -/
abbrev ops3 : List (HloOp τ sig (Elt F)) :=
  [ StableHlo.unary main_cst_18 main_v159 (broadcastInDim S36 ![] bcast_S_S36 : (⟨S_, .f32⟩ : BufTy).Contents (Elt F) → (⟨S36, .f32⟩ : BufTy).Contents (Elt F)),
    StableHlo.binary main_v152 main_v159 main_v160 (addf : (⟨S36, .f32⟩ : BufTy).Contents (Elt F) → (⟨S36, .f32⟩ : BufTy).Contents (Elt F) → (⟨S36, .f32⟩ : BufTy).Contents (Elt F)),
    StableHlo.unary main_v160 main_v161 (Host.rsqrt : (⟨S36, .f32⟩ : BufTy).Contents (Elt F) → (⟨S36, .f32⟩ : BufTy).Contents (Elt F)),
    StableHlo.unary main_v161 main_v162 (broadcastInDim S1x36 ![1] bcast_S36_S1x36_1 : (⟨S36, .f32⟩ : BufTy).Contents (Elt F) → (⟨S1x36, .f32⟩ : BufTy).Contents (Elt F)),
    StableHlo.unary main_v162 main_v163 (broadcastInDim S100000x36 ![0, 1] bcast_S1x36_S100000x36_0_1 : (⟨S1x36, .f32⟩ : BufTy).Contents (Elt F) → (⟨S100000x36, .f32⟩ : BufTy).Contents (Elt F)),
    StableHlo.binary main_v158 main_v163 main_v164 (mulf : (⟨S100000x36, .f32⟩ : BufTy).Contents (Elt F) → (⟨S100000x36, .f32⟩ : BufTy).Contents (Elt F) → (⟨S100000x36, .f32⟩ : BufTy).Contents (Elt F)),
    StableHlo.unary main_v148 main_v165 (broadcastInDim S1x36 ![1] bcast_S36_S1x36_1 : (⟨S36, .f32⟩ : BufTy).Contents (Elt F) → (⟨S1x36, .f32⟩ : BufTy).Contents (Elt F)),
    StableHlo.unary main_v165 main_v166 (broadcastInDim S100000x36 ![0, 1] bcast_S1x36_S100000x36_0_1 : (⟨S1x36, .f32⟩ : BufTy).Contents (Elt F) → (⟨S100000x36, .f32⟩ : BufTy).Contents (Elt F)),
    StableHlo.binary main_v164 main_v166 main_v167 (addf : (⟨S100000x36, .f32⟩ : BufTy).Contents (Elt F) → (⟨S100000x36, .f32⟩ : BufTy).Contents (Elt F) → (⟨S100000x36, .f32⟩ : BufTy).Contents (Elt F)),
    StableHlo.unary main_arg2 main_v168 ((extractStridedSlice S1x100000 ![0, 0] · slices_S2x100000_S1x100000_0_0) : (⟨S2x100000, .i32⟩ : BufTy).Contents (Elt F) → (⟨S1x100000, .i32⟩ : BufTy).Contents (Elt F)),
    StableHlo.reshape main_v168 main_v169 rfl shapeCasts_S1x100000_S100000,
    StableHlo.nullary main_cst_19 (constant S_ .f32 0x00000000#32),
    StableHlo.unary main_cst_19 main_v170 (broadcastInDim S512x36 ![] bcast_S_S512x36 : (⟨S_, .f32⟩ : BufTy).Contents (Elt F) → (⟨S512x36, .f32⟩ : BufTy).Contents (Elt F)),
    StableHlo.unary main_v169 main_v171 (broadcastInDim S100000x1 ![0] bcast_S100000_S100000x1_0 : (⟨S100000, .i32⟩ : BufTy).Contents (Elt F) → (⟨S100000x1, .i32⟩ : BufTy).Contents (Elt F)),
    StableHlo.ternary main_v170 main_v171 main_v167 main_v172 ((fun x i u => Host.scatterAdd scatter_S512x36_S100000x1_S100000x36_1_0_0_1 x i u) : (⟨S512x36, .f32⟩ : BufTy).Contents (Elt F) → (⟨S100000x1, .i32⟩ : BufTy).Contents (Elt F) → (⟨S100000x36, .f32⟩ : BufTy).Contents (Elt F) → (⟨S512x36, .f32⟩ : BufTy).Contents (Elt F)),
    StableHlo.nullary main_cst_20 (constant S_ .f32 0x3F800000#32),
    StableHlo.unary main_cst_20 main_v173 (broadcastInDim S100000 ![] bcast_S_S100000 : (⟨S_, .f32⟩ : BufTy).Contents (Elt F) → (⟨S100000, .f32⟩ : BufTy).Contents (Elt F)),
    StableHlo.unary main_arg2 main_v174 ((extractStridedSlice S1x100000 ![0, 0] · slices_S2x100000_S1x100000_0_0) : (⟨S2x100000, .i32⟩ : BufTy).Contents (Elt F) → (⟨S1x100000, .i32⟩ : BufTy).Contents (Elt F)),
    StableHlo.reshape main_v174 main_v175 rfl shapeCasts_S1x100000_S100000,
    StableHlo.nullary main_cst_21 (constant S_ .f32 0x00000000#32),
    StableHlo.unary main_cst_21 main_v176 (broadcastInDim S512 ![] bcast_S_S512 : (⟨S_, .f32⟩ : BufTy).Contents (Elt F) → (⟨S512, .f32⟩ : BufTy).Contents (Elt F)),
    StableHlo.unary main_v175 main_v177 (broadcastInDim S100000x1 ![0] bcast_S100000_S100000x1_0 : (⟨S100000, .i32⟩ : BufTy).Contents (Elt F) → (⟨S100000x1, .i32⟩ : BufTy).Contents (Elt F)),
    StableHlo.ternary main_v176 main_v177 main_v173 main_v178 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),
    StableHlo.nullary main_cst_22 (constant S_ .f32 0x3F800000#32),
    StableHlo.unary main_cst_22 main_v179 (broadcastInDim S512 ![] bcast_S_S512 : (⟨S_, .f32⟩ : BufTy).Contents (Elt F) → (⟨S512, .f32⟩ : BufTy).Contents (Elt F)),
    StableHlo.binary main_v178 main_v179 main_v180 (maximumf : (⟨S512, .f32⟩ : BufTy).Contents (Elt F) → (⟨S512, .f32⟩ : BufTy).Contents (Elt F) → (⟨S512, .f32⟩ : BufTy).Contents (Elt F)),
    StableHlo.unary main_v180 main_v181 (broadcastInDim S512x1 ![0] bcast_S512_S512x1_0 : (⟨S512, .f32⟩ : BufTy).Contents (Elt F) → (⟨S512x1, .f32⟩ : BufTy).Contents (Elt F)),
    StableHlo.unary main_v181 main_v182 (broadcastInDim S512x36 ![0, 1] bcast_S512x1_S512x36_0_1 : (⟨S512x1, .f32⟩ : BufTy).Contents (Elt F) → (⟨S512x36, .f32⟩ : BufTy).Contents (Elt F)),
    StableHlo.binary main_v172 main_v182 main_v183 (Host.divf : (⟨S512x36, .f32⟩ : BufTy).Contents (Elt F) → (⟨S512x36, .f32⟩ : BufTy).Contents (Elt F) → (⟨S512x36, .f32⟩ : BufTy).Contents (Elt F)),
    StableHlo.unary main_arg1 main_v184 ((extractStridedSlice S1x1x1600000 ![1, 0, 0] · slices_S2x2x1600000_S1x1x1600000_1_0_0) : (⟨S2x2x1600000, .i32⟩ : BufTy).Contents (Elt F) → (⟨S1x1x1600000, .i32⟩ : BufTy).Contents (Elt F)),
    StableHlo.reshape main_v184 main_v185 rfl shapeCasts_S1x1x1600000_S1600000,
    StableHlo.unary main_arg1 main_v186 ((extractStridedSlice S1x1x1600000 ![1, 1, 0] · slices_S2x2x1600000_S1x1x1600000_1_1_0) : (⟨S2x2x1600000, .i32⟩ : BufTy).Contents (Elt F) → (⟨S1x1x1600000, .i32⟩ : BufTy).Contents (Elt F)),
    StableHlo.reshape main_v186 main_v187 rfl shapeCasts_S1x1x1600000_S1600000,
    StableHlo.unary main_arg0 main_v188 ((extractStridedSlice S1x100000x6 ![1, 0, 0] · slices_S2x100000x6_S1x100000x6_1_0_0) : (⟨S2x100000x6, .f32⟩ : BufTy).Contents (Elt F) → (⟨S1x100000x6, .f32⟩ : BufTy).Contents (Elt F)),
    StableHlo.reshape main_v188 main_v189 rfl shapeCasts_S1x100000x6_S100000x6,
    StableHlo.unary main_arg3 main_v190 ((extractStridedSlice S1x36x6 ![1, 0, 0] · slices_S2x36x6_S1x36x6_1_0_0) : (⟨S2x36x6, .f32⟩ : BufTy).Contents (Elt F) → (⟨S1x36x6, .f32⟩ : BufTy).Contents (Elt F)),
    StableHlo.reshape main_v190 main_v191 rfl shapeCasts_S1x36x6_S36x6,
    StableHlo.unary main_arg4 main_v192 ((extractStridedSlice S1x36 ![1, 0] · slices_S2x36_S1x36_1_0) : (⟨S2x36, .f32⟩ : BufTy).Contents (Elt F) → (⟨S1x36, .f32⟩ : BufTy).Contents (Elt F)),
    StableHlo.reshape main_v192 main_v193 rfl shapeCasts_S1x36_S36,
    StableHlo.unary main_arg5 main_v194 ((extractStridedSlice S1x36x36 ![1, 0, 0] · slices_S2x36x36_S1x36x36_1_0_0) : (⟨S2x36x36, .f32⟩ : BufTy).Contents (Elt F) → (⟨S1x36x36, .f32⟩ : BufTy).Contents (Elt F)),
    StableHlo.reshape main_v194 main_v195 rfl shapeCasts_S1x36x36_S36x36,
    StableHlo.unary main_arg6 main_v196 ((extractStridedSlice S1x36 ![1, 0] · slices_S2x36_S1x36_1_0) : (⟨S2x36, .f32⟩ : BufTy).Contents (Elt F) → (⟨S1x36, .f32⟩ : BufTy).Contents (Elt F)),
    StableHlo.reshape main_v196 main_v197 rfl shapeCasts_S1x36_S36,
    StableHlo.nullary main_c_23 (constantI S_ 32 0#32),
    StableHlo.unary main_c_23 main_v198 (broadcastInDim S1600000 ![] bcast_S_S1600000 : (⟨S_, .i32⟩ : BufTy).Contents (Elt F) → (⟨S1600000, .i32⟩ : BufTy).Contents (Elt F)),
    StableHlo.binary main_v185 main_v198 main_v199 (cmpi .slt : (⟨S1600000, .i32⟩ : BufTy).Contents (Elt F) → (⟨S1600000, .i32⟩ : BufTy).Contents (Elt F) → (⟨S1600000, .i1⟩ : BufTy).Contents (Elt F)),
    StableHlo.nullary main_c_24 (constantI S_ 32 100000#32),
    StableHlo.unary main_c_24 main_v200 (broadcastInDim S1600000 ![] bcast_S_S1600000 : (⟨S_, .i32⟩ : BufTy).Contents (Elt F) → (⟨S1600000, .i32⟩ : BufTy).Contents (Elt F)),
    StableHlo.binary main_v185 main_v200 main_v201 (addi : (⟨S1600000, .i32⟩ : BufTy).Contents (Elt F) → (⟨S1600000, .i32⟩ : BufTy).Contents (Elt F) → (⟨S1600000, .i32⟩ : BufTy).Contents (Elt F)),
    StableHlo.ternary main_v199 main_v201 main_v185 main_v202 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v202 main_v203 (broadcastInDim S1600000x1 ![0] bcast_S1600000_S1600000x1_0 : (⟨S1600000, .i32⟩ : BufTy).Contents (Elt F) → (⟨S1600000x1, .i32⟩ : BufTy).Contents (Elt F)),
    StableHlo.binary main_v189 main_v203 main_v204 ((fun x i => Host.gather gather_S100000x6_S1600000x1_S1600000x6_1_0_n_n_0_1_16 x i) : (⟨S100000x6, .f32⟩ : BufTy).Contents (Elt F) → (⟨S1600000x1, .i32⟩ : BufTy).Contents (Elt F) → (⟨S1600000x6, .f32⟩ : BufTy).Contents (Elt F)),
    StableHlo.nullary main_cst_25 (constant S_ .f32 0x00000000#32),
    StableHlo.unary main_cst_25 main_v205 (broadcastInDim S100000x6 ![] bcast_S_S100000x6 : (⟨S_, .f32⟩ : BufTy).Contents (Elt F) → (⟨S100000x6, .f32⟩ : BufTy).Contents (Elt F)),
    StableHlo.unary main_v187 main_v206 (broadcastInDim S1600000x1 ![0] bcast_S1600000_S1600000x1_0 : (⟨S1600000, .i32⟩ : BufTy).Contents (Elt F) → (⟨S1600000x1, .i32⟩ : BufTy).Contents (Elt F)),
    StableHlo.ternary main_v205 main_v206 main_v204 main_v207 ((fun x i u => Host.scatterAdd scatter_S100000x6_S1600000x1_S1600000x6_1_0_0_1 x i u) : (⟨S100000x6, .f32⟩ : BufTy).Contents (Elt F) → (⟨S1600000x1, .i32⟩ : BufTy).Contents (Elt F) → (⟨S1600000x6, .f32⟩ : BufTy).Contents (Elt F) → (⟨S100000x6, .f32⟩ : BufTy).Contents (Elt F)),
    StableHlo.binary main_v189 main_v207 main_v208 (addf : (⟨S100000x6, .f32⟩ : BufTy).Contents (Elt F) → (⟨S100000x6, .f32⟩ : BufTy).Contents (Elt F) → (⟨S100000x6, .f32⟩ : BufTy).Contents (Elt F)),
    StableHlo.unary main_v191 main_v209 ((transpose S6x36 [1, 0] · transposes_S36x6_S6x36_1_0) : (⟨S36x6, .f32⟩ : BufTy).Contents (Elt F) → (⟨S6x36, .f32⟩ : BufTy).Contents (Elt F)),
    StableHlo.binary main_v208 main_v209 main_v210 ((fun l r => Host.dotGeneral dot_S100000x6_S6x36_S100000x36_1_0_0_1_n_n none l r) : (⟨S100000x6, .f32⟩ : BufTy).Contents (Elt F) → (⟨S6x36, .f32⟩ : BufTy).Contents (Elt F) → (⟨S100000x36, .f32⟩ : BufTy).Contents (Elt F)),
    StableHlo.unary main_v193 main_v211 (broadcastInDim S1x36 ![1] bcast_S36_S1x36_1 : (⟨S36, .f32⟩ : BufTy).Contents (Elt F) → (⟨S1x36, .f32⟩ : BufTy).Contents (Elt F)) ]

/-- Window 4 of @main: its 85 operations, in order. -/
abbrev ops4 : List (HloOp τ sig (Elt F)) :=
  [ StableHlo.unary main_v211 main_v212 (broadcastInDim S100000x36 ![0, 1] bcast_S1x36_S100000x36_0_1 : (⟨S1x36, .f32⟩ : BufTy).Contents (Elt F) → (⟨S100000x36, .f32⟩ : BufTy).Contents (Elt F)),
    StableHlo.binary main_v210 main_v212 main_v213 (addf : (⟨S100000x36, .f32⟩ : BufTy).Contents (Elt F) → (⟨S100000x36, .f32⟩ : BufTy).Contents (Elt F) → (⟨S100000x36, .f32⟩ : BufTy).Contents (Elt F)),
    StableHlo.TRef.nullary main_call9.cst (constant S_ .f32 0x00000000#32),
    StableHlo.TRef.unary main_call9.cst main_call9.v0 (broadcastInDim S100000x36 ![] bcast_S_S100000x36),
    StableHlo.TRef.binary (.of main_v213) main_call9.v0 main_call9.v1 maximumf,
    StableHlo.unary main_v195 main_v215 ((transpose S36x36 [1, 0] · transposes_S36x36_S36x36_1_0) : (⟨S36x36, .f32⟩ : BufTy).Contents (Elt F) → (⟨S36x36, .f32⟩ : BufTy).Contents (Elt F)),
    StableHlo.binary main_v214 main_v215 main_v216 ((fun l r => Host.dotGeneral dot_S100000x36_S36x36_S100000x36_1_0_0_1_n_n none l r) : (⟨S100000x36, .f32⟩ : BufTy).Contents (Elt F) → (⟨S36x36, .f32⟩ : BufTy).Contents (Elt F) → (⟨S100000x36, .f32⟩ : BufTy).Contents (Elt F)),
    StableHlo.unary main_v197 main_v217 (broadcastInDim S1x36 ![1] bcast_S36_S1x36_1 : (⟨S36, .f32⟩ : BufTy).Contents (Elt F) → (⟨S1x36, .f32⟩ : BufTy).Contents (Elt F)),
    StableHlo.unary main_v217 main_v218 (broadcastInDim S100000x36 ![0, 1] bcast_S1x36_S100000x36_0_1 : (⟨S1x36, .f32⟩ : BufTy).Contents (Elt F) → (⟨S100000x36, .f32⟩ : BufTy).Contents (Elt F)),
    StableHlo.binary main_v216 main_v218 main_v219 (addf : (⟨S100000x36, .f32⟩ : BufTy).Contents (Elt F) → (⟨S100000x36, .f32⟩ : BufTy).Contents (Elt F) → (⟨S100000x36, .f32⟩ : BufTy).Contents (Elt F)),
    StableHlo.TRef.nullary main_call10.cst (constant S_ .f32 0x00000000#32),
    StableHlo.TRef.unary main_call10.cst main_call10.v0 (broadcastInDim S100000x36 ![] bcast_S_S100000x36),
    StableHlo.TRef.binary (.of main_v219) main_call10.v0 main_call10.v1 maximumf,
    StableHlo.unary main_arg15 main_v221 ((extractStridedSlice S1x1x36 ![1, 0, 0] · slices_S2x3x36_S1x1x36_1_0_0) : (⟨S2x3x36, .f32⟩ : BufTy).Contents (Elt F) → (⟨S1x1x36, .f32⟩ : BufTy).Contents (Elt F)),
    StableHlo.reshape main_v221 main_v222 rfl shapeCasts_S1x1x36_S36,
    StableHlo.unary main_arg16 main_v223 ((extractStridedSlice S1x1x36 ![1, 0, 0] · slices_S2x3x36_S1x1x36_1_0_0) : (⟨S2x3x36, .f32⟩ : BufTy).Contents (Elt F) → (⟨S1x1x36, .f32⟩ : BufTy).Contents (Elt F)),
    StableHlo.reshape main_v223 main_v224 rfl shapeCasts_S1x1x36_S36,
    StableHlo.nullary main_cst_26 (constant S_ .f32 0x00000000#32),
    StableHlo.binary main_v220 main_cst_26 main_v225 ((fun x v => Host.reduceAdd x v reducesTo_S100000x36_S36_d0 h_S_) : (⟨S100000x36, .f32⟩ : BufTy).Contents (Elt F) → (⟨S_, .f32⟩ : BufTy).Contents (Elt F) → (⟨S36, .f32⟩ : BufTy).Contents (Elt F)),
    StableHlo.nullary main_cst_27 (constant S_ .f32 0x47C35000#32),
    StableHlo.unary main_cst_27 main_v226 (broadcastInDim S36 ![] bcast_S_S36 : (⟨S_, .f32⟩ : BufTy).Contents (Elt F) → (⟨S36, .f32⟩ : BufTy).Contents (Elt F)),
    StableHlo.binary main_v225 main_v226 main_v227 (Host.divf : (⟨S36, .f32⟩ : BufTy).Contents (Elt F) → (⟨S36, .f32⟩ : BufTy).Contents (Elt F) → (⟨S36, .f32⟩ : BufTy).Contents (Elt F)),
    StableHlo.nullary main_c_28 (constantI S_ 32 0#32),
    StableHlo.TRef.nullary main_call11.cst (constant S_ .f32 0x00000000#32),
    StableHlo.TRef.binary (.of main_v220) main_call11.cst main_call11.v0 (fun x v => Host.reduceAdd x v reducesTo_S100000x36_S36_d0 h_S_),
    StableHlo.TRef.unary main_call11.v0 main_call11.v1 (broadcastInDim S1x36 ![1] bcast_S36_S1x36_1),
    StableHlo.TRef.nullary main_call11.cst_0 (constant S_ .f32 0x47C35000#32),
    StableHlo.TRef.unary main_call11.cst_0 main_call11.v2 (broadcastInDim S1x36 ![] bcast_S_S1x36),
    StableHlo.TRef.binary main_call11.v1 main_call11.v2 main_call11.v3 Host.divf,
    StableHlo.TRef.unary main_call11.v3 main_call11.v4 (broadcastInDim S100000x36 ![0, 1] bcast_S1x36_S100000x36_0_1),
    StableHlo.TRef.binary (.of main_v220) main_call11.v4 main_call11.v5 subf,
    StableHlo.TRef.binary main_call11.v5 main_call11.v5 main_call11.v6 mulf,
    StableHlo.TRef.unary (.of main_c_28) main_call11.v7 (sitofp .f32),
    StableHlo.TRef.nullary main_call11.cst_1 (constant S_ .f32 0x47C35000#32),
    StableHlo.TRef.binary main_call11.cst_1 main_call11.v7 main_call11.v8 subf,
    StableHlo.TRef.nullary main_call11.cst_2 (constant S_ .f32 0x00000000#32),
    StableHlo.TRef.binary main_call11.v6 main_call11.cst_2 main_call11.v9 (fun x v => Host.reduceAdd x v reducesTo_S100000x36_S36_d0 h_S_),
    StableHlo.TRef.unary main_call11.v8 main_call11.v10 (broadcastInDim S36 ![] bcast_S_S36),
    StableHlo.TRef.binary main_call11.v9 main_call11.v10 main_call11.v11 Host.divf,
    StableHlo.TRef.nullary main_call11.cst_3 (constant S_ .f32 0x00000000#32),
    StableHlo.TRef.binary main_call11.v8 main_call11.cst_3 main_call11.v12 (cmpf .ogt),
    StableHlo.TRef.nullary main_call11.cst_4 (constant S_ .f32 0x7FC00000#32),
    StableHlo.TRef.unary main_call11.cst_4 main_call11.call0.v0 id,
    StableHlo.TRef.unary main_call11.call0.v0 main_call11.call0.v1 (broadcastInDim S36 ![] bcast_S_S36),
    StableHlo.TRef.ternary main_call11.v12 main_call11.v11 main_call11.call0.v1 main_call11.call0.v2 (fun p a b => select (broadcastInDim S36 ![] bcast_S_S36 p) a b),
    StableHlo.unary main_v227 main_v229 (broadcastInDim S1x36 ![1] bcast_S36_S1x36_1 : (⟨S36, .f32⟩ : BufTy).Contents (Elt F) → (⟨S1x36, .f32⟩ : BufTy).Contents (Elt F)),
    StableHlo.unary main_v229 main_v230 (broadcastInDim S100000x36 ![0, 1] bcast_S1x36_S100000x36_0_1 : (⟨S1x36, .f32⟩ : BufTy).Contents (Elt F) → (⟨S100000x36, .f32⟩ : BufTy).Contents (Elt F)),
    StableHlo.binary main_v220 main_v230 main_v231 (subf : (⟨S100000x36, .f32⟩ : BufTy).Contents (Elt F) → (⟨S100000x36, .f32⟩ : BufTy).Contents (Elt F) → (⟨S100000x36, .f32⟩ : BufTy).Contents (Elt F)),
    StableHlo.unary main_v222 main_v232 (broadcastInDim S1x36 ![1] bcast_S36_S1x36_1 : (⟨S36, .f32⟩ : BufTy).Contents (Elt F) → (⟨S1x36, .f32⟩ : BufTy).Contents (Elt F)),
    StableHlo.unary main_v232 main_v233 (broadcastInDim S100000x36 ![0, 1] bcast_S1x36_S100000x36_0_1 : (⟨S1x36, .f32⟩ : BufTy).Contents (Elt F) → (⟨S100000x36, .f32⟩ : BufTy).Contents (Elt F)),
    StableHlo.binary main_v233 main_v231 main_v234 (mulf : (⟨S100000x36, .f32⟩ : BufTy).Contents (Elt F) → (⟨S100000x36, .f32⟩ : BufTy).Contents (Elt F) → (⟨S100000x36, .f32⟩ : BufTy).Contents (Elt F)),
    StableHlo.nullary main_cst_29 (constant S_ .f32 0x3727C5AC#32),
    StableHlo.unary main_cst_29 main_v235 (broadcastInDim S36 ![] bcast_S_S36 : (⟨S_, .f32⟩ : BufTy).Contents (Elt F) → (⟨S36, .f32⟩ : BufTy).Contents (Elt F)),
    StableHlo.binary main_v228 main_v235 main_v236 (addf : (⟨S36, .f32⟩ : BufTy).Contents (Elt F) → (⟨S36, .f32⟩ : BufTy).Contents (Elt F) → (⟨S36, .f32⟩ : BufTy).Contents (Elt F)),
    StableHlo.unary main_v236 main_v237 (Host.rsqrt : (⟨S36, .f32⟩ : BufTy).Contents (Elt F) → (⟨S36, .f32⟩ : BufTy).Contents (Elt F)),
    StableHlo.unary main_v237 main_v238 (broadcastInDim S1x36 ![1] bcast_S36_S1x36_1 : (⟨S36, .f32⟩ : BufTy).Contents (Elt F) → (⟨S1x36, .f32⟩ : BufTy).Contents (Elt F)),
    StableHlo.unary main_v238 main_v239 (broadcastInDim S100000x36 ![0, 1] bcast_S1x36_S100000x36_0_1 : (⟨S1x36, .f32⟩ : BufTy).Contents (Elt F) → (⟨S100000x36, .f32⟩ : BufTy).Contents (Elt F)),
    StableHlo.binary main_v234 main_v239 main_v240 (mulf : (⟨S100000x36, .f32⟩ : BufTy).Contents (Elt F) → (⟨S100000x36, .f32⟩ : BufTy).Contents (Elt F) → (⟨S100000x36, .f32⟩ : BufTy).Contents (Elt F)),
    StableHlo.unary main_v224 main_v241 (broadcastInDim S1x36 ![1] bcast_S36_S1x36_1 : (⟨S36, .f32⟩ : BufTy).Contents (Elt F) → (⟨S1x36, .f32⟩ : BufTy).Contents (Elt F)),
    StableHlo.unary main_v241 main_v242 (broadcastInDim S100000x36 ![0, 1] bcast_S1x36_S100000x36_0_1 : (⟨S1x36, .f32⟩ : BufTy).Contents (Elt F) → (⟨S100000x36, .f32⟩ : BufTy).Contents (Elt F)),
    StableHlo.binary main_v240 main_v242 main_v243 (addf : (⟨S100000x36, .f32⟩ : BufTy).Contents (Elt F) → (⟨S100000x36, .f32⟩ : BufTy).Contents (Elt F) → (⟨S100000x36, .f32⟩ : BufTy).Contents (Elt F)),
    StableHlo.unary main_arg7 main_v244 ((extractStridedSlice S1x36x36 ![1, 0, 0] · slices_S2x36x36_S1x36x36_1_0_0) : (⟨S2x36x36, .f32⟩ : BufTy).Contents (Elt F) → (⟨S1x36x36, .f32⟩ : BufTy).Contents (Elt F)),
    StableHlo.reshape main_v244 main_v245 rfl shapeCasts_S1x36x36_S36x36,
    StableHlo.unary main_arg8 main_v246 ((extractStridedSlice S1x36 ![1, 0] · slices_S2x36_S1x36_1_0) : (⟨S2x36, .f32⟩ : BufTy).Contents (Elt F) → (⟨S1x36, .f32⟩ : BufTy).Contents (Elt F)),
    StableHlo.reshape main_v246 main_v247 rfl shapeCasts_S1x36_S36,
    StableHlo.unary main_arg9 main_v248 ((extractStridedSlice S1x36x36 ![1, 0, 0] · slices_S2x36x36_S1x36x36_1_0_0) : (⟨S2x36x36, .f32⟩ : BufTy).Contents (Elt F) → (⟨S1x36x36, .f32⟩ : BufTy).Contents (Elt F)),
    StableHlo.reshape main_v248 main_v249 rfl shapeCasts_S1x36x36_S36x36,
    StableHlo.unary main_arg10 main_v250 ((extractStridedSlice S1x36 ![1, 0] · slices_S2x36_S1x36_1_0) : (⟨S2x36, .f32⟩ : BufTy).Contents (Elt F) → (⟨S1x36, .f32⟩ : BufTy).Contents (Elt F)),
    StableHlo.reshape main_v250 main_v251 rfl shapeCasts_S1x36_S36,
    StableHlo.nullary main_c_30 (constantI S_ 32 0#32),
    StableHlo.unary main_c_30 main_v252 (broadcastInDim S1600000 ![] bcast_S_S1600000 : (⟨S_, .i32⟩ : BufTy).Contents (Elt F) → (⟨S1600000, .i32⟩ : BufTy).Contents (Elt F)),
    StableHlo.binary main_v185 main_v252 main_v253 (cmpi .slt : (⟨S1600000, .i32⟩ : BufTy).Contents (Elt F) → (⟨S1600000, .i32⟩ : BufTy).Contents (Elt F) → (⟨S1600000, .i1⟩ : BufTy).Contents (Elt F)),
    StableHlo.nullary main_c_31 (constantI S_ 32 100000#32),
    StableHlo.unary main_c_31 main_v254 (broadcastInDim S1600000 ![] bcast_S_S1600000 : (⟨S_, .i32⟩ : BufTy).Contents (Elt F) → (⟨S1600000, .i32⟩ : BufTy).Contents (Elt F)),
    StableHlo.binary main_v185 main_v254 main_v255 (addi : (⟨S1600000, .i32⟩ : BufTy).Contents (Elt F) → (⟨S1600000, .i32⟩ : BufTy).Contents (Elt F) → (⟨S1600000, .i32⟩ : BufTy).Contents (Elt F)),
    StableHlo.ternary main_v253 main_v255 main_v185 main_v256 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v256 main_v257 (broadcastInDim S1600000x1 ![0] bcast_S1600000_S1600000x1_0 : (⟨S1600000, .i32⟩ : BufTy).Contents (Elt F) → (⟨S1600000x1, .i32⟩ : BufTy).Contents (Elt F)),
    StableHlo.binary main_v243 main_v257 main_v258 ((fun x i => Host.gather gather_S100000x36_S1600000x1_S1600000x36_1_0_n_n_0_1_136 x i) : (⟨S100000x36, .f32⟩ : BufTy).Contents (Elt F) → (⟨S1600000x1, .i32⟩ : BufTy).Contents (Elt F) → (⟨S1600000x36, .f32⟩ : BufTy).Contents (Elt F)),
    StableHlo.nullary main_cst_32 (constant S_ .f32 0x00000000#32),
    StableHlo.unary main_cst_32 main_v259 (broadcastInDim S100000x36 ![] bcast_S_S100000x36 : (⟨S_, .f32⟩ : BufTy).Contents (Elt F) → (⟨S100000x36, .f32⟩ : BufTy).Contents (Elt F)),
    StableHlo.unary main_v187 main_v260 (broadcastInDim S1600000x1 ![0] bcast_S1600000_S1600000x1_0 : (⟨S1600000, .i32⟩ : BufTy).Contents (Elt F) → (⟨S1600000x1, .i32⟩ : BufTy).Contents (Elt F)),
    StableHlo.ternary main_v259 main_v260 main_v258 main_v261 ((fun x i u => Host.scatterAdd scatter_S100000x36_S1600000x1_S1600000x36_1_0_0_1 x i u) : (⟨S100000x36, .f32⟩ : BufTy).Contents (Elt F) → (⟨S1600000x1, .i32⟩ : BufTy).Contents (Elt F) → (⟨S1600000x36, .f32⟩ : BufTy).Contents (Elt F) → (⟨S100000x36, .f32⟩ : BufTy).Contents (Elt F)),
    StableHlo.binary main_v243 main_v261 main_v262 (addf : (⟨S100000x36, .f32⟩ : BufTy).Contents (Elt F) → (⟨S100000x36, .f32⟩ : BufTy).Contents (Elt F) → (⟨S100000x36, .f32⟩ : BufTy).Contents (Elt F)),
    StableHlo.unary main_v245 main_v263 ((transpose S36x36 [1, 0] · transposes_S36x36_S36x36_1_0) : (⟨S36x36, .f32⟩ : BufTy).Contents (Elt F) → (⟨S36x36, .f32⟩ : BufTy).Contents (Elt F)),
    StableHlo.binary main_v262 main_v263 main_v264 ((fun l r => Host.dotGeneral dot_S100000x36_S36x36_S100000x36_1_0_0_1_n_n none l r) : (⟨S100000x36, .f32⟩ : BufTy).Contents (Elt F) → (⟨S36x36, .f32⟩ : BufTy).Contents (Elt F) → (⟨S100000x36, .f32⟩ : BufTy).Contents (Elt F)) ]

/-- Window 5 of @main: its 85 operations, in order. -/
abbrev ops5 : List (HloOp τ sig (Elt F)) :=
  [ StableHlo.unary main_v247 main_v265 (broadcastInDim S1x36 ![1] bcast_S36_S1x36_1 : (⟨S36, .f32⟩ : BufTy).Contents (Elt F) → (⟨S1x36, .f32⟩ : BufTy).Contents (Elt F)),
    StableHlo.unary main_v265 main_v266 (broadcastInDim S100000x36 ![0, 1] bcast_S1x36_S100000x36_0_1 : (⟨S1x36, .f32⟩ : BufTy).Contents (Elt F) → (⟨S100000x36, .f32⟩ : BufTy).Contents (Elt F)),
    StableHlo.binary main_v264 main_v266 main_v267 (addf : (⟨S100000x36, .f32⟩ : BufTy).Contents (Elt F) → (⟨S100000x36, .f32⟩ : BufTy).Contents (Elt F) → (⟨S100000x36, .f32⟩ : BufTy).Contents (Elt F)),
    StableHlo.TRef.nullary main_call12.cst (constant S_ .f32 0x00000000#32),
    StableHlo.TRef.unary main_call12.cst main_call12.v0 (broadcastInDim S100000x36 ![] bcast_S_S100000x36),
    StableHlo.TRef.binary (.of main_v267) main_call12.v0 main_call12.v1 maximumf,
    StableHlo.unary main_v249 main_v269 ((transpose S36x36 [1, 0] · transposes_S36x36_S36x36_1_0) : (⟨S36x36, .f32⟩ : BufTy).Contents (Elt F) → (⟨S36x36, .f32⟩ : BufTy).Contents (Elt F)),
    StableHlo.binary main_v268 main_v269 main_v270 ((fun l r => Host.dotGeneral dot_S100000x36_S36x36_S100000x36_1_0_0_1_n_n none l r) : (⟨S100000x36, .f32⟩ : BufTy).Contents (Elt F) → (⟨S36x36, .f32⟩ : BufTy).Contents (Elt F) → (⟨S100000x36, .f32⟩ : BufTy).Contents (Elt F)),
    StableHlo.unary main_v251 main_v271 (broadcastInDim S1x36 ![1] bcast_S36_S1x36_1 : (⟨S36, .f32⟩ : BufTy).Contents (Elt F) → (⟨S1x36, .f32⟩ : BufTy).Contents (Elt F)),
    StableHlo.unary main_v271 main_v272 (broadcastInDim S100000x36 ![0, 1] bcast_S1x36_S100000x36_0_1 : (⟨S1x36, .f32⟩ : BufTy).Contents (Elt F) → (⟨S100000x36, .f32⟩ : BufTy).Contents (Elt F)),
    StableHlo.binary main_v270 main_v272 main_v273 (addf : (⟨S100000x36, .f32⟩ : BufTy).Contents (Elt F) → (⟨S100000x36, .f32⟩ : BufTy).Contents (Elt F) → (⟨S100000x36, .f32⟩ : BufTy).Contents (Elt F)),
    StableHlo.TRef.nullary main_call13.cst (constant S_ .f32 0x00000000#32),
    StableHlo.TRef.unary main_call13.cst main_call13.v0 (broadcastInDim S100000x36 ![] bcast_S_S100000x36),
    StableHlo.TRef.binary (.of main_v273) main_call13.v0 main_call13.v1 maximumf,
    StableHlo.unary main_arg15 main_v275 ((extractStridedSlice S1x1x36 ![1, 1, 0] · slices_S2x3x36_S1x1x36_1_1_0) : (⟨S2x3x36, .f32⟩ : BufTy).Contents (Elt F) → (⟨S1x1x36, .f32⟩ : BufTy).Contents (Elt F)),
    StableHlo.reshape main_v275 main_v276 rfl shapeCasts_S1x1x36_S36,
    StableHlo.unary main_arg16 main_v277 ((extractStridedSlice S1x1x36 ![1, 1, 0] · slices_S2x3x36_S1x1x36_1_1_0) : (⟨S2x3x36, .f32⟩ : BufTy).Contents (Elt F) → (⟨S1x1x36, .f32⟩ : BufTy).Contents (Elt F)),
    StableHlo.reshape main_v277 main_v278 rfl shapeCasts_S1x1x36_S36,
    StableHlo.nullary main_cst_33 (constant S_ .f32 0x00000000#32),
    StableHlo.binary main_v274 main_cst_33 main_v279 ((fun x v => Host.reduceAdd x v reducesTo_S100000x36_S36_d0 h_S_) : (⟨S100000x36, .f32⟩ : BufTy).Contents (Elt F) → (⟨S_, .f32⟩ : BufTy).Contents (Elt F) → (⟨S36, .f32⟩ : BufTy).Contents (Elt F)),
    StableHlo.nullary main_cst_34 (constant S_ .f32 0x47C35000#32),
    StableHlo.unary main_cst_34 main_v280 (broadcastInDim S36 ![] bcast_S_S36 : (⟨S_, .f32⟩ : BufTy).Contents (Elt F) → (⟨S36, .f32⟩ : BufTy).Contents (Elt F)),
    StableHlo.binary main_v279 main_v280 main_v281 (Host.divf : (⟨S36, .f32⟩ : BufTy).Contents (Elt F) → (⟨S36, .f32⟩ : BufTy).Contents (Elt F) → (⟨S36, .f32⟩ : BufTy).Contents (Elt F)),
    StableHlo.nullary main_c_35 (constantI S_ 32 0#32),
    StableHlo.TRef.nullary main_call14.cst (constant S_ .f32 0x00000000#32),
    StableHlo.TRef.binary (.of main_v274) main_call14.cst main_call14.v0 (fun x v => Host.reduceAdd x v reducesTo_S100000x36_S36_d0 h_S_),
    StableHlo.TRef.unary main_call14.v0 main_call14.v1 (broadcastInDim S1x36 ![1] bcast_S36_S1x36_1),
    StableHlo.TRef.nullary main_call14.cst_0 (constant S_ .f32 0x47C35000#32),
    StableHlo.TRef.unary main_call14.cst_0 main_call14.v2 (broadcastInDim S1x36 ![] bcast_S_S1x36),
    StableHlo.TRef.binary main_call14.v1 main_call14.v2 main_call14.v3 Host.divf,
    StableHlo.TRef.unary main_call14.v3 main_call14.v4 (broadcastInDim S100000x36 ![0, 1] bcast_S1x36_S100000x36_0_1),
    StableHlo.TRef.binary (.of main_v274) main_call14.v4 main_call14.v5 subf,
    StableHlo.TRef.binary main_call14.v5 main_call14.v5 main_call14.v6 mulf,
    StableHlo.TRef.unary (.of main_c_35) main_call14.v7 (sitofp .f32),
    StableHlo.TRef.nullary main_call14.cst_1 (constant S_ .f32 0x47C35000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S100000x36_S36_d0 h_S_),
    StableHlo.TRef.unary main_call14.v8 main_call14.v10 (broadcastInDim S36 ![] bcast_S_S36),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S36 ![] bcast_S_S36),
    StableHlo.TRef.ternary main_call14.v12 main_call14.v11 main_call14.call0.v1 main_call14.call0.v2 (fun p a b => select (broadcastInDim S36 ![] bcast_S_S36 p) a b),
    StableHlo.unary main_v281 main_v283 (broadcastInDim S1x36 ![1] bcast_S36_S1x36_1 : (⟨S36, .f32⟩ : BufTy).Contents (Elt F) → (⟨S1x36, .f32⟩ : BufTy).Contents (Elt F)),
    StableHlo.unary main_v283 main_v284 (broadcastInDim S100000x36 ![0, 1] bcast_S1x36_S100000x36_0_1 : (⟨S1x36, .f32⟩ : BufTy).Contents (Elt F) → (⟨S100000x36, .f32⟩ : BufTy).Contents (Elt F)),
    StableHlo.binary main_v274 main_v284 main_v285 (subf : (⟨S100000x36, .f32⟩ : BufTy).Contents (Elt F) → (⟨S100000x36, .f32⟩ : BufTy).Contents (Elt F) → (⟨S100000x36, .f32⟩ : BufTy).Contents (Elt F)),
    StableHlo.unary main_v276 main_v286 (broadcastInDim S1x36 ![1] bcast_S36_S1x36_1 : (⟨S36, .f32⟩ : BufTy).Contents (Elt F) → (⟨S1x36, .f32⟩ : BufTy).Contents (Elt F)),
    StableHlo.unary main_v286 main_v287 (broadcastInDim S100000x36 ![0, 1] bcast_S1x36_S100000x36_0_1 : (⟨S1x36, .f32⟩ : BufTy).Contents (Elt F) → (⟨S100000x36, .f32⟩ : BufTy).Contents (Elt F)),
    StableHlo.binary main_v287 main_v285 main_v288 (mulf : (⟨S100000x36, .f32⟩ : BufTy).Contents (Elt F) → (⟨S100000x36, .f32⟩ : BufTy).Contents (Elt F) → (⟨S100000x36, .f32⟩ : BufTy).Contents (Elt F)),
    StableHlo.nullary main_cst_36 (constant S_ .f32 0x3727C5AC#32),
    StableHlo.unary main_cst_36 main_v289 (broadcastInDim S36 ![] bcast_S_S36 : (⟨S_, .f32⟩ : BufTy).Contents (Elt F) → (⟨S36, .f32⟩ : BufTy).Contents (Elt F)),
    StableHlo.binary main_v282 main_v289 main_v290 (addf : (⟨S36, .f32⟩ : BufTy).Contents (Elt F) → (⟨S36, .f32⟩ : BufTy).Contents (Elt F) → (⟨S36, .f32⟩ : BufTy).Contents (Elt F)),
    StableHlo.unary main_v290 main_v291 (Host.rsqrt : (⟨S36, .f32⟩ : BufTy).Contents (Elt F) → (⟨S36, .f32⟩ : BufTy).Contents (Elt F)),
    StableHlo.unary main_v291 main_v292 (broadcastInDim S1x36 ![1] bcast_S36_S1x36_1 : (⟨S36, .f32⟩ : BufTy).Contents (Elt F) → (⟨S1x36, .f32⟩ : BufTy).Contents (Elt F)),
    StableHlo.unary main_v292 main_v293 (broadcastInDim S100000x36 ![0, 1] bcast_S1x36_S100000x36_0_1 : (⟨S1x36, .f32⟩ : BufTy).Contents (Elt F) → (⟨S100000x36, .f32⟩ : BufTy).Contents (Elt F)),
    StableHlo.binary main_v288 main_v293 main_v294 (mulf : (⟨S100000x36, .f32⟩ : BufTy).Contents (Elt F) → (⟨S100000x36, .f32⟩ : BufTy).Contents (Elt F) → (⟨S100000x36, .f32⟩ : BufTy).Contents (Elt F)),
    StableHlo.unary main_v278 main_v295 (broadcastInDim S1x36 ![1] bcast_S36_S1x36_1 : (⟨S36, .f32⟩ : BufTy).Contents (Elt F) → (⟨S1x36, .f32⟩ : BufTy).Contents (Elt F)),
    StableHlo.unary main_v295 main_v296 (broadcastInDim S100000x36 ![0, 1] bcast_S1x36_S100000x36_0_1 : (⟨S1x36, .f32⟩ : BufTy).Contents (Elt F) → (⟨S100000x36, .f32⟩ : BufTy).Contents (Elt F)),
    StableHlo.binary main_v294 main_v296 main_v297 (addf : (⟨S100000x36, .f32⟩ : BufTy).Contents (Elt F) → (⟨S100000x36, .f32⟩ : BufTy).Contents (Elt F) → (⟨S100000x36, .f32⟩ : BufTy).Contents (Elt F)),
    StableHlo.unary main_arg11 main_v298 ((extractStridedSlice S1x36x36 ![1, 0, 0] · slices_S2x36x36_S1x36x36_1_0_0) : (⟨S2x36x36, .f32⟩ : BufTy).Contents (Elt F) → (⟨S1x36x36, .f32⟩ : BufTy).Contents (Elt F)),
    StableHlo.reshape main_v298 main_v299 rfl shapeCasts_S1x36x36_S36x36,
    StableHlo.unary main_arg12 main_v300 ((extractStridedSlice S1x36 ![1, 0] · slices_S2x36_S1x36_1_0) : (⟨S2x36, .f32⟩ : BufTy).Contents (Elt F) → (⟨S1x36, .f32⟩ : BufTy).Contents (Elt F)),
    StableHlo.reshape main_v300 main_v301 rfl shapeCasts_S1x36_S36,
    StableHlo.unary main_arg13 main_v302 ((extractStridedSlice S1x36x36 ![1, 0, 0] · slices_S2x36x36_S1x36x36_1_0_0) : (⟨S2x36x36, .f32⟩ : BufTy).Contents (Elt F) → (⟨S1x36x36, .f32⟩ : BufTy).Contents (Elt F)),
    StableHlo.reshape main_v302 main_v303 rfl shapeCasts_S1x36x36_S36x36,
    StableHlo.unary main_arg14 main_v304 ((extractStridedSlice S1x36 ![1, 0] · slices_S2x36_S1x36_1_0) : (⟨S2x36, .f32⟩ : BufTy).Contents (Elt F) → (⟨S1x36, .f32⟩ : BufTy).Contents (Elt F)),
    StableHlo.reshape main_v304 main_v305 rfl shapeCasts_S1x36_S36,
    StableHlo.nullary main_c_37 (constantI S_ 32 0#32),
    StableHlo.unary main_c_37 main_v306 (broadcastInDim S1600000 ![] bcast_S_S1600000 : (⟨S_, .i32⟩ : BufTy).Contents (Elt F) → (⟨S1600000, .i32⟩ : BufTy).Contents (Elt F)),
    StableHlo.binary main_v185 main_v306 main_v307 (cmpi .slt : (⟨S1600000, .i32⟩ : BufTy).Contents (Elt F) → (⟨S1600000, .i32⟩ : BufTy).Contents (Elt F) → (⟨S1600000, .i1⟩ : BufTy).Contents (Elt F)),
    StableHlo.nullary main_c_38 (constantI S_ 32 100000#32),
    StableHlo.unary main_c_38 main_v308 (broadcastInDim S1600000 ![] bcast_S_S1600000 : (⟨S_, .i32⟩ : BufTy).Contents (Elt F) → (⟨S1600000, .i32⟩ : BufTy).Contents (Elt F)),
    StableHlo.binary main_v185 main_v308 main_v309 (addi : (⟨S1600000, .i32⟩ : BufTy).Contents (Elt F) → (⟨S1600000, .i32⟩ : BufTy).Contents (Elt F) → (⟨S1600000, .i32⟩ : BufTy).Contents (Elt F)),
    StableHlo.ternary main_v307 main_v309 main_v185 main_v310 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v310 main_v311 (broadcastInDim S1600000x1 ![0] bcast_S1600000_S1600000x1_0 : (⟨S1600000, .i32⟩ : BufTy).Contents (Elt F) → (⟨S1600000x1, .i32⟩ : BufTy).Contents (Elt F)),
    StableHlo.binary main_v297 main_v311 main_v312 ((fun x i => Host.gather gather_S100000x36_S1600000x1_S1600000x36_1_0_n_n_0_1_136 x i) : (⟨S100000x36, .f32⟩ : BufTy).Contents (Elt F) → (⟨S1600000x1, .i32⟩ : BufTy).Contents (Elt F) → (⟨S1600000x36, .f32⟩ : BufTy).Contents (Elt F)),
    StableHlo.nullary main_cst_39 (constant S_ .f32 0x00000000#32),
    StableHlo.unary main_cst_39 main_v313 (broadcastInDim S100000x36 ![] bcast_S_S100000x36 : (⟨S_, .f32⟩ : BufTy).Contents (Elt F) → (⟨S100000x36, .f32⟩ : BufTy).Contents (Elt F)),
    StableHlo.unary main_v187 main_v314 (broadcastInDim S1600000x1 ![0] bcast_S1600000_S1600000x1_0 : (⟨S1600000, .i32⟩ : BufTy).Contents (Elt F) → (⟨S1600000x1, .i32⟩ : BufTy).Contents (Elt F)),
    StableHlo.ternary main_v313 main_v314 main_v312 main_v315 ((fun x i u => Host.scatterAdd scatter_S100000x36_S1600000x1_S1600000x36_1_0_0_1 x i u) : (⟨S100000x36, .f32⟩ : BufTy).Contents (Elt F) → (⟨S1600000x1, .i32⟩ : BufTy).Contents (Elt F) → (⟨S1600000x36, .f32⟩ : BufTy).Contents (Elt F) → (⟨S100000x36, .f32⟩ : BufTy).Contents (Elt F)),
    StableHlo.binary main_v297 main_v315 main_v316 (addf : (⟨S100000x36, .f32⟩ : BufTy).Contents (Elt F) → (⟨S100000x36, .f32⟩ : BufTy).Contents (Elt F) → (⟨S100000x36, .f32⟩ : BufTy).Contents (Elt F)),
    StableHlo.unary main_v299 main_v317 ((transpose S36x36 [1, 0] · transposes_S36x36_S36x36_1_0) : (⟨S36x36, .f32⟩ : BufTy).Contents (Elt F) → (⟨S36x36, .f32⟩ : BufTy).Contents (Elt F)) ]

/-- Window 6 of @main: its 85 operations, in order. -/
abbrev ops6 : List (HloOp τ sig (Elt F)) :=
  [ StableHlo.binary main_v316 main_v317 main_v318 ((fun l r => Host.dotGeneral dot_S100000x36_S36x36_S100000x36_1_0_0_1_n_n none l r) : (⟨S100000x36, .f32⟩ : BufTy).Contents (Elt F) → (⟨S36x36, .f32⟩ : BufTy).Contents (Elt F) → (⟨S100000x36, .f32⟩ : BufTy).Contents (Elt F)),
    StableHlo.unary main_v301 main_v319 (broadcastInDim S1x36 ![1] bcast_S36_S1x36_1 : (⟨S36, .f32⟩ : BufTy).Contents (Elt F) → (⟨S1x36, .f32⟩ : BufTy).Contents (Elt F)),
    StableHlo.unary main_v319 main_v320 (broadcastInDim S100000x36 ![0, 1] bcast_S1x36_S100000x36_0_1 : (⟨S1x36, .f32⟩ : BufTy).Contents (Elt F) → (⟨S100000x36, .f32⟩ : BufTy).Contents (Elt F)),
    StableHlo.binary main_v318 main_v320 main_v321 (addf : (⟨S100000x36, .f32⟩ : BufTy).Contents (Elt F) → (⟨S100000x36, .f32⟩ : BufTy).Contents (Elt F) → (⟨S100000x36, .f32⟩ : BufTy).Contents (Elt F)),
    StableHlo.TRef.nullary main_call15.cst (constant S_ .f32 0x00000000#32),
    StableHlo.TRef.unary main_call15.cst main_call15.v0 (broadcastInDim S100000x36 ![] bcast_S_S100000x36),
    StableHlo.TRef.binary (.of main_v321) main_call15.v0 main_call15.v1 maximumf,
    StableHlo.unary main_v303 main_v323 ((transpose S36x36 [1, 0] · transposes_S36x36_S36x36_1_0) : (⟨S36x36, .f32⟩ : BufTy).Contents (Elt F) → (⟨S36x36, .f32⟩ : BufTy).Contents (Elt F)),
    StableHlo.binary main_v322 main_v323 main_v324 ((fun l r => Host.dotGeneral dot_S100000x36_S36x36_S100000x36_1_0_0_1_n_n none l r) : (⟨S100000x36, .f32⟩ : BufTy).Contents (Elt F) → (⟨S36x36, .f32⟩ : BufTy).Contents (Elt F) → (⟨S100000x36, .f32⟩ : BufTy).Contents (Elt F)),
    StableHlo.unary main_v305 main_v325 (broadcastInDim S1x36 ![1] bcast_S36_S1x36_1 : (⟨S36, .f32⟩ : BufTy).Contents (Elt F) → (⟨S1x36, .f32⟩ : BufTy).Contents (Elt F)),
    StableHlo.unary main_v325 main_v326 (broadcastInDim S100000x36 ![0, 1] bcast_S1x36_S100000x36_0_1 : (⟨S1x36, .f32⟩ : BufTy).Contents (Elt F) → (⟨S100000x36, .f32⟩ : BufTy).Contents (Elt F)),
    StableHlo.binary main_v324 main_v326 main_v327 (addf : (⟨S100000x36, .f32⟩ : BufTy).Contents (Elt F) → (⟨S100000x36, .f32⟩ : BufTy).Contents (Elt F) → (⟨S100000x36, .f32⟩ : BufTy).Contents (Elt F)),
    StableHlo.TRef.nullary main_call16.cst (constant S_ .f32 0x00000000#32),
    StableHlo.TRef.unary main_call16.cst main_call16.v0 (broadcastInDim S100000x36 ![] bcast_S_S100000x36),
    StableHlo.TRef.binary (.of main_v327) main_call16.v0 main_call16.v1 maximumf,
    StableHlo.unary main_arg15 main_v329 ((extractStridedSlice S1x1x36 ![1, 2, 0] · slices_S2x3x36_S1x1x36_1_2_0) : (⟨S2x3x36, .f32⟩ : BufTy).Contents (Elt F) → (⟨S1x1x36, .f32⟩ : BufTy).Contents (Elt F)),
    StableHlo.reshape main_v329 main_v330 rfl shapeCasts_S1x1x36_S36,
    StableHlo.unary main_arg16 main_v331 ((extractStridedSlice S1x1x36 ![1, 2, 0] · slices_S2x3x36_S1x1x36_1_2_0) : (⟨S2x3x36, .f32⟩ : BufTy).Contents (Elt F) → (⟨S1x1x36, .f32⟩ : BufTy).Contents (Elt F)),
    StableHlo.reshape main_v331 main_v332 rfl shapeCasts_S1x1x36_S36,
    StableHlo.nullary main_cst_40 (constant S_ .f32 0x00000000#32),
    StableHlo.binary main_v328 main_cst_40 main_v333 ((fun x v => Host.reduceAdd x v reducesTo_S100000x36_S36_d0 h_S_) : (⟨S100000x36, .f32⟩ : BufTy).Contents (Elt F) → (⟨S_, .f32⟩ : BufTy).Contents (Elt F) → (⟨S36, .f32⟩ : BufTy).Contents (Elt F)),
    StableHlo.nullary main_cst_41 (constant S_ .f32 0x47C35000#32),
    StableHlo.unary main_cst_41 main_v334 (broadcastInDim S36 ![] bcast_S_S36 : (⟨S_, .f32⟩ : BufTy).Contents (Elt F) → (⟨S36, .f32⟩ : BufTy).Contents (Elt F)),
    StableHlo.binary main_v333 main_v334 main_v335 (Host.divf : (⟨S36, .f32⟩ : BufTy).Contents (Elt F) → (⟨S36, .f32⟩ : BufTy).Contents (Elt F) → (⟨S36, .f32⟩ : BufTy).Contents (Elt F)),
    StableHlo.nullary main_c_42 (constantI S_ 32 0#32),
    StableHlo.TRef.nullary main_call17.cst (constant S_ .f32 0x00000000#32),
    StableHlo.TRef.binary (.of main_v328) main_call17.cst main_call17.v0 (fun x v => Host.reduceAdd x v reducesTo_S100000x36_S36_d0 h_S_),
    StableHlo.TRef.unary main_call17.v0 main_call17.v1 (broadcastInDim S1x36 ![1] bcast_S36_S1x36_1),
    StableHlo.TRef.nullary main_call17.cst_0 (constant S_ .f32 0x47C35000#32),
    StableHlo.TRef.unary main_call17.cst_0 main_call17.v2 (broadcastInDim S1x36 ![] bcast_S_S1x36),
    StableHlo.TRef.binary main_call17.v1 main_call17.v2 main_call17.v3 Host.divf,
    StableHlo.TRef.unary main_call17.v3 main_call17.v4 (broadcastInDim S100000x36 ![0, 1] bcast_S1x36_S100000x36_0_1),
    StableHlo.TRef.binary (.of main_v328) main_call17.v4 main_call17.v5 subf,
    StableHlo.TRef.binary main_call17.v5 main_call17.v5 main_call17.v6 mulf,
    StableHlo.TRef.unary (.of main_c_42) main_call17.v7 (sitofp .f32),
    StableHlo.TRef.nullary main_call17.cst_1 (constant S_ .f32 0x47C35000#32),
    StableHlo.TRef.binary main_call17.cst_1 main_call17.v7 main_call17.v8 subf,
    StableHlo.TRef.nullary main_call17.cst_2 (constant S_ .f32 0x00000000#32),
    StableHlo.TRef.binary main_call17.v6 main_call17.cst_2 main_call17.v9 (fun x v => Host.reduceAdd x v reducesTo_S100000x36_S36_d0 h_S_),
    StableHlo.TRef.unary main_call17.v8 main_call17.v10 (broadcastInDim S36 ![] bcast_S_S36),
    StableHlo.TRef.binary main_call17.v9 main_call17.v10 main_call17.v11 Host.divf,
    StableHlo.TRef.nullary main_call17.cst_3 (constant S_ .f32 0x00000000#32),
    StableHlo.TRef.binary main_call17.v8 main_call17.cst_3 main_call17.v12 (cmpf .ogt),
    StableHlo.TRef.nullary main_call17.cst_4 (constant S_ .f32 0x7FC00000#32),
    StableHlo.TRef.unary main_call17.cst_4 main_call17.call0.v0 id,
    StableHlo.TRef.unary main_call17.call0.v0 main_call17.call0.v1 (broadcastInDim S36 ![] bcast_S_S36),
    StableHlo.TRef.ternary main_call17.v12 main_call17.v11 main_call17.call0.v1 main_call17.call0.v2 (fun p a b => select (broadcastInDim S36 ![] bcast_S_S36 p) a b),
    StableHlo.unary main_v335 main_v337 (broadcastInDim S1x36 ![1] bcast_S36_S1x36_1 : (⟨S36, .f32⟩ : BufTy).Contents (Elt F) → (⟨S1x36, .f32⟩ : BufTy).Contents (Elt F)),
    StableHlo.unary main_v337 main_v338 (broadcastInDim S100000x36 ![0, 1] bcast_S1x36_S100000x36_0_1 : (⟨S1x36, .f32⟩ : BufTy).Contents (Elt F) → (⟨S100000x36, .f32⟩ : BufTy).Contents (Elt F)),
    StableHlo.binary main_v328 main_v338 main_v339 (subf : (⟨S100000x36, .f32⟩ : BufTy).Contents (Elt F) → (⟨S100000x36, .f32⟩ : BufTy).Contents (Elt F) → (⟨S100000x36, .f32⟩ : BufTy).Contents (Elt F)),
    StableHlo.unary main_v330 main_v340 (broadcastInDim S1x36 ![1] bcast_S36_S1x36_1 : (⟨S36, .f32⟩ : BufTy).Contents (Elt F) → (⟨S1x36, .f32⟩ : BufTy).Contents (Elt F)),
    StableHlo.unary main_v340 main_v341 (broadcastInDim S100000x36 ![0, 1] bcast_S1x36_S100000x36_0_1 : (⟨S1x36, .f32⟩ : BufTy).Contents (Elt F) → (⟨S100000x36, .f32⟩ : BufTy).Contents (Elt F)),
    StableHlo.binary main_v341 main_v339 main_v342 (mulf : (⟨S100000x36, .f32⟩ : BufTy).Contents (Elt F) → (⟨S100000x36, .f32⟩ : BufTy).Contents (Elt F) → (⟨S100000x36, .f32⟩ : BufTy).Contents (Elt F)),
    StableHlo.nullary main_cst_43 (constant S_ .f32 0x3727C5AC#32),
    StableHlo.unary main_cst_43 main_v343 (broadcastInDim S36 ![] bcast_S_S36 : (⟨S_, .f32⟩ : BufTy).Contents (Elt F) → (⟨S36, .f32⟩ : BufTy).Contents (Elt F)),
    StableHlo.binary main_v336 main_v343 main_v344 (addf : (⟨S36, .f32⟩ : BufTy).Contents (Elt F) → (⟨S36, .f32⟩ : BufTy).Contents (Elt F) → (⟨S36, .f32⟩ : BufTy).Contents (Elt F)),
    StableHlo.unary main_v344 main_v345 (Host.rsqrt : (⟨S36, .f32⟩ : BufTy).Contents (Elt F) → (⟨S36, .f32⟩ : BufTy).Contents (Elt F)),
    StableHlo.unary main_v345 main_v346 (broadcastInDim S1x36 ![1] bcast_S36_S1x36_1 : (⟨S36, .f32⟩ : BufTy).Contents (Elt F) → (⟨S1x36, .f32⟩ : BufTy).Contents (Elt F)),
    StableHlo.unary main_v346 main_v347 (broadcastInDim S100000x36 ![0, 1] bcast_S1x36_S100000x36_0_1 : (⟨S1x36, .f32⟩ : BufTy).Contents (Elt F) → (⟨S100000x36, .f32⟩ : BufTy).Contents (Elt F)),
    StableHlo.binary main_v342 main_v347 main_v348 (mulf : (⟨S100000x36, .f32⟩ : BufTy).Contents (Elt F) → (⟨S100000x36, .f32⟩ : BufTy).Contents (Elt F) → (⟨S100000x36, .f32⟩ : BufTy).Contents (Elt F)),
    StableHlo.unary main_v332 main_v349 (broadcastInDim S1x36 ![1] bcast_S36_S1x36_1 : (⟨S36, .f32⟩ : BufTy).Contents (Elt F) → (⟨S1x36, .f32⟩ : BufTy).Contents (Elt F)),
    StableHlo.unary main_v349 main_v350 (broadcastInDim S100000x36 ![0, 1] bcast_S1x36_S100000x36_0_1 : (⟨S1x36, .f32⟩ : BufTy).Contents (Elt F) → (⟨S100000x36, .f32⟩ : BufTy).Contents (Elt F)),
    StableHlo.binary main_v348 main_v350 main_v351 (addf : (⟨S100000x36, .f32⟩ : BufTy).Contents (Elt F) → (⟨S100000x36, .f32⟩ : BufTy).Contents (Elt F) → (⟨S100000x36, .f32⟩ : BufTy).Contents (Elt F)),
    StableHlo.unary main_arg2 main_v352 ((extractStridedSlice S1x100000 ![1, 0] · slices_S2x100000_S1x100000_1_0) : (⟨S2x100000, .i32⟩ : BufTy).Contents (Elt F) → (⟨S1x100000, .i32⟩ : BufTy).Contents (Elt F)),
    StableHlo.reshape main_v352 main_v353 rfl shapeCasts_S1x100000_S100000,
    StableHlo.nullary main_cst_44 (constant S_ .f32 0x00000000#32),
    StableHlo.unary main_cst_44 main_v354 (broadcastInDim S512x36 ![] bcast_S_S512x36 : (⟨S_, .f32⟩ : BufTy).Contents (Elt F) → (⟨S512x36, .f32⟩ : BufTy).Contents (Elt F)),
    StableHlo.unary main_v353 main_v355 (broadcastInDim S100000x1 ![0] bcast_S100000_S100000x1_0 : (⟨S100000, .i32⟩ : BufTy).Contents (Elt F) → (⟨S100000x1, .i32⟩ : BufTy).Contents (Elt F)),
    StableHlo.ternary main_v354 main_v355 main_v351 main_v356 ((fun x i u => Host.scatterAdd scatter_S512x36_S100000x1_S100000x36_1_0_0_1 x i u) : (⟨S512x36, .f32⟩ : BufTy).Contents (Elt F) → (⟨S100000x1, .i32⟩ : BufTy).Contents (Elt F) → (⟨S100000x36, .f32⟩ : BufTy).Contents (Elt F) → (⟨S512x36, .f32⟩ : BufTy).Contents (Elt F)),
    StableHlo.nullary main_cst_45 (constant S_ .f32 0x3F800000#32),
    StableHlo.unary main_cst_45 main_v357 (broadcastInDim S100000 ![] bcast_S_S100000 : (⟨S_, .f32⟩ : BufTy).Contents (Elt F) → (⟨S100000, .f32⟩ : BufTy).Contents (Elt F)),
    StableHlo.unary main_arg2 main_v358 ((extractStridedSlice S1x100000 ![1, 0] · slices_S2x100000_S1x100000_1_0) : (⟨S2x100000, .i32⟩ : BufTy).Contents (Elt F) → (⟨S1x100000, .i32⟩ : BufTy).Contents (Elt F)),
    StableHlo.reshape main_v358 main_v359 rfl shapeCasts_S1x100000_S100000,
    StableHlo.nullary main_cst_46 (constant S_ .f32 0x00000000#32),
    StableHlo.unary main_cst_46 main_v360 (broadcastInDim S512 ![] bcast_S_S512 : (⟨S_, .f32⟩ : BufTy).Contents (Elt F) → (⟨S512, .f32⟩ : BufTy).Contents (Elt F)),
    StableHlo.unary main_v359 main_v361 (broadcastInDim S100000x1 ![0] bcast_S100000_S100000x1_0 : (⟨S100000, .i32⟩ : BufTy).Contents (Elt F) → (⟨S100000x1, .i32⟩ : BufTy).Contents (Elt F)),
    StableHlo.ternary main_v360 main_v361 main_v357 main_v362 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),
    StableHlo.nullary main_cst_47 (constant S_ .f32 0x3F800000#32),
    StableHlo.unary main_cst_47 main_v363 (broadcastInDim S512 ![] bcast_S_S512 : (⟨S_, .f32⟩ : BufTy).Contents (Elt F) → (⟨S512, .f32⟩ : BufTy).Contents (Elt F)),
    StableHlo.binary main_v362 main_v363 main_v364 (maximumf : (⟨S512, .f32⟩ : BufTy).Contents (Elt F) → (⟨S512, .f32⟩ : BufTy).Contents (Elt F) → (⟨S512, .f32⟩ : BufTy).Contents (Elt F)),
    StableHlo.unary main_v364 main_v365 (broadcastInDim S512x1 ![0] bcast_S512_S512x1_0 : (⟨S512, .f32⟩ : BufTy).Contents (Elt F) → (⟨S512x1, .f32⟩ : BufTy).Contents (Elt F)),
    StableHlo.unary main_v365 main_v366 (broadcastInDim S512x36 ![0, 1] bcast_S512x1_S512x36_0_1 : (⟨S512x1, .f32⟩ : BufTy).Contents (Elt F) → (⟨S512x36, .f32⟩ : BufTy).Contents (Elt F)),
    StableHlo.binary main_v356 main_v366 main_v367 (Host.divf : (⟨S512x36, .f32⟩ : BufTy).Contents (Elt F) → (⟨S512x36, .f32⟩ : BufTy).Contents (Elt F) → (⟨S512x36, .f32⟩ : BufTy).Contents (Elt F)),
    StableHlo.binary main_v183 main_v367 main_v368 ((fun a b => concatenate S512x72 1 [⟨S512x36, a⟩, ⟨S512x36, b⟩] concatenates_S512x36_S512x36_S512x72_d1) : (⟨S512x36, .f32⟩ : BufTy).Contents (Elt F) → (⟨S512x36, .f32⟩ : BufTy).Contents (Elt F) → (⟨S512x72, .f32⟩ : BufTy).Contents (Elt F)),
    StableHlo.unary main_arg17 main_v369 ((transpose S72x54 [1, 0] · transposes_S54x72_S72x54_1_0) : (⟨S54x72, .f32⟩ : BufTy).Contents (Elt F) → (⟨S72x54, .f32⟩ : BufTy).Contents (Elt F)) ]

/-- Window 7 of @main: its 28 operations, in order. -/
abbrev ops7 : List (HloOp τ sig (Elt F)) :=
  [ StableHlo.binary main_v368 main_v369 main_v370 ((fun l r => Host.dotGeneral dot_S512x72_S72x54_S512x54_1_0_0_1_n_n none l r) : (⟨S512x72, .f32⟩ : BufTy).Contents (Elt F) → (⟨S72x54, .f32⟩ : BufTy).Contents (Elt F) → (⟨S512x54, .f32⟩ : BufTy).Contents (Elt F)),
    StableHlo.unary main_arg18 main_v371 (broadcastInDim S1x54 ![1] bcast_S54_S1x54_1 : (⟨S54, .f32⟩ : BufTy).Contents (Elt F) → (⟨S1x54, .f32⟩ : BufTy).Contents (Elt F)),
    StableHlo.unary main_v371 main_v372 (broadcastInDim S512x54 ![0, 1] bcast_S1x54_S512x54_0_1 : (⟨S1x54, .f32⟩ : BufTy).Contents (Elt F) → (⟨S512x54, .f32⟩ : BufTy).Contents (Elt F)),
    StableHlo.binary main_v370 main_v372 main_v373 (addf : (⟨S512x54, .f32⟩ : BufTy).Contents (Elt F) → (⟨S512x54, .f32⟩ : BufTy).Contents (Elt F) → (⟨S512x54, .f32⟩ : BufTy).Contents (Elt F)),
    StableHlo.TRef.nullary main_call18.cst (constant S_ .f32 0x00000000#32),
    StableHlo.TRef.unary main_call18.cst main_call18.v0 (broadcastInDim S512x54 ![] bcast_S_S512x54),
    StableHlo.TRef.binary (.of main_v373) main_call18.v0 main_call18.v1 maximumf,
    StableHlo.unary main_arg19 main_v375 ((transpose S54x18 [1, 0] · transposes_S18x54_S54x18_1_0) : (⟨S18x54, .f32⟩ : BufTy).Contents (Elt F) → (⟨S54x18, .f32⟩ : BufTy).Contents (Elt F)),
    StableHlo.binary main_v374 main_v375 main_v376 ((fun l r => Host.dotGeneral dot_S512x54_S54x18_S512x18_1_0_0_1_n_n none l r) : (⟨S512x54, .f32⟩ : BufTy).Contents (Elt F) → (⟨S54x18, .f32⟩ : BufTy).Contents (Elt F) → (⟨S512x18, .f32⟩ : BufTy).Contents (Elt F)),
    StableHlo.unary main_arg20 main_v377 (broadcastInDim S1x18 ![1] bcast_S18_S1x18_1 : (⟨S18, .f32⟩ : BufTy).Contents (Elt F) → (⟨S1x18, .f32⟩ : BufTy).Contents (Elt F)),
    StableHlo.unary main_v377 main_v378 (broadcastInDim S512x18 ![0, 1] bcast_S1x18_S512x18_0_1 : (⟨S1x18, .f32⟩ : BufTy).Contents (Elt F) → (⟨S512x18, .f32⟩ : BufTy).Contents (Elt F)),
    StableHlo.binary main_v376 main_v378 main_v379 (addf : (⟨S512x18, .f32⟩ : BufTy).Contents (Elt F) → (⟨S512x18, .f32⟩ : BufTy).Contents (Elt F) → (⟨S512x18, .f32⟩ : BufTy).Contents (Elt F)),
    StableHlo.TRef.nullary main_call19.cst (constant S_ .f32 0x00000000#32),
    StableHlo.TRef.unary main_call19.cst main_call19.v0 (broadcastInDim S512x18 ![] bcast_S_S512x18),
    StableHlo.TRef.binary (.of main_v379) main_call19.v0 main_call19.v1 maximumf,
    StableHlo.unary main_arg21 main_v381 ((transpose S18x1 [1, 0] · transposes_S1x18_S18x1_1_0) : (⟨S1x18, .f32⟩ : BufTy).Contents (Elt F) → (⟨S18x1, .f32⟩ : BufTy).Contents (Elt F)),
    StableHlo.binary main_v380 main_v381 main_v382 ((fun l r => Host.dotGeneral dot_S512x18_S18x1_S512x1_1_0_0_1_n_n none l r) : (⟨S512x18, .f32⟩ : BufTy).Contents (Elt F) → (⟨S18x1, .f32⟩ : BufTy).Contents (Elt F) → (⟨S512x1, .f32⟩ : BufTy).Contents (Elt F)),
    StableHlo.unary main_arg22 main_v383 (broadcastInDim S1x1 ![1] bcast_S1_S1x1_1 : (⟨S1, .f32⟩ : BufTy).Contents (Elt F) → (⟨S1x1, .f32⟩ : BufTy).Contents (Elt F)),
    StableHlo.unary main_v383 main_v384 (broadcastInDim S512x1 ![0, 1] bcast_S1x1_S512x1_0_1 : (⟨S1x1, .f32⟩ : BufTy).Contents (Elt F) → (⟨S512x1, .f32⟩ : BufTy).Contents (Elt F)),
    StableHlo.binary main_v382 main_v384 main_v385 (addf : (⟨S512x1, .f32⟩ : BufTy).Contents (Elt F) → (⟨S512x1, .f32⟩ : BufTy).Contents (Elt F) → (⟨S512x1, .f32⟩ : BufTy).Contents (Elt F)),
    StableHlo.unary main_v385 main_v386 (Host.negf : (⟨S512x1, .f32⟩ : BufTy).Contents (Elt F) → (⟨S512x1, .f32⟩ : BufTy).Contents (Elt F)),
    StableHlo.unary main_v386 main_v387 (Host.exp : (⟨S512x1, .f32⟩ : BufTy).Contents (Elt F) → (⟨S512x1, .f32⟩ : BufTy).Contents (Elt F)),
    StableHlo.nullary main_cst_48 (constant S_ .f32 0x3F800000#32),
    StableHlo.unary main_cst_48 main_v388 (broadcastInDim S512x1 ![] bcast_S_S512x1 : (⟨S_, .f32⟩ : BufTy).Contents (Elt F) → (⟨S512x1, .f32⟩ : BufTy).Contents (Elt F)),
    StableHlo.binary main_v388 main_v387 main_v389 (addf : (⟨S512x1, .f32⟩ : BufTy).Contents (Elt F) → (⟨S512x1, .f32⟩ : BufTy).Contents (Elt F) → (⟨S512x1, .f32⟩ : BufTy).Contents (Elt F)),
    StableHlo.nullary main_cst_49 (constant S_ .f32 0x3F800000#32),
    StableHlo.unary main_cst_49 main_v390 (broadcastInDim S512x1 ![] bcast_S_S512x1 : (⟨S_, .f32⟩ : BufTy).Contents (Elt F) → (⟨S512x1, .f32⟩ : BufTy).Contents (Elt F)),
    StableHlo.binary main_v390 main_v389 main_v391 (Host.divf : (⟨S512x1, .f32⟩ : BufTy).Contents (Elt F) → (⟨S512x1, .f32⟩ : BufTy).Contents (Elt F) → (⟨S512x1, .f32⟩ : BufTy).Contents (Elt F)) ]

end Cert.ReferenceIdeal.RefRun

end
-- ==== Proof.RefGood.lean ====
import Idealize.ShloMosaic.Lib.StableHlo.Run

/-! A host operation that is one of the builders' — `nullary`, `unary`, `binary`, `ternary`, `reshape` — over
    TensorCore references touches TensorCore buffers only, leaves no buffer at contents not chosen, and writes
    exactly its result buffer. `Good n op` records the three facts, the last as: every buffer `op` writes is a
    TensorCore reference of index at least `n`. Over a line of such operations a reference of index below `n`
    (an argument, when the arguments are the first `n` references) keeps its contents. -/

noncomputable section

namespace Cert.ReferenceIdeal.RefRun

open Idealize.ShloMosaic Idealize.SL.Sem Idealize.ShloMosaic.StableHlo

variable {τ : Topo} {sig : RefSig} {Val : EltTy → Type}

/-- The three facts a straight line's run asks of each operation, the written buffers bounded below by `n`. -/
structure Good (n : Nat) (op : HloOp τ sig Val) : Prop where
  sub : op.bufs ⊆ tcRefs τ sig
  fresh : op.fresh = ∅
  res : ∀ b ∈ op.writes, ∃ r : Ref sig .tc, b = Proc.devRef .tc r ∧ n ≤ r.idx.val

private theorem res_singleton {n : Nat} {op : HloOp τ sig Val} {y : Ref sig .tc} (hw : op.writes = {Proc.devRef .tc y})
    (h : n ≤ y.idx.val) : ∀ b ∈ op.writes, ∃ r : Ref sig .tc, b = Proc.devRef .tc r ∧ n ≤ r.idx.val := by
  intro b hb
  rw [hw, Finset.mem_singleton] at hb
  exact ⟨y, hb, h⟩

section Builders

variable {n : Nat} {x a b c y : Ref sig .tc}

theorem good_nullary {v : y.ty.Contents Val} {hy} (h : n ≤ y.idx.val) : Good n (nullary (τ := τ) y v hy) :=
  ⟨nullary_bufs_sub .., rfl, res_singleton (nullary_writes ..) h⟩
theorem good_unary {f : x.ty.Contents Val → y.ty.Contents Val} {hx hy} (h : n ≤ y.idx.val) :
    Good n (unary (τ := τ) x y f hx hy) :=
  ⟨unary_bufs_sub .., rfl, res_singleton (unary_writes ..) h⟩
theorem good_binary {f : a.ty.Contents Val → b.ty.Contents Val → y.ty.Contents Val} {ha hb hy} (h : n ≤ y.idx.val) :
    Good n (binary (τ := τ) a b y f ha hb hy) :=
  ⟨binary_bufs_sub .., rfl, res_singleton (binary_writes ..) h⟩
theorem good_ternary {f : c.ty.Contents Val → a.ty.Contents Val → b.ty.Contents Val → y.ty.Contents Val} {hc ha hb hy}
    (h : n ≤ y.idx.val) : Good n (ternary (τ := τ) c a b y f hc ha hb hy) :=
  ⟨ternary_bufs_sub .., rfl, res_singleton (ternary_writes ..) h⟩
theorem good_reshape {he hn hx hy} (h : n ≤ y.idx.val) : Good n (reshape (τ := τ) (Val := Val) x y he hn hx hy) :=
  ⟨reshape_bufs_sub .., rfl, res_singleton (reshape_writes ..) h⟩

end Builders

/-- Over a line of good operations a reference of index below the bound keeps its contents: no operation writes it. -/
theorem after_keeps {n : Nat} {ops : List (HloOp τ sig Val)} (h : ∀ op ∈ ops, Good n op) (V : Valuation τ sig Val)
    {r : Ref sig .tc} (hr : r.idx.val < n) : after ops V (Proc.devRef .tc r) = V (Proc.devRef .tc r) :=
  after_of_forall_not_mem ops V fun op hop hb => by
    obtain ⟨r', e, hn⟩ := (h op hop).res _ hb
    have e' : r = r' := Proc.devRef_injective _ e
    subst e'
    omega

/-- The facts of two lines are the facts of their concatenation. -/
theorem good_append {n : Nat} {l₁ l₂ : List (HloOp τ sig Val)} (h₁ : ∀ op ∈ l₁, Good n op) (h₂ : ∀ op ∈ l₂, Good n op) :
    ∀ op ∈ l₁ ++ l₂, Good n op := fun op hop =>
  (List.mem_append.mp hop).elim (h₁ op) (h₂ op)

end Cert.ReferenceIdeal.RefRun

end
-- ==== Proof.RefOpsGood.lean ====
import proofs.«408188_j34256659153341_2_alg».proof.Proof.RefOps
import proofs.«408188_j34256659153341_2_alg».proof.Proof.RefGood

/-! Each operation of each window is one of the builders' over TensorCore references and writes a buffer
    that is no argument's (the arguments are references 0 … 22): the table of these facts, one entry per
    operation in order, the bound on the result's index by computation. -/

noncomputable section

namespace Cert.ReferenceIdeal.RefRun

open Cert.ReferenceIdeal Cert.ReferenceIdeal.Gen Idealize.ShloMosaic Idealize.SL.Sem

variable {F : FTy → Type} [FloatOps F]

/-- Window 0: each of its 85 operations is a builder's and writes a reference of index at least 23. -/
theorem good0 : ∀ op ∈ (ops0 : List (HloOp τ sig (Elt F))), Good 23 op :=
  List.forall_iff_forall_mem.mp
    ⟨good_unary (by decide), good_reshape (by decide), good_unary (by decide), good_reshape (by decide),
     good_unary (by decide), good_reshape (by decide), good_unary (by decide), good_reshape (by decide),
     good_unary (by decide), good_reshape (by decide), good_unary (by decide), good_reshape (by decide),
     good_unary (by decide), good_reshape (by decide), good_nullary (by decide), good_unary (by decide),
     good_binary (by decide), good_nullary (by decide), good_unary (by decide), good_binary (by decide),
     good_ternary (by decide), good_unary (by decide), good_binary (by decide), good_nullary (by decide),
     good_unary (by decide), good_unary (by decide), good_ternary (by decide), good_binary (by decide),
     good_unary (by decide), good_binary (by decide), good_unary (by decide), good_unary (by decide),
     good_binary (by decide), good_nullary (by decide), good_unary (by decide), good_binary (by decide),
     good_unary (by decide), good_binary (by decide), good_unary (by decide), good_unary (by decide),
     good_binary (by decide), good_nullary (by decide), good_unary (by decide), good_binary (by decide),
     good_unary (by decide), good_reshape (by decide), good_unary (by decide), good_reshape (by decide),
     good_nullary (by decide), good_binary (by decide), good_nullary (by decide), good_unary (by decide),
     good_binary (by decide), good_nullary (by decide), good_nullary (by decide), good_binary (by decide),
     good_unary (by decide), good_nullary (by decide), good_unary (by decide), good_binary (by decide),
     good_unary (by decide), good_binary (by decide), good_binary (by decide), good_unary (by decide),
     good_nullary (by decide), good_binary (by decide), good_nullary (by decide), good_binary (by decide),
     good_unary (by decide), good_binary (by decide), good_nullary (by decide), good_binary (by decide),
     good_nullary (by decide), good_unary (by decide), good_unary (by decide), good_ternary (by decide),
     good_unary (by decide), good_unary (by decide), good_binary (by decide), good_unary (by decide),
     good_unary (by decide), good_binary (by decide), good_nullary (by decide), good_unary (by decide),
     good_binary (by decide)⟩

/-- Window 1: each of its 85 operations is a builder's and writes a reference of index at least 23. -/
theorem good1 : ∀ op ∈ (ops1 : List (HloOp τ sig (Elt F))), Good 23 op :=
  List.forall_iff_forall_mem.mp
    ⟨good_unary (by decide), good_unary (by decide), good_unary (by decide), good_binary (by decide),
     good_unary (by decide), good_unary (by decide), good_binary (by decide), good_unary (by decide),
     good_reshape (by decide), good_unary (by decide), good_reshape (by decide), good_unary (by decide),
     good_reshape (by decide), good_unary (by decide), good_reshape (by decide), good_nullary (by decide),
     good_unary (by decide), good_binary (by decide), good_nullary (by decide), good_unary (by decide),
     good_binary (by decide), good_ternary (by decide), good_unary (by decide), good_binary (by decide),
     good_nullary (by decide), good_unary (by decide), good_unary (by decide), good_ternary (by decide),
     good_binary (by decide), good_unary (by decide), good_binary (by decide), good_unary (by decide),
     good_unary (by decide), good_binary (by decide), good_nullary (by decide), good_unary (by decide),
     good_binary (by decide), good_unary (by decide), good_binary (by decide), good_unary (by decide),
     good_unary (by decide), good_binary (by decide), good_nullary (by decide), good_unary (by decide),
     good_binary (by decide), good_unary (by decide), good_reshape (by decide), good_unary (by decide),
     good_reshape (by decide), good_nullary (by decide), good_binary (by decide), good_nullary (by decide),
     good_unary (by decide), good_binary (by decide), good_nullary (by decide), good_nullary (by decide),
     good_binary (by decide), good_unary (by decide), good_nullary (by decide), good_unary (by decide),
     good_binary (by decide), good_unary (by decide), good_binary (by decide), good_binary (by decide),
     good_unary (by decide), good_nullary (by decide), good_binary (by decide), good_nullary (by decide),
     good_binary (by decide), good_unary (by decide), good_binary (by decide), good_nullary (by decide),
     good_binary (by decide), good_nullary (by decide), good_unary (by decide), good_unary (by decide),
     good_ternary (by decide), good_unary (by decide), good_unary (by decide), good_binary (by decide),
     good_unary (by decide), good_unary (by decide), good_binary (by decide), good_nullary (by decide),
     good_unary (by decide)⟩

/-- Window 2: each of its 85 operations is a builder's and writes a reference of index at least 23. -/
theorem good2 : ∀ op ∈ (ops2 : List (HloOp τ sig (Elt F))), Good 23 op :=
  List.forall_iff_forall_mem.mp
    ⟨good_binary (by decide), good_unary (by decide), good_unary (by decide), good_unary (by decide),
     good_binary (by decide), good_unary (by decide), good_unary (by decide), good_binary (by decide),
     good_unary (by decide), good_reshape (by decide), good_unary (by decide), good_reshape (by decide),
     good_unary (by decide), good_reshape (by decide), good_unary (by decide), good_reshape (by decide),
     good_nullary (by decide), good_unary (by decide), good_binary (by decide), good_nullary (by decide),
     good_unary (by decide), good_binary (by decide), good_ternary (by decide), good_unary (by decide),
     good_binary (by decide), good_nullary (by decide), good_unary (by decide), good_unary (by decide),
     good_ternary (by decide), good_binary (by decide), good_unary (by decide), good_binary (by decide),
     good_unary (by decide), good_unary (by decide), good_binary (by decide), good_nullary (by decide),
     good_unary (by decide), good_binary (by decide), good_unary (by decide), good_binary (by decide),
     good_unary (by decide), good_unary (by decide), good_binary (by decide), good_nullary (by decide),
     good_unary (by decide), good_binary (by decide), good_unary (by decide), good_reshape (by decide),
     good_unary (by decide), good_reshape (by decide), good_nullary (by decide), good_binary (by decide),
     good_nullary (by decide), good_unary (by decide), good_binary (by decide), good_nullary (by decide),
     good_nullary (by decide), good_binary (by decide), good_unary (by decide), good_nullary (by decide),
     good_unary (by decide), good_binary (by decide), good_unary (by decide), good_binary (by decide),
     good_binary (by decide), good_unary (by decide), good_nullary (by decide), good_binary (by decide),
     good_nullary (by decide), good_binary (by decide), good_unary (by decide), good_binary (by decide),
     good_nullary (by decide), good_binary (by decide), good_nullary (by decide), good_unary (by decide),
     good_unary (by decide), good_ternary (by decide), good_unary (by decide), good_unary (by decide),
     good_binary (by decide), good_unary (by decide), good_unary (by decide), good_binary (by decide),
     good_nullary (by decide)⟩

/-- Window 3: each of its 60 operations is a builder's and writes a reference of index at least 23. -/
theorem good3 : ∀ op ∈ (ops3 : List (HloOp τ sig (Elt F))), Good 23 op :=
  List.forall_iff_forall_mem.mp
    ⟨good_unary (by decide), good_binary (by decide), good_unary (by decide), good_unary (by decide),
     good_unary (by decide), good_binary (by decide), good_unary (by decide), good_unary (by decide),
     good_binary (by decide), good_unary (by decide), good_reshape (by decide), good_nullary (by decide),
     good_unary (by decide), good_unary (by decide), good_ternary (by decide), good_nullary (by decide),
     good_unary (by decide), good_unary (by decide), good_reshape (by decide), good_nullary (by decide),
     good_unary (by decide), good_unary (by decide), good_ternary (by decide), good_nullary (by decide),
     good_unary (by decide), good_binary (by decide), good_unary (by decide), good_unary (by decide),
     good_binary (by decide), good_unary (by decide), good_reshape (by decide), good_unary (by decide),
     good_reshape (by decide), good_unary (by decide), good_reshape (by decide), good_unary (by decide),
     good_reshape (by decide), good_unary (by decide), good_reshape (by decide), good_unary (by decide),
     good_reshape (by decide), good_unary (by decide), good_reshape (by decide), good_nullary (by decide),
     good_unary (by decide), good_binary (by decide), good_nullary (by decide), good_unary (by decide),
     good_binary (by decide), good_ternary (by decide), good_unary (by decide), good_binary (by decide),
     good_nullary (by decide), good_unary (by decide), good_unary (by decide), good_ternary (by decide),
     good_binary (by decide), good_unary (by decide), good_binary (by decide), good_unary (by decide)⟩

/-- Window 4: each of its 85 operations is a builder's and writes a reference of index at least 23. -/
theorem good4 : ∀ op ∈ (ops4 : List (HloOp τ sig (Elt F))), Good 23 op :=
  List.forall_iff_forall_mem.mp
    ⟨good_unary (by decide), good_binary (by decide), good_nullary (by decide), good_unary (by decide),
     good_binary (by decide), good_unary (by decide), good_binary (by decide), good_unary (by decide),
     good_unary (by decide), good_binary (by decide), good_nullary (by decide), good_unary (by decide),
     good_binary (by decide), good_unary (by decide), good_reshape (by decide), good_unary (by decide),
     good_reshape (by decide), good_nullary (by decide), good_binary (by decide), good_nullary (by decide),
     good_unary (by decide), good_binary (by decide), good_nullary (by decide), good_nullary (by decide),
     good_binary (by decide), good_unary (by decide), good_nullary (by decide), good_unary (by decide),
     good_binary (by decide), good_unary (by decide), good_binary (by decide), good_binary (by decide),
     good_unary (by decide), good_nullary (by decide), good_binary (by decide), good_nullary (by decide),
     good_binary (by decide), good_unary (by decide), good_binary (by decide), good_nullary (by decide),
     good_binary (by decide), good_nullary (by decide), good_unary (by decide), good_unary (by decide),
     good_ternary (by decide), good_unary (by decide), good_unary (by decide), good_binary (by decide),
     good_unary (by decide), good_unary (by decide), good_binary (by decide), good_nullary (by decide),
     good_unary (by decide), good_binary (by decide), good_unary (by decide), good_unary (by decide),
     good_unary (by decide), good_binary (by decide), good_unary (by decide), good_unary (by decide),
     good_binary (by decide), good_unary (by decide), good_reshape (by decide), good_unary (by decide),
     good_reshape (by decide), good_unary (by decide), good_reshape (by decide), good_unary (by decide),
     good_reshape (by decide), good_nullary (by decide), good_unary (by decide), good_binary (by decide),
     good_nullary (by decide), good_unary (by decide), good_binary (by decide), good_ternary (by decide),
     good_unary (by decide), good_binary (by decide), good_nullary (by decide), good_unary (by decide),
     good_unary (by decide), good_ternary (by decide), good_binary (by decide), good_unary (by decide),
     good_binary (by decide)⟩

/-- Window 5: each of its 85 operations is a builder's and writes a reference of index at least 23. -/
theorem good5 : ∀ op ∈ (ops5 : List (HloOp τ sig (Elt F))), Good 23 op :=
  List.forall_iff_forall_mem.mp
    ⟨good_unary (by decide), good_unary (by decide), good_binary (by decide), good_nullary (by decide),
     good_unary (by decide), good_binary (by decide), good_unary (by decide), good_binary (by decide),
     good_unary (by decide), good_unary (by decide), good_binary (by decide), good_nullary (by decide),
     good_unary (by decide), good_binary (by decide), good_unary (by decide), good_reshape (by decide),
     good_unary (by decide), good_reshape (by decide), good_nullary (by decide), good_binary (by decide),
     good_nullary (by decide), good_unary (by decide), good_binary (by decide), good_nullary (by decide),
     good_nullary (by decide), good_binary (by decide), good_unary (by decide), good_nullary (by decide),
     good_unary (by decide), good_binary (by decide), good_unary (by decide), good_binary (by decide),
     good_binary (by decide), good_unary (by decide), good_nullary (by decide), good_binary (by decide),
     good_nullary (by decide), good_binary (by decide), good_unary (by decide), good_binary (by decide),
     good_nullary (by decide), good_binary (by decide), good_nullary (by decide), good_unary (by decide),
     good_unary (by decide), good_ternary (by decide), good_unary (by decide), good_unary (by decide),
     good_binary (by decide), good_unary (by decide), good_unary (by decide), good_binary (by decide),
     good_nullary (by decide), good_unary (by decide), good_binary (by decide), good_unary (by decide),
     good_unary (by decide), good_unary (by decide), good_binary (by decide), good_unary (by decide),
     good_unary (by decide), good_binary (by decide), good_unary (by decide), good_reshape (by decide),
     good_unary (by decide), good_reshape (by decide), good_unary (by decide), good_reshape (by decide),
     good_unary (by decide), good_reshape (by decide), good_nullary (by decide), good_unary (by decide),
     good_binary (by decide), good_nullary (by decide), good_unary (by decide), good_binary (by decide),
     good_ternary (by decide), good_unary (by decide), good_binary (by decide), good_nullary (by decide),
     good_unary (by decide), good_unary (by decide), good_ternary (by decide), good_binary (by decide),
     good_unary (by decide)⟩

/-- Window 6: each of its 85 operations is a builder's and writes a reference of index at least 23. -/
theorem good6 : ∀ op ∈ (ops6 : List (HloOp τ sig (Elt F))), Good 23 op :=
  List.forall_iff_forall_mem.mp
    ⟨good_binary (by decide), good_unary (by decide), good_unary (by decide), good_binary (by decide),
     good_nullary (by decide), good_unary (by decide), good_binary (by decide), good_unary (by decide),
     good_binary (by decide), good_unary (by decide), good_unary (by decide), good_binary (by decide),
     good_nullary (by decide), good_unary (by decide), good_binary (by decide), good_unary (by decide),
     good_reshape (by decide), good_unary (by decide), good_reshape (by decide), good_nullary (by decide),
     good_binary (by decide), good_nullary (by decide), good_unary (by decide), good_binary (by decide),
     good_nullary (by decide), good_nullary (by decide), good_binary (by decide), good_unary (by decide),
     good_nullary (by decide), good_unary (by decide), good_binary (by decide), good_unary (by decide),
     good_binary (by decide), good_binary (by decide), good_unary (by decide), good_nullary (by decide),
     good_binary (by decide), good_nullary (by decide), good_binary (by decide), good_unary (by decide),
     good_binary (by decide), good_nullary (by decide), good_binary (by decide), good_nullary (by decide),
     good_unary (by decide), good_unary (by decide), good_ternary (by decide), good_unary (by decide),
     good_unary (by decide), good_binary (by decide), good_unary (by decide), good_unary (by decide),
     good_binary (by decide), good_nullary (by decide), good_unary (by decide), good_binary (by decide),
     good_unary (by decide), good_unary (by decide), good_unary (by decide), good_binary (by decide),
     good_unary (by decide), good_unary (by decide), good_binary (by decide), good_unary (by decide),
     good_reshape (by decide), good_nullary (by decide), good_unary (by decide), good_unary (by decide),
     good_ternary (by decide), good_nullary (by decide), good_unary (by decide), good_unary (by decide),
     good_reshape (by decide), good_nullary (by decide), good_unary (by decide), good_unary (by decide),
     good_ternary (by decide), good_nullary (by decide), good_unary (by decide), good_binary (by decide),
     good_unary (by decide), good_unary (by decide), good_binary (by decide), good_binary (by decide),
     good_unary (by decide)⟩

/-- Window 7: each of its 28 operations is a builder's and writes a reference of index at least 23. -/
theorem good7 : ∀ op ∈ (ops7 : List (HloOp τ sig (Elt F))), Good 23 op :=
  List.forall_iff_forall_mem.mp
    ⟨good_binary (by decide), good_unary (by decide), good_unary (by decide), good_binary (by decide),
     good_nullary (by decide), good_unary (by decide), good_binary (by decide), good_unary (by decide),
     good_binary (by decide), good_unary (by decide), good_unary (by decide), good_binary (by decide),
     good_nullary (by decide), good_unary (by decide), good_binary (by decide), good_unary (by decide),
     good_binary (by decide), good_unary (by decide), good_unary (by decide), good_binary (by decide),
     good_unary (by decide), good_unary (by decide), good_nullary (by decide), good_unary (by decide),
     good_binary (by decide), good_nullary (by decide), good_unary (by decide), good_binary (by decide)⟩

end Cert.ReferenceIdeal.RefRun

end
-- ==== Proof.RefRun.lean ====
import proofs.«408188_j34256659153341_2_alg».proof.Proof.Gen.ReferenceIdeal
import proofs.«408188_j34256659153341_2_alg».proof.Proof.RefOps
import proofs.«408188_j34256659153341_2_alg».proof.Proof.RefOpsGood
import Idealize.ShloMosaic.Lib.StableHlo.Run

/-! The reference program's run. @main is a straight line of 598 host operations — its 444 statements before the
    return, each call's body listed at the call site over the call's buffer record —: window by window the printed
    program is the straight line of the window's list, and @main, the windows in order, the straight line of their
    concatenation. Every operation touches TensorCore buffers only and determines what it writes, so from any memory
    with zero counters every weakly fair execution terminates with each buffer at the operations' fold over the launch
    contents; no operation writes an argument's buffer, so the arguments end as launched. The result buffer is
    stated at the fold, not evaluated. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations: the windows' lists, in order. -/
abbrev ops : List (HloOp τ sig (Elt F)) := ops0 ++ (ops1 ++ (ops2 ++ (ops3 ++ (ops4 ++ (ops5 ++ (ops6 ++ ops7))))))

theorem ops_eq : (ops : List (HloOp τ sig (Elt F))) = ops0 ++ (ops1 ++ (ops2 ++ (ops3 ++ (ops4 ++ (ops5 ++ (ops6 ++ ops7)))))) := rfl

/-! Each window of the printed program is the straight line of its list: the calls' definitions unfolded at their
    calls and the records at their fields, both sides are one chain of operation steps, by computation. -/

theorem part_eq0 (c : Dev nD) : main_part0 (F := F) c = seq ops0 := rfl
theorem part_eq1 (c : Dev nD) : main_part1 (F := F) c = seq ops1 := rfl
theorem part_eq2 (c : Dev nD) : main_part2 (F := F) c = seq ops2 := rfl
theorem part_eq3 (c : Dev nD) : main_part3 (F := F) c = seq ops3 := rfl
theorem part_eq4 (c : Dev nD) : main_part4 (F := F) c = seq ops4 := rfl
theorem part_eq5 (c : Dev nD) : main_part5 (F := F) c = seq ops5 := rfl
theorem part_eq6 (c : Dev nD) : main_part6 (F := F) c = seq ops6 := rfl
theorem part_eq7 (c : Dev nD) : main_part7 (F := F) c = seq ops7 := rfl

/-- @main runs its windows in order, and lines run one after the other are their concatenation run as one. -/
theorem main_eq (c : Dev nD) : main (F := F) c = seq ops := by
  unfold main
  rw [part_eq0, part_eq1, part_eq2, part_eq3, part_eq4, part_eq5, part_eq6, part_eq7]
  simp only [seq_append]

/-- The signature scopes no TensorCore buffer: its buffers are in HBM, which is never scoped, and the other
    spaces are empty. -/
theorem scopedRefs_eq : (Finset.univ.filter fun b : Ref sig .tc => b.isScoped) = ∅ :=
  Finset.filter_eq_empty_iff.mpr fun b _ => by
    rcases b with ⟨sp, i, h⟩
    rcases sp with (_ | _) | _ | _ | _ <;> first | exact Bool.false_ne_true | exact i.elim0
theorem scopedSems_eq : (Finset.univ.filter fun sm : SemLoc sig => sm.isScoped .tc) = ∅ := by decide

/-- Every operation of @main is a builder's and writes a reference that is no argument's. -/
theorem good : ∀ op ∈ (ops : List (HloOp τ sig (Elt F))), Good 23 op :=
  good_append good0 (good_append good1 (good_append good2 (good_append good3 (good_append good4 (good_append good5 (good_append good6 good7))))))

theorem ops_sub : (ops : List (HloOp τ sig (Elt F))).Forall fun op => op.bufs ⊆ tcRefs τ sig :=
  List.forall_iff_forall_mem.mpr fun op h => (good op h).sub

/-- On every device, for any float values, from any memory with zero counters: every weakly fair execution of
    @main terminates with the result buffer at the operations' fold over the launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v391) = after ops (launchContents m c) (Proc.devRef .tc main_v391)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => ⟨h c main_v391,
      (h c main_arg0).trans (after_keeps good _ (r := main_arg0) (by decide)), (h c main_arg1).trans (after_keeps good _ (r := main_arg1) (by decide)),
      (h c main_arg2).trans (after_keeps good _ (r := main_arg2) (by decide)), (h c main_arg3).trans (after_keeps good _ (r := main_arg3) (by decide)),
      (h c main_arg4).trans (after_keeps good _ (r := main_arg4) (by decide)), (h c main_arg5).trans (after_keeps good _ (r := main_arg5) (by decide)),
      (h c main_arg6).trans (after_keeps good _ (r := main_arg6) (by decide)), (h c main_arg7).trans (after_keeps good _ (r := main_arg7) (by decide)),
      (h c main_arg8).trans (after_keeps good _ (r := main_arg8) (by decide)), (h c main_arg9).trans (after_keeps good _ (r := main_arg9) (by decide)),
      (h c main_arg10).trans (after_keeps good _ (r := main_arg10) (by decide)), (h c main_arg11).trans (after_keeps good _ (r := main_arg11) (by decide)),
      (h c main_arg12).trans (after_keeps good _ (r := main_arg12) (by decide)), (h c main_arg13).trans (after_keeps good _ (r := main_arg13) (by decide)),
      (h c main_arg14).trans (after_keeps good _ (r := main_arg14) (by decide)), (h c main_arg15).trans (after_keeps good _ (r := main_arg15) (by decide)),
      (h c main_arg16).trans (after_keeps good _ (r := main_arg16) (by decide)), (h c main_arg17).trans (after_keeps good _ (r := main_arg17) (by decide)),
      (h c main_arg18).trans (after_keeps good _ (r := main_arg18) (by decide)), (h c main_arg19).trans (after_keeps good _ (r := main_arg19) (by decide)),
      (h c main_arg20).trans (after_keeps good _ (r := main_arg20) (by decide)), (h c main_arg21).trans (after_keeps good _ (r := main_arg21) (by decide)),
      (h c main_arg22).trans (after_keeps good _ (r := main_arg22) (by decide))⟩)
    (run_seq scopedRefs_eq scopedSems_eq defs main (fun _ => ops) main_eq (fun _ => ops_sub) m ρ
      (fun _ op h => (good op h).fresh))

end Cert.ReferenceIdeal.RefRun

end
-- ==== Proof.RefSegs.lean ====
import proofs.«408188_j34256659153341_2_alg».proof.Proof.Gen.ReferenceIdeal
import proofs.«408188_j34256659153341_2_alg».proof.Proof.RefGood

/-! The same operations of @main cut into consecutive segments (a call's operations staying with the call),
    and per segment: each operation is a builder's and writes a reference of index at least the segment's
    smallest written index, so a reference of smaller index — an argument, a value of an earlier segment —
    is read unchanged through the segment. -/

noncomputable section

namespace Cert.ReferenceIdeal.RefRun

open Cert.ReferenceIdeal Cert.ReferenceIdeal.Gen Idealize.ShloMosaic Idealize.SL.Sem Idealize.ShloMosaic.StableHlo

variable {F : FTy → Type} [FloatOps F]

/-- Statements 0 … 27 of @main: 28 operations, in order. -/
abbrev seg0 : List (HloOp τ sig (Elt F)) :=
  [ StableHlo.unary main_arg1 main_v0 ((extractStridedSlice S1x1x1600000 ![0, 0, 0] · slices_S2x2x1600000_S1x1x1600000_0_0_0) : (⟨S2x2x1600000, .i32⟩ : BufTy).Contents (Elt F) → (⟨S1x1x1600000, .i32⟩ : BufTy).Contents (Elt F)),
    StableHlo.reshape main_v0 main_v1 rfl shapeCasts_S1x1x1600000_S1600000,
    StableHlo.unary main_arg1 main_v2 ((extractStridedSlice S1x1x1600000 ![0, 1, 0] · slices_S2x2x1600000_S1x1x1600000_0_1_0) : (⟨S2x2x1600000, .i32⟩ : BufTy).Contents (Elt F) → (⟨S1x1x1600000, .i32⟩ : BufTy).Contents (Elt F)),
    StableHlo.reshape main_v2 main_v3 rfl shapeCasts_S1x1x1600000_S1600000,
    StableHlo.unary main_arg0 main_v4 ((extractStridedSlice S1x100000x6 ![0, 0, 0] · slices_S2x100000x6_S1x100000x6_0_0_0) : (⟨S2x100000x6, .f32⟩ : BufTy).Contents (Elt F) → (⟨S1x100000x6, .f32⟩ : BufTy).Contents (Elt F)),
    StableHlo.reshape main_v4 main_v5 rfl shapeCasts_S1x100000x6_S100000x6,
    StableHlo.unary main_arg3 main_v6 ((extractStridedSlice S1x36x6 ![0, 0, 0] · slices_S2x36x6_S1x36x6_0_0_0) : (⟨S2x36x6, .f32⟩ : BufTy).Contents (Elt F) → (⟨S1x36x6, .f32⟩ : BufTy).Contents (Elt F)),
    StableHlo.reshape main_v6 main_v7 rfl shapeCasts_S1x36x6_S36x6,
    StableHlo.unary main_arg4 main_v8 ((extractStridedSlice S1x36 ![0, 0] · slices_S2x36_S1x36_0_0) : (⟨S2x36, .f32⟩ : BufTy).Contents (Elt F) → (⟨S1x36, .f32⟩ : BufTy).Contents (Elt F)),
    StableHlo.reshape main_v8 main_v9 rfl shapeCasts_S1x36_S36,
    StableHlo.unary main_arg5 main_v10 ((extractStridedSlice S1x36x36 ![0, 0, 0] · slices_S2x36x36_S1x36x36_0_0_0) : (⟨S2x36x36, .f32⟩ : BufTy).Contents (Elt F) → (⟨S1x36x36, .f32⟩ : BufTy).Contents (Elt F)),
    StableHlo.reshape main_v10 main_v11 rfl shapeCasts_S1x36x36_S36x36,
    StableHlo.unary main_arg6 main_v12 ((extractStridedSlice S1x36 ![0, 0] · slices_S2x36_S1x36_0_0) : (⟨S2x36, .f32⟩ : BufTy).Contents (Elt F) → (⟨S1x36, .f32⟩ : BufTy).Contents (Elt F)),
    StableHlo.reshape main_v12 main_v13 rfl shapeCasts_S1x36_S36,
    StableHlo.nullary main_c (constantI S_ 32 0#32),
    StableHlo.unary main_c main_v14 (broadcastInDim S1600000 ![] bcast_S_S1600000 : (⟨S_, .i32⟩ : BufTy).Contents (Elt F) → (⟨S1600000, .i32⟩ : BufTy).Contents (Elt F)),
    StableHlo.binary main_v1 main_v14 main_v15 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v16 (broadcastInDim S1600000 ![] bcast_S_S1600000 : (⟨S_, .i32⟩ : BufTy).Contents (Elt F) → (⟨S1600000, .i32⟩ : BufTy).Contents (Elt F)),
    StableHlo.binary main_v1 main_v16 main_v17 (addi : (⟨S1600000, .i32⟩ : BufTy).Contents (Elt F) → (⟨S1600000, .i32⟩ : BufTy).Contents (Elt F) → (⟨S1600000, .i32⟩ : BufTy).Contents (Elt F)),
    StableHlo.ternary main_v15 main_v17 main_v1 main_v18 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v18 main_v19 (broadcastInDim S1600000x1 ![0] bcast_S1600000_S1600000x1_0 : (⟨S1600000, .i32⟩ : BufTy).Contents (Elt F) → (⟨S1600000x1, .i32⟩ : BufTy).Contents (Elt F)),
    StableHlo.binary main_v5 main_v19 main_v20 ((fun x i => Host.gather gather_S100000x6_S1600000x1_S1600000x6_1_0_n_n_0_1_16 x i) : (⟨S100000x6, .f32⟩ : BufTy).Contents (Elt F) → (⟨S1600000x1, .i32⟩ : BufTy).Contents (Elt F) → (⟨S1600000x6, .f32⟩ : BufTy).Contents (Elt F)),
    StableHlo.nullary main_cst (constant S_ .f32 0x00000000#32),
    StableHlo.unary main_cst main_v21 (broadcastInDim S100000x6 ![] bcast_S_S100000x6 : (⟨S_, .f32⟩ : BufTy).Contents (Elt F) → (⟨S100000x6, .f32⟩ : BufTy).Contents (Elt F)),
    StableHlo.unary main_v3 main_v22 (broadcastInDim S1600000x1 ![0] bcast_S1600000_S1600000x1_0 : (⟨S1600000, .i32⟩ : BufTy).Contents (Elt F) → (⟨S1600000x1, .i32⟩ : BufTy).Contents (Elt F)),
    StableHlo.ternary main_v21 main_v22 main_v20 main_v23 ((fun x i u => Host.scatterAdd scatter_S100000x6_S1600000x1_S1600000x6_1_0_0_1 x i u) : (⟨S100000x6, .f32⟩ : BufTy).Contents (Elt F) → (⟨S1600000x1, .i32⟩ : BufTy).Contents (Elt F) → (⟨S1600000x6, .f32⟩ : BufTy).Contents (Elt F) → (⟨S100000x6, .f32⟩ : BufTy).Contents (Elt F)),
    StableHlo.binary main_v5 main_v23 main_v24 (addf : (⟨S100000x6, .f32⟩ : BufTy).Contents (Elt F) → (⟨S100000x6, .f32⟩ : BufTy).Contents (Elt F) → (⟨S100000x6, .f32⟩ : BufTy).Contents (Elt F)) ]

/-- Each is a builder's and writes a reference of index at least 23. -/
theorem sgood0 : ∀ op ∈ (seg0 : List (HloOp τ sig (Elt F))), Good 23 op :=
  List.forall_iff_forall_mem.mp
    ⟨good_unary (by decide), good_reshape (by decide), good_unary (by decide), good_reshape (by decide),
     good_unary (by decide), good_reshape (by decide), good_unary (by decide), good_reshape (by decide),
     good_unary (by decide), good_reshape (by decide), good_unary (by decide), good_reshape (by decide),
     good_unary (by decide), good_reshape (by decide), good_nullary (by decide), good_unary (by decide),
     good_binary (by decide), good_nullary (by decide), good_unary (by decide), good_binary (by decide),
     good_ternary (by decide), good_unary (by decide), good_binary (by decide), good_nullary (by decide),
     good_unary (by decide), good_unary (by decide), good_ternary (by decide), good_binary (by decide)⟩

/-- A reference of index below 23 is read unchanged through the segment. -/
theorem keep0 (b : Ref sig .tc) (hb : b.idx.val < 23) (W : Valuation τ sig (Elt F)) :
    after seg0 W (Proc.devRef .tc b) = W (Proc.devRef .tc b) := after_keeps sgood0 W hb

/-- Statements 28 … 39 of @main: 16 operations, in order. -/
abbrev seg1 : List (HloOp τ sig (Elt F)) :=
  [ StableHlo.unary main_v7 main_v25 ((transpose S6x36 [1, 0] · transposes_S36x6_S6x36_1_0) : (⟨S36x6, .f32⟩ : BufTy).Contents (Elt F) → (⟨S6x36, .f32⟩ : BufTy).Contents (Elt F)),
    StableHlo.binary main_v24 main_v25 main_v26 ((fun l r => Host.dotGeneral dot_S100000x6_S6x36_S100000x36_1_0_0_1_n_n none l r) : (⟨S100000x6, .f32⟩ : BufTy).Contents (Elt F) → (⟨S6x36, .f32⟩ : BufTy).Contents (Elt F) → (⟨S100000x36, .f32⟩ : BufTy).Contents (Elt F)),
    StableHlo.unary main_v9 main_v27 (broadcastInDim S1x36 ![1] bcast_S36_S1x36_1 : (⟨S36, .f32⟩ : BufTy).Contents (Elt F) → (⟨S1x36, .f32⟩ : BufTy).Contents (Elt F)),
    StableHlo.unary main_v27 main_v28 (broadcastInDim S100000x36 ![0, 1] bcast_S1x36_S100000x36_0_1 : (⟨S1x36, .f32⟩ : BufTy).Contents (Elt F) → (⟨S100000x36, .f32⟩ : BufTy).Contents (Elt F)),
    StableHlo.binary main_v26 main_v28 main_v29 (addf : (⟨S100000x36, .f32⟩ : BufTy).Contents (Elt F) → (⟨S100000x36, .f32⟩ : BufTy).Contents (Elt F) → (⟨S100000x36, .f32⟩ : BufTy).Contents (Elt F)),
    StableHlo.TRef.nullary main_call0.cst (constant S_ .f32 0x00000000#32),
    StableHlo.TRef.unary main_call0.cst main_call0.v0 (broadcastInDim S100000x36 ![] bcast_S_S100000x36),
    StableHlo.TRef.binary (.of main_v29) main_call0.v0 main_call0.v1 maximumf,
    StableHlo.unary main_v11 main_v31 ((transpose S36x36 [1, 0] · transposes_S36x36_S36x36_1_0) : (⟨S36x36, .f32⟩ : BufTy).Contents (Elt F) → (⟨S36x36, .f32⟩ : BufTy).Contents (Elt F)),
    StableHlo.binary main_v30 main_v31 main_v32 ((fun l r => Host.dotGeneral dot_S100000x36_S36x36_S100000x36_1_0_0_1_n_n none l r) : (⟨S100000x36, .f32⟩ : BufTy).Contents (Elt F) → (⟨S36x36, .f32⟩ : BufTy).Contents (Elt F) → (⟨S100000x36, .f32⟩ : BufTy).Contents (Elt F)),
    StableHlo.unary main_v13 main_v33 (broadcastInDim S1x36 ![1] bcast_S36_S1x36_1 : (⟨S36, .f32⟩ : BufTy).Contents (Elt F) → (⟨S1x36, .f32⟩ : BufTy).Contents (Elt F)),
    StableHlo.unary main_v33 main_v34 (broadcastInDim S100000x36 ![0, 1] bcast_S1x36_S100000x36_0_1 : (⟨S1x36, .f32⟩ : BufTy).Contents (Elt F) → (⟨S100000x36, .f32⟩ : BufTy).Contents (Elt F)),
    StableHlo.binary main_v32 main_v34 main_v35 (addf : (⟨S100000x36, .f32⟩ : BufTy).Contents (Elt F) → (⟨S100000x36, .f32⟩ : BufTy).Contents (Elt F) → (⟨S100000x36, .f32⟩ : BufTy).Contents (Elt F)),
    StableHlo.TRef.nullary main_call1.cst (constant S_ .f32 0x00000000#32),
    StableHlo.TRef.unary main_call1.cst main_call1.v0 (broadcastInDim S100000x36 ![] bcast_S_S100000x36),
    StableHlo.TRef.binary (.of main_v35) main_call1.v0 main_call1.v1 maximumf ]

/-- Each is a builder's and writes a reference of index at least 51. -/
theorem sgood1 : ∀ op ∈ (seg1 : List (HloOp τ sig (Elt F))), Good 51 op :=
  List.forall_iff_forall_mem.mp
    ⟨good_unary (by decide), good_binary (by decide), good_unary (by decide), good_unary (by decide),
     good_binary (by decide), good_nullary (by decide), good_unary (by decide), good_binary (by decide),
     good_unary (by decide), good_binary (by decide), good_unary (by decide), good_unary (by decide),
     good_binary (by decide), good_nullary (by decide), good_unary (by decide), good_binary (by decide)⟩

/-- A reference of index below 51 is read unchanged through the segment. -/
theorem keep1 (b : Ref sig .tc) (hb : b.idx.val < 51) (W : Valuation τ sig (Elt F)) :
    after seg1 W (Proc.devRef .tc b) = W (Proc.devRef .tc b) := after_keeps sgood1 W hb

/-- Statements 40 … 88 of @main: 70 operations, in order. -/
abbrev seg2 : List (HloOp τ sig (Elt F)) :=
  [ StableHlo.unary main_arg15 main_v37 ((extractStridedSlice S1x1x36 ![0, 0, 0] · slices_S2x3x36_S1x1x36_0_0_0) : (⟨S2x3x36, .f32⟩ : BufTy).Contents (Elt F) → (⟨S1x1x36, .f32⟩ : BufTy).Contents (Elt F)),
    StableHlo.reshape main_v37 main_v38 rfl shapeCasts_S1x1x36_S36,
    StableHlo.unary main_arg16 main_v39 ((extractStridedSlice S1x1x36 ![0, 0, 0] · slices_S2x3x36_S1x1x36_0_0_0) : (⟨S2x3x36, .f32⟩ : BufTy).Contents (Elt F) → (⟨S1x1x36, .f32⟩ : BufTy).Contents (Elt F)),
    StableHlo.reshape main_v39 main_v40 rfl shapeCasts_S1x1x36_S36,
    StableHlo.nullary main_cst_1 (constant S_ .f32 0x00000000#32),
    StableHlo.binary main_v36 main_cst_1 main_v41 ((fun x v => Host.reduceAdd x v reducesTo_S100000x36_S36_d0 h_S_) : (⟨S100000x36, .f32⟩ : BufTy).Contents (Elt F) → (⟨S_, .f32⟩ : BufTy).Contents (Elt F) → (⟨S36, .f32⟩ : BufTy).Contents (Elt F)),
    StableHlo.nullary main_cst_2 (constant S_ .f32 0x47C35000#32),
    StableHlo.unary main_cst_2 main_v42 (broadcastInDim S36 ![] bcast_S_S36 : (⟨S_, .f32⟩ : BufTy).Contents (Elt F) → (⟨S36, .f32⟩ : BufTy).Contents (Elt F)),
    StableHlo.binary main_v41 main_v42 main_v43 (Host.divf : (⟨S36, .f32⟩ : BufTy).Contents (Elt F) → (⟨S36, .f32⟩ : BufTy).Contents (Elt F) → (⟨S36, .f32⟩ : BufTy).Contents (Elt F)),
    StableHlo.nullary main_c_3 (constantI S_ 32 0#32),
    StableHlo.TRef.nullary main_call2.cst (constant S_ .f32 0x00000000#32),
    StableHlo.TRef.binary (.of main_v36) main_call2.cst main_call2.v0 (fun x v => Host.reduceAdd x v reducesTo_S100000x36_S36_d0 h_S_),
    StableHlo.TRef.unary main_call2.v0 main_call2.v1 (broadcastInDim S1x36 ![1] bcast_S36_S1x36_1),
    StableHlo.TRef.nullary main_call2.cst_0 (constant S_ .f32 0x47C35000#32),
    StableHlo.TRef.unary main_call2.cst_0 main_call2.v2 (broadcastInDim S1x36 ![] bcast_S_S1x36),
    StableHlo.TRef.binary main_call2.v1 main_call2.v2 main_call2.v3 Host.divf,
    StableHlo.TRef.unary main_call2.v3 main_call2.v4 (broadcastInDim S100000x36 ![0, 1] bcast_S1x36_S100000x36_0_1),
    StableHlo.TRef.binary (.of main_v36) main_call2.v4 main_call2.v5 subf,
    StableHlo.TRef.binary main_call2.v5 main_call2.v5 main_call2.v6 mulf,
    StableHlo.TRef.unary (.of main_c_3) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x36_S36_d0 h_S_),
    StableHlo.TRef.unary main_call2.v8 main_call2.v10 (broadcastInDim S36 ![] bcast_S_S36),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S36 ![] bcast_S_S36),
    StableHlo.TRef.ternary main_call2.v12 main_call2.v11 main_call2.call0.v1 main_call2.call0.v2 (fun p a b => select (broadcastInDim S36 ![] bcast_S_S36 p) a b),
    StableHlo.unary main_v43 main_v45 (broadcastInDim S1x36 ![1] bcast_S36_S1x36_1 : (⟨S36, .f32⟩ : BufTy).Contents (Elt F) → (⟨S1x36, .f32⟩ : BufTy).Contents (Elt F)),
    StableHlo.unary main_v45 main_v46 (broadcastInDim S100000x36 ![0, 1] bcast_S1x36_S100000x36_0_1 : (⟨S1x36, .f32⟩ : BufTy).Contents (Elt F) → (⟨S100000x36, .f32⟩ : BufTy).Contents (Elt F)),
    StableHlo.binary main_v36 main_v46 main_v47 (subf : (⟨S100000x36, .f32⟩ : BufTy).Contents (Elt F) → (⟨S100000x36, .f32⟩ : BufTy).Contents (Elt F) → (⟨S100000x36, .f32⟩ : BufTy).Contents (Elt F)),
    StableHlo.unary main_v38 main_v48 (broadcastInDim S1x36 ![1] bcast_S36_S1x36_1 : (⟨S36, .f32⟩ : BufTy).Contents (Elt F) → (⟨S1x36, .f32⟩ : BufTy).Contents (Elt F)),
    StableHlo.unary main_v48 main_v49 (broadcastInDim S100000x36 ![0, 1] bcast_S1x36_S100000x36_0_1 : (⟨S1x36, .f32⟩ : BufTy).Contents (Elt F) → (⟨S100000x36, .f32⟩ : BufTy).Contents (Elt F)),
    StableHlo.binary main_v49 main_v47 main_v50 (mulf : (⟨S100000x36, .f32⟩ : BufTy).Contents (Elt F) → (⟨S100000x36, .f32⟩ : BufTy).Contents (Elt F) → (⟨S100000x36, .f32⟩ : BufTy).Contents (Elt F)),
    StableHlo.nullary main_cst_4 (constant S_ .f32 0x3727C5AC#32),
    StableHlo.unary main_cst_4 main_v51 (broadcastInDim S36 ![] bcast_S_S36 : (⟨S_, .f32⟩ : BufTy).Contents (Elt F) → (⟨S36, .f32⟩ : BufTy).Contents (Elt F)),
    StableHlo.binary main_v44 main_v51 main_v52 (addf : (⟨S36, .f32⟩ : BufTy).Contents (Elt F) → (⟨S36, .f32⟩ : BufTy).Contents (Elt F) → (⟨S36, .f32⟩ : BufTy).Contents (Elt F)),
    StableHlo.unary main_v52 main_v53 (Host.rsqrt : (⟨S36, .f32⟩ : BufTy).Contents (Elt F) → (⟨S36, .f32⟩ : BufTy).Contents (Elt F)),
    StableHlo.unary main_v53 main_v54 (broadcastInDim S1x36 ![1] bcast_S36_S1x36_1 : (⟨S36, .f32⟩ : BufTy).Contents (Elt F) → (⟨S1x36, .f32⟩ : BufTy).Contents (Elt F)),
    StableHlo.unary main_v54 main_v55 (broadcastInDim S100000x36 ![0, 1] bcast_S1x36_S100000x36_0_1 : (⟨S1x36, .f32⟩ : BufTy).Contents (Elt F) → (⟨S100000x36, .f32⟩ : BufTy).Contents (Elt F)),
    StableHlo.binary main_v50 main_v55 main_v56 (mulf : (⟨S100000x36, .f32⟩ : BufTy).Contents (Elt F) → (⟨S100000x36, .f32⟩ : BufTy).Contents (Elt F) → (⟨S100000x36, .f32⟩ : BufTy).Contents (Elt F)),
    StableHlo.unary main_v40 main_v57 (broadcastInDim S1x36 ![1] bcast_S36_S1x36_1 : (⟨S36, .f32⟩ : BufTy).Contents (Elt F) → (⟨S1x36, .f32⟩ : BufTy).Contents (Elt F)),
    StableHlo.unary main_v57 main_v58 (broadcastInDim S100000x36 ![0, 1] bcast_S1x36_S100000x36_0_1 : (⟨S1x36, .f32⟩ : BufTy).Contents (Elt F) → (⟨S100000x36, .f32⟩ : BufTy).Contents (Elt F)),
    StableHlo.binary main_v56 main_v58 main_v59 (addf : (⟨S100000x36, .f32⟩ : BufTy).Contents (Elt F) → (⟨S100000x36, .f32⟩ : BufTy).Contents (Elt F) → (⟨S100000x36, .f32⟩ : BufTy).Contents (Elt F)),
    StableHlo.unary main_arg7 main_v60 ((extractStridedSlice S1x36x36 ![0, 0, 0] · slices_S2x36x36_S1x36x36_0_0_0) : (⟨S2x36x36, .f32⟩ : BufTy).Contents (Elt F) → (⟨S1x36x36, .f32⟩ : BufTy).Contents (Elt F)),
    StableHlo.reshape main_v60 main_v61 rfl shapeCasts_S1x36x36_S36x36,
    StableHlo.unary main_arg8 main_v62 ((extractStridedSlice S1x36 ![0, 0] · slices_S2x36_S1x36_0_0) : (⟨S2x36, .f32⟩ : BufTy).Contents (Elt F) → (⟨S1x36, .f32⟩ : BufTy).Contents (Elt F)),
    StableHlo.reshape main_v62 main_v63 rfl shapeCasts_S1x36_S36,
    StableHlo.unary main_arg9 main_v64 ((extractStridedSlice S1x36x36 ![0, 0, 0] · slices_S2x36x36_S1x36x36_0_0_0) : (⟨S2x36x36, .f32⟩ : BufTy).Contents (Elt F) → (⟨S1x36x36, .f32⟩ : BufTy).Contents (Elt F)),
    StableHlo.reshape main_v64 main_v65 rfl shapeCasts_S1x36x36_S36x36,
    StableHlo.unary main_arg10 main_v66 ((extractStridedSlice S1x36 ![0, 0] · slices_S2x36_S1x36_0_0) : (⟨S2x36, .f32⟩ : BufTy).Contents (Elt F) → (⟨S1x36, .f32⟩ : BufTy).Contents (Elt F)),
    StableHlo.reshape main_v66 main_v67 rfl shapeCasts_S1x36_S36,
    StableHlo.nullary main_c_5 (constantI S_ 32 0#32),
    StableHlo.unary main_c_5 main_v68 (broadcastInDim S1600000 ![] bcast_S_S1600000 : (⟨S_, .i32⟩ : BufTy).Contents (Elt F) → (⟨S1600000, .i32⟩ : BufTy).Contents (Elt F)),
    StableHlo.binary main_v1 main_v68 main_v69 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v70 (broadcastInDim S1600000 ![] bcast_S_S1600000 : (⟨S_, .i32⟩ : BufTy).Contents (Elt F) → (⟨S1600000, .i32⟩ : BufTy).Contents (Elt F)),
    StableHlo.binary main_v1 main_v70 main_v71 (addi : (⟨S1600000, .i32⟩ : BufTy).Contents (Elt F) → (⟨S1600000, .i32⟩ : BufTy).Contents (Elt F) → (⟨S1600000, .i32⟩ : BufTy).Contents (Elt F)),
    StableHlo.ternary main_v69 main_v71 main_v1 main_v72 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v72 main_v73 (broadcastInDim S1600000x1 ![0] bcast_S1600000_S1600000x1_0 : (⟨S1600000, .i32⟩ : BufTy).Contents (Elt F) → (⟨S1600000x1, .i32⟩ : BufTy).Contents (Elt F)),
    StableHlo.binary main_v59 main_v73 main_v74 ((fun x i => Host.gather gather_S100000x36_S1600000x1_S1600000x36_1_0_n_n_0_1_136 x i) : (⟨S100000x36, .f32⟩ : BufTy).Contents (Elt F) → (⟨S1600000x1, .i32⟩ : BufTy).Contents (Elt F) → (⟨S1600000x36, .f32⟩ : BufTy).Contents (Elt F)),
    StableHlo.nullary main_cst_7 (constant S_ .f32 0x00000000#32),
    StableHlo.unary main_cst_7 main_v75 (broadcastInDim S100000x36 ![] bcast_S_S100000x36 : (⟨S_, .f32⟩ : BufTy).Contents (Elt F) → (⟨S100000x36, .f32⟩ : BufTy).Contents (Elt F)),
    StableHlo.unary main_v3 main_v76 (broadcastInDim S1600000x1 ![0] bcast_S1600000_S1600000x1_0 : (⟨S1600000, .i32⟩ : BufTy).Contents (Elt F) → (⟨S1600000x1, .i32⟩ : BufTy).Contents (Elt F)),
    StableHlo.ternary main_v75 main_v76 main_v74 main_v77 ((fun x i u => Host.scatterAdd scatter_S100000x36_S1600000x1_S1600000x36_1_0_0_1 x i u) : (⟨S100000x36, .f32⟩ : BufTy).Contents (Elt F) → (⟨S1600000x1, .i32⟩ : BufTy).Contents (Elt F) → (⟨S1600000x36, .f32⟩ : BufTy).Contents (Elt F) → (⟨S100000x36, .f32⟩ : BufTy).Contents (Elt F)),
    StableHlo.binary main_v59 main_v77 main_v78 (addf : (⟨S100000x36, .f32⟩ : BufTy).Contents (Elt F) → (⟨S100000x36, .f32⟩ : BufTy).Contents (Elt F) → (⟨S100000x36, .f32⟩ : BufTy).Contents (Elt F)) ]

/-- Each is a builder's and writes a reference of index at least 67. -/
theorem sgood2 : ∀ op ∈ (seg2 : List (HloOp τ sig (Elt F))), Good 67 op :=
  List.forall_iff_forall_mem.mp
    ⟨good_unary (by decide), good_reshape (by decide), good_unary (by decide), good_reshape (by decide),
     good_nullary (by decide), good_binary (by decide), good_nullary (by decide), good_unary (by decide),
     good_binary (by decide), good_nullary (by decide), good_nullary (by decide), good_binary (by decide),
     good_unary (by decide), good_nullary (by decide), good_unary (by decide), good_binary (by decide),
     good_unary (by decide), good_binary (by decide), good_binary (by decide), good_unary (by decide),
     good_nullary (by decide), good_binary (by decide), good_nullary (by decide), good_binary (by decide),
     good_unary (by decide), good_binary (by decide), good_nullary (by decide), good_binary (by decide),
     good_nullary (by decide), good_unary (by decide), good_unary (by decide), good_ternary (by decide),
     good_unary (by decide), good_unary (by decide), good_binary (by decide), good_unary (by decide),
     good_unary (by decide), good_binary (by decide), good_nullary (by decide), good_unary (by decide),
     good_binary (by decide), good_unary (by decide), good_unary (by decide), good_unary (by decide),
     good_binary (by decide), good_unary (by decide), good_unary (by decide), good_binary (by decide),
     good_unary (by decide), good_reshape (by decide), good_unary (by decide), good_reshape (by decide),
     good_unary (by decide), good_reshape (by decide), good_unary (by decide), good_reshape (by decide),
     good_nullary (by decide), good_unary (by decide), good_binary (by decide), good_nullary (by decide),
     good_unary (by decide), good_binary (by decide), good_ternary (by decide), good_unary (by decide),
     good_binary (by decide), good_nullary (by decide), good_unary (by decide), good_unary (by decide),
     good_ternary (by decide), good_binary (by decide)⟩

/-- A reference of index below 67 is read unchanged through the segment. -/
theorem keep2 (b : Ref sig .tc) (hb : b.idx.val < 67) (W : Valuation τ sig (Elt F)) :
    after seg2 W (Proc.devRef .tc b) = W (Proc.devRef .tc b) := after_keeps sgood2 W hb

/-- Statements 89 … 100 of @main: 16 operations, in order. -/
abbrev seg3 : List (HloOp τ sig (Elt F)) :=
  [ StableHlo.unary main_v61 main_v79 ((transpose S36x36 [1, 0] · transposes_S36x36_S36x36_1_0) : (⟨S36x36, .f32⟩ : BufTy).Contents (Elt F) → (⟨S36x36, .f32⟩ : BufTy).Contents (Elt F)),
    StableHlo.binary main_v78 main_v79 main_v80 ((fun l r => Host.dotGeneral dot_S100000x36_S36x36_S100000x36_1_0_0_1_n_n none l r) : (⟨S100000x36, .f32⟩ : BufTy).Contents (Elt F) → (⟨S36x36, .f32⟩ : BufTy).Contents (Elt F) → (⟨S100000x36, .f32⟩ : BufTy).Contents (Elt F)),
    StableHlo.unary main_v63 main_v81 (broadcastInDim S1x36 ![1] bcast_S36_S1x36_1 : (⟨S36, .f32⟩ : BufTy).Contents (Elt F) → (⟨S1x36, .f32⟩ : BufTy).Contents (Elt F)),
    StableHlo.unary main_v81 main_v82 (broadcastInDim S100000x36 ![0, 1] bcast_S1x36_S100000x36_0_1 : (⟨S1x36, .f32⟩ : BufTy).Contents (Elt F) → (⟨S100000x36, .f32⟩ : BufTy).Contents (Elt F)),
    StableHlo.binary main_v80 main_v82 main_v83 (addf : (⟨S100000x36, .f32⟩ : BufTy).Contents (Elt F) → (⟨S100000x36, .f32⟩ : BufTy).Contents (Elt F) → (⟨S100000x36, .f32⟩ : BufTy).Contents (Elt F)),
    StableHlo.TRef.nullary main_call3.cst (constant S_ .f32 0x00000000#32),
    StableHlo.TRef.unary main_call3.cst main_call3.v0 (broadcastInDim S100000x36 ![] bcast_S_S100000x36),
    StableHlo.TRef.binary (.of main_v83) main_call3.v0 main_call3.v1 maximumf,
    StableHlo.unary main_v65 main_v85 ((transpose S36x36 [1, 0] · transposes_S36x36_S36x36_1_0) : (⟨S36x36, .f32⟩ : BufTy).Contents (Elt F) → (⟨S36x36, .f32⟩ : BufTy).Contents (Elt F)),
    StableHlo.binary main_v84 main_v85 main_v86 ((fun l r => Host.dotGeneral dot_S100000x36_S36x36_S100000x36_1_0_0_1_n_n none l r) : (⟨S100000x36, .f32⟩ : BufTy).Contents (Elt F) → (⟨S36x36, .f32⟩ : BufTy).Contents (Elt F) → (⟨S100000x36, .f32⟩ : BufTy).Contents (Elt F)),
    StableHlo.unary main_v67 main_v87 (broadcastInDim S1x36 ![1] bcast_S36_S1x36_1 : (⟨S36, .f32⟩ : BufTy).Contents (Elt F) → (⟨S1x36, .f32⟩ : BufTy).Contents (Elt F)),
    StableHlo.unary main_v87 main_v88 (broadcastInDim S100000x36 ![0, 1] bcast_S1x36_S100000x36_0_1 : (⟨S1x36, .f32⟩ : BufTy).Contents (Elt F) → (⟨S100000x36, .f32⟩ : BufTy).Contents (Elt F)),
    StableHlo.binary main_v86 main_v88 main_v89 (addf : (⟨S100000x36, .f32⟩ : BufTy).Contents (Elt F) → (⟨S100000x36, .f32⟩ : BufTy).Contents (Elt F) → (⟨S100000x36, .f32⟩ : BufTy).Contents (Elt F)),
    StableHlo.TRef.nullary main_call4.cst (constant S_ .f32 0x00000000#32),
    StableHlo.TRef.unary main_call4.cst main_call4.v0 (broadcastInDim S100000x36 ![] bcast_S_S100000x36),
    StableHlo.TRef.binary (.of main_v89) main_call4.v0 main_call4.v1 maximumf ]

/-- Each is a builder's and writes a reference of index at least 137. -/
theorem sgood3 : ∀ op ∈ (seg3 : List (HloOp τ sig (Elt F))), Good 137 op :=
  List.forall_iff_forall_mem.mp
    ⟨good_unary (by decide), good_binary (by decide), good_unary (by decide), good_unary (by decide),
     good_binary (by decide), good_nullary (by decide), good_unary (by decide), good_binary (by decide),
     good_unary (by decide), good_binary (by decide), good_unary (by decide), good_unary (by decide),
     good_binary (by decide), good_nullary (by decide), good_unary (by decide), good_binary (by decide)⟩

/-- A reference of index below 137 is read unchanged through the segment. -/
theorem keep3 (b : Ref sig .tc) (hb : b.idx.val < 137) (W : Valuation τ sig (Elt F)) :
    after seg3 W (Proc.devRef .tc b) = W (Proc.devRef .tc b) := after_keeps sgood3 W hb

/-- Statements 101 … 149 of @main: 70 operations, in order. -/
abbrev seg4 : List (HloOp τ sig (Elt F)) :=
  [ StableHlo.unary main_arg15 main_v91 ((extractStridedSlice S1x1x36 ![0, 1, 0] · slices_S2x3x36_S1x1x36_0_1_0) : (⟨S2x3x36, .f32⟩ : BufTy).Contents (Elt F) → (⟨S1x1x36, .f32⟩ : BufTy).Contents (Elt F)),
    StableHlo.reshape main_v91 main_v92 rfl shapeCasts_S1x1x36_S36,
    StableHlo.unary main_arg16 main_v93 ((extractStridedSlice S1x1x36 ![0, 1, 0] · slices_S2x3x36_S1x1x36_0_1_0) : (⟨S2x3x36, .f32⟩ : BufTy).Contents (Elt F) → (⟨S1x1x36, .f32⟩ : BufTy).Contents (Elt F)),
    StableHlo.reshape main_v93 main_v94 rfl shapeCasts_S1x1x36_S36,
    StableHlo.nullary main_cst_8 (constant S_ .f32 0x00000000#32),
    StableHlo.binary main_v90 main_cst_8 main_v95 ((fun x v => Host.reduceAdd x v reducesTo_S100000x36_S36_d0 h_S_) : (⟨S100000x36, .f32⟩ : BufTy).Contents (Elt F) → (⟨S_, .f32⟩ : BufTy).Contents (Elt F) → (⟨S36, .f32⟩ : BufTy).Contents (Elt F)),
    StableHlo.nullary main_cst_9 (constant S_ .f32 0x47C35000#32),
    StableHlo.unary main_cst_9 main_v96 (broadcastInDim S36 ![] bcast_S_S36 : (⟨S_, .f32⟩ : BufTy).Contents (Elt F) → (⟨S36, .f32⟩ : BufTy).Contents (Elt F)),
    StableHlo.binary main_v95 main_v96 main_v97 (Host.divf : (⟨S36, .f32⟩ : BufTy).Contents (Elt F) → (⟨S36, .f32⟩ : BufTy).Contents (Elt F) → (⟨S36, .f32⟩ : BufTy).Contents (Elt F)),
    StableHlo.nullary main_c_10 (constantI S_ 32 0#32),
    StableHlo.TRef.nullary main_call5.cst (constant S_ .f32 0x00000000#32),
    StableHlo.TRef.binary (.of main_v90) main_call5.cst main_call5.v0 (fun x v => Host.reduceAdd x v reducesTo_S100000x36_S36_d0 h_S_),
    StableHlo.TRef.unary main_call5.v0 main_call5.v1 (broadcastInDim S1x36 ![1] bcast_S36_S1x36_1),
    StableHlo.TRef.nullary main_call5.cst_0 (constant S_ .f32 0x47C35000#32),
    StableHlo.TRef.unary main_call5.cst_0 main_call5.v2 (broadcastInDim S1x36 ![] bcast_S_S1x36),
    StableHlo.TRef.binary main_call5.v1 main_call5.v2 main_call5.v3 Host.divf,
    StableHlo.TRef.unary main_call5.v3 main_call5.v4 (broadcastInDim S100000x36 ![0, 1] bcast_S1x36_S100000x36_0_1),
    StableHlo.TRef.binary (.of main_v90) main_call5.v4 main_call5.v5 subf,
    StableHlo.TRef.binary main_call5.v5 main_call5.v5 main_call5.v6 mulf,
    StableHlo.TRef.unary (.of main_c_10) main_call5.v7 (sitofp .f32),
    StableHlo.TRef.nullary main_call5.cst_1 (constant S_ .f32 0x47C35000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x36_S36_d0 h_S_),
    StableHlo.TRef.unary main_call5.v8 main_call5.v10 (broadcastInDim S36 ![] bcast_S_S36),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S36 ![] bcast_S_S36),
    StableHlo.TRef.ternary main_call5.v12 main_call5.v11 main_call5.call0.v1 main_call5.call0.v2 (fun p a b => select (broadcastInDim S36 ![] bcast_S_S36 p) a b),
    StableHlo.unary main_v97 main_v99 (broadcastInDim S1x36 ![1] bcast_S36_S1x36_1 : (⟨S36, .f32⟩ : BufTy).Contents (Elt F) → (⟨S1x36, .f32⟩ : BufTy).Contents (Elt F)),
    StableHlo.unary main_v99 main_v100 (broadcastInDim S100000x36 ![0, 1] bcast_S1x36_S100000x36_0_1 : (⟨S1x36, .f32⟩ : BufTy).Contents (Elt F) → (⟨S100000x36, .f32⟩ : BufTy).Contents (Elt F)),
    StableHlo.binary main_v90 main_v100 main_v101 (subf : (⟨S100000x36, .f32⟩ : BufTy).Contents (Elt F) → (⟨S100000x36, .f32⟩ : BufTy).Contents (Elt F) → (⟨S100000x36, .f32⟩ : BufTy).Contents (Elt F)),
    StableHlo.unary main_v92 main_v102 (broadcastInDim S1x36 ![1] bcast_S36_S1x36_1 : (⟨S36, .f32⟩ : BufTy).Contents (Elt F) → (⟨S1x36, .f32⟩ : BufTy).Contents (Elt F)),
    StableHlo.unary main_v102 main_v103 (broadcastInDim S100000x36 ![0, 1] bcast_S1x36_S100000x36_0_1 : (⟨S1x36, .f32⟩ : BufTy).Contents (Elt F) → (⟨S100000x36, .f32⟩ : BufTy).Contents (Elt F)),
    StableHlo.binary main_v103 main_v101 main_v104 (mulf : (⟨S100000x36, .f32⟩ : BufTy).Contents (Elt F) → (⟨S100000x36, .f32⟩ : BufTy).Contents (Elt F) → (⟨S100000x36, .f32⟩ : BufTy).Contents (Elt F)),
    StableHlo.nullary main_cst_11 (constant S_ .f32 0x3727C5AC#32),
    StableHlo.unary main_cst_11 main_v105 (broadcastInDim S36 ![] bcast_S_S36 : (⟨S_, .f32⟩ : BufTy).Contents (Elt F) → (⟨S36, .f32⟩ : BufTy).Contents (Elt F)),
    StableHlo.binary main_v98 main_v105 main_v106 (addf : (⟨S36, .f32⟩ : BufTy).Contents (Elt F) → (⟨S36, .f32⟩ : BufTy).Contents (Elt F) → (⟨S36, .f32⟩ : BufTy).Contents (Elt F)),
    StableHlo.unary main_v106 main_v107 (Host.rsqrt : (⟨S36, .f32⟩ : BufTy).Contents (Elt F) → (⟨S36, .f32⟩ : BufTy).Contents (Elt F)),
    StableHlo.unary main_v107 main_v108 (broadcastInDim S1x36 ![1] bcast_S36_S1x36_1 : (⟨S36, .f32⟩ : BufTy).Contents (Elt F) → (⟨S1x36, .f32⟩ : BufTy).Contents (Elt F)),
    StableHlo.unary main_v108 main_v109 (broadcastInDim S100000x36 ![0, 1] bcast_S1x36_S100000x36_0_1 : (⟨S1x36, .f32⟩ : BufTy).Contents (Elt F) → (⟨S100000x36, .f32⟩ : BufTy).Contents (Elt F)),
    StableHlo.binary main_v104 main_v109 main_v110 (mulf : (⟨S100000x36, .f32⟩ : BufTy).Contents (Elt F) → (⟨S100000x36, .f32⟩ : BufTy).Contents (Elt F) → (⟨S100000x36, .f32⟩ : BufTy).Contents (Elt F)),
    StableHlo.unary main_v94 main_v111 (broadcastInDim S1x36 ![1] bcast_S36_S1x36_1 : (⟨S36, .f32⟩ : BufTy).Contents (Elt F) → (⟨S1x36, .f32⟩ : BufTy).Contents (Elt F)),
    StableHlo.unary main_v111 main_v112 (broadcastInDim S100000x36 ![0, 1] bcast_S1x36_S100000x36_0_1 : (⟨S1x36, .f32⟩ : BufTy).Contents (Elt F) → (⟨S100000x36, .f32⟩ : BufTy).Contents (Elt F)),
    StableHlo.binary main_v110 main_v112 main_v113 (addf : (⟨S100000x36, .f32⟩ : BufTy).Contents (Elt F) → (⟨S100000x36, .f32⟩ : BufTy).Contents (Elt F) → (⟨S100000x36, .f32⟩ : BufTy).Contents (Elt F)),
    StableHlo.unary main_arg11 main_v114 ((extractStridedSlice S1x36x36 ![0, 0, 0] · slices_S2x36x36_S1x36x36_0_0_0) : (⟨S2x36x36, .f32⟩ : BufTy).Contents (Elt F) → (⟨S1x36x36, .f32⟩ : BufTy).Contents (Elt F)),
    StableHlo.reshape main_v114 main_v115 rfl shapeCasts_S1x36x36_S36x36,
    StableHlo.unary main_arg12 main_v116 ((extractStridedSlice S1x36 ![0, 0] · slices_S2x36_S1x36_0_0) : (⟨S2x36, .f32⟩ : BufTy).Contents (Elt F) → (⟨S1x36, .f32⟩ : BufTy).Contents (Elt F)),
    StableHlo.reshape main_v116 main_v117 rfl shapeCasts_S1x36_S36,
    StableHlo.unary main_arg13 main_v118 ((extractStridedSlice S1x36x36 ![0, 0, 0] · slices_S2x36x36_S1x36x36_0_0_0) : (⟨S2x36x36, .f32⟩ : BufTy).Contents (Elt F) → (⟨S1x36x36, .f32⟩ : BufTy).Contents (Elt F)),
    StableHlo.reshape main_v118 main_v119 rfl shapeCasts_S1x36x36_S36x36,
    StableHlo.unary main_arg14 main_v120 ((extractStridedSlice S1x36 ![0, 0] · slices_S2x36_S1x36_0_0) : (⟨S2x36, .f32⟩ : BufTy).Contents (Elt F) → (⟨S1x36, .f32⟩ : BufTy).Contents (Elt F)),
    StableHlo.reshape main_v120 main_v121 rfl shapeCasts_S1x36_S36,
    StableHlo.nullary main_c_12 (constantI S_ 32 0#32),
    StableHlo.unary main_c_12 main_v122 (broadcastInDim S1600000 ![] bcast_S_S1600000 : (⟨S_, .i32⟩ : BufTy).Contents (Elt F) → (⟨S1600000, .i32⟩ : BufTy).Contents (Elt F)),
    StableHlo.binary main_v1 main_v122 main_v123 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v124 (broadcastInDim S1600000 ![] bcast_S_S1600000 : (⟨S_, .i32⟩ : BufTy).Contents (Elt F) → (⟨S1600000, .i32⟩ : BufTy).Contents (Elt F)),
    StableHlo.binary main_v1 main_v124 main_v125 (addi : (⟨S1600000, .i32⟩ : BufTy).Contents (Elt F) → (⟨S1600000, .i32⟩ : BufTy).Contents (Elt F) → (⟨S1600000, .i32⟩ : BufTy).Contents (Elt F)),
    StableHlo.ternary main_v123 main_v125 main_v1 main_v126 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v126 main_v127 (broadcastInDim S1600000x1 ![0] bcast_S1600000_S1600000x1_0 : (⟨S1600000, .i32⟩ : BufTy).Contents (Elt F) → (⟨S1600000x1, .i32⟩ : BufTy).Contents (Elt F)),
    StableHlo.binary main_v113 main_v127 main_v128 ((fun x i => Host.gather gather_S100000x36_S1600000x1_S1600000x36_1_0_n_n_0_1_136 x i) : (⟨S100000x36, .f32⟩ : BufTy).Contents (Elt F) → (⟨S1600000x1, .i32⟩ : BufTy).Contents (Elt F) → (⟨S1600000x36, .f32⟩ : BufTy).Contents (Elt F)),
    StableHlo.nullary main_cst_14 (constant S_ .f32 0x00000000#32),
    StableHlo.unary main_cst_14 main_v129 (broadcastInDim S100000x36 ![] bcast_S_S100000x36 : (⟨S_, .f32⟩ : BufTy).Contents (Elt F) → (⟨S100000x36, .f32⟩ : BufTy).Contents (Elt F)),
    StableHlo.unary main_v3 main_v130 (broadcastInDim S1600000x1 ![0] bcast_S1600000_S1600000x1_0 : (⟨S1600000, .i32⟩ : BufTy).Contents (Elt F) → (⟨S1600000x1, .i32⟩ : BufTy).Contents (Elt F)),
    StableHlo.ternary main_v129 main_v130 main_v128 main_v131 ((fun x i u => Host.scatterAdd scatter_S100000x36_S1600000x1_S1600000x36_1_0_0_1 x i u) : (⟨S100000x36, .f32⟩ : BufTy).Contents (Elt F) → (⟨S1600000x1, .i32⟩ : BufTy).Contents (Elt F) → (⟨S1600000x36, .f32⟩ : BufTy).Contents (Elt F) → (⟨S100000x36, .f32⟩ : BufTy).Contents (Elt F)),
    StableHlo.binary main_v113 main_v131 main_v132 (addf : (⟨S100000x36, .f32⟩ : BufTy).Contents (Elt F) → (⟨S100000x36, .f32⟩ : BufTy).Contents (Elt F) → (⟨S100000x36, .f32⟩ : BufTy).Contents (Elt F)) ]

/-- Each is a builder's and writes a reference of index at least 153. -/
theorem sgood4 : ∀ op ∈ (seg4 : List (HloOp τ sig (Elt F))), Good 153 op :=
  List.forall_iff_forall_mem.mp
    ⟨good_unary (by decide), good_reshape (by decide), good_unary (by decide), good_reshape (by decide),
     good_nullary (by decide), good_binary (by decide), good_nullary (by decide), good_unary (by decide),
     good_binary (by decide), good_nullary (by decide), good_nullary (by decide), good_binary (by decide),
     good_unary (by decide), good_nullary (by decide), good_unary (by decide), good_binary (by decide),
     good_unary (by decide), good_binary (by decide), good_binary (by decide), good_unary (by decide),
     good_nullary (by decide), good_binary (by decide), good_nullary (by decide), good_binary (by decide),
     good_unary (by decide), good_binary (by decide), good_nullary (by decide), good_binary (by decide),
     good_nullary (by decide), good_unary (by decide), good_unary (by decide), good_ternary (by decide),
     good_unary (by decide), good_unary (by decide), good_binary (by decide), good_unary (by decide),
     good_unary (by decide), good_binary (by decide), good_nullary (by decide), good_unary (by decide),
     good_binary (by decide), good_unary (by decide), good_unary (by decide), good_unary (by decide),
     good_binary (by decide), good_unary (by decide), good_unary (by decide), good_binary (by decide),
     good_unary (by decide), good_reshape (by decide), good_unary (by decide), good_reshape (by decide),
     good_unary (by decide), good_reshape (by decide), good_unary (by decide), good_reshape (by decide),
     good_nullary (by decide), good_unary (by decide), good_binary (by decide), good_nullary (by decide),
     good_unary (by decide), good_binary (by decide), good_ternary (by decide), good_unary (by decide),
     good_binary (by decide), good_nullary (by decide), good_unary (by decide), good_unary (by decide),
     good_ternary (by decide), good_binary (by decide)⟩

/-- A reference of index below 153 is read unchanged through the segment. -/
theorem keep4 (b : Ref sig .tc) (hb : b.idx.val < 153) (W : Valuation τ sig (Elt F)) :
    after seg4 W (Proc.devRef .tc b) = W (Proc.devRef .tc b) := after_keeps sgood4 W hb

/-- Statements 150 … 161 of @main: 16 operations, in order. -/
abbrev seg5 : List (HloOp τ sig (Elt F)) :=
  [ StableHlo.unary main_v115 main_v133 ((transpose S36x36 [1, 0] · transposes_S36x36_S36x36_1_0) : (⟨S36x36, .f32⟩ : BufTy).Contents (Elt F) → (⟨S36x36, .f32⟩ : BufTy).Contents (Elt F)),
    StableHlo.binary main_v132 main_v133 main_v134 ((fun l r => Host.dotGeneral dot_S100000x36_S36x36_S100000x36_1_0_0_1_n_n none l r) : (⟨S100000x36, .f32⟩ : BufTy).Contents (Elt F) → (⟨S36x36, .f32⟩ : BufTy).Contents (Elt F) → (⟨S100000x36, .f32⟩ : BufTy).Contents (Elt F)),
    StableHlo.unary main_v117 main_v135 (broadcastInDim S1x36 ![1] bcast_S36_S1x36_1 : (⟨S36, .f32⟩ : BufTy).Contents (Elt F) → (⟨S1x36, .f32⟩ : BufTy).Contents (Elt F)),
    StableHlo.unary main_v135 main_v136 (broadcastInDim S100000x36 ![0, 1] bcast_S1x36_S100000x36_0_1 : (⟨S1x36, .f32⟩ : BufTy).Contents (Elt F) → (⟨S100000x36, .f32⟩ : BufTy).Contents (Elt F)),
    StableHlo.binary main_v134 main_v136 main_v137 (addf : (⟨S100000x36, .f32⟩ : BufTy).Contents (Elt F) → (⟨S100000x36, .f32⟩ : BufTy).Contents (Elt F) → (⟨S100000x36, .f32⟩ : BufTy).Contents (Elt F)),
    StableHlo.TRef.nullary main_call6.cst (constant S_ .f32 0x00000000#32),
    StableHlo.TRef.unary main_call6.cst main_call6.v0 (broadcastInDim S100000x36 ![] bcast_S_S100000x36),
    StableHlo.TRef.binary (.of main_v137) main_call6.v0 main_call6.v1 maximumf,
    StableHlo.unary main_v119 main_v139 ((transpose S36x36 [1, 0] · transposes_S36x36_S36x36_1_0) : (⟨S36x36, .f32⟩ : BufTy).Contents (Elt F) → (⟨S36x36, .f32⟩ : BufTy).Contents (Elt F)),
    StableHlo.binary main_v138 main_v139 main_v140 ((fun l r => Host.dotGeneral dot_S100000x36_S36x36_S100000x36_1_0_0_1_n_n none l r) : (⟨S100000x36, .f32⟩ : BufTy).Contents (Elt F) → (⟨S36x36, .f32⟩ : BufTy).Contents (Elt F) → (⟨S100000x36, .f32⟩ : BufTy).Contents (Elt F)),
    StableHlo.unary main_v121 main_v141 (broadcastInDim S1x36 ![1] bcast_S36_S1x36_1 : (⟨S36, .f32⟩ : BufTy).Contents (Elt F) → (⟨S1x36, .f32⟩ : BufTy).Contents (Elt F)),
    StableHlo.unary main_v141 main_v142 (broadcastInDim S100000x36 ![0, 1] bcast_S1x36_S100000x36_0_1 : (⟨S1x36, .f32⟩ : BufTy).Contents (Elt F) → (⟨S100000x36, .f32⟩ : BufTy).Contents (Elt F)),
    StableHlo.binary main_v140 main_v142 main_v143 (addf : (⟨S100000x36, .f32⟩ : BufTy).Contents (Elt F) → (⟨S100000x36, .f32⟩ : BufTy).Contents (Elt F) → (⟨S100000x36, .f32⟩ : BufTy).Contents (Elt F)),
    StableHlo.TRef.nullary main_call7.cst (constant S_ .f32 0x00000000#32),
    StableHlo.TRef.unary main_call7.cst main_call7.v0 (broadcastInDim S100000x36 ![] bcast_S_S100000x36),
    StableHlo.TRef.binary (.of main_v143) main_call7.v0 main_call7.v1 maximumf ]

/-- Each is a builder's and writes a reference of index at least 223. -/
theorem sgood5 : ∀ op ∈ (seg5 : List (HloOp τ sig (Elt F))), Good 223 op :=
  List.forall_iff_forall_mem.mp
    ⟨good_unary (by decide), good_binary (by decide), good_unary (by decide), good_unary (by decide),
     good_binary (by decide), good_nullary (by decide), good_unary (by decide), good_binary (by decide),
     good_unary (by decide), good_binary (by decide), good_unary (by decide), good_unary (by decide),
     good_binary (by decide), good_nullary (by decide), good_unary (by decide), good_binary (by decide)⟩

/-- A reference of index below 223 is read unchanged through the segment. -/
theorem keep5 (b : Ref sig .tc) (hb : b.idx.val < 223) (W : Valuation τ sig (Elt F)) :
    after seg5 W (Proc.devRef .tc b) = W (Proc.devRef .tc b) := after_keeps sgood5 W hb

/-- Statements 162 … 194 of @main: 54 operations, in order. -/
abbrev seg6 : List (HloOp τ sig (Elt F)) :=
  [ StableHlo.unary main_arg15 main_v145 ((extractStridedSlice S1x1x36 ![0, 2, 0] · slices_S2x3x36_S1x1x36_0_2_0) : (⟨S2x3x36, .f32⟩ : BufTy).Contents (Elt F) → (⟨S1x1x36, .f32⟩ : BufTy).Contents (Elt F)),
    StableHlo.reshape main_v145 main_v146 rfl shapeCasts_S1x1x36_S36,
    StableHlo.unary main_arg16 main_v147 ((extractStridedSlice S1x1x36 ![0, 2, 0] · slices_S2x3x36_S1x1x36_0_2_0) : (⟨S2x3x36, .f32⟩ : BufTy).Contents (Elt F) → (⟨S1x1x36, .f32⟩ : BufTy).Contents (Elt F)),
    StableHlo.reshape main_v147 main_v148 rfl shapeCasts_S1x1x36_S36,
    StableHlo.nullary main_cst_15 (constant S_ .f32 0x00000000#32),
    StableHlo.binary main_v144 main_cst_15 main_v149 ((fun x v => Host.reduceAdd x v reducesTo_S100000x36_S36_d0 h_S_) : (⟨S100000x36, .f32⟩ : BufTy).Contents (Elt F) → (⟨S_, .f32⟩ : BufTy).Contents (Elt F) → (⟨S36, .f32⟩ : BufTy).Contents (Elt F)),
    StableHlo.nullary main_cst_16 (constant S_ .f32 0x47C35000#32),
    StableHlo.unary main_cst_16 main_v150 (broadcastInDim S36 ![] bcast_S_S36 : (⟨S_, .f32⟩ : BufTy).Contents (Elt F) → (⟨S36, .f32⟩ : BufTy).Contents (Elt F)),
    StableHlo.binary main_v149 main_v150 main_v151 (Host.divf : (⟨S36, .f32⟩ : BufTy).Contents (Elt F) → (⟨S36, .f32⟩ : BufTy).Contents (Elt F) → (⟨S36, .f32⟩ : BufTy).Contents (Elt F)),
    StableHlo.nullary main_c_17 (constantI S_ 32 0#32),
    StableHlo.TRef.nullary main_call8.cst (constant S_ .f32 0x00000000#32),
    StableHlo.TRef.binary (.of main_v144) main_call8.cst main_call8.v0 (fun x v => Host.reduceAdd x v reducesTo_S100000x36_S36_d0 h_S_),
    StableHlo.TRef.unary main_call8.v0 main_call8.v1 (broadcastInDim S1x36 ![1] bcast_S36_S1x36_1),
    StableHlo.TRef.nullary main_call8.cst_0 (constant S_ .f32 0x47C35000#32),
    StableHlo.TRef.unary main_call8.cst_0 main_call8.v2 (broadcastInDim S1x36 ![] bcast_S_S1x36),
    StableHlo.TRef.binary main_call8.v1 main_call8.v2 main_call8.v3 Host.divf,
    StableHlo.TRef.unary main_call8.v3 main_call8.v4 (broadcastInDim S100000x36 ![0, 1] bcast_S1x36_S100000x36_0_1),
    StableHlo.TRef.binary (.of main_v144) main_call8.v4 main_call8.v5 subf,
    StableHlo.TRef.binary main_call8.v5 main_call8.v5 main_call8.v6 mulf,
    StableHlo.TRef.unary (.of main_c_17) main_call8.v7 (sitofp .f32),
    StableHlo.TRef.nullary main_call8.cst_1 (constant S_ .f32 0x47C35000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S100000x36_S36_d0 h_S_),
    StableHlo.TRef.unary main_call8.v8 main_call8.v10 (broadcastInDim S36 ![] bcast_S_S36),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S36 ![] bcast_S_S36),
    StableHlo.TRef.ternary main_call8.v12 main_call8.v11 main_call8.call0.v1 main_call8.call0.v2 (fun p a b => select (broadcastInDim S36 ![] bcast_S_S36 p) a b),
    StableHlo.unary main_v151 main_v153 (broadcastInDim S1x36 ![1] bcast_S36_S1x36_1 : (⟨S36, .f32⟩ : BufTy).Contents (Elt F) → (⟨S1x36, .f32⟩ : BufTy).Contents (Elt F)),
    StableHlo.unary main_v153 main_v154 (broadcastInDim S100000x36 ![0, 1] bcast_S1x36_S100000x36_0_1 : (⟨S1x36, .f32⟩ : BufTy).Contents (Elt F) → (⟨S100000x36, .f32⟩ : BufTy).Contents (Elt F)),
    StableHlo.binary main_v144 main_v154 main_v155 (subf : (⟨S100000x36, .f32⟩ : BufTy).Contents (Elt F) → (⟨S100000x36, .f32⟩ : BufTy).Contents (Elt F) → (⟨S100000x36, .f32⟩ : BufTy).Contents (Elt F)),
    StableHlo.unary main_v146 main_v156 (broadcastInDim S1x36 ![1] bcast_S36_S1x36_1 : (⟨S36, .f32⟩ : BufTy).Contents (Elt F) → (⟨S1x36, .f32⟩ : BufTy).Contents (Elt F)),
    StableHlo.unary main_v156 main_v157 (broadcastInDim S100000x36 ![0, 1] bcast_S1x36_S100000x36_0_1 : (⟨S1x36, .f32⟩ : BufTy).Contents (Elt F) → (⟨S100000x36, .f32⟩ : BufTy).Contents (Elt F)),
    StableHlo.binary main_v157 main_v155 main_v158 (mulf : (⟨S100000x36, .f32⟩ : BufTy).Contents (Elt F) → (⟨S100000x36, .f32⟩ : BufTy).Contents (Elt F) → (⟨S100000x36, .f32⟩ : BufTy).Contents (Elt F)),
    StableHlo.nullary main_cst_18 (constant S_ .f32 0x3727C5AC#32),
    StableHlo.unary main_cst_18 main_v159 (broadcastInDim S36 ![] bcast_S_S36 : (⟨S_, .f32⟩ : BufTy).Contents (Elt F) → (⟨S36, .f32⟩ : BufTy).Contents (Elt F)),
    StableHlo.binary main_v152 main_v159 main_v160 (addf : (⟨S36, .f32⟩ : BufTy).Contents (Elt F) → (⟨S36, .f32⟩ : BufTy).Contents (Elt F) → (⟨S36, .f32⟩ : BufTy).Contents (Elt F)),
    StableHlo.unary main_v160 main_v161 (Host.rsqrt : (⟨S36, .f32⟩ : BufTy).Contents (Elt F) → (⟨S36, .f32⟩ : BufTy).Contents (Elt F)),
    StableHlo.unary main_v161 main_v162 (broadcastInDim S1x36 ![1] bcast_S36_S1x36_1 : (⟨S36, .f32⟩ : BufTy).Contents (Elt F) → (⟨S1x36, .f32⟩ : BufTy).Contents (Elt F)),
    StableHlo.unary main_v162 main_v163 (broadcastInDim S100000x36 ![0, 1] bcast_S1x36_S100000x36_0_1 : (⟨S1x36, .f32⟩ : BufTy).Contents (Elt F) → (⟨S100000x36, .f32⟩ : BufTy).Contents (Elt F)),
    StableHlo.binary main_v158 main_v163 main_v164 (mulf : (⟨S100000x36, .f32⟩ : BufTy).Contents (Elt F) → (⟨S100000x36, .f32⟩ : BufTy).Contents (Elt F) → (⟨S100000x36, .f32⟩ : BufTy).Contents (Elt F)),
    StableHlo.unary main_v148 main_v165 (broadcastInDim S1x36 ![1] bcast_S36_S1x36_1 : (⟨S36, .f32⟩ : BufTy).Contents (Elt F) → (⟨S1x36, .f32⟩ : BufTy).Contents (Elt F)),
    StableHlo.unary main_v165 main_v166 (broadcastInDim S100000x36 ![0, 1] bcast_S1x36_S100000x36_0_1 : (⟨S1x36, .f32⟩ : BufTy).Contents (Elt F) → (⟨S100000x36, .f32⟩ : BufTy).Contents (Elt F)),
    StableHlo.binary main_v164 main_v166 main_v167 (addf : (⟨S100000x36, .f32⟩ : BufTy).Contents (Elt F) → (⟨S100000x36, .f32⟩ : BufTy).Contents (Elt F) → (⟨S100000x36, .f32⟩ : BufTy).Contents (Elt F)),
    StableHlo.unary main_arg2 main_v168 ((extractStridedSlice S1x100000 ![0, 0] · slices_S2x100000_S1x100000_0_0) : (⟨S2x100000, .i32⟩ : BufTy).Contents (Elt F) → (⟨S1x100000, .i32⟩ : BufTy).Contents (Elt F)),
    StableHlo.reshape main_v168 main_v169 rfl shapeCasts_S1x100000_S100000,
    StableHlo.nullary main_cst_19 (constant S_ .f32 0x00000000#32),
    StableHlo.unary main_cst_19 main_v170 (broadcastInDim S512x36 ![] bcast_S_S512x36 : (⟨S_, .f32⟩ : BufTy).Contents (Elt F) → (⟨S512x36, .f32⟩ : BufTy).Contents (Elt F)),
    StableHlo.unary main_v169 main_v171 (broadcastInDim S100000x1 ![0] bcast_S100000_S100000x1_0 : (⟨S100000, .i32⟩ : BufTy).Contents (Elt F) → (⟨S100000x1, .i32⟩ : BufTy).Contents (Elt F)),
    StableHlo.ternary main_v170 main_v171 main_v167 main_v172 ((fun x i u => Host.scatterAdd scatter_S512x36_S100000x1_S100000x36_1_0_0_1 x i u) : (⟨S512x36, .f32⟩ : BufTy).Contents (Elt F) → (⟨S100000x1, .i32⟩ : BufTy).Contents (Elt F) → (⟨S100000x36, .f32⟩ : BufTy).Contents (Elt F) → (⟨S512x36, .f32⟩ : BufTy).Contents (Elt F)) ]

/-- Each is a builder's and writes a reference of index at least 239. -/
theorem sgood6 : ∀ op ∈ (seg6 : List (HloOp τ sig (Elt F))), Good 239 op :=
  List.forall_iff_forall_mem.mp
    ⟨good_unary (by decide), good_reshape (by decide), good_unary (by decide), good_reshape (by decide),
     good_nullary (by decide), good_binary (by decide), good_nullary (by decide), good_unary (by decide),
     good_binary (by decide), good_nullary (by decide), good_nullary (by decide), good_binary (by decide),
     good_unary (by decide), good_nullary (by decide), good_unary (by decide), good_binary (by decide),
     good_unary (by decide), good_binary (by decide), good_binary (by decide), good_unary (by decide),
     good_nullary (by decide), good_binary (by decide), good_nullary (by decide), good_binary (by decide),
     good_unary (by decide), good_binary (by decide), good_nullary (by decide), good_binary (by decide),
     good_nullary (by decide), good_unary (by decide), good_unary (by decide), good_ternary (by decide),
     good_unary (by decide), good_unary (by decide), good_binary (by decide), good_unary (by decide),
     good_unary (by decide), good_binary (by decide), good_nullary (by decide), good_unary (by decide),
     good_binary (by decide), good_unary (by decide), good_unary (by decide), good_unary (by decide),
     good_binary (by decide), good_unary (by decide), good_unary (by decide), good_binary (by decide),
     good_unary (by decide), good_reshape (by decide), good_nullary (by decide), good_unary (by decide),
     good_unary (by decide), good_ternary (by decide)⟩

/-- A reference of index below 239 is read unchanged through the segment. -/
theorem keep6 (b : Ref sig .tc) (hb : b.idx.val < 239) (W : Valuation τ sig (Elt F)) :
    after seg6 W (Proc.devRef .tc b) = W (Proc.devRef .tc b) := after_keeps sgood6 W hb

/-- Statements 195 … 236 of @main: 42 operations, in order. -/
abbrev seg7 : List (HloOp τ sig (Elt F)) :=
  [ StableHlo.nullary main_cst_20 (constant S_ .f32 0x3F800000#32),
    StableHlo.unary main_cst_20 main_v173 (broadcastInDim S100000 ![] bcast_S_S100000 : (⟨S_, .f32⟩ : BufTy).Contents (Elt F) → (⟨S100000, .f32⟩ : BufTy).Contents (Elt F)),
    StableHlo.unary main_arg2 main_v174 ((extractStridedSlice S1x100000 ![0, 0] · slices_S2x100000_S1x100000_0_0) : (⟨S2x100000, .i32⟩ : BufTy).Contents (Elt F) → (⟨S1x100000, .i32⟩ : BufTy).Contents (Elt F)),
    StableHlo.reshape main_v174 main_v175 rfl shapeCasts_S1x100000_S100000,
    StableHlo.nullary main_cst_21 (constant S_ .f32 0x00000000#32),
    StableHlo.unary main_cst_21 main_v176 (broadcastInDim S512 ![] bcast_S_S512 : (⟨S_, .f32⟩ : BufTy).Contents (Elt F) → (⟨S512, .f32⟩ : BufTy).Contents (Elt F)),
    StableHlo.unary main_v175 main_v177 (broadcastInDim S100000x1 ![0] bcast_S100000_S100000x1_0 : (⟨S100000, .i32⟩ : BufTy).Contents (Elt F) → (⟨S100000x1, .i32⟩ : BufTy).Contents (Elt F)),
    StableHlo.ternary main_v176 main_v177 main_v173 main_v178 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),
    StableHlo.nullary main_cst_22 (constant S_ .f32 0x3F800000#32),
    StableHlo.unary main_cst_22 main_v179 (broadcastInDim S512 ![] bcast_S_S512 : (⟨S_, .f32⟩ : BufTy).Contents (Elt F) → (⟨S512, .f32⟩ : BufTy).Contents (Elt F)),
    StableHlo.binary main_v178 main_v179 main_v180 (maximumf : (⟨S512, .f32⟩ : BufTy).Contents (Elt F) → (⟨S512, .f32⟩ : BufTy).Contents (Elt F) → (⟨S512, .f32⟩ : BufTy).Contents (Elt F)),
    StableHlo.unary main_v180 main_v181 (broadcastInDim S512x1 ![0] bcast_S512_S512x1_0 : (⟨S512, .f32⟩ : BufTy).Contents (Elt F) → (⟨S512x1, .f32⟩ : BufTy).Contents (Elt F)),
    StableHlo.unary main_v181 main_v182 (broadcastInDim S512x36 ![0, 1] bcast_S512x1_S512x36_0_1 : (⟨S512x1, .f32⟩ : BufTy).Contents (Elt F) → (⟨S512x36, .f32⟩ : BufTy).Contents (Elt F)),
    StableHlo.binary main_v172 main_v182 main_v183 (Host.divf : (⟨S512x36, .f32⟩ : BufTy).Contents (Elt F) → (⟨S512x36, .f32⟩ : BufTy).Contents (Elt F) → (⟨S512x36, .f32⟩ : BufTy).Contents (Elt F)),
    StableHlo.unary main_arg1 main_v184 ((extractStridedSlice S1x1x1600000 ![1, 0, 0] · slices_S2x2x1600000_S1x1x1600000_1_0_0) : (⟨S2x2x1600000, .i32⟩ : BufTy).Contents (Elt F) → (⟨S1x1x1600000, .i32⟩ : BufTy).Contents (Elt F)),
    StableHlo.reshape main_v184 main_v185 rfl shapeCasts_S1x1x1600000_S1600000,
    StableHlo.unary main_arg1 main_v186 ((extractStridedSlice S1x1x1600000 ![1, 1, 0] · slices_S2x2x1600000_S1x1x1600000_1_1_0) : (⟨S2x2x1600000, .i32⟩ : BufTy).Contents (Elt F) → (⟨S1x1x1600000, .i32⟩ : BufTy).Contents (Elt F)),
    StableHlo.reshape main_v186 main_v187 rfl shapeCasts_S1x1x1600000_S1600000,
    StableHlo.unary main_arg0 main_v188 ((extractStridedSlice S1x100000x6 ![1, 0, 0] · slices_S2x100000x6_S1x100000x6_1_0_0) : (⟨S2x100000x6, .f32⟩ : BufTy).Contents (Elt F) → (⟨S1x100000x6, .f32⟩ : BufTy).Contents (Elt F)),
    StableHlo.reshape main_v188 main_v189 rfl shapeCasts_S1x100000x6_S100000x6,
    StableHlo.unary main_arg3 main_v190 ((extractStridedSlice S1x36x6 ![1, 0, 0] · slices_S2x36x6_S1x36x6_1_0_0) : (⟨S2x36x6, .f32⟩ : BufTy).Contents (Elt F) → (⟨S1x36x6, .f32⟩ : BufTy).Contents (Elt F)),
    StableHlo.reshape main_v190 main_v191 rfl shapeCasts_S1x36x6_S36x6,
    StableHlo.unary main_arg4 main_v192 ((extractStridedSlice S1x36 ![1, 0] · slices_S2x36_S1x36_1_0) : (⟨S2x36, .f32⟩ : BufTy).Contents (Elt F) → (⟨S1x36, .f32⟩ : BufTy).Contents (Elt F)),
    StableHlo.reshape main_v192 main_v193 rfl shapeCasts_S1x36_S36,
    StableHlo.unary main_arg5 main_v194 ((extractStridedSlice S1x36x36 ![1, 0, 0] · slices_S2x36x36_S1x36x36_1_0_0) : (⟨S2x36x36, .f32⟩ : BufTy).Contents (Elt F) → (⟨S1x36x36, .f32⟩ : BufTy).Contents (Elt F)),
    StableHlo.reshape main_v194 main_v195 rfl shapeCasts_S1x36x36_S36x36,
    StableHlo.unary main_arg6 main_v196 ((extractStridedSlice S1x36 ![1, 0] · slices_S2x36_S1x36_1_0) : (⟨S2x36, .f32⟩ : BufTy).Contents (Elt F) → (⟨S1x36, .f32⟩ : BufTy).Contents (Elt F)),
    StableHlo.reshape main_v196 main_v197 rfl shapeCasts_S1x36_S36,
    StableHlo.nullary main_c_23 (constantI S_ 32 0#32),
    StableHlo.unary main_c_23 main_v198 (broadcastInDim S1600000 ![] bcast_S_S1600000 : (⟨S_, .i32⟩ : BufTy).Contents (Elt F) → (⟨S1600000, .i32⟩ : BufTy).Contents (Elt F)),
    StableHlo.binary main_v185 main_v198 main_v199 (cmpi .slt : (⟨S1600000, .i32⟩ : BufTy).Contents (Elt F) → (⟨S1600000, .i32⟩ : BufTy).Contents (Elt F) → (⟨S1600000, .i1⟩ : BufTy).Contents (Elt F)),
    StableHlo.nullary main_c_24 (constantI S_ 32 100000#32),
    StableHlo.unary main_c_24 main_v200 (broadcastInDim S1600000 ![] bcast_S_S1600000 : (⟨S_, .i32⟩ : BufTy).Contents (Elt F) → (⟨S1600000, .i32⟩ : BufTy).Contents (Elt F)),
    StableHlo.binary main_v185 main_v200 main_v201 (addi : (⟨S1600000, .i32⟩ : BufTy).Contents (Elt F) → (⟨S1600000, .i32⟩ : BufTy).Contents (Elt F) → (⟨S1600000, .i32⟩ : BufTy).Contents (Elt F)),
    StableHlo.ternary main_v199 main_v201 main_v185 main_v202 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v202 main_v203 (broadcastInDim S1600000x1 ![0] bcast_S1600000_S1600000x1_0 : (⟨S1600000, .i32⟩ : BufTy).Contents (Elt F) → (⟨S1600000x1, .i32⟩ : BufTy).Contents (Elt F)),
    StableHlo.binary main_v189 main_v203 main_v204 ((fun x i => Host.gather gather_S100000x6_S1600000x1_S1600000x6_1_0_n_n_0_1_16 x i) : (⟨S100000x6, .f32⟩ : BufTy).Contents (Elt F) → (⟨S1600000x1, .i32⟩ : BufTy).Contents (Elt F) → (⟨S1600000x6, .f32⟩ : BufTy).Contents (Elt F)),
    StableHlo.nullary main_cst_25 (constant S_ .f32 0x00000000#32),
    StableHlo.unary main_cst_25 main_v205 (broadcastInDim S100000x6 ![] bcast_S_S100000x6 : (⟨S_, .f32⟩ : BufTy).Contents (Elt F) → (⟨S100000x6, .f32⟩ : BufTy).Contents (Elt F)),
    StableHlo.unary main_v187 main_v206 (broadcastInDim S1600000x1 ![0] bcast_S1600000_S1600000x1_0 : (⟨S1600000, .i32⟩ : BufTy).Contents (Elt F) → (⟨S1600000x1, .i32⟩ : BufTy).Contents (Elt F)),
    StableHlo.ternary main_v205 main_v206 main_v204 main_v207 ((fun x i u => Host.scatterAdd scatter_S100000x6_S1600000x1_S1600000x6_1_0_0_1 x i u) : (⟨S100000x6, .f32⟩ : BufTy).Contents (Elt F) → (⟨S1600000x1, .i32⟩ : BufTy).Contents (Elt F) → (⟨S1600000x6, .f32⟩ : BufTy).Contents (Elt F) → (⟨S100000x6, .f32⟩ : BufTy).Contents (Elt F)),
    StableHlo.binary main_v189 main_v207 main_v208 (addf : (⟨S100000x6, .f32⟩ : BufTy).Contents (Elt F) → (⟨S100000x6, .f32⟩ : BufTy).Contents (Elt F) → (⟨S100000x6, .f32⟩ : BufTy).Contents (Elt F)) ]

/-- Each is a builder's and writes a reference of index at least 293. -/
theorem sgood7 : ∀ op ∈ (seg7 : List (HloOp τ sig (Elt F))), Good 293 op :=
  List.forall_iff_forall_mem.mp
    ⟨good_nullary (by decide), good_unary (by decide), good_unary (by decide), good_reshape (by decide),
     good_nullary (by decide), good_unary (by decide), good_unary (by decide), good_ternary (by decide),
     good_nullary (by decide), good_unary (by decide), good_binary (by decide), good_unary (by decide),
     good_unary (by decide), good_binary (by decide), good_unary (by decide), good_reshape (by decide),
     good_unary (by decide), good_reshape (by decide), good_unary (by decide), good_reshape (by decide),
     good_unary (by decide), good_reshape (by decide), good_unary (by decide), good_reshape (by decide),
     good_unary (by decide), good_reshape (by decide), good_unary (by decide), good_reshape (by decide),
     good_nullary (by decide), good_unary (by decide), good_binary (by decide), good_nullary (by decide),
     good_unary (by decide), good_binary (by decide), good_ternary (by decide), good_unary (by decide),
     good_binary (by decide), good_nullary (by decide), good_unary (by decide), good_unary (by decide),
     good_ternary (by decide), good_binary (by decide)⟩

/-- A reference of index below 293 is read unchanged through the segment. -/
theorem keep7 (b : Ref sig .tc) (hb : b.idx.val < 293) (W : Valuation τ sig (Elt F)) :
    after seg7 W (Proc.devRef .tc b) = W (Proc.devRef .tc b) := after_keeps sgood7 W hb

/-- Statements 237 … 248 of @main: 16 operations, in order. -/
abbrev seg8 : List (HloOp τ sig (Elt F)) :=
  [ StableHlo.unary main_v191 main_v209 ((transpose S6x36 [1, 0] · transposes_S36x6_S6x36_1_0) : (⟨S36x6, .f32⟩ : BufTy).Contents (Elt F) → (⟨S6x36, .f32⟩ : BufTy).Contents (Elt F)),
    StableHlo.binary main_v208 main_v209 main_v210 ((fun l r => Host.dotGeneral dot_S100000x6_S6x36_S100000x36_1_0_0_1_n_n none l r) : (⟨S100000x6, .f32⟩ : BufTy).Contents (Elt F) → (⟨S6x36, .f32⟩ : BufTy).Contents (Elt F) → (⟨S100000x36, .f32⟩ : BufTy).Contents (Elt F)),
    StableHlo.unary main_v193 main_v211 (broadcastInDim S1x36 ![1] bcast_S36_S1x36_1 : (⟨S36, .f32⟩ : BufTy).Contents (Elt F) → (⟨S1x36, .f32⟩ : BufTy).Contents (Elt F)),
    StableHlo.unary main_v211 main_v212 (broadcastInDim S100000x36 ![0, 1] bcast_S1x36_S100000x36_0_1 : (⟨S1x36, .f32⟩ : BufTy).Contents (Elt F) → (⟨S100000x36, .f32⟩ : BufTy).Contents (Elt F)),
    StableHlo.binary main_v210 main_v212 main_v213 (addf : (⟨S100000x36, .f32⟩ : BufTy).Contents (Elt F) → (⟨S100000x36, .f32⟩ : BufTy).Contents (Elt F) → (⟨S100000x36, .f32⟩ : BufTy).Contents (Elt F)),
    StableHlo.TRef.nullary main_call9.cst (constant S_ .f32 0x00000000#32),
    StableHlo.TRef.unary main_call9.cst main_call9.v0 (broadcastInDim S100000x36 ![] bcast_S_S100000x36),
    StableHlo.TRef.binary (.of main_v213) main_call9.v0 main_call9.v1 maximumf,
    StableHlo.unary main_v195 main_v215 ((transpose S36x36 [1, 0] · transposes_S36x36_S36x36_1_0) : (⟨S36x36, .f32⟩ : BufTy).Contents (Elt F) → (⟨S36x36, .f32⟩ : BufTy).Contents (Elt F)),
    StableHlo.binary main_v214 main_v215 main_v216 ((fun l r => Host.dotGeneral dot_S100000x36_S36x36_S100000x36_1_0_0_1_n_n none l r) : (⟨S100000x36, .f32⟩ : BufTy).Contents (Elt F) → (⟨S36x36, .f32⟩ : BufTy).Contents (Elt F) → (⟨S100000x36, .f32⟩ : BufTy).Contents (Elt F)),
    StableHlo.unary main_v197 main_v217 (broadcastInDim S1x36 ![1] bcast_S36_S1x36_1 : (⟨S36, .f32⟩ : BufTy).Contents (Elt F) → (⟨S1x36, .f32⟩ : BufTy).Contents (Elt F)),
    StableHlo.unary main_v217 main_v218 (broadcastInDim S100000x36 ![0, 1] bcast_S1x36_S100000x36_0_1 : (⟨S1x36, .f32⟩ : BufTy).Contents (Elt F) → (⟨S100000x36, .f32⟩ : BufTy).Contents (Elt F)),
    StableHlo.binary main_v216 main_v218 main_v219 (addf : (⟨S100000x36, .f32⟩ : BufTy).Contents (Elt F) → (⟨S100000x36, .f32⟩ : BufTy).Contents (Elt F) → (⟨S100000x36, .f32⟩ : BufTy).Contents (Elt F)),
    StableHlo.TRef.nullary main_call10.cst (constant S_ .f32 0x00000000#32),
    StableHlo.TRef.unary main_call10.cst main_call10.v0 (broadcastInDim S100000x36 ![] bcast_S_S100000x36),
    StableHlo.TRef.binary (.of main_v219) main_call10.v0 main_call10.v1 maximumf ]

/-- Each is a builder's and writes a reference of index at least 335. -/
theorem sgood8 : ∀ op ∈ (seg8 : List (HloOp τ sig (Elt F))), Good 335 op :=
  List.forall_iff_forall_mem.mp
    ⟨good_unary (by decide), good_binary (by decide), good_unary (by decide), good_unary (by decide),
     good_binary (by decide), good_nullary (by decide), good_unary (by decide), good_binary (by decide),
     good_unary (by decide), good_binary (by decide), good_unary (by decide), good_unary (by decide),
     good_binary (by decide), good_nullary (by decide), good_unary (by decide), good_binary (by decide)⟩

/-- A reference of index below 335 is read unchanged through the segment. -/
theorem keep8 (b : Ref sig .tc) (hb : b.idx.val < 335) (W : Valuation τ sig (Elt F)) :
    after seg8 W (Proc.devRef .tc b) = W (Proc.devRef .tc b) := after_keeps sgood8 W hb

/-- Statements 249 … 297 of @main: 70 operations, in order. -/
abbrev seg9 : List (HloOp τ sig (Elt F)) :=
  [ StableHlo.unary main_arg15 main_v221 ((extractStridedSlice S1x1x36 ![1, 0, 0] · slices_S2x3x36_S1x1x36_1_0_0) : (⟨S2x3x36, .f32⟩ : BufTy).Contents (Elt F) → (⟨S1x1x36, .f32⟩ : BufTy).Contents (Elt F)),
    StableHlo.reshape main_v221 main_v222 rfl shapeCasts_S1x1x36_S36,
    StableHlo.unary main_arg16 main_v223 ((extractStridedSlice S1x1x36 ![1, 0, 0] · slices_S2x3x36_S1x1x36_1_0_0) : (⟨S2x3x36, .f32⟩ : BufTy).Contents (Elt F) → (⟨S1x1x36, .f32⟩ : BufTy).Contents (Elt F)),
    StableHlo.reshape main_v223 main_v224 rfl shapeCasts_S1x1x36_S36,
    StableHlo.nullary main_cst_26 (constant S_ .f32 0x00000000#32),
    StableHlo.binary main_v220 main_cst_26 main_v225 ((fun x v => Host.reduceAdd x v reducesTo_S100000x36_S36_d0 h_S_) : (⟨S100000x36, .f32⟩ : BufTy).Contents (Elt F) → (⟨S_, .f32⟩ : BufTy).Contents (Elt F) → (⟨S36, .f32⟩ : BufTy).Contents (Elt F)),
    StableHlo.nullary main_cst_27 (constant S_ .f32 0x47C35000#32),
    StableHlo.unary main_cst_27 main_v226 (broadcastInDim S36 ![] bcast_S_S36 : (⟨S_, .f32⟩ : BufTy).Contents (Elt F) → (⟨S36, .f32⟩ : BufTy).Contents (Elt F)),
    StableHlo.binary main_v225 main_v226 main_v227 (Host.divf : (⟨S36, .f32⟩ : BufTy).Contents (Elt F) → (⟨S36, .f32⟩ : BufTy).Contents (Elt F) → (⟨S36, .f32⟩ : BufTy).Contents (Elt F)),
    StableHlo.nullary main_c_28 (constantI S_ 32 0#32),
    StableHlo.TRef.nullary main_call11.cst (constant S_ .f32 0x00000000#32),
    StableHlo.TRef.binary (.of main_v220) main_call11.cst main_call11.v0 (fun x v => Host.reduceAdd x v reducesTo_S100000x36_S36_d0 h_S_),
    StableHlo.TRef.unary main_call11.v0 main_call11.v1 (broadcastInDim S1x36 ![1] bcast_S36_S1x36_1),
    StableHlo.TRef.nullary main_call11.cst_0 (constant S_ .f32 0x47C35000#32),
    StableHlo.TRef.unary main_call11.cst_0 main_call11.v2 (broadcastInDim S1x36 ![] bcast_S_S1x36),
    StableHlo.TRef.binary main_call11.v1 main_call11.v2 main_call11.v3 Host.divf,
    StableHlo.TRef.unary main_call11.v3 main_call11.v4 (broadcastInDim S100000x36 ![0, 1] bcast_S1x36_S100000x36_0_1),
    StableHlo.TRef.binary (.of main_v220) main_call11.v4 main_call11.v5 subf,
    StableHlo.TRef.binary main_call11.v5 main_call11.v5 main_call11.v6 mulf,
    StableHlo.TRef.unary (.of main_c_28) main_call11.v7 (sitofp .f32),
    StableHlo.TRef.nullary main_call11.cst_1 (constant S_ .f32 0x47C35000#32),
    StableHlo.TRef.binary main_call11.cst_1 main_call11.v7 main_call11.v8 subf,
    StableHlo.TRef.nullary main_call11.cst_2 (constant S_ .f32 0x00000000#32),
    StableHlo.TRef.binary main_call11.v6 main_call11.cst_2 main_call11.v9 (fun x v => Host.reduceAdd x v reducesTo_S100000x36_S36_d0 h_S_),
    StableHlo.TRef.unary main_call11.v8 main_call11.v10 (broadcastInDim S36 ![] bcast_S_S36),
    StableHlo.TRef.binary main_call11.v9 main_call11.v10 main_call11.v11 Host.divf,
    StableHlo.TRef.nullary main_call11.cst_3 (constant S_ .f32 0x00000000#32),
    StableHlo.TRef.binary main_call11.v8 main_call11.cst_3 main_call11.v12 (cmpf .ogt),
    StableHlo.TRef.nullary main_call11.cst_4 (constant S_ .f32 0x7FC00000#32),
    StableHlo.TRef.unary main_call11.cst_4 main_call11.call0.v0 id,
    StableHlo.TRef.unary main_call11.call0.v0 main_call11.call0.v1 (broadcastInDim S36 ![] bcast_S_S36),
    StableHlo.TRef.ternary main_call11.v12 main_call11.v11 main_call11.call0.v1 main_call11.call0.v2 (fun p a b => select (broadcastInDim S36 ![] bcast_S_S36 p) a b),
    StableHlo.unary main_v227 main_v229 (broadcastInDim S1x36 ![1] bcast_S36_S1x36_1 : (⟨S36, .f32⟩ : BufTy).Contents (Elt F) → (⟨S1x36, .f32⟩ : BufTy).Contents (Elt F)),
    StableHlo.unary main_v229 main_v230 (broadcastInDim S100000x36 ![0, 1] bcast_S1x36_S100000x36_0_1 : (⟨S1x36, .f32⟩ : BufTy).Contents (Elt F) → (⟨S100000x36, .f32⟩ : BufTy).Contents (Elt F)),
    StableHlo.binary main_v220 main_v230 main_v231 (subf : (⟨S100000x36, .f32⟩ : BufTy).Contents (Elt F) → (⟨S100000x36, .f32⟩ : BufTy).Contents (Elt F) → (⟨S100000x36, .f32⟩ : BufTy).Contents (Elt F)),
    StableHlo.unary main_v222 main_v232 (broadcastInDim S1x36 ![1] bcast_S36_S1x36_1 : (⟨S36, .f32⟩ : BufTy).Contents (Elt F) → (⟨S1x36, .f32⟩ : BufTy).Contents (Elt F)),
    StableHlo.unary main_v232 main_v233 (broadcastInDim S100000x36 ![0, 1] bcast_S1x36_S100000x36_0_1 : (⟨S1x36, .f32⟩ : BufTy).Contents (Elt F) → (⟨S100000x36, .f32⟩ : BufTy).Contents (Elt F)),
    StableHlo.binary main_v233 main_v231 main_v234 (mulf : (⟨S100000x36, .f32⟩ : BufTy).Contents (Elt F) → (⟨S100000x36, .f32⟩ : BufTy).Contents (Elt F) → (⟨S100000x36, .f32⟩ : BufTy).Contents (Elt F)),
    StableHlo.nullary main_cst_29 (constant S_ .f32 0x3727C5AC#32),
    StableHlo.unary main_cst_29 main_v235 (broadcastInDim S36 ![] bcast_S_S36 : (⟨S_, .f32⟩ : BufTy).Contents (Elt F) → (⟨S36, .f32⟩ : BufTy).Contents (Elt F)),
    StableHlo.binary main_v228 main_v235 main_v236 (addf : (⟨S36, .f32⟩ : BufTy).Contents (Elt F) → (⟨S36, .f32⟩ : BufTy).Contents (Elt F) → (⟨S36, .f32⟩ : BufTy).Contents (Elt F)),
    StableHlo.unary main_v236 main_v237 (Host.rsqrt : (⟨S36, .f32⟩ : BufTy).Contents (Elt F) → (⟨S36, .f32⟩ : BufTy).Contents (Elt F)),
    StableHlo.unary main_v237 main_v238 (broadcastInDim S1x36 ![1] bcast_S36_S1x36_1 : (⟨S36, .f32⟩ : BufTy).Contents (Elt F) → (⟨S1x36, .f32⟩ : BufTy).Contents (Elt F)),
    StableHlo.unary main_v238 main_v239 (broadcastInDim S100000x36 ![0, 1] bcast_S1x36_S100000x36_0_1 : (⟨S1x36, .f32⟩ : BufTy).Contents (Elt F) → (⟨S100000x36, .f32⟩ : BufTy).Contents (Elt F)),
    StableHlo.binary main_v234 main_v239 main_v240 (mulf : (⟨S100000x36, .f32⟩ : BufTy).Contents (Elt F) → (⟨S100000x36, .f32⟩ : BufTy).Contents (Elt F) → (⟨S100000x36, .f32⟩ : BufTy).Contents (Elt F)),
    StableHlo.unary main_v224 main_v241 (broadcastInDim S1x36 ![1] bcast_S36_S1x36_1 : (⟨S36, .f32⟩ : BufTy).Contents (Elt F) → (⟨S1x36, .f32⟩ : BufTy).Contents (Elt F)),
    StableHlo.unary main_v241 main_v242 (broadcastInDim S100000x36 ![0, 1] bcast_S1x36_S100000x36_0_1 : (⟨S1x36, .f32⟩ : BufTy).Contents (Elt F) → (⟨S100000x36, .f32⟩ : BufTy).Contents (Elt F)),
    StableHlo.binary main_v240 main_v242 main_v243 (addf : (⟨S100000x36, .f32⟩ : BufTy).Contents (Elt F) → (⟨S100000x36, .f32⟩ : BufTy).Contents (Elt F) → (⟨S100000x36, .f32⟩ : BufTy).Contents (Elt F)),
    StableHlo.unary main_arg7 main_v244 ((extractStridedSlice S1x36x36 ![1, 0, 0] · slices_S2x36x36_S1x36x36_1_0_0) : (⟨S2x36x36, .f32⟩ : BufTy).Contents (Elt F) → (⟨S1x36x36, .f32⟩ : BufTy).Contents (Elt F)),
    StableHlo.reshape main_v244 main_v245 rfl shapeCasts_S1x36x36_S36x36,
    StableHlo.unary main_arg8 main_v246 ((extractStridedSlice S1x36 ![1, 0] · slices_S2x36_S1x36_1_0) : (⟨S2x36, .f32⟩ : BufTy).Contents (Elt F) → (⟨S1x36, .f32⟩ : BufTy).Contents (Elt F)),
    StableHlo.reshape main_v246 main_v247 rfl shapeCasts_S1x36_S36,
    StableHlo.unary main_arg9 main_v248 ((extractStridedSlice S1x36x36 ![1, 0, 0] · slices_S2x36x36_S1x36x36_1_0_0) : (⟨S2x36x36, .f32⟩ : BufTy).Contents (Elt F) → (⟨S1x36x36, .f32⟩ : BufTy).Contents (Elt F)),
    StableHlo.reshape main_v248 main_v249 rfl shapeCasts_S1x36x36_S36x36,
    StableHlo.unary main_arg10 main_v250 ((extractStridedSlice S1x36 ![1, 0] · slices_S2x36_S1x36_1_0) : (⟨S2x36, .f32⟩ : BufTy).Contents (Elt F) → (⟨S1x36, .f32⟩ : BufTy).Contents (Elt F)),
    StableHlo.reshape main_v250 main_v251 rfl shapeCasts_S1x36_S36,
    StableHlo.nullary main_c_30 (constantI S_ 32 0#32),
    StableHlo.unary main_c_30 main_v252 (broadcastInDim S1600000 ![] bcast_S_S1600000 : (⟨S_, .i32⟩ : BufTy).Contents (Elt F) → (⟨S1600000, .i32⟩ : BufTy).Contents (Elt F)),
    StableHlo.binary main_v185 main_v252 main_v253 (cmpi .slt : (⟨S1600000, .i32⟩ : BufTy).Contents (Elt F) → (⟨S1600000, .i32⟩ : BufTy).Contents (Elt F) → (⟨S1600000, .i1⟩ : BufTy).Contents (Elt F)),
    StableHlo.nullary main_c_31 (constantI S_ 32 100000#32),
    StableHlo.unary main_c_31 main_v254 (broadcastInDim S1600000 ![] bcast_S_S1600000 : (⟨S_, .i32⟩ : BufTy).Contents (Elt F) → (⟨S1600000, .i32⟩ : BufTy).Contents (Elt F)),
    StableHlo.binary main_v185 main_v254 main_v255 (addi : (⟨S1600000, .i32⟩ : BufTy).Contents (Elt F) → (⟨S1600000, .i32⟩ : BufTy).Contents (Elt F) → (⟨S1600000, .i32⟩ : BufTy).Contents (Elt F)),
    StableHlo.ternary main_v253 main_v255 main_v185 main_v256 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v256 main_v257 (broadcastInDim S1600000x1 ![0] bcast_S1600000_S1600000x1_0 : (⟨S1600000, .i32⟩ : BufTy).Contents (Elt F) → (⟨S1600000x1, .i32⟩ : BufTy).Contents (Elt F)),
    StableHlo.binary main_v243 main_v257 main_v258 ((fun x i => Host.gather gather_S100000x36_S1600000x1_S1600000x36_1_0_n_n_0_1_136 x i) : (⟨S100000x36, .f32⟩ : BufTy).Contents (Elt F) → (⟨S1600000x1, .i32⟩ : BufTy).Contents (Elt F) → (⟨S1600000x36, .f32⟩ : BufTy).Contents (Elt F)),
    StableHlo.nullary main_cst_32 (constant S_ .f32 0x00000000#32),
    StableHlo.unary main_cst_32 main_v259 (broadcastInDim S100000x36 ![] bcast_S_S100000x36 : (⟨S_, .f32⟩ : BufTy).Contents (Elt F) → (⟨S100000x36, .f32⟩ : BufTy).Contents (Elt F)),
    StableHlo.unary main_v187 main_v260 (broadcastInDim S1600000x1 ![0] bcast_S1600000_S1600000x1_0 : (⟨S1600000, .i32⟩ : BufTy).Contents (Elt F) → (⟨S1600000x1, .i32⟩ : BufTy).Contents (Elt F)),
    StableHlo.ternary main_v259 main_v260 main_v258 main_v261 ((fun x i u => Host.scatterAdd scatter_S100000x36_S1600000x1_S1600000x36_1_0_0_1 x i u) : (⟨S100000x36, .f32⟩ : BufTy).Contents (Elt F) → (⟨S1600000x1, .i32⟩ : BufTy).Contents (Elt F) → (⟨S1600000x36, .f32⟩ : BufTy).Contents (Elt F) → (⟨S100000x36, .f32⟩ : BufTy).Contents (Elt F)),
    StableHlo.binary main_v243 main_v261 main_v262 (addf : (⟨S100000x36, .f32⟩ : BufTy).Contents (Elt F) → (⟨S100000x36, .f32⟩ : BufTy).Contents (Elt F) → (⟨S100000x36, .f32⟩ : BufTy).Contents (Elt F)) ]

/-- Each is a builder's and writes a reference of index at least 351. -/
theorem sgood9 : ∀ op ∈ (seg9 : List (HloOp τ sig (Elt F))), Good 351 op :=
  List.forall_iff_forall_mem.mp
    ⟨good_unary (by decide), good_reshape (by decide), good_unary (by decide), good_reshape (by decide),
     good_nullary (by decide), good_binary (by decide), good_nullary (by decide), good_unary (by decide),
     good_binary (by decide), good_nullary (by decide), good_nullary (by decide), good_binary (by decide),
     good_unary (by decide), good_nullary (by decide), good_unary (by decide), good_binary (by decide),
     good_unary (by decide), good_binary (by decide), good_binary (by decide), good_unary (by decide),
     good_nullary (by decide), good_binary (by decide), good_nullary (by decide), good_binary (by decide),
     good_unary (by decide), good_binary (by decide), good_nullary (by decide), good_binary (by decide),
     good_nullary (by decide), good_unary (by decide), good_unary (by decide), good_ternary (by decide),
     good_unary (by decide), good_unary (by decide), good_binary (by decide), good_unary (by decide),
     good_unary (by decide), good_binary (by decide), good_nullary (by decide), good_unary (by decide),
     good_binary (by decide), good_unary (by decide), good_unary (by decide), good_unary (by decide),
     good_binary (by decide), good_unary (by decide), good_unary (by decide), good_binary (by decide),
     good_unary (by decide), good_reshape (by decide), good_unary (by decide), good_reshape (by decide),
     good_unary (by decide), good_reshape (by decide), good_unary (by decide), good_reshape (by decide),
     good_nullary (by decide), good_unary (by decide), good_binary (by decide), good_nullary (by decide),
     good_unary (by decide), good_binary (by decide), good_ternary (by decide), good_unary (by decide),
     good_binary (by decide), good_nullary (by decide), good_unary (by decide), good_unary (by decide),
     good_ternary (by decide), good_binary (by decide)⟩

/-- A reference of index below 351 is read unchanged through the segment. -/
theorem keep9 (b : Ref sig .tc) (hb : b.idx.val < 351) (W : Valuation τ sig (Elt F)) :
    after seg9 W (Proc.devRef .tc b) = W (Proc.devRef .tc b) := after_keeps sgood9 W hb

/-- Statements 298 … 309 of @main: 16 operations, in order. -/
abbrev seg10 : List (HloOp τ sig (Elt F)) :=
  [ StableHlo.unary main_v245 main_v263 ((transpose S36x36 [1, 0] · transposes_S36x36_S36x36_1_0) : (⟨S36x36, .f32⟩ : BufTy).Contents (Elt F) → (⟨S36x36, .f32⟩ : BufTy).Contents (Elt F)),
    StableHlo.binary main_v262 main_v263 main_v264 ((fun l r => Host.dotGeneral dot_S100000x36_S36x36_S100000x36_1_0_0_1_n_n none l r) : (⟨S100000x36, .f32⟩ : BufTy).Contents (Elt F) → (⟨S36x36, .f32⟩ : BufTy).Contents (Elt F) → (⟨S100000x36, .f32⟩ : BufTy).Contents (Elt F)),
    StableHlo.unary main_v247 main_v265 (broadcastInDim S1x36 ![1] bcast_S36_S1x36_1 : (⟨S36, .f32⟩ : BufTy).Contents (Elt F) → (⟨S1x36, .f32⟩ : BufTy).Contents (Elt F)),
    StableHlo.unary main_v265 main_v266 (broadcastInDim S100000x36 ![0, 1] bcast_S1x36_S100000x36_0_1 : (⟨S1x36, .f32⟩ : BufTy).Contents (Elt F) → (⟨S100000x36, .f32⟩ : BufTy).Contents (Elt F)),
    StableHlo.binary main_v264 main_v266 main_v267 (addf : (⟨S100000x36, .f32⟩ : BufTy).Contents (Elt F) → (⟨S100000x36, .f32⟩ : BufTy).Contents (Elt F) → (⟨S100000x36, .f32⟩ : BufTy).Contents (Elt F)),
    StableHlo.TRef.nullary main_call12.cst (constant S_ .f32 0x00000000#32),
    StableHlo.TRef.unary main_call12.cst main_call12.v0 (broadcastInDim S100000x36 ![] bcast_S_S100000x36),
    StableHlo.TRef.binary (.of main_v267) main_call12.v0 main_call12.v1 maximumf,
    StableHlo.unary main_v249 main_v269 ((transpose S36x36 [1, 0] · transposes_S36x36_S36x36_1_0) : (⟨S36x36, .f32⟩ : BufTy).Contents (Elt F) → (⟨S36x36, .f32⟩ : BufTy).Contents (Elt F)),
    StableHlo.binary main_v268 main_v269 main_v270 ((fun l r => Host.dotGeneral dot_S100000x36_S36x36_S100000x36_1_0_0_1_n_n none l r) : (⟨S100000x36, .f32⟩ : BufTy).Contents (Elt F) → (⟨S36x36, .f32⟩ : BufTy).Contents (Elt F) → (⟨S100000x36, .f32⟩ : BufTy).Contents (Elt F)),
    StableHlo.unary main_v251 main_v271 (broadcastInDim S1x36 ![1] bcast_S36_S1x36_1 : (⟨S36, .f32⟩ : BufTy).Contents (Elt F) → (⟨S1x36, .f32⟩ : BufTy).Contents (Elt F)),
    StableHlo.unary main_v271 main_v272 (broadcastInDim S100000x36 ![0, 1] bcast_S1x36_S100000x36_0_1 : (⟨S1x36, .f32⟩ : BufTy).Contents (Elt F) → (⟨S100000x36, .f32⟩ : BufTy).Contents (Elt F)),
    StableHlo.binary main_v270 main_v272 main_v273 (addf : (⟨S100000x36, .f32⟩ : BufTy).Contents (Elt F) → (⟨S100000x36, .f32⟩ : BufTy).Contents (Elt F) → (⟨S100000x36, .f32⟩ : BufTy).Contents (Elt F)),
    StableHlo.TRef.nullary main_call13.cst (constant S_ .f32 0x00000000#32),
    StableHlo.TRef.unary main_call13.cst main_call13.v0 (broadcastInDim S100000x36 ![] bcast_S_S100000x36),
    StableHlo.TRef.binary (.of main_v273) main_call13.v0 main_call13.v1 maximumf ]

/-- Each is a builder's and writes a reference of index at least 421. -/
theorem sgood10 : ∀ op ∈ (seg10 : List (HloOp τ sig (Elt F))), Good 421 op :=
  List.forall_iff_forall_mem.mp
    ⟨good_unary (by decide), good_binary (by decide), good_unary (by decide), good_unary (by decide),
     good_binary (by decide), good_nullary (by decide), good_unary (by decide), good_binary (by decide),
     good_unary (by decide), good_binary (by decide), good_unary (by decide), good_unary (by decide),
     good_binary (by decide), good_nullary (by decide), good_unary (by decide), good_binary (by decide)⟩

/-- A reference of index below 421 is read unchanged through the segment. -/
theorem keep10 (b : Ref sig .tc) (hb : b.idx.val < 421) (W : Valuation τ sig (Elt F)) :
    after seg10 W (Proc.devRef .tc b) = W (Proc.devRef .tc b) := after_keeps sgood10 W hb

/-- Statements 310 … 358 of @main: 70 operations, in order. -/
abbrev seg11 : List (HloOp τ sig (Elt F)) :=
  [ StableHlo.unary main_arg15 main_v275 ((extractStridedSlice S1x1x36 ![1, 1, 0] · slices_S2x3x36_S1x1x36_1_1_0) : (⟨S2x3x36, .f32⟩ : BufTy).Contents (Elt F) → (⟨S1x1x36, .f32⟩ : BufTy).Contents (Elt F)),
    StableHlo.reshape main_v275 main_v276 rfl shapeCasts_S1x1x36_S36,
    StableHlo.unary main_arg16 main_v277 ((extractStridedSlice S1x1x36 ![1, 1, 0] · slices_S2x3x36_S1x1x36_1_1_0) : (⟨S2x3x36, .f32⟩ : BufTy).Contents (Elt F) → (⟨S1x1x36, .f32⟩ : BufTy).Contents (Elt F)),
    StableHlo.reshape main_v277 main_v278 rfl shapeCasts_S1x1x36_S36,
    StableHlo.nullary main_cst_33 (constant S_ .f32 0x00000000#32),
    StableHlo.binary main_v274 main_cst_33 main_v279 ((fun x v => Host.reduceAdd x v reducesTo_S100000x36_S36_d0 h_S_) : (⟨S100000x36, .f32⟩ : BufTy).Contents (Elt F) → (⟨S_, .f32⟩ : BufTy).Contents (Elt F) → (⟨S36, .f32⟩ : BufTy).Contents (Elt F)),
    StableHlo.nullary main_cst_34 (constant S_ .f32 0x47C35000#32),
    StableHlo.unary main_cst_34 main_v280 (broadcastInDim S36 ![] bcast_S_S36 : (⟨S_, .f32⟩ : BufTy).Contents (Elt F) → (⟨S36, .f32⟩ : BufTy).Contents (Elt F)),
    StableHlo.binary main_v279 main_v280 main_v281 (Host.divf : (⟨S36, .f32⟩ : BufTy).Contents (Elt F) → (⟨S36, .f32⟩ : BufTy).Contents (Elt F) → (⟨S36, .f32⟩ : BufTy).Contents (Elt F)),
    StableHlo.nullary main_c_35 (constantI S_ 32 0#32),
    StableHlo.TRef.nullary main_call14.cst (constant S_ .f32 0x00000000#32),
    StableHlo.TRef.binary (.of main_v274) main_call14.cst main_call14.v0 (fun x v => Host.reduceAdd x v reducesTo_S100000x36_S36_d0 h_S_),
    StableHlo.TRef.unary main_call14.v0 main_call14.v1 (broadcastInDim S1x36 ![1] bcast_S36_S1x36_1),
    StableHlo.TRef.nullary main_call14.cst_0 (constant S_ .f32 0x47C35000#32),
    StableHlo.TRef.unary main_call14.cst_0 main_call14.v2 (broadcastInDim S1x36 ![] bcast_S_S1x36),
    StableHlo.TRef.binary main_call14.v1 main_call14.v2 main_call14.v3 Host.divf,
    StableHlo.TRef.unary main_call14.v3 main_call14.v4 (broadcastInDim S100000x36 ![0, 1] bcast_S1x36_S100000x36_0_1),
    StableHlo.TRef.binary (.of main_v274) main_call14.v4 main_call14.v5 subf,
    StableHlo.TRef.binary main_call14.v5 main_call14.v5 main_call14.v6 mulf,
    StableHlo.TRef.unary (.of main_c_35) main_call14.v7 (sitofp .f32),
    StableHlo.TRef.nullary main_call14.cst_1 (constant S_ .f32 0x47C35000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S100000x36_S36_d0 h_S_),
    StableHlo.TRef.unary main_call14.v8 main_call14.v10 (broadcastInDim S36 ![] bcast_S_S36),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S36 ![] bcast_S_S36),
    StableHlo.TRef.ternary main_call14.v12 main_call14.v11 main_call14.call0.v1 main_call14.call0.v2 (fun p a b => select (broadcastInDim S36 ![] bcast_S_S36 p) a b),
    StableHlo.unary main_v281 main_v283 (broadcastInDim S1x36 ![1] bcast_S36_S1x36_1 : (⟨S36, .f32⟩ : BufTy).Contents (Elt F) → (⟨S1x36, .f32⟩ : BufTy).Contents (Elt F)),
    StableHlo.unary main_v283 main_v284 (broadcastInDim S100000x36 ![0, 1] bcast_S1x36_S100000x36_0_1 : (⟨S1x36, .f32⟩ : BufTy).Contents (Elt F) → (⟨S100000x36, .f32⟩ : BufTy).Contents (Elt F)),
    StableHlo.binary main_v274 main_v284 main_v285 (subf : (⟨S100000x36, .f32⟩ : BufTy).Contents (Elt F) → (⟨S100000x36, .f32⟩ : BufTy).Contents (Elt F) → (⟨S100000x36, .f32⟩ : BufTy).Contents (Elt F)),
    StableHlo.unary main_v276 main_v286 (broadcastInDim S1x36 ![1] bcast_S36_S1x36_1 : (⟨S36, .f32⟩ : BufTy).Contents (Elt F) → (⟨S1x36, .f32⟩ : BufTy).Contents (Elt F)),
    StableHlo.unary main_v286 main_v287 (broadcastInDim S100000x36 ![0, 1] bcast_S1x36_S100000x36_0_1 : (⟨S1x36, .f32⟩ : BufTy).Contents (Elt F) → (⟨S100000x36, .f32⟩ : BufTy).Contents (Elt F)),
    StableHlo.binary main_v287 main_v285 main_v288 (mulf : (⟨S100000x36, .f32⟩ : BufTy).Contents (Elt F) → (⟨S100000x36, .f32⟩ : BufTy).Contents (Elt F) → (⟨S100000x36, .f32⟩ : BufTy).Contents (Elt F)),
    StableHlo.nullary main_cst_36 (constant S_ .f32 0x3727C5AC#32),
    StableHlo.unary main_cst_36 main_v289 (broadcastInDim S36 ![] bcast_S_S36 : (⟨S_, .f32⟩ : BufTy).Contents (Elt F) → (⟨S36, .f32⟩ : BufTy).Contents (Elt F)),
    StableHlo.binary main_v282 main_v289 main_v290 (addf : (⟨S36, .f32⟩ : BufTy).Contents (Elt F) → (⟨S36, .f32⟩ : BufTy).Contents (Elt F) → (⟨S36, .f32⟩ : BufTy).Contents (Elt F)),
    StableHlo.unary main_v290 main_v291 (Host.rsqrt : (⟨S36, .f32⟩ : BufTy).Contents (Elt F) → (⟨S36, .f32⟩ : BufTy).Contents (Elt F)),
    StableHlo.unary main_v291 main_v292 (broadcastInDim S1x36 ![1] bcast_S36_S1x36_1 : (⟨S36, .f32⟩ : BufTy).Contents (Elt F) → (⟨S1x36, .f32⟩ : BufTy).Contents (Elt F)),
    StableHlo.unary main_v292 main_v293 (broadcastInDim S100000x36 ![0, 1] bcast_S1x36_S100000x36_0_1 : (⟨S1x36, .f32⟩ : BufTy).Contents (Elt F) → (⟨S100000x36, .f32⟩ : BufTy).Contents (Elt F)),
    StableHlo.binary main_v288 main_v293 main_v294 (mulf : (⟨S100000x36, .f32⟩ : BufTy).Contents (Elt F) → (⟨S100000x36, .f32⟩ : BufTy).Contents (Elt F) → (⟨S100000x36, .f32⟩ : BufTy).Contents (Elt F)),
    StableHlo.unary main_v278 main_v295 (broadcastInDim S1x36 ![1] bcast_S36_S1x36_1 : (⟨S36, .f32⟩ : BufTy).Contents (Elt F) → (⟨S1x36, .f32⟩ : BufTy).Contents (Elt F)),
    StableHlo.unary main_v295 main_v296 (broadcastInDim S100000x36 ![0, 1] bcast_S1x36_S100000x36_0_1 : (⟨S1x36, .f32⟩ : BufTy).Contents (Elt F) → (⟨S100000x36, .f32⟩ : BufTy).Contents (Elt F)),
    StableHlo.binary main_v294 main_v296 main_v297 (addf : (⟨S100000x36, .f32⟩ : BufTy).Contents (Elt F) → (⟨S100000x36, .f32⟩ : BufTy).Contents (Elt F) → (⟨S100000x36, .f32⟩ : BufTy).Contents (Elt F)),
    StableHlo.unary main_arg11 main_v298 ((extractStridedSlice S1x36x36 ![1, 0, 0] · slices_S2x36x36_S1x36x36_1_0_0) : (⟨S2x36x36, .f32⟩ : BufTy).Contents (Elt F) → (⟨S1x36x36, .f32⟩ : BufTy).Contents (Elt F)),
    StableHlo.reshape main_v298 main_v299 rfl shapeCasts_S1x36x36_S36x36,
    StableHlo.unary main_arg12 main_v300 ((extractStridedSlice S1x36 ![1, 0] · slices_S2x36_S1x36_1_0) : (⟨S2x36, .f32⟩ : BufTy).Contents (Elt F) → (⟨S1x36, .f32⟩ : BufTy).Contents (Elt F)),
    StableHlo.reshape main_v300 main_v301 rfl shapeCasts_S1x36_S36,
    StableHlo.unary main_arg13 main_v302 ((extractStridedSlice S1x36x36 ![1, 0, 0] · slices_S2x36x36_S1x36x36_1_0_0) : (⟨S2x36x36, .f32⟩ : BufTy).Contents (Elt F) → (⟨S1x36x36, .f32⟩ : BufTy).Contents (Elt F)),
    StableHlo.reshape main_v302 main_v303 rfl shapeCasts_S1x36x36_S36x36,
    StableHlo.unary main_arg14 main_v304 ((extractStridedSlice S1x36 ![1, 0] · slices_S2x36_S1x36_1_0) : (⟨S2x36, .f32⟩ : BufTy).Contents (Elt F) → (⟨S1x36, .f32⟩ : BufTy).Contents (Elt F)),
    StableHlo.reshape main_v304 main_v305 rfl shapeCasts_S1x36_S36,
    StableHlo.nullary main_c_37 (constantI S_ 32 0#32),
    StableHlo.unary main_c_37 main_v306 (broadcastInDim S1600000 ![] bcast_S_S1600000 : (⟨S_, .i32⟩ : BufTy).Contents (Elt F) → (⟨S1600000, .i32⟩ : BufTy).Contents (Elt F)),
    StableHlo.binary main_v185 main_v306 main_v307 (cmpi .slt : (⟨S1600000, .i32⟩ : BufTy).Contents (Elt F) → (⟨S1600000, .i32⟩ : BufTy).Contents (Elt F) → (⟨S1600000, .i1⟩ : BufTy).Contents (Elt F)),
    StableHlo.nullary main_c_38 (constantI S_ 32 100000#32),
    StableHlo.unary main_c_38 main_v308 (broadcastInDim S1600000 ![] bcast_S_S1600000 : (⟨S_, .i32⟩ : BufTy).Contents (Elt F) → (⟨S1600000, .i32⟩ : BufTy).Contents (Elt F)),
    StableHlo.binary main_v185 main_v308 main_v309 (addi : (⟨S1600000, .i32⟩ : BufTy).Contents (Elt F) → (⟨S1600000, .i32⟩ : BufTy).Contents (Elt F) → (⟨S1600000, .i32⟩ : BufTy).Contents (Elt F)),
    StableHlo.ternary main_v307 main_v309 main_v185 main_v310 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v310 main_v311 (broadcastInDim S1600000x1 ![0] bcast_S1600000_S1600000x1_0 : (⟨S1600000, .i32⟩ : BufTy).Contents (Elt F) → (⟨S1600000x1, .i32⟩ : BufTy).Contents (Elt F)),
    StableHlo.binary main_v297 main_v311 main_v312 ((fun x i => Host.gather gather_S100000x36_S1600000x1_S1600000x36_1_0_n_n_0_1_136 x i) : (⟨S100000x36, .f32⟩ : BufTy).Contents (Elt F) → (⟨S1600000x1, .i32⟩ : BufTy).Contents (Elt F) → (⟨S1600000x36, .f32⟩ : BufTy).Contents (Elt F)),
    StableHlo.nullary main_cst_39 (constant S_ .f32 0x00000000#32),
    StableHlo.unary main_cst_39 main_v313 (broadcastInDim S100000x36 ![] bcast_S_S100000x36 : (⟨S_, .f32⟩ : BufTy).Contents (Elt F) → (⟨S100000x36, .f32⟩ : BufTy).Contents (Elt F)),
    StableHlo.unary main_v187 main_v314 (broadcastInDim S1600000x1 ![0] bcast_S1600000_S1600000x1_0 : (⟨S1600000, .i32⟩ : BufTy).Contents (Elt F) → (⟨S1600000x1, .i32⟩ : BufTy).Contents (Elt F)),
    StableHlo.ternary main_v313 main_v314 main_v312 main_v315 ((fun x i u => Host.scatterAdd scatter_S100000x36_S1600000x1_S1600000x36_1_0_0_1 x i u) : (⟨S100000x36, .f32⟩ : BufTy).Contents (Elt F) → (⟨S1600000x1, .i32⟩ : BufTy).Contents (Elt F) → (⟨S1600000x36, .f32⟩ : BufTy).Contents (Elt F) → (⟨S100000x36, .f32⟩ : BufTy).Contents (Elt F)),
    StableHlo.binary main_v297 main_v315 main_v316 (addf : (⟨S100000x36, .f32⟩ : BufTy).Contents (Elt F) → (⟨S100000x36, .f32⟩ : BufTy).Contents (Elt F) → (⟨S100000x36, .f32⟩ : BufTy).Contents (Elt F)) ]

/-- Each is a builder's and writes a reference of index at least 437. -/
theorem sgood11 : ∀ op ∈ (seg11 : List (HloOp τ sig (Elt F))), Good 437 op :=
  List.forall_iff_forall_mem.mp
    ⟨good_unary (by decide), good_reshape (by decide), good_unary (by decide), good_reshape (by decide),
     good_nullary (by decide), good_binary (by decide), good_nullary (by decide), good_unary (by decide),
     good_binary (by decide), good_nullary (by decide), good_nullary (by decide), good_binary (by decide),
     good_unary (by decide), good_nullary (by decide), good_unary (by decide), good_binary (by decide),
     good_unary (by decide), good_binary (by decide), good_binary (by decide), good_unary (by decide),
     good_nullary (by decide), good_binary (by decide), good_nullary (by decide), good_binary (by decide),
     good_unary (by decide), good_binary (by decide), good_nullary (by decide), good_binary (by decide),
     good_nullary (by decide), good_unary (by decide), good_unary (by decide), good_ternary (by decide),
     good_unary (by decide), good_unary (by decide), good_binary (by decide), good_unary (by decide),
     good_unary (by decide), good_binary (by decide), good_nullary (by decide), good_unary (by decide),
     good_binary (by decide), good_unary (by decide), good_unary (by decide), good_unary (by decide),
     good_binary (by decide), good_unary (by decide), good_unary (by decide), good_binary (by decide),
     good_unary (by decide), good_reshape (by decide), good_unary (by decide), good_reshape (by decide),
     good_unary (by decide), good_reshape (by decide), good_unary (by decide), good_reshape (by decide),
     good_nullary (by decide), good_unary (by decide), good_binary (by decide), good_nullary (by decide),
     good_unary (by decide), good_binary (by decide), good_ternary (by decide), good_unary (by decide),
     good_binary (by decide), good_nullary (by decide), good_unary (by decide), good_unary (by decide),
     good_ternary (by decide), good_binary (by decide)⟩

/-- A reference of index below 437 is read unchanged through the segment. -/
theorem keep11 (b : Ref sig .tc) (hb : b.idx.val < 437) (W : Valuation τ sig (Elt F)) :
    after seg11 W (Proc.devRef .tc b) = W (Proc.devRef .tc b) := after_keeps sgood11 W hb

/-- Statements 359 … 370 of @main: 16 operations, in order. -/
abbrev seg12 : List (HloOp τ sig (Elt F)) :=
  [ StableHlo.unary main_v299 main_v317 ((transpose S36x36 [1, 0] · transposes_S36x36_S36x36_1_0) : (⟨S36x36, .f32⟩ : BufTy).Contents (Elt F) → (⟨S36x36, .f32⟩ : BufTy).Contents (Elt F)),
    StableHlo.binary main_v316 main_v317 main_v318 ((fun l r => Host.dotGeneral dot_S100000x36_S36x36_S100000x36_1_0_0_1_n_n none l r) : (⟨S100000x36, .f32⟩ : BufTy).Contents (Elt F) → (⟨S36x36, .f32⟩ : BufTy).Contents (Elt F) → (⟨S100000x36, .f32⟩ : BufTy).Contents (Elt F)),
    StableHlo.unary main_v301 main_v319 (broadcastInDim S1x36 ![1] bcast_S36_S1x36_1 : (⟨S36, .f32⟩ : BufTy).Contents (Elt F) → (⟨S1x36, .f32⟩ : BufTy).Contents (Elt F)),
    StableHlo.unary main_v319 main_v320 (broadcastInDim S100000x36 ![0, 1] bcast_S1x36_S100000x36_0_1 : (⟨S1x36, .f32⟩ : BufTy).Contents (Elt F) → (⟨S100000x36, .f32⟩ : BufTy).Contents (Elt F)),
    StableHlo.binary main_v318 main_v320 main_v321 (addf : (⟨S100000x36, .f32⟩ : BufTy).Contents (Elt F) → (⟨S100000x36, .f32⟩ : BufTy).Contents (Elt F) → (⟨S100000x36, .f32⟩ : BufTy).Contents (Elt F)),
    StableHlo.TRef.nullary main_call15.cst (constant S_ .f32 0x00000000#32),
    StableHlo.TRef.unary main_call15.cst main_call15.v0 (broadcastInDim S100000x36 ![] bcast_S_S100000x36),
    StableHlo.TRef.binary (.of main_v321) main_call15.v0 main_call15.v1 maximumf,
    StableHlo.unary main_v303 main_v323 ((transpose S36x36 [1, 0] · transposes_S36x36_S36x36_1_0) : (⟨S36x36, .f32⟩ : BufTy).Contents (Elt F) → (⟨S36x36, .f32⟩ : BufTy).Contents (Elt F)),
    StableHlo.binary main_v322 main_v323 main_v324 ((fun l r => Host.dotGeneral dot_S100000x36_S36x36_S100000x36_1_0_0_1_n_n none l r) : (⟨S100000x36, .f32⟩ : BufTy).Contents (Elt F) → (⟨S36x36, .f32⟩ : BufTy).Contents (Elt F) → (⟨S100000x36, .f32⟩ : BufTy).Contents (Elt F)),
    StableHlo.unary main_v305 main_v325 (broadcastInDim S1x36 ![1] bcast_S36_S1x36_1 : (⟨S36, .f32⟩ : BufTy).Contents (Elt F) → (⟨S1x36, .f32⟩ : BufTy).Contents (Elt F)),
    StableHlo.unary main_v325 main_v326 (broadcastInDim S100000x36 ![0, 1] bcast_S1x36_S100000x36_0_1 : (⟨S1x36, .f32⟩ : BufTy).Contents (Elt F) → (⟨S100000x36, .f32⟩ : BufTy).Contents (Elt F)),
    StableHlo.binary main_v324 main_v326 main_v327 (addf : (⟨S100000x36, .f32⟩ : BufTy).Contents (Elt F) → (⟨S100000x36, .f32⟩ : BufTy).Contents (Elt F) → (⟨S100000x36, .f32⟩ : BufTy).Contents (Elt F)),
    StableHlo.TRef.nullary main_call16.cst (constant S_ .f32 0x00000000#32),
    StableHlo.TRef.unary main_call16.cst main_call16.v0 (broadcastInDim S100000x36 ![] bcast_S_S100000x36),
    StableHlo.TRef.binary (.of main_v327) main_call16.v0 main_call16.v1 maximumf ]

/-- Each is a builder's and writes a reference of index at least 507. -/
theorem sgood12 : ∀ op ∈ (seg12 : List (HloOp τ sig (Elt F))), Good 507 op :=
  List.forall_iff_forall_mem.mp
    ⟨good_unary (by decide), good_binary (by decide), good_unary (by decide), good_unary (by decide),
     good_binary (by decide), good_nullary (by decide), good_unary (by decide), good_binary (by decide),
     good_unary (by decide), good_binary (by decide), good_unary (by decide), good_unary (by decide),
     good_binary (by decide), good_nullary (by decide), good_unary (by decide), good_binary (by decide)⟩

/-- A reference of index below 507 is read unchanged through the segment. -/
theorem keep12 (b : Ref sig .tc) (hb : b.idx.val < 507) (W : Valuation τ sig (Elt F)) :
    after seg12 W (Proc.devRef .tc b) = W (Proc.devRef .tc b) := after_keeps sgood12 W hb

/-- Statements 371 … 403 of @main: 54 operations, in order. -/
abbrev seg13 : List (HloOp τ sig (Elt F)) :=
  [ StableHlo.unary main_arg15 main_v329 ((extractStridedSlice S1x1x36 ![1, 2, 0] · slices_S2x3x36_S1x1x36_1_2_0) : (⟨S2x3x36, .f32⟩ : BufTy).Contents (Elt F) → (⟨S1x1x36, .f32⟩ : BufTy).Contents (Elt F)),
    StableHlo.reshape main_v329 main_v330 rfl shapeCasts_S1x1x36_S36,
    StableHlo.unary main_arg16 main_v331 ((extractStridedSlice S1x1x36 ![1, 2, 0] · slices_S2x3x36_S1x1x36_1_2_0) : (⟨S2x3x36, .f32⟩ : BufTy).Contents (Elt F) → (⟨S1x1x36, .f32⟩ : BufTy).Contents (Elt F)),
    StableHlo.reshape main_v331 main_v332 rfl shapeCasts_S1x1x36_S36,
    StableHlo.nullary main_cst_40 (constant S_ .f32 0x00000000#32),
    StableHlo.binary main_v328 main_cst_40 main_v333 ((fun x v => Host.reduceAdd x v reducesTo_S100000x36_S36_d0 h_S_) : (⟨S100000x36, .f32⟩ : BufTy).Contents (Elt F) → (⟨S_, .f32⟩ : BufTy).Contents (Elt F) → (⟨S36, .f32⟩ : BufTy).Contents (Elt F)),
    StableHlo.nullary main_cst_41 (constant S_ .f32 0x47C35000#32),
    StableHlo.unary main_cst_41 main_v334 (broadcastInDim S36 ![] bcast_S_S36 : (⟨S_, .f32⟩ : BufTy).Contents (Elt F) → (⟨S36, .f32⟩ : BufTy).Contents (Elt F)),
    StableHlo.binary main_v333 main_v334 main_v335 (Host.divf : (⟨S36, .f32⟩ : BufTy).Contents (Elt F) → (⟨S36, .f32⟩ : BufTy).Contents (Elt F) → (⟨S36, .f32⟩ : BufTy).Contents (Elt F)),
    StableHlo.nullary main_c_42 (constantI S_ 32 0#32),
    StableHlo.TRef.nullary main_call17.cst (constant S_ .f32 0x00000000#32),
    StableHlo.TRef.binary (.of main_v328) main_call17.cst main_call17.v0 (fun x v => Host.reduceAdd x v reducesTo_S100000x36_S36_d0 h_S_),
    StableHlo.TRef.unary main_call17.v0 main_call17.v1 (broadcastInDim S1x36 ![1] bcast_S36_S1x36_1),
    StableHlo.TRef.nullary main_call17.cst_0 (constant S_ .f32 0x47C35000#32),
    StableHlo.TRef.unary main_call17.cst_0 main_call17.v2 (broadcastInDim S1x36 ![] bcast_S_S1x36),
    StableHlo.TRef.binary main_call17.v1 main_call17.v2 main_call17.v3 Host.divf,
    StableHlo.TRef.unary main_call17.v3 main_call17.v4 (broadcastInDim S100000x36 ![0, 1] bcast_S1x36_S100000x36_0_1),
    StableHlo.TRef.binary (.of main_v328) main_call17.v4 main_call17.v5 subf,
    StableHlo.TRef.binary main_call17.v5 main_call17.v5 main_call17.v6 mulf,
    StableHlo.TRef.unary (.of main_c_42) main_call17.v7 (sitofp .f32),
    StableHlo.TRef.nullary main_call17.cst_1 (constant S_ .f32 0x47C35000#32),
    StableHlo.TRef.binary main_call17.cst_1 main_call17.v7 main_call17.v8 subf,
    StableHlo.TRef.nullary main_call17.cst_2 (constant S_ .f32 0x00000000#32),
    StableHlo.TRef.binary main_call17.v6 main_call17.cst_2 main_call17.v9 (fun x v => Host.reduceAdd x v reducesTo_S100000x36_S36_d0 h_S_),
    StableHlo.TRef.unary main_call17.v8 main_call17.v10 (broadcastInDim S36 ![] bcast_S_S36),
    StableHlo.TRef.binary main_call17.v9 main_call17.v10 main_call17.v11 Host.divf,
    StableHlo.TRef.nullary main_call17.cst_3 (constant S_ .f32 0x00000000#32),
    StableHlo.TRef.binary main_call17.v8 main_call17.cst_3 main_call17.v12 (cmpf .ogt),
    StableHlo.TRef.nullary main_call17.cst_4 (constant S_ .f32 0x7FC00000#32),
    StableHlo.TRef.unary main_call17.cst_4 main_call17.call0.v0 id,
    StableHlo.TRef.unary main_call17.call0.v0 main_call17.call0.v1 (broadcastInDim S36 ![] bcast_S_S36),
    StableHlo.TRef.ternary main_call17.v12 main_call17.v11 main_call17.call0.v1 main_call17.call0.v2 (fun p a b => select (broadcastInDim S36 ![] bcast_S_S36 p) a b),
    StableHlo.unary main_v335 main_v337 (broadcastInDim S1x36 ![1] bcast_S36_S1x36_1 : (⟨S36, .f32⟩ : BufTy).Contents (Elt F) → (⟨S1x36, .f32⟩ : BufTy).Contents (Elt F)),
    StableHlo.unary main_v337 main_v338 (broadcastInDim S100000x36 ![0, 1] bcast_S1x36_S100000x36_0_1 : (⟨S1x36, .f32⟩ : BufTy).Contents (Elt F) → (⟨S100000x36, .f32⟩ : BufTy).Contents (Elt F)),
    StableHlo.binary main_v328 main_v338 main_v339 (subf : (⟨S100000x36, .f32⟩ : BufTy).Contents (Elt F) → (⟨S100000x36, .f32⟩ : BufTy).Contents (Elt F) → (⟨S100000x36, .f32⟩ : BufTy).Contents (Elt F)),
    StableHlo.unary main_v330 main_v340 (broadcastInDim S1x36 ![1] bcast_S36_S1x36_1 : (⟨S36, .f32⟩ : BufTy).Contents (Elt F) → (⟨S1x36, .f32⟩ : BufTy).Contents (Elt F)),
    StableHlo.unary main_v340 main_v341 (broadcastInDim S100000x36 ![0, 1] bcast_S1x36_S100000x36_0_1 : (⟨S1x36, .f32⟩ : BufTy).Contents (Elt F) → (⟨S100000x36, .f32⟩ : BufTy).Contents (Elt F)),
    StableHlo.binary main_v341 main_v339 main_v342 (mulf : (⟨S100000x36, .f32⟩ : BufTy).Contents (Elt F) → (⟨S100000x36, .f32⟩ : BufTy).Contents (Elt F) → (⟨S100000x36, .f32⟩ : BufTy).Contents (Elt F)),
    StableHlo.nullary main_cst_43 (constant S_ .f32 0x3727C5AC#32),
    StableHlo.unary main_cst_43 main_v343 (broadcastInDim S36 ![] bcast_S_S36 : (⟨S_, .f32⟩ : BufTy).Contents (Elt F) → (⟨S36, .f32⟩ : BufTy).Contents (Elt F)),
    StableHlo.binary main_v336 main_v343 main_v344 (addf : (⟨S36, .f32⟩ : BufTy).Contents (Elt F) → (⟨S36, .f32⟩ : BufTy).Contents (Elt F) → (⟨S36, .f32⟩ : BufTy).Contents (Elt F)),
    StableHlo.unary main_v344 main_v345 (Host.rsqrt : (⟨S36, .f32⟩ : BufTy).Contents (Elt F) → (⟨S36, .f32⟩ : BufTy).Contents (Elt F)),
    StableHlo.unary main_v345 main_v346 (broadcastInDim S1x36 ![1] bcast_S36_S1x36_1 : (⟨S36, .f32⟩ : BufTy).Contents (Elt F) → (⟨S1x36, .f32⟩ : BufTy).Contents (Elt F)),
    StableHlo.unary main_v346 main_v347 (broadcastInDim S100000x36 ![0, 1] bcast_S1x36_S100000x36_0_1 : (⟨S1x36, .f32⟩ : BufTy).Contents (Elt F) → (⟨S100000x36, .f32⟩ : BufTy).Contents (Elt F)),
    StableHlo.binary main_v342 main_v347 main_v348 (mulf : (⟨S100000x36, .f32⟩ : BufTy).Contents (Elt F) → (⟨S100000x36, .f32⟩ : BufTy).Contents (Elt F) → (⟨S100000x36, .f32⟩ : BufTy).Contents (Elt F)),
    StableHlo.unary main_v332 main_v349 (broadcastInDim S1x36 ![1] bcast_S36_S1x36_1 : (⟨S36, .f32⟩ : BufTy).Contents (Elt F) → (⟨S1x36, .f32⟩ : BufTy).Contents (Elt F)),
    StableHlo.unary main_v349 main_v350 (broadcastInDim S100000x36 ![0, 1] bcast_S1x36_S100000x36_0_1 : (⟨S1x36, .f32⟩ : BufTy).Contents (Elt F) → (⟨S100000x36, .f32⟩ : BufTy).Contents (Elt F)),
    StableHlo.binary main_v348 main_v350 main_v351 (addf : (⟨S100000x36, .f32⟩ : BufTy).Contents (Elt F) → (⟨S100000x36, .f32⟩ : BufTy).Contents (Elt F) → (⟨S100000x36, .f32⟩ : BufTy).Contents (Elt F)),
    StableHlo.unary main_arg2 main_v352 ((extractStridedSlice S1x100000 ![1, 0] · slices_S2x100000_S1x100000_1_0) : (⟨S2x100000, .i32⟩ : BufTy).Contents (Elt F) → (⟨S1x100000, .i32⟩ : BufTy).Contents (Elt F)),
    StableHlo.reshape main_v352 main_v353 rfl shapeCasts_S1x100000_S100000,
    StableHlo.nullary main_cst_44 (constant S_ .f32 0x00000000#32),
    StableHlo.unary main_cst_44 main_v354 (broadcastInDim S512x36 ![] bcast_S_S512x36 : (⟨S_, .f32⟩ : BufTy).Contents (Elt F) → (⟨S512x36, .f32⟩ : BufTy).Contents (Elt F)),
    StableHlo.unary main_v353 main_v355 (broadcastInDim S100000x1 ![0] bcast_S100000_S100000x1_0 : (⟨S100000, .i32⟩ : BufTy).Contents (Elt F) → (⟨S100000x1, .i32⟩ : BufTy).Contents (Elt F)),
    StableHlo.ternary main_v354 main_v355 main_v351 main_v356 ((fun x i u => Host.scatterAdd scatter_S512x36_S100000x1_S100000x36_1_0_0_1 x i u) : (⟨S512x36, .f32⟩ : BufTy).Contents (Elt F) → (⟨S100000x1, .i32⟩ : BufTy).Contents (Elt F) → (⟨S100000x36, .f32⟩ : BufTy).Contents (Elt F) → (⟨S512x36, .f32⟩ : BufTy).Contents (Elt F)) ]

/-- Each is a builder's and writes a reference of index at least 523. -/
theorem sgood13 : ∀ op ∈ (seg13 : List (HloOp τ sig (Elt F))), Good 523 op :=
  List.forall_iff_forall_mem.mp
    ⟨good_unary (by decide), good_reshape (by decide), good_unary (by decide), good_reshape (by decide),
     good_nullary (by decide), good_binary (by decide), good_nullary (by decide), good_unary (by decide),
     good_binary (by decide), good_nullary (by decide), good_nullary (by decide), good_binary (by decide),
     good_unary (by decide), good_nullary (by decide), good_unary (by decide), good_binary (by decide),
     good_unary (by decide), good_binary (by decide), good_binary (by decide), good_unary (by decide),
     good_nullary (by decide), good_binary (by decide), good_nullary (by decide), good_binary (by decide),
     good_unary (by decide), good_binary (by decide), good_nullary (by decide), good_binary (by decide),
     good_nullary (by decide), good_unary (by decide), good_unary (by decide), good_ternary (by decide),
     good_unary (by decide), good_unary (by decide), good_binary (by decide), good_unary (by decide),
     good_unary (by decide), good_binary (by decide), good_nullary (by decide), good_unary (by decide),
     good_binary (by decide), good_unary (by decide), good_unary (by decide), good_unary (by decide),
     good_binary (by decide), good_unary (by decide), good_unary (by decide), good_binary (by decide),
     good_unary (by decide), good_reshape (by decide), good_nullary (by decide), good_unary (by decide),
     good_unary (by decide), good_ternary (by decide)⟩

/-- A reference of index below 523 is read unchanged through the segment. -/
theorem keep13 (b : Ref sig .tc) (hb : b.idx.val < 523) (W : Valuation τ sig (Elt F)) :
    after seg13 W (Proc.devRef .tc b) = W (Proc.devRef .tc b) := after_keeps sgood13 W hb

/-- Statements 404 … 443 of @main: 44 operations, in order. -/
abbrev seg14 : List (HloOp τ sig (Elt F)) :=
  [ StableHlo.nullary main_cst_45 (constant S_ .f32 0x3F800000#32),
    StableHlo.unary main_cst_45 main_v357 (broadcastInDim S100000 ![] bcast_S_S100000 : (⟨S_, .f32⟩ : BufTy).Contents (Elt F) → (⟨S100000, .f32⟩ : BufTy).Contents (Elt F)),
    StableHlo.unary main_arg2 main_v358 ((extractStridedSlice S1x100000 ![1, 0] · slices_S2x100000_S1x100000_1_0) : (⟨S2x100000, .i32⟩ : BufTy).Contents (Elt F) → (⟨S1x100000, .i32⟩ : BufTy).Contents (Elt F)),
    StableHlo.reshape main_v358 main_v359 rfl shapeCasts_S1x100000_S100000,
    StableHlo.nullary main_cst_46 (constant S_ .f32 0x00000000#32),
    StableHlo.unary main_cst_46 main_v360 (broadcastInDim S512 ![] bcast_S_S512 : (⟨S_, .f32⟩ : BufTy).Contents (Elt F) → (⟨S512, .f32⟩ : BufTy).Contents (Elt F)),
    StableHlo.unary main_v359 main_v361 (broadcastInDim S100000x1 ![0] bcast_S100000_S100000x1_0 : (⟨S100000, .i32⟩ : BufTy).Contents (Elt F) → (⟨S100000x1, .i32⟩ : BufTy).Contents (Elt F)),
    StableHlo.ternary main_v360 main_v361 main_v357 main_v362 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),
    StableHlo.nullary main_cst_47 (constant S_ .f32 0x3F800000#32),
    StableHlo.unary main_cst_47 main_v363 (broadcastInDim S512 ![] bcast_S_S512 : (⟨S_, .f32⟩ : BufTy).Contents (Elt F) → (⟨S512, .f32⟩ : BufTy).Contents (Elt F)),
    StableHlo.binary main_v362 main_v363 main_v364 (maximumf : (⟨S512, .f32⟩ : BufTy).Contents (Elt F) → (⟨S512, .f32⟩ : BufTy).Contents (Elt F) → (⟨S512, .f32⟩ : BufTy).Contents (Elt F)),
    StableHlo.unary main_v364 main_v365 (broadcastInDim S512x1 ![0] bcast_S512_S512x1_0 : (⟨S512, .f32⟩ : BufTy).Contents (Elt F) → (⟨S512x1, .f32⟩ : BufTy).Contents (Elt F)),
    StableHlo.unary main_v365 main_v366 (broadcastInDim S512x36 ![0, 1] bcast_S512x1_S512x36_0_1 : (⟨S512x1, .f32⟩ : BufTy).Contents (Elt F) → (⟨S512x36, .f32⟩ : BufTy).Contents (Elt F)),
    StableHlo.binary main_v356 main_v366 main_v367 (Host.divf : (⟨S512x36, .f32⟩ : BufTy).Contents (Elt F) → (⟨S512x36, .f32⟩ : BufTy).Contents (Elt F) → (⟨S512x36, .f32⟩ : BufTy).Contents (Elt F)),
    StableHlo.binary main_v183 main_v367 main_v368 ((fun a b => concatenate S512x72 1 [⟨S512x36, a⟩, ⟨S512x36, b⟩] concatenates_S512x36_S512x36_S512x72_d1) : (⟨S512x36, .f32⟩ : BufTy).Contents (Elt F) → (⟨S512x36, .f32⟩ : BufTy).Contents (Elt F) → (⟨S512x72, .f32⟩ : BufTy).Contents (Elt F)),
    StableHlo.unary main_arg17 main_v369 ((transpose S72x54 [1, 0] · transposes_S54x72_S72x54_1_0) : (⟨S54x72, .f32⟩ : BufTy).Contents (Elt F) → (⟨S72x54, .f32⟩ : BufTy).Contents (Elt F)),
    StableHlo.binary main_v368 main_v369 main_v370 ((fun l r => Host.dotGeneral dot_S512x72_S72x54_S512x54_1_0_0_1_n_n none l r) : (⟨S512x72, .f32⟩ : BufTy).Contents (Elt F) → (⟨S72x54, .f32⟩ : BufTy).Contents (Elt F) → (⟨S512x54, .f32⟩ : BufTy).Contents (Elt F)),
    StableHlo.unary main_arg18 main_v371 (broadcastInDim S1x54 ![1] bcast_S54_S1x54_1 : (⟨S54, .f32⟩ : BufTy).Contents (Elt F) → (⟨S1x54, .f32⟩ : BufTy).Contents (Elt F)),
    StableHlo.unary main_v371 main_v372 (broadcastInDim S512x54 ![0, 1] bcast_S1x54_S512x54_0_1 : (⟨S1x54, .f32⟩ : BufTy).Contents (Elt F) → (⟨S512x54, .f32⟩ : BufTy).Contents (Elt F)),
    StableHlo.binary main_v370 main_v372 main_v373 (addf : (⟨S512x54, .f32⟩ : BufTy).Contents (Elt F) → (⟨S512x54, .f32⟩ : BufTy).Contents (Elt F) → (⟨S512x54, .f32⟩ : BufTy).Contents (Elt F)),
    StableHlo.TRef.nullary main_call18.cst (constant S_ .f32 0x00000000#32),
    StableHlo.TRef.unary main_call18.cst main_call18.v0 (broadcastInDim S512x54 ![] bcast_S_S512x54),
    StableHlo.TRef.binary (.of main_v373) main_call18.v0 main_call18.v1 maximumf,
    StableHlo.unary main_arg19 main_v375 ((transpose S54x18 [1, 0] · transposes_S18x54_S54x18_1_0) : (⟨S18x54, .f32⟩ : BufTy).Contents (Elt F) → (⟨S54x18, .f32⟩ : BufTy).Contents (Elt F)),
    StableHlo.binary main_v374 main_v375 main_v376 ((fun l r => Host.dotGeneral dot_S512x54_S54x18_S512x18_1_0_0_1_n_n none l r) : (⟨S512x54, .f32⟩ : BufTy).Contents (Elt F) → (⟨S54x18, .f32⟩ : BufTy).Contents (Elt F) → (⟨S512x18, .f32⟩ : BufTy).Contents (Elt F)),
    StableHlo.unary main_arg20 main_v377 (broadcastInDim S1x18 ![1] bcast_S18_S1x18_1 : (⟨S18, .f32⟩ : BufTy).Contents (Elt F) → (⟨S1x18, .f32⟩ : BufTy).Contents (Elt F)),
    StableHlo.unary main_v377 main_v378 (broadcastInDim S512x18 ![0, 1] bcast_S1x18_S512x18_0_1 : (⟨S1x18, .f32⟩ : BufTy).Contents (Elt F) → (⟨S512x18, .f32⟩ : BufTy).Contents (Elt F)),
    StableHlo.binary main_v376 main_v378 main_v379 (addf : (⟨S512x18, .f32⟩ : BufTy).Contents (Elt F) → (⟨S512x18, .f32⟩ : BufTy).Contents (Elt F) → (⟨S512x18, .f32⟩ : BufTy).Contents (Elt F)),
    StableHlo.TRef.nullary main_call19.cst (constant S_ .f32 0x00000000#32),
    StableHlo.TRef.unary main_call19.cst main_call19.v0 (broadcastInDim S512x18 ![] bcast_S_S512x18),
    StableHlo.TRef.binary (.of main_v379) main_call19.v0 main_call19.v1 maximumf,
    StableHlo.unary main_arg21 main_v381 ((transpose S18x1 [1, 0] · transposes_S1x18_S18x1_1_0) : (⟨S1x18, .f32⟩ : BufTy).Contents (Elt F) → (⟨S18x1, .f32⟩ : BufTy).Contents (Elt F)),
    StableHlo.binary main_v380 main_v381 main_v382 ((fun l r => Host.dotGeneral dot_S512x18_S18x1_S512x1_1_0_0_1_n_n none l r) : (⟨S512x18, .f32⟩ : BufTy).Contents (Elt F) → (⟨S18x1, .f32⟩ : BufTy).Contents (Elt F) → (⟨S512x1, .f32⟩ : BufTy).Contents (Elt F)),
    StableHlo.unary main_arg22 main_v383 (broadcastInDim S1x1 ![1] bcast_S1_S1x1_1 : (⟨S1, .f32⟩ : BufTy).Contents (Elt F) → (⟨S1x1, .f32⟩ : BufTy).Contents (Elt F)),
    StableHlo.unary main_v383 main_v384 (broadcastInDim S512x1 ![0, 1] bcast_S1x1_S512x1_0_1 : (⟨S1x1, .f32⟩ : BufTy).Contents (Elt F) → (⟨S512x1, .f32⟩ : BufTy).Contents (Elt F)),
    StableHlo.binary main_v382 main_v384 main_v385 (addf : (⟨S512x1, .f32⟩ : BufTy).Contents (Elt F) → (⟨S512x1, .f32⟩ : BufTy).Contents (Elt F) → (⟨S512x1, .f32⟩ : BufTy).Contents (Elt F)),
    StableHlo.unary main_v385 main_v386 (Host.negf : (⟨S512x1, .f32⟩ : BufTy).Contents (Elt F) → (⟨S512x1, .f32⟩ : BufTy).Contents (Elt F)),
    StableHlo.unary main_v386 main_v387 (Host.exp : (⟨S512x1, .f32⟩ : BufTy).Contents (Elt F) → (⟨S512x1, .f32⟩ : BufTy).Contents (Elt F)),
    StableHlo.nullary main_cst_48 (constant S_ .f32 0x3F800000#32),
    StableHlo.unary main_cst_48 main_v388 (broadcastInDim S512x1 ![] bcast_S_S512x1 : (⟨S_, .f32⟩ : BufTy).Contents (Elt F) → (⟨S512x1, .f32⟩ : BufTy).Contents (Elt F)),
    StableHlo.binary main_v388 main_v387 main_v389 (addf : (⟨S512x1, .f32⟩ : BufTy).Contents (Elt F) → (⟨S512x1, .f32⟩ : BufTy).Contents (Elt F) → (⟨S512x1, .f32⟩ : BufTy).Contents (Elt F)),
    StableHlo.nullary main_cst_49 (constant S_ .f32 0x3F800000#32),
    StableHlo.unary main_cst_49 main_v390 (broadcastInDim S512x1 ![] bcast_S_S512x1 : (⟨S_, .f32⟩ : BufTy).Contents (Elt F) → (⟨S512x1, .f32⟩ : BufTy).Contents (Elt F)),
    StableHlo.binary main_v390 main_v389 main_v391 (Host.divf : (⟨S512x1, .f32⟩ : BufTy).Contents (Elt F) → (⟨S512x1, .f32⟩ : BufTy).Contents (Elt F) → (⟨S512x1, .f32⟩ : BufTy).Contents (Elt F)) ]

/-- Each is a builder's and writes a reference of index at least 577. -/
theorem sgood14 : ∀ op ∈ (seg14 : List (HloOp τ sig (Elt F))), Good 577 op :=
  List.forall_iff_forall_mem.mp
    ⟨good_nullary (by decide), good_unary (by decide), good_unary (by decide), good_reshape (by decide),
     good_nullary (by decide), good_unary (by decide), good_unary (by decide), good_ternary (by decide),
     good_nullary (by decide), good_unary (by decide), good_binary (by decide), good_unary (by decide),
     good_unary (by decide), good_binary (by decide), good_binary (by decide), good_unary (by decide),
     good_binary (by decide), good_unary (by decide), good_unary (by decide), good_binary (by decide),
     good_nullary (by decide), good_unary (by decide), good_binary (by decide), good_unary (by decide),
     good_binary (by decide), good_unary (by decide), good_unary (by decide), good_binary (by decide),
     good_nullary (by decide), good_unary (by decide), good_binary (by decide), good_unary (by decide),
     good_binary (by decide), good_unary (by decide), good_unary (by decide), good_binary (by decide),
     good_unary (by decide), good_unary (by decide), good_nullary (by decide), good_unary (by decide),
     good_binary (by decide), good_nullary (by decide), good_unary (by decide), good_binary (by decide)⟩

/-- A reference of index below 577 is read unchanged through the segment. -/
theorem keep14 (b : Ref sig .tc) (hb : b.idx.val < 577) (W : Valuation τ sig (Elt F)) :
    after seg14 W (Proc.devRef .tc b) = W (Proc.devRef .tc b) := after_keeps sgood14 W hb

end Cert.ReferenceIdeal.RefRun

end
-- ==== Proof.RefChain.lean ====
import proofs.«408188_j34256659153341_2_alg».proof.Proof.RefRun
import proofs.«408188_j34256659153341_2_alg».proof.Proof.RefSegs
import Idealize.ShloMosaic.Lib.Pipeline.Frame

/-! The reference program's operations cut into segments, and the buffers' contents after each: the windows' lists
    and the segments' lists are one list cut at different places, so the fold over @main's operations is the
    segments' folds composed. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The windows' operations are the segments': both sides are the same literal list, by computation. -/
theorem ops_eq_segs : (ops : List (HloOp τ sig (Elt F))) = seg0 ++ (seg1 ++ (seg2 ++ (seg3 ++ (seg4 ++ (seg5 ++ (seg6 ++ (seg7 ++ (seg8 ++ (seg9 ++ (seg10 ++ (seg11 ++ (seg12 ++ (seg13 ++ seg14))))))))))))) := rfl

variable (m : (ℓ : Loc nD τ sig) → Buf (Elt F) ℓ) (c : Dev nD)

/-- The device's buffers at launch. -/
abbrev R0 : Valuation τ sig (Elt F) := launchContents m c
/-- After segment 0. -/
abbrev R1 : Valuation τ sig (Elt F) := after seg0 (R0 m c)
/-- After segment 1. -/
abbrev R2 : Valuation τ sig (Elt F) := after seg1 (R1 m c)
/-- After segment 2. -/
abbrev R3 : Valuation τ sig (Elt F) := after seg2 (R2 m c)
/-- After segment 3. -/
abbrev R4 : Valuation τ sig (Elt F) := after seg3 (R3 m c)
/-- After segment 4. -/
abbrev R5 : Valuation τ sig (Elt F) := after seg4 (R4 m c)
/-- After segment 5. -/
abbrev R6 : Valuation τ sig (Elt F) := after seg5 (R5 m c)
/-- After segment 6. -/
abbrev R7 : Valuation τ sig (Elt F) := after seg6 (R6 m c)
/-- After segment 7. -/
abbrev R8 : Valuation τ sig (Elt F) := after seg7 (R7 m c)
/-- After segment 8. -/
abbrev R9 : Valuation τ sig (Elt F) := after seg8 (R8 m c)
/-- After segment 9. -/
abbrev R10 : Valuation τ sig (Elt F) := after seg9 (R9 m c)
/-- After segment 10. -/
abbrev R11 : Valuation τ sig (Elt F) := after seg10 (R10 m c)
/-- After segment 11. -/
abbrev R12 : Valuation τ sig (Elt F) := after seg11 (R11 m c)
/-- After segment 12. -/
abbrev R13 : Valuation τ sig (Elt F) := after seg12 (R12 m c)
/-- After segment 13. -/
abbrev R14 : Valuation τ sig (Elt F) := after seg13 (R13 m c)
/-- After segment 14. -/
abbrev R15 : Valuation τ sig (Elt F) := after seg14 (R14 m c)

/-- The fold over @main's operations is the segments' folds, one after the other. -/
theorem after_ops : after ops (launchContents m c) = R15 m c := by
  rw [ops_eq_segs]
  simp only [StableHlo.after_append]

end Cert.ReferenceIdeal.RefRun

end
-- ==== Proof.GinMath.lean ====
/-
  The mathematics of one graph-isomorphism layer and of the mean pool, on extended reals, index by index.
  A node row n of the aggregated features A passes a two-layer perceptron with rectifiers,
      y(n,d) = max( Σ_k max( Σ_j A(n,j)·WA(j,k) + BA(k), 0 )·WB(k,d) + BB(d), 0 );
  batch normalisation needs the column sums of y and of y², which a tiled computation delivers as one row of
  partial sums per tile of 5000 node rows (row 8·t of a 160-row array, the seven rows after it zero);
  the pool adds the normalised rows of the nodes of one graph.
-/
import Idealize.ShloMosaic.Lib.ValueIdx

noncomputable section

open scoped BigOperators

namespace Cert.GinMath

open Idealize.ShloMosaic Idealize.ShloMosaic.ValueIdx

/-! ## Index sets (literal shapes) -/
abbrev N6 : Shape := ⟨2, ![100000, 6]⟩
abbrev N36 : Shape := ⟨2, ![100000, 36]⟩
abbrev N1 : Shape := ⟨2, ![100000, 1]⟩
abbrev W6 : Shape := ⟨2, ![6, 36]⟩
abbrev W36 : Shape := ⟨2, ![36, 36]⟩
abbrev R36 : Shape := ⟨2, ![1, 36]⟩
abbrev P36 : Shape := ⟨2, ![160, 36]⟩
abbrev G36 : Shape := ⟨2, ![512, 36]⟩
abbrev C36 : Shape := ⟨1, ![36]⟩

/-! ## The perceptron -/

/-- The hidden activation of node n, unit k, from 6 input features. -/
def hid6 (A : N6.Idx → EReal) (WA : W6.Idx → EReal) (BA : R36.Idx → EReal) (n : Fin 100000) (k : Fin 36) : EReal :=
  max ((∑ j : Fin 6, A (ix2 n j) * WA (ix2 j k)) + BA (ix2 0 k)) 0

/-- The hidden activation of node n, unit k, from 36 input features. -/
def hid36 (A : N36.Idx → EReal) (WA : W36.Idx → EReal) (BA : R36.Idx → EReal) (n : Fin 100000) (k : Fin 36) : EReal :=
  max ((∑ j : Fin 36, A (ix2 n j) * WA (ix2 j k)) + BA (ix2 0 k)) 0

/-- The perceptron's output from 6 input features, as a whole array. -/
def mlp6 (A : N6.Idx → EReal) (WA : W6.Idx → EReal) (BA : R36.Idx → EReal) (WB : W36.Idx → EReal) (BB : R36.Idx → EReal) :
    N36.Idx → EReal :=
  fun i => max ((∑ k : Fin 36, hid6 A WA BA (i 0) k * WB (ix2 k (i 1))) + BB (ix2 0 (i 1))) 0

/-- The perceptron's output from 36 input features, as a whole array. -/
def mlp36 (A : N36.Idx → EReal) (WA : W36.Idx → EReal) (BA : R36.Idx → EReal) (WB : W36.Idx → EReal) (BB : R36.Idx → EReal) :
    N36.Idx → EReal :=
  fun i => max ((∑ k : Fin 36, hid36 A WA BA (i 0) k * WB (ix2 k (i 1))) + BB (ix2 0 (i 1))) 0

/-! ## Partial sums by tile, and column sums -/

/-- Row r of the 160-row array of partial sums: for r = 8·t the sum of column d over the 5000 node rows of tile t,
    and zero on the seven rows that follow. -/
def tileSums (Y : N36.Idx → EReal) : P36.Idx → EReal :=
  fun i => if (i 0).val % 8 = 0 then ∑ n : Fin 100000, (if n.val / 5000 = (i 0).val / 8 then Y (ix2 n (i 1)) else 0) else 0

/-- The pointwise square. -/
def sq (Y : N36.Idx → EReal) : N36.Idx → EReal := fun i => Y i * Y i

/-- The sum of each column over all 100000 node rows. -/
def colSum (Y : N36.Idx → EReal) : C36.Idx → EReal := fun d => ∑ n : Fin 100000, Y (ix2 n (d 0))

/-! ## The pool -/

/-- Row g of the pool: the sum of the rows H(n, ·) over the nodes n whose graph id is the word g. A graph id outside
    0 … 511 matches no row. -/
def poolSum (H : N36.Idx → EReal) (B : N1.Idx → BitVec 32) : G36.Idx → EReal :=
  fun i => ∑ n : Fin 100000, (if B (ix2 n 0) = BitVec.ofNat 32 (i 0).val then H (ix2 n (i 1)) else 0)

/-- Batch normalisation of y with given column means M, variances V, scale G and shift Bt (rows of 36), the
    small constant eps added under the inverse square root; grouped as ((G·(y − M))·rsqrt(V + eps)) + Bt. -/
def bnRow (eps : EReal) (Y : N36.Idx → EReal) (M V G Bt : R36.Idx → EReal) : N36.Idx → EReal :=
  fun i => G (ix2 0 (i 1)) * (Y i - M (ix2 0 (i 1))) * Ideal.rsqrt (V (ix2 0 (i 1)) + eps) + Bt (ix2 0 (i 1))

end Cert.GinMath

end
-- ==== Proof.BridgeDefs.lean ====
/-
  The relations carried from checkpoint to checkpoint when the two programs' runs are compared: an array of
  activations is the same on both sides and every entry of it is a real number (finiteness is what the variance
  identity Σ(y − μ)²/N = Σy²/N − μ² needs); a layer's output comes with its per-tile column sums and those of
  its squares.
-/
import proofs.«408188_j34256659153341_2_alg».proof.Proof.GinMath

noncomputable section

namespace Cert.Bridge

open Idealize.ShloMosaic

/-- Every entry of the array is a real number (neither infinity). -/
def IsReal {S : Shape} (X : S.Idx → EReal) : Prop := ∀ i, ∃ r : ℝ, X i = (r : EReal)

/-- An aggregate array is the same on both sides, and real. -/
def RelAgg {S : Shape} (K R : S.Idx → EReal) : Prop := K = R ∧ IsReal K

/-- A layer's output y on both sides, with the tiled side's partial column sums of y and of y², and y real. -/
def RelY (K0 : GinMath.N36.Idx → EReal) (K1 K2 : GinMath.P36.Idx → EReal) (R : GinMath.N36.Idx → EReal) : Prop :=
  K0 = R ∧ K1 = GinMath.tileSums R ∧ K2 = GinMath.tileSums (GinMath.sq R) ∧ IsReal R

end Cert.Bridge

end
-- ==== Proof.PreFin.lean ====
/-
  The claim's precondition, read back. The precondition says of each of the twenty-one float argument arrays X
  that the conjunction over all its entries of |X(i)| < +∞ is true, and takes the conjunction of these twenty-one
  bits. On extended reals |x| = max(x, −x) and +∞ is the value of the pattern 0x7F800000; max(x, −x) < +∞ fails
  at x = +∞ and at x = −∞ and so leaves x a real number. A conjunction of bits is 1 exactly when each bit is 1,
  and a reduction by "and" over all axes is 1 only when every entry is 1: so every entry of every float argument
  is a real number. (Arguments 1 and 2 are integer arrays and the precondition does not speak of them.)
-/
import proofs.«408188_j34256659153341_2_alg».proof.Defs
import proofs.«408188_j34256659153341_2_alg».proof.Proof.BridgeDefs
import Idealize.ShloMosaic.Lib.ReduceAll
import Idealize.ShloMosaic.Lib.ValueIdx

noncomputable section

namespace Cert.PreFin

open Idealize.ShloMosaic Idealize.ShloMosaic.ValueIdx Idealize.SL.Sem
open Cert.Pre_finite_inputs (S_)
open Cert.Bridge (IsReal)

/-- The scalar shape has one index. -/
instance : Subsingleton S_.Idx := ⟨fun a b => funext fun d => d.elim0⟩

/-- The pattern 0x7F800000 denotes +∞. -/
theorem inf_bits : Ideal.ofBits .f32 0x7F800000#32 = (⊤ : EReal) := by
  simp [Ideal.ofBits, Ideal.ieee]

/-- An extended real whose absolute value max(x, −x) is below +∞ is a real number. -/
theorem real_of_abs_lt (x : EReal) (h : Ideal.cmp .olt (max x (-x)) (Ideal.ofBits .f32 0x7F800000#32) = 1#1) :
    ∃ r : ℝ, x = (r : EReal) := by
  rw [inf_bits] at h
  induction x using EReal.rec with
  | bot => simp [Ideal.cmp] at h
  | coe r => exact ⟨r, rfl⟩
  | top => simp [Ideal.cmp] at h

/-- An array every entry of which is, in absolute value, below +∞ — said by the conjunction over all axes of the
    entrywise comparison against the broadcast scalar +∞ being 1 — has only real entries. -/
theorem isReal_of_all {S : Shape} {axes : List (Fin S.rank)}
    (bc : S_.BroadcastsInDim S (![] : Fin 0 → Fin S.rank)) (red : S.ReducesTo axes S_) (hu : 0 < S_.numel)
    (X : FVec Ideal S .f32) (init : IVec S_ 1)
    (e : Host.reduce IntOp.andi (cmpf .olt (Host.absf X) (broadcastInDim S ![] bc (constant S_ .f32 0x7F800000#32)))
      init red hu ix0 = 1#1) : IsReal X := by
  intro i
  have h := Host.reduce_andi_all _ init red hu ix0 e i
  exact real_of_abs_lt (X i) h

variable [Cert.Pre_finite_inputs.Facts]

/-- The precondition read back: it is the conjunction, over the twenty-one float arguments, of "every entry is below +∞
    in absolute value"; so every float argument has only real entries. -/
theorem real_all (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (m ((c.tc : Thread Cert.KernelIdeal.nD Cert.KernelIdeal.τ).loc Cert.KernelIdeal.main_arg0)) ∧
    IsReal (m ((c.tc : Thread Cert.KernelIdeal.nD Cert.KernelIdeal.τ).loc Cert.KernelIdeal.main_arg3)) ∧
    IsReal (m ((c.tc : Thread Cert.KernelIdeal.nD Cert.KernelIdeal.τ).loc Cert.KernelIdeal.main_arg4)) ∧
    IsReal (m ((c.tc : Thread Cert.KernelIdeal.nD Cert.KernelIdeal.τ).loc Cert.KernelIdeal.main_arg5)) ∧
    IsReal (m ((c.tc : Thread Cert.KernelIdeal.nD Cert.KernelIdeal.τ).loc Cert.KernelIdeal.main_arg6)) ∧
    IsReal (m ((c.tc : Thread Cert.KernelIdeal.nD Cert.KernelIdeal.τ).loc Cert.KernelIdeal.main_arg7)) ∧
    IsReal (m ((c.tc : Thread Cert.KernelIdeal.nD Cert.KernelIdeal.τ).loc Cert.KernelIdeal.main_arg8)) ∧
    IsReal (m ((c.tc : Thread Cert.KernelIdeal.nD Cert.KernelIdeal.τ).loc Cert.KernelIdeal.main_arg9)) ∧
    IsReal (m ((c.tc : Thread Cert.KernelIdeal.nD Cert.KernelIdeal.τ).loc Cert.KernelIdeal.main_arg10)) ∧
    IsReal (m ((c.tc : Thread Cert.KernelIdeal.nD Cert.KernelIdeal.τ).loc Cert.KernelIdeal.main_arg11)) ∧
    IsReal (m ((c.tc : Thread Cert.KernelIdeal.nD Cert.KernelIdeal.τ).loc Cert.KernelIdeal.main_arg12)) ∧
    IsReal (m ((c.tc : Thread Cert.KernelIdeal.nD Cert.KernelIdeal.τ).loc Cert.KernelIdeal.main_arg13)) ∧
    IsReal (m ((c.tc : Thread Cert.KernelIdeal.nD Cert.KernelIdeal.τ).loc Cert.KernelIdeal.main_arg14)) ∧
    IsReal (m ((c.tc : Thread Cert.KernelIdeal.nD Cert.KernelIdeal.τ).loc Cert.KernelIdeal.main_arg15)) ∧
    IsReal (m ((c.tc : Thread Cert.KernelIdeal.nD Cert.KernelIdeal.τ).loc Cert.KernelIdeal.main_arg16)) ∧
    IsReal (m ((c.tc : Thread Cert.KernelIdeal.nD Cert.KernelIdeal.τ).loc Cert.KernelIdeal.main_arg17)) ∧
    IsReal (m ((c.tc : Thread Cert.KernelIdeal.nD Cert.KernelIdeal.τ).loc Cert.KernelIdeal.main_arg18)) ∧
    IsReal (m ((c.tc : Thread Cert.KernelIdeal.nD Cert.KernelIdeal.τ).loc Cert.KernelIdeal.main_arg19)) ∧
    IsReal (m ((c.tc : Thread Cert.KernelIdeal.nD Cert.KernelIdeal.τ).loc Cert.KernelIdeal.main_arg20)) ∧
    IsReal (m ((c.tc : Thread Cert.KernelIdeal.nD Cert.KernelIdeal.τ).loc Cert.KernelIdeal.main_arg21)) ∧
    IsReal (m ((c.tc : Thread Cert.KernelIdeal.nD Cert.KernelIdeal.τ).loc Cert.KernelIdeal.main_arg22)) := by
  have e := congrFun (hpre c) ix0
  unfold Cert.Pre_finite_inputs.fn Cert.Pre_finite_inputs.fn_part1 Cert.Pre_finite_inputs.fn_part2
    Cert.Pre_finite_inputs.fn_part3 Cert.Pre_finite_inputs.fn_part4 Cert.Pre_finite_inputs.fn_part5
    Cert.Pre_finite_inputs.fn_part6 at e
  simp only [andi, IntOp.andi_eq_one] at e
  obtain ⟨⟨⟨⟨⟨⟨⟨⟨⟨⟨⟨⟨⟨⟨⟨⟨⟨⟨⟨⟨h0, h3⟩, h4⟩, h5⟩, h6⟩, h7⟩, h8⟩, h9⟩, h10⟩, h11⟩, h12⟩, h13⟩, h14⟩, h15⟩, h16⟩, h17⟩, h18⟩, h19⟩, h20⟩, h21⟩, h22⟩ := e
  exact ⟨isReal_of_all _ _ _ _ _ h0, isReal_of_all _ _ _ _ _ h3, isReal_of_all _ _ _ _ _ h4, isReal_of_all _ _ _ _ _ h5, isReal_of_all _ _ _ _ _ h6, isReal_of_all _ _ _ _ _ h7, isReal_of_all _ _ _ _ _ h8, isReal_of_all _ _ _ _ _ h9, isReal_of_all _ _ _ _ _ h10, isReal_of_all _ _ _ _ _ h11, isReal_of_all _ _ _ _ _ h12, isReal_of_all _ _ _ _ _ h13, isReal_of_all _ _ _ _ _ h14, isReal_of_all _ _ _ _ _ h15, isReal_of_all _ _ _ _ _ h16, isReal_of_all _ _ _ _ _ h17, isReal_of_all _ _ _ _ _ h18, isReal_of_all _ _ _ _ _ h19, isReal_of_all _ _ _ _ _ h20, isReal_of_all _ _ _ _ _ h21, isReal_of_all _ _ _ _ _ h22⟩

/-! The twenty-one float arguments, one by one. -/

/-- Argument 0 ([2,100000,6]) has only real entries. -/
theorem real_arg0 (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (m ((c.tc : Thread Cert.KernelIdeal.nD Cert.KernelIdeal.τ).loc Cert.KernelIdeal.main_arg0)) :=
  (real_all m hpre c).1

/-- Argument 3 ([2,36,6]) has only real entries. -/
theorem real_arg3 (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (m ((c.tc : Thread Cert.KernelIdeal.nD Cert.KernelIdeal.τ).loc Cert.KernelIdeal.main_arg3)) :=
  (real_all m hpre c).2.1

/-- Argument 4 ([2,36]) has only real entries. -/
theorem real_arg4 (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (m ((c.tc : Thread Cert.KernelIdeal.nD Cert.KernelIdeal.τ).loc Cert.KernelIdeal.main_arg4)) :=
  (real_all m hpre c).2.2.1

/-- Argument 5 ([2,36,36]) has only real entries. -/
theorem real_arg5 (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (m ((c.tc : Thread Cert.KernelIdeal.nD Cert.KernelIdeal.τ).loc Cert.KernelIdeal.main_arg5)) :=
  (real_all m hpre c).2.2.2.1

/-- Argument 6 ([2,36]) has only real entries. -/
theorem real_arg6 (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (m ((c.tc : Thread Cert.KernelIdeal.nD Cert.KernelIdeal.τ).loc Cert.KernelIdeal.main_arg6)) :=
  (real_all m hpre c).2.2.2.2.1

/-- Argument 7 ([2,36,36]) has only real entries. -/
theorem real_arg7 (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (m ((c.tc : Thread Cert.KernelIdeal.nD Cert.KernelIdeal.τ).loc Cert.KernelIdeal.main_arg7)) :=
  (real_all m hpre c).2.2.2.2.2.1

/-- Argument 8 ([2,36]) has only real entries. -/
theorem real_arg8 (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (m ((c.tc : Thread Cert.KernelIdeal.nD Cert.KernelIdeal.τ).loc Cert.KernelIdeal.main_arg8)) :=
  (real_all m hpre c).2.2.2.2.2.2.1

/-- Argument 9 ([2,36,36]) has only real entries. -/
theorem real_arg9 (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (m ((c.tc : Thread Cert.KernelIdeal.nD Cert.KernelIdeal.τ).loc Cert.KernelIdeal.main_arg9)) :=
  (real_all m hpre c).2.2.2.2.2.2.2.1

/-- Argument 10 ([2,36]) has only real entries. -/
theorem real_arg10 (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (m ((c.tc : Thread Cert.KernelIdeal.nD Cert.KernelIdeal.τ).loc Cert.KernelIdeal.main_arg10)) :=
  (real_all m hpre c).2.2.2.2.2.2.2.2.1

/-- Argument 11 ([2,36,36]) has only real entries. -/
theorem real_arg11 (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (m ((c.tc : Thread Cert.KernelIdeal.nD Cert.KernelIdeal.τ).loc Cert.KernelIdeal.main_arg11)) :=
  (real_all m hpre c).2.2.2.2.2.2.2.2.2.1

/-- Argument 12 ([2,36]) has only real entries. -/
theorem real_arg12 (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (m ((c.tc : Thread Cert.KernelIdeal.nD Cert.KernelIdeal.τ).loc Cert.KernelIdeal.main_arg12)) :=
  (real_all m hpre c).2.2.2.2.2.2.2.2.2.2.1

/-- Argument 13 ([2,36,36]) has only real entries. -/
theorem real_arg13 (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (m ((c.tc : Thread Cert.KernelIdeal.nD Cert.KernelIdeal.τ).loc Cert.KernelIdeal.main_arg13)) :=
  (real_all m hpre c).2.2.2.2.2.2.2.2.2.2.2.1

/-- Argument 14 ([2,36]) has only real entries. -/
theorem real_arg14 (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (m ((c.tc : Thread Cert.KernelIdeal.nD Cert.KernelIdeal.τ).loc Cert.KernelIdeal.main_arg14)) :=
  (real_all m hpre c).2.2.2.2.2.2.2.2.2.2.2.2.1

/-- Argument 15 ([2,3,36]) has only real entries. -/
theorem real_arg15 (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (m ((c.tc : Thread Cert.KernelIdeal.nD Cert.KernelIdeal.τ).loc Cert.KernelIdeal.main_arg15)) :=
  (real_all m hpre c).2.2.2.2.2.2.2.2.2.2.2.2.2.1

/-- Argument 16 ([2,3,36]) has only real entries. -/
theorem real_arg16 (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (m ((c.tc : Thread Cert.KernelIdeal.nD Cert.KernelIdeal.τ).loc Cert.KernelIdeal.main_arg16)) :=
  (real_all m hpre c).2.2.2.2.2.2.2.2.2.2.2.2.2.2.1

/-- Argument 17 ([54,72]) has only real entries. -/
theorem real_arg17 (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (m ((c.tc : Thread Cert.KernelIdeal.nD Cert.KernelIdeal.τ).loc Cert.KernelIdeal.main_arg17)) :=
  (real_all m hpre c).2.2.2.2.2.2.2.2.2.2.2.2.2.2.2.1

/-- Argument 18 ([54]) has only real entries. -/
theorem real_arg18 (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (m ((c.tc : Thread Cert.KernelIdeal.nD Cert.KernelIdeal.τ).loc Cert.KernelIdeal.main_arg18)) :=
  (real_all m hpre c).2.2.2.2.2.2.2.2.2.2.2.2.2.2.2.2.1

/-- Argument 19 ([18,54]) has only real entries. -/
theorem real_arg19 (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (m ((c.tc : Thread Cert.KernelIdeal.nD Cert.KernelIdeal.τ).loc Cert.KernelIdeal.main_arg19)) :=
  (real_all m hpre c).2.2.2.2.2.2.2.2.2.2.2.2.2.2.2.2.2.1

/-- Argument 20 ([18]) has only real entries. -/
theorem real_arg20 (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (m ((c.tc : Thread Cert.KernelIdeal.nD Cert.KernelIdeal.τ).loc Cert.KernelIdeal.main_arg20)) :=
  (real_all m hpre c).2.2.2.2.2.2.2.2.2.2.2.2.2.2.2.2.2.2.1

/-- Argument 21 ([1,18]) has only real entries. -/
theorem real_arg21 (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (m ((c.tc : Thread Cert.KernelIdeal.nD Cert.KernelIdeal.τ).loc Cert.KernelIdeal.main_arg21)) :=
  (real_all m hpre c).2.2.2.2.2.2.2.2.2.2.2.2.2.2.2.2.2.2.2.1

/-- Argument 22 ([1]) has only real entries. -/
theorem real_arg22 (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (m ((c.tc : Thread Cert.KernelIdeal.nD Cert.KernelIdeal.τ).loc Cert.KernelIdeal.main_arg22)) :=
  (real_all m hpre c).2.2.2.2.2.2.2.2.2.2.2.2.2.2.2.2.2.2.2.2

end Cert.PreFin

end
-- ==== Proof.KOpsGood.lean ====
import proofs.«408188_j34256659153341_2_alg».proof.Proof.Gen.KernelIdeal.Launch
import proofs.«408188_j34256659153341_2_alg».proof.Proof.RefGood

/-! Per host stretch of the kernel program's @main: each operation is a builder's over TensorCore references and
    writes a reference of index at least the stretch's smallest written index, so a reference of smaller index is
    read unchanged through the stretch. -/

noncomputable section

namespace Cert.KernelIdeal.KOps

open Cert.KernelIdeal Cert.KernelIdeal.Gen Idealize.ShloMosaic Idealize.SL.Sem Idealize.ShloMosaic.StableHlo
open Cert.ReferenceIdeal.RefRun (Good good_nullary good_unary good_binary good_ternary good_reshape after_keeps)

variable {F : FTy → Type} [FloatOps F]

/-- Stretch hostOps0: each of its 34 operations is a builder's and writes a reference of index at least 23. -/
theorem kgood_0 : ∀ op ∈ (hostOps0 : List (HloOp τ sig (Elt F))), Good 23 op :=
  List.forall_iff_forall_mem.mp
    ⟨good_unary (by decide), good_reshape (by decide), good_unary (by decide), good_reshape (by decide),
     good_unary (by decide), good_reshape (by decide), good_unary (by decide), good_nullary (by decide),
     good_unary (by decide), good_binary (by decide), good_nullary (by decide), good_unary (by decide),
     good_binary (by decide), good_ternary (by decide), good_unary (by decide), good_binary (by decide),
     good_unary (by decide), good_nullary (by decide), good_unary (by decide), good_unary (by decide),
     good_ternary (by decide), good_binary (by decide), good_unary (by decide), good_reshape (by decide),
     good_unary (by decide), good_reshape (by decide), good_unary (by decide), good_reshape (by decide),
     good_unary (by decide), good_reshape (by decide), good_unary (by decide), good_unary (by decide),
     good_reshape (by decide), good_reshape (by decide)⟩

/-- A reference of index below 23 is read unchanged through the stretch. -/
theorem kkeep_0 (b : Ref sig .tc) (hb : b.idx.val < 23) (W : Valuation τ sig (Elt F)) :
    after hostOps0 W (Proc.devRef .tc b) = W (Proc.devRef .tc b) := after_keeps kgood_0 W hb

/-- Stretch hostOps1: each of its 60 operations is a builder's and writes a reference of index at least 60. -/
theorem kgood_1 : ∀ op ∈ (hostOps1 : List (HloOp τ sig (Elt F))), Good 60 op :=
  List.forall_iff_forall_mem.mp
    ⟨good_nullary (by decide), good_binary (by decide), good_nullary (by decide), good_binary (by decide),
     good_nullary (by decide), good_unary (by decide), good_binary (by decide), good_nullary (by decide),
     good_unary (by decide), good_binary (by decide), good_binary (by decide), good_binary (by decide),
     good_unary (by decide), good_reshape (by decide), good_unary (by decide), good_reshape (by decide),
     good_nullary (by decide), good_unary (by decide), good_binary (by decide), good_unary (by decide),
     good_unary (by decide), good_unary (by decide), good_unary (by decide), good_binary (by decide),
     good_unary (by decide), good_binary (by decide), good_unary (by decide), good_unary (by decide),
     good_binary (by decide), good_unary (by decide), good_unary (by decide), good_binary (by decide),
     good_unary (by decide), good_nullary (by decide), good_unary (by decide), good_binary (by decide),
     good_nullary (by decide), good_unary (by decide), good_binary (by decide), good_ternary (by decide),
     good_unary (by decide), good_binary (by decide), good_unary (by decide), good_nullary (by decide),
     good_unary (by decide), good_unary (by decide), good_ternary (by decide), good_binary (by decide),
     good_unary (by decide), good_reshape (by decide), good_unary (by decide), good_reshape (by decide),
     good_unary (by decide), good_reshape (by decide), good_unary (by decide), good_reshape (by decide),
     good_unary (by decide), good_unary (by decide), good_reshape (by decide), good_reshape (by decide)⟩

/-- A reference of index below 60 is read unchanged through the stretch. -/
theorem kkeep_1 (b : Ref sig .tc) (hb : b.idx.val < 60) (W : Valuation τ sig (Elt F)) :
    after hostOps1 W (Proc.devRef .tc b) = W (Proc.devRef .tc b) := after_keeps kgood_1 W hb

/-- Stretch hostOps2: each of its 60 operations is a builder's and writes a reference of index at least 123. -/
theorem kgood_2 : ∀ op ∈ (hostOps2 : List (HloOp τ sig (Elt F))), Good 123 op :=
  List.forall_iff_forall_mem.mp
    ⟨good_nullary (by decide), good_binary (by decide), good_nullary (by decide), good_binary (by decide),
     good_nullary (by decide), good_unary (by decide), good_binary (by decide), good_nullary (by decide),
     good_unary (by decide), good_binary (by decide), good_binary (by decide), good_binary (by decide),
     good_unary (by decide), good_reshape (by decide), good_unary (by decide), good_reshape (by decide),
     good_nullary (by decide), good_unary (by decide), good_binary (by decide), good_unary (by decide),
     good_unary (by decide), good_unary (by decide), good_unary (by decide), good_binary (by decide),
     good_unary (by decide), good_binary (by decide), good_unary (by decide), good_unary (by decide),
     good_binary (by decide), good_unary (by decide), good_unary (by decide), good_binary (by decide),
     good_unary (by decide), good_nullary (by decide), good_unary (by decide), good_binary (by decide),
     good_nullary (by decide), good_unary (by decide), good_binary (by decide), good_ternary (by decide),
     good_unary (by decide), good_binary (by decide), good_unary (by decide), good_nullary (by decide),
     good_unary (by decide), good_unary (by decide), good_ternary (by decide), good_binary (by decide),
     good_unary (by decide), good_reshape (by decide), good_unary (by decide), good_reshape (by decide),
     good_unary (by decide), good_reshape (by decide), good_unary (by decide), good_reshape (by decide),
     good_unary (by decide), good_unary (by decide), good_reshape (by decide), good_reshape (by decide)⟩

/-- A reference of index below 123 is read unchanged through the stretch. -/
theorem kkeep_2 (b : Ref sig .tc) (hb : b.idx.val < 123) (W : Valuation τ sig (Elt F)) :
    after hostOps2 W (Proc.devRef .tc b) = W (Proc.devRef .tc b) := after_keeps kgood_2 W hb

/-- Stretch hostOps3: each of its 23 operations is a builder's and writes a reference of index at least 186. -/
theorem kgood_3 : ∀ op ∈ (hostOps3 : List (HloOp τ sig (Elt F))), Good 186 op :=
  List.forall_iff_forall_mem.mp
    ⟨good_nullary (by decide), good_binary (by decide), good_nullary (by decide), good_binary (by decide),
     good_nullary (by decide), good_unary (by decide), good_binary (by decide), good_nullary (by decide),
     good_unary (by decide), good_binary (by decide), good_binary (by decide), good_binary (by decide),
     good_unary (by decide), good_reshape (by decide), good_unary (by decide), good_reshape (by decide),
     good_unary (by decide), good_reshape (by decide), good_reshape (by decide), good_reshape (by decide),
     good_reshape (by decide), good_reshape (by decide), good_reshape (by decide)⟩

/-- A reference of index below 186 is read unchanged through the stretch. -/
theorem kkeep_3 (b : Ref sig .tc) (hb : b.idx.val < 186) (W : Valuation τ sig (Elt F)) :
    after hostOps3 W (Proc.devRef .tc b) = W (Proc.devRef .tc b) := after_keeps kgood_3 W hb

/-- Stretch hostOps4: each of its 46 operations is a builder's and writes a reference of index at least 210. -/
theorem kgood_4 : ∀ op ∈ (hostOps4 : List (HloOp τ sig (Elt F))), Good 210 op :=
  List.forall_iff_forall_mem.mp
    ⟨good_nullary (by decide), good_unary (by decide), good_nullary (by decide), good_unary (by decide),
     good_unary (by decide), good_ternary (by decide), good_nullary (by decide), good_unary (by decide),
     good_binary (by decide), good_unary (by decide), good_unary (by decide), good_binary (by decide),
     good_unary (by decide), good_reshape (by decide), good_unary (by decide), good_reshape (by decide),
     good_unary (by decide), good_reshape (by decide), good_unary (by decide), good_nullary (by decide),
     good_unary (by decide), good_binary (by decide), good_nullary (by decide), good_unary (by decide),
     good_binary (by decide), good_ternary (by decide), good_unary (by decide), good_binary (by decide),
     good_unary (by decide), good_nullary (by decide), good_unary (by decide), good_unary (by decide),
     good_ternary (by decide), good_binary (by decide), good_unary (by decide), good_reshape (by decide),
     good_unary (by decide), good_reshape (by decide), good_unary (by decide), good_reshape (by decide),
     good_unary (by decide), good_reshape (by decide), good_unary (by decide), good_unary (by decide),
     good_reshape (by decide), good_reshape (by decide)⟩

/-- A reference of index below 210 is read unchanged through the stretch. -/
theorem kkeep_4 (b : Ref sig .tc) (hb : b.idx.val < 210) (W : Valuation τ sig (Elt F)) :
    after hostOps4 W (Proc.devRef .tc b) = W (Proc.devRef .tc b) := after_keeps kgood_4 W hb

/-- Stretch hostOps5: each of its 60 operations is a builder's and writes a reference of index at least 259. -/
theorem kgood_5 : ∀ op ∈ (hostOps5 : List (HloOp τ sig (Elt F))), Good 259 op :=
  List.forall_iff_forall_mem.mp
    ⟨good_nullary (by decide), good_binary (by decide), good_nullary (by decide), good_binary (by decide),
     good_nullary (by decide), good_unary (by decide), good_binary (by decide), good_nullary (by decide),
     good_unary (by decide), good_binary (by decide), good_binary (by decide), good_binary (by decide),
     good_unary (by decide), good_reshape (by decide), good_unary (by decide), good_reshape (by decide),
     good_nullary (by decide), good_unary (by decide), good_binary (by decide), good_unary (by decide),
     good_unary (by decide), good_unary (by decide), good_unary (by decide), good_binary (by decide),
     good_unary (by decide), good_binary (by decide), good_unary (by decide), good_unary (by decide),
     good_binary (by decide), good_unary (by decide), good_unary (by decide), good_binary (by decide),
     good_unary (by decide), good_nullary (by decide), good_unary (by decide), good_binary (by decide),
     good_nullary (by decide), good_unary (by decide), good_binary (by decide), good_ternary (by decide),
     good_unary (by decide), good_binary (by decide), good_unary (by decide), good_nullary (by decide),
     good_unary (by decide), good_unary (by decide), good_ternary (by decide), good_binary (by decide),
     good_unary (by decide), good_reshape (by decide), good_unary (by decide), good_reshape (by decide),
     good_unary (by decide), good_reshape (by decide), good_unary (by decide), good_reshape (by decide),
     good_unary (by decide), good_unary (by decide), good_reshape (by decide), good_reshape (by decide)⟩

/-- A reference of index below 259 is read unchanged through the stretch. -/
theorem kkeep_5 (b : Ref sig .tc) (hb : b.idx.val < 259) (W : Valuation τ sig (Elt F)) :
    after hostOps5 W (Proc.devRef .tc b) = W (Proc.devRef .tc b) := after_keeps kgood_5 W hb

/-- Stretch hostOps6: each of its 60 operations is a builder's and writes a reference of index at least 322. -/
theorem kgood_6 : ∀ op ∈ (hostOps6 : List (HloOp τ sig (Elt F))), Good 322 op :=
  List.forall_iff_forall_mem.mp
    ⟨good_nullary (by decide), good_binary (by decide), good_nullary (by decide), good_binary (by decide),
     good_nullary (by decide), good_unary (by decide), good_binary (by decide), good_nullary (by decide),
     good_unary (by decide), good_binary (by decide), good_binary (by decide), good_binary (by decide),
     good_unary (by decide), good_reshape (by decide), good_unary (by decide), good_reshape (by decide),
     good_nullary (by decide), good_unary (by decide), good_binary (by decide), good_unary (by decide),
     good_unary (by decide), good_unary (by decide), good_unary (by decide), good_binary (by decide),
     good_unary (by decide), good_binary (by decide), good_unary (by decide), good_unary (by decide),
     good_binary (by decide), good_unary (by decide), good_unary (by decide), good_binary (by decide),
     good_unary (by decide), good_nullary (by decide), good_unary (by decide), good_binary (by decide),
     good_nullary (by decide), good_unary (by decide), good_binary (by decide), good_ternary (by decide),
     good_unary (by decide), good_binary (by decide), good_unary (by decide), good_nullary (by decide),
     good_unary (by decide), good_unary (by decide), good_ternary (by decide), good_binary (by decide),
     good_unary (by decide), good_reshape (by decide), good_unary (by decide), good_reshape (by decide),
     good_unary (by decide), good_reshape (by decide), good_unary (by decide), good_reshape (by decide),
     good_unary (by decide), good_unary (by decide), good_reshape (by decide), good_reshape (by decide)⟩

/-- A reference of index below 322 is read unchanged through the stretch. -/
theorem kkeep_6 (b : Ref sig .tc) (hb : b.idx.val < 322) (W : Valuation τ sig (Elt F)) :
    after hostOps6 W (Proc.devRef .tc b) = W (Proc.devRef .tc b) := after_keeps kgood_6 W hb

/-- Stretch hostOps7: each of its 23 operations is a builder's and writes a reference of index at least 385. -/
theorem kgood_7 : ∀ op ∈ (hostOps7 : List (HloOp τ sig (Elt F))), Good 385 op :=
  List.forall_iff_forall_mem.mp
    ⟨good_nullary (by decide), good_binary (by decide), good_nullary (by decide), good_binary (by decide),
     good_nullary (by decide), good_unary (by decide), good_binary (by decide), good_nullary (by decide),
     good_unary (by decide), good_binary (by decide), good_binary (by decide), good_binary (by decide),
     good_unary (by decide), good_reshape (by decide), good_unary (by decide), good_reshape (by decide),
     good_unary (by decide), good_reshape (by decide), good_reshape (by decide), good_reshape (by decide),
     good_reshape (by decide), good_reshape (by decide), good_reshape (by decide)⟩

/-- A reference of index below 385 is read unchanged through the stretch. -/
theorem kkeep_7 (b : Ref sig .tc) (hb : b.idx.val < 385) (W : Valuation τ sig (Elt F)) :
    after hostOps7 W (Proc.devRef .tc b) = W (Proc.devRef .tc b) := after_keeps kgood_7 W hb

/-- Stretch hostOps8: each of its 18 operations is a builder's and writes a reference of index at least 409. -/
theorem kgood_8 : ∀ op ∈ (hostOps8 : List (HloOp τ sig (Elt F))), Good 409 op :=
  List.forall_iff_forall_mem.mp
    ⟨good_nullary (by decide), good_unary (by decide), good_nullary (by decide), good_unary (by decide),
     good_unary (by decide), good_ternary (by decide), good_nullary (by decide), good_unary (by decide),
     good_binary (by decide), good_unary (by decide), good_unary (by decide), good_binary (by decide),
     good_binary (by decide), good_unary (by decide), good_binary (by decide), good_unary (by decide),
     good_unary (by decide), good_binary (by decide)⟩

/-- A reference of index below 409 is read unchanged through the stretch. -/
theorem kkeep_8 (b : Ref sig .tc) (hb : b.idx.val < 409) (W : Valuation τ sig (Elt F)) :
    after hostOps8 W (Proc.devRef .tc b) = W (Proc.devRef .tc b) := after_keeps kgood_8 W hb

/-- Stretch hostOps8_1: each of its 3 operations is a builder's and writes a reference of index at least 427. -/
theorem kgood_8_1 : ∀ op ∈ (hostOps8_1 : List (HloOp τ sig (Elt F))), Good 427 op :=
  List.forall_iff_forall_mem.mp
    ⟨good_nullary (by decide), good_unary (by decide), good_binary (by decide)⟩

/-- A reference of index below 427 is read unchanged through the stretch. -/
theorem kkeep_8_1 (b : Ref sig .tc) (hb : b.idx.val < 427) (W : Valuation τ sig (Elt F)) :
    after hostOps8_1 W (Proc.devRef .tc b) = W (Proc.devRef .tc b) := after_keeps kgood_8_1 W hb

/-- Stretch hostOps8_2: each of its 5 operations is a builder's and writes a reference of index at least 430. -/
theorem kgood_8_2 : ∀ op ∈ (hostOps8_2 : List (HloOp τ sig (Elt F))), Good 430 op :=
  List.forall_iff_forall_mem.mp
    ⟨good_unary (by decide), good_binary (by decide), good_unary (by decide), good_unary (by decide),
     good_binary (by decide)⟩

/-- A reference of index below 430 is read unchanged through the stretch. -/
theorem kkeep_8_2 (b : Ref sig .tc) (hb : b.idx.val < 430) (W : Valuation τ sig (Elt F)) :
    after hostOps8_2 W (Proc.devRef .tc b) = W (Proc.devRef .tc b) := after_keeps kgood_8_2 W hb

/-- Stretch hostOps8_3: each of its 3 operations is a builder's and writes a reference of index at least 435. -/
theorem kgood_8_3 : ∀ op ∈ (hostOps8_3 : List (HloOp τ sig (Elt F))), Good 435 op :=
  List.forall_iff_forall_mem.mp
    ⟨good_nullary (by decide), good_unary (by decide), good_binary (by decide)⟩

/-- A reference of index below 435 is read unchanged through the stretch. -/
theorem kkeep_8_3 (b : Ref sig .tc) (hb : b.idx.val < 435) (W : Valuation τ sig (Elt F)) :
    after hostOps8_3 W (Proc.devRef .tc b) = W (Proc.devRef .tc b) := after_keeps kgood_8_3 W hb

/-- Stretch hostOps8_4: each of its 13 operations is a builder's and writes a reference of index at least 438. -/
theorem kgood_8_4 : ∀ op ∈ (hostOps8_4 : List (HloOp τ sig (Elt F))), Good 438 op :=
  List.forall_iff_forall_mem.mp
    ⟨good_unary (by decide), good_binary (by decide), good_unary (by decide), good_unary (by decide),
     good_binary (by decide), good_unary (by decide), good_unary (by decide), good_nullary (by decide),
     good_unary (by decide), good_binary (by decide), good_nullary (by decide), good_unary (by decide),
     good_binary (by decide)⟩

/-- A reference of index below 438 is read unchanged through the stretch. -/
theorem kkeep_8_4 (b : Ref sig .tc) (hb : b.idx.val < 438) (W : Valuation τ sig (Elt F)) :
    after hostOps8_4 W (Proc.devRef .tc b) = W (Proc.devRef .tc b) := after_keeps kgood_8_4 W hb

end Cert.KernelIdeal.KOps

end
-- ==== Proof.BridgeArgs.lean ====
/-
  An argument array is never written: neither by a stretch of host operations (each writes a reference of larger
  index) nor by a tiled region (none of a region's arrays is an argument). So at every checkpoint of either
  program's run an argument reads as the launch memory holds it.
-/
import proofs.«408188_j34256659153341_2_alg».proof.Proof.FrameKI
import proofs.«408188_j34256659153341_2_alg».proof.Proof.KOpsGood
import proofs.«408188_j34256659153341_2_alg».proof.Proof.RefChain

noncomputable section

namespace Cert.Bridge

open Idealize.ShloMosaic Idealize.SL.Sem

/-! ## The tiled program -/
section Kernel

open Cert.KernelIdeal Cert.KernelIdeal.Gen Cert.KernelIdeal.KOps

variable {F : FTy → Type} [FloatOps F]
variable (m : (ℓ : Loc nD τ sig) → Buf (Elt F) ℓ) (ρ : Dev nD → PrngReg) (c : Dev nD)

/-- Every array of region 0 has index at least 23: none is an argument. -/
theorem arr_lo0 : ∀ w : Fin 8, 23 ≤ (Pipeline.arrRef spec0 w).idx.val := by decide
theorem arr_ne0 (b : Ref sig .tc) (hb : b.idx.val < 23) : ∀ w, Pipeline.arrRef spec0 w ≠ b :=
  fun w h => by have h23 := arr_lo0 w; rw [h] at h23; omega
/-- Every array of region 1 has index at least 23: none is an argument. -/
theorem arr_lo1 : ∀ w : Fin 8, 23 ≤ (Pipeline.arrRef spec1 w).idx.val := by decide
theorem arr_ne1 (b : Ref sig .tc) (hb : b.idx.val < 23) : ∀ w, Pipeline.arrRef spec1 w ≠ b :=
  fun w h => by have h23 := arr_lo1 w; rw [h] at h23; omega
/-- Every array of region 2 has index at least 23: none is an argument. -/
theorem arr_lo2 : ∀ w : Fin 8, 23 ≤ (Pipeline.arrRef spec2 w).idx.val := by decide
theorem arr_ne2 (b : Ref sig .tc) (hb : b.idx.val < 23) : ∀ w, Pipeline.arrRef spec2 w ≠ b :=
  fun w h => by have h23 := arr_lo2 w; rw [h] at h23; omega
/-- Every array of region 3 has index at least 23: none is an argument. -/
theorem arr_lo3 : ∀ w : Fin 7, 23 ≤ (Pipeline.arrRef spec3 w).idx.val := by decide
theorem arr_ne3 (b : Ref sig .tc) (hb : b.idx.val < 23) : ∀ w, Pipeline.arrRef spec3 w ≠ b :=
  fun w h => by have h23 := arr_lo3 w; rw [h] at h23; omega
/-- Every array of region 4 has index at least 23: none is an argument. -/
theorem arr_lo4 : ∀ w : Fin 8, 23 ≤ (Pipeline.arrRef spec4 w).idx.val := by decide
theorem arr_ne4 (b : Ref sig .tc) (hb : b.idx.val < 23) : ∀ w, Pipeline.arrRef spec4 w ≠ b :=
  fun w h => by have h23 := arr_lo4 w; rw [h] at h23; omega
/-- Every array of region 5 has index at least 23: none is an argument. -/
theorem arr_lo5 : ∀ w : Fin 8, 23 ≤ (Pipeline.arrRef spec5 w).idx.val := by decide
theorem arr_ne5 (b : Ref sig .tc) (hb : b.idx.val < 23) : ∀ w, Pipeline.arrRef spec5 w ≠ b :=
  fun w h => by have h23 := arr_lo5 w; rw [h] at h23; omega
/-- Every array of region 6 has index at least 23: none is an argument. -/
theorem arr_lo6 : ∀ w : Fin 8, 23 ≤ (Pipeline.arrRef spec6 w).idx.val := by decide
theorem arr_ne6 (b : Ref sig .tc) (hb : b.idx.val < 23) : ∀ w, Pipeline.arrRef spec6 w ≠ b :=
  fun w h => by have h23 := arr_lo6 w; rw [h] at h23; omega
/-- Every array of region 7 has index at least 23: none is an argument. -/
theorem arr_lo7 : ∀ w : Fin 7, 23 ≤ (Pipeline.arrRef spec7 w).idx.val := by decide
theorem arr_ne7 (b : Ref sig .tc) (hb : b.idx.val < 23) : ∀ w, Pipeline.arrRef spec7 w ≠ b :=
  fun w h => by have h23 := arr_lo7 w; rw [h] at h23; omega

/-- At the launch. -/
theorem karg_0 (b : Ref sig .tc) : W0 m ρ c (Proc.devRef .tc b) = m ((c.tc : Thread nD τ).loc b) := rfl
theorem karg_1 (b : Ref sig .tc) (hb : b.idx.val < 23) : W1 m ρ c (Proc.devRef .tc b) = m ((c.tc : Thread nD τ).loc b) :=
  (kkeep_0 b (by omega) _).trans (karg_0 m ρ c b)
theorem karg_2 (b : Ref sig .tc) (hb : b.idx.val < 23) : W2 m ρ c (Proc.devRef .tc b) = m ((c.tc : Thread nD τ).loc b) :=
  (W2_of_ne m ρ c b (arr_ne0 b hb)).trans (karg_1 m ρ c b hb)
theorem karg_3 (b : Ref sig .tc) (hb : b.idx.val < 23) : W3 m ρ c (Proc.devRef .tc b) = m ((c.tc : Thread nD τ).loc b) :=
  (kkeep_1 b (by omega) _).trans (karg_2 m ρ c b hb)
theorem karg_4 (b : Ref sig .tc) (hb : b.idx.val < 23) : W4 m ρ c (Proc.devRef .tc b) = m ((c.tc : Thread nD τ).loc b) :=
  (W4_of_ne m ρ c b (arr_ne1 b hb)).trans (karg_3 m ρ c b hb)
theorem karg_5 (b : Ref sig .tc) (hb : b.idx.val < 23) : W5 m ρ c (Proc.devRef .tc b) = m ((c.tc : Thread nD τ).loc b) :=
  (kkeep_2 b (by omega) _).trans (karg_4 m ρ c b hb)
theorem karg_6 (b : Ref sig .tc) (hb : b.idx.val < 23) : W6 m ρ c (Proc.devRef .tc b) = m ((c.tc : Thread nD τ).loc b) :=
  (W6_of_ne m ρ c b (arr_ne2 b hb)).trans (karg_5 m ρ c b hb)
theorem karg_7 (b : Ref sig .tc) (hb : b.idx.val < 23) : W7 m ρ c (Proc.devRef .tc b) = m ((c.tc : Thread nD τ).loc b) :=
  (kkeep_3 b (by omega) _).trans (karg_6 m ρ c b hb)
theorem karg_8 (b : Ref sig .tc) (hb : b.idx.val < 23) : W8 m ρ c (Proc.devRef .tc b) = m ((c.tc : Thread nD τ).loc b) :=
  (W8_of_ne m ρ c b (arr_ne3 b hb)).trans (karg_7 m ρ c b hb)
theorem karg_9 (b : Ref sig .tc) (hb : b.idx.val < 23) : W9 m ρ c (Proc.devRef .tc b) = m ((c.tc : Thread nD τ).loc b) :=
  (kkeep_4 b (by omega) _).trans (karg_8 m ρ c b hb)
theorem karg_10 (b : Ref sig .tc) (hb : b.idx.val < 23) : W10 m ρ c (Proc.devRef .tc b) = m ((c.tc : Thread nD τ).loc b) :=
  (W10_of_ne m ρ c b (arr_ne4 b hb)).trans (karg_9 m ρ c b hb)
theorem karg_11 (b : Ref sig .tc) (hb : b.idx.val < 23) : W11 m ρ c (Proc.devRef .tc b) = m ((c.tc : Thread nD τ).loc b) :=
  (kkeep_5 b (by omega) _).trans (karg_10 m ρ c b hb)
theorem karg_12 (b : Ref sig .tc) (hb : b.idx.val < 23) : W12 m ρ c (Proc.devRef .tc b) = m ((c.tc : Thread nD τ).loc b) :=
  (W12_of_ne m ρ c b (arr_ne5 b hb)).trans (karg_11 m ρ c b hb)
theorem karg_13 (b : Ref sig .tc) (hb : b.idx.val < 23) : W13 m ρ c (Proc.devRef .tc b) = m ((c.tc : Thread nD τ).loc b) :=
  (kkeep_6 b (by omega) _).trans (karg_12 m ρ c b hb)
theorem karg_14 (b : Ref sig .tc) (hb : b.idx.val < 23) : W14 m ρ c (Proc.devRef .tc b) = m ((c.tc : Thread nD τ).loc b) :=
  (W14_of_ne m ρ c b (arr_ne6 b hb)).trans (karg_13 m ρ c b hb)
theorem karg_15 (b : Ref sig .tc) (hb : b.idx.val < 23) : W15 m ρ c (Proc.devRef .tc b) = m ((c.tc : Thread nD τ).loc b) :=
  (kkeep_7 b (by omega) _).trans (karg_14 m ρ c b hb)
theorem karg_16 (b : Ref sig .tc) (hb : b.idx.val < 23) : W16 m ρ c (Proc.devRef .tc b) = m ((c.tc : Thread nD τ).loc b) :=
  (W16_of_ne m ρ c b (arr_ne7 b hb)).trans (karg_15 m ρ c b hb)
theorem karg_17 (b : Ref sig .tc) (hb : b.idx.val < 23) : W17 m ρ c (Proc.devRef .tc b) = m ((c.tc : Thread nD τ).loc b) :=
  (kkeep_8 b (by omega) _).trans (karg_16 m ρ c b hb)
theorem karg_18 (b : Ref sig .tc) (hb : b.idx.val < 23) : W18 m ρ c (Proc.devRef .tc b) = m ((c.tc : Thread nD τ).loc b) :=
  (kkeep_8_1 b (by omega) _).trans (karg_17 m ρ c b hb)
theorem karg_19 (b : Ref sig .tc) (hb : b.idx.val < 23) : W19 m ρ c (Proc.devRef .tc b) = m ((c.tc : Thread nD τ).loc b) :=
  (kkeep_8_2 b (by omega) _).trans (karg_18 m ρ c b hb)
theorem karg_20 (b : Ref sig .tc) (hb : b.idx.val < 23) : W20 m ρ c (Proc.devRef .tc b) = m ((c.tc : Thread nD τ).loc b) :=
  (kkeep_8_3 b (by omega) _).trans (karg_19 m ρ c b hb)
theorem karg_21 (b : Ref sig .tc) (hb : b.idx.val < 23) : W21 m ρ c (Proc.devRef .tc b) = m ((c.tc : Thread nD τ).loc b) :=
  (kkeep_8_4 b (by omega) _).trans (karg_20 m ρ c b hb)

end Kernel

/-! ## The plain program -/
section Reference

open Cert.ReferenceIdeal Cert.ReferenceIdeal.RefRun

variable {F : FTy → Type} [FloatOps F]
variable (m' : (ℓ : Loc nD τ sig) → Buf (Elt F) ℓ) (c : Dev nD)

/-- At the launch. -/
theorem rarg_0 (b : Ref sig .tc) : R0 m' c (Proc.devRef .tc b) = m' ((c.tc : Thread nD τ).loc b) := rfl
theorem rarg_1 (b : Ref sig .tc) (hb : b.idx.val < 23) : R1 m' c (Proc.devRef .tc b) = m' ((c.tc : Thread nD τ).loc b) :=
  (keep0 b (by omega) _).trans (rarg_0 m' c b)
theorem rarg_2 (b : Ref sig .tc) (hb : b.idx.val < 23) : R2 m' c (Proc.devRef .tc b) = m' ((c.tc : Thread nD τ).loc b) :=
  (keep1 b (by omega) _).trans (rarg_1 m' c b hb)
theorem rarg_3 (b : Ref sig .tc) (hb : b.idx.val < 23) : R3 m' c (Proc.devRef .tc b) = m' ((c.tc : Thread nD τ).loc b) :=
  (keep2 b (by omega) _).trans (rarg_2 m' c b hb)
theorem rarg_4 (b : Ref sig .tc) (hb : b.idx.val < 23) : R4 m' c (Proc.devRef .tc b) = m' ((c.tc : Thread nD τ).loc b) :=
  (keep3 b (by omega) _).trans (rarg_3 m' c b hb)
theorem rarg_5 (b : Ref sig .tc) (hb : b.idx.val < 23) : R5 m' c (Proc.devRef .tc b) = m' ((c.tc : Thread nD τ).loc b) :=
  (keep4 b (by omega) _).trans (rarg_4 m' c b hb)
theorem rarg_6 (b : Ref sig .tc) (hb : b.idx.val < 23) : R6 m' c (Proc.devRef .tc b) = m' ((c.tc : Thread nD τ).loc b) :=
  (keep5 b (by omega) _).trans (rarg_5 m' c b hb)
theorem rarg_7 (b : Ref sig .tc) (hb : b.idx.val < 23) : R7 m' c (Proc.devRef .tc b) = m' ((c.tc : Thread nD τ).loc b) :=
  (keep6 b (by omega) _).trans (rarg_6 m' c b hb)
theorem rarg_8 (b : Ref sig .tc) (hb : b.idx.val < 23) : R8 m' c (Proc.devRef .tc b) = m' ((c.tc : Thread nD τ).loc b) :=
  (keep7 b (by omega) _).trans (rarg_7 m' c b hb)
theorem rarg_9 (b : Ref sig .tc) (hb : b.idx.val < 23) : R9 m' c (Proc.devRef .tc b) = m' ((c.tc : Thread nD τ).loc b) :=
  (keep8 b (by omega) _).trans (rarg_8 m' c b hb)
theorem rarg_10 (b : Ref sig .tc) (hb : b.idx.val < 23) : R10 m' c (Proc.devRef .tc b) = m' ((c.tc : Thread nD τ).loc b) :=
  (keep9 b (by omega) _).trans (rarg_9 m' c b hb)
theorem rarg_11 (b : Ref sig .tc) (hb : b.idx.val < 23) : R11 m' c (Proc.devRef .tc b) = m' ((c.tc : Thread nD τ).loc b) :=
  (keep10 b (by omega) _).trans (rarg_10 m' c b hb)
theorem rarg_12 (b : Ref sig .tc) (hb : b.idx.val < 23) : R12 m' c (Proc.devRef .tc b) = m' ((c.tc : Thread nD τ).loc b) :=
  (keep11 b (by omega) _).trans (rarg_11 m' c b hb)
theorem rarg_13 (b : Ref sig .tc) (hb : b.idx.val < 23) : R13 m' c (Proc.devRef .tc b) = m' ((c.tc : Thread nD τ).loc b) :=
  (keep12 b (by omega) _).trans (rarg_12 m' c b hb)
theorem rarg_14 (b : Ref sig .tc) (hb : b.idx.val < 23) : R14 m' c (Proc.devRef .tc b) = m' ((c.tc : Thread nD τ).loc b) :=
  (keep13 b (by omega) _).trans (rarg_13 m' c b hb)
theorem rarg_15 (b : Ref sig .tc) (hb : b.idx.val < 23) : R15 m' c (Proc.devRef .tc b) = m' ((c.tc : Thread nD τ).loc b) :=
  (keep14 b (by omega) _).trans (rarg_14 m' c b hb)

end Reference

end Cert.Bridge

end
-- ==== Proof.AggFin.lean ====
/-
  The aggregate of a layer, a node's features plus the sum of the features of its in-neighbours, is an array of real
  numbers whenever the features are: a gathered entry is an entry of the features, and a finite sum of reals is real.
  No property of the edge lists is used.
-/
import proofs.«408188_j34256659153341_2_alg».proof.ReferenceIdeal
import Idealize.ShloMosaic.Lib.ValueIdx
import Idealize.ShloMosaic.Lib.IdealHost

noncomputable section

open scoped BigOperators

namespace Cert.ReferenceIdeal.AggFin

open Idealize.ShloMosaic Idealize.ShloMosaic.ValueIdx
open Facts₀

variable [Facts₀]

/-- A finite sum of real numbers, as extended reals, is a real number. -/
theorem sum_real {ι : Type} (s : Finset ι) (f : ι → EReal) (hf : ∀ j ∈ s, ∃ r : ℝ, f j = (r : EReal)) :
    ∃ r : ℝ, ∑ j ∈ s, f j = (r : EReal) := by
  classical
  induction s using Finset.induction_on with
  | empty => exact ⟨0, by simp⟩
  | insert a s ha ih =>
    obtain ⟨ra, hra⟩ := hf a (Finset.mem_insert_self _ _)
    obtain ⟨rs, hrs⟩ := ih (fun j hj => hf j (Finset.mem_insert_of_mem hj))
    exact ⟨ra + rs, by rw [Finset.sum_insert ha, hra, hrs, EReal.coe_add]⟩

/-- The accumulating scatter of real updates into a real operand is real, whatever the dimension numbers and indices. -/
theorem scatterAdd_real {s si su : Shape} (d : ScatterDims s si su) {w : Nat} (x : FVec Ideal s .f32) (idx : IVec si w)
    (upd : FVec Ideal su .f32) (hx : ∀ i, ∃ r : ℝ, x i = (r : EReal)) (hu : ∀ j, ∃ r : ℝ, upd j = (r : EReal)) :
    ∀ i, ∃ r : ℝ, Host.scatterAdd d x idx upd i = (r : EReal) := by
  intro i
  obtain ⟨rx, hrx⟩ := hx i
  obtain ⟨rs, hrs⟩ := sum_real (Finset.univ.filter (fun j => d.resultIdx? j idx = some i)) upd (fun j _ => hu j)
  refine ⟨rx + rs, ?_⟩
  show x i + ∑ j ∈ Finset.univ.filter (fun j => d.resultIdx? j idx = some i), upd j = _
  rw [hrx, hrs, EReal.coe_add]

/-- A gather of a real array is real: each entry read is an entry of the array. -/
theorem gather_real {s si t : Shape} (d : GatherDims s si t) {w : Nat} (x : FVec Ideal s .f32) (idx : IVec si w)
    (hx : ∀ i, ∃ r : ℝ, x i = (r : EReal)) : ∀ j, ∃ r : ℝ, Host.gather d x idx j = (r : EReal) :=
  fun j => hx (d.operandIdx j idx)

/-- The all-zero array is real. -/
theorem zeros_real {T : Shape} (hb : S_.BroadcastsInDim T ![]) :
    ∀ i, ∃ r : ℝ, broadcastInDim T ![] hb (constant (F := Ideal) S_ .f32 0x00000000#32) i = (r : EReal) :=
  fun i => ⟨0, by rw [broadcastInDim_scalar_apply, constant_apply, Ideal.ofBits_zero_f32, EReal.coe_zero]⟩

/-- The aggregate over 36 features is real when the features are, for any edge index arrays. -/
theorem agg36_real (h : FVec Ideal S100000x36 .f32) (srcIdx dstIdx : IVec S1600000x1 32)
    (hh : ∀ i, ∃ r : ℝ, h i = (r : EReal)) :
    ∀ i, ∃ r : ℝ, addf h (Host.scatterAdd scatter_S100000x36_S1600000x1_S1600000x36_1_0_0_1
      (broadcastInDim S100000x36 ![] bcast_S_S100000x36 (constant S_ .f32 0x00000000#32)) dstIdx
      (Host.gather gather_S100000x36_S1600000x1_S1600000x36_1_0_n_n_0_1_136 h srcIdx)) i = (r : EReal) := by
  intro i
  obtain ⟨r1, h1⟩ := hh i
  obtain ⟨r2, h2⟩ := scatterAdd_real scatter_S100000x36_S1600000x1_S1600000x36_1_0_0_1 _ dstIdx _ (zeros_real bcast_S_S100000x36)
    (gather_real gather_S100000x36_S1600000x1_S1600000x36_1_0_n_n_0_1_136 h srcIdx hh) i
  exact ⟨r1 + r2, by rw [addf_apply, h1, h2, EReal.coe_add]⟩

/-- The aggregate over 6 features is real when the features are, for any edge index arrays. -/
theorem agg6_real (h : FVec Ideal S100000x6 .f32) (srcIdx dstIdx : IVec S1600000x1 32)
    (hh : ∀ i, ∃ r : ℝ, h i = (r : EReal)) :
    ∀ i, ∃ r : ℝ, addf h (Host.scatterAdd scatter_S100000x6_S1600000x1_S1600000x6_1_0_0_1
      (broadcastInDim S100000x6 ![] bcast_S_S100000x6 (constant S_ .f32 0x00000000#32)) dstIdx
      (Host.gather gather_S100000x6_S1600000x1_S1600000x6_1_0_n_n_0_1_16 h srcIdx)) i = (r : EReal) := by
  intro i
  obtain ⟨r1, h1⟩ := hh i
  obtain ⟨r2, h2⟩ := scatterAdd_real scatter_S100000x6_S1600000x1_S1600000x6_1_0_0_1 _ dstIdx _ (zeros_real bcast_S_S100000x6)
    (gather_real gather_S100000x6_S1600000x1_S1600000x6_1_0_n_n_0_1_16 h srcIdx hh) i
  exact ⟨r1 + r2, by rw [addf_apply, h1, h2, EReal.coe_add]⟩

end Cert.ReferenceIdeal.AggFin

end
-- ==== Proof.StageAOps.lean ====
/-
  Transform 0's aggregate as each program's host operations compute it, over any buffer contents at entry: the
  two lists of operations are the same up to buffer names and one bf16 round trip, the identity on extended reals.
-/
import proofs.«408188_j34256659153341_2_alg».proof.Proof.BridgeDefs
import proofs.«408188_j34256659153341_2_alg».proof.Proof.Gen.KernelIdeal.Launch
import proofs.«408188_j34256659153341_2_alg».proof.Proof.RefSegs
import proofs.«408188_j34256659153341_2_alg».proof.Proof.AggFin
import Idealize.ShloMosaic.Lib.ValueIdx

set_option maxRecDepth 16384

noncomputable section

namespace Cert.Bridge

open Idealize.ShloMosaic Idealize.SL.Sem Idealize.ShloMosaic.StableHlo

set_option maxHeartbeats 1600000 in
/-- Both programs add to each node's features of transform 0 those of its in-neighbours: a gather along the edges'
    sources, a scatter-add along their targets, the node's own row added. Rounding the gathered rows to bf16 and
    back, which the tiled program does, is the identity on extended reals. -/
theorem agg0_eq (V : Valuation Cert.KernelIdeal.τ Cert.KernelIdeal.sig (Elt Ideal)) (V' : Valuation Cert.ReferenceIdeal.τ Cert.ReferenceIdeal.sig (Elt Ideal))
    (e0 : V' (Proc.devRef .tc Cert.ReferenceIdeal.main_arg0) = V (Proc.devRef .tc Cert.KernelIdeal.main_arg0))
    (e1 : V' (Proc.devRef .tc Cert.ReferenceIdeal.main_arg1) = V (Proc.devRef .tc Cert.KernelIdeal.main_arg1)) :
    (after Cert.KernelIdeal.Gen.hostOps0 V (Proc.devRef .tc Cert.KernelIdeal.main_v18) : GinMath.N6.Idx → EReal)
      = after Cert.ReferenceIdeal.RefRun.seg0 V' (Proc.devRef .tc Cert.ReferenceIdeal.main_v24) := by
  dsimp only [Cert.KernelIdeal.Gen.hostOps0, Cert.ReferenceIdeal.RefRun.seg0]
  after_results_simp
  rw [e0, e1]
  rfl

set_option maxHeartbeats 1600000 in
/-- The plain program's aggregate of transform 0 is real when the node features are: a node's row plus a finite sum
    of gathered rows. -/
theorem ragg0_real (V' : Valuation Cert.ReferenceIdeal.τ Cert.ReferenceIdeal.sig (Elt Ideal))
    (hx : IsReal (S := Cert.ReferenceIdeal.S2x100000x6) (V' (Proc.devRef .tc Cert.ReferenceIdeal.main_arg0))) :
    IsReal (S := GinMath.N6) (after Cert.ReferenceIdeal.RefRun.seg0 V' (Proc.devRef .tc Cert.ReferenceIdeal.main_v24)) := by
  dsimp only [Cert.ReferenceIdeal.RefRun.seg0]
  after_results_simp
  refine Cert.ReferenceIdeal.AggFin.agg6_real _ _ _ ?_
  exact fun i => hx _

end Cert.Bridge

end
-- ==== Proof.StageA.lean ====
/-
  The first checkpoint: before the first layer both programs hold the same aggregate of transform 0's node
  features, and every entry of it is a real number.
-/
import proofs.«408188_j34256659153341_2_alg».proof.Proof.BridgeDefs
import proofs.«408188_j34256659153341_2_alg».proof.Proof.BridgeArgs
import proofs.«408188_j34256659153341_2_alg».proof.Proof.StageAOps
import Idealize.ShloMosaic.Lib.ValueIdx

set_option maxRecDepth 16384

noncomputable section

namespace Cert.Bridge

open Idealize.ShloMosaic Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-- The aggregate of transform 0 is the same in both runs. -/
theorem stage_A_eq
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (Cert.KernelIdeal.Gen.W1 (F := Ideal) m ρ c (Proc.devRef .tc Cert.KernelIdeal.main_v18) : GinMath.N6.Idx → EReal)
      = Cert.ReferenceIdeal.RefRun.R1 (F := Ideal) m' c (Proc.devRef .tc Cert.ReferenceIdeal.main_v24) :=
  agg0_eq (Cert.KernelIdeal.Gen.W0 m ρ c) (Cert.ReferenceIdeal.RefRun.R0 m' c) h0 h1

/-- Stage A: the aggregates agree and are real. -/
theorem stage_A
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (hreal0 : IsReal (S := Cert.KernelIdeal.S2x100000x6) (m ((c.tc : Thread Cert.KernelIdeal.nD Cert.KernelIdeal.τ).loc Cert.KernelIdeal.main_arg0))) :
    RelAgg (S := GinMath.N6) (Cert.KernelIdeal.Gen.W1 (F := Ideal) m ρ c (Proc.devRef .tc Cert.KernelIdeal.main_v18))
      (Cert.ReferenceIdeal.RefRun.R1 (F := Ideal) m' c (Proc.devRef .tc Cert.ReferenceIdeal.main_v24)) := by
  have hx : IsReal (S := Cert.ReferenceIdeal.S2x100000x6) (Cert.ReferenceIdeal.RefRun.R0 (F := Ideal) m' c (Proc.devRef .tc Cert.ReferenceIdeal.main_arg0)) := by
    show IsReal (S := Cert.ReferenceIdeal.S2x100000x6) (m' ((c.tc : Thread Cert.ReferenceIdeal.nD Cert.ReferenceIdeal.τ).loc Cert.ReferenceIdeal.main_arg0))
    rw [h0]; exact hreal0
  have hreal := ragg0_real (Cert.ReferenceIdeal.RefRun.R0 m' c) hx
  exact And.intro (stage_A_eq m ρ m' c h0 h1) (by rw [stage_A_eq m ρ m' c h0 h1]; exact hreal)

end Cert.Bridge

end
-- ==== Proof.Reg0Pay.lean ====
/-
  One tile of the two-layer perceptron, entry by entry. A tile is 5000 node rows of 6 features; with the weights
  and biases whole, row p of the tile's output is
      y(p,d) = max( Σ_k max( Σ_j x(p,j)·WA(j,k) + BA(k), 0 )·WB(k,d) + BB(d), 0 ),
  a block product being the sum over its one contracted axis and a change of float format being the identity on
  extended reals. The two 8-row blocks of partial sums hold, in row 0, the column sums of y and of y·y over the
  tile's rows, and zero in rows 1 to 7 (the row number compared with zero selects).
-/
import proofs.«408188_j34256659153341_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Reg0

open Idealize.ShloMosaic Idealize.ShloMosaic.ValueIdx
open Cert.KernelIdeal Cert.KernelIdeal.Gen

/-! ## The two block products, read at an entry -/

/-- The dimension numbers of the first product, [5000,6] by [6,36]. -/
abbrev DA : DotDims S5000x6 S6x36 S5000x36 := dot_S5000x6_S6x36_S5000x36_1_0_0_1_n_n
/-- The dimension numbers of the second product, [5000,36] by [36,36]. -/
abbrev DB : DotDims S5000x36 S36x36 S5000x36 := dot_S5000x36_S36x36_S5000x36_1_0_0_1_n_n

theorem lhsA_0 (i : S5000x36.Idx) (s : dot_S5000x6_S6x36_S5000x36_1_0_0_1_n_n.contr.Idx) :
    (dot_S5000x6_S6x36_S5000x36_1_0_0_1_n_n.lhsIdx i s 0).val = (i 0).val := by
  unfold DotDims.lhsIdx
  rw [dif_neg (show ¬(0 : Fin S5000x6.rank) ∈ dot_S5000x6_S6x36_S5000x36_1_0_0_1_n_n.lhsBatch by decide),
    dif_pos (show (0 : Fin S5000x6.rank) ∈ dot_S5000x6_S6x36_S5000x36_1_0_0_1_n_n.lhsNonContracting by decide)]
  rfl
theorem lhsA_1 (i : S5000x36.Idx) (s : dot_S5000x6_S6x36_S5000x36_1_0_0_1_n_n.contr.Idx) :
    (dot_S5000x6_S6x36_S5000x36_1_0_0_1_n_n.lhsIdx i s 1).val = (s ⟨0, by decide⟩).val :=
  dot_S5000x6_S6x36_S5000x36_1_0_0_1_n_n.lhsIdx_val_of_single rfl i s
theorem rhsA_0 (i : S5000x36.Idx) (s : dot_S5000x6_S6x36_S5000x36_1_0_0_1_n_n.contr.Idx) :
    (dot_S5000x6_S6x36_S5000x36_1_0_0_1_n_n.rhsIdx i s 0).val = (s ⟨0, by decide⟩).val :=
  dot_S5000x6_S6x36_S5000x36_1_0_0_1_n_n.rhsIdx_val_of_single rfl i s
theorem rhsA_1 (i : S5000x36.Idx) (s : dot_S5000x6_S6x36_S5000x36_1_0_0_1_n_n.contr.Idx) :
    (dot_S5000x6_S6x36_S5000x36_1_0_0_1_n_n.rhsIdx i s 1).val = (i 1).val := by
  unfold DotDims.rhsIdx
  rw [dif_neg (show ¬(1 : Fin S6x36.rank) ∈ dot_S5000x6_S6x36_S5000x36_1_0_0_1_n_n.rhsBatch by decide),
    dif_pos (show (1 : Fin S6x36.rank) ∈ dot_S5000x6_S6x36_S5000x36_1_0_0_1_n_n.rhsNonContracting by decide)]
  rfl

/-- The first product at (p, k): the sum over the 6 features. -/
theorem mmA_apply (a : FVec Ideal S5000x6 .bf16) (b : FVec Ideal S6x36 .bf16) (p : Fin 5000) (k : Fin 36) :
    matmul dot_S5000x6_S6x36_S5000x36_1_0_0_1_n_n none a b (constant (F := Ideal) S5000x36 .f32 0x00000000#32) (ix2 p k)
      = ∑ j : Fin 6, a (ix2 p j) * b (ix2 j k) := by
  refine (Ideal.matmul_constant_zero_apply dot_S5000x6_S6x36_S5000x36_1_0_0_1_n_n none a b (ix2 p k)).trans ?_
  rw [← Equiv.sum_comp (contrEquiv1 dot_S5000x6_S6x36_S5000x36_1_0_0_1_n_n 6 rfl rfl).symm]
  refine Finset.sum_congr rfl fun j _ => ?_
  have hk := contrEquiv1_symm_val dot_S5000x6_S6x36_S5000x36_1_0_0_1_n_n 6 rfl rfl j
  have el : dot_S5000x6_S6x36_S5000x36_1_0_0_1_n_n.lhsIdx (ix2 p k) ((contrEquiv1 dot_S5000x6_S6x36_S5000x36_1_0_0_1_n_n 6 rfl rfl).symm j) = ix2 p j :=
    funext fun c => Fin.ext (by
      match c with
      | ⟨0, _⟩ => exact lhsA_0 _ _
      | ⟨1, _⟩ => exact (lhsA_1 _ _).trans hk)
  have er : dot_S5000x6_S6x36_S5000x36_1_0_0_1_n_n.rhsIdx (ix2 p k) ((contrEquiv1 dot_S5000x6_S6x36_S5000x36_1_0_0_1_n_n 6 rfl rfl).symm j) = ix2 j k :=
    funext fun c => Fin.ext (by
      match c with
      | ⟨0, _⟩ => exact (rhsA_0 _ _).trans hk
      | ⟨1, _⟩ => exact rhsA_1 _ _)
  rw [el, er]

theorem lhsB_0 (i : S5000x36.Idx) (s : dot_S5000x36_S36x36_S5000x36_1_0_0_1_n_n.contr.Idx) :
    (dot_S5000x36_S36x36_S5000x36_1_0_0_1_n_n.lhsIdx i s 0).val = (i 0).val := by
  unfold DotDims.lhsIdx
  rw [dif_neg (show ¬(0 : Fin S5000x36.rank) ∈ dot_S5000x36_S36x36_S5000x36_1_0_0_1_n_n.lhsBatch by decide),
    dif_pos (show (0 : Fin S5000x36.rank) ∈ dot_S5000x36_S36x36_S5000x36_1_0_0_1_n_n.lhsNonContracting by decide)]
  rfl
theorem lhsB_1 (i : S5000x36.Idx) (s : dot_S5000x36_S36x36_S5000x36_1_0_0_1_n_n.contr.Idx) :
    (dot_S5000x36_S36x36_S5000x36_1_0_0_1_n_n.lhsIdx i s 1).val = (s ⟨0, by decide⟩).val :=
  dot_S5000x36_S36x36_S5000x36_1_0_0_1_n_n.lhsIdx_val_of_single rfl i s
theorem rhsB_0 (i : S5000x36.Idx) (s : dot_S5000x36_S36x36_S5000x36_1_0_0_1_n_n.contr.Idx) :
    (dot_S5000x36_S36x36_S5000x36_1_0_0_1_n_n.rhsIdx i s 0).val = (s ⟨0, by decide⟩).val :=
  dot_S5000x36_S36x36_S5000x36_1_0_0_1_n_n.rhsIdx_val_of_single rfl i s
theorem rhsB_1 (i : S5000x36.Idx) (s : dot_S5000x36_S36x36_S5000x36_1_0_0_1_n_n.contr.Idx) :
    (dot_S5000x36_S36x36_S5000x36_1_0_0_1_n_n.rhsIdx i s 1).val = (i 1).val := by
  unfold DotDims.rhsIdx
  rw [dif_neg (show ¬(1 : Fin S36x36.rank) ∈ dot_S5000x36_S36x36_S5000x36_1_0_0_1_n_n.rhsBatch by decide),
    dif_pos (show (1 : Fin S36x36.rank) ∈ dot_S5000x36_S36x36_S5000x36_1_0_0_1_n_n.rhsNonContracting by decide)]
  rfl

/-- The second product at (p, d): the sum over the 36 hidden units. -/
theorem mmB_apply (a : FVec Ideal S5000x36 .bf16) (b : FVec Ideal S36x36 .bf16) (p : Fin 5000) (d : Fin 36) :
    matmul dot_S5000x36_S36x36_S5000x36_1_0_0_1_n_n none a b (constant (F := Ideal) S5000x36 .f32 0x00000000#32) (ix2 p d)
      = ∑ k : Fin 36, a (ix2 p k) * b (ix2 k d) := by
  refine (Ideal.matmul_constant_zero_apply dot_S5000x36_S36x36_S5000x36_1_0_0_1_n_n none a b (ix2 p d)).trans ?_
  rw [← Equiv.sum_comp (contrEquiv1 dot_S5000x36_S36x36_S5000x36_1_0_0_1_n_n 36 rfl rfl).symm]
  refine Finset.sum_congr rfl fun k _ => ?_
  have hk := contrEquiv1_symm_val dot_S5000x36_S36x36_S5000x36_1_0_0_1_n_n 36 rfl rfl k
  have el : dot_S5000x36_S36x36_S5000x36_1_0_0_1_n_n.lhsIdx (ix2 p d) ((contrEquiv1 dot_S5000x36_S36x36_S5000x36_1_0_0_1_n_n 36 rfl rfl).symm k) = ix2 p k :=
    funext fun c => Fin.ext (by
      match c with
      | ⟨0, _⟩ => exact lhsB_0 _ _
      | ⟨1, _⟩ => exact (lhsB_1 _ _).trans hk)
  have er : dot_S5000x36_S36x36_S5000x36_1_0_0_1_n_n.rhsIdx (ix2 p d) ((contrEquiv1 dot_S5000x36_S36x36_S5000x36_1_0_0_1_n_n 36 rfl rfl).symm k) = ix2 k d :=
    funext fun c => Fin.ext (by
      match c with
      | ⟨0, _⟩ => exact (rhsB_0 _ _).trans hk
      | ⟨1, _⟩ => exact rhsB_1 _ _)
  rw [el, er]

/-! ## The tile's output -/

variable (x0 : FVec Ideal S5000x6 .f32) (x1 : FVec Ideal S6x36 .f32) (x2 : FVec Ideal S1x36 .f32)
  (x3 : FVec Ideal S36x36 .f32) (x4 : FVec Ideal S1x36 .f32)

/-- The hidden activation of the tile's row p, unit k. -/
def hidT (p : Fin 5000) (k : Fin 36) : EReal := max ((∑ j : Fin 6, x0 (ix2 p j) * x1 (ix2 j k)) + x2 (ix2 0 k)) 0

/-- The tile's output at row p, column d. -/
def outT (p : Fin 5000) (d : Fin 36) : EReal :=
  max ((∑ k : Fin 36, hidT x0 x1 x2 p k * x3 (ix2 k d)) + x4 (ix2 0 d)) 0

/-- The stored output block, entry by entry. -/
theorem pay2_apply (p : Fin 5000) (d : Fin 36) :
    k0_pay2 (F := Ideal) x0 x1 x2 x3 x4 (ix2 p d) = outT x0 x1 x2 x3 x4 p d := by
  unfold k0_pay2 outT hidT
  simp only [maximumf_apply, addf_apply, truncf_apply, broadcast_apply, mmA_apply, mmB_apply, broadcastTo_1b_ab_apply,
    shapeCast_self]
  rw [show FloatOps.ofBits (F := Ideal) .f32 0x00000000#32 = (0 : EReal) from Ideal.ofBits_zero_f32]

/-! ## The column sums over the tile's rows, and the row-0 selection -/

/-- A sum over the row axis of a [5000,36] block, read at column d. The accumulator word is the zero word. -/
theorem colsum_apply (src : FVec Ideal S5000x36 .f32) (hφ : FTy.f32 = FTy.f32 ∨ FTy.f32 = FTy.bf16)
    (hacc : (0x00000000#32 : BitVec 32) = 0x00000000#32) (d : Fin 36) :
    multiReduction .add [0] S36 src 0x00000000#32 Gen.reduces_S5000x36_S36 hφ hacc (ix1 d)
      = ∑ p : Fin 5000, src (ix2 p d) := by
  refine (Ideal.multiReduction_add_single src 0x00000000#32 Gen.reduces_S5000x36_S36 hφ hacc (ix1 d)).trans ?_
  refine Finset.sum_congr rfl fun p _ => congrArg src ?_
  funext c
  apply Fin.ext
  rw [Shape.Reduces.lift_val]
  unfold Shape.Reduces.liftVal
  match c with
  | ⟨0, _⟩ => rfl
  | ⟨1, _⟩ => rfl

theorem cmpi_apply {s : Shape} {w : Nat} (pr : CmpIPredicate) (x y : IVec s w) (i : s.Idx) :
    cmpi pr x y i = IntOp.cmpi pr (x i) (y i) := rfl

/-- Comparing a row number below 8 with zero selects the first branch on row 0 only. -/
theorem select_row0 {α : Type} (r : Nat) (hr : r < 8) (A B : α) :
    Scalar.select (IntOp.cmpi .eq (BitVec.ofNat 32 r) 0#32) A B = if r = 0 then A else B := by
  interval_cases r <;> rfl

/-- The block of column sums: row 0 holds the sum of the tile's output over its 5000 rows, rows 1 to 7 zero. -/
theorem pay4_apply (r : Fin 8) (d : Fin 36) :
    k0_pay4 (F := Ideal) x0 x1 x2 x3 x4 (ix2 r d) = if r.val = 0 then ∑ p : Fin 5000, outT x0 x1 x2 x3 x4 p d else 0 := by
  unfold k0_pay4
  simp only [select_apply, cmpi_apply, broadcast_apply, broadcastTo_1b_ab_apply, shapeCast_self, shapeCast_a_1a_apply,
    ]
  rw [iota_single_apply]
  show Scalar.select (IntOp.cmpi .eq (BitVec.ofNat 32 r.val) 0#32) _ _ = _
  rw [select_row0 _ r.isLt, show FloatOps.ofBits (F := Ideal) .f32 0x00000000#32 = (0 : EReal) from Ideal.ofBits_zero_f32]
  exact if_congr Iff.rfl ((colsum_apply _ _ _ d).trans (Finset.sum_congr rfl fun p _ => pay2_apply x0 x1 x2 x3 x4 p d)) rfl

/-- The block of column sums of squares. -/
theorem pay1_apply (r : Fin 8) (d : Fin 36) :
    k0_pay1 (F := Ideal) (k0_pay3 (F := Ideal) x0 x1 x2 x3 x4) (iota .tc S8x36 32 [0] Gen.iota_S8x36_d0_w32) (ix2 r d)
      = if r.val = 0 then ∑ p : Fin 5000, outT x0 x1 x2 x3 x4 p d * outT x0 x1 x2 x3 x4 p d else 0 := by
  unfold k0_pay1 k0_pay3
  simp only [select_apply, cmpi_apply, broadcast_apply, broadcastTo_1b_ab_apply, shapeCast_self, shapeCast_a_1a_apply,
    ]
  rw [iota_single_apply]
  show Scalar.select (IntOp.cmpi .eq (BitVec.ofNat 32 r.val) 0#32) _ _ = _
  rw [select_row0 _ r.isLt, show FloatOps.ofBits (F := Ideal) .f32 0x00000000#32 = (0 : EReal) from Ideal.ofBits_zero_f32]
  exact if_congr Iff.rfl ((colsum_apply _ _ _ d).trans (Finset.sum_congr rfl fun p _ => by
    rw [mulf_apply, pay2_apply])) rfl

end Cert.KernelIdeal.Reg0

end
-- ==== Proof.Reg0Point.lean ====
/-
  A tile inside the whole array. Tile t of the perceptron's output is rows 5000·t … 5000·t + 4999 of the
  whole-array perceptron, because a row of the output depends on the same row of the features only. Its block of
  partial sums is rows 8·t … 8·t + 7 of the 160-row array of tile sums: the sum over the rows n of the whole array
  with n / 5000 = t is the sum over the tile's 5000 rows, and row 8·t + r has remainder r and quotient t by 8.
-/
import proofs.«408188_j34256659153341_2_alg».proof.Proof.GinMath
import proofs.«408188_j34256659153341_2_alg».proof.Proof.Reg0Pay

noncomputable section

open scoped BigOperators

namespace Cert.KernelIdeal.Reg0

open Idealize.ShloMosaic Idealize.ShloMosaic.ValueIdx
open Cert.KernelIdeal Cert.KernelIdeal.Gen

open Cert.GinMath

/-- A sum over the rows of tile t of a 100000-row column is the sum over the tile's 5000 rows. -/
theorem tile_sum (f : Fin 100000 → EReal) (t : Nat) (ht : t < 20) :
    ∑ n : Fin 100000, (if n.val / 5000 = t then f n else 0)
      = ∑ p : Fin 5000, f ⟨5000 * t + p.val, by have := p.isLt; omega⟩ := by
  rw [← Finset.sum_filter]
  symm
  refine Finset.sum_bij (fun p _ => (⟨5000 * t + p.val, by have := p.isLt; omega⟩ : Fin 100000)) ?_ ?_ ?_ ?_
  · intro p _
    simp only [Finset.mem_filter, Finset.mem_univ, true_and]
    have := p.isLt; omega
  · intro p _ p' _ h
    apply Fin.ext
    have := congrArg Fin.val h
    simp only at this
    omega
  · intro n hn
    simp only [Finset.mem_filter, Finset.mem_univ, true_and] at hn
    have := n.isLt
    exact ⟨⟨n.val - 5000 * t, by omega⟩, Finset.mem_univ _, Fin.ext (by simp only; omega)⟩
  · intro p _; rfl

variable (x0 : FVec Ideal S5000x6 .f32) (x1 : FVec Ideal S6x36 .f32) (x2 : FVec Ideal S1x36 .f32)
  (x3 : FVec Ideal S36x36 .f32) (x4 : FVec Ideal S1x36 .f32)
variable (A : N6.Idx → EReal) (WA : W6.Idx → EReal) (BA : R36.Idx → EReal) (WB : W36.Idx → EReal) (BB : R36.Idx → EReal)

/-- Row p of a tile whose feature rows are rows of A is the perceptron's row of the whole array. -/
theorem out_point (p : Fin 5000) (d : Fin 36) (n : Fin 100000)
    (h0 : ∀ j : Fin 6, x0 (ix2 p j) = A (ix2 n j)) (h1 : x1 = WA) (h2 : x2 = BA) (h3 : x3 = WB) (h4 : x4 = BB) :
    outT x0 x1 x2 x3 x4 p d = mlp6 A WA BA WB BB (ix2 n d) := by
  subst h1 h2 h3 h4
  unfold outT hidT mlp6 hid6
  simp only [h0] <;> rfl

/-- The stored output block at a block index y, when y sits at array index i. -/
theorem y_point (y : S5000x36.Idx) (i : N36.Idx)
    (h0 : ∀ j : Fin 6, x0 (ix2 (y 0) j) = A (ix2 (i 0) j)) (h1 : x1 = WA) (h2 : x2 = BA) (h3 : x3 = WB) (h4 : x4 = BB)
    (hi : (i 1).val = (y 1).val) :
    k0_pay2 (F := Ideal) x0 x1 x2 x3 x4 y = mlp6 A WA BA WB BB i := by
  obtain ⟨p, d, rfl⟩ : ∃ (p : Fin 5000) (d : Fin 36), y = ix2 p d := ⟨y 0, y 1, eq_ix2 y⟩
  obtain ⟨n, e, rfl⟩ : ∃ (n : Fin 100000) (e : Fin 36), i = ix2 n e := ⟨i 0, i 1, eq_ix2 i⟩
  have he : e = d := Fin.ext hi
  rw [he]
  rw [pay2_apply]
  exact out_point x0 x1 x2 x3 x4 A WA BA WB BB p d n h0 h1 h2 h3 h4

/-- The block of column sums of tile t at a block index y, when y sits at array index i = (8t + y₀, y₁). -/
theorem s_point (t : Nat) (ht : t < 20) (y : S8x36.Idx) (i : P36.Idx)
    (h0 : ∀ (p : Fin 5000) (j : Fin 6), x0 (ix2 p j) = A (ix2 ⟨5000 * t + p.val, by have := p.isLt; omega⟩ j))
    (h1 : x1 = WA) (h2 : x2 = BA) (h3 : x3 = WB) (h4 : x4 = BB)
    (hi0 : (i 0).val = 8 * t + (y 0).val) (hi1 : (i 1).val = (y 1).val) :
    k0_pay4 (F := Ideal) x0 x1 x2 x3 x4 y = tileSums (mlp6 A WA BA WB BB) i := by
  obtain ⟨r, d, rfl⟩ : ∃ (r : Fin 8) (d : Fin 36), y = ix2 r d := ⟨y 0, y 1, eq_ix2 y⟩
  obtain ⟨m, e, rfl⟩ : ∃ (m : Fin 160) (e : Fin 36), i = ix2 m e := ⟨i 0, i 1, eq_ix2 i⟩
  have he : e = d := Fin.ext hi1
  rw [he]
  have hm : m.val = 8 * t + r.val := hi0
  have hr := r.isLt
  rw [pay4_apply]
  unfold tileSums
  refine if_congr (show r.val = 0 ↔ m.val % 8 = 0 by omega) ?_ rfl
  have hq : m.val / 8 = t := by omega
  show _ = ∑ n : Fin 100000, (if n.val / 5000 = m.val / 8 then mlp6 A WA BA WB BB (ix2 n d) else 0)
  rw [hq, tile_sum _ t ht]
  exact Finset.sum_congr rfl fun p _ => out_point x0 x1 x2 x3 x4 A WA BA WB BB p d _ (h0 p) h1 h2 h3 h4

/-- The block of column sums of squares of tile t, likewise. -/
theorem ss_point (t : Nat) (ht : t < 20) (y : S8x36.Idx) (i : P36.Idx)
    (h0 : ∀ (p : Fin 5000) (j : Fin 6), x0 (ix2 p j) = A (ix2 ⟨5000 * t + p.val, by have := p.isLt; omega⟩ j))
    (h1 : x1 = WA) (h2 : x2 = BA) (h3 : x3 = WB) (h4 : x4 = BB)
    (hi0 : (i 0).val = 8 * t + (y 0).val) (hi1 : (i 1).val = (y 1).val) :
    k0_pay1 (F := Ideal) (k0_pay3 (F := Ideal) x0 x1 x2 x3 x4) (iota .tc S8x36 32 [0] Gen.iota_S8x36_d0_w32) y
      = tileSums (Cert.GinMath.sq (mlp6 A WA BA WB BB)) i := by
  obtain ⟨r, d, rfl⟩ : ∃ (r : Fin 8) (d : Fin 36), y = ix2 r d := ⟨y 0, y 1, eq_ix2 y⟩
  obtain ⟨m, e, rfl⟩ : ∃ (m : Fin 160) (e : Fin 36), i = ix2 m e := ⟨i 0, i 1, eq_ix2 i⟩
  have he : e = d := Fin.ext hi1
  rw [he]
  have hm : m.val = 8 * t + r.val := hi0
  have hr := r.isLt
  rw [pay1_apply]
  unfold tileSums Cert.GinMath.sq
  refine if_congr (show r.val = 0 ↔ m.val % 8 = 0 by omega) ?_ rfl
  have hq : m.val / 8 = t := by omega
  show _ = ∑ n : Fin 100000, (if n.val / 5000 = m.val / 8 then mlp6 A WA BA WB BB (ix2 n d) * mlp6 A WA BA WB BB (ix2 n d) else 0)
  rw [hq, tile_sum _ t ht]
  exact Finset.sum_congr rfl fun p _ => by rw [out_point x0 x1 x2 x3 x4 A WA BA WB BB p d _ (h0 p) h1 h2 h3 h4]

end Cert.KernelIdeal.Reg0

end
-- ==== Proof.Reg0Value.lean ====
/-
  A perceptron region from 6 input features, as whole arrays. The region runs its body at 20 points; point t fetches rows
  5000·t … 5000·t + 4999 of the features (and the weights and biases whole), and writes back rows
  5000·t … 5000·t + 4999 of the output and rows 8·t … 8·t + 7 of the two arrays of partial sums. Every row of each
  output array lies in exactly the block of the point t = row / 5000 (resp. row / 8), so after the region the output
  is the whole-array perceptron of the features, and the two arrays of partial sums are its tile sums and the tile
  sums of its square.
-/
import proofs.«408188_j34256659153341_2_alg».proof.Proof.FrameKI
import proofs.«408188_j34256659153341_2_alg».proof.Proof.Reg0Point
import Idealize.ShloMosaic.Lib.Pipeline.Value
import Idealize.ShloMosaic.Lib.Tactic

noncomputable section

open scoped BigOperators

open Idealize.ShloMosaic Idealize.ShloMosaic.TcCoe Idealize.SL.Sem Idealize.ShloMosaic.ValueIdx
open Idealize.ShloMosaic.Pipeline (Dat)

namespace Cert.KernelIdeal.Reg0

open Cert.KernelIdeal Cert.KernelIdeal.Gen Cert.GinMath

-- the buffer contents when the region is entered
variable (V : (c : Dev nD) → (b : Ref sig .tc) → Buf (Elt Ideal) ((c : Thread nD τ).loc b))

/-- The aggregated features, as the region finds them. -/
abbrev arrA (c : Dev nD) : N6.Idx → EReal := V c (Pipeline.arrRef spec0 0)
/-- The first layer's weights. -/
abbrev arrWA (c : Dev nD) : W6.Idx → EReal := V c (Pipeline.arrRef spec0 1)
/-- The first layer's bias. -/
abbrev arrBA (c : Dev nD) : R36.Idx → EReal := V c (Pipeline.arrRef spec0 2)
/-- The second layer's weights. -/
abbrev arrWB (c : Dev nD) : W36.Idx → EReal := V c (Pipeline.arrRef spec0 3)
/-- The second layer's bias. -/
abbrev arrBB (c : Dev nD) : R36.Idx → EReal := V c (Pipeline.arrRef spec0 4)

/-- The whole-array perceptron of the arrays the region finds. -/
abbrev Y (c : Dev nD) : N36.Idx → EReal := mlp6 (arrA V c) (arrWA V c) (arrBA V c) (arrWB V c) (arrBB V c)

/-! ## The index maps, decided over the 20 points -/

theorem hz : (![0, 0] : Fin 2 → Nat) = fun _ => 0 := funext fun a => by fin_cases a <;> rfl

theorem lt20 (t : Fin cfg0.N) : t.val < 20 := lt_of_lt_of_eq t.isLt Gen.N_0

/-- The features' block moves down one tile per point. -/
theorem idx_0 : ∀ t : Fin cfg0.N, win0_0.index t (0 : Fin 2) = t.val ∧ win0_0.index t (1 : Fin 2) = 0 :=
  (by decide +kernel : ∀ t : Fin grid0.N, _)
/-- The weights and biases are whole at every point. -/
theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
/-- Each output's block moves down one block per point. -/
theorem idx_5 : ∀ t : Fin cfg0.N, win0_5.index t (0 : Fin 2) = t.val ∧ win0_5.index t (1 : Fin 2) = 0 :=
  (by decide +kernel : ∀ t : Fin grid0.N, _)
theorem idx_6 : ∀ t : Fin cfg0.N, win0_6.index t (0 : Fin 2) = t.val ∧ win0_6.index t (1 : Fin 2) = 0 :=
  (by decide +kernel : ∀ t : Fin grid0.N, _)
theorem idx_7 : ∀ t : Fin cfg0.N, win0_7.index t (0 : Fin 2) = t.val ∧ win0_7.index t (1 : Fin 2) = 0 :=
  (by decide +kernel : ∀ t : Fin grid0.N, _)

/-! ## The input blocks, as parts of the arrays -/

/-- The features' block at point t is rows 5000·t … 5000·t + 4999 of the features. -/
theorem blk0_apply (c : Dev nD) (t : Fin cfg0.N) (x : S5000x6.Idx) (k : N6.Idx)
    (hk0 : (k 0).val = 5000 * t.val + (x 0).val) (hk1 : (k 1).val = (x 1).val) :
    (Gen.iblk0 V c 0 t : FVec Ideal S5000x6 .f32) x = arrA V c k := by
  obtain ⟨e0, e1⟩ := idx_0 t
  unfold Gen.iblk0
  rw [View.read_apply]
  show V c (Pipeline.arrRef spec0 0) _ = V c (Pipeline.arrRef spec0 0) _
  congr 1
  funext a
  apply Fin.ext
  match a with
  | ⟨0, _⟩ => show win0_0.index t (0 : Fin 2) * 5000 + 1 * (x 0).val = (k 0).val; rw [e0, hk0]; omega
  | ⟨1, _⟩ => show win0_0.index t (1 : Fin 2) * 6 + 1 * (x 1).val = (k 1).val; rw [e1, hk1]; omega

/-- The first layer's weights are fetched whole. -/
theorem blk1_eq (c : Dev nD) (t : Fin cfg0.N) : (Gen.iblk0 V c 1 t : FVec Ideal S6x36 .f32) = arrWA V c := by
  obtain ⟨e0, e1⟩ := idx_1 t
  funext x
  unfold Gen.iblk0
  rw [View.read_apply]
  show V c (Pipeline.arrRef spec0 1) _ = V c (Pipeline.arrRef spec0 1) x
  congr 1
  funext a
  apply Fin.ext
  match a with
  | ⟨0, _⟩ => show win0_1.index t (0 : Fin 2) * 6 + 1 * (x 0).val = (x 0).val; rw [e0]; omega
  | ⟨1, _⟩ => show win0_1.index t (1 : Fin 2) * 36 + 1 * (x 1).val = (x 1).val; rw [e1]; omega

/-- The first layer's bias is fetched whole. -/
theorem blk2_eq (c : Dev nD) (t : Fin cfg0.N) : (Gen.iblk0 V c 2 t : FVec Ideal S1x36 .f32) = arrBA V c := by
  obtain ⟨e0, e1⟩ := idx_2 t
  funext x
  unfold Gen.iblk0
  rw [View.read_apply]
  show V c (Pipeline.arrRef spec0 2) _ = V c (Pipeline.arrRef spec0 2) x
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 36 + 1 * (x 1).val = (x 1).val; rw [e1]; omega

/-- The second layer's weights are fetched whole. -/
theorem blk3_eq (c : Dev nD) (t : Fin cfg0.N) : (Gen.iblk0 V c 3 t : FVec Ideal S36x36 .f32) = arrWB V c := by
  obtain ⟨e0, e1⟩ := idx_3 t
  funext x
  unfold Gen.iblk0
  rw [View.read_apply]
  show V c (Pipeline.arrRef spec0 3) _ = V c (Pipeline.arrRef spec0 3) x
  congr 1
  funext a
  apply Fin.ext
  match a with
  | ⟨0, _⟩ => show win0_3.index t (0 : Fin 2) * 36 + 1 * (x 0).val = (x 0).val; rw [e0]; omega
  | ⟨1, _⟩ => show win0_3.index t (1 : Fin 2) * 36 + 1 * (x 1).val = (x 1).val; rw [e1]; omega

/-- The second layer's bias is fetched whole. -/
theorem blk4_eq (c : Dev nD) (t : Fin cfg0.N) : (Gen.iblk0 V c 4 t : FVec Ideal S1x36 .f32) = arrBB V c := by
  obtain ⟨e0, e1⟩ := idx_4 t
  funext x
  unfold Gen.iblk0
  rw [View.read_apply]
  show V c (Pipeline.arrRef spec0 4) _ = V c (Pipeline.arrRef spec0 4) x
  congr 1
  funext a
  apply Fin.ext
  match a with
  | ⟨0, _⟩ => show win0_4.index t (0 : Fin 2) * 1 + 1 * (x 0).val = (x 0).val; rw [e0]; omega
  | ⟨1, _⟩ => show win0_4.index t (1 : Fin 2) * 36 + 1 * (x 1).val = (x 1).val; rw [e1]; omega

/-! ## What each point writes back -/

/-- Point t writes back block t of the whole-array perceptron. -/
theorem flushed5_eq (c : Dev nD) (t : Fin cfg0.N) :
    (Gen.dat0 V c).flushed 5 t = ((cfg0.win 5).blk t).view.read (Elt Ideal) (Y V c) := by
  show (cfg0.win 5).cut (grid0.coords t) ((Gen.dat0 V c).after 5 t) = _
  rw [Gen.after0_5]
  unfold Gen.out0_5
  rw [View.canon_unit_zero hz]
  simp only [View.ld_unit_zero (S := S5000x6) hz, View.ld_unit_zero (S := S6x36) hz, View.ld_unit_zero (S := S1x36) hz,
    View.ld_unit_zero (S := S36x36) hz]
  obtain ⟨e0, e1⟩ := idx_5 t
  funext y
  show k0_pay2 (F := Ideal) (Gen.iblk0 V c 0 t) (Gen.iblk0 V c 1 t) (Gen.iblk0 V c 2 t) (Gen.iblk0 V c 3 t) (Gen.iblk0 V c 4 t) y
    = Y V c (((cfg0.win 5).blk t).view.emb y)
  refine y_point (Gen.iblk0 V c 0 t) (Gen.iblk0 V c 1 t) (Gen.iblk0 V c 2 t) (Gen.iblk0 V c 3 t) (Gen.iblk0 V c 4 t)
    (arrA V c) (arrWA V c) (arrBA V c) (arrWB V c) (arrBB V c) y (((cfg0.win 5).blk t).view.emb y)
    (fun j => ?_) (blk1_eq V c t) (blk2_eq V c t) (blk3_eq V c t) (blk4_eq V c t) ?_
  · refine blk0_apply V c t _ _ ?_ rfl
    show win0_5.index t (0 : Fin 2) * 5000 + 1 * (y 0).val = 5000 * t.val + (y 0).val
    rw [e0]; omega
  · show win0_5.index t (1 : Fin 2) * 36 + 1 * (y 1).val = (y 1).val
    rw [e1]; omega

/-- Point t writes back block t of the tile sums: row 0 the column sums over tile t, rows 1 to 7 zero. -/
theorem flushed6_eq (c : Dev nD) (t : Fin cfg0.N) :
    (Gen.dat0 V c).flushed 6 t = ((cfg0.win 6).blk t).view.read (Elt Ideal) (tileSums (Y V c)) := by
  show (cfg0.win 6).cut (grid0.coords t) ((Gen.dat0 V c).after 6 t) = _
  rw [Gen.after0_6]
  unfold Gen.out0_6
  rw [View.canon_unit_zero hz]
  simp only [View.ld_unit_zero (S := S5000x6) hz, View.ld_unit_zero (S := S6x36) hz, View.ld_unit_zero (S := S1x36) hz,
    View.ld_unit_zero (S := S36x36) hz]
  obtain ⟨e0, e1⟩ := idx_6 t
  funext y
  show k0_pay4 (F := Ideal) (Gen.iblk0 V c 0 t) (Gen.iblk0 V c 1 t) (Gen.iblk0 V c 2 t) (Gen.iblk0 V c 3 t) (Gen.iblk0 V c 4 t) y
    = tileSums (Y V c) (((cfg0.win 6).blk t).view.emb y)
  refine s_point (Gen.iblk0 V c 0 t) (Gen.iblk0 V c 1 t) (Gen.iblk0 V c 2 t) (Gen.iblk0 V c 3 t) (Gen.iblk0 V c 4 t)
    (arrA V c) (arrWA V c) (arrBA V c) (arrWB V c) (arrBB V c) t.val (lt20 t) y (((cfg0.win 6).blk t).view.emb y)
    (fun p j => ?_) (blk1_eq V c t) (blk2_eq V c t) (blk3_eq V c t) (blk4_eq V c t) ?_ ?_
  · exact blk0_apply V c t _ _ rfl rfl
  · show win0_6.index t (0 : Fin 2) * 8 + 1 * (y 0).val = 8 * t.val + (y 0).val
    rw [e0]; omega
  · show win0_6.index t (1 : Fin 2) * 36 + 1 * (y 1).val = (y 1).val
    rw [e1]; omega

/-- Point t writes back block t of the tile sums of the square. -/
theorem flushed7_eq (c : Dev nD) (t : Fin cfg0.N) :
    (Gen.dat0 V c).flushed 7 t = ((cfg0.win 7).blk t).view.read (Elt Ideal) (tileSums (Cert.GinMath.sq (Y V c))) := by
  show (cfg0.win 7).cut (grid0.coords t) ((Gen.dat0 V c).after 7 t) = _
  rw [Gen.after0_7]
  unfold Gen.out0_7
  rw [View.canon_unit_zero hz]
  simp only [View.ld_unit_zero (S := S5000x6) hz, View.ld_unit_zero (S := S6x36) hz, View.ld_unit_zero (S := S1x36) hz,
    View.ld_unit_zero (S := S36x36) hz]
  obtain ⟨e0, e1⟩ := idx_7 t
  funext y
  show k0_pay1 (F := Ideal) (k0_pay3 (F := Ideal) (Gen.iblk0 V c 0 t) (Gen.iblk0 V c 1 t) (Gen.iblk0 V c 2 t) (Gen.iblk0 V c 3 t) (Gen.iblk0 V c 4 t))
      (iota .tc S8x36 32 [0] Gen.iota_S8x36_d0_w32) y
    = tileSums (Cert.GinMath.sq (Y V c)) (((cfg0.win 7).blk t).view.emb y)
  refine ss_point (Gen.iblk0 V c 0 t) (Gen.iblk0 V c 1 t) (Gen.iblk0 V c 2 t) (Gen.iblk0 V c 3 t) (Gen.iblk0 V c 4 t)
    (arrA V c) (arrWA V c) (arrBA V c) (arrWB V c) (arrBB V c) t.val (lt20 t) y (((cfg0.win 7).blk t).view.emb y)
    (fun p j => ?_) (blk1_eq V c t) (blk2_eq V c t) (blk3_eq V c t) (blk4_eq V c t) ?_ ?_
  · exact blk0_apply V c t _ _ rfl rfl
  · show win0_7.index t (0 : Fin 2) * 8 + 1 * (y 0).val = 8 * t.val + (y 0).val
    rw [e0]; omega
  · show win0_7.index t (1 : Fin 2) * 36 + 1 * (y 1).val = (y 1).val
    rw [e1]; omega

/-! ## The blocks cover each output array -/

/-- An index of the output is in point t's block iff each coordinate is in the block's range on its axis. -/
theorem mem_blk5 (t : Fin cfg0.N) (i : N36.Idx) :
    i ∈ ((cfg0.win 5).blk t).view.set ↔ ∀ a : Fin 2, win0_5.index t a * S5000x36.size a ≤ (i a).val ∧ (i a).val < win0_5.index t a * S5000x36.size a + S5000x36.size a := by
  show i ∈ ((View.whole main_v31_0).slice (win0_5.rect t)).set ↔ _
  rw [View.set_slice_whole, Rect.mem_set_unit]
  exact Iff.rfl

theorem mem_blk6 (t : Fin cfg0.N) (i : P36.Idx) :
    i ∈ ((cfg0.win 6).blk t).view.set ↔ ∀ a : Fin 2, win0_6.index t a * S8x36.size a ≤ (i a).val ∧ (i a).val < win0_6.index t a * S8x36.size a + S8x36.size a := by
  show i ∈ ((View.whole main_v31_1).slice (win0_6.rect t)).set ↔ _
  rw [View.set_slice_whole, Rect.mem_set_unit]
  exact Iff.rfl

theorem mem_blk7 (t : Fin cfg0.N) (i : P36.Idx) :
    i ∈ ((cfg0.win 7).blk t).view.set ↔ ∀ a : Fin 2, win0_7.index t a * S8x36.size a ≤ (i a).val ∧ (i a).val < win0_7.index t a * S8x36.size a + S8x36.size a := by
  show i ∈ ((View.whole main_v31_2).slice (win0_7.rect t)).set ↔ _
  rw [View.set_slice_whole, Rect.mem_set_unit]
  exact Iff.rfl

/-- Row n of the output is in the block of point n / 5000. -/
theorem cover5 (i : N36.Idx) : ∃ t : Fin cfg0.N, (cfg0.win 5).flush t = true ∧ i ∈ ((cfg0.win 5).blk t).view.set := by
  have hi0 : (i 0).val < 100000 := (i 0).isLt
  have hi1 : (i 1).val < 36 := (i 1).isLt
  have ht : (i 0).val / 5000 < cfg0.N := by rw [show cfg0.N = 20 from Gen.N_0]; omega
  have e0 : win0_5.index ⟨(i 0).val / 5000, ht⟩ (0 : Fin 2) = (i 0).val / 5000 := (idx_5 ⟨(i 0).val / 5000, ht⟩).1
  have e1 : win0_5.index ⟨(i 0).val / 5000, ht⟩ (1 : Fin 2) = 0 := (idx_5 ⟨(i 0).val / 5000, ht⟩).2
  refine ⟨⟨(i 0).val / 5000, ht⟩, Gen.flush0_5 _, ?_⟩
  rw [mem_blk5]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e0]; omega
  | ⟨1, _⟩ =>
    show win0_5.index ⟨(i 0).val / 5000, ht⟩ (1 : Fin 2) * 36 ≤ (i 1).val ∧ (i 1).val < win0_5.index ⟨(i 0).val / 5000, ht⟩ (1 : Fin 2) * 36 + 36
    rw [e1]; omega

/-- Row m of the tile sums is in the block of point m / 8. -/
theorem cover6 (i : P36.Idx) : ∃ t : Fin cfg0.N, (cfg0.win 6).flush t = true ∧ i ∈ ((cfg0.win 6).blk t).view.set := by
  have hi0 : (i 0).val < 160 := (i 0).isLt
  have hi1 : (i 1).val < 36 := (i 1).isLt
  have ht : (i 0).val / 8 < cfg0.N := by rw [show cfg0.N = 20 from Gen.N_0]; omega
  have e0 : win0_6.index ⟨(i 0).val / 8, ht⟩ (0 : Fin 2) = (i 0).val / 8 := (idx_6 ⟨(i 0).val / 8, ht⟩).1
  have e1 : win0_6.index ⟨(i 0).val / 8, ht⟩ (1 : Fin 2) = 0 := (idx_6 ⟨(i 0).val / 8, ht⟩).2
  refine ⟨⟨(i 0).val / 8, ht⟩, Gen.flush0_6 _, ?_⟩
  rw [mem_blk6]
  intro a
  match a with
  | ⟨0, _⟩ =>
    show win0_6.index ⟨(i 0).val / 8, ht⟩ (0 : Fin 2) * 8 ≤ (i 0).val ∧ (i 0).val < win0_6.index ⟨(i 0).val / 8, ht⟩ (0 : Fin 2) * 8 + 8
    rw [e0]; omega
  | ⟨1, _⟩ =>
    show win0_6.index ⟨(i 0).val / 8, ht⟩ (1 : Fin 2) * 36 ≤ (i 1).val ∧ (i 1).val < win0_6.index ⟨(i 0).val / 8, ht⟩ (1 : Fin 2) * 36 + 36
    rw [e1]; omega

theorem cover7 (i : P36.Idx) : ∃ t : Fin cfg0.N, (cfg0.win 7).flush t = true ∧ i ∈ ((cfg0.win 7).blk t).view.set := by
  have hi0 : (i 0).val < 160 := (i 0).isLt
  have hi1 : (i 1).val < 36 := (i 1).isLt
  have ht : (i 0).val / 8 < cfg0.N := by rw [show cfg0.N = 20 from Gen.N_0]; omega
  have e0 : win0_7.index ⟨(i 0).val / 8, ht⟩ (0 : Fin 2) = (i 0).val / 8 := (idx_7 ⟨(i 0).val / 8, ht⟩).1
  have e1 : win0_7.index ⟨(i 0).val / 8, ht⟩ (1 : Fin 2) = 0 := (idx_7 ⟨(i 0).val / 8, ht⟩).2
  refine ⟨⟨(i 0).val / 8, ht⟩, Gen.flush0_7 _, ?_⟩
  rw [mem_blk7]
  intro a
  match a with
  | ⟨0, _⟩ =>
    show win0_7.index ⟨(i 0).val / 8, ht⟩ (0 : Fin 2) * 8 ≤ (i 0).val ∧ (i 0).val < win0_7.index ⟨(i 0).val / 8, ht⟩ (0 : Fin 2) * 8 + 8
    rw [e0]; omega
  | ⟨1, _⟩ =>
    show win0_7.index ⟨(i 0).val / 8, ht⟩ (1 : Fin 2) * 36 ≤ (i 1).val ∧ (i 1).val < win0_7.index ⟨(i 0).val / 8, ht⟩ (1 : Fin 2) * 36 + 36
    rw [e1]; omega

/-! ## The arrays after the region -/

/-- The output array after the region is the whole-array perceptron of the arrays the region finds. -/
theorem y_eq (c : Dev nD) : (Gen.dat0 V c).arrAt 5 cfg0.N = Y V c :=
  (Gen.dat0 V c).arrAt_eq_of_cover 5 (Y V c) (fun t _ => flushed5_eq V c t) (fun i => cover5 i)

/-- The first array of partial sums after the region: the tile sums of the perceptron's output. -/
theorem s_eq (c : Dev nD) : (Gen.dat0 V c).arrAt 6 cfg0.N = tileSums (Y V c) :=
  (Gen.dat0 V c).arrAt_eq_of_cover 6 (tileSums (Y V c)) (fun t _ => flushed6_eq V c t) (fun i => cover6 i)

/-- The second array of partial sums after the region: the tile sums of the square of the perceptron's output. -/
theorem ss_eq (c : Dev nD) : (Gen.dat0 V c).arrAt 7 cfg0.N = tileSums (Cert.GinMath.sq (Y V c)) :=
  (Gen.dat0 V c).arrAt_eq_of_cover 7 (tileSums (Cert.GinMath.sq (Y V c))) (fun t _ => flushed7_eq V c t) (fun i => cover7 i)

end Cert.KernelIdeal.Reg0

end
-- ==== Proof.RefMlp.lean ====
/-
  The reference's perceptron. Each layer's y is two matrix products, each followed by a bias row added to every
  node row and a rectifier (the maximum with a zero array). Read entry by entry, a product that contracts the left
  operand's columns with the right operand's rows is a finite sum over the shared coordinate, a bias of 36 entries
  made a row and spread over the rows reads its own entry, and the spread zero constant reads 0; put together,
      y(n,d) = max( Σ_k max( Σ_j A(n,j)·WA(j,k) + ba(k), 0 )·WB(k,d) + bb(d), 0 ),
  which is the perceptron of the layer's mathematics, with the bias vectors read as rows.
-/
import proofs.«408188_j34256659153341_2_alg».proof.ReferenceIdeal
import proofs.«408188_j34256659153341_2_alg».proof.Proof.GinMath
import Idealize.ShloMosaic.Lib.ValueIdx
import Idealize.ShloMosaic.PureOps.Ideal.Laws
import Idealize.ShloMosaic.Lib.Pipeline.Value
import Idealize.ShloMosaic.Lib.IdealHost

noncomputable section

open scoped BigOperators

namespace Cert.ReferenceIdeal.RefMlp

open Idealize.ShloMosaic Idealize.ShloMosaic.ValueIdx Cert.ReferenceIdeal

variable [Facts₀]
open Facts₀

/-! ## The two products at an index

The operand indices of a product that contracts the left operand's axis 1 with the right operand's axis 0:
at output (n, k) and contraction coordinate j they are (n, j) and (j, k). -/

theorem lhs_dot_S100000x6_S6x36_S100000x36_1_0_0_1_n_n_0 (j : S100000x36.Idx) (k : dot_S100000x6_S6x36_S100000x36_1_0_0_1_n_n.contr.Idx) :
    (dot_S100000x6_S6x36_S100000x36_1_0_0_1_n_n.lhsIdx j k 0).val = (j 0).val := rfl
theorem lhs_dot_S100000x6_S6x36_S100000x36_1_0_0_1_n_n_1 (j : S100000x36.Idx) (k : dot_S100000x6_S6x36_S100000x36_1_0_0_1_n_n.contr.Idx) :
    (dot_S100000x6_S6x36_S100000x36_1_0_0_1_n_n.lhsIdx j k 1).val = (k ⟨0, Nat.one_pos⟩).val := rfl
theorem rhs_dot_S100000x6_S6x36_S100000x36_1_0_0_1_n_n_0 (j : S100000x36.Idx) (k : dot_S100000x6_S6x36_S100000x36_1_0_0_1_n_n.contr.Idx) :
    (dot_S100000x6_S6x36_S100000x36_1_0_0_1_n_n.rhsIdx j k 0).val = (k ⟨0, Nat.one_pos⟩).val := rfl
theorem rhs_dot_S100000x6_S6x36_S100000x36_1_0_0_1_n_n_1 (j : S100000x36.Idx) (k : dot_S100000x6_S6x36_S100000x36_1_0_0_1_n_n.contr.Idx) :
    (dot_S100000x6_S6x36_S100000x36_1_0_0_1_n_n.rhsIdx j k 1).val = (j 1).val := rfl

theorem lhs_dot_S100000x36_S36x36_S100000x36_1_0_0_1_n_n_0 (j : S100000x36.Idx) (k : dot_S100000x36_S36x36_S100000x36_1_0_0_1_n_n.contr.Idx) :
    (dot_S100000x36_S36x36_S100000x36_1_0_0_1_n_n.lhsIdx j k 0).val = (j 0).val := rfl
theorem lhs_dot_S100000x36_S36x36_S100000x36_1_0_0_1_n_n_1 (j : S100000x36.Idx) (k : dot_S100000x36_S36x36_S100000x36_1_0_0_1_n_n.contr.Idx) :
    (dot_S100000x36_S36x36_S100000x36_1_0_0_1_n_n.lhsIdx j k 1).val = (k ⟨0, Nat.one_pos⟩).val := rfl
theorem rhs_dot_S100000x36_S36x36_S100000x36_1_0_0_1_n_n_0 (j : S100000x36.Idx) (k : dot_S100000x36_S36x36_S100000x36_1_0_0_1_n_n.contr.Idx) :
    (dot_S100000x36_S36x36_S100000x36_1_0_0_1_n_n.rhsIdx j k 0).val = (k ⟨0, Nat.one_pos⟩).val := rfl
theorem rhs_dot_S100000x36_S36x36_S100000x36_1_0_0_1_n_n_1 (j : S100000x36.Idx) (k : dot_S100000x36_S36x36_S100000x36_1_0_0_1_n_n.contr.Idx) :
    (dot_S100000x36_S36x36_S100000x36_1_0_0_1_n_n.rhsIdx j k 1).val = (j 1).val := rfl

/-- The product of a [100000, 6] array with a [6, 36] one at (n, k): the sum over the 6 shared coordinates. -/
theorem dot6_apply (A : FVec Ideal S100000x6 .f32) (W : FVec Ideal S6x36 .f32) (n : Fin 100000) (k : Fin 36) :
    Host.dotGeneral dot_S100000x6_S6x36_S100000x36_1_0_0_1_n_n none A W (ix2 n k) = ∑ j : Fin 6, A (ix2 n j) * W (ix2 j k) := by
  show FloatOps.dotGeneral dot_S100000x6_S6x36_S100000x36_1_0_0_1_n_n none .single A W (ix2 n k) = _
  rw [Ideal.dotGeneral_apply, ← Equiv.sum_comp (contrEquiv1 dot_S100000x6_S6x36_S100000x36_1_0_0_1_n_n 6 rfl rfl).symm]
  refine Finset.sum_congr rfl fun j _ => ?_
  have hk := contrEquiv1_symm_val dot_S100000x6_S6x36_S100000x36_1_0_0_1_n_n 6 rfl rfl j
  have el : dot_S100000x6_S6x36_S100000x36_1_0_0_1_n_n.lhsIdx (ix2 n k) ((contrEquiv1 dot_S100000x6_S6x36_S100000x36_1_0_0_1_n_n 6 rfl rfl).symm j) = ix2 n j :=
    funext fun a => Fin.ext (by
      match a with
      | ⟨0, _⟩ => exact lhs_dot_S100000x6_S6x36_S100000x36_1_0_0_1_n_n_0 _ _
      | ⟨1, _⟩ => exact (lhs_dot_S100000x6_S6x36_S100000x36_1_0_0_1_n_n_1 _ _).trans hk)
  have er : dot_S100000x6_S6x36_S100000x36_1_0_0_1_n_n.rhsIdx (ix2 n k) ((contrEquiv1 dot_S100000x6_S6x36_S100000x36_1_0_0_1_n_n 6 rfl rfl).symm j) = ix2 j k :=
    funext fun a => Fin.ext (by
      match a with
      | ⟨0, _⟩ => exact (rhs_dot_S100000x6_S6x36_S100000x36_1_0_0_1_n_n_0 _ _).trans hk
      | ⟨1, _⟩ => exact rhs_dot_S100000x6_S6x36_S100000x36_1_0_0_1_n_n_1 _ _)
  rw [el, er]

/-- The product of a [100000, 36] array with a [36, 36] one at (n, k): the sum over the 36 shared coordinates. -/
theorem dot36_apply (A : FVec Ideal S100000x36 .f32) (W : FVec Ideal S36x36 .f32) (n : Fin 100000) (k : Fin 36) :
    Host.dotGeneral dot_S100000x36_S36x36_S100000x36_1_0_0_1_n_n none A W (ix2 n k) = ∑ j : Fin 36, A (ix2 n j) * W (ix2 j k) := by
  show FloatOps.dotGeneral dot_S100000x36_S36x36_S100000x36_1_0_0_1_n_n none .single A W (ix2 n k) = _
  rw [Ideal.dotGeneral_apply, ← Equiv.sum_comp (contrEquiv1 dot_S100000x36_S36x36_S100000x36_1_0_0_1_n_n 36 rfl rfl).symm]
  refine Finset.sum_congr rfl fun j _ => ?_
  have hk := contrEquiv1_symm_val dot_S100000x36_S36x36_S100000x36_1_0_0_1_n_n 36 rfl rfl j
  have el : dot_S100000x36_S36x36_S100000x36_1_0_0_1_n_n.lhsIdx (ix2 n k) ((contrEquiv1 dot_S100000x36_S36x36_S100000x36_1_0_0_1_n_n 36 rfl rfl).symm j) = ix2 n j :=
    funext fun a => Fin.ext (by
      match a with
      | ⟨0, _⟩ => exact lhs_dot_S100000x36_S36x36_S100000x36_1_0_0_1_n_n_0 _ _
      | ⟨1, _⟩ => exact (lhs_dot_S100000x36_S36x36_S100000x36_1_0_0_1_n_n_1 _ _).trans hk)
  have er : dot_S100000x36_S36x36_S100000x36_1_0_0_1_n_n.rhsIdx (ix2 n k) ((contrEquiv1 dot_S100000x36_S36x36_S100000x36_1_0_0_1_n_n 36 rfl rfl).symm j) = ix2 j k :=
    funext fun a => Fin.ext (by
      match a with
      | ⟨0, _⟩ => exact (rhs_dot_S100000x36_S36x36_S100000x36_1_0_0_1_n_n_0 _ _).trans hk
      | ⟨1, _⟩ => exact rhs_dot_S100000x36_S36x36_S100000x36_1_0_0_1_n_n_1 _ _)
  rw [el, er]

/-! ## The bias row and the zero array at an index -/

/-- A bias of 36 entries, made a row and spread over the 100000 node rows, reads entry k at (n, k). -/
theorem bias_apply (v : FVec Ideal S36 .f32) (n : Fin 100000) (k : Fin 36) :
    broadcastInDim S100000x36 ![0, 1] bcast_S1x36_S100000x36_0_1 (broadcastInDim S1x36 ![1] bcast_S36_S1x36_1 v) (ix2 n k)
      = v (ix1 k) := by
  rw [broadcastInDim_apply ![0, 1] bcast_S1x36_S100000x36_0_1 _ (ix2 n k) (ix2 (0 : Fin 1) k) (fun a => by
        match a with
        | ⟨0, _⟩ => rfl
        | ⟨1, _⟩ => rfl),
    broadcastInDim_apply ![1] bcast_S36_S1x36_1 v (ix2 (0 : Fin 1) k) (ix1 k) (fun a => by
        match a with
        | ⟨0, _⟩ => rfl)]

/-- The zero constant spread over the whole array reads 0 everywhere. -/
theorem zero_apply (j : S100000x36.Idx) :
    broadcastInDim S100000x36 ![] bcast_S_S100000x36 (constant (F := Ideal) S_ .f32 0x00000000#32) j = 0 := by
  rw [broadcastInDim_scalar_apply, constant_apply, Ideal.ofBits_zero_f32]

/-! ## The two products with bias and rectifier are the perceptron -/

/-- From 6 input features: product, bias, rectifier, product, bias, rectifier is the perceptron's output, entry by entry. -/
theorem mlp6_eq (A : FVec Ideal S100000x6 .f32) (WAT : FVec Ideal S6x36 .f32) (ba bb : FVec Ideal S36 .f32)
    (WBT : FVec Ideal S36x36 .f32) :
    maximumf (addf (Host.dotGeneral dot_S100000x36_S36x36_S100000x36_1_0_0_1_n_n none
        (maximumf (addf (Host.dotGeneral dot_S100000x6_S6x36_S100000x36_1_0_0_1_n_n none A WAT)
            (broadcastInDim S100000x36 ![0, 1] bcast_S1x36_S100000x36_0_1 (broadcastInDim S1x36 ![1] bcast_S36_S1x36_1 ba)))
          (broadcastInDim S100000x36 ![] bcast_S_S100000x36 (constant (F := Ideal) S_ .f32 0x00000000#32))) WBT)
        (broadcastInDim S100000x36 ![0, 1] bcast_S1x36_S100000x36_0_1 (broadcastInDim S1x36 ![1] bcast_S36_S1x36_1 bb)))
      (broadcastInDim S100000x36 ![] bcast_S_S100000x36 (constant (F := Ideal) S_ .f32 0x00000000#32))
    = Cert.GinMath.mlp6 A WAT (fun i => ba (ix1 (i 1))) WBT (fun i => bb (ix1 (i 1))) := by
  funext i
  obtain ⟨n, d, rfl⟩ : ∃ (n : Fin 100000) (d : Fin 36), i = ix2 n d := ⟨i 0, i 1, eq_ix2 i⟩
  rw [maximumf_apply, addf_apply, zero_apply, bias_apply, dot36_apply]
  show _ = max ((∑ k : Fin 36, Cert.GinMath.hid6 A WAT (fun i => ba (ix1 (i 1))) n k * WBT (ix2 k d)) + bb (ix1 d)) 0
  refine congrArg (fun s => max (s + bb (ix1 d)) 0) (Finset.sum_congr rfl fun k _ => ?_)
  rw [maximumf_apply, addf_apply, zero_apply, bias_apply, dot6_apply]
  rfl

/-- From 36 input features: the same. -/
theorem mlp36_eq (A : FVec Ideal S100000x36 .f32) (WAT : FVec Ideal S36x36 .f32) (ba bb : FVec Ideal S36 .f32)
    (WBT : FVec Ideal S36x36 .f32) :
    maximumf (addf (Host.dotGeneral dot_S100000x36_S36x36_S100000x36_1_0_0_1_n_n none
        (maximumf (addf (Host.dotGeneral dot_S100000x36_S36x36_S100000x36_1_0_0_1_n_n none A WAT)
            (broadcastInDim S100000x36 ![0, 1] bcast_S1x36_S100000x36_0_1 (broadcastInDim S1x36 ![1] bcast_S36_S1x36_1 ba)))
          (broadcastInDim S100000x36 ![] bcast_S_S100000x36 (constant (F := Ideal) S_ .f32 0x00000000#32))) WBT)
        (broadcastInDim S100000x36 ![0, 1] bcast_S1x36_S100000x36_0_1 (broadcastInDim S1x36 ![1] bcast_S36_S1x36_1 bb)))
      (broadcastInDim S100000x36 ![] bcast_S_S100000x36 (constant (F := Ideal) S_ .f32 0x00000000#32))
    = Cert.GinMath.mlp36 A WAT (fun i => ba (ix1 (i 1))) WBT (fun i => bb (ix1 (i 1))) := by
  funext i
  obtain ⟨n, d, rfl⟩ : ∃ (n : Fin 100000) (d : Fin 36), i = ix2 n d := ⟨i 0, i 1, eq_ix2 i⟩
  rw [maximumf_apply, addf_apply, zero_apply, bias_apply, dot36_apply]
  show _ = max ((∑ k : Fin 36, Cert.GinMath.hid36 A WAT (fun i => ba (ix1 (i 1))) n k * WBT (ix2 k d)) + bb (ix1 d)) 0
  refine congrArg (fun s => max (s + bb (ix1 d)) 0) (Finset.sum_congr rfl fun k _ => ?_)
  rw [maximumf_apply, addf_apply, zero_apply, bias_apply, dot36_apply]
  rfl

end Cert.ReferenceIdeal.RefMlp

end
-- ==== Proof.RowReshape.lean ====
/-
  A vector of 36 entries reshaped to one row of 36: entry (0, k) of the row is entry k of the vector, and back.
-/
import proofs.«408188_j34256659153341_2_alg».proof.KernelIdeal
import Idealize.ShloMosaic.Lib.ValueIdx
import Idealize.ShloMosaic.Lib.ValueLayout

noncomputable section

namespace Cert.KernelIdeal.RowReshape

open Idealize.ShloMosaic Idealize.ShloMosaic.ValueIdx Cert.KernelIdeal

/-- The row at an index: the only row is row 0, so the entry is the vector's at the column coordinate. -/
theorem row_reshape_apply (v : FVec Ideal S36 .f32) (h : S36.ShapeCasts S1x36) (i : S1x36.Idx) :
    shapeCast S1x36 v h i = v (ix1 (i 1)) := by
  obtain ⟨u, k, rfl⟩ : ∃ (u : Fin 1) (k : Fin 36), i = ix2 u k := ⟨i 0, i 1, eq_ix2 i⟩
  exact shapeCast_a_1a_apply v h u k

/-- The row as a whole array. -/
theorem row_reshape (v : FVec Ideal S36 .f32) (h : S36.ShapeCasts S1x36) :
    shapeCast S1x36 v h = fun i => v (ix1 (i 1)) :=
  funext fun i => row_reshape_apply v h i

/-- Back from one row of 36 to a vector of 36: entry k is the row's entry (0, k). -/
theorem vec_reshape_apply (w : FVec Ideal S1x36 .f32) (h : S1x36.ShapeCasts S36) (i : S36.Idx) :
    shapeCast S36 w h i = w (ix2 (0 : Fin 1) (i 0)) := by
  obtain ⟨k, rfl⟩ : ∃ k : Fin 36, i = ix1 k := ⟨i 0, eq_ix1 i⟩
  exact shapeCast_1a_a_apply w h k

/-- The vector as a whole array. -/
theorem vec_reshape (w : FVec Ideal S1x36 .f32) (h : S1x36.ShapeCasts S36) :
    shapeCast S36 w h = fun i => w (ix2 (0 : Fin 1) (i 0)) :=
  funext fun i => vec_reshape_apply w h i

end Cert.KernelIdeal.RowReshape

end
-- ==== Proof.GinReal.lean ====
/-
  The perceptron of real inputs is real. On the extended reals a product and a sum of two real numbers are real,
  so is a finite sum of real terms, and the maximum of a real number with zero is one of the two; the perceptron's
  output is built from the entries of its five arrays by exactly these operations.
-/
import proofs.«408188_j34256659153341_2_alg».proof.Proof.BridgeDefs
import Mathlib.Data.EReal.Basic

noncomputable section

open scoped BigOperators

namespace Cert.Bridge

open Idealize.ShloMosaic Idealize.ShloMosaic.ValueIdx

/-- The extended real is a real number. -/
def Rl (x : EReal) : Prop := ∃ r : ℝ, x = (r : EReal)

theorem Rl.add {x y : EReal} (hx : Rl x) (hy : Rl y) : Rl (x + y) := by
  obtain ⟨a, rfl⟩ := hx
  obtain ⟨b, rfl⟩ := hy
  exact ⟨a + b, (EReal.coe_add a b).symm⟩

theorem Rl.mul {x y : EReal} (hx : Rl x) (hy : Rl y) : Rl (x * y) := by
  obtain ⟨a, rfl⟩ := hx
  obtain ⟨b, rfl⟩ := hy
  exact ⟨a * b, (EReal.coe_mul a b).symm⟩

theorem Rl.zero : Rl 0 := ⟨0, rfl⟩

theorem Rl.max0 {x : EReal} (hx : Rl x) : Rl (max x 0) := by
  rcases le_total x 0 with h | h
  · rw [max_eq_right h]; exact Rl.zero
  · rw [max_eq_left h]; exact hx

theorem Rl.sum {ι : Type} (s : Finset ι) (f : ι → EReal) (h : ∀ i ∈ s, Rl (f i)) : Rl (∑ i ∈ s, f i) := by
  classical
  revert h
  refine Finset.induction_on s ?_ ?_
  · intro _; rw [Finset.sum_empty]; exact Rl.zero
  · intro a t ha ih h
    rw [Finset.sum_insert ha]
    exact (h a (Finset.mem_insert_self a t)).add (ih fun i hi => h i (Finset.mem_insert_of_mem hi))

/-- The perceptron from 6 input features has real entries when its five arrays have. -/
theorem isReal_mlp6 {A : GinMath.N6.Idx → EReal} {WA : GinMath.W6.Idx → EReal} {BA : GinMath.R36.Idx → EReal}
    {WB : GinMath.W36.Idx → EReal} {BB : GinMath.R36.Idx → EReal}
    (hA : IsReal A) (hWA : IsReal WA) (hBA : IsReal BA) (hWB : IsReal WB) (hBB : IsReal BB) :
    IsReal (GinMath.mlp6 A WA BA WB BB) := fun i =>
  Rl.max0 (Rl.add (Rl.sum _ _ fun k _ =>
    Rl.mul (Rl.max0 (Rl.add (Rl.sum _ _ fun j _ => Rl.mul (hA _) (hWA _)) (hBA _))) (hWB _)) (hBB _))

/-- The perceptron from 36 input features has real entries when its five arrays have. -/
theorem isReal_mlp36 {A : GinMath.N36.Idx → EReal} {WA : GinMath.W36.Idx → EReal} {BA : GinMath.R36.Idx → EReal}
    {WB : GinMath.W36.Idx → EReal} {BB : GinMath.R36.Idx → EReal}
    (hA : IsReal A) (hWA : IsReal WA) (hBA : IsReal BA) (hWB : IsReal WB) (hBB : IsReal BB) :
    IsReal (GinMath.mlp36 A WA BA WB BB) := fun i =>
  Rl.max0 (Rl.add (Rl.sum _ _ fun k _ =>
    Rl.mul (Rl.max0 (Rl.add (Rl.sum _ _ fun j _ => Rl.mul (hA _) (hWA _)) (hBA _))) (hWB _)) (hBB _))

/-! ## Arrays read through a re-indexing stay real

A slice, a reshape and a transpose each read their operand at a re-computed index; so does a vector of 36 entries
read as one row. -/

theorem IsReal.slice {s t : Shape} {x : s.Idx → EReal} (hx : IsReal x) (off : Fin s.rank → Nat) (h : s.Slices off t) :
    IsReal (extractStridedSlice t off x h) := fun _ => hx _

theorem IsReal.reshape {s t : Shape} {x : s.Idx → EReal} (hx : IsReal x) (h : s.ShapeCasts t) :
    IsReal (shapeCast t x h) := fun _ => hx _

theorem IsReal.transpose {s t : Shape} {x : s.Idx → EReal} (hx : IsReal x) (perm : List (Fin s.rank)) (h : s.Transposes perm t) :
    IsReal (Idealize.ShloMosaic.transpose t perm x h) := fun _ => hx _

theorem IsReal.row {x : GinMath.C36.Idx → EReal} (hx : IsReal x) :
    IsReal (S := GinMath.R36) (fun i => x (ix1 (i 1))) := fun _ => hx _

theorem IsReal.of_eq {S : Shape} {x y : S.Idx → EReal} (hx : IsReal x) (e : x = y) : IsReal y := e ▸ hx

/-! ## The perceptron of equal arrays -/

theorem mlp6_congr {A A' : GinMath.N6.Idx → EReal} {WA WA' : GinMath.W6.Idx → EReal} {BA BA' : GinMath.R36.Idx → EReal}
    {WB WB' : GinMath.W36.Idx → EReal} {BB BB' : GinMath.R36.Idx → EReal}
    (eA : A = A') (eWA : WA = WA') (eBA : BA = BA') (eWB : WB = WB') (eBB : BB = BB') :
    GinMath.mlp6 A WA BA WB BB = GinMath.mlp6 A' WA' BA' WB' BB' := by
  subst eA eWA eBA eWB eBB; rfl

theorem mlp36_congr {A A' : GinMath.N36.Idx → EReal} {WA WA' : GinMath.W36.Idx → EReal} {BA BA' : GinMath.R36.Idx → EReal}
    {WB WB' : GinMath.W36.Idx → EReal} {BB BB' : GinMath.R36.Idx → EReal}
    (eA : A = A') (eWA : WA = WA') (eBA : BA = BA') (eWB : WB = WB') (eBB : BB = BB') :
    GinMath.mlp36 A WA BA WB BB = GinMath.mlp36 A' WA' BA' WB' BB' := by
  subst eA eWA eBA eWB eBB; rfl

end Cert.Bridge

end
-- ==== Proof.StageY1.lean ====
/-
  Layer 1 of transform 0 on both sides. The tiled program's region 0 leaves the perceptron of its five input arrays —
  the aggregate, and the two weight matrices and two bias rows its host stretch prepared — together with the per-tile
  column sums of that output and of its squares. The reference computes the same perceptron as two matrix products,
  each followed by a bias spread over the node rows and a rectifier. Both sides prepare the weights from the same
  arguments: transform 0's slice of each stacked argument, the matrices transposed, the bias vectors read as rows.
  So from equal, real aggregates the two outputs are equal, the sums are the per-tile sums of the reference's output,
  and that output is real.
-/
import proofs.«408188_j34256659153341_2_alg».proof.Proof.FrameKI
import proofs.«408188_j34256659153341_2_alg».proof.Proof.Reg0Value
import proofs.«408188_j34256659153341_2_alg».proof.Proof.RefChain
import proofs.«408188_j34256659153341_2_alg».proof.Proof.RefMlp
import proofs.«408188_j34256659153341_2_alg».proof.Proof.RowReshape
import proofs.«408188_j34256659153341_2_alg».proof.Proof.BridgeArgs
import proofs.«408188_j34256659153341_2_alg».proof.Proof.GinReal
import Idealize.ShloMosaic.Lib.StableHlo.Run

noncomputable section

/-! ## The tiled program's host stretch before region 0: the four weight arrays it prepares -/

namespace Cert.Bridge.Y1K

open Cert.KernelIdeal Cert.KernelIdeal.Gen Idealize.ShloMosaic Idealize.SL.Sem Idealize.ShloMosaic.StableHlo
open Idealize.ShloMosaic.ValueIdx

/-- Transform 0's first-layer matrix (36 × 6) cut out of the stacked argument. -/
abbrev wA (x : (⟨S2x36x6, .f32⟩ : BufTy).Contents (Elt Ideal)) : (⟨S36x6, .f32⟩ : BufTy).Contents (Elt Ideal) :=
  shapeCast S36x6 (extractStridedSlice S1x36x6 ![0, 0, 0] x slices_S2x36x6_S1x36x6_0_0_0) shapeCasts_S1x36x6_S36x6
/-- Transform 0's second-layer matrix (36 × 36) cut out of the stacked argument. -/
abbrev wB (x : (⟨S2x36x36, .f32⟩ : BufTy).Contents (Elt Ideal)) : (⟨S36x36, .f32⟩ : BufTy).Contents (Elt Ideal) :=
  shapeCast S36x36 (extractStridedSlice S1x36x36 ![0, 0, 0] x slices_S2x36x36_S1x36x36_0_0_0) shapeCasts_S1x36x36_S36x36
/-- Transform 0's bias vector (36 entries) cut out of the stacked argument. -/
abbrev bV (x : (⟨S2x36, .f32⟩ : BufTy).Contents (Elt Ideal)) : (⟨S36, .f32⟩ : BufTy).Contents (Elt Ideal) :=
  shapeCast S36 (extractStridedSlice S1x36 ![0, 0] x slices_S2x36_S1x36_0_0) shapeCasts_S1x36_S36

/-- The first product's right operand: the first-layer matrix, transposed. -/
theorem wa (V : Valuation τ sig (Elt Ideal)) :
    after (hostOps0 (F := Ideal)) V (Proc.devRef .tc Cert.KernelIdeal.main_v27)
      = transpose S6x36 [1, 0] (wA (V (Proc.devRef .tc Cert.KernelIdeal.main_arg3))) transposes_S36x6_S6x36_1_0 := by
  after_results_simp
  all_goals rfl
/-- The first bias, as one row. -/
theorem ba (V : Valuation τ sig (Elt Ideal)) :
    after (hostOps0 (F := Ideal)) V (Proc.devRef .tc Cert.KernelIdeal.main_v29)
      = shapeCast S1x36 (bV (V (Proc.devRef .tc Cert.KernelIdeal.main_arg4))) shapeCasts_S36_S1x36 := by
  after_results_simp
  all_goals rfl
/-- The second product's right operand: the second-layer matrix, transposed. -/
theorem wb (V : Valuation τ sig (Elt Ideal)) :
    after (hostOps0 (F := Ideal)) V (Proc.devRef .tc Cert.KernelIdeal.main_v28)
      = transpose S36x36 [1, 0] (wB (V (Proc.devRef .tc Cert.KernelIdeal.main_arg5))) transposes_S36x36_S36x36_1_0 := by
  after_results_simp
  all_goals rfl
/-- The second bias, as one row. -/
theorem bb (V : Valuation τ sig (Elt Ideal)) :
    after (hostOps0 (F := Ideal)) V (Proc.devRef .tc Cert.KernelIdeal.main_v30)
      = shapeCast S1x36 (bV (V (Proc.devRef .tc Cert.KernelIdeal.main_arg6))) shapeCasts_S36_S1x36 := by
  after_results_simp
  all_goals rfl

end Cert.Bridge.Y1K

/-! ## The reference: the weights the stretch before cuts out, and its perceptron -/

namespace Cert.Bridge.Y1R

open Cert.ReferenceIdeal Cert.ReferenceIdeal.Gen Cert.ReferenceIdeal.RefRun Idealize.ShloMosaic Idealize.SL.Sem
open Idealize.ShloMosaic.StableHlo Idealize.ShloMosaic.ValueIdx

/-- Transform 0's first-layer matrix (36 × 6) cut out of the stacked argument. -/
abbrev wA (x : (⟨S2x36x6, .f32⟩ : BufTy).Contents (Elt Ideal)) : (⟨S36x6, .f32⟩ : BufTy).Contents (Elt Ideal) :=
  shapeCast S36x6 (extractStridedSlice S1x36x6 ![0, 0, 0] x slices_S2x36x6_S1x36x6_0_0_0) shapeCasts_S1x36x6_S36x6
/-- Transform 0's second-layer matrix (36 × 36) cut out of the stacked argument. -/
abbrev wB (x : (⟨S2x36x36, .f32⟩ : BufTy).Contents (Elt Ideal)) : (⟨S36x36, .f32⟩ : BufTy).Contents (Elt Ideal) :=
  shapeCast S36x36 (extractStridedSlice S1x36x36 ![0, 0, 0] x slices_S2x36x36_S1x36x36_0_0_0) shapeCasts_S1x36x36_S36x36
/-- Transform 0's bias vector (36 entries) cut out of the stacked argument. -/
abbrev bV (x : (⟨S2x36, .f32⟩ : BufTy).Contents (Elt Ideal)) : (⟨S36, .f32⟩ : BufTy).Contents (Elt Ideal) :=
  shapeCast S36 (extractStridedSlice S1x36 ![0, 0] x slices_S2x36_S1x36_0_0) shapeCasts_S1x36_S36

theorem wa (V : Valuation τ sig (Elt Ideal)) :
    after (seg0 (F := Ideal)) V (Proc.devRef .tc Cert.ReferenceIdeal.main_v7) = wA (V (Proc.devRef .tc Cert.ReferenceIdeal.main_arg3)) := by
  after_results_simp
  all_goals rfl
theorem ba (V : Valuation τ sig (Elt Ideal)) :
    after (seg0 (F := Ideal)) V (Proc.devRef .tc Cert.ReferenceIdeal.main_v9) = bV (V (Proc.devRef .tc Cert.ReferenceIdeal.main_arg4)) := by
  after_results_simp
  all_goals rfl
theorem wb (V : Valuation τ sig (Elt Ideal)) :
    after (seg0 (F := Ideal)) V (Proc.devRef .tc Cert.ReferenceIdeal.main_v11) = wB (V (Proc.devRef .tc Cert.ReferenceIdeal.main_arg5)) := by
  after_results_simp
  all_goals rfl
theorem bb (V : Valuation τ sig (Elt Ideal)) :
    after (seg0 (F := Ideal)) V (Proc.devRef .tc Cert.ReferenceIdeal.main_v13) = bV (V (Proc.devRef .tc Cert.ReferenceIdeal.main_arg6)) := by
  after_results_simp
  all_goals rfl

-- the fold through the stretch's sixteen operations is long to evaluate
set_option maxHeartbeats 1000000 in
/-- The stretch of the two products: its last value is the perceptron of the aggregate with the weights transposed
    and the bias vectors read as rows. -/
theorem y (V : Valuation τ sig (Elt Ideal)) :
    after (seg1 (F := Ideal)) V (Proc.devRef .tc Cert.ReferenceIdeal.main_v36)
      = Cert.GinMath.mlp6 (V (Proc.devRef .tc Cert.ReferenceIdeal.main_v24))
          (transpose S6x36 [1, 0] (V (Proc.devRef .tc Cert.ReferenceIdeal.main_v7)) transposes_S36x6_S6x36_1_0)
          (fun i => V (Proc.devRef .tc Cert.ReferenceIdeal.main_v9) (ix1 (i 1)))
          (transpose S36x36 [1, 0] (V (Proc.devRef .tc Cert.ReferenceIdeal.main_v11)) transposes_S36x36_S36x36_1_0)
          (fun i => V (Proc.devRef .tc Cert.ReferenceIdeal.main_v13) (ix1 (i 1))) := by
  after_results
  exact RefMlp.mlp6_eq _ _ _ _ _

end Cert.Bridge.Y1R

/-! ## The stage -/

namespace Cert.Bridge

open Idealize.ShloMosaic Idealize.SL.Sem Idealize.ShloMosaic.ValueIdx

/-- Region 0 against the reference's perceptron: from equal real aggregates, equal outputs with their per-tile
    sums, the output real. The two memories agree on the four weight arguments, which are real. -/
theorem stage_Y1
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hWA : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (hBA : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (hWB : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (hBB : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (rWA : IsReal (m ((c.tc : Thread Cert.KernelIdeal.nD Cert.KernelIdeal.τ).loc Cert.KernelIdeal.main_arg3)))
    (rBA : IsReal (m ((c.tc : Thread Cert.KernelIdeal.nD Cert.KernelIdeal.τ).loc Cert.KernelIdeal.main_arg4)))
    (rWB : IsReal (m ((c.tc : Thread Cert.KernelIdeal.nD Cert.KernelIdeal.τ).loc Cert.KernelIdeal.main_arg5)))
    (rBB : IsReal (m ((c.tc : Thread Cert.KernelIdeal.nD Cert.KernelIdeal.τ).loc Cert.KernelIdeal.main_arg6)))
    (hin : RelAgg (S := GinMath.N6) (Cert.KernelIdeal.Gen.W1 (F := Ideal) m ρ c (Proc.devRef .tc Cert.KernelIdeal.main_v18))
        (Cert.ReferenceIdeal.RefRun.R1 (F := Ideal) m' c (Proc.devRef .tc Cert.ReferenceIdeal.main_v24))) :
    RelY (Cert.KernelIdeal.Gen.W2 (F := Ideal) m ρ c (Proc.devRef .tc Cert.KernelIdeal.main_v31_0))
      (Cert.KernelIdeal.Gen.W2 (F := Ideal) m ρ c (Proc.devRef .tc Cert.KernelIdeal.main_v31_1))
      (Cert.KernelIdeal.Gen.W2 (F := Ideal) m ρ c (Proc.devRef .tc Cert.KernelIdeal.main_v31_2))
      (Cert.ReferenceIdeal.RefRun.R2 (F := Ideal) m' c (Proc.devRef .tc Cert.ReferenceIdeal.main_v36)) := by
  unfold RelAgg at hin
  obtain ⟨hA, hAr⟩ := hin
  -- the tiled side's four weight arrays, from its arguments
  have kWA : Cert.KernelIdeal.Gen.W1 (F := Ideal) m ρ c (Proc.devRef .tc Cert.KernelIdeal.main_v27)
      = transpose Cert.KernelIdeal.S6x36 [1, 0] (Y1K.wA (m ((c.tc : Thread Cert.KernelIdeal.nD Cert.KernelIdeal.τ).loc Cert.KernelIdeal.main_arg3))) Cert.KernelIdeal.Gen.transposes_S36x6_S6x36_1_0 :=
    (Y1K.wa (Cert.KernelIdeal.Gen.W0 m ρ c)).trans
      (congrArg (fun x => transpose Cert.KernelIdeal.S6x36 [1, 0] (Y1K.wA x) Cert.KernelIdeal.Gen.transposes_S36x6_S6x36_1_0) (karg_0 m ρ c Cert.KernelIdeal.main_arg3))
  have kBA : Cert.KernelIdeal.Gen.W1 (F := Ideal) m ρ c (Proc.devRef .tc Cert.KernelIdeal.main_v29)
      = shapeCast Cert.KernelIdeal.S1x36 (Y1K.bV (m ((c.tc : Thread Cert.KernelIdeal.nD Cert.KernelIdeal.τ).loc Cert.KernelIdeal.main_arg4))) Cert.KernelIdeal.Gen.shapeCasts_S36_S1x36 :=
    (Y1K.ba (Cert.KernelIdeal.Gen.W0 m ρ c)).trans
      (congrArg (fun x => shapeCast Cert.KernelIdeal.S1x36 (Y1K.bV x) Cert.KernelIdeal.Gen.shapeCasts_S36_S1x36) (karg_0 m ρ c Cert.KernelIdeal.main_arg4))
  have kWB : Cert.KernelIdeal.Gen.W1 (F := Ideal) m ρ c (Proc.devRef .tc Cert.KernelIdeal.main_v28)
      = transpose Cert.KernelIdeal.S36x36 [1, 0] (Y1K.wB (m ((c.tc : Thread Cert.KernelIdeal.nD Cert.KernelIdeal.τ).loc Cert.KernelIdeal.main_arg5))) Cert.KernelIdeal.Gen.transposes_S36x36_S36x36_1_0 :=
    (Y1K.wb (Cert.KernelIdeal.Gen.W0 m ρ c)).trans
      (congrArg (fun x => transpose Cert.KernelIdeal.S36x36 [1, 0] (Y1K.wB x) Cert.KernelIdeal.Gen.transposes_S36x36_S36x36_1_0) (karg_0 m ρ c Cert.KernelIdeal.main_arg5))
  have kBB : Cert.KernelIdeal.Gen.W1 (F := Ideal) m ρ c (Proc.devRef .tc Cert.KernelIdeal.main_v30)
      = shapeCast Cert.KernelIdeal.S1x36 (Y1K.bV (m ((c.tc : Thread Cert.KernelIdeal.nD Cert.KernelIdeal.τ).loc Cert.KernelIdeal.main_arg6))) Cert.KernelIdeal.Gen.shapeCasts_S36_S1x36 :=
    (Y1K.bb (Cert.KernelIdeal.Gen.W0 m ρ c)).trans
      (congrArg (fun x => shapeCast Cert.KernelIdeal.S1x36 (Y1K.bV x) Cert.KernelIdeal.Gen.shapeCasts_S36_S1x36) (karg_0 m ρ c Cert.KernelIdeal.main_arg6))
  -- the reference's four, from its arguments
  have sWA : Cert.ReferenceIdeal.RefRun.R1 (F := Ideal) m' c (Proc.devRef .tc Cert.ReferenceIdeal.main_v7) = Y1R.wA (m' ((c.tc : Thread Cert.ReferenceIdeal.nD Cert.ReferenceIdeal.τ).loc Cert.ReferenceIdeal.main_arg3)) :=
    (Y1R.wa (Cert.ReferenceIdeal.RefRun.R0 m' c)).trans (congrArg Y1R.wA (rarg_0 m' c Cert.ReferenceIdeal.main_arg3))
  have sBA : Cert.ReferenceIdeal.RefRun.R1 (F := Ideal) m' c (Proc.devRef .tc Cert.ReferenceIdeal.main_v9) = Y1R.bV (m' ((c.tc : Thread Cert.ReferenceIdeal.nD Cert.ReferenceIdeal.τ).loc Cert.ReferenceIdeal.main_arg4)) :=
    (Y1R.ba (Cert.ReferenceIdeal.RefRun.R0 m' c)).trans (congrArg Y1R.bV (rarg_0 m' c Cert.ReferenceIdeal.main_arg4))
  have sWB : Cert.ReferenceIdeal.RefRun.R1 (F := Ideal) m' c (Proc.devRef .tc Cert.ReferenceIdeal.main_v11) = Y1R.wB (m' ((c.tc : Thread Cert.ReferenceIdeal.nD Cert.ReferenceIdeal.τ).loc Cert.ReferenceIdeal.main_arg5)) :=
    (Y1R.wb (Cert.ReferenceIdeal.RefRun.R0 m' c)).trans (congrArg Y1R.wB (rarg_0 m' c Cert.ReferenceIdeal.main_arg5))
  have sBB : Cert.ReferenceIdeal.RefRun.R1 (F := Ideal) m' c (Proc.devRef .tc Cert.ReferenceIdeal.main_v13) = Y1R.bV (m' ((c.tc : Thread Cert.ReferenceIdeal.nD Cert.ReferenceIdeal.τ).loc Cert.ReferenceIdeal.main_arg6)) :=
    (Y1R.bb (Cert.ReferenceIdeal.RefRun.R0 m' c)).trans (congrArg Y1R.bV (rarg_0 m' c Cert.ReferenceIdeal.main_arg6))
  -- the reference's output is the perceptron of its five arrays
  have hy := Y1R.y (Cert.ReferenceIdeal.RefRun.R1 (F := Ideal) m' c)
  rw [sWA, sBA, sWB, sBB] at hy
  -- the tiled side's three outputs are the perceptron of its five arrays, and its per-tile sums
  have k0 := (Cert.KernelIdeal.Gen.W2_arr (F := Ideal) m ρ c 5).trans (Cert.KernelIdeal.Reg0.y_eq (Cert.KernelIdeal.Gen.V1 m ρ) c)
  have k1 := (Cert.KernelIdeal.Gen.W2_arr (F := Ideal) m ρ c 6).trans (Cert.KernelIdeal.Reg0.s_eq (Cert.KernelIdeal.Gen.V1 m ρ) c)
  have k2 := (Cert.KernelIdeal.Gen.W2_arr (F := Ideal) m ρ c 7).trans (Cert.KernelIdeal.Reg0.ss_eq (Cert.KernelIdeal.Gen.V1 m ρ) c)
  -- the two perceptrons are the same
  have e : Cert.KernelIdeal.Reg0.Y (Cert.KernelIdeal.Gen.V1 (F := Ideal) m ρ) c
      = Cert.ReferenceIdeal.RefRun.R2 (F := Ideal) m' c (Proc.devRef .tc Cert.ReferenceIdeal.main_v36) := by
    refine Eq.trans ?_ hy.symm
    refine mlp6_congr hA ?_ ?_ ?_ ?_
    · exact kWA.trans (congrArg (fun x => transpose Cert.ReferenceIdeal.S6x36 [1, 0] (Y1R.wA x) Cert.ReferenceIdeal.Gen.transposes_S36x6_S6x36_1_0) hWA.symm)
    · exact (kBA.trans (Cert.KernelIdeal.RowReshape.row_reshape _ _)).trans
        (congrArg (fun x => fun i : GinMath.R36.Idx => Y1R.bV x (ix1 (i 1))) hBA.symm)
    · exact kWB.trans (congrArg (fun x => transpose Cert.ReferenceIdeal.S36x36 [1, 0] (Y1R.wB x) Cert.ReferenceIdeal.Gen.transposes_S36x36_S36x36_1_0) hWB.symm)
    · exact (kBB.trans (Cert.KernelIdeal.RowReshape.row_reshape _ _)).trans
        (congrArg (fun x => fun i : GinMath.R36.Idx => Y1R.bV x (ix1 (i 1))) hBB.symm)
  -- the reference's output is real: a perceptron of real arrays
  have hr : IsReal (S := GinMath.N36) (Cert.ReferenceIdeal.RefRun.R2 (F := Ideal) m' c (Proc.devRef .tc Cert.ReferenceIdeal.main_v36)) :=
    IsReal.of_eq (isReal_mlp6 hAr
      (IsReal.of_eq (((rWA.slice _ _).reshape _).transpose _ _) kWA.symm)
      (IsReal.of_eq (((rBA.slice _ _).reshape _).reshape _) kBA.symm)
      (IsReal.of_eq (((rWB.slice _ _).reshape _).transpose _ _) kWB.symm)
      (IsReal.of_eq (((rBB.slice _ _).reshape _).reshape _) kBB.symm)) e
  unfold RelY
  exact ⟨k0.trans e, k1.trans (congrArg GinMath.tileSums e),
    k2.trans (congrArg (fun y => GinMath.tileSums (GinMath.sq y)) e), hr⟩

end Cert.Bridge

end
-- ==== Proof.Stats.lean ====
/-
  The column sums of batch normalisation, on extended reals.
  The host's sum over the 160 rows of the per-tile partial sums is the sum over all 100000 node rows: only row 8·t
  of the partial sums is not zero, it holds the sum over tile t, and the 20 tiles of 5000 rows partition the rows;
  so after exchanging the two sums each node row n is met exactly once, at row 8·(n / 5000). The host's sum over
  the leading axis of a 100000 × 36 array is the column sum outright. No finiteness is used: these are
  rearrangements of sums in a commutative monoid.
-/
import Idealize.ShloMosaic.Lib.ValueIdx
import Idealize.ShloMosaic.Lib.IdealHost
import Idealize.ShloMosaic.PureOps.Ideal.Laws
import proofs.«408188_j34256659153341_2_alg».proof.Proof.GinMath

noncomputable section

open scoped BigOperators

namespace Cert.GinStats

open Idealize.ShloMosaic Idealize.ShloMosaic.ValueIdx Cert.GinMath

/-- The scalar shape. -/
abbrev S0 : Shape := ⟨0, ![]⟩

/-- The source index over a kept column with a row inserted is (row, column). -/
theorem lift_rows {n : Nat} (hR : (⟨2, ![n, 36]⟩ : Shape).Reduces [0] C36) (d : C36.Idx) (k : Fin n) :
    hR.lift d k = ix2 k (d 0) := by
  funext c
  match c with
  | ⟨0, _⟩ => exact Fin.ext rfl
  | ⟨1, _⟩ => exact Fin.ext rfl

/-- Among the 160 rows exactly row 8·(n / 5000) carries node row n. -/
theorem sum_rows_pick {M : Type*} [AddCommMonoid M] (n : Fin 100000) (x : M) :
    ∑ k : Fin 160, (if k.val % 8 = 0 ∧ n.val / 5000 = k.val / 8 then x else 0) = x := by
  have hn := n.isLt
  rw [Finset.sum_eq_single (⟨8 * (n.val / 5000), by omega⟩ : Fin 160)]
  · rw [if_pos ⟨by show 8 * (n.val / 5000) % 8 = 0; omega, by show n.val / 5000 = 8 * (n.val / 5000) / 8; omega⟩]
  · intro k _ hk
    rw [if_neg]
    rintro ⟨h1, h2⟩
    exact hk (Fin.ext (by show k.val = 8 * (n.val / 5000); omega))
  · intro h; exact absurd (Finset.mem_univ _) h

/-- The host's sum over the 160 rows of the per-tile partial sums, from the zero constant, is the column sum. -/
theorem reduceAdd_tileSums (hr : P36.ReducesTo [0] C36) (h0 : 0 < S0.numel) (Y : FVec Ideal N36 .f32) :
    Host.reduceAdd (F := Ideal) (φ := .f32) (tileSums Y) (constant S0 .f32 0x00000000#32) hr h0 = colSum Y := by
  have hR : P36.Reduces [0] C36 := by decide
  funext d
  rw [hostReduceAdd_apply, Ideal.hostReduceAdd_single hr hR, constant_apply, Ideal.ofBits_zero_f32, zero_add]
  show ∑ k : Fin 160, tileSums Y (hR.lift d k) = ∑ n : Fin 100000, Y (ix2 n (d 0))
  have e : ∀ k : Fin 160, tileSums Y (hR.lift d k)
      = ∑ n : Fin 100000, (if k.val % 8 = 0 ∧ n.val / 5000 = k.val / 8 then Y (ix2 n (d 0)) else 0) := by
    intro k
    rw [lift_rows hR d k]
    show (if k.val % 8 = 0 then ∑ n : Fin 100000, (if n.val / 5000 = k.val / 8 then Y (ix2 n (d 0)) else 0) else 0) = _
    by_cases hk : k.val % 8 = 0
    · rw [if_pos hk]
      exact Finset.sum_congr rfl fun n _ => by simp only [hk, true_and]
    · rw [if_neg hk]
      exact (Finset.sum_eq_zero fun n _ => if_neg fun h => hk h.1).symm
  rw [Finset.sum_congr rfl fun k _ => e k, Finset.sum_comm]
  exact Finset.sum_congr rfl fun n _ => sum_rows_pick n _

/-- The host's sum over the 100000 rows, from the zero constant, is the column sum. -/
theorem reduceAdd_rows (hr : N36.ReducesTo [0] C36) (h0 : 0 < S0.numel) (Y : FVec Ideal N36 .f32) :
    Host.reduceAdd (F := Ideal) (φ := .f32) Y (constant S0 .f32 0x00000000#32) hr h0 = colSum Y := by
  have hR : N36.Reduces [0] C36 := by decide
  funext d
  rw [hostReduceAdd_apply, Ideal.hostReduceAdd_single hr hR, constant_apply, Ideal.ofBits_zero_f32, zero_add]
  show ∑ k : Fin 100000, Y (hR.lift d k) = ∑ n : Fin 100000, Y (ix2 n (d 0))
  exact Finset.sum_congr rfl fun k _ => congrArg Y (lift_rows hR d k)

end Cert.GinStats

end
-- ==== Proof.StatsVar.lean ====
/-
  The variance of batch normalisation, on extended reals, for real entries.
  One program takes the mean of the squared deviations from the mean, Σ(y − μ)²/N with μ = Σy/N, guarded by a
  test that the count N − 0 is positive (it is: N = 100000); the other takes the mean of the squares minus the
  square of the mean, Σy²/N − μ². For real y the two agree: Σ(y − μ)² = Σy² − 2μΣy + Nμ² = Σy² − Nμ². This is the
  one place where finiteness is needed (on extended reals ∞ − ∞ would spoil the expansion). The common value is
  a real that is not negative, being a mean of squares, and the mean is a real.
-/
import Idealize.ShloMosaic.Lib.ValueIdx
import Idealize.ShloMosaic.Lib.IdealHost
import Idealize.ShloMosaic.PureOps.Ideal.Laws
import Idealize.ShloMosaic.Lib.Pipeline.Value
import proofs.«408188_j34256659153341_2_alg».proof.Proof.GinMath
import proofs.«408188_j34256659153341_2_alg».proof.Proof.Stats

noncomputable section

open scoped BigOperators

namespace Cert.GinStats

open Idealize.ShloMosaic Idealize.ShloMosaic.ValueIdx Cert.GinMath

/-- The pattern 0x47C35000 denotes the real 100000. -/
theorem ofBits_1e5 : Ideal.ofBits .f32 0x47C35000#32 = ((100000 : ℝ) : EReal) := by
  simp [Ideal.ofBits, Ideal.ieee, -EReal.coe_mul]; norm_num

/-- A finite sum of reals, each read as an extended real, is the real sum read as an extended real. -/
theorem coe_sum {ι : Type*} (s : Finset ι) (f : ι → ℝ) :
    ∑ k ∈ s, ((f k : ℝ) : EReal) = ((∑ k ∈ s, f k : ℝ) : EReal) := by
  classical
  refine Finset.induction_on s (by simp) ?_
  intro a s ha ih
  rw [Finset.sum_insert ha, Finset.sum_insert ha, ih, EReal.coe_add]

/-- Division of an extended real by the real 100000. -/
theorem div_1e5 (x : ℝ) : Ideal.div (x : EReal) ((100000 : ℝ) : EReal) = ((x / 100000 : ℝ) : EReal) := by
  rw [Ideal.div_coe (by norm_num), ← EReal.coe_mul]; congr 1; ring

/-- The mean of the squared deviations from the mean is the mean of the squares minus the square of the mean. -/
theorem real_var {n : ℕ} (N : ℝ) (hN : N ≠ 0) (hn : (n : ℝ) = N) (y : Fin n → ℝ) :
    (∑ k, (y k - (∑ k, y k) / N) * (y k - (∑ k, y k) / N)) / N
      = (∑ k, y k * y k) / N - ((∑ k, y k) / N) * ((∑ k, y k) / N) := by
  have e : ∀ k, (y k - (∑ k, y k) / N) * (y k - (∑ k, y k) / N)
      = y k * y k - 2 * ((∑ k, y k) / N) * y k + ((∑ k, y k) / N) * ((∑ k, y k) / N) := fun k => by ring
  rw [Finset.sum_congr rfl fun k _ => e k, Finset.sum_add_distrib, Finset.sum_sub_distrib, ← Finset.mul_sum,
    Finset.sum_const, Finset.card_univ, Fintype.card_fin, nsmul_eq_mul, hn]
  field_simp
  ring

/-- The mean row broadcast back over the node rows, read at (k, j): the column's sum divided by the count. -/
theorem mean_bcast_apply
    (hb1 : C36.BroadcastsInDim R36 (![1] : Fin 1 → Fin R36.rank))
    (hb2 : S0.BroadcastsInDim R36 (![] : Fin 0 → Fin R36.rank))
    (hb3 : R36.BroadcastsInDim N36 (![0, 1] : Fin 2 → Fin N36.rank))
    (v0 : FVec Ideal C36 .f32) (b : BitVec 32) (k : Fin 100000) (j : Fin 36) :
    (broadcastInDim N36 ![0, 1] hb3 (Host.divf (broadcastInDim R36 ![1] hb1 v0)
        (broadcastInDim R36 ![] hb2 (constant (F := Ideal) S0 .f32 b))) : FVec Ideal N36 .f32) (ix2 k j)
      = Ideal.div (v0 (ix1 j)) (Ideal.ofBits .f32 b) := by
  rw [broadcastInDim_apply ![0, 1] hb3 _ (ix2 k j) (ix2 0 j)
        (fun a => match a with | ⟨0, _⟩ => rfl | ⟨1, _⟩ => rfl),
    hostDivf_apply,
    broadcastInDim_apply ![1] hb1 v0 (ix2 0 j) (ix1 j) (fun a => match a with | ⟨0, _⟩ => rfl),
    broadcastInDim_scalar_apply, constant_apply]

/-- A column sum of real entries is the real column sum. -/
theorem colSum_coe (Y : FVec Ideal N36 .f32) (y : N36.Idx → ℝ) (hy : ∀ i, Y i = (y i : EReal)) (j : Fin 36) :
    colSum Y (ix1 j) = ((∑ k : Fin 100000, y (ix2 k j) : ℝ) : EReal) := by
  show ∑ n : Fin 100000, Y (ix2 n j) = _
  rw [Finset.sum_congr rfl fun n _ => hy (ix2 n j), coe_sum]

/-- The count 100000 as the constant's 36 copies. -/
abbrev c1e5 (hb4 : S0.BroadcastsInDim C36 (![] : Fin 0 → Fin C36.rank)) : FVec Ideal C36 .f32 :=
  broadcastInDim C36 ![] hb4 (constant S0 .f32 0x47C35000#32)

/-- (c) The variance computed as the mean of the squared deviations from the mean (with the count's guard, which
    holds: 100000 − 0 > 0) is the mean of the squares minus the square of the mean, for real entries. -/
theorem var_eq
    (hr : N36.ReducesTo [0] C36) (h0 : 0 < S0.numel)
    (hb1 : C36.BroadcastsInDim R36 (![1] : Fin 1 → Fin R36.rank))
    (hb2 : S0.BroadcastsInDim R36 (![] : Fin 0 → Fin R36.rank))
    (hb3 : R36.BroadcastsInDim N36 (![0, 1] : Fin 2 → Fin N36.rank))
    (hb4 : S0.BroadcastsInDim C36 (![] : Fin 0 → Fin C36.rank))
    (Y : FVec Ideal N36 .f32) (hY : ∀ i, ∃ r : ℝ, Y i = (r : EReal)) :
    (select (broadcastInDim C36 ![] hb4 (cmpf .ogt (subf (constant (F := Ideal) S0 .f32 0x47C35000#32) (sitofp .f32 (constantI S0 32 0#32))) (constant (F := Ideal) S0 .f32 0x00000000#32))) (Host.divf (Host.reduceAdd (mulf (subf Y (broadcastInDim N36 ![0, 1] hb3 (Host.divf (broadcastInDim R36 ![1] hb1 (Host.reduceAdd Y (constant (F := Ideal) S0 .f32 0x00000000#32) hr h0)) (broadcastInDim R36 ![] hb2 (constant (F := Ideal) S0 .f32 0x47C35000#32))))) (subf Y (broadcastInDim N36 ![0, 1] hb3 (Host.divf (broadcastInDim R36 ![1] hb1 (Host.reduceAdd Y (constant (F := Ideal) S0 .f32 0x00000000#32) hr h0)) (broadcastInDim R36 ![] hb2 (constant (F := Ideal) S0 .f32 0x47C35000#32)))))) (constant (F := Ideal) S0 .f32 0x00000000#32) hr h0) (broadcastInDim C36 ![] hb4 (subf (constant (F := Ideal) S0 .f32 0x47C35000#32) (sitofp .f32 (constantI S0 32 0#32))))) (broadcastInDim C36 ![] hb4 (constant (F := Ideal) S0 .f32 0x7FC00000#32)) : FVec Ideal C36 .f32)
      = subf (Host.divf (colSum (sq Y)) (c1e5 hb4)) (mulf (Host.divf (colSum Y) (c1e5 hb4)) (Host.divf (colSum Y) (c1e5 hb4))) := by

  choose y hy using hY
  funext d
  obtain ⟨j, rfl⟩ : ∃ j, d = ix1 j := ⟨d 0, eq_ix1 d⟩
  -- the count 100000 − 0
  have hcnt : (subf (constant (F := Ideal) S0 .f32 0x47C35000#32) (sitofp .f32 (constantI S0 32 0#32)) : FVec Ideal S0 .f32) ix0
      = ((100000 : ℝ) : EReal) := by
    rw [subf_apply, constant_apply, sitofp_apply, ofBits_1e5]
    show ((100000 : ℝ) : EReal) - ((((0#32 : BitVec 32).toInt : ℤ) : ℝ) : EReal) = _
    simp
  have hgt : FloatOps.cmpf (F := Ideal) (φ := .f32) .ogt ((100000 : ℝ) : EReal) 0 = 1#1 := by
    rw [Ideal.cmpf_def]
    show BitVec.ofBool (decide ((0 : EReal) < ((100000 : ℝ) : EReal))) = 1#1
    rw [decide_eq_true (by exact_mod_cast (by norm_num : (0 : ℝ) < 100000))]; rfl
  have hS := colSum_coe Y y hy j
  have hQ : colSum (sq Y) (ix1 j) = ((∑ k : Fin 100000, y (ix2 k j) * y (ix2 k j) : ℝ) : EReal) :=
    colSum_coe (sq Y) (fun i => y i * y i) (fun i => by show Y i * Y i = _; rw [hy i, ← EReal.coe_mul]) j
  rw [select_apply, broadcastInDim_scalar_apply, cmpf_apply, hcnt, constant_apply, Ideal.ofBits_zero_f32, hgt, select_one,
    hostDivf_apply, broadcastInDim_scalar_apply, hcnt, reduceAdd_rows hr h0 Y, reduceAdd_rows hr h0]
  show Ideal.div (∑ n : Fin 100000, (mulf (subf Y _) (subf Y _) : FVec Ideal N36 .f32) (ix2 n j)) _ = _
  simp only [mulf_apply, subf_apply, hostDivf_apply, mean_bcast_apply, broadcastInDim_scalar_apply, constant_apply,
    hS, hQ, hy, ofBits_1e5, div_1e5, ← EReal.coe_sub, ← EReal.coe_mul, coe_sum]
  have hm : ∀ n : Fin 100000,
      (broadcastInDim N36 ![0, 1] hb3 (Host.divf (broadcastInDim R36 ![1] hb1 (colSum Y))
          (broadcastInDim R36 ![] hb2 (constant (F := Ideal) S0 .f32 0x47C35000#32))) : FVec Ideal N36 .f32) (ix2 n j)
        = (((∑ k : Fin 100000, y (ix2 k j)) / 100000 : ℝ) : EReal) := fun n => by
    rw [mean_bcast_apply hb1 hb2 hb3, hS, ofBits_1e5, div_1e5]
  simp only [hm, ← EReal.coe_sub, ← EReal.coe_mul, coe_sum, div_1e5]
  exact congrArg _ (real_var 100000 (by norm_num) (by norm_num) (fun k => y (ix2 k j)))

/-- (d) That variance is a real that is not negative, at every column. -/
theorem var_nonneg
    (hb4 : S0.BroadcastsInDim C36 (![] : Fin 0 → Fin C36.rank))
    (Y : FVec Ideal N36 .f32) (hY : ∀ i, ∃ r : ℝ, Y i = (r : EReal)) (d : C36.Idx) :
    ∃ v : ℝ, 0 ≤ v ∧
      (subf (Host.divf (colSum (sq Y)) (c1e5 hb4)) (mulf (Host.divf (colSum Y) (c1e5 hb4)) (Host.divf (colSum Y) (c1e5 hb4))) : FVec Ideal C36 .f32) d
        = (v : EReal) := by

  choose y hy using hY
  obtain ⟨j, rfl⟩ : ∃ j, d = ix1 j := ⟨d 0, eq_ix1 d⟩
  have hS := colSum_coe Y y hy j
  have hQ : colSum (sq Y) (ix1 j) = ((∑ k : Fin 100000, y (ix2 k j) * y (ix2 k j) : ℝ) : EReal) :=
    colSum_coe (sq Y) (fun i => y i * y i) (fun i => by show Y i * Y i = _; rw [hy i, ← EReal.coe_mul]) j
  refine ⟨(∑ k : Fin 100000, y (ix2 k j) * y (ix2 k j)) / 100000
      - (∑ k : Fin 100000, y (ix2 k j)) / 100000 * ((∑ k : Fin 100000, y (ix2 k j)) / 100000), ?_, ?_⟩
  · rw [← real_var 100000 (by norm_num) (by norm_num) (fun k => y (ix2 k j))]
    exact div_nonneg (Finset.sum_nonneg fun k _ => mul_self_nonneg _) (by norm_num)
  · simp only [subf_apply, mulf_apply, hostDivf_apply, broadcastInDim_scalar_apply, constant_apply, hS, hQ, ofBits_1e5,
      div_1e5, ← EReal.coe_sub, ← EReal.coe_mul]

/-- (d) The mean is a real, at every column. -/
theorem mean_real
    (hb4 : S0.BroadcastsInDim C36 (![] : Fin 0 → Fin C36.rank))
    (Y : FVec Ideal N36 .f32) (hY : ∀ i, ∃ r : ℝ, Y i = (r : EReal)) (d : C36.Idx) :
    ∃ m : ℝ, (Host.divf (colSum Y) (c1e5 hb4) : FVec Ideal C36 .f32) d = (m : EReal) := by

  choose y hy using hY
  obtain ⟨j, rfl⟩ : ∃ j, d = ix1 j := ⟨d 0, eq_ix1 d⟩
  have hS := colSum_coe Y y hy j
  exact ⟨(∑ k : Fin 100000, y (ix2 k j)) / 100000, by
    simp only [hostDivf_apply, broadcastInDim_scalar_apply, constant_apply, hS, ofBits_1e5, div_1e5]⟩

end Cert.GinStats

end
-- ==== Proof.EpsPos.lean ====
/-
  The small constant added to the variance under the inverse square root, 0x3727C5AC as a single-precision
  pattern: sign 0, exponent field 110, significand field 2606508, that is (2^23 + 2606508) · 2^(110 − 127 − 23)
  = 10995116 · 2^(−40), a positive real (about 10^(−5)).
-/
import Idealize.ShloMosaic.PureOps.Ideal

noncomputable section

namespace Cert.EpsPos

open Idealize.ShloMosaic

/-- The pattern denotes the real 10995116 · 2^(−40). -/
theorem ofBits_eps : Ideal.ofBits .f32 0x3727C5AC#32 = (((10995116 : ℝ) * (2 : ℝ) ^ (-40 : Int) : ℝ) : EReal) := by
  simp [Ideal.ofBits, Ideal.ieee, -EReal.coe_mul]

/-- The constant is a positive real. -/
theorem eps_pos : ∃ e : ℝ, 0 < e ∧ Ideal.ofBits .f32 0x3727C5AC#32 = (e : EReal) :=
  ⟨(10995116 : ℝ) * (2 : ℝ) ^ (-40 : Int), by positivity, ofBits_eps⟩

end Cert.EpsPos

end
-- ==== Proof.BnAgg.lean ====
/-
  Batch normalisation of a layer's output followed by the neighbourhood aggregate, on extended reals.
  With y the layer's output (100000 node rows, 36 columns), μ the column means and v the column variances,
      h(n,d) = g(d)·(y(n,d) − μ(d))·rsqrt(v(d) + ε) + b(d),      a(n,·) = h(n,·) + Σ_{edges e into n} h(src e, ·).
  One program gets μ and v from per-tile partial column sums of y and of y² (μ = Σy/N, v = Σy²/N − μ²), the
  other from y itself (μ = Σy/N, v = Σ(y − μ)²/N). For real entries the two pairs agree, so h and a agree;
  and a is real: v is a real that is not negative and ε is a positive real, so rsqrt(v + ε) is the real
  1/√(v + ε); products, differences and finite sums of reals are real. Shape records and dimension numbers
  are hypotheses, so that either program's instantiate them.
-/
import Idealize.ShloMosaic.Lib.ValueIdx
import Idealize.ShloMosaic.Lib.IdealHost
import Idealize.ShloMosaic.PureOps.Ideal.Laws
import proofs.«408188_j34256659153341_2_alg».proof.Proof.GinMath
import proofs.«408188_j34256659153341_2_alg».proof.Proof.BridgeDefs
import proofs.«408188_j34256659153341_2_alg».proof.Proof.GinReal
import proofs.«408188_j34256659153341_2_alg».proof.Proof.Stats
import proofs.«408188_j34256659153341_2_alg».proof.Proof.StatsVar
import proofs.«408188_j34256659153341_2_alg».proof.Proof.EpsPos

set_option Elab.async false

noncomputable section

open scoped BigOperators

namespace Cert.BnAgg

open Idealize.ShloMosaic Idealize.ShloMosaic.ValueIdx Cert.GinMath Cert.GinStats Cert.Bridge

/-! ## Index sets (literal shapes) -/
/-- The edge list. -/
abbrev E : Shape := ⟨1, ![1600000]⟩
/-- The edge list as a column of one-entry index vectors. -/
abbrev E1 : Shape := ⟨2, ![1600000, 1]⟩
/-- One row of 36 features per edge. -/
abbrev E36 : Shape := ⟨2, ![1600000, 36]⟩
/-- The normalisation parameters: 2 transforms, 3 layers, 36 columns. -/
abbrev A3 : Shape := ⟨3, ![2, 3, 36]⟩
/-- One of their rows. -/
abbrev A1 : Shape := ⟨3, ![1, 1, 36]⟩
/-- The edge endpoints: 2 transforms, source and destination, 1600000 edges. -/
abbrev I3 : Shape := ⟨3, ![2, 2, 1600000]⟩
/-- One of their rows. -/
abbrev I1 : Shape := ⟨3, ![1, 1, 1600000]⟩

/-- A difference of two reals is real. -/
theorem rl_sub {x y : EReal} (hx : Rl x) (hy : Rl y) : Rl (x - y) := by
  obtain ⟨a, rfl⟩ := hx
  obtain ⟨b, rfl⟩ := hy
  exact ⟨a - b, (EReal.coe_sub a b).symm⟩

/-! ## Rows of the parameter arrays -/

/-- One row of 36 numbers out of the 2 × 3 × 36 parameters. -/
def rowOf (off : Fin A3.rank → Nat) (hs : A3.Slices off A1) (hc : A1.ShapeCasts C36) (a : FVec Ideal A3 .f32) :
    FVec Ideal C36 .f32 :=
  shapeCast C36 (extractStridedSlice A1 off a hs) hc

/-- Each entry of the row is an entry of the parameters. -/
theorem rowOf_real (off : Fin A3.rank → Nat) (hs : A3.Slices off A1) (hc : A1.ShapeCasts C36) {a : FVec Ideal A3 .f32}
    (ha : IsReal a) : IsReal (rowOf off hs hc a) :=
  fun _ => ha _

/-- One row of 1600000 endpoints out of the 2 × 2 × 1600000 edge endpoints. -/
def edgeRow (off : Fin I3.rank → Nat) (hs : I3.Slices off I1) (hc : I1.ShapeCasts E) (a : IVec I3 32) : IVec E 32 :=
  shapeCast E (extractStridedSlice I1 off a hs) hc

/-! ## Reality of sums, gathers and accumulating scatters, over any shapes -/

/-- A pointwise sum of two real arrays is real. -/
theorem addf_real {s : Shape} {a b : FVec Ideal s .f32} (ha : IsReal a) (hb : IsReal b) : IsReal (addf a b) :=
  fun i => Rl.add (ha i) (hb i)

/-- A gather of a real array is real: each entry read is an entry of the array. -/
theorem gather_real {s si so : Shape} {w : Nat} (G : GatherDims s si so) {x : FVec Ideal s .f32} (idx : IVec si w)
    (hx : IsReal x) : IsReal (Host.gather G x idx) :=
  fun _ => hx _

/-- The all-zero array is real. -/
theorem zeros_real {T : Shape} (hb : S0.BroadcastsInDim T (![] : Fin 0 → Fin T.rank)) :
    IsReal (broadcastInDim T ![] hb (constant (F := Ideal) S0 .f32 0x00000000#32) : FVec Ideal T .f32) :=
  fun _ => ⟨0, by rw [broadcastInDim_scalar_apply, constant_apply, Ideal.ofBits_zero_f32, EReal.coe_zero]⟩

/-- An accumulating scatter of real updates into a real array is real: each entry is an entry of the array plus a
    finite sum of updates. -/
theorem scatterAdd_real {s si su : Shape} {w : Nat} (d : ScatterDims s si su) {x : FVec Ideal s .f32}
    {upd : FVec Ideal su .f32} (idx : IVec si w) (hx : IsReal x) (hu : IsReal upd) :
    IsReal (Host.scatterAdd d x idx upd) := by
  intro i
  have hsum : ∀ t : Finset su.Idx, Rl (∑ j ∈ t, upd j) := fun t => Rl.sum t _ fun j _ => hu j
  exact Rl.add (hx i) (hsum _)

section

variable
  (hrP : P36.ReducesTo [0] C36) (hrN : N36.ReducesTo [0] C36) (h0 : 0 < S0.numel)
  (hb1 : C36.BroadcastsInDim R36 (![1] : Fin 1 → Fin R36.rank))
  (hb2 : S0.BroadcastsInDim R36 (![] : Fin 0 → Fin R36.rank))
  (hb3 : R36.BroadcastsInDim N36 (![0, 1] : Fin 2 → Fin N36.rank))
  (hb4 : S0.BroadcastsInDim C36 (![] : Fin 0 → Fin C36.rank))
  (hbN : S0.BroadcastsInDim N36 (![] : Fin 0 → Fin N36.rank))
  (hbE : S0.BroadcastsInDim E (![] : Fin 0 → Fin E.rank))
  (hbE1 : E.BroadcastsInDim E1 (![0] : Fin 1 → Fin E1.rank))
  (G : GatherDims N36 E1 E36) (Sc : ScatterDims N36 E1 E36)

/-! ## Means and variances, both ways -/

/-- The column means from the per-tile partial sums. -/
def meanK (s : FVec Ideal P36 .f32) : FVec Ideal C36 .f32 :=
  Host.divf (Host.reduceAdd s (constant (F := Ideal) S0 .f32 0x00000000#32) hrP h0) (c1e5 hb4)

/-- The column variances from the per-tile partial sums of y and of y²: the mean of the squares minus the square of the mean. -/
def varK (s ss : FVec Ideal P36 .f32) : FVec Ideal C36 .f32 :=
  subf (Host.divf (Host.reduceAdd ss (constant (F := Ideal) S0 .f32 0x00000000#32) hrP h0) (c1e5 hb4))
    (mulf (meanK hrP h0 hb4 s) (meanK hrP h0 hb4 s))

/-- The column means from y. -/
def meanR (y : FVec Ideal N36 .f32) : FVec Ideal C36 .f32 :=
  Host.divf (Host.reduceAdd y (constant (F := Ideal) S0 .f32 0x00000000#32) hrN h0) (c1e5 hb4)

/-- The column variances from y: the mean of the squared deviations from the mean, behind the guard that the count
    100000 − 0 is positive. -/
def varR (y : FVec Ideal N36 .f32) : FVec Ideal C36 .f32 :=
  select (broadcastInDim C36 ![] hb4 (cmpf .ogt (subf (constant (F := Ideal) S0 .f32 0x47C35000#32) (sitofp .f32 (constantI S0 32 0#32))) (constant (F := Ideal) S0 .f32 0x00000000#32))) (Host.divf (Host.reduceAdd (mulf (subf y (broadcastInDim N36 ![0, 1] hb3 (Host.divf (broadcastInDim R36 ![1] hb1 (Host.reduceAdd y (constant (F := Ideal) S0 .f32 0x00000000#32) hrN h0)) (broadcastInDim R36 ![] hb2 (constant (F := Ideal) S0 .f32 0x47C35000#32))))) (subf y (broadcastInDim N36 ![0, 1] hb3 (Host.divf (broadcastInDim R36 ![1] hb1 (Host.reduceAdd y (constant (F := Ideal) S0 .f32 0x00000000#32) hrN h0)) (broadcastInDim R36 ![] hb2 (constant (F := Ideal) S0 .f32 0x47C35000#32)))))) (constant (F := Ideal) S0 .f32 0x00000000#32) hrN h0) (broadcastInDim C36 ![] hb4 (subf (constant (F := Ideal) S0 .f32 0x47C35000#32) (sitofp .f32 (constantI S0 32 0#32))))) (broadcastInDim C36 ![] hb4 (constant (F := Ideal) S0 .f32 0x7FC00000#32))

/-- The mean from y is real when y is. -/
theorem meanR_real {y : FVec Ideal N36 .f32} (hy : IsReal y) : IsReal (meanR hrN h0 hb4 y) := by
  intro d
  unfold meanR
  rw [reduceAdd_rows hrN h0 y]
  exact mean_real hb4 y hy d

/-- The variance from y is a real that is not negative when y is real. -/
theorem varR_nonneg {y : FVec Ideal N36 .f32} (hy : IsReal y) (d : C36.Idx) :
    ∃ v : ℝ, 0 ≤ v ∧ varR hrN h0 hb1 hb2 hb3 hb4 y d = (v : EReal) := by
  unfold varR
  rw [var_eq hrN h0 hb1 hb2 hb3 hb4 y hy]
  exact var_nonneg hb4 y hy d

/-! ## The normalised rows -/

/-- A row of 36 numbers repeated over the 100000 node rows. -/
abbrev rows (v : FVec Ideal C36 .f32) : FVec Ideal N36 .f32 :=
  broadcastInDim N36 ![0, 1] hb3 (broadcastInDim R36 ![1] hb1 v)

/-- Each entry of the repeated row is an entry of the row. -/
theorem rows_real {v : FVec Ideal C36 .f32} (hv : IsReal v) : IsReal (rows hb1 hb3 v) :=
  fun _ => hv _

/-- h = ((g·(y − μ))·rsqrt(v + ε)) + b, the constant ε under the inverse square root. -/
def bn (mean var g b : FVec Ideal C36 .f32) (y : FVec Ideal N36 .f32) : FVec Ideal N36 .f32 :=
  addf (mulf (mulf (rows hb1 hb3 g) (subf y (rows hb1 hb3 mean)))
    (rows hb1 hb3 (Host.rsqrt (addf var (broadcastInDim C36 ![] hb4 (constant (F := Ideal) S0 .f32 0x3727C5AC#32))))))
    (rows hb1 hb3 b)

/-- The inverse square root of a variance that is a real not negative, plus ε, is real. -/
theorem rsqrt_real {var : FVec Ideal C36 .f32} (hvar : ∀ d, ∃ v : ℝ, 0 ≤ v ∧ var d = (v : EReal)) :
    IsReal (Host.rsqrt (addf var (broadcastInDim C36 ![] hb4 (constant (F := Ideal) S0 .f32 0x3727C5AC#32))) : FVec Ideal C36 .f32) := by
  intro d
  obtain ⟨v, hv0, hv⟩ := hvar d
  obtain ⟨e, he0, he⟩ := Cert.EpsPos.eps_pos
  refine ⟨(Real.sqrt (v + e))⁻¹, ?_⟩
  show Ideal.rsqrt (var d + (broadcastInDim C36 ![] hb4 (constant (F := Ideal) S0 .f32 0x3727C5AC#32) : FVec Ideal C36 .f32) d) = _
  have h1 : ¬ (v + e < 0) := not_lt.mpr (add_nonneg hv0 he0.le)
  have h2 : ¬ (v + e = 0) := (add_pos_of_nonneg_of_pos hv0 he0).ne'
  rw [broadcastInDim_scalar_apply, constant_apply, hv, he, ← EReal.coe_add, Ideal.rsqrt_coe, if_neg h1, if_neg h2]

/-- The normalised rows are real when everything they are made of is. -/
theorem bn_real {mean var g b : FVec Ideal C36 .f32} {y : FVec Ideal N36 .f32}
    (hmean : IsReal mean) (hvar : ∀ d, ∃ v : ℝ, 0 ≤ v ∧ var d = (v : EReal)) (hg : IsReal g) (hb : IsReal b)
    (hy : IsReal y) : IsReal (bn hb1 hb3 hb4 mean var g b y) := by
  intro i
  have hrs := rsqrt_real hb4 hvar
  unfold bn
  rw [addf_apply, mulf_apply, mulf_apply, subf_apply]
  exact Rl.add (Rl.mul (Rl.mul (rows_real hb1 hb3 hg i) (rl_sub (hy i) (rows_real hb1 hb3 hmean i)))
    (rows_real hb1 hb3 hrs i)) (rows_real hb1 hb3 hb i)

/-- The two ways to the means and variances give the same normalised rows, for real y. -/
theorem bnK_eq_bnR {y : FVec Ideal N36 .f32} (hy : IsReal y) (g b : FVec Ideal C36 .f32) :
    bn hb1 hb3 hb4 (meanK hrP h0 hb4 (tileSums y)) (varK hrP h0 hb4 (tileSums y) (tileSums (sq y))) g b y
      = bn hb1 hb3 hb4 (meanR hrN h0 hb4 y) (varR hrN h0 hb1 hb2 hb3 hb4 y) g b y := by
  unfold varK meanK meanR varR
  rw [var_eq hrN h0 hb1 hb2 hb3 hb4 y hy, reduceAdd_rows hrN h0 y, reduceAdd_tileSums hrP h0 y,
    reduceAdd_tileSums hrP h0 (sq y)]

/-! ## The aggregate -/

/-- A source index below zero is read from the end: 100000 is added. Then one index per row. -/
def wrap (src : IVec E 32) : IVec E1 32 :=
  broadcastInDim E1 ![0] hbE1
    (select (cmpi .slt src (broadcastInDim E ![] hbE (constantI S0 32 0#32)))
      (addi src (broadcastInDim E ![] hbE (constantI S0 32 100000#32))) src)

/-- a = h + the sum into each destination row of the source rows of h. -/
def agg (h : FVec Ideal N36 .f32) (src dst : IVec E 32) : FVec Ideal N36 .f32 :=
  addf h (Host.scatterAdd Sc (broadcastInDim N36 ![] hbN (constant (F := Ideal) S0 .f32 0x00000000#32))
    (broadcastInDim E1 ![0] hbE1 dst) (Host.gather G h (wrap hbE hbE1 src)))

/-- Rows sent through a narrower float format and back before they are gathered are, on extended reals, the rows
    themselves: both conversions are the identity there. -/
theorem gather_narrow (hlt : FTy.bits .bf16 < FTy.bits .f32) (h : FVec Ideal N36 .f32) (w : IVec E1 32) :
    (extf .f32 (Host.gather G (truncf .bf16 h hlt) w) hlt : FVec Ideal E36 .f32) = Host.gather G h w := rfl

/-- The aggregate with the gathered rows sent through the narrower format on their way. -/
def aggK (hlt : FTy.bits .bf16 < FTy.bits .f32) (h : FVec Ideal N36 .f32) (src dst : IVec E 32) : FVec Ideal N36 .f32 :=
  addf h (Host.scatterAdd Sc (broadcastInDim N36 ![] hbN (constant (F := Ideal) S0 .f32 0x00000000#32))
    (broadcastInDim E1 ![0] hbE1 dst) (extf .f32 (Host.gather G (truncf .bf16 h hlt) (wrap hbE hbE1 src)) hlt))

/-- It is the aggregate. -/
theorem aggK_eq_agg (hlt : FTy.bits .bf16 < FTy.bits .f32) (h : FVec Ideal N36 .f32) (src dst : IVec E 32) :
    aggK hbN hbE hbE1 G Sc hlt h src dst = agg hbN hbE hbE1 G Sc h src dst := by
  unfold aggK agg
  rw [gather_narrow]

/-- The aggregate of real rows is real, whatever the edges. -/
theorem agg_real {h : FVec Ideal N36 .f32} (hh : IsReal h) (src dst : IVec E 32) :
    IsReal (agg hbN hbE hbE1 G Sc h src dst) := by
  unfold agg
  exact addf_real hh (scatterAdd_real Sc _ (zeros_real hbN) (gather_real G _ hh))

/-- The aggregates of the two programs' normalised rows agree, for real y. -/
theorem aggK_eq_aggR {y : FVec Ideal N36 .f32} (hy : IsReal y) (g b : FVec Ideal C36 .f32) (src dst : IVec E 32) :
    agg hbN hbE hbE1 G Sc
        (bn hb1 hb3 hb4 (meanK hrP h0 hb4 (tileSums y)) (varK hrP h0 hb4 (tileSums y) (tileSums (sq y))) g b y) src dst
      = agg hbN hbE hbE1 G Sc (bn hb1 hb3 hb4 (meanR hrN h0 hb4 y) (varR hrN h0 hb1 hb2 hb3 hb4 y) g b y) src dst := by
  rw [bnK_eq_bnR hrP hrN h0 hb1 hb2 hb3 hb4 hy g b]

/-- That aggregate is real when y and the two parameter rows are. -/
theorem aggR_real {y : FVec Ideal N36 .f32} (hy : IsReal y) {g b : FVec Ideal C36 .f32} (hg : IsReal g) (hb : IsReal b)
    (src dst : IVec E 32) :
    IsReal (agg hbN hbE hbE1 G Sc (bn hb1 hb3 hb4 (meanR hrN h0 hb4 y) (varR hrN h0 hb1 hb2 hb3 hb4 y) g b y) src dst) :=
  agg_real hbN hbE hbE1 G Sc
    (bn_real hb1 hb3 hb4 (meanR_real hrN h0 hb4 hy) (varR_nonneg hrN h0 hb1 hb2 hb3 hb4 hy) hg hb hy) src dst

end

end Cert.BnAgg

end
-- ==== Proof.EdgeRows.lean ====
/-
  The edge endpoints the aggregates read. Each program cuts, once per transform, the source row and the
  destination row out of the 2 × 2 × 1600000 array of endpoints (its second argument) and keeps them in
  buffers that nothing writes afterwards: not the later host operations, which write buffers of larger index,
  and not the tiled regions, none of whose arrays they are. So at every later checkpoint they read as that
  row of the launch memory's argument.
-/
import proofs.«408188_j34256659153341_2_alg».proof.Proof.FrameKI
import proofs.«408188_j34256659153341_2_alg».proof.Proof.KOpsGood
import proofs.«408188_j34256659153341_2_alg».proof.Proof.RefChain
import proofs.«408188_j34256659153341_2_alg».proof.Proof.BridgeArgs
import proofs.«408188_j34256659153341_2_alg».proof.Proof.BnAgg

noncomputable section

namespace Cert.Bridge

open Idealize.ShloMosaic Idealize.SL.Sem Idealize.ShloMosaic.StableHlo

/-! ## The tiled program -/
section Kernel

open Cert.KernelIdeal Cert.KernelIdeal.Gen Cert.KernelIdeal.KOps

variable (m : (ℓ : Loc nD τ sig) → Buf (Elt Ideal) ℓ) (ρ : Dev nD → PrngReg) (c : Dev nD)

/-- Transform 0's source row as the first host stretch leaves it, from any entry contents. -/
theorem ksrc0_eval (V : Valuation τ sig (Elt Ideal)) :
    after (hostOps0 (F := Ideal)) V (Proc.devRef .tc main_v1)
      = BnAgg.edgeRow ![0, 0, 0] (by decide) (by decide) (V (Proc.devRef .tc main_arg1)) := by
  after_results_simp
  rfl

/-- Transform 0's destination row as the first host stretch leaves it, from any entry contents. -/
theorem kdst0_eval (V : Valuation τ sig (Elt Ideal)) :
    after (hostOps0 (F := Ideal)) V (Proc.devRef .tc main_v3)
      = BnAgg.edgeRow ![0, 1, 0] (by decide) (by decide) (V (Proc.devRef .tc main_arg1)) := by
  after_results_simp
  rfl

/-- Transform 1's source row as the fifth host stretch leaves it, from any entry contents. -/
theorem ksrc1_eval (V : Valuation τ sig (Elt Ideal)) :
    after (hostOps4 (F := Ideal)) V (Proc.devRef .tc main_v168)
      = BnAgg.edgeRow ![1, 0, 0] (by decide) (by decide) (V (Proc.devRef .tc main_arg1)) := by
  after_results_simp
  rfl

/-- Transform 1's destination row as the fifth host stretch leaves it, from any entry contents. -/
theorem kdst1_eval (V : Valuation τ sig (Elt Ideal)) :
    after (hostOps4 (F := Ideal)) V (Proc.devRef .tc main_v170)
      = BnAgg.edgeRow ![1, 1, 0] (by decide) (by decide) (V (Proc.devRef .tc main_arg1)) := by
  after_results_simp
  rfl

/-- Transform 0's source row at the first region's exit. -/
theorem ksrc0_2 : W2 (F := Ideal) m ρ c (Proc.devRef .tc main_v1)
    = BnAgg.edgeRow ![0, 0, 0] (by decide) (by decide) (m ((c.tc : Thread nD τ).loc main_arg1)) :=
  (W2_of_ne m ρ c main_v1 (by decide)).trans (ksrc0_eval (W0 m ρ c))
/-- Transform 0's destination row at the first region's exit. -/
theorem kdst0_2 : W2 (F := Ideal) m ρ c (Proc.devRef .tc main_v3)
    = BnAgg.edgeRow ![0, 1, 0] (by decide) (by decide) (m ((c.tc : Thread nD τ).loc main_arg1)) :=
  (W2_of_ne m ρ c main_v3 (by decide)).trans (kdst0_eval (W0 m ρ c))
/-- Transform 0's source row at the second region's exit. -/
theorem ksrc0_4 : W4 (F := Ideal) m ρ c (Proc.devRef .tc main_v1)
    = BnAgg.edgeRow ![0, 0, 0] (by decide) (by decide) (m ((c.tc : Thread nD τ).loc main_arg1)) :=
  (W4_of_ne m ρ c main_v1 (by decide)).trans ((kkeep_1 main_v1 (by decide) (W2 m ρ c)).trans (ksrc0_2 m ρ c))
/-- Transform 0's destination row at the second region's exit. -/
theorem kdst0_4 : W4 (F := Ideal) m ρ c (Proc.devRef .tc main_v3)
    = BnAgg.edgeRow ![0, 1, 0] (by decide) (by decide) (m ((c.tc : Thread nD τ).loc main_arg1)) :=
  (W4_of_ne m ρ c main_v3 (by decide)).trans ((kkeep_1 main_v3 (by decide) (W2 m ρ c)).trans (kdst0_2 m ρ c))

/-- The endpoints argument at the fourth region's exit is the launch memory's. -/
theorem karg1_8 : W8 (F := Ideal) m ρ c (Proc.devRef .tc main_arg1) = m ((c.tc : Thread nD τ).loc main_arg1) :=
  karg_8 m ρ c main_arg1 (by decide)

/-- Transform 1's source row at the fifth region's exit. -/
theorem ksrc1_10 : W10 (F := Ideal) m ρ c (Proc.devRef .tc main_v168)
    = BnAgg.edgeRow ![1, 0, 0] (by decide) (by decide) (m ((c.tc : Thread nD τ).loc main_arg1)) :=
  (W10_of_ne m ρ c main_v168 (by decide)).trans ((ksrc1_eval (W8 m ρ c)).trans (congrArg _ (karg1_8 m ρ c)))
/-- Transform 1's destination row at the fifth region's exit. -/
theorem kdst1_10 : W10 (F := Ideal) m ρ c (Proc.devRef .tc main_v170)
    = BnAgg.edgeRow ![1, 1, 0] (by decide) (by decide) (m ((c.tc : Thread nD τ).loc main_arg1)) :=
  (W10_of_ne m ρ c main_v170 (by decide)).trans ((kdst1_eval (W8 m ρ c)).trans (congrArg _ (karg1_8 m ρ c)))
/-- Transform 1's source row at the sixth region's exit. -/
theorem ksrc1_12 : W12 (F := Ideal) m ρ c (Proc.devRef .tc main_v168)
    = BnAgg.edgeRow ![1, 0, 0] (by decide) (by decide) (m ((c.tc : Thread nD τ).loc main_arg1)) :=
  (W12_of_ne m ρ c main_v168 (by decide)).trans ((kkeep_5 main_v168 (by decide) (W10 m ρ c)).trans (ksrc1_10 m ρ c))
/-- Transform 1's destination row at the sixth region's exit. -/
theorem kdst1_12 : W12 (F := Ideal) m ρ c (Proc.devRef .tc main_v170)
    = BnAgg.edgeRow ![1, 1, 0] (by decide) (by decide) (m ((c.tc : Thread nD τ).loc main_arg1)) :=
  (W12_of_ne m ρ c main_v170 (by decide)).trans ((kkeep_5 main_v170 (by decide) (W10 m ρ c)).trans (kdst1_10 m ρ c))

end Kernel

/-! ## The plain program -/
section Reference

open Cert.ReferenceIdeal Cert.ReferenceIdeal.Gen Cert.ReferenceIdeal.RefRun

variable (m' : (ℓ : Loc nD τ sig) → Buf (Elt Ideal) ℓ) (c : Dev nD)

/-- Transform 0's source row as the first segment leaves it, from any entry contents. -/
theorem rsrc0_eval (V : Valuation τ sig (Elt Ideal)) :
    after (seg0 (F := Ideal)) V (Proc.devRef .tc main_v1)
      = BnAgg.edgeRow ![0, 0, 0] (by decide) (by decide) (V (Proc.devRef .tc main_arg1)) := by
  after_results_simp
  rfl

/-- Transform 0's destination row as the first segment leaves it, from any entry contents. -/
theorem rdst0_eval (V : Valuation τ sig (Elt Ideal)) :
    after (seg0 (F := Ideal)) V (Proc.devRef .tc main_v3)
      = BnAgg.edgeRow ![0, 1, 0] (by decide) (by decide) (V (Proc.devRef .tc main_arg1)) := by
  after_results_simp
  rfl

/-- Transform 1's source row as the eighth segment leaves it, from any entry contents. -/
theorem rsrc1_eval (V : Valuation τ sig (Elt Ideal)) :
    after (seg7 (F := Ideal)) V (Proc.devRef .tc main_v185)
      = BnAgg.edgeRow ![1, 0, 0] (by decide) (by decide) (V (Proc.devRef .tc main_arg1)) := by
  after_results_simp
  rfl

/-- Transform 1's destination row as the eighth segment leaves it, from any entry contents. -/
theorem rdst1_eval (V : Valuation τ sig (Elt Ideal)) :
    after (seg7 (F := Ideal)) V (Proc.devRef .tc main_v187)
      = BnAgg.edgeRow ![1, 1, 0] (by decide) (by decide) (V (Proc.devRef .tc main_arg1)) := by
  after_results_simp
  rfl

/-- Transform 0's source row after the second segment. -/
theorem rsrc0_2 : R2 (F := Ideal) m' c (Proc.devRef .tc main_v1)
    = BnAgg.edgeRow ![0, 0, 0] (by decide) (by decide) (m' ((c.tc : Thread nD τ).loc main_arg1)) :=
  (keep1 main_v1 (by decide) (R1 m' c)).trans (rsrc0_eval (R0 m' c))
/-- Transform 0's destination row after the second segment. -/
theorem rdst0_2 : R2 (F := Ideal) m' c (Proc.devRef .tc main_v3)
    = BnAgg.edgeRow ![0, 1, 0] (by decide) (by decide) (m' ((c.tc : Thread nD τ).loc main_arg1)) :=
  (keep1 main_v3 (by decide) (R1 m' c)).trans (rdst0_eval (R0 m' c))
/-- Transform 0's source row after the fourth segment. -/
theorem rsrc0_4 : R4 (F := Ideal) m' c (Proc.devRef .tc main_v1)
    = BnAgg.edgeRow ![0, 0, 0] (by decide) (by decide) (m' ((c.tc : Thread nD τ).loc main_arg1)) :=
  (keep3 main_v1 (by decide) (R3 m' c)).trans ((keep2 main_v1 (by decide) (R2 m' c)).trans (rsrc0_2 m' c))
/-- Transform 0's destination row after the fourth segment. -/
theorem rdst0_4 : R4 (F := Ideal) m' c (Proc.devRef .tc main_v3)
    = BnAgg.edgeRow ![0, 1, 0] (by decide) (by decide) (m' ((c.tc : Thread nD τ).loc main_arg1)) :=
  (keep3 main_v3 (by decide) (R3 m' c)).trans ((keep2 main_v3 (by decide) (R2 m' c)).trans (rdst0_2 m' c))

/-- The endpoints argument after the seventh segment is the launch memory's. -/
theorem rarg1_7 : R7 (F := Ideal) m' c (Proc.devRef .tc main_arg1) = m' ((c.tc : Thread nD τ).loc main_arg1) :=
  rarg_7 m' c main_arg1 (by decide)

/-- Transform 1's source row after the ninth segment. -/
theorem rsrc1_9 : R9 (F := Ideal) m' c (Proc.devRef .tc main_v185)
    = BnAgg.edgeRow ![1, 0, 0] (by decide) (by decide) (m' ((c.tc : Thread nD τ).loc main_arg1)) :=
  (keep8 main_v185 (by decide) (R8 m' c)).trans ((rsrc1_eval (R7 m' c)).trans (congrArg _ (rarg1_7 m' c)))
/-- Transform 1's destination row after the ninth segment. -/
theorem rdst1_9 : R9 (F := Ideal) m' c (Proc.devRef .tc main_v187)
    = BnAgg.edgeRow ![1, 1, 0] (by decide) (by decide) (m' ((c.tc : Thread nD τ).loc main_arg1)) :=
  (keep8 main_v187 (by decide) (R8 m' c)).trans ((rdst1_eval (R7 m' c)).trans (congrArg _ (rarg1_7 m' c)))
/-- Transform 1's source row after the eleventh segment. -/
theorem rsrc1_11 : R11 (F := Ideal) m' c (Proc.devRef .tc main_v185)
    = BnAgg.edgeRow ![1, 0, 0] (by decide) (by decide) (m' ((c.tc : Thread nD τ).loc main_arg1)) :=
  (keep10 main_v185 (by decide) (R10 m' c)).trans ((keep9 main_v185 (by decide) (R9 m' c)).trans (rsrc1_9 m' c))
/-- Transform 1's destination row after the eleventh segment. -/
theorem rdst1_11 : R11 (F := Ideal) m' c (Proc.devRef .tc main_v187)
    = BnAgg.edgeRow ![1, 1, 0] (by decide) (by decide) (m' ((c.tc : Thread nD τ).loc main_arg1)) :=
  (keep10 main_v187 (by decide) (R10 m' c)).trans ((keep9 main_v187 (by decide) (R9 m' c)).trans (rdst1_9 m' c))

end Reference

/-! ## The two programs' dimension numbers of the gather and of the scatter over 36 columns are the same records -/

theorem gather36_eq :
    (Cert.KernelIdeal.gather_S100000x36_S1600000x1_S1600000x36_1_0_n_n_0_1_136 : GatherDims GinMath.N36 BnAgg.E1 BnAgg.E36)
      = Cert.ReferenceIdeal.gather_S100000x36_S1600000x1_S1600000x36_1_0_n_n_0_1_136 := rfl

theorem scatter36_eq :
    (Cert.KernelIdeal.scatter_S100000x36_S1600000x1_S1600000x36_1_0_0_1 : ScatterDims GinMath.N36 BnAgg.E1 BnAgg.E36)
      = Cert.ReferenceIdeal.scatter_S100000x36_S1600000x1_S1600000x36_1_0_0_1 := rfl

end Cert.Bridge

end
-- ==== Proof.StageB1.lean ====
/-
  From a layer's output to the next layer's aggregate, in both programs. Both normalise the layer's output y by its
  column means and variances, scale and shift it by a row of each of the two parameter arrays, and add to every node
  row the rows of its in-neighbours. One takes the means and variances from the per-tile partial column sums of y
  and y² that its tiled layer left beside y, the other from y itself; for real y the two agree. One sends the
  normalised rows through a narrower float format on their way to the neighbours, which on extended reals changes
  nothing. The aggregate is an array of reals.
-/
import proofs.«408188_j34256659153341_2_alg».proof.Proof.FrameKI
import proofs.«408188_j34256659153341_2_alg».proof.Proof.KOpsGood
import proofs.«408188_j34256659153341_2_alg».proof.Proof.RefChain
import proofs.«408188_j34256659153341_2_alg».proof.Proof.BridgeArgs
import proofs.«408188_j34256659153341_2_alg».proof.Proof.BridgeDefs
import proofs.«408188_j34256659153341_2_alg».proof.Proof.BnAgg
import proofs.«408188_j34256659153341_2_alg».proof.Proof.EdgeRows

set_option maxRecDepth 16384

noncomputable section

namespace Cert.Bridge

open Idealize.ShloMosaic Idealize.SL.Sem Idealize.ShloMosaic.StableHlo

/-! ## The tiled program's host stretch -/
section Kernel

open Cert.KernelIdeal Cert.KernelIdeal.Gen

set_option maxHeartbeats 1600000 in
/-- The stretch's aggregate in terms of what it reads: the layer's three arrays, the two parameter arrays and the two
    rows of edge endpoints. -/
theorem kB1_eval (V : Valuation τ sig (Elt Ideal))
    (y : FVec Ideal GinMath.N36 .f32) (s ss : FVec Ideal GinMath.P36 .f32) (a15 a16 : FVec Ideal BnAgg.A3 .f32)
    (src dst : IVec BnAgg.E 32)
    (hy : V (Proc.devRef .tc main_v31_0) = y) (hs : V (Proc.devRef .tc main_v31_1) = s)
    (hss : V (Proc.devRef .tc main_v31_2) = ss)
    (h15 : V (Proc.devRef .tc main_arg15) = a15) (h16 : V (Proc.devRef .tc main_arg16) = a16)
    (hsrc : V (Proc.devRef .tc main_v1) = src) (hdst : V (Proc.devRef .tc main_v3) = dst) :
    (after (hostOps1 (F := Ideal)) V (Proc.devRef .tc main_v71) : GinMath.N36.Idx → EReal)
      = BnAgg.aggK (by decide) (by decide) (by decide)
          gather_S100000x36_S1600000x1_S1600000x36_1_0_n_n_0_1_136 scatter_S100000x36_S1600000x1_S1600000x36_1_0_0_1
          (by decide)
          (BnAgg.bn (by decide) (by decide) (by decide)
            (BnAgg.meanK (by decide) (by decide) (by decide) s) (BnAgg.varK (by decide) (by decide) (by decide) s ss)
            (BnAgg.rowOf ![0, 0, 0] (by decide) (by decide) a15) (BnAgg.rowOf ![0, 0, 0] (by decide) (by decide) a16) y)
          src dst := by
  subst hy hs hss h15 h16 hsrc hdst
  after_results_simp
  unfold BnAgg.aggK BnAgg.bn BnAgg.varK BnAgg.meanK BnAgg.rowOf BnAgg.wrap
  rfl

end Kernel

/-! ## The plain program's segment -/
section Reference

open Cert.ReferenceIdeal Cert.ReferenceIdeal.Gen Cert.ReferenceIdeal.RefRun

set_option maxHeartbeats 1600000 in
/-- The segment's aggregate in terms of what it reads: the layer's output, the two parameter arrays and the two rows
    of edge endpoints. -/
theorem rB1_eval (V : Valuation τ sig (Elt Ideal))
    (y : FVec Ideal GinMath.N36 .f32) (a15 a16 : FVec Ideal BnAgg.A3 .f32) (src dst : IVec BnAgg.E 32)
    (hy : V (Proc.devRef .tc main_v36) = y)
    (h15 : V (Proc.devRef .tc main_arg15) = a15) (h16 : V (Proc.devRef .tc main_arg16) = a16)
    (hsrc : V (Proc.devRef .tc main_v1) = src) (hdst : V (Proc.devRef .tc main_v3) = dst) :
    (after (seg2 (F := Ideal)) V (Proc.devRef .tc main_v78) : GinMath.N36.Idx → EReal)
      = BnAgg.agg (by decide) (by decide) (by decide)
          gather_S100000x36_S1600000x1_S1600000x36_1_0_n_n_0_1_136 scatter_S100000x36_S1600000x1_S1600000x36_1_0_0_1
          (BnAgg.bn (by decide) (by decide) (by decide)
            (BnAgg.meanR (by decide) (by decide) (by decide) y)
            (BnAgg.varR (by decide) (by decide) (by decide) (by decide) (by decide) (by decide) y)
            (BnAgg.rowOf ![0, 0, 0] (by decide) (by decide) a15) (BnAgg.rowOf ![0, 0, 0] (by decide) (by decide) a16) y)
          src dst := by
  subst hy h15 h16 hsrc hdst
  after_results_simp
  unfold BnAgg.agg BnAgg.bn BnAgg.varR BnAgg.meanR BnAgg.rowOf BnAgg.wrap
  rfl

end Reference

/-! ## The stage -/

/-- If at the tiled layer's exit its output, partial sums and partial sums of squares stand in the layer relation to
    the plain program's output, then after the next host stretch and the next segment the two aggregates are the same
    array of reals. The two programs' memories agree on the edge endpoints and on the two parameter arrays, and the
    parameter arrays are real. -/
theorem stage_B1
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h15 : m' ((c.tc : Thread Cert.ReferenceIdeal.nD Cert.ReferenceIdeal.τ).loc Cert.ReferenceIdeal.main_arg15)
      = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16)
      = m ((c.tc : Thread Cert.KernelIdeal.nD Cert.KernelIdeal.τ).loc Cert.KernelIdeal.main_arg16))
    (hr15 : IsReal (S := BnAgg.A3) (m ((c.tc : Thread Cert.KernelIdeal.nD Cert.KernelIdeal.τ).loc Cert.KernelIdeal.main_arg15)))
    (hr16 : IsReal (S := BnAgg.A3) (m ((c.tc : Thread Cert.KernelIdeal.nD Cert.KernelIdeal.τ).loc Cert.KernelIdeal.main_arg16)))
    (hin : RelY (Cert.KernelIdeal.Gen.W2 (F := Ideal) m ρ c (Proc.devRef .tc Cert.KernelIdeal.main_v31_0))
      (Cert.KernelIdeal.Gen.W2 (F := Ideal) m ρ c (Proc.devRef .tc Cert.KernelIdeal.main_v31_1))
      (Cert.KernelIdeal.Gen.W2 (F := Ideal) m ρ c (Proc.devRef .tc Cert.KernelIdeal.main_v31_2))
      (Cert.ReferenceIdeal.RefRun.R2 (F := Ideal) m' c (Proc.devRef .tc Cert.ReferenceIdeal.main_v36))) :
    RelAgg (S := GinMath.N36)
      (Cert.KernelIdeal.Gen.W3 (F := Ideal) m ρ c (Proc.devRef .tc Cert.KernelIdeal.main_v71))
      (Cert.ReferenceIdeal.RefRun.R3 (F := Ideal) m' c (Proc.devRef .tc Cert.ReferenceIdeal.main_v78)) := by
  obtain ⟨hy, hs, hss, hre⟩ := hin
  have hK := kB1_eval (Cert.KernelIdeal.Gen.W2 (F := Ideal) m ρ c) _ _ _ _ _ _ _ hy hs hss
    (karg_2 m ρ c Cert.KernelIdeal.main_arg15 (by decide)) (karg_2 m ρ c Cert.KernelIdeal.main_arg16 (by decide))
    (ksrc0_2 m ρ c) (kdst0_2 m ρ c)
  have hR := rB1_eval (Cert.ReferenceIdeal.RefRun.R2 (F := Ideal) m' c) _ _ _ _ _ rfl
    ((rarg_2 m' c Cert.ReferenceIdeal.main_arg15 (by decide)).trans h15)
    ((rarg_2 m' c Cert.ReferenceIdeal.main_arg16 (by decide)).trans h16)
    ((rsrc0_2 m' c).trans (congrArg _ h1)) ((rdst0_2 m' c).trans (congrArg _ h1))
  rw [← gather36_eq, ← scatter36_eq] at hR
  have hKR := BnAgg.aggK_eq_aggR (by decide) (by decide) (by decide) (by decide) (by decide) (by decide) (by decide)
    (by decide) (by decide) (by decide)
    Cert.KernelIdeal.gather_S100000x36_S1600000x1_S1600000x36_1_0_n_n_0_1_136
    Cert.KernelIdeal.scatter_S100000x36_S1600000x1_S1600000x36_1_0_0_1 hre
    (BnAgg.rowOf ![0, 0, 0] (by decide) (by decide) (m ((c.tc : Thread Cert.KernelIdeal.nD Cert.KernelIdeal.τ).loc Cert.KernelIdeal.main_arg15)))
    (BnAgg.rowOf ![0, 0, 0] (by decide) (by decide) (m ((c.tc : Thread Cert.KernelIdeal.nD Cert.KernelIdeal.τ).loc Cert.KernelIdeal.main_arg16)))
    (BnAgg.edgeRow ![0, 0, 0] (by decide) (by decide) (m ((c.tc : Thread Cert.KernelIdeal.nD Cert.KernelIdeal.τ).loc Cert.KernelIdeal.main_arg1)))
    (BnAgg.edgeRow ![0, 1, 0] (by decide) (by decide) (m ((c.tc : Thread Cert.KernelIdeal.nD Cert.KernelIdeal.τ).loc Cert.KernelIdeal.main_arg1)))
  have hreal := BnAgg.aggR_real (by decide) (by decide) (by decide) (by decide) (by decide) (by decide)
    (by decide) (by decide) (by decide)
    Cert.KernelIdeal.gather_S100000x36_S1600000x1_S1600000x36_1_0_n_n_0_1_136
    Cert.KernelIdeal.scatter_S100000x36_S1600000x1_S1600000x36_1_0_0_1 hre
    (BnAgg.rowOf_real ![0, 0, 0] (by decide) (by decide) hr15) (BnAgg.rowOf_real ![0, 0, 0] (by decide) (by decide) hr16)
    (BnAgg.edgeRow ![0, 0, 0] (by decide) (by decide) (m ((c.tc : Thread Cert.KernelIdeal.nD Cert.KernelIdeal.τ).loc Cert.KernelIdeal.main_arg1)))
    (BnAgg.edgeRow ![0, 1, 0] (by decide) (by decide) (m ((c.tc : Thread Cert.KernelIdeal.nD Cert.KernelIdeal.τ).loc Cert.KernelIdeal.main_arg1)))
  have hKeq := (hK.trans (BnAgg.aggK_eq_agg (by decide) (by decide) (by decide)
    Cert.KernelIdeal.gather_S100000x36_S1600000x1_S1600000x36_1_0_n_n_0_1_136
    Cert.KernelIdeal.scatter_S100000x36_S1600000x1_S1600000x36_1_0_0_1 (by decide) _ _ _)).trans hKR
  refine ⟨hKeq.trans hR.symm, fun i => ?_⟩
  obtain ⟨r, hr⟩ := hreal i
  exact ⟨r, (congrFun hKeq i).trans hr⟩

end Cert.Bridge

end
-- ==== Proof.TileSum.lean ====
/-
  Sums over one tile of rows. The 100000 node rows fall into 20 tiles of 5000 consecutive rows; a sum over all rows
  that keeps only the rows of tile t is the sum over the tile's 5000 rows, row 5000·t + b for b = 0 … 4999.
-/
import Idealize.ShloMosaic.Lib.ValueIdx

open scoped BigOperators

namespace Cert.TileSum

/-- Keeping, in a sum over all 100000 rows, only the rows of tile t leaves the sum over that tile's 5000 rows. -/
theorem sum_tile {M : Type*} [AddCommMonoid M] (f : Fin 100000 → M) (t : ℕ) (ht : t < 20) :
    ∑ n : Fin 100000, (if n.val / 5000 = t then f n else 0)
      = ∑ b : Fin 5000, f ⟨5000 * t + b.val, by have := b.isLt; omega⟩ := by
  rw [← Finset.sum_filter]
  symm
  refine Finset.sum_bij (fun b _ => (⟨5000 * t + b.val, by have := b.isLt; omega⟩ : Fin 100000)) ?_ ?_ ?_ ?_
  · intro b _
    rw [Finset.mem_filter]
    refine ⟨Finset.mem_univ _, ?_⟩
    show (5000 * t + b.val) / 5000 = t
    have := b.isLt; omega
  · intro a _ b _ h
    have h' : 5000 * t + a.val = 5000 * t + b.val := congrArg Fin.val h
    exact Fin.ext (by omega)
  · intro n hn
    rw [Finset.mem_filter] at hn
    have h1 : n.val / 5000 = t := hn.2
    have h2 := n.isLt
    exact ⟨⟨n.val - 5000 * t, by omega⟩, Finset.mem_univ _, Fin.ext (by show 5000 * t + (n.val - 5000 * t) = n.val; omega)⟩
  · intro b _; rfl

end Cert.TileSum
-- ==== Proof.Reg1Pay.lean ====
/-
  One tile of the two-layer perceptron, entry by entry, on extended reals.

  A tile is 5000 node rows x of 36 features. One layer sends it to max(x·W + b, 0): entry (p, q) is
  max(Σ_k x(p,k)·W(k,q) + b(0,q), 0); the formats the products pass through change nothing at exact arithmetic.
  The tile's output y is two such layers. Besides y the tile yields two 8-row strips: row 0 of the first is the
  column sums of y over the tile's 5000 rows, row 0 of the second the column sums of y·y, and rows 1–7 are zero.
-/
import proofs.«408188_j34256659153341_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Reg1

open Idealize.ShloMosaic Idealize.ShloMosaic.ValueIdx Cert.KernelIdeal Cert.KernelIdeal.Gen

/-! ## The matrix product at an entry -/

/-- On the left operand's row axis the product reads the entry's row. -/
theorem lhs_ax0 (j : S5000x36.Idx) (k : dot_S5000x36_S36x36_S5000x36_1_0_0_1_n_n.contr.Idx) :
    (dot_S5000x36_S36x36_S5000x36_1_0_0_1_n_n.lhsIdx j k (0 : Fin 2)).val = (j 0).val := by
  unfold DotDims.lhsIdx
  rw [dif_neg (show ¬ (0 : Fin S5000x36.rank) ∈ dot_S5000x36_S36x36_S5000x36_1_0_0_1_n_n.lhsBatch by decide),
    dif_pos (show (0 : Fin S5000x36.rank) ∈ dot_S5000x36_S36x36_S5000x36_1_0_0_1_n_n.lhsNonContracting by decide)]
  rfl

/-- On the left operand's column axis it reads the summation index. -/
theorem lhs_ax1 (j : S5000x36.Idx) (k : dot_S5000x36_S36x36_S5000x36_1_0_0_1_n_n.contr.Idx) :
    (dot_S5000x36_S36x36_S5000x36_1_0_0_1_n_n.lhsIdx j k (1 : Fin 2)).val = (k ⟨0, by decide⟩).val :=
  dot_S5000x36_S36x36_S5000x36_1_0_0_1_n_n.lhsIdx_val_of_single (cl := (1 : Fin 2)) rfl j k

/-- On the right operand's row axis it reads the summation index. -/
theorem rhs_ax0 (j : S5000x36.Idx) (k : dot_S5000x36_S36x36_S5000x36_1_0_0_1_n_n.contr.Idx) :
    (dot_S5000x36_S36x36_S5000x36_1_0_0_1_n_n.rhsIdx j k (0 : Fin 2)).val = (k ⟨0, by decide⟩).val :=
  dot_S5000x36_S36x36_S5000x36_1_0_0_1_n_n.rhsIdx_val_of_single (cr := (0 : Fin 2)) rfl j k

/-- On the right operand's column axis it reads the entry's column. -/
theorem rhs_ax1 (j : S5000x36.Idx) (k : dot_S5000x36_S36x36_S5000x36_1_0_0_1_n_n.contr.Idx) :
    (dot_S5000x36_S36x36_S5000x36_1_0_0_1_n_n.rhsIdx j k (1 : Fin 2)).val = (j 1).val := by
  unfold DotDims.rhsIdx
  rw [dif_neg (show ¬ (1 : Fin S36x36.rank) ∈ dot_S5000x36_S36x36_S5000x36_1_0_0_1_n_n.rhsBatch by decide),
    dif_pos (show (1 : Fin S36x36.rank) ∈ dot_S5000x36_S36x36_S5000x36_1_0_0_1_n_n.rhsNonContracting by decide)]
  rfl

/-- A [5000,36] by [36,36] product into a zero accumulator, at entry (p, q): Σ_k l(p,k)·r(k,q). -/
theorem matmul_entry {φ₁ φ₂ : FTy} (l : FVec Ideal S5000x36 φ₁) (r : FVec Ideal S36x36 φ₂) (p : Fin 5000) (q : Fin 36) :
    matmul dot_S5000x36_S36x36_S5000x36_1_0_0_1_n_n none l r (constant (F := Ideal) S5000x36 .f32 0x00000000#32) (ix2 p q)
      = ∑ k : Fin 36, l (ix2 p k) * r (ix2 k q) := by
  refine (Ideal.matmul_constant_zero_apply dot_S5000x36_S36x36_S5000x36_1_0_0_1_n_n none l r (ix2 p q)).trans ?_
  rw [← Equiv.sum_comp (contrEquiv1 dot_S5000x36_S36x36_S5000x36_1_0_0_1_n_n 36 rfl rfl).symm]
  refine Finset.sum_congr rfl fun k _ => ?_
  have hk := contrEquiv1_symm_val dot_S5000x36_S36x36_S5000x36_1_0_0_1_n_n 36 rfl rfl k
  congr 1
  · refine congrArg l (funext fun a => Fin.ext ?_)
    match a with
    | ⟨0, _⟩ => exact lhs_ax0 _ _
    | ⟨1, _⟩ => exact (lhs_ax1 _ _).trans hk
  · refine congrArg r (funext fun a => Fin.ext ?_)
    match a with
    | ⟨0, _⟩ => exact (rhs_ax0 _ _).trans hk
    | ⟨1, _⟩ => exact rhs_ax1 _ _

/-! ## One layer of the perceptron on a tile -/

/-- One layer on a tile of 5000 rows: max(x·W + b, 0), the product taken through the narrower format. -/
def layer (x : FVec Ideal S5000x36 .f32) (w : FVec Ideal S36x36 .f32) (b : FVec Ideal S1x36 .f32) : FVec Ideal S5000x36 .f32 :=
  maximumf
    (addf
      (matmul dot_S5000x36_S36x36_S5000x36_1_0_0_1_n_n none (truncf .bf16 x bitsLt_bf16_f32)
        (truncf .bf16 (shapeCast S36x36 w shapeCasts_S36x36_S36x36) bitsLt_bf16_f32) (constant S5000x36 .f32 0x00000000#32))
      (broadcastTo S5000x36 (shapeCast S1x36 b shapeCasts_S1x36_S1x36) broadcasts_S1x36_S5000x36))
    (broadcast S5000x36 (Scalar.ofBits .f32 0x00000000#32))

/-- Entry (p, q) of a layer: max(Σ_k x(p,k)·W(k,q) + b(0,q), 0). -/
theorem layer_entry (x : FVec Ideal S5000x36 .f32) (w : FVec Ideal S36x36 .f32) (b : FVec Ideal S1x36 .f32) (p : Fin 5000) (q : Fin 36) :
    layer x w b (ix2 p q) = max ((∑ k : Fin 36, x (ix2 p k) * w (ix2 k q)) + b (ix2 0 q)) 0 := by
  show max (matmul dot_S5000x36_S36x36_S5000x36_1_0_0_1_n_n none (truncf .bf16 x bitsLt_bf16_f32)
        (truncf .bf16 (shapeCast S36x36 w shapeCasts_S36x36_S36x36) bitsLt_bf16_f32) (constant (F := Ideal) S5000x36 .f32 0x00000000#32) (ix2 p q)
      + broadcastTo S5000x36 (shapeCast S1x36 b shapeCasts_S1x36_S1x36) broadcasts_S1x36_S5000x36 (ix2 p q)) (Ideal.ofBits .f32 0x00000000#32) = _
  rw [matmul_entry, broadcastTo_1b_ab_apply, shapeCast_self, shapeCast_self, Ideal.ofBits_zero_f32]
  rfl

/-- The tile's output is two layers. -/
theorem pay2_eq (x0 : Vec Ideal S5000x36 .f32) (x1 : Vec Ideal S36x36 .f32) (x2 : Vec Ideal S1x36 .f32) (x3 : Vec Ideal S36x36 .f32) (x4 : Vec Ideal S1x36 .f32) :
    k1_pay2 x0 x1 x2 x3 x4 = layer (layer x0 x1 x2) x3 x4 := by
  unfold k1_pay2
  rw [shapeCast_self]
  rfl

/-- Entry (p, q) of the tile's output. -/
theorem pay2_entry (x0 : Vec Ideal S5000x36 .f32) (x1 : Vec Ideal S36x36 .f32) (x2 : Vec Ideal S1x36 .f32) (x3 : Vec Ideal S36x36 .f32) (x4 : Vec Ideal S1x36 .f32)
    (p : Fin 5000) (q : Fin 36) :
    k1_pay2 x0 x1 x2 x3 x4 (ix2 p q)
      = max ((∑ k : Fin 36, max ((∑ j : Fin 36, x0 (ix2 p j) * x1 (ix2 j k)) + x2 (ix2 0 k)) 0 * x3 (ix2 k q)) + x4 (ix2 0 q)) 0 := by
  rw [pay2_eq, layer_entry]
  simp only [layer_entry]

/-! ## The strips of column sums -/

/-- A select on "row r is row 0", r below 8, is the `if` on r. -/
theorem select_row0 {α : Type} (h : Nat) (hh : h < 8) (A B : α) :
    Scalar.select (IntOp.cmpi .eq (BitVec.ofNat 32 h) 0#32) A B = if h = 0 then A else B := by
  interval_cases h <;> rfl

/-- The 8-row strip made from a tile Y: its column sums laid on row 0, zero on the other rows. -/
def strip (Y : FVec Ideal S5000x36 .f32) : FVec Ideal S8x36 .f32 :=
  select (cmpi .eq (iota .tc S8x36 32 [0] iota_S8x36_d0_w32) (broadcast S8x36 0#32))
    (broadcastTo S8x36 (shapeCast S1x36 (shapeCast S1x36 (multiReduction .add [0] S36 Y 0x00000000#32 reduces_S5000x36_S36 (.inl rfl) rfl) shapeCasts_S36_S1x36) shapeCasts_S1x36_S1x36) broadcasts_S1x36_S8x36)
    (broadcast S8x36 (Scalar.ofBits .f32 0x00000000#32))

/-- Entry (r, q) of a strip: Σ_n Y(n, q) on row 0, zero below. -/
theorem strip_entry (Y : FVec Ideal S5000x36 .f32) (r : Fin 8) (q : Fin 36) :
    strip Y (ix2 r q) = if r.val = 0 then ∑ n : Fin 5000, Y (ix2 n q) else 0 := by
  show Scalar.select (IntOp.cmpi .eq (iota .tc S8x36 32 [0] iota_S8x36_d0_w32 (ix2 r q)) 0#32)
      (broadcastTo S8x36 (shapeCast S1x36 (shapeCast S1x36 (multiReduction .add [0] S36 Y 0x00000000#32 reduces_S5000x36_S36 (.inl rfl) rfl) shapeCasts_S36_S1x36) shapeCasts_S1x36_S1x36) broadcasts_S1x36_S8x36 (ix2 r q))
      (Ideal.ofBits .f32 0x00000000#32) = _
  rw [iota_single_apply]
  show Scalar.select (IntOp.cmpi .eq (BitVec.ofNat 32 r.val) 0#32) _ _ = _
  rw [select_row0 r.val r.isLt, broadcastTo_1b_ab_apply, shapeCast_self, shapeCast_a_1a_apply, Ideal.ofBits_zero_f32]
  refine if_congr Iff.rfl ?_ rfl
  refine (Ideal.multiReduction_add_single Y 0x00000000#32 reduces_S5000x36_S36 (.inl rfl) rfl (ix1 q)).trans ?_
  refine Finset.sum_congr rfl fun n _ => congrArg Y (funext fun a => Fin.ext ?_)
  match a with
  | ⟨0, _⟩ => rfl
  | ⟨1, _⟩ => rfl

/-- The first strip is made from the tile's output. -/
theorem pay4_eq (x0 : Vec Ideal S5000x36 .f32) (x1 : Vec Ideal S36x36 .f32) (x2 : Vec Ideal S1x36 .f32) (x3 : Vec Ideal S36x36 .f32) (x4 : Vec Ideal S1x36 .f32) :
    k1_pay4 x0 x1 x2 x3 x4 = strip (k1_pay2 x0 x1 x2 x3 x4) := rfl

/-- The second strip is made from the squares of the tile's output. -/
theorem pay1_eq (x0 : Vec Ideal S5000x36 .f32) (x1 : Vec Ideal S36x36 .f32) (x2 : Vec Ideal S1x36 .f32) (x3 : Vec Ideal S36x36 .f32) (x4 : Vec Ideal S1x36 .f32) :
    k1_pay1 (k1_pay3 x0 x1 x2 x3 x4) (iota .tc S8x36 32 [0] iota_S8x36_d0_w32)
      = strip (mulf (k1_pay2 x0 x1 x2 x3 x4) (k1_pay2 x0 x1 x2 x3 x4)) := rfl

end Cert.KernelIdeal.Reg1

end
-- ==== Proof.Reg1Point.lean ====
/-
  One tile of the perceptron against the whole-array functions.

  Tile t holds node rows 5000·t … 5000·t + 4999. If a tile's input block is those rows of the feature array A and the
  four parameter blocks are the whole parameter arrays, then the tile's output at (p, q) is the perceptron's value at
  node row 5000·t + p, column q; the tile's first strip is rows 8·t … 8·t + 7 of the partial column sums of the
  perceptron's output, and its second strip those rows of the partial column sums of the squares.
-/
import proofs.«408188_j34256659153341_2_alg».proof.Proof.GinMath
import proofs.«408188_j34256659153341_2_alg».proof.Proof.TileSum
import proofs.«408188_j34256659153341_2_alg».proof.Proof.Reg1Pay

noncomputable section

open scoped BigOperators

namespace Cert.KernelIdeal.Reg1

open Idealize.ShloMosaic Idealize.ShloMosaic.ValueIdx Cert.KernelIdeal Cert.KernelIdeal.Gen Cert.GinMath

variable (A : N36.Idx → EReal) (WA : W36.Idx → EReal) (BA : R36.Idx → EReal) (WB : W36.Idx → EReal) (BB : R36.Idx → EReal)

/-- The tile's output at (p, q) is the perceptron at node row n, column q, when the tile's row p is row n of A. -/
theorem pay2_mlp (x0 : Vec Ideal S5000x36 .f32) (x1 : Vec Ideal S36x36 .f32) (x2 : Vec Ideal S1x36 .f32) (x3 : Vec Ideal S36x36 .f32) (x4 : Vec Ideal S1x36 .f32)
    (h1 : x1 = WA) (h2 : x2 = BA) (h3 : x3 = WB) (h4 : x4 = BB)
    (p : Fin 5000) (q : Fin 36) (n : Fin 100000) (h0 : ∀ k : Fin 36, x0 (ix2 p k) = A (ix2 n k)) :
    k1_pay2 x0 x1 x2 x3 x4 (ix2 p q) = mlp36 A WA BA WB BB (ix2 n q) := by
  subst h1 h2 h3 h4
  rw [pay2_entry]
  simp only [h0]
  rfl

/-- The same at indices given by their coordinates' values. -/
theorem blk5_point (x0 : Vec Ideal S5000x36 .f32) (x1 : Vec Ideal S36x36 .f32) (x2 : Vec Ideal S1x36 .f32) (x3 : Vec Ideal S36x36 .f32) (x4 : Vec Ideal S1x36 .f32)
    (h1 : x1 = WA) (h2 : x2 = BA) (h3 : x3 = WB) (h4 : x4 = BB)
    (t : ℕ) (h0 : ∀ (b : Fin 5000) (k : Fin 36) (n : Fin 100000), n.val = 5000 * t + b.val → x0 (ix2 b k) = A (ix2 n k))
    (y : S5000x36.Idx) (i : N36.Idx) (hi0 : (i 0).val = 5000 * t + (y 0).val) (hi1 : (i 1).val = (y 1).val) :
    k1_pay2 x0 x1 x2 x3 x4 y = mlp36 A WA BA WB BB i := by
  obtain ⟨p, q, rfl⟩ : ∃ (p : Fin 5000) (q : Fin 36), y = ix2 p q := ⟨y 0, y 1, eq_ix2 y⟩
  obtain ⟨n, d, rfl⟩ : ∃ (n : Fin 100000) (d : Fin 36), i = ix2 n d := ⟨i 0, i 1, eq_ix2 i⟩
  obtain rfl : d = q := Fin.ext hi1
  exact pay2_mlp A WA BA WB BB x0 x1 x2 x3 x4 h1 h2 h3 h4 p d n fun k => h0 p k n hi0

/-- A strip of tile t is rows 8·t … 8·t + 7 of the partial sums by tile of the array Y the tile is cut from. -/
theorem strip_tileSums (Y : N36.Idx → EReal) (Yt : FVec Ideal S5000x36 .f32) (t : ℕ) (ht : t < 20)
    (hY : ∀ (b : Fin 5000) (q : Fin 36), Yt (ix2 b q) = Y (ix2 ⟨5000 * t + b.val, by have := b.isLt; omega⟩ q))
    (y : S8x36.Idx) (i : P36.Idx) (hi0 : (i 0).val = 8 * t + (y 0).val) (hi1 : (i 1).val = (y 1).val) :
    strip Yt y = tileSums Y i := by
  obtain ⟨r, q, rfl⟩ : ∃ (r : Fin 8) (q : Fin 36), y = ix2 r q := ⟨y 0, y 1, eq_ix2 y⟩
  obtain ⟨g, d, rfl⟩ : ∃ (g : Fin 160) (d : Fin 36), i = ix2 g d := ⟨i 0, i 1, eq_ix2 i⟩
  obtain rfl : d = q := Fin.ext hi1
  have hg : g.val = 8 * t + r.val := hi0
  have hr := r.isLt
  rw [strip_entry]
  show _ = if g.val % 8 = 0 then ∑ n : Fin 100000, (if n.val / 5000 = g.val / 8 then Y (ix2 n d) else 0) else 0
  rw [show g.val / 8 = t by omega]
  refine if_congr (by omega) ?_ rfl
  rw [Cert.TileSum.sum_tile (fun n => Y (ix2 n d)) t ht]
  exact Finset.sum_congr rfl fun b _ => hY b d

end Cert.KernelIdeal.Reg1

end
-- ==== Proof.Reg1Value.lean ====
/-
  What the perceptron's pipeline leaves in its three output arrays, as whole-array functions of the five arrays it reads.

  The grid has 20 points; point t reads rows 5000·t … 5000·t + 4999 of the feature array and the four parameter arrays
  whole, and writes back rows 5000·t … 5000·t + 4999 of y and rows 8·t … 8·t + 7 of the two arrays of partial sums.
  Every written block is the matching block of one whole-array function (the perceptron; its partial column sums by
  tile; those of its squares), and the blocks of the 20 points cover each output array, so the arrays end at those
  functions.
-/
import proofs.«408188_j34256659153341_2_alg».proof.Proof.FrameKI
import proofs.«408188_j34256659153341_2_alg».proof.Proof.Reg1Point
import Idealize.ShloMosaic.Lib.Pipeline.Value

noncomputable section

open scoped BigOperators

open Idealize.ShloMosaic Idealize.ShloMosaic.TcCoe Idealize.SL.Sem Idealize.ShloMosaic.ValueIdx
open Idealize.ShloMosaic.Pipeline (Dat)

namespace Cert.KernelIdeal.Reg1

open Cert.KernelIdeal Cert.KernelIdeal.Gen Cert.GinMath

variable (V : (c : Dev nD) → (b : Ref sig .tc) → Buf (Elt Ideal) ((c : Thread nD τ).loc b))

/-! ## The five arrays the region reads, as it finds them -/

/-- The aggregated features, [100000, 36]. -/
abbrev arrA (c : Dev nD) : N36.Idx → EReal := V c (Pipeline.arrRef spec1 0)
/-- The first layer's weights, [36, 36]. -/
abbrev arrWA (c : Dev nD) : W36.Idx → EReal := V c (Pipeline.arrRef spec1 1)
/-- The first layer's bias, [1, 36]. -/
abbrev arrBA (c : Dev nD) : R36.Idx → EReal := V c (Pipeline.arrRef spec1 2)
/-- The second layer's weights, [36, 36]. -/
abbrev arrWB (c : Dev nD) : W36.Idx → EReal := V c (Pipeline.arrRef spec1 3)
/-- The second layer's bias, [1, 36]. -/
abbrev arrBB (c : Dev nD) : R36.Idx → EReal := V c (Pipeline.arrRef spec1 4)

/-- The perceptron's output as a whole array. -/
abbrev Y (c : Dev nD) : N36.Idx → EReal := mlp36 (arrA V c) (arrWA V c) (arrBA V c) (arrWB V c) (arrBB V c)

/-! ## Where each window's block sits at grid point t -/

theorem hz : (![0, 0] : Fin 2 → Nat) = fun _ => 0 := funext fun a => by fin_cases a <;> rfl

/-- The block indices at point t: the feature rows and the three outputs move with t along the rows, the parameter
    arrays stay whole. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

theorem t_lt (t : Fin cfg1.N) : t.val < 20 := by
  have h : cfg1.N = 20 := N_1
  have := t.isLt
  omega

/-! ## The input blocks, read off the arrays -/

/-- The feature block at point t is rows 5000·t … 5000·t + 4999 of the feature array. -/
theorem inA_rows (c : Dev nD) (t : Fin cfg1.N) (x : S5000x36.Idx) (k : N36.Idx)
    (hk0 : (k 0).val = 5000 * t.val + (x 0).val) (hk1 : (k 1).val = (x 1).val) :
    (iblk1 V c 0 t : Vec Ideal S5000x36 .f32) x = arrA V c k := by
  obtain ⟨e0, e1, -⟩ := idx_facts t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 5000 + 1 * (x 0).val = (k 0).val; rw [e0, hk0]; omega
  | ⟨1, _⟩ => show win1_0.index t (1 : Fin 2) * 36 + 1 * (x 1).val = (k 1).val; rw [e1, hk1]; omega

/-- The first layer's weights arrive whole at every point. -/
theorem inWA_whole (c : Dev nD) (t : Fin cfg1.N) : (iblk1 V c 1 t : Vec Ideal S36x36 .f32) = arrWA V c := by
  obtain ⟨-, -, e0, e1, -⟩ := idx_facts t
  funext x
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 36 + 1 * (x 0).val = (x 0).val; rw [e0]; omega
  | ⟨1, _⟩ => show win1_1.index t (1 : Fin 2) * 36 + 1 * (x 1).val = (x 1).val; rw [e1]; omega

/-- The first layer's bias arrives whole at every point. -/
theorem inBA_whole (c : Dev nD) (t : Fin cfg1.N) : (iblk1 V c 2 t : Vec Ideal S1x36 .f32) = arrBA V c := by
  obtain ⟨-, -, -, -, e0, e1, -⟩ := idx_facts t
  funext x
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 1 + 1 * (x 0).val = (x 0).val; rw [e0]; omega
  | ⟨1, _⟩ => show win1_2.index t (1 : Fin 2) * 36 + 1 * (x 1).val = (x 1).val; rw [e1]; omega

/-- The second layer's weights arrive whole at every point. -/
theorem inWB_whole (c : Dev nD) (t : Fin cfg1.N) : (iblk1 V c 3 t : Vec Ideal S36x36 .f32) = arrWB V c := by
  obtain ⟨-, -, -, -, -, -, e0, e1, -⟩ := idx_facts t
  funext x
  unfold iblk1
  rw [View.read_apply]
  show V c (Pipeline.arrRef spec1 3) _ = V c (Pipeline.arrRef spec1 3) _
  congr 1
  funext a
  apply Fin.ext
  match a with
  | ⟨0, _⟩ => show win1_3.index t (0 : Fin 2) * 36 + 1 * (x 0).val = (x 0).val; rw [e0]; omega
  | ⟨1, _⟩ => show win1_3.index t (1 : Fin 2) * 36 + 1 * (x 1).val = (x 1).val; rw [e1]; omega

/-- The second layer's bias arrives whole at every point. -/
theorem inBB_whole (c : Dev nD) (t : Fin cfg1.N) : (iblk1 V c 4 t : Vec Ideal S1x36 .f32) = arrBB V c := by
  obtain ⟨-, -, -, -, -, -, -, -, e0, e1, -⟩ := idx_facts t
  funext x
  unfold iblk1
  rw [View.read_apply]
  show V c (Pipeline.arrRef spec1 4) _ = V c (Pipeline.arrRef spec1 4) _
  congr 1
  funext a
  apply Fin.ext
  match a with
  | ⟨0, _⟩ => show win1_4.index t (0 : Fin 2) * 1 + 1 * (x 0).val = (x 0).val; rw [e0]; omega
  | ⟨1, _⟩ => show win1_4.index t (1 : Fin 2) * 36 + 1 * (x 1).val = (x 1).val; rw [e1]; omega

/-- The tile computed at point t is rows 5000·t … of the perceptron's output. -/
theorem tile_eq (c : Dev nD) (t : Fin cfg1.N) (b : Fin 5000) (q : Fin 36) :
    k1_pay2 (iblk1 V c 0 t) (iblk1 V c 1 t) (iblk1 V c 2 t) (iblk1 V c 3 t) (iblk1 V c 4 t) (ix2 b q)
      = Y V c (ix2 ⟨5000 * t.val + b.val, by have := t_lt t; have := b.isLt; omega⟩ q) :=
  pay2_mlp (arrA V c) (arrWA V c) (arrBA V c) (arrWB V c) (arrBB V c)
    (iblk1 V c 0 t) (iblk1 V c 1 t) (iblk1 V c 2 t) (iblk1 V c 3 t) (iblk1 V c 4 t)
    (inWA_whole V c t) (inBA_whole V c t) (inWB_whole V c t) (inBB_whole V c t) b q _
    fun k => inA_rows V c t (ix2 b k) (ix2 _ k) rfl rfl

/-! ## What each point writes back -/

/-- Point t writes back rows 5000·t … 5000·t + 4999 of the perceptron's output. -/
theorem flushed5_eq (c : Dev nD) (t : Fin cfg1.N) :
    (dat1 V c).flushed 5 t = ((cfg1.win 5).blk t).view.read (Elt Ideal) (Y V c) := by
  show (cfg1.win 5).cut (grid1.coords t) ((dat1 V c).after 5 t) = _
  rw [after1_5]
  unfold out1_5
  rw [View.canon_unit_zero hz]
  simp only [View.ld_unit_zero (S := S5000x36) hz, View.ld_unit_zero (S := S36x36) hz, View.ld_unit_zero (S := S1x36) hz]
  obtain ⟨-, -, -, -, -, -, -, -, -, -, e0, e1, -⟩ := idx_facts t
  funext j
  rw [View.read_apply]
  show k1_pay2 (iblk1 V c 0 t) (iblk1 V c 1 t) (iblk1 V c 2 t) (iblk1 V c 3 t) (iblk1 V c 4 t) j = Y V c (((cfg1.win 5).blk t).view.emb j)
  refine blk5_point (arrA V c) (arrWA V c) (arrBA V c) (arrWB V c) (arrBB V c)
    (iblk1 V c 0 t) (iblk1 V c 1 t) (iblk1 V c 2 t) (iblk1 V c 3 t) (iblk1 V c 4 t)
    (inWA_whole V c t) (inBA_whole V c t) (inWB_whole V c t) (inBB_whole V c t) t.val
    (fun b k n hn => inA_rows V c t (ix2 b k) (ix2 n k) hn rfl) j (((cfg1.win 5).blk t).view.emb j) ?_ ?_
  · show win1_5.index t (0 : Fin 2) * 5000 + 1 * (j 0).val = 5000 * t.val + (j 0).val; rw [e0]; omega
  · show win1_5.index t (1 : Fin 2) * 36 + 1 * (j 1).val = (j 1).val; rw [e1]; omega

/-- Point t writes back rows 8·t … 8·t + 7 of the partial column sums of the perceptron's output. -/
theorem flushed6_eq (c : Dev nD) (t : Fin cfg1.N) :
    (dat1 V c).flushed 6 t = ((cfg1.win 6).blk t).view.read (Elt Ideal) (tileSums (Y V c)) := by
  show (cfg1.win 6).cut (grid1.coords t) ((dat1 V c).after 6 t) = _
  rw [after1_6]
  unfold out1_6
  rw [View.canon_unit_zero hz]
  simp only [View.ld_unit_zero (S := S5000x36) hz, View.ld_unit_zero (S := S36x36) hz, View.ld_unit_zero (S := S1x36) hz]
  rw [pay4_eq]
  obtain ⟨-, -, -, -, -, -, -, -, -, -, -, -, e0, e1, -⟩ := idx_facts t
  funext j
  rw [View.read_apply]
  show strip (k1_pay2 (iblk1 V c 0 t) (iblk1 V c 1 t) (iblk1 V c 2 t) (iblk1 V c 3 t) (iblk1 V c 4 t)) j = tileSums (Y V c) (((cfg1.win 6).blk t).view.emb j)
  refine strip_tileSums (Y V c) _ t.val (t_lt t) (fun b q => tile_eq V c t b q) j (((cfg1.win 6).blk t).view.emb j) ?_ ?_
  · show win1_6.index t (0 : Fin 2) * 8 + 1 * (j 0).val = 8 * t.val + (j 0).val; rw [e0]; omega
  · show win1_6.index t (1 : Fin 2) * 36 + 1 * (j 1).val = (j 1).val; rw [e1]; omega

/-- Point t writes back rows 8·t … 8·t + 7 of the partial column sums of the squares. -/
theorem flushed7_eq (c : Dev nD) (t : Fin cfg1.N) :
    (dat1 V c).flushed 7 t = ((cfg1.win 7).blk t).view.read (Elt Ideal) (tileSums (sq (Y V c))) := by
  show (cfg1.win 7).cut (grid1.coords t) ((dat1 V c).after 7 t) = _
  rw [after1_7]
  unfold out1_7
  rw [View.canon_unit_zero hz]
  simp only [View.ld_unit_zero (S := S5000x36) hz, View.ld_unit_zero (S := S36x36) hz, View.ld_unit_zero (S := S1x36) hz]
  rw [pay1_eq]
  obtain ⟨-, -, -, -, -, -, -, -, -, -, -, -, -, -, e0, e1⟩ := idx_facts t
  funext j
  rw [View.read_apply]
  show strip (mulf (k1_pay2 (iblk1 V c 0 t) (iblk1 V c 1 t) (iblk1 V c 2 t) (iblk1 V c 3 t) (iblk1 V c 4 t))
      (k1_pay2 (iblk1 V c 0 t) (iblk1 V c 1 t) (iblk1 V c 2 t) (iblk1 V c 3 t) (iblk1 V c 4 t))) j
    = tileSums (sq (Y V c)) (((cfg1.win 7).blk t).view.emb j)
  refine strip_tileSums (sq (Y V c)) _ t.val (t_lt t) (fun b q => ?_) j (((cfg1.win 7).blk t).view.emb j) ?_ ?_
  · show k1_pay2 (iblk1 V c 0 t) (iblk1 V c 1 t) (iblk1 V c 2 t) (iblk1 V c 3 t) (iblk1 V c 4 t) (ix2 b q)
        * k1_pay2 (iblk1 V c 0 t) (iblk1 V c 1 t) (iblk1 V c 2 t) (iblk1 V c 3 t) (iblk1 V c 4 t) (ix2 b q) = _
    rw [tile_eq V c t b q]
    rfl
  · show win1_7.index t (0 : Fin 2) * 8 + 1 * (j 0).val = 8 * t.val + (j 0).val; rw [e0]; omega
  · show win1_7.index t (1 : Fin 2) * 36 + 1 * (j 1).val = (j 1).val; rw [e1]; omega

/-! ## The blocks cover the arrays -/

/-- Row r of y lies in the block of point r / 5000. -/
theorem cover5 (i : N36.Idx) : ∃ t : Fin cfg1.N, (cfg1.win 5).flush t = true ∧ i ∈ ((cfg1.win 5).blk t).view.set := by
  have hi0 : (i 0).val < 100000 := (i 0).isLt
  have hi1 : (i 1).val < 36 := (i 1).isLt
  have hN : cfg1.N = 20 := N_1
  have ht : (i 0).val / 5000 < cfg1.N := by rw [hN]; omega
  obtain ⟨-, -, -, -, -, -, -, -, -, -, e0, e1, -⟩ := idx_facts ⟨(i 0).val / 5000, ht⟩
  refine ⟨⟨(i 0).val / 5000, ht⟩, flush1_5 _, ?_⟩
  show i ∈ ((View.whole main_v84_0).slice (win1_5.rect ⟨(i 0).val / 5000, ht⟩)).set
  rw [View.set_slice_whole, Rect.mem_set_unit]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ (1 : Fin 2) * 36 ≤ (i 1).val ∧ (i 1).val < win1_5.index ⟨(i 0).val / 5000, ht⟩ (1 : Fin 2) * 36 + 36
    rw [e1]; omega

/-- Row r of the first array of partial sums lies in the block of point r / 8. -/
theorem cover6 (i : P36.Idx) : ∃ t : Fin cfg1.N, (cfg1.win 6).flush t = true ∧ i ∈ ((cfg1.win 6).blk t).view.set := by
  have hi0 : (i 0).val < 160 := (i 0).isLt
  have hi1 : (i 1).val < 36 := (i 1).isLt
  have hN : cfg1.N = 20 := N_1
  have ht : (i 0).val / 8 < cfg1.N := by rw [hN]; omega
  obtain ⟨-, -, -, -, -, -, -, -, -, -, -, -, e0, e1, -⟩ := idx_facts ⟨(i 0).val / 8, ht⟩
  refine ⟨⟨(i 0).val / 8, ht⟩, flush1_6 _, ?_⟩
  show i ∈ ((View.whole main_v84_1).slice (win1_6.rect ⟨(i 0).val / 8, ht⟩)).set
  rw [View.set_slice_whole, Rect.mem_set_unit]
  intro a
  match a with
  | ⟨0, _⟩ =>
    show win1_6.index ⟨(i 0).val / 8, ht⟩ (0 : Fin 2) * 8 ≤ (i 0).val ∧ (i 0).val < win1_6.index ⟨(i 0).val / 8, ht⟩ (0 : Fin 2) * 8 + 8
    rw [e0]; show (i 0).val / 8 * 8 ≤ (i 0).val ∧ (i 0).val < (i 0).val / 8 * 8 + 8; omega
  | ⟨1, _⟩ =>
    show win1_6.index ⟨(i 0).val / 8, ht⟩ (1 : Fin 2) * 36 ≤ (i 1).val ∧ (i 1).val < win1_6.index ⟨(i 0).val / 8, ht⟩ (1 : Fin 2) * 36 + 36
    rw [e1]; omega

/-- Row r of the second array of partial sums lies in the block of point r / 8. -/
theorem cover7 (i : P36.Idx) : ∃ t : Fin cfg1.N, (cfg1.win 7).flush t = true ∧ i ∈ ((cfg1.win 7).blk t).view.set := by
  have hi0 : (i 0).val < 160 := (i 0).isLt
  have hi1 : (i 1).val < 36 := (i 1).isLt
  have hN : cfg1.N = 20 := N_1
  have ht : (i 0).val / 8 < cfg1.N := by rw [hN]; omega
  obtain ⟨-, -, -, -, -, -, -, -, -, -, -, -, -, -, e0, e1⟩ := idx_facts ⟨(i 0).val / 8, ht⟩
  refine ⟨⟨(i 0).val / 8, ht⟩, flush1_7 _, ?_⟩
  show i ∈ ((View.whole main_v84_2).slice (win1_7.rect ⟨(i 0).val / 8, ht⟩)).set
  rw [View.set_slice_whole, Rect.mem_set_unit]
  intro a
  match a with
  | ⟨0, _⟩ =>
    show win1_7.index ⟨(i 0).val / 8, ht⟩ (0 : Fin 2) * 8 ≤ (i 0).val ∧ (i 0).val < win1_7.index ⟨(i 0).val / 8, ht⟩ (0 : Fin 2) * 8 + 8
    rw [e0]; show (i 0).val / 8 * 8 ≤ (i 0).val ∧ (i 0).val < (i 0).val / 8 * 8 + 8; omega
  | ⟨1, _⟩ =>
    show win1_7.index ⟨(i 0).val / 8, ht⟩ (1 : Fin 2) * 36 ≤ (i 1).val ∧ (i 1).val < win1_7.index ⟨(i 0).val / 8, ht⟩ (1 : Fin 2) * 36 + 36
    rw [e1]; omega

/-! ## The three output arrays after the region -/

/-- y ends at the perceptron of the five arrays. -/
theorem y_eq (c : Dev nD) : (dat1 V c).arrAt 5 cfg1.N = Y V c :=
  (dat1 V c).arrAt_eq_of_cover 5 (Y V c) (fun t _ => flushed5_eq V c t) cover5

/-- The first array of partial sums ends at the partial column sums, by tile, of the perceptron's output. -/
theorem s_eq (c : Dev nD) : (dat1 V c).arrAt 6 cfg1.N = tileSums (Y V c) :=
  (dat1 V c).arrAt_eq_of_cover 6 (tileSums (Y V c)) (fun t _ => flushed6_eq V c t) cover6

/-- The second ends at the partial column sums, by tile, of its squares. -/
theorem ss_eq (c : Dev nD) : (dat1 V c).arrAt 7 cfg1.N = tileSums (sq (Y V c)) :=
  (dat1 V c).arrAt_eq_of_cover 7 (tileSums (sq (Y V c))) (fun t _ => flushed7_eq V c t) cover7

end Cert.KernelIdeal.Reg1

end
-- ==== Proof.StageY2.lean ====
/-
  Layer 2 of transform 0 on both sides. The tiled program's region 1 leaves the perceptron of its five input arrays —
  the aggregate, and the two weight matrices and two bias rows its host stretch prepared — together with the per-tile
  column sums of that output and of its squares. The reference computes the same perceptron as two matrix products,
  each followed by a bias spread over the node rows and a rectifier. Both sides prepare the weights from the same
  arguments: transform 0's slice of each stacked argument, the matrices transposed, the bias vectors read as rows.
  So from equal, real aggregates the two outputs are equal, the sums are the per-tile sums of the reference's output,
  and that output is real.
-/
import proofs.«408188_j34256659153341_2_alg».proof.Proof.FrameKI
import proofs.«408188_j34256659153341_2_alg».proof.Proof.Reg1Value
import proofs.«408188_j34256659153341_2_alg».proof.Proof.RefChain
import proofs.«408188_j34256659153341_2_alg».proof.Proof.RefMlp
import proofs.«408188_j34256659153341_2_alg».proof.Proof.RowReshape
import proofs.«408188_j34256659153341_2_alg».proof.Proof.BridgeArgs
import proofs.«408188_j34256659153341_2_alg».proof.Proof.GinReal
import Idealize.ShloMosaic.Lib.StableHlo.Run

noncomputable section

/-! ## The tiled program's host stretch before region 1: the four weight arrays it prepares -/

namespace Cert.Bridge.Y2K

open Cert.KernelIdeal Cert.KernelIdeal.Gen Idealize.ShloMosaic Idealize.SL.Sem Idealize.ShloMosaic.StableHlo
open Idealize.ShloMosaic.ValueIdx

/-- Transform 0's first-layer matrix (36 × 36) cut out of the stacked argument. -/
abbrev wA (x : (⟨S2x36x36, .f32⟩ : BufTy).Contents (Elt Ideal)) : (⟨S36x36, .f32⟩ : BufTy).Contents (Elt Ideal) :=
  shapeCast S36x36 (extractStridedSlice S1x36x36 ![0, 0, 0] x slices_S2x36x36_S1x36x36_0_0_0) shapeCasts_S1x36x36_S36x36
/-- Transform 0's second-layer matrix (36 × 36) cut out of the stacked argument. -/
abbrev wB (x : (⟨S2x36x36, .f32⟩ : BufTy).Contents (Elt Ideal)) : (⟨S36x36, .f32⟩ : BufTy).Contents (Elt Ideal) :=
  shapeCast S36x36 (extractStridedSlice S1x36x36 ![0, 0, 0] x slices_S2x36x36_S1x36x36_0_0_0) shapeCasts_S1x36x36_S36x36
/-- Transform 0's bias vector (36 entries) cut out of the stacked argument. -/
abbrev bV (x : (⟨S2x36, .f32⟩ : BufTy).Contents (Elt Ideal)) : (⟨S36, .f32⟩ : BufTy).Contents (Elt Ideal) :=
  shapeCast S36 (extractStridedSlice S1x36 ![0, 0] x slices_S2x36_S1x36_0_0) shapeCasts_S1x36_S36

/-- The first product's right operand: the first-layer matrix, transposed. -/
theorem wa (V : Valuation τ sig (Elt Ideal)) :
    after (hostOps1 (F := Ideal)) V (Proc.devRef .tc Cert.KernelIdeal.main_v80)
      = transpose S36x36 [1, 0] (wA (V (Proc.devRef .tc Cert.KernelIdeal.main_arg7))) transposes_S36x36_S36x36_1_0 := by
  after_results_simp
  all_goals rfl
/-- The first bias, as one row. -/
theorem ba (V : Valuation τ sig (Elt Ideal)) :
    after (hostOps1 (F := Ideal)) V (Proc.devRef .tc Cert.KernelIdeal.main_v82)
      = shapeCast S1x36 (bV (V (Proc.devRef .tc Cert.KernelIdeal.main_arg8))) shapeCasts_S36_S1x36 := by
  after_results_simp
  all_goals rfl
/-- The second product's right operand: the second-layer matrix, transposed. -/
theorem wb (V : Valuation τ sig (Elt Ideal)) :
    after (hostOps1 (F := Ideal)) V (Proc.devRef .tc Cert.KernelIdeal.main_v81)
      = transpose S36x36 [1, 0] (wB (V (Proc.devRef .tc Cert.KernelIdeal.main_arg9))) transposes_S36x36_S36x36_1_0 := by
  after_results_simp
  all_goals rfl
/-- The second bias, as one row. -/
theorem bb (V : Valuation τ sig (Elt Ideal)) :
    after (hostOps1 (F := Ideal)) V (Proc.devRef .tc Cert.KernelIdeal.main_v83)
      = shapeCast S1x36 (bV (V (Proc.devRef .tc Cert.KernelIdeal.main_arg10))) shapeCasts_S36_S1x36 := by
  after_results_simp
  all_goals rfl

end Cert.Bridge.Y2K

/-! ## The reference: the weights the stretch before cuts out, and its perceptron -/

namespace Cert.Bridge.Y2R

open Cert.ReferenceIdeal Cert.ReferenceIdeal.Gen Cert.ReferenceIdeal.RefRun Idealize.ShloMosaic Idealize.SL.Sem
open Idealize.ShloMosaic.StableHlo Idealize.ShloMosaic.ValueIdx

/-- Transform 0's first-layer matrix (36 × 36) cut out of the stacked argument. -/
abbrev wA (x : (⟨S2x36x36, .f32⟩ : BufTy).Contents (Elt Ideal)) : (⟨S36x36, .f32⟩ : BufTy).Contents (Elt Ideal) :=
  shapeCast S36x36 (extractStridedSlice S1x36x36 ![0, 0, 0] x slices_S2x36x36_S1x36x36_0_0_0) shapeCasts_S1x36x36_S36x36
/-- Transform 0's second-layer matrix (36 × 36) cut out of the stacked argument. -/
abbrev wB (x : (⟨S2x36x36, .f32⟩ : BufTy).Contents (Elt Ideal)) : (⟨S36x36, .f32⟩ : BufTy).Contents (Elt Ideal) :=
  shapeCast S36x36 (extractStridedSlice S1x36x36 ![0, 0, 0] x slices_S2x36x36_S1x36x36_0_0_0) shapeCasts_S1x36x36_S36x36
/-- Transform 0's bias vector (36 entries) cut out of the stacked argument. -/
abbrev bV (x : (⟨S2x36, .f32⟩ : BufTy).Contents (Elt Ideal)) : (⟨S36, .f32⟩ : BufTy).Contents (Elt Ideal) :=
  shapeCast S36 (extractStridedSlice S1x36 ![0, 0] x slices_S2x36_S1x36_0_0) shapeCasts_S1x36_S36

theorem wa (V : Valuation τ sig (Elt Ideal)) :
    after (seg2 (F := Ideal)) V (Proc.devRef .tc Cert.ReferenceIdeal.main_v61) = wA (V (Proc.devRef .tc Cert.ReferenceIdeal.main_arg7)) := by
  after_results_simp
  all_goals rfl
theorem ba (V : Valuation τ sig (Elt Ideal)) :
    after (seg2 (F := Ideal)) V (Proc.devRef .tc Cert.ReferenceIdeal.main_v63) = bV (V (Proc.devRef .tc Cert.ReferenceIdeal.main_arg8)) := by
  after_results_simp
  all_goals rfl
theorem wb (V : Valuation τ sig (Elt Ideal)) :
    after (seg2 (F := Ideal)) V (Proc.devRef .tc Cert.ReferenceIdeal.main_v65) = wB (V (Proc.devRef .tc Cert.ReferenceIdeal.main_arg9)) := by
  after_results_simp
  all_goals rfl
theorem bb (V : Valuation τ sig (Elt Ideal)) :
    after (seg2 (F := Ideal)) V (Proc.devRef .tc Cert.ReferenceIdeal.main_v67) = bV (V (Proc.devRef .tc Cert.ReferenceIdeal.main_arg10)) := by
  after_results_simp
  all_goals rfl

-- the fold through the stretch's sixteen operations is long to evaluate
set_option maxHeartbeats 1000000 in
/-- The stretch of the two products: its last value is the perceptron of the aggregate with the weights transposed
    and the bias vectors read as rows. -/
theorem y (V : Valuation τ sig (Elt Ideal)) :
    after (seg3 (F := Ideal)) V (Proc.devRef .tc Cert.ReferenceIdeal.main_v90)
      = Cert.GinMath.mlp36 (V (Proc.devRef .tc Cert.ReferenceIdeal.main_v78))
          (transpose S36x36 [1, 0] (V (Proc.devRef .tc Cert.ReferenceIdeal.main_v61)) transposes_S36x36_S36x36_1_0)
          (fun i => V (Proc.devRef .tc Cert.ReferenceIdeal.main_v63) (ix1 (i 1)))
          (transpose S36x36 [1, 0] (V (Proc.devRef .tc Cert.ReferenceIdeal.main_v65)) transposes_S36x36_S36x36_1_0)
          (fun i => V (Proc.devRef .tc Cert.ReferenceIdeal.main_v67) (ix1 (i 1))) := by
  after_results
  exact RefMlp.mlp36_eq _ _ _ _ _

end Cert.Bridge.Y2R

/-! ## The stage -/

namespace Cert.Bridge

open Idealize.ShloMosaic Idealize.SL.Sem Idealize.ShloMosaic.ValueIdx

/-- Region 1 against the reference's perceptron: from equal real aggregates, equal outputs with their per-tile
    sums, the output real. The two memories agree on the four weight arguments, which are real. -/
theorem stage_Y2
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hWA : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (hBA : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (hWB : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (hBB : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (rWA : IsReal (m ((c.tc : Thread Cert.KernelIdeal.nD Cert.KernelIdeal.τ).loc Cert.KernelIdeal.main_arg7)))
    (rBA : IsReal (m ((c.tc : Thread Cert.KernelIdeal.nD Cert.KernelIdeal.τ).loc Cert.KernelIdeal.main_arg8)))
    (rWB : IsReal (m ((c.tc : Thread Cert.KernelIdeal.nD Cert.KernelIdeal.τ).loc Cert.KernelIdeal.main_arg9)))
    (rBB : IsReal (m ((c.tc : Thread Cert.KernelIdeal.nD Cert.KernelIdeal.τ).loc Cert.KernelIdeal.main_arg10)))
    (hin : RelAgg (S := GinMath.N36) (Cert.KernelIdeal.Gen.W3 (F := Ideal) m ρ c (Proc.devRef .tc Cert.KernelIdeal.main_v71))
        (Cert.ReferenceIdeal.RefRun.R3 (F := Ideal) m' c (Proc.devRef .tc Cert.ReferenceIdeal.main_v78))) :
    RelY (Cert.KernelIdeal.Gen.W4 (F := Ideal) m ρ c (Proc.devRef .tc Cert.KernelIdeal.main_v84_0))
      (Cert.KernelIdeal.Gen.W4 (F := Ideal) m ρ c (Proc.devRef .tc Cert.KernelIdeal.main_v84_1))
      (Cert.KernelIdeal.Gen.W4 (F := Ideal) m ρ c (Proc.devRef .tc Cert.KernelIdeal.main_v84_2))
      (Cert.ReferenceIdeal.RefRun.R4 (F := Ideal) m' c (Proc.devRef .tc Cert.ReferenceIdeal.main_v90)) := by
  unfold RelAgg at hin
  obtain ⟨hA, hAr⟩ := hin
  -- the tiled side's four weight arrays, from its arguments
  have kWA : Cert.KernelIdeal.Gen.W3 (F := Ideal) m ρ c (Proc.devRef .tc Cert.KernelIdeal.main_v80)
      = transpose Cert.KernelIdeal.S36x36 [1, 0] (Y2K.wA (m ((c.tc : Thread Cert.KernelIdeal.nD Cert.KernelIdeal.τ).loc Cert.KernelIdeal.main_arg7))) Cert.KernelIdeal.Gen.transposes_S36x36_S36x36_1_0 :=
    (Y2K.wa (Cert.KernelIdeal.Gen.W2 m ρ c)).trans
      (congrArg (fun x => transpose Cert.KernelIdeal.S36x36 [1, 0] (Y2K.wA x) Cert.KernelIdeal.Gen.transposes_S36x36_S36x36_1_0) (karg_2 m ρ c Cert.KernelIdeal.main_arg7 (by decide)))
  have kBA : Cert.KernelIdeal.Gen.W3 (F := Ideal) m ρ c (Proc.devRef .tc Cert.KernelIdeal.main_v82)
      = shapeCast Cert.KernelIdeal.S1x36 (Y2K.bV (m ((c.tc : Thread Cert.KernelIdeal.nD Cert.KernelIdeal.τ).loc Cert.KernelIdeal.main_arg8))) Cert.KernelIdeal.Gen.shapeCasts_S36_S1x36 :=
    (Y2K.ba (Cert.KernelIdeal.Gen.W2 m ρ c)).trans
      (congrArg (fun x => shapeCast Cert.KernelIdeal.S1x36 (Y2K.bV x) Cert.KernelIdeal.Gen.shapeCasts_S36_S1x36) (karg_2 m ρ c Cert.KernelIdeal.main_arg8 (by decide)))
  have kWB : Cert.KernelIdeal.Gen.W3 (F := Ideal) m ρ c (Proc.devRef .tc Cert.KernelIdeal.main_v81)
      = transpose Cert.KernelIdeal.S36x36 [1, 0] (Y2K.wB (m ((c.tc : Thread Cert.KernelIdeal.nD Cert.KernelIdeal.τ).loc Cert.KernelIdeal.main_arg9))) Cert.KernelIdeal.Gen.transposes_S36x36_S36x36_1_0 :=
    (Y2K.wb (Cert.KernelIdeal.Gen.W2 m ρ c)).trans
      (congrArg (fun x => transpose Cert.KernelIdeal.S36x36 [1, 0] (Y2K.wB x) Cert.KernelIdeal.Gen.transposes_S36x36_S36x36_1_0) (karg_2 m ρ c Cert.KernelIdeal.main_arg9 (by decide)))
  have kBB : Cert.KernelIdeal.Gen.W3 (F := Ideal) m ρ c (Proc.devRef .tc Cert.KernelIdeal.main_v83)
      = shapeCast Cert.KernelIdeal.S1x36 (Y2K.bV (m ((c.tc : Thread Cert.KernelIdeal.nD Cert.KernelIdeal.τ).loc Cert.KernelIdeal.main_arg10))) Cert.KernelIdeal.Gen.shapeCasts_S36_S1x36 :=
    (Y2K.bb (Cert.KernelIdeal.Gen.W2 m ρ c)).trans
      (congrArg (fun x => shapeCast Cert.KernelIdeal.S1x36 (Y2K.bV x) Cert.KernelIdeal.Gen.shapeCasts_S36_S1x36) (karg_2 m ρ c Cert.KernelIdeal.main_arg10 (by decide)))
  -- the reference's four, from its arguments
  have sWA : Cert.ReferenceIdeal.RefRun.R3 (F := Ideal) m' c (Proc.devRef .tc Cert.ReferenceIdeal.main_v61) = Y2R.wA (m' ((c.tc : Thread Cert.ReferenceIdeal.nD Cert.ReferenceIdeal.τ).loc Cert.ReferenceIdeal.main_arg7)) :=
    (Y2R.wa (Cert.ReferenceIdeal.RefRun.R2 m' c)).trans (congrArg Y2R.wA (rarg_2 m' c Cert.ReferenceIdeal.main_arg7 (by decide)))
  have sBA : Cert.ReferenceIdeal.RefRun.R3 (F := Ideal) m' c (Proc.devRef .tc Cert.ReferenceIdeal.main_v63) = Y2R.bV (m' ((c.tc : Thread Cert.ReferenceIdeal.nD Cert.ReferenceIdeal.τ).loc Cert.ReferenceIdeal.main_arg8)) :=
    (Y2R.ba (Cert.ReferenceIdeal.RefRun.R2 m' c)).trans (congrArg Y2R.bV (rarg_2 m' c Cert.ReferenceIdeal.main_arg8 (by decide)))
  have sWB : Cert.ReferenceIdeal.RefRun.R3 (F := Ideal) m' c (Proc.devRef .tc Cert.ReferenceIdeal.main_v65) = Y2R.wB (m' ((c.tc : Thread Cert.ReferenceIdeal.nD Cert.ReferenceIdeal.τ).loc Cert.ReferenceIdeal.main_arg9)) :=
    (Y2R.wb (Cert.ReferenceIdeal.RefRun.R2 m' c)).trans (congrArg Y2R.wB (rarg_2 m' c Cert.ReferenceIdeal.main_arg9 (by decide)))
  have sBB : Cert.ReferenceIdeal.RefRun.R3 (F := Ideal) m' c (Proc.devRef .tc Cert.ReferenceIdeal.main_v67) = Y2R.bV (m' ((c.tc : Thread Cert.ReferenceIdeal.nD Cert.ReferenceIdeal.τ).loc Cert.ReferenceIdeal.main_arg10)) :=
    (Y2R.bb (Cert.ReferenceIdeal.RefRun.R2 m' c)).trans (congrArg Y2R.bV (rarg_2 m' c Cert.ReferenceIdeal.main_arg10 (by decide)))
  -- the reference's output is the perceptron of its five arrays
  have hy := Y2R.y (Cert.ReferenceIdeal.RefRun.R3 (F := Ideal) m' c)
  rw [sWA, sBA, sWB, sBB] at hy
  -- the tiled side's three outputs are the perceptron of its five arrays, and its per-tile sums
  have k0 := (Cert.KernelIdeal.Gen.W4_arr (F := Ideal) m ρ c 5).trans (Cert.KernelIdeal.Reg1.y_eq (Cert.KernelIdeal.Gen.V3 m ρ) c)
  have k1 := (Cert.KernelIdeal.Gen.W4_arr (F := Ideal) m ρ c 6).trans (Cert.KernelIdeal.Reg1.s_eq (Cert.KernelIdeal.Gen.V3 m ρ) c)
  have k2 := (Cert.KernelIdeal.Gen.W4_arr (F := Ideal) m ρ c 7).trans (Cert.KernelIdeal.Reg1.ss_eq (Cert.KernelIdeal.Gen.V3 m ρ) c)
  -- the two perceptrons are the same
  have e : Cert.KernelIdeal.Reg1.Y (Cert.KernelIdeal.Gen.V3 (F := Ideal) m ρ) c
      = Cert.ReferenceIdeal.RefRun.R4 (F := Ideal) m' c (Proc.devRef .tc Cert.ReferenceIdeal.main_v90) := by
    refine Eq.trans ?_ hy.symm
    refine mlp36_congr hA ?_ ?_ ?_ ?_
    · exact kWA.trans (congrArg (fun x => transpose Cert.ReferenceIdeal.S36x36 [1, 0] (Y2R.wA x) Cert.ReferenceIdeal.Gen.transposes_S36x36_S36x36_1_0) hWA.symm)
    · exact (kBA.trans (Cert.KernelIdeal.RowReshape.row_reshape _ _)).trans
        (congrArg (fun x => fun i : GinMath.R36.Idx => Y2R.bV x (ix1 (i 1))) hBA.symm)
    · exact kWB.trans (congrArg (fun x => transpose Cert.ReferenceIdeal.S36x36 [1, 0] (Y2R.wB x) Cert.ReferenceIdeal.Gen.transposes_S36x36_S36x36_1_0) hWB.symm)
    · exact (kBB.trans (Cert.KernelIdeal.RowReshape.row_reshape _ _)).trans
        (congrArg (fun x => fun i : GinMath.R36.Idx => Y2R.bV x (ix1 (i 1))) hBB.symm)
  -- the reference's output is real: a perceptron of real arrays
  have hr : IsReal (S := GinMath.N36) (Cert.ReferenceIdeal.RefRun.R4 (F := Ideal) m' c (Proc.devRef .tc Cert.ReferenceIdeal.main_v90)) :=
    IsReal.of_eq (isReal_mlp36 hAr
      (IsReal.of_eq (((rWA.slice _ _).reshape _).transpose _ _) kWA.symm)
      (IsReal.of_eq (((rBA.slice _ _).reshape _).reshape _) kBA.symm)
      (IsReal.of_eq (((rWB.slice _ _).reshape _).transpose _ _) kWB.symm)
      (IsReal.of_eq (((rBB.slice _ _).reshape _).reshape _) kBB.symm)) e
  unfold RelY
  exact ⟨k0.trans e, k1.trans (congrArg GinMath.tileSums e),
    k2.trans (congrArg (fun y => GinMath.tileSums (GinMath.sq y)) e), hr⟩

end Cert.Bridge

end
-- ==== Proof.StageB2.lean ====
/-
  From a layer's output to the next layer's aggregate, in both programs. Both normalise the layer's output y by its
  column means and variances, scale and shift it by a row of each of the two parameter arrays, and add to every node
  row the rows of its in-neighbours. One takes the means and variances from the per-tile partial column sums of y
  and y² that its tiled layer left beside y, the other from y itself; for real y the two agree. One sends the
  normalised rows through a narrower float format on their way to the neighbours, which on extended reals changes
  nothing. The aggregate is an array of reals.
-/
import proofs.«408188_j34256659153341_2_alg».proof.Proof.FrameKI
import proofs.«408188_j34256659153341_2_alg».proof.Proof.KOpsGood
import proofs.«408188_j34256659153341_2_alg».proof.Proof.RefChain
import proofs.«408188_j34256659153341_2_alg».proof.Proof.BridgeArgs
import proofs.«408188_j34256659153341_2_alg».proof.Proof.BridgeDefs
import proofs.«408188_j34256659153341_2_alg».proof.Proof.BnAgg
import proofs.«408188_j34256659153341_2_alg».proof.Proof.EdgeRows

set_option maxRecDepth 16384

noncomputable section

namespace Cert.Bridge

open Idealize.ShloMosaic Idealize.SL.Sem Idealize.ShloMosaic.StableHlo

/-! ## The tiled program's host stretch -/
section Kernel

open Cert.KernelIdeal Cert.KernelIdeal.Gen

set_option maxHeartbeats 1600000 in
/-- The stretch's aggregate in terms of what it reads: the layer's three arrays, the two parameter arrays and the two
    rows of edge endpoints. -/
theorem kB2_eval (V : Valuation τ sig (Elt Ideal))
    (y : FVec Ideal GinMath.N36 .f32) (s ss : FVec Ideal GinMath.P36 .f32) (a15 a16 : FVec Ideal BnAgg.A3 .f32)
    (src dst : IVec BnAgg.E 32)
    (hy : V (Proc.devRef .tc main_v84_0) = y) (hs : V (Proc.devRef .tc main_v84_1) = s)
    (hss : V (Proc.devRef .tc main_v84_2) = ss)
    (h15 : V (Proc.devRef .tc main_arg15) = a15) (h16 : V (Proc.devRef .tc main_arg16) = a16)
    (hsrc : V (Proc.devRef .tc main_v1) = src) (hdst : V (Proc.devRef .tc main_v3) = dst) :
    (after (hostOps2 (F := Ideal)) V (Proc.devRef .tc main_v124) : GinMath.N36.Idx → EReal)
      = BnAgg.aggK (by decide) (by decide) (by decide)
          gather_S100000x36_S1600000x1_S1600000x36_1_0_n_n_0_1_136 scatter_S100000x36_S1600000x1_S1600000x36_1_0_0_1
          (by decide)
          (BnAgg.bn (by decide) (by decide) (by decide)
            (BnAgg.meanK (by decide) (by decide) (by decide) s) (BnAgg.varK (by decide) (by decide) (by decide) s ss)
            (BnAgg.rowOf ![0, 1, 0] (by decide) (by decide) a15) (BnAgg.rowOf ![0, 1, 0] (by decide) (by decide) a16) y)
          src dst := by
  subst hy hs hss h15 h16 hsrc hdst
  after_results_simp
  unfold BnAgg.aggK BnAgg.bn BnAgg.varK BnAgg.meanK BnAgg.rowOf BnAgg.wrap
  rfl

end Kernel

/-! ## The plain program's segment -/
section Reference

open Cert.ReferenceIdeal Cert.ReferenceIdeal.Gen Cert.ReferenceIdeal.RefRun

set_option maxHeartbeats 1600000 in
/-- The segment's aggregate in terms of what it reads: the layer's output, the two parameter arrays and the two rows
    of edge endpoints. -/
theorem rB2_eval (V : Valuation τ sig (Elt Ideal))
    (y : FVec Ideal GinMath.N36 .f32) (a15 a16 : FVec Ideal BnAgg.A3 .f32) (src dst : IVec BnAgg.E 32)
    (hy : V (Proc.devRef .tc main_v90) = y)
    (h15 : V (Proc.devRef .tc main_arg15) = a15) (h16 : V (Proc.devRef .tc main_arg16) = a16)
    (hsrc : V (Proc.devRef .tc main_v1) = src) (hdst : V (Proc.devRef .tc main_v3) = dst) :
    (after (seg4 (F := Ideal)) V (Proc.devRef .tc main_v132) : GinMath.N36.Idx → EReal)
      = BnAgg.agg (by decide) (by decide) (by decide)
          gather_S100000x36_S1600000x1_S1600000x36_1_0_n_n_0_1_136 scatter_S100000x36_S1600000x1_S1600000x36_1_0_0_1
          (BnAgg.bn (by decide) (by decide) (by decide)
            (BnAgg.meanR (by decide) (by decide) (by decide) y)
            (BnAgg.varR (by decide) (by decide) (by decide) (by decide) (by decide) (by decide) y)
            (BnAgg.rowOf ![0, 1, 0] (by decide) (by decide) a15) (BnAgg.rowOf ![0, 1, 0] (by decide) (by decide) a16) y)
          src dst := by
  subst hy h15 h16 hsrc hdst
  after_results_simp
  unfold BnAgg.agg BnAgg.bn BnAgg.varR BnAgg.meanR BnAgg.rowOf BnAgg.wrap
  rfl

end Reference

/-! ## The stage -/

/-- If at the tiled layer's exit its output, partial sums and partial sums of squares stand in the layer relation to
    the plain program's output, then after the next host stretch and the next segment the two aggregates are the same
    array of reals. The two programs' memories agree on the edge endpoints and on the two parameter arrays, and the
    parameter arrays are real. -/
theorem stage_B2
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h15 : m' ((c.tc : Thread Cert.ReferenceIdeal.nD Cert.ReferenceIdeal.τ).loc Cert.ReferenceIdeal.main_arg15)
      = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16)
      = m ((c.tc : Thread Cert.KernelIdeal.nD Cert.KernelIdeal.τ).loc Cert.KernelIdeal.main_arg16))
    (hr15 : IsReal (S := BnAgg.A3) (m ((c.tc : Thread Cert.KernelIdeal.nD Cert.KernelIdeal.τ).loc Cert.KernelIdeal.main_arg15)))
    (hr16 : IsReal (S := BnAgg.A3) (m ((c.tc : Thread Cert.KernelIdeal.nD Cert.KernelIdeal.τ).loc Cert.KernelIdeal.main_arg16)))
    (hin : RelY (Cert.KernelIdeal.Gen.W4 (F := Ideal) m ρ c (Proc.devRef .tc Cert.KernelIdeal.main_v84_0))
      (Cert.KernelIdeal.Gen.W4 (F := Ideal) m ρ c (Proc.devRef .tc Cert.KernelIdeal.main_v84_1))
      (Cert.KernelIdeal.Gen.W4 (F := Ideal) m ρ c (Proc.devRef .tc Cert.KernelIdeal.main_v84_2))
      (Cert.ReferenceIdeal.RefRun.R4 (F := Ideal) m' c (Proc.devRef .tc Cert.ReferenceIdeal.main_v90))) :
    RelAgg (S := GinMath.N36)
      (Cert.KernelIdeal.Gen.W5 (F := Ideal) m ρ c (Proc.devRef .tc Cert.KernelIdeal.main_v124))
      (Cert.ReferenceIdeal.RefRun.R5 (F := Ideal) m' c (Proc.devRef .tc Cert.ReferenceIdeal.main_v132)) := by
  obtain ⟨hy, hs, hss, hre⟩ := hin
  have hK := kB2_eval (Cert.KernelIdeal.Gen.W4 (F := Ideal) m ρ c) _ _ _ _ _ _ _ hy hs hss
    (karg_4 m ρ c Cert.KernelIdeal.main_arg15 (by decide)) (karg_4 m ρ c Cert.KernelIdeal.main_arg16 (by decide))
    (ksrc0_4 m ρ c) (kdst0_4 m ρ c)
  have hR := rB2_eval (Cert.ReferenceIdeal.RefRun.R4 (F := Ideal) m' c) _ _ _ _ _ rfl
    ((rarg_4 m' c Cert.ReferenceIdeal.main_arg15 (by decide)).trans h15)
    ((rarg_4 m' c Cert.ReferenceIdeal.main_arg16 (by decide)).trans h16)
    ((rsrc0_4 m' c).trans (congrArg _ h1)) ((rdst0_4 m' c).trans (congrArg _ h1))
  rw [← gather36_eq, ← scatter36_eq] at hR
  have hKR := BnAgg.aggK_eq_aggR (by decide) (by decide) (by decide) (by decide) (by decide) (by decide) (by decide)
    (by decide) (by decide) (by decide)
    Cert.KernelIdeal.gather_S100000x36_S1600000x1_S1600000x36_1_0_n_n_0_1_136
    Cert.KernelIdeal.scatter_S100000x36_S1600000x1_S1600000x36_1_0_0_1 hre
    (BnAgg.rowOf ![0, 1, 0] (by decide) (by decide) (m ((c.tc : Thread Cert.KernelIdeal.nD Cert.KernelIdeal.τ).loc Cert.KernelIdeal.main_arg15)))
    (BnAgg.rowOf ![0, 1, 0] (by decide) (by decide) (m ((c.tc : Thread Cert.KernelIdeal.nD Cert.KernelIdeal.τ).loc Cert.KernelIdeal.main_arg16)))
    (BnAgg.edgeRow ![0, 0, 0] (by decide) (by decide) (m ((c.tc : Thread Cert.KernelIdeal.nD Cert.KernelIdeal.τ).loc Cert.KernelIdeal.main_arg1)))
    (BnAgg.edgeRow ![0, 1, 0] (by decide) (by decide) (m ((c.tc : Thread Cert.KernelIdeal.nD Cert.KernelIdeal.τ).loc Cert.KernelIdeal.main_arg1)))
  have hreal := BnAgg.aggR_real (by decide) (by decide) (by decide) (by decide) (by decide) (by decide)
    (by decide) (by decide) (by decide)
    Cert.KernelIdeal.gather_S100000x36_S1600000x1_S1600000x36_1_0_n_n_0_1_136
    Cert.KernelIdeal.scatter_S100000x36_S1600000x1_S1600000x36_1_0_0_1 hre
    (BnAgg.rowOf_real ![0, 1, 0] (by decide) (by decide) hr15) (BnAgg.rowOf_real ![0, 1, 0] (by decide) (by decide) hr16)
    (BnAgg.edgeRow ![0, 0, 0] (by decide) (by decide) (m ((c.tc : Thread Cert.KernelIdeal.nD Cert.KernelIdeal.τ).loc Cert.KernelIdeal.main_arg1)))
    (BnAgg.edgeRow ![0, 1, 0] (by decide) (by decide) (m ((c.tc : Thread Cert.KernelIdeal.nD Cert.KernelIdeal.τ).loc Cert.KernelIdeal.main_arg1)))
  have hKeq := (hK.trans (BnAgg.aggK_eq_agg (by decide) (by decide) (by decide)
    Cert.KernelIdeal.gather_S100000x36_S1600000x1_S1600000x36_1_0_n_n_0_1_136
    Cert.KernelIdeal.scatter_S100000x36_S1600000x1_S1600000x36_1_0_0_1 (by decide) _ _ _)).trans hKR
  refine ⟨hKeq.trans hR.symm, fun i => ?_⟩
  obtain ⟨r, hr⟩ := hreal i
  exact ⟨r, (congrFun hKeq i).trans hr⟩

end Cert.Bridge

end
-- ==== Proof.Reg2Pay.lean ====
/-
  One tile of the two-layer perceptron, entry by entry, on extended reals.

  A tile is 5000 node rows x of 36 features. One layer sends it to max(x·W + b, 0): entry (p, q) is
  max(Σ_k x(p,k)·W(k,q) + b(0,q), 0); the formats the products pass through change nothing at exact arithmetic.
  The tile's output y is two such layers. Besides y the tile yields two 8-row strips: row 0 of the first is the
  column sums of y over the tile's 5000 rows, row 0 of the second the column sums of y·y, and rows 1–7 are zero.
-/
import proofs.«408188_j34256659153341_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Reg2

open Idealize.ShloMosaic Idealize.ShloMosaic.ValueIdx Cert.KernelIdeal Cert.KernelIdeal.Gen

/-! ## The matrix product at an entry -/

/-- On the left operand's row axis the product reads the entry's row. -/
theorem lhs_ax0 (j : S5000x36.Idx) (k : dot_S5000x36_S36x36_S5000x36_1_0_0_1_n_n.contr.Idx) :
    (dot_S5000x36_S36x36_S5000x36_1_0_0_1_n_n.lhsIdx j k (0 : Fin 2)).val = (j 0).val := by
  unfold DotDims.lhsIdx
  rw [dif_neg (show ¬ (0 : Fin S5000x36.rank) ∈ dot_S5000x36_S36x36_S5000x36_1_0_0_1_n_n.lhsBatch by decide),
    dif_pos (show (0 : Fin S5000x36.rank) ∈ dot_S5000x36_S36x36_S5000x36_1_0_0_1_n_n.lhsNonContracting by decide)]
  rfl

/-- On the left operand's column axis it reads the summation index. -/
theorem lhs_ax1 (j : S5000x36.Idx) (k : dot_S5000x36_S36x36_S5000x36_1_0_0_1_n_n.contr.Idx) :
    (dot_S5000x36_S36x36_S5000x36_1_0_0_1_n_n.lhsIdx j k (1 : Fin 2)).val = (k ⟨0, by decide⟩).val :=
  dot_S5000x36_S36x36_S5000x36_1_0_0_1_n_n.lhsIdx_val_of_single (cl := (1 : Fin 2)) rfl j k

/-- On the right operand's row axis it reads the summation index. -/
theorem rhs_ax0 (j : S5000x36.Idx) (k : dot_S5000x36_S36x36_S5000x36_1_0_0_1_n_n.contr.Idx) :
    (dot_S5000x36_S36x36_S5000x36_1_0_0_1_n_n.rhsIdx j k (0 : Fin 2)).val = (k ⟨0, by decide⟩).val :=
  dot_S5000x36_S36x36_S5000x36_1_0_0_1_n_n.rhsIdx_val_of_single (cr := (0 : Fin 2)) rfl j k

/-- On the right operand's column axis it reads the entry's column. -/
theorem rhs_ax1 (j : S5000x36.Idx) (k : dot_S5000x36_S36x36_S5000x36_1_0_0_1_n_n.contr.Idx) :
    (dot_S5000x36_S36x36_S5000x36_1_0_0_1_n_n.rhsIdx j k (1 : Fin 2)).val = (j 1).val := by
  unfold DotDims.rhsIdx
  rw [dif_neg (show ¬ (1 : Fin S36x36.rank) ∈ dot_S5000x36_S36x36_S5000x36_1_0_0_1_n_n.rhsBatch by decide),
    dif_pos (show (1 : Fin S36x36.rank) ∈ dot_S5000x36_S36x36_S5000x36_1_0_0_1_n_n.rhsNonContracting by decide)]
  rfl

/-- A [5000,36] by [36,36] product into a zero accumulator, at entry (p, q): Σ_k l(p,k)·r(k,q). -/
theorem matmul_entry {φ₁ φ₂ : FTy} (l : FVec Ideal S5000x36 φ₁) (r : FVec Ideal S36x36 φ₂) (p : Fin 5000) (q : Fin 36) :
    matmul dot_S5000x36_S36x36_S5000x36_1_0_0_1_n_n none l r (constant (F := Ideal) S5000x36 .f32 0x00000000#32) (ix2 p q)
      = ∑ k : Fin 36, l (ix2 p k) * r (ix2 k q) := by
  refine (Ideal.matmul_constant_zero_apply dot_S5000x36_S36x36_S5000x36_1_0_0_1_n_n none l r (ix2 p q)).trans ?_
  rw [← Equiv.sum_comp (contrEquiv1 dot_S5000x36_S36x36_S5000x36_1_0_0_1_n_n 36 rfl rfl).symm]
  refine Finset.sum_congr rfl fun k _ => ?_
  have hk := contrEquiv1_symm_val dot_S5000x36_S36x36_S5000x36_1_0_0_1_n_n 36 rfl rfl k
  congr 1
  · refine congrArg l (funext fun a => Fin.ext ?_)
    match a with
    | ⟨0, _⟩ => exact lhs_ax0 _ _
    | ⟨1, _⟩ => exact (lhs_ax1 _ _).trans hk
  · refine congrArg r (funext fun a => Fin.ext ?_)
    match a with
    | ⟨0, _⟩ => exact (rhs_ax0 _ _).trans hk
    | ⟨1, _⟩ => exact rhs_ax1 _ _

/-! ## One layer of the perceptron on a tile -/

/-- One layer on a tile of 5000 rows: max(x·W + b, 0), the product taken through the narrower format. -/
def layer (x : FVec Ideal S5000x36 .f32) (w : FVec Ideal S36x36 .f32) (b : FVec Ideal S1x36 .f32) : FVec Ideal S5000x36 .f32 :=
  maximumf
    (addf
      (matmul dot_S5000x36_S36x36_S5000x36_1_0_0_1_n_n none (truncf .bf16 x bitsLt_bf16_f32)
        (truncf .bf16 (shapeCast S36x36 w shapeCasts_S36x36_S36x36) bitsLt_bf16_f32) (constant S5000x36 .f32 0x00000000#32))
      (broadcastTo S5000x36 (shapeCast S1x36 b shapeCasts_S1x36_S1x36) broadcasts_S1x36_S5000x36))
    (broadcast S5000x36 (Scalar.ofBits .f32 0x00000000#32))

/-- Entry (p, q) of a layer: max(Σ_k x(p,k)·W(k,q) + b(0,q), 0). -/
theorem layer_entry (x : FVec Ideal S5000x36 .f32) (w : FVec Ideal S36x36 .f32) (b : FVec Ideal S1x36 .f32) (p : Fin 5000) (q : Fin 36) :
    layer x w b (ix2 p q) = max ((∑ k : Fin 36, x (ix2 p k) * w (ix2 k q)) + b (ix2 0 q)) 0 := by
  show max (matmul dot_S5000x36_S36x36_S5000x36_1_0_0_1_n_n none (truncf .bf16 x bitsLt_bf16_f32)
        (truncf .bf16 (shapeCast S36x36 w shapeCasts_S36x36_S36x36) bitsLt_bf16_f32) (constant (F := Ideal) S5000x36 .f32 0x00000000#32) (ix2 p q)
      + broadcastTo S5000x36 (shapeCast S1x36 b shapeCasts_S1x36_S1x36) broadcasts_S1x36_S5000x36 (ix2 p q)) (Ideal.ofBits .f32 0x00000000#32) = _
  rw [matmul_entry, broadcastTo_1b_ab_apply, shapeCast_self, shapeCast_self, Ideal.ofBits_zero_f32]
  rfl

/-- The tile's output is two layers. -/
theorem pay2_eq (x0 : Vec Ideal S5000x36 .f32) (x1 : Vec Ideal S36x36 .f32) (x2 : Vec Ideal S1x36 .f32) (x3 : Vec Ideal S36x36 .f32) (x4 : Vec Ideal S1x36 .f32) :
    k2_pay2 x0 x1 x2 x3 x4 = layer (layer x0 x1 x2) x3 x4 := by
  unfold k2_pay2
  rw [shapeCast_self]
  rfl

/-- Entry (p, q) of the tile's output. -/
theorem pay2_entry (x0 : Vec Ideal S5000x36 .f32) (x1 : Vec Ideal S36x36 .f32) (x2 : Vec Ideal S1x36 .f32) (x3 : Vec Ideal S36x36 .f32) (x4 : Vec Ideal S1x36 .f32)
    (p : Fin 5000) (q : Fin 36) :
    k2_pay2 x0 x1 x2 x3 x4 (ix2 p q)
      = max ((∑ k : Fin 36, max ((∑ j : Fin 36, x0 (ix2 p j) * x1 (ix2 j k)) + x2 (ix2 0 k)) 0 * x3 (ix2 k q)) + x4 (ix2 0 q)) 0 := by
  rw [pay2_eq, layer_entry]
  simp only [layer_entry]

/-! ## The strips of column sums -/

/-- A select on "row r is row 0", r below 8, is the `if` on r. -/
theorem select_row0 {α : Type} (h : Nat) (hh : h < 8) (A B : α) :
    Scalar.select (IntOp.cmpi .eq (BitVec.ofNat 32 h) 0#32) A B = if h = 0 then A else B := by
  interval_cases h <;> rfl

/-- The 8-row strip made from a tile Y: its column sums laid on row 0, zero on the other rows. -/
def strip (Y : FVec Ideal S5000x36 .f32) : FVec Ideal S8x36 .f32 :=
  select (cmpi .eq (iota .tc S8x36 32 [0] iota_S8x36_d0_w32) (broadcast S8x36 0#32))
    (broadcastTo S8x36 (shapeCast S1x36 (shapeCast S1x36 (multiReduction .add [0] S36 Y 0x00000000#32 reduces_S5000x36_S36 (.inl rfl) rfl) shapeCasts_S36_S1x36) shapeCasts_S1x36_S1x36) broadcasts_S1x36_S8x36)
    (broadcast S8x36 (Scalar.ofBits .f32 0x00000000#32))

/-- Entry (r, q) of a strip: Σ_n Y(n, q) on row 0, zero below. -/
theorem strip_entry (Y : FVec Ideal S5000x36 .f32) (r : Fin 8) (q : Fin 36) :
    strip Y (ix2 r q) = if r.val = 0 then ∑ n : Fin 5000, Y (ix2 n q) else 0 := by
  show Scalar.select (IntOp.cmpi .eq (iota .tc S8x36 32 [0] iota_S8x36_d0_w32 (ix2 r q)) 0#32)
      (broadcastTo S8x36 (shapeCast S1x36 (shapeCast S1x36 (multiReduction .add [0] S36 Y 0x00000000#32 reduces_S5000x36_S36 (.inl rfl) rfl) shapeCasts_S36_S1x36) shapeCasts_S1x36_S1x36) broadcasts_S1x36_S8x36 (ix2 r q))
      (Ideal.ofBits .f32 0x00000000#32) = _
  rw [iota_single_apply]
  show Scalar.select (IntOp.cmpi .eq (BitVec.ofNat 32 r.val) 0#32) _ _ = _
  rw [select_row0 r.val r.isLt, broadcastTo_1b_ab_apply, shapeCast_self, shapeCast_a_1a_apply, Ideal.ofBits_zero_f32]
  refine if_congr Iff.rfl ?_ rfl
  refine (Ideal.multiReduction_add_single Y 0x00000000#32 reduces_S5000x36_S36 (.inl rfl) rfl (ix1 q)).trans ?_
  refine Finset.sum_congr rfl fun n _ => congrArg Y (funext fun a => Fin.ext ?_)
  match a with
  | ⟨0, _⟩ => rfl
  | ⟨1, _⟩ => rfl

/-- The first strip is made from the tile's output. -/
theorem pay4_eq (x0 : Vec Ideal S5000x36 .f32) (x1 : Vec Ideal S36x36 .f32) (x2 : Vec Ideal S1x36 .f32) (x3 : Vec Ideal S36x36 .f32) (x4 : Vec Ideal S1x36 .f32) :
    k2_pay4 x0 x1 x2 x3 x4 = strip (k2_pay2 x0 x1 x2 x3 x4) := rfl

/-- The second strip is made from the squares of the tile's output. -/
theorem pay1_eq (x0 : Vec Ideal S5000x36 .f32) (x1 : Vec Ideal S36x36 .f32) (x2 : Vec Ideal S1x36 .f32) (x3 : Vec Ideal S36x36 .f32) (x4 : Vec Ideal S1x36 .f32) :
    k2_pay1 (k2_pay3 x0 x1 x2 x3 x4) (iota .tc S8x36 32 [0] iota_S8x36_d0_w32)
      = strip (mulf (k2_pay2 x0 x1 x2 x3 x4) (k2_pay2 x0 x1 x2 x3 x4)) := rfl

end Cert.KernelIdeal.Reg2

end
-- ==== Proof.Reg2Point.lean ====
/-
  One tile of the perceptron against the whole-array functions.

  Tile t holds node rows 5000·t … 5000·t + 4999. If a tile's input block is those rows of the feature array A and the
  four parameter blocks are the whole parameter arrays, then the tile's output at (p, q) is the perceptron's value at
  node row 5000·t + p, column q; the tile's first strip is rows 8·t … 8·t + 7 of the partial column sums of the
  perceptron's output, and its second strip those rows of the partial column sums of the squares.
-/
import proofs.«408188_j34256659153341_2_alg».proof.Proof.GinMath
import proofs.«408188_j34256659153341_2_alg».proof.Proof.TileSum
import proofs.«408188_j34256659153341_2_alg».proof.Proof.Reg2Pay

noncomputable section

open scoped BigOperators

namespace Cert.KernelIdeal.Reg2

open Idealize.ShloMosaic Idealize.ShloMosaic.ValueIdx Cert.KernelIdeal Cert.KernelIdeal.Gen Cert.GinMath

variable (A : N36.Idx → EReal) (WA : W36.Idx → EReal) (BA : R36.Idx → EReal) (WB : W36.Idx → EReal) (BB : R36.Idx → EReal)

/-- The tile's output at (p, q) is the perceptron at node row n, column q, when the tile's row p is row n of A. -/
theorem pay2_mlp (x0 : Vec Ideal S5000x36 .f32) (x1 : Vec Ideal S36x36 .f32) (x2 : Vec Ideal S1x36 .f32) (x3 : Vec Ideal S36x36 .f32) (x4 : Vec Ideal S1x36 .f32)
    (h1 : x1 = WA) (h2 : x2 = BA) (h3 : x3 = WB) (h4 : x4 = BB)
    (p : Fin 5000) (q : Fin 36) (n : Fin 100000) (h0 : ∀ k : Fin 36, x0 (ix2 p k) = A (ix2 n k)) :
    k2_pay2 x0 x1 x2 x3 x4 (ix2 p q) = mlp36 A WA BA WB BB (ix2 n q) := by
  subst h1 h2 h3 h4
  rw [pay2_entry]
  simp only [h0]
  rfl

/-- The same at indices given by their coordinates' values. -/
theorem blk5_point (x0 : Vec Ideal S5000x36 .f32) (x1 : Vec Ideal S36x36 .f32) (x2 : Vec Ideal S1x36 .f32) (x3 : Vec Ideal S36x36 .f32) (x4 : Vec Ideal S1x36 .f32)
    (h1 : x1 = WA) (h2 : x2 = BA) (h3 : x3 = WB) (h4 : x4 = BB)
    (t : ℕ) (h0 : ∀ (b : Fin 5000) (k : Fin 36) (n : Fin 100000), n.val = 5000 * t + b.val → x0 (ix2 b k) = A (ix2 n k))
    (y : S5000x36.Idx) (i : N36.Idx) (hi0 : (i 0).val = 5000 * t + (y 0).val) (hi1 : (i 1).val = (y 1).val) :
    k2_pay2 x0 x1 x2 x3 x4 y = mlp36 A WA BA WB BB i := by
  obtain ⟨p, q, rfl⟩ : ∃ (p : Fin 5000) (q : Fin 36), y = ix2 p q := ⟨y 0, y 1, eq_ix2 y⟩
  obtain ⟨n, d, rfl⟩ : ∃ (n : Fin 100000) (d : Fin 36), i = ix2 n d := ⟨i 0, i 1, eq_ix2 i⟩
  obtain rfl : d = q := Fin.ext hi1
  exact pay2_mlp A WA BA WB BB x0 x1 x2 x3 x4 h1 h2 h3 h4 p d n fun k => h0 p k n hi0

/-- A strip of tile t is rows 8·t … 8·t + 7 of the partial sums by tile of the array Y the tile is cut from. -/
theorem strip_tileSums (Y : N36.Idx → EReal) (Yt : FVec Ideal S5000x36 .f32) (t : ℕ) (ht : t < 20)
    (hY : ∀ (b : Fin 5000) (q : Fin 36), Yt (ix2 b q) = Y (ix2 ⟨5000 * t + b.val, by have := b.isLt; omega⟩ q))
    (y : S8x36.Idx) (i : P36.Idx) (hi0 : (i 0).val = 8 * t + (y 0).val) (hi1 : (i 1).val = (y 1).val) :
    strip Yt y = tileSums Y i := by
  obtain ⟨r, q, rfl⟩ : ∃ (r : Fin 8) (q : Fin 36), y = ix2 r q := ⟨y 0, y 1, eq_ix2 y⟩
  obtain ⟨g, d, rfl⟩ : ∃ (g : Fin 160) (d : Fin 36), i = ix2 g d := ⟨i 0, i 1, eq_ix2 i⟩
  obtain rfl : d = q := Fin.ext hi1
  have hg : g.val = 8 * t + r.val := hi0
  have hr := r.isLt
  rw [strip_entry]
  show _ = if g.val % 8 = 0 then ∑ n : Fin 100000, (if n.val / 5000 = g.val / 8 then Y (ix2 n d) else 0) else 0
  rw [show g.val / 8 = t by omega]
  refine if_congr (by omega) ?_ rfl
  rw [Cert.TileSum.sum_tile (fun n => Y (ix2 n d)) t ht]
  exact Finset.sum_congr rfl fun b _ => hY b d

end Cert.KernelIdeal.Reg2

end
-- ==== Proof.Reg2Value.lean ====
/-
  What the perceptron's pipeline leaves in its three output arrays, as whole-array functions of the five arrays it reads.

  The grid has 20 points; point t reads rows 5000·t … 5000·t + 4999 of the feature array and the four parameter arrays
  whole, and writes back rows 5000·t … 5000·t + 4999 of y and rows 8·t … 8·t + 7 of the two arrays of partial sums.
  Every written block is the matching block of one whole-array function (the perceptron; its partial column sums by
  tile; those of its squares), and the blocks of the 20 points cover each output array, so the arrays end at those
  functions.
-/
import proofs.«408188_j34256659153341_2_alg».proof.Proof.FrameKI
import proofs.«408188_j34256659153341_2_alg».proof.Proof.Reg2Point
import Idealize.ShloMosaic.Lib.Pipeline.Value

noncomputable section

open scoped BigOperators

open Idealize.ShloMosaic Idealize.ShloMosaic.TcCoe Idealize.SL.Sem Idealize.ShloMosaic.ValueIdx
open Idealize.ShloMosaic.Pipeline (Dat)

namespace Cert.KernelIdeal.Reg2

open Cert.KernelIdeal Cert.KernelIdeal.Gen Cert.GinMath

variable (V : (c : Dev nD) → (b : Ref sig .tc) → Buf (Elt Ideal) ((c : Thread nD τ).loc b))

/-! ## The five arrays the region reads, as it finds them -/

/-- The aggregated features, [100000, 36]. -/
abbrev arrA (c : Dev nD) : N36.Idx → EReal := V c (Pipeline.arrRef spec2 0)
/-- The first layer's weights, [36, 36]. -/
abbrev arrWA (c : Dev nD) : W36.Idx → EReal := V c (Pipeline.arrRef spec2 1)
/-- The first layer's bias, [1, 36]. -/
abbrev arrBA (c : Dev nD) : R36.Idx → EReal := V c (Pipeline.arrRef spec2 2)
/-- The second layer's weights, [36, 36]. -/
abbrev arrWB (c : Dev nD) : W36.Idx → EReal := V c (Pipeline.arrRef spec2 3)
/-- The second layer's bias, [1, 36]. -/
abbrev arrBB (c : Dev nD) : R36.Idx → EReal := V c (Pipeline.arrRef spec2 4)

/-- The perceptron's output as a whole array. -/
abbrev Y (c : Dev nD) : N36.Idx → EReal := mlp36 (arrA V c) (arrWA V c) (arrBA V c) (arrWB V c) (arrBB V c)

/-! ## Where each window's block sits at grid point t -/

theorem hz : (![0, 0] : Fin 2 → Nat) = fun _ => 0 := funext fun a => by fin_cases a <;> rfl

/-- The block indices at point t: the feature rows and the three outputs move with t along the rows, the parameter
    arrays stay whole. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

theorem t_lt (t : Fin cfg2.N) : t.val < 20 := by
  have h : cfg2.N = 20 := N_2
  have := t.isLt
  omega

/-! ## The input blocks, read off the arrays -/

/-- The feature block at point t is rows 5000·t … 5000·t + 4999 of the feature array. -/
theorem inA_rows (c : Dev nD) (t : Fin cfg2.N) (x : S5000x36.Idx) (k : N36.Idx)
    (hk0 : (k 0).val = 5000 * t.val + (x 0).val) (hk1 : (k 1).val = (x 1).val) :
    (iblk2 V c 0 t : Vec Ideal S5000x36 .f32) x = arrA V c k := by
  obtain ⟨e0, e1, -⟩ := idx_facts t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 5000 + 1 * (x 0).val = (k 0).val; rw [e0, hk0]; omega
  | ⟨1, _⟩ => show win2_0.index t (1 : Fin 2) * 36 + 1 * (x 1).val = (k 1).val; rw [e1, hk1]; omega

/-- The first layer's weights arrive whole at every point. -/
theorem inWA_whole (c : Dev nD) (t : Fin cfg2.N) : (iblk2 V c 1 t : Vec Ideal S36x36 .f32) = arrWA V c := by
  obtain ⟨-, -, e0, e1, -⟩ := idx_facts t
  funext x
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 36 + 1 * (x 0).val = (x 0).val; rw [e0]; omega
  | ⟨1, _⟩ => show win2_1.index t (1 : Fin 2) * 36 + 1 * (x 1).val = (x 1).val; rw [e1]; omega

/-- The first layer's bias arrives whole at every point. -/
theorem inBA_whole (c : Dev nD) (t : Fin cfg2.N) : (iblk2 V c 2 t : Vec Ideal S1x36 .f32) = arrBA V c := by
  obtain ⟨-, -, -, -, e0, e1, -⟩ := idx_facts t
  funext x
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 1 + 1 * (x 0).val = (x 0).val; rw [e0]; omega
  | ⟨1, _⟩ => show win2_2.index t (1 : Fin 2) * 36 + 1 * (x 1).val = (x 1).val; rw [e1]; omega

/-- The second layer's weights arrive whole at every point. -/
theorem inWB_whole (c : Dev nD) (t : Fin cfg2.N) : (iblk2 V c 3 t : Vec Ideal S36x36 .f32) = arrWB V c := by
  obtain ⟨-, -, -, -, -, -, e0, e1, -⟩ := idx_facts t
  funext x
  unfold iblk2
  rw [View.read_apply]
  show V c (Pipeline.arrRef spec2 3) _ = V c (Pipeline.arrRef spec2 3) _
  congr 1
  funext a
  apply Fin.ext
  match a with
  | ⟨0, _⟩ => show win2_3.index t (0 : Fin 2) * 36 + 1 * (x 0).val = (x 0).val; rw [e0]; omega
  | ⟨1, _⟩ => show win2_3.index t (1 : Fin 2) * 36 + 1 * (x 1).val = (x 1).val; rw [e1]; omega

/-- The second layer's bias arrives whole at every point. -/
theorem inBB_whole (c : Dev nD) (t : Fin cfg2.N) : (iblk2 V c 4 t : Vec Ideal S1x36 .f32) = arrBB V c := by
  obtain ⟨-, -, -, -, -, -, -, -, e0, e1, -⟩ := idx_facts t
  funext x
  unfold iblk2
  rw [View.read_apply]
  show V c (Pipeline.arrRef spec2 4) _ = V c (Pipeline.arrRef spec2 4) _
  congr 1
  funext a
  apply Fin.ext
  match a with
  | ⟨0, _⟩ => show win2_4.index t (0 : Fin 2) * 1 + 1 * (x 0).val = (x 0).val; rw [e0]; omega
  | ⟨1, _⟩ => show win2_4.index t (1 : Fin 2) * 36 + 1 * (x 1).val = (x 1).val; rw [e1]; omega

/-- The tile computed at point t is rows 5000·t … of the perceptron's output. -/
theorem tile_eq (c : Dev nD) (t : Fin cfg2.N) (b : Fin 5000) (q : Fin 36) :
    k2_pay2 (iblk2 V c 0 t) (iblk2 V c 1 t) (iblk2 V c 2 t) (iblk2 V c 3 t) (iblk2 V c 4 t) (ix2 b q)
      = Y V c (ix2 ⟨5000 * t.val + b.val, by have := t_lt t; have := b.isLt; omega⟩ q) :=
  pay2_mlp (arrA V c) (arrWA V c) (arrBA V c) (arrWB V c) (arrBB V c)
    (iblk2 V c 0 t) (iblk2 V c 1 t) (iblk2 V c 2 t) (iblk2 V c 3 t) (iblk2 V c 4 t)
    (inWA_whole V c t) (inBA_whole V c t) (inWB_whole V c t) (inBB_whole V c t) b q _
    fun k => inA_rows V c t (ix2 b k) (ix2 _ k) rfl rfl

/-! ## What each point writes back -/

/-- Point t writes back rows 5000·t … 5000·t + 4999 of the perceptron's output. -/
theorem flushed5_eq (c : Dev nD) (t : Fin cfg2.N) :
    (dat2 V c).flushed 5 t = ((cfg2.win 5).blk t).view.read (Elt Ideal) (Y V c) := by
  show (cfg2.win 5).cut (grid2.coords t) ((dat2 V c).after 5 t) = _
  rw [after2_5]
  unfold out2_5
  rw [View.canon_unit_zero hz]
  simp only [View.ld_unit_zero (S := S5000x36) hz, View.ld_unit_zero (S := S36x36) hz, View.ld_unit_zero (S := S1x36) hz]
  obtain ⟨-, -, -, -, -, -, -, -, -, -, e0, e1, -⟩ := idx_facts t
  funext j
  rw [View.read_apply]
  show k2_pay2 (iblk2 V c 0 t) (iblk2 V c 1 t) (iblk2 V c 2 t) (iblk2 V c 3 t) (iblk2 V c 4 t) j = Y V c (((cfg2.win 5).blk t).view.emb j)
  refine blk5_point (arrA V c) (arrWA V c) (arrBA V c) (arrWB V c) (arrBB V c)
    (iblk2 V c 0 t) (iblk2 V c 1 t) (iblk2 V c 2 t) (iblk2 V c 3 t) (iblk2 V c 4 t)
    (inWA_whole V c t) (inBA_whole V c t) (inWB_whole V c t) (inBB_whole V c t) t.val
    (fun b k n hn => inA_rows V c t (ix2 b k) (ix2 n k) hn rfl) j (((cfg2.win 5).blk t).view.emb j) ?_ ?_
  · show win2_5.index t (0 : Fin 2) * 5000 + 1 * (j 0).val = 5000 * t.val + (j 0).val; rw [e0]; omega
  · show win2_5.index t (1 : Fin 2) * 36 + 1 * (j 1).val = (j 1).val; rw [e1]; omega

/-- Point t writes back rows 8·t … 8·t + 7 of the partial column sums of the perceptron's output. -/
theorem flushed6_eq (c : Dev nD) (t : Fin cfg2.N) :
    (dat2 V c).flushed 6 t = ((cfg2.win 6).blk t).view.read (Elt Ideal) (tileSums (Y V c)) := by
  show (cfg2.win 6).cut (grid2.coords t) ((dat2 V c).after 6 t) = _
  rw [after2_6]
  unfold out2_6
  rw [View.canon_unit_zero hz]
  simp only [View.ld_unit_zero (S := S5000x36) hz, View.ld_unit_zero (S := S36x36) hz, View.ld_unit_zero (S := S1x36) hz]
  rw [pay4_eq]
  obtain ⟨-, -, -, -, -, -, -, -, -, -, -, -, e0, e1, -⟩ := idx_facts t
  funext j
  rw [View.read_apply]
  show strip (k2_pay2 (iblk2 V c 0 t) (iblk2 V c 1 t) (iblk2 V c 2 t) (iblk2 V c 3 t) (iblk2 V c 4 t)) j = tileSums (Y V c) (((cfg2.win 6).blk t).view.emb j)
  refine strip_tileSums (Y V c) _ t.val (t_lt t) (fun b q => tile_eq V c t b q) j (((cfg2.win 6).blk t).view.emb j) ?_ ?_
  · show win2_6.index t (0 : Fin 2) * 8 + 1 * (j 0).val = 8 * t.val + (j 0).val; rw [e0]; omega
  · show win2_6.index t (1 : Fin 2) * 36 + 1 * (j 1).val = (j 1).val; rw [e1]; omega

/-- Point t writes back rows 8·t … 8·t + 7 of the partial column sums of the squares. -/
theorem flushed7_eq (c : Dev nD) (t : Fin cfg2.N) :
    (dat2 V c).flushed 7 t = ((cfg2.win 7).blk t).view.read (Elt Ideal) (tileSums (sq (Y V c))) := by
  show (cfg2.win 7).cut (grid2.coords t) ((dat2 V c).after 7 t) = _
  rw [after2_7]
  unfold out2_7
  rw [View.canon_unit_zero hz]
  simp only [View.ld_unit_zero (S := S5000x36) hz, View.ld_unit_zero (S := S36x36) hz, View.ld_unit_zero (S := S1x36) hz]
  rw [pay1_eq]
  obtain ⟨-, -, -, -, -, -, -, -, -, -, -, -, -, -, e0, e1⟩ := idx_facts t
  funext j
  rw [View.read_apply]
  show strip (mulf (k2_pay2 (iblk2 V c 0 t) (iblk2 V c 1 t) (iblk2 V c 2 t) (iblk2 V c 3 t) (iblk2 V c 4 t))
      (k2_pay2 (iblk2 V c 0 t) (iblk2 V c 1 t) (iblk2 V c 2 t) (iblk2 V c 3 t) (iblk2 V c 4 t))) j
    = tileSums (sq (Y V c)) (((cfg2.win 7).blk t).view.emb j)
  refine strip_tileSums (sq (Y V c)) _ t.val (t_lt t) (fun b q => ?_) j (((cfg2.win 7).blk t).view.emb j) ?_ ?_
  · show k2_pay2 (iblk2 V c 0 t) (iblk2 V c 1 t) (iblk2 V c 2 t) (iblk2 V c 3 t) (iblk2 V c 4 t) (ix2 b q)
        * k2_pay2 (iblk2 V c 0 t) (iblk2 V c 1 t) (iblk2 V c 2 t) (iblk2 V c 3 t) (iblk2 V c 4 t) (ix2 b q) = _
    rw [tile_eq V c t b q]
    rfl
  · show win2_7.index t (0 : Fin 2) * 8 + 1 * (j 0).val = 8 * t.val + (j 0).val; rw [e0]; omega
  · show win2_7.index t (1 : Fin 2) * 36 + 1 * (j 1).val = (j 1).val; rw [e1]; omega

/-! ## The blocks cover the arrays -/

/-- Row r of y lies in the block of point r / 5000. -/
theorem cover5 (i : N36.Idx) : ∃ t : Fin cfg2.N, (cfg2.win 5).flush t = true ∧ i ∈ ((cfg2.win 5).blk t).view.set := by
  have hi0 : (i 0).val < 100000 := (i 0).isLt
  have hi1 : (i 1).val < 36 := (i 1).isLt
  have hN : cfg2.N = 20 := N_2
  have ht : (i 0).val / 5000 < cfg2.N := by rw [hN]; omega
  obtain ⟨-, -, -, -, -, -, -, -, -, -, e0, e1, -⟩ := idx_facts ⟨(i 0).val / 5000, ht⟩
  refine ⟨⟨(i 0).val / 5000, ht⟩, flush2_5 _, ?_⟩
  show i ∈ ((View.whole main_v137_0).slice (win2_5.rect ⟨(i 0).val / 5000, ht⟩)).set
  rw [View.set_slice_whole, Rect.mem_set_unit]
  intro a
  match a with
  | ⟨0, _⟩ =>
    show win2_5.index ⟨(i 0).val / 5000, ht⟩ (0 : Fin 2) * 5000 ≤ (i 0).val ∧ (i 0).val < win2_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_5.index ⟨(i 0).val / 5000, ht⟩ (1 : Fin 2) * 36 ≤ (i 1).val ∧ (i 1).val < win2_5.index ⟨(i 0).val / 5000, ht⟩ (1 : Fin 2) * 36 + 36
    rw [e1]; omega

/-- Row r of the first array of partial sums lies in the block of point r / 8. -/
theorem cover6 (i : P36.Idx) : ∃ t : Fin cfg2.N, (cfg2.win 6).flush t = true ∧ i ∈ ((cfg2.win 6).blk t).view.set := by
  have hi0 : (i 0).val < 160 := (i 0).isLt
  have hi1 : (i 1).val < 36 := (i 1).isLt
  have hN : cfg2.N = 20 := N_2
  have ht : (i 0).val / 8 < cfg2.N := by rw [hN]; omega
  obtain ⟨-, -, -, -, -, -, -, -, -, -, -, -, e0, e1, -⟩ := idx_facts ⟨(i 0).val / 8, ht⟩
  refine ⟨⟨(i 0).val / 8, ht⟩, flush2_6 _, ?_⟩
  show i ∈ ((View.whole main_v137_1).slice (win2_6.rect ⟨(i 0).val / 8, ht⟩)).set
  rw [View.set_slice_whole, Rect.mem_set_unit]
  intro a
  match a with
  | ⟨0, _⟩ =>
    show win2_6.index ⟨(i 0).val / 8, ht⟩ (0 : Fin 2) * 8 ≤ (i 0).val ∧ (i 0).val < win2_6.index ⟨(i 0).val / 8, ht⟩ (0 : Fin 2) * 8 + 8
    rw [e0]; show (i 0).val / 8 * 8 ≤ (i 0).val ∧ (i 0).val < (i 0).val / 8 * 8 + 8; omega
  | ⟨1, _⟩ =>
    show win2_6.index ⟨(i 0).val / 8, ht⟩ (1 : Fin 2) * 36 ≤ (i 1).val ∧ (i 1).val < win2_6.index ⟨(i 0).val / 8, ht⟩ (1 : Fin 2) * 36 + 36
    rw [e1]; omega

/-- Row r of the second array of partial sums lies in the block of point r / 8. -/
theorem cover7 (i : P36.Idx) : ∃ t : Fin cfg2.N, (cfg2.win 7).flush t = true ∧ i ∈ ((cfg2.win 7).blk t).view.set := by
  have hi0 : (i 0).val < 160 := (i 0).isLt
  have hi1 : (i 1).val < 36 := (i 1).isLt
  have hN : cfg2.N = 20 := N_2
  have ht : (i 0).val / 8 < cfg2.N := by rw [hN]; omega
  obtain ⟨-, -, -, -, -, -, -, -, -, -, -, -, -, -, e0, e1⟩ := idx_facts ⟨(i 0).val / 8, ht⟩
  refine ⟨⟨(i 0).val / 8, ht⟩, flush2_7 _, ?_⟩
  show i ∈ ((View.whole main_v137_2).slice (win2_7.rect ⟨(i 0).val / 8, ht⟩)).set
  rw [View.set_slice_whole, Rect.mem_set_unit]
  intro a
  match a with
  | ⟨0, _⟩ =>
    show win2_7.index ⟨(i 0).val / 8, ht⟩ (0 : Fin 2) * 8 ≤ (i 0).val ∧ (i 0).val < win2_7.index ⟨(i 0).val / 8, ht⟩ (0 : Fin 2) * 8 + 8
    rw [e0]; show (i 0).val / 8 * 8 ≤ (i 0).val ∧ (i 0).val < (i 0).val / 8 * 8 + 8; omega
  | ⟨1, _⟩ =>
    show win2_7.index ⟨(i 0).val / 8, ht⟩ (1 : Fin 2) * 36 ≤ (i 1).val ∧ (i 1).val < win2_7.index ⟨(i 0).val / 8, ht⟩ (1 : Fin 2) * 36 + 36
    rw [e1]; omega

/-! ## The three output arrays after the region -/

/-- y ends at the perceptron of the five arrays. -/
theorem y_eq (c : Dev nD) : (dat2 V c).arrAt 5 cfg2.N = Y V c :=
  (dat2 V c).arrAt_eq_of_cover 5 (Y V c) (fun t _ => flushed5_eq V c t) cover5

/-- The first array of partial sums ends at the partial column sums, by tile, of the perceptron's output. -/
theorem s_eq (c : Dev nD) : (dat2 V c).arrAt 6 cfg2.N = tileSums (Y V c) :=
  (dat2 V c).arrAt_eq_of_cover 6 (tileSums (Y V c)) (fun t _ => flushed6_eq V c t) cover6

/-- The second ends at the partial column sums, by tile, of its squares. -/
theorem ss_eq (c : Dev nD) : (dat2 V c).arrAt 7 cfg2.N = tileSums (sq (Y V c)) :=
  (dat2 V c).arrAt_eq_of_cover 7 (tileSums (sq (Y V c))) (fun t _ => flushed7_eq V c t) cover7

end Cert.KernelIdeal.Reg2

end
-- ==== Proof.StageY3.lean ====
/-
  Layer 3 of transform 0 on both sides. The tiled program's region 2 leaves the perceptron of its five input arrays —
  the aggregate, and the two weight matrices and two bias rows its host stretch prepared — together with the per-tile
  column sums of that output and of its squares. The reference computes the same perceptron as two matrix products,
  each followed by a bias spread over the node rows and a rectifier. Both sides prepare the weights from the same
  arguments: transform 0's slice of each stacked argument, the matrices transposed, the bias vectors read as rows.
  So from equal, real aggregates the two outputs are equal, the sums are the per-tile sums of the reference's output,
  and that output is real.
-/
import proofs.«408188_j34256659153341_2_alg».proof.Proof.FrameKI
import proofs.«408188_j34256659153341_2_alg».proof.Proof.Reg2Value
import proofs.«408188_j34256659153341_2_alg».proof.Proof.RefChain
import proofs.«408188_j34256659153341_2_alg».proof.Proof.RefMlp
import proofs.«408188_j34256659153341_2_alg».proof.Proof.RowReshape
import proofs.«408188_j34256659153341_2_alg».proof.Proof.BridgeArgs
import proofs.«408188_j34256659153341_2_alg».proof.Proof.GinReal
import Idealize.ShloMosaic.Lib.StableHlo.Run

noncomputable section

/-! ## The tiled program's host stretch before region 2: the four weight arrays it prepares -/

namespace Cert.Bridge.Y3K

open Cert.KernelIdeal Cert.KernelIdeal.Gen Idealize.ShloMosaic Idealize.SL.Sem Idealize.ShloMosaic.StableHlo
open Idealize.ShloMosaic.ValueIdx

/-- Transform 0's first-layer matrix (36 × 36) cut out of the stacked argument. -/
abbrev wA (x : (⟨S2x36x36, .f32⟩ : BufTy).Contents (Elt Ideal)) : (⟨S36x36, .f32⟩ : BufTy).Contents (Elt Ideal) :=
  shapeCast S36x36 (extractStridedSlice S1x36x36 ![0, 0, 0] x slices_S2x36x36_S1x36x36_0_0_0) shapeCasts_S1x36x36_S36x36
/-- Transform 0's second-layer matrix (36 × 36) cut out of the stacked argument. -/
abbrev wB (x : (⟨S2x36x36, .f32⟩ : BufTy).Contents (Elt Ideal)) : (⟨S36x36, .f32⟩ : BufTy).Contents (Elt Ideal) :=
  shapeCast S36x36 (extractStridedSlice S1x36x36 ![0, 0, 0] x slices_S2x36x36_S1x36x36_0_0_0) shapeCasts_S1x36x36_S36x36
/-- Transform 0's bias vector (36 entries) cut out of the stacked argument. -/
abbrev bV (x : (⟨S2x36, .f32⟩ : BufTy).Contents (Elt Ideal)) : (⟨S36, .f32⟩ : BufTy).Contents (Elt Ideal) :=
  shapeCast S36 (extractStridedSlice S1x36 ![0, 0] x slices_S2x36_S1x36_0_0) shapeCasts_S1x36_S36

/-- The first product's right operand: the first-layer matrix, transposed. -/
theorem wa (V : Valuation τ sig (Elt Ideal)) :
    after (hostOps2 (F := Ideal)) V (Proc.devRef .tc Cert.KernelIdeal.main_v133)
      = transpose S36x36 [1, 0] (wA (V (Proc.devRef .tc Cert.KernelIdeal.main_arg11))) transposes_S36x36_S36x36_1_0 := by
  after_results_simp
  all_goals rfl
/-- The first bias, as one row. -/
theorem ba (V : Valuation τ sig (Elt Ideal)) :
    after (hostOps2 (F := Ideal)) V (Proc.devRef .tc Cert.KernelIdeal.main_v135)
      = shapeCast S1x36 (bV (V (Proc.devRef .tc Cert.KernelIdeal.main_arg12))) shapeCasts_S36_S1x36 := by
  after_results_simp
  all_goals rfl
/-- The second product's right operand: the second-layer matrix, transposed. -/
theorem wb (V : Valuation τ sig (Elt Ideal)) :
    after (hostOps2 (F := Ideal)) V (Proc.devRef .tc Cert.KernelIdeal.main_v134)
      = transpose S36x36 [1, 0] (wB (V (Proc.devRef .tc Cert.KernelIdeal.main_arg13))) transposes_S36x36_S36x36_1_0 := by
  after_results_simp
  all_goals rfl
/-- The second bias, as one row. -/
theorem bb (V : Valuation τ sig (Elt Ideal)) :
    after (hostOps2 (F := Ideal)) V (Proc.devRef .tc Cert.KernelIdeal.main_v136)
      = shapeCast S1x36 (bV (V (Proc.devRef .tc Cert.KernelIdeal.main_arg14))) shapeCasts_S36_S1x36 := by
  after_results_simp
  all_goals rfl

end Cert.Bridge.Y3K

/-! ## The reference: the weights the stretch before cuts out, and its perceptron -/

namespace Cert.Bridge.Y3R

open Cert.ReferenceIdeal Cert.ReferenceIdeal.Gen Cert.ReferenceIdeal.RefRun Idealize.ShloMosaic Idealize.SL.Sem
open Idealize.ShloMosaic.StableHlo Idealize.ShloMosaic.ValueIdx

/-- Transform 0's first-layer matrix (36 × 36) cut out of the stacked argument. -/
abbrev wA (x : (⟨S2x36x36, .f32⟩ : BufTy).Contents (Elt Ideal)) : (⟨S36x36, .f32⟩ : BufTy).Contents (Elt Ideal) :=
  shapeCast S36x36 (extractStridedSlice S1x36x36 ![0, 0, 0] x slices_S2x36x36_S1x36x36_0_0_0) shapeCasts_S1x36x36_S36x36
/-- Transform 0's second-layer matrix (36 × 36) cut out of the stacked argument. -/
abbrev wB (x : (⟨S2x36x36, .f32⟩ : BufTy).Contents (Elt Ideal)) : (⟨S36x36, .f32⟩ : BufTy).Contents (Elt Ideal) :=
  shapeCast S36x36 (extractStridedSlice S1x36x36 ![0, 0, 0] x slices_S2x36x36_S1x36x36_0_0_0) shapeCasts_S1x36x36_S36x36
/-- Transform 0's bias vector (36 entries) cut out of the stacked argument. -/
abbrev bV (x : (⟨S2x36, .f32⟩ : BufTy).Contents (Elt Ideal)) : (⟨S36, .f32⟩ : BufTy).Contents (Elt Ideal) :=
  shapeCast S36 (extractStridedSlice S1x36 ![0, 0] x slices_S2x36_S1x36_0_0) shapeCasts_S1x36_S36

theorem wa (V : Valuation τ sig (Elt Ideal)) :
    after (seg4 (F := Ideal)) V (Proc.devRef .tc Cert.ReferenceIdeal.main_v115) = wA (V (Proc.devRef .tc Cert.ReferenceIdeal.main_arg11)) := by
  after_results_simp
  all_goals rfl
theorem ba (V : Valuation τ sig (Elt Ideal)) :
    after (seg4 (F := Ideal)) V (Proc.devRef .tc Cert.ReferenceIdeal.main_v117) = bV (V (Proc.devRef .tc Cert.ReferenceIdeal.main_arg12)) := by
  after_results_simp
  all_goals rfl
theorem wb (V : Valuation τ sig (Elt Ideal)) :
    after (seg4 (F := Ideal)) V (Proc.devRef .tc Cert.ReferenceIdeal.main_v119) = wB (V (Proc.devRef .tc Cert.ReferenceIdeal.main_arg13)) := by
  after_results_simp
  all_goals rfl
theorem bb (V : Valuation τ sig (Elt Ideal)) :
    after (seg4 (F := Ideal)) V (Proc.devRef .tc Cert.ReferenceIdeal.main_v121) = bV (V (Proc.devRef .tc Cert.ReferenceIdeal.main_arg14)) := by
  after_results_simp
  all_goals rfl

-- the fold through the stretch's sixteen operations is long to evaluate
set_option maxHeartbeats 1000000 in
/-- The stretch of the two products: its last value is the perceptron of the aggregate with the weights transposed
    and the bias vectors read as rows. -/
theorem y (V : Valuation τ sig (Elt Ideal)) :
    after (seg5 (F := Ideal)) V (Proc.devRef .tc Cert.ReferenceIdeal.main_v144)
      = Cert.GinMath.mlp36 (V (Proc.devRef .tc Cert.ReferenceIdeal.main_v132))
          (transpose S36x36 [1, 0] (V (Proc.devRef .tc Cert.ReferenceIdeal.main_v115)) transposes_S36x36_S36x36_1_0)
          (fun i => V (Proc.devRef .tc Cert.ReferenceIdeal.main_v117) (ix1 (i 1)))
          (transpose S36x36 [1, 0] (V (Proc.devRef .tc Cert.ReferenceIdeal.main_v119)) transposes_S36x36_S36x36_1_0)
          (fun i => V (Proc.devRef .tc Cert.ReferenceIdeal.main_v121) (ix1 (i 1))) := by
  after_results
  exact RefMlp.mlp36_eq _ _ _ _ _

end Cert.Bridge.Y3R

/-! ## The stage -/

namespace Cert.Bridge

open Idealize.ShloMosaic Idealize.SL.Sem Idealize.ShloMosaic.ValueIdx

/-- Region 2 against the reference's perceptron: from equal real aggregates, equal outputs with their per-tile
    sums, the output real. The two memories agree on the four weight arguments, which are real. -/
theorem stage_Y3
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hWA : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (hBA : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (hWB : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (hBB : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (rWA : IsReal (m ((c.tc : Thread Cert.KernelIdeal.nD Cert.KernelIdeal.τ).loc Cert.KernelIdeal.main_arg11)))
    (rBA : IsReal (m ((c.tc : Thread Cert.KernelIdeal.nD Cert.KernelIdeal.τ).loc Cert.KernelIdeal.main_arg12)))
    (rWB : IsReal (m ((c.tc : Thread Cert.KernelIdeal.nD Cert.KernelIdeal.τ).loc Cert.KernelIdeal.main_arg13)))
    (rBB : IsReal (m ((c.tc : Thread Cert.KernelIdeal.nD Cert.KernelIdeal.τ).loc Cert.KernelIdeal.main_arg14)))
    (hin : RelAgg (S := GinMath.N36) (Cert.KernelIdeal.Gen.W5 (F := Ideal) m ρ c (Proc.devRef .tc Cert.KernelIdeal.main_v124))
        (Cert.ReferenceIdeal.RefRun.R5 (F := Ideal) m' c (Proc.devRef .tc Cert.ReferenceIdeal.main_v132))) :
    RelY (Cert.KernelIdeal.Gen.W6 (F := Ideal) m ρ c (Proc.devRef .tc Cert.KernelIdeal.main_v137_0))
      (Cert.KernelIdeal.Gen.W6 (F := Ideal) m ρ c (Proc.devRef .tc Cert.KernelIdeal.main_v137_1))
      (Cert.KernelIdeal.Gen.W6 (F := Ideal) m ρ c (Proc.devRef .tc Cert.KernelIdeal.main_v137_2))
      (Cert.ReferenceIdeal.RefRun.R6 (F := Ideal) m' c (Proc.devRef .tc Cert.ReferenceIdeal.main_v144)) := by
  unfold RelAgg at hin
  obtain ⟨hA, hAr⟩ := hin
  -- the tiled side's four weight arrays, from its arguments
  have kWA : Cert.KernelIdeal.Gen.W5 (F := Ideal) m ρ c (Proc.devRef .tc Cert.KernelIdeal.main_v133)
      = transpose Cert.KernelIdeal.S36x36 [1, 0] (Y3K.wA (m ((c.tc : Thread Cert.KernelIdeal.nD Cert.KernelIdeal.τ).loc Cert.KernelIdeal.main_arg11))) Cert.KernelIdeal.Gen.transposes_S36x36_S36x36_1_0 :=
    (Y3K.wa (Cert.KernelIdeal.Gen.W4 m ρ c)).trans
      (congrArg (fun x => transpose Cert.KernelIdeal.S36x36 [1, 0] (Y3K.wA x) Cert.KernelIdeal.Gen.transposes_S36x36_S36x36_1_0) (karg_4 m ρ c Cert.KernelIdeal.main_arg11 (by decide)))
  have kBA : Cert.KernelIdeal.Gen.W5 (F := Ideal) m ρ c (Proc.devRef .tc Cert.KernelIdeal.main_v135)
      = shapeCast Cert.KernelIdeal.S1x36 (Y3K.bV (m ((c.tc : Thread Cert.KernelIdeal.nD Cert.KernelIdeal.τ).loc Cert.KernelIdeal.main_arg12))) Cert.KernelIdeal.Gen.shapeCasts_S36_S1x36 :=
    (Y3K.ba (Cert.KernelIdeal.Gen.W4 m ρ c)).trans
      (congrArg (fun x => shapeCast Cert.KernelIdeal.S1x36 (Y3K.bV x) Cert.KernelIdeal.Gen.shapeCasts_S36_S1x36) (karg_4 m ρ c Cert.KernelIdeal.main_arg12 (by decide)))
  have kWB : Cert.KernelIdeal.Gen.W5 (F := Ideal) m ρ c (Proc.devRef .tc Cert.KernelIdeal.main_v134)
      = transpose Cert.KernelIdeal.S36x36 [1, 0] (Y3K.wB (m ((c.tc : Thread Cert.KernelIdeal.nD Cert.KernelIdeal.τ).loc Cert.KernelIdeal.main_arg13))) Cert.KernelIdeal.Gen.transposes_S36x36_S36x36_1_0 :=
    (Y3K.wb (Cert.KernelIdeal.Gen.W4 m ρ c)).trans
      (congrArg (fun x => transpose Cert.KernelIdeal.S36x36 [1, 0] (Y3K.wB x) Cert.KernelIdeal.Gen.transposes_S36x36_S36x36_1_0) (karg_4 m ρ c Cert.KernelIdeal.main_arg13 (by decide)))
  have kBB : Cert.KernelIdeal.Gen.W5 (F := Ideal) m ρ c (Proc.devRef .tc Cert.KernelIdeal.main_v136)
      = shapeCast Cert.KernelIdeal.S1x36 (Y3K.bV (m ((c.tc : Thread Cert.KernelIdeal.nD Cert.KernelIdeal.τ).loc Cert.KernelIdeal.main_arg14))) Cert.KernelIdeal.Gen.shapeCasts_S36_S1x36 :=
    (Y3K.bb (Cert.KernelIdeal.Gen.W4 m ρ c)).trans
      (congrArg (fun x => shapeCast Cert.KernelIdeal.S1x36 (Y3K.bV x) Cert.KernelIdeal.Gen.shapeCasts_S36_S1x36) (karg_4 m ρ c Cert.KernelIdeal.main_arg14 (by decide)))
  -- the reference's four, from its arguments
  have sWA : Cert.ReferenceIdeal.RefRun.R5 (F := Ideal) m' c (Proc.devRef .tc Cert.ReferenceIdeal.main_v115) = Y3R.wA (m' ((c.tc : Thread Cert.ReferenceIdeal.nD Cert.ReferenceIdeal.τ).loc Cert.ReferenceIdeal.main_arg11)) :=
    (Y3R.wa (Cert.ReferenceIdeal.RefRun.R4 m' c)).trans (congrArg Y3R.wA (rarg_4 m' c Cert.ReferenceIdeal.main_arg11 (by decide)))
  have sBA : Cert.ReferenceIdeal.RefRun.R5 (F := Ideal) m' c (Proc.devRef .tc Cert.ReferenceIdeal.main_v117) = Y3R.bV (m' ((c.tc : Thread Cert.ReferenceIdeal.nD Cert.ReferenceIdeal.τ).loc Cert.ReferenceIdeal.main_arg12)) :=
    (Y3R.ba (Cert.ReferenceIdeal.RefRun.R4 m' c)).trans (congrArg Y3R.bV (rarg_4 m' c Cert.ReferenceIdeal.main_arg12 (by decide)))
  have sWB : Cert.ReferenceIdeal.RefRun.R5 (F := Ideal) m' c (Proc.devRef .tc Cert.ReferenceIdeal.main_v119) = Y3R.wB (m' ((c.tc : Thread Cert.ReferenceIdeal.nD Cert.ReferenceIdeal.τ).loc Cert.ReferenceIdeal.main_arg13)) :=
    (Y3R.wb (Cert.ReferenceIdeal.RefRun.R4 m' c)).trans (congrArg Y3R.wB (rarg_4 m' c Cert.ReferenceIdeal.main_arg13 (by decide)))
  have sBB : Cert.ReferenceIdeal.RefRun.R5 (F := Ideal) m' c (Proc.devRef .tc Cert.ReferenceIdeal.main_v121) = Y3R.bV (m' ((c.tc : Thread Cert.ReferenceIdeal.nD Cert.ReferenceIdeal.τ).loc Cert.ReferenceIdeal.main_arg14)) :=
    (Y3R.bb (Cert.ReferenceIdeal.RefRun.R4 m' c)).trans (congrArg Y3R.bV (rarg_4 m' c Cert.ReferenceIdeal.main_arg14 (by decide)))
  -- the reference's output is the perceptron of its five arrays
  have hy := Y3R.y (Cert.ReferenceIdeal.RefRun.R5 (F := Ideal) m' c)
  rw [sWA, sBA, sWB, sBB] at hy
  -- the tiled side's three outputs are the perceptron of its five arrays, and its per-tile sums
  have k0 := (Cert.KernelIdeal.Gen.W6_arr (F := Ideal) m ρ c 5).trans (Cert.KernelIdeal.Reg2.y_eq (Cert.KernelIdeal.Gen.V5 m ρ) c)
  have k1 := (Cert.KernelIdeal.Gen.W6_arr (F := Ideal) m ρ c 6).trans (Cert.KernelIdeal.Reg2.s_eq (Cert.KernelIdeal.Gen.V5 m ρ) c)
  have k2 := (Cert.KernelIdeal.Gen.W6_arr (F := Ideal) m ρ c 7).trans (Cert.KernelIdeal.Reg2.ss_eq (Cert.KernelIdeal.Gen.V5 m ρ) c)
  -- the two perceptrons are the same
  have e : Cert.KernelIdeal.Reg2.Y (Cert.KernelIdeal.Gen.V5 (F := Ideal) m ρ) c
      = Cert.ReferenceIdeal.RefRun.R6 (F := Ideal) m' c (Proc.devRef .tc Cert.ReferenceIdeal.main_v144) := by
    refine Eq.trans ?_ hy.symm
    refine mlp36_congr hA ?_ ?_ ?_ ?_
    · exact kWA.trans (congrArg (fun x => transpose Cert.ReferenceIdeal.S36x36 [1, 0] (Y3R.wA x) Cert.ReferenceIdeal.Gen.transposes_S36x36_S36x36_1_0) hWA.symm)
    · exact (kBA.trans (Cert.KernelIdeal.RowReshape.row_reshape _ _)).trans
        (congrArg (fun x => fun i : GinMath.R36.Idx => Y3R.bV x (ix1 (i 1))) hBA.symm)
    · exact kWB.trans (congrArg (fun x => transpose Cert.ReferenceIdeal.S36x36 [1, 0] (Y3R.wB x) Cert.ReferenceIdeal.Gen.transposes_S36x36_S36x36_1_0) hWB.symm)
    · exact (kBB.trans (Cert.KernelIdeal.RowReshape.row_reshape _ _)).trans
        (congrArg (fun x => fun i : GinMath.R36.Idx => Y3R.bV x (ix1 (i 1))) hBB.symm)
  -- the reference's output is real: a perceptron of real arrays
  have hr : IsReal (S := GinMath.N36) (Cert.ReferenceIdeal.RefRun.R6 (F := Ideal) m' c (Proc.devRef .tc Cert.ReferenceIdeal.main_v144)) :=
    IsReal.of_eq (isReal_mlp36 hAr
      (IsReal.of_eq (((rWA.slice _ _).reshape _).transpose _ _) kWA.symm)
      (IsReal.of_eq (((rBA.slice _ _).reshape _).reshape _) kBA.symm)
      (IsReal.of_eq (((rWB.slice _ _).reshape _).transpose _ _) kWB.symm)
      (IsReal.of_eq (((rBB.slice _ _).reshape _).reshape _) kBB.symm)) e
  unfold RelY
  exact ⟨k0.trans e, k1.trans (congrArg GinMath.tileSums e),
    k2.trans (congrArg (fun y => GinMath.tileSums (GinMath.sq y)) e), hr⟩

end Cert.Bridge

end
-- ==== Proof.Reg3Pay.lean ====
/-
  The pool's arithmetic at one index. One grid point of the pooling kernel holds a block of 2000 node rows:
  their features y (2000 × 36), their graph ids (2000 × 1, 32-bit words), and the four rows of 36 that
  batch normalisation needs (mean, variance, scale, shift). It forms the normalised rows
      h(r,d) = (g(d)·(y(r,d) − mean(d)))·rsqrt(var(d) + eps) + b(d),
  the one-hot matrix  e(r,p) = 1 if ids(r) is the word p, else 0  (2000 × 512), and adds eᵀ·h to the carried
  512 × 36 block.  Over the extended reals 1·x = x and 0·x = 0 for every x, so entry (p,d) of eᵀ·h is the sum of
  h(r,d) over the rows r of the block whose graph id is the word p: no finiteness is needed.
-/
import proofs.«408188_j34256659153341_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Reg3

open Idealize.ShloMosaic Idealize.ShloMosaic.ValueIdx Cert.KernelIdeal Cert.KernelIdeal.Gen

/-- The small constant under the inverse square root: the extended real of the body's literal word. -/
abbrev eps : EReal := Ideal.ofBits .f32 0x3727C5AC#32

/-- The normalised row entry of a block: ((g·(y − mean))·rsqrt(var + eps)) + b at row r, column d. -/
def hrow (y : Vec Ideal S2000x36 .f32) (vr g mn b : Vec Ideal S1x36 .f32) (r : Fin 2000) (d : Fin 36) : EReal :=
  g (ix2 0 d) * (y (ix2 r d) - mn (ix2 0 d)) * Ideal.rsqrt (vr (ix2 0 d) + eps) + b (ix2 0 d)

/-- The reset block is zero everywhere. -/
theorem pay1_apply (p : Fin 512) (q : Fin 36) : k3_pay1 (F := Ideal) (ix2 p q) = 0 := by
  show Ideal.ofBits .f32 0x00000000#32 = 0
  exact Ideal.ofBits_zero_f32

/-! ## The one-hot matrix -/

/-- A column of 2000 words broadcast along 512 lanes reads its row's word at every lane. -/
theorem bcast_col_apply (x : IVec S2000x1 32) (r : Fin 2000) (p : Fin 512) :
    broadcastTo S2000x512 x broadcasts_S2000x1_S2000x512 (ix2 r p) = x (ix2 r 0) := by
  refine broadcastTo_apply x _ (ix2 r p) (ix2 r (0 : Fin 1)) fun ax => ?_
  match ax with
  | ⟨0, _⟩ => rfl
  | ⟨1, _⟩ => rfl

/-- The one-hot matrix of a block's graph ids, as the body builds it: compare each row's id with the lane
    number, widen the bit, convert to a float. -/
def onehot (ids : Vec Ideal S2000x1 .i32) : FVec Ideal S2000x512 .bf16 :=
  truncf .bf16 (sitofp .f32 (extui 32 (cmpi .eq
    (broadcastTo S2000x512 (shapeCast S2000x1 ids shapeCasts_S2000x1_S2000x1) broadcasts_S2000x1_S2000x512)
    (iota .tc S2000x512 32 [1] iota_S2000x512_d1_w32)) natLt_1_32)) bitsLt_bf16_f32

/-- A compared bit, widened and converted, is the extended real 1 or 0. -/
theorem bit_to_real (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · subst h
    rw [if_pos rfl]
    have : ((IntOp.cmpi .eq a a).setWidth 32) = 1#32 := by simp [IntOp.cmpi]
    rw [this]; norm_num
  · rw [if_neg h]
    have hb : (a == b) = false := beq_eq_false_iff_ne.mpr h
    have : ((IntOp.cmpi .eq a b).setWidth 32) = 0#32 := by simp [IntOp.cmpi, hb]
    rw [this]; norm_num

/-- Entry (r,p) of the one-hot matrix: 1 when row r's graph id is the word p, else 0. -/
theorem onehot_apply (ids : Vec Ideal S2000x1 .i32) (r : Fin 2000) (p : Fin 512) :
    onehot ids (ix2 r p) = if ids (ix2 r 0) = BitVec.ofNat 32 p.val then 1 else 0 := by
  have ha : broadcastTo S2000x512 (shapeCast S2000x1 ids shapeCasts_S2000x1_S2000x1) broadcasts_S2000x1_S2000x512 (ix2 r p)
      = ids (ix2 r 0) := by
    rw [shapeCast_self]; exact bcast_col_apply ids r p
  have hb : iota .tc S2000x512 32 [1] iota_S2000x512_d1_w32 (ix2 r p) = BitVec.ofNat 32 p.val :=
    iota_single_apply .tc S2000x512 32 1 iota_S2000x512_d1_w32 (ix2 r p)
  show (FloatOps.sitofp (F := Ideal) .f32 ((IntOp.cmpi .eq
      (broadcastTo S2000x512 (shapeCast S2000x1 ids shapeCasts_S2000x1_S2000x1) broadcasts_S2000x1_S2000x512 (ix2 r p))
      (iota .tc S2000x512 32 [1] iota_S2000x512_d1_w32 (ix2 r p))).setWidth 32) : EReal) = _
  rw [ha, hb]
  exact bit_to_real _ _

/-! ## The normalised rows -/

/-- The block of normalised rows, as the body builds it. -/
def hblk (y : Vec Ideal S2000x36 .f32) (vr g mn b : Vec Ideal S1x36 .f32) : FVec Ideal S2000x36 .bf16 :=
  truncf .bf16 (addf (mulf (mulf
      (broadcastTo S2000x36 (shapeCast S1x36 g shapeCasts_S1x36_S1x36) broadcasts_S1x36_S2000x36)
      (subf (shapeCast S2000x36 y shapeCasts_S2000x36_S2000x36)
        (broadcastTo S2000x36 (shapeCast S1x36 mn shapeCasts_S1x36_S1x36) broadcasts_S1x36_S2000x36)))
      (broadcastTo S2000x36 (rsqrt (addf (shapeCast S1x36 vr shapeCasts_S1x36_S1x36)
        (broadcast S1x36 (Scalar.ofBits (F := Ideal) .f32 0x3727C5AC#32)))) broadcasts_S1x36_S2000x36))
      (broadcastTo S2000x36 (shapeCast S1x36 b shapeCasts_S1x36_S1x36) broadcasts_S1x36_S2000x36)) bitsLt_bf16_f32

/-- Entry (r,d) of the block of normalised rows. -/
theorem hblk_apply (y : Vec Ideal S2000x36 .f32) (vr g mn b : Vec Ideal S1x36 .f32) (r : Fin 2000) (d : Fin 36) :
    hblk y vr g mn b (ix2 r d) = hrow y vr g mn b r d := by
  unfold hblk hrow
  rw [shapeCast_self, shapeCast_self, shapeCast_self, shapeCast_self, shapeCast_self]
  show (broadcastTo S2000x36 g broadcasts_S1x36_S2000x36 (ix2 r d)
        * (y (ix2 r d) - broadcastTo S2000x36 mn broadcasts_S1x36_S2000x36 (ix2 r d)))
        * broadcastTo S2000x36 (rsqrt (addf vr (broadcast S1x36 (Scalar.ofBits (F := Ideal) .f32 0x3727C5AC#32))))
            broadcasts_S1x36_S2000x36 (ix2 r d)
        + broadcastTo S2000x36 b broadcasts_S1x36_S2000x36 (ix2 r d) = _
  rw [broadcastTo_1b_ab_apply, broadcastTo_1b_ab_apply, broadcastTo_1b_ab_apply, broadcastTo_1b_ab_apply]
  rfl

/-! ## The product eᵀ·h and the accumulating store -/

/-- The body's accumulating payload is the carried block plus the product of the one-hot matrix (transposed by
    the contraction over rows) with the block of normalised rows, into a zero accumulator. -/
theorem pay2_eq (y : Vec Ideal S2000x36 .f32) (vr g mn b : Vec Ideal S1x36 .f32) (ids : Vec Ideal S2000x1 .i32)
    (acc : Vec Ideal S512x36 .f32) :
    k3_pay2 (F := Ideal) y vr g mn b ids acc
      = addf (shapeCast S512x36 acc shapeCasts_S512x36_S512x36)
          (matmul dot_S2000x512_S2000x36_S512x36_0_0_1_1_n_n none (onehot ids) (hblk y vr g mn b)
            (constant S512x36 .f32 0x00000000#32)) := rfl

/-- The contraction runs over the row axis of both operands: the left operand is read at (row, p) … -/
theorem lhs_pool_0 (i : S512x36.Idx) (q : dot_S2000x512_S2000x36_S512x36_0_0_1_1_n_n.contr.Idx) :
    (dot_S2000x512_S2000x36_S512x36_0_0_1_1_n_n.lhsIdx i q 0).val = (q ⟨0, by decide⟩).val :=
  dot_S2000x512_S2000x36_S512x36_0_0_1_1_n_n.lhsIdx_val_of_single rfl i q
theorem lhs_pool_1 (i : S512x36.Idx) (q : dot_S2000x512_S2000x36_S512x36_0_0_1_1_n_n.contr.Idx) :
    (dot_S2000x512_S2000x36_S512x36_0_0_1_1_n_n.lhsIdx i q 1).val = (i 0).val := by
  unfold DotDims.lhsIdx
  rw [dif_neg (show ¬(1 : Fin S2000x512.rank) ∈ dot_S2000x512_S2000x36_S512x36_0_0_1_1_n_n.lhsBatch by decide),
    dif_pos (show (1 : Fin S2000x512.rank) ∈ dot_S2000x512_S2000x36_S512x36_0_0_1_1_n_n.lhsNonContracting by decide)]
  rfl
/-- … and the right operand at (row, d). -/
theorem rhs_pool_0 (i : S512x36.Idx) (q : dot_S2000x512_S2000x36_S512x36_0_0_1_1_n_n.contr.Idx) :
    (dot_S2000x512_S2000x36_S512x36_0_0_1_1_n_n.rhsIdx i q 0).val = (q ⟨0, by decide⟩).val :=
  dot_S2000x512_S2000x36_S512x36_0_0_1_1_n_n.rhsIdx_val_of_single rfl i q
theorem rhs_pool_1 (i : S512x36.Idx) (q : dot_S2000x512_S2000x36_S512x36_0_0_1_1_n_n.contr.Idx) :
    (dot_S2000x512_S2000x36_S512x36_0_0_1_1_n_n.rhsIdx i q 1).val = (i 1).val := by
  unfold DotDims.rhsIdx
  rw [dif_neg (show ¬(1 : Fin S2000x36.rank) ∈ dot_S2000x512_S2000x36_S512x36_0_0_1_1_n_n.rhsBatch by decide),
    dif_pos (show (1 : Fin S2000x36.rank) ∈ dot_S2000x512_S2000x36_S512x36_0_0_1_1_n_n.rhsNonContracting by decide)]
  rfl

/-- Entry (p,d) of the product into a zero accumulator: the sum over the block's rows of e(r,p)·h(r,d). -/
theorem pool_matmul_apply (e : FVec Ideal S2000x512 .bf16) (h : FVec Ideal S2000x36 .bf16) (p : Fin 512) (d : Fin 36) :
    matmul dot_S2000x512_S2000x36_S512x36_0_0_1_1_n_n none e h (constant S512x36 .f32 0x00000000#32) (ix2 p d)
      = ∑ r : Fin 2000, e (ix2 r p) * h (ix2 r d) := by
  refine (Ideal.matmul_constant_zero_apply dot_S2000x512_S2000x36_S512x36_0_0_1_1_n_n none e h (ix2 p d)).trans ?_
  rw [← Equiv.sum_comp (contrEquiv1 dot_S2000x512_S2000x36_S512x36_0_0_1_1_n_n 2000 rfl rfl).symm]
  refine Finset.sum_congr rfl fun r _ => ?_
  have hk := contrEquiv1_symm_val dot_S2000x512_S2000x36_S512x36_0_0_1_1_n_n 2000 rfl rfl r
  have el : dot_S2000x512_S2000x36_S512x36_0_0_1_1_n_n.lhsIdx (ix2 p d)
      ((contrEquiv1 dot_S2000x512_S2000x36_S512x36_0_0_1_1_n_n 2000 rfl rfl).symm r) = ix2 r p := funext fun a => Fin.ext (by
    match a with
    | ⟨0, _⟩ => exact (lhs_pool_0 _ _).trans hk
    | ⟨1, _⟩ => exact lhs_pool_1 _ _)
  have er : dot_S2000x512_S2000x36_S512x36_0_0_1_1_n_n.rhsIdx (ix2 p d)
      ((contrEquiv1 dot_S2000x512_S2000x36_S512x36_0_0_1_1_n_n 2000 rfl rfl).symm r) = ix2 r d := funext fun a => Fin.ext (by
    match a with
    | ⟨0, _⟩ => exact (rhs_pool_0 _ _).trans hk
    | ⟨1, _⟩ => exact rhs_pool_1 _ _)
  rw [el, er]

/-- The accumulating store at entry (p,d): the carried entry plus the sum of the normalised entries h(r,d) over
    the block's rows r whose graph id is the word p. -/
theorem pay2_apply (y : Vec Ideal S2000x36 .f32) (vr g mn b : Vec Ideal S1x36 .f32) (ids : Vec Ideal S2000x1 .i32)
    (acc : Vec Ideal S512x36 .f32) (p : Fin 512) (q : Fin 36) :
    k3_pay2 (F := Ideal) y vr g mn b ids acc (ix2 p q)
      = acc (ix2 p q) + ∑ r : Fin 2000, (if ids (ix2 r 0) = BitVec.ofNat 32 p.val then hrow y vr g mn b r q else 0) := by
  rw [pay2_eq, shapeCast_self]
  show acc (ix2 p q) + matmul dot_S2000x512_S2000x36_S512x36_0_0_1_1_n_n none (onehot ids) (hblk y vr g mn b)
      (constant S512x36 .f32 0x00000000#32) (ix2 p q) = _
  rw [pool_matmul_apply]
  refine congrArg (acc (ix2 p q) + ·) (Finset.sum_congr rfl fun r _ => ?_)
  rw [onehot_apply, hblk_apply]
  split
  · exact one_mul _
  · exact zero_mul _

end Cert.KernelIdeal.Reg3

end
-- ==== Proof.PoolSum.lean ====
/-
  A sum over 100000 node rows, taken 2000 rows at a time. For an additive commutative monoid (the extended reals
  among them: their addition is commutative and associative without any finiteness), the sum of f over the rows
  below 2000·(t+1) is the sum over the rows below 2000·t plus the sum over the 2000 rows 2000·t … 2000·t + 1999.
-/
import Mathlib.Algebra.BigOperators.Fin
import Mathlib.Data.Fintype.BigOperators
import Mathlib.Tactic.Ring

noncomputable section

open scoped BigOperators

namespace Cert.KernelIdeal.PoolSum

variable {M : Type*} [AddCommMonoid M]

/-- f extended by zero past the last row. -/
def ext0 (f : Fin 100000 → M) (n : ℕ) : M := if h : n < 100000 then f ⟨n, h⟩ else 0

/-- The sum of f over the rows below k, as a sum over the naturals below k. -/
theorem sum_below_eq_range (f : Fin 100000 → M) (k : ℕ) (hk : k ≤ 100000) :
    (∑ n : Fin 100000, if n.val < k then f n else 0) = ∑ n ∈ Finset.range k, ext0 f n := by
  have h1 : (∑ n : Fin 100000, if n.val < k then f n else 0)
      = ∑ n : Fin 100000, (fun m => if m < k then ext0 f m else 0) n.val :=
    Finset.sum_congr rfl fun n _ => by
      show _ = if n.val < k then ext0 f n.val else 0
      unfold ext0; rw [dif_pos n.isLt]
  rw [h1, Fin.sum_univ_eq_sum_range (fun m => if m < k then ext0 f m else 0) 100000, ← Finset.sum_filter]
  refine Finset.sum_congr ?_ fun _ _ => rfl
  ext m
  simp only [Finset.mem_filter, Finset.mem_range]
  omega

/-- One more block of 2000 rows. -/
theorem sum_below_add_block (f : Fin 100000 → M) (t : ℕ) (ht : t < 50) :
    (∑ n : Fin 100000, if n.val < 2000 * (t + 1) then f n else 0)
      = (∑ n : Fin 100000, if n.val < 2000 * t then f n else 0)
        + ∑ r : Fin 2000, f ⟨2000 * t + r.val, by have := r.isLt; omega⟩ := by
  rw [sum_below_eq_range f _ (by omega), sum_below_eq_range f _ (by omega),
    show 2000 * (t + 1) = 2000 * t + 2000 by ring, Finset.sum_range_add]
  congr 1
  rw [← Fin.sum_univ_eq_sum_range (fun x => ext0 f (2000 * t + x)) 2000]
  refine Finset.sum_congr rfl fun r _ => ?_
  unfold ext0
  rw [dif_pos]

/-- The rows below 0: the empty sum. -/
theorem sum_below_zero (f : Fin 100000 → M) :
    (∑ n : Fin 100000, if n.val < 2000 * 0 then f n else 0) = 0 :=
  Finset.sum_eq_zero fun n _ => if_neg (by omega)

/-- All 100000 rows. -/
theorem sum_below_all (f : Fin 100000 → M) :
    (∑ n : Fin 100000, if n.val < 2000 * 50 then f n else 0) = ∑ n : Fin 100000, f n :=
  Finset.sum_congr rfl fun n _ => if_pos (by have := n.isLt; omega)

end Cert.KernelIdeal.PoolSum

end
-- ==== Proof.Reg3Value.lean ====
/-
  The pool region's value. The grid has 50 points; point t holds rows 2000·t … 2000·t + 1999 of the node features
  and of the graph ids, the four batch-normalisation rows whole, and ONE output block of 512 × 36 that stays in
  place from point to point: point 0 first stores zeros into it, and every point adds to entry (p,d) the sum of the
  normalised entries h(n,d) over its own rows n whose graph id is the word p. So after point t the block holds, at
  (p,d), the sum over the rows below 2000·(t+1) — by induction on the point, each step one more block of the sum —
  and after the last point the sum over all 100000 rows. The block is written back once, after point 49, and it is
  the whole output array.
-/
import proofs.«408188_j34256659153341_2_alg».proof.Proof.FrameKI
import proofs.«408188_j34256659153341_2_alg».proof.Proof.GinMath
import proofs.«408188_j34256659153341_2_alg».proof.Proof.Reg3Pay
import proofs.«408188_j34256659153341_2_alg».proof.Proof.PoolSum
import Idealize.ShloMosaic.Lib.Pipeline.Value
import Idealize.ShloMosaic.Lib.Tactic

noncomputable section

open scoped BigOperators

open Idealize.ShloMosaic Idealize.ShloMosaic.TcCoe Idealize.SL.Sem Idealize.ShloMosaic.ValueIdx
open Idealize.ShloMosaic.Pipeline (Dat)

namespace Cert.KernelIdeal.Reg3

open Cert.KernelIdeal Cert.KernelIdeal.Gen

theorem hz : (![0, 0] : Fin 2 → Nat) = fun _ => 0 := funext fun a => by fin_cases a <;> rfl

/-! ## What one point leaves in the output block, for any float values -/

section Pieces

variable {F : FTy → Type} [FloatOps F]

/-- A later point: the block holding xo is left at the accumulating payload of the point's input blocks and xo. -/
theorem out_B (c : Dev nD) (i : grid3.Coords) (a1 : Memref sig .tc .vmem S2000x36 .f32) (h1 : a1.IsWhole) (a2 : Memref sig .tc .vmem S1x36 .f32) (h2 : a2.IsWhole)
    (a3 : Memref sig .tc .vmem S1x36 .f32) (h3 : a3.IsWhole) (a4 : Memref sig .tc .vmem S1x36 .f32) (h4 : a4.IsWhole)
    (a5 : Memref sig .tc .vmem S1x36 .f32) (h5 : a5.IsWhole) (a6 : Memref sig .tc .vmem S2000x1 .i32) (h6 : a6.IsWhole)
    (a7 : Memref sig .tc .vmem S512x36 .f32) (h7 : a7.IsWhole) (hc : ¬cond3_0 i)
    (x0 : Vec F S2000x36 .f32) (x1 x2 x3 x4 : Vec F S1x36 .f32) (x5 : Vec F S2000x1 .i32) (xo : Vec F S512x36 .f32) :
    out3_B_6 c i a1 h1 a2 h2 a3 h3 a4 h4 a5 h5 a6 h6 a7 h7 hc x0 x1 x2 x3 x4 x5 xo = k3_pay2 x0 x2 x3 x1 x4 x5 xo := by
  unfold out3_B_6
  rw [View.read_writes_eq_canon _ _ _ (cover3_B_6 c i a1 h1 a2 h2 a3 h3 a4 h4 a5 h5 a6 h6 a7 h7 hc x0 x1 x2 x3 x4 x5 xo)]
  unfold kernelRun3_B
  dsimp only
  sl_unfold_words
  rw [View.canon_unit_zero hz]
  simp only [View.readAt_eq_ld, h1.read_unread, h2.read_unread, h3.read_unread, h4.read_unread, h5.read_unread,
    h6.read_unread, h7.read_unread, View.ld_unit_zero (S := S2000x36) hz, View.ld_unit_zero (S := S1x36) hz,
    View.ld_unit_zero (S := S2000x1) hz, View.ld_unit_zero (S := S512x36) hz]

/-- The first point: zeros are stored, read back, and the accumulating payload of the point's input blocks over
    the zero block is left. -/
theorem out_A (c : Dev nD) (i : grid3.Coords) (a1 : Memref sig .tc .vmem S2000x36 .f32) (h1 : a1.IsWhole) (a2 : Memref sig .tc .vmem S1x36 .f32) (h2 : a2.IsWhole)
    (a3 : Memref sig .tc .vmem S1x36 .f32) (h3 : a3.IsWhole) (a4 : Memref sig .tc .vmem S1x36 .f32) (h4 : a4.IsWhole)
    (a5 : Memref sig .tc .vmem S1x36 .f32) (h5 : a5.IsWhole) (a6 : Memref sig .tc .vmem S2000x1 .i32) (h6 : a6.IsWhole)
    (a7 : Memref sig .tc .vmem S512x36 .f32) (h7 : a7.IsWhole) (hc : cond3_0 i)
    (x0 : Vec F S2000x36 .f32) (x1 x2 x3 x4 : Vec F S1x36 .f32) (x5 : Vec F S2000x1 .i32) :
    out3_A_6 c i a1 h1 a2 h2 a3 h3 a4 h4 a5 h5 a6 h6 a7 h7 hc x0 x1 x2 x3 x4 x5 = k3_pay2 x0 x2 x3 x1 x4 x5 (k3_pay1 (F := F)) := by
  unfold out3_A_6
  rw [View.read_writes_eq_canon _ _ _ (cover3_A_6 c i a1 h1 a2 h2 a3 h3 a4 h4 a5 h5 a6 h6 a7 h7 hc x0 x1 x2 x3 x4 x5)]
  unfold kernelRun3_A
  dsimp only
  sl_unfold_words
  rw [View.canon_cons_unit_zero (S := S512x36) hz, View.readCov_unit_zero (S := S512x36) _ hz]
  simp only [View.readAt_eq_ld, h1.read_unread, h2.read_unread, h3.read_unread, h4.read_unread, h5.read_unread,
    h6.read_unread, View.ld_unit_zero (S := S2000x36) hz, View.ld_unit_zero (S := S1x36) hz,
    View.ld_unit_zero (S := S2000x1) hz, View.ld_unit_zero (S := S512x36) hz]

end Pieces

/-! ## The arrays and the blocks, at the extended reals -/

variable (V : (c : Dev nD) → (b : Ref sig .tc) → Buf (Elt Ideal) ((c : Thread nD τ).loc b))

/-- The six input arrays as the region finds them: node features, means, variances, scales, shifts, graph ids. -/
abbrev Yarr (c : Dev nD) : Vec Ideal S100000x36 .f32 := V c (Pipeline.arrRef spec3 0)
abbrev Marr (c : Dev nD) : Vec Ideal S1x36 .f32 := V c (Pipeline.arrRef spec3 1)
abbrev Varr (c : Dev nD) : Vec Ideal S1x36 .f32 := V c (Pipeline.arrRef spec3 2)
abbrev Garr (c : Dev nD) : Vec Ideal S1x36 .f32 := V c (Pipeline.arrRef spec3 3)
abbrev Barr (c : Dev nD) : Vec Ideal S1x36 .f32 := V c (Pipeline.arrRef spec3 4)
abbrev Iarr (c : Dev nD) : Vec Ideal S100000x1 .i32 := V c (Pipeline.arrRef spec3 5)

/-- Their blocks at point t. -/
abbrev yblk (c : Dev nD) (t : Fin cfg3.N) : Vec Ideal S2000x36 .f32 := iblk3 V c 0 t
abbrev mblk (c : Dev nD) (t : Fin cfg3.N) : Vec Ideal S1x36 .f32 := iblk3 V c 1 t
abbrev vblk (c : Dev nD) (t : Fin cfg3.N) : Vec Ideal S1x36 .f32 := iblk3 V c 2 t
abbrev gblk (c : Dev nD) (t : Fin cfg3.N) : Vec Ideal S1x36 .f32 := iblk3 V c 3 t
abbrev bblk (c : Dev nD) (t : Fin cfg3.N) : Vec Ideal S1x36 .f32 := iblk3 V c 4 t
abbrev idblk (c : Dev nD) (t : Fin cfg3.N) : Vec Ideal S2000x1 .i32 := iblk3 V c 5 t

/-- The block indices of the seven windows, decided over the 50 points: the row blocks move with the point, the
    rows of 36 and the output block stay at (0,0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = 0 ∧ win3_6.index t (1 : Fin 2) = 0 :=
  (by decide +kernel : ∀ t : Fin grid3.N, _)

theorem point_lt (t : Fin cfg3.N) : t.val < 50 := lt_of_lt_of_eq t.isLt N_3

/-- Row r of point t's block is row 2000·t + r of the array. -/
theorem row_lt (t : Fin cfg3.N) (r : Fin 2000) : 2000 * t.val + r.val < 100000 := by
  have h1 := point_lt t
  have h2 := r.isLt
  omega

theorem yblk_apply (c : Dev nD) (t : Fin cfg3.N) (r : Fin 2000) (d : Fin 36) :
    yblk V c t (ix2 r d) = Yarr V c (ix2 ⟨2000 * t.val + r.val, row_lt t r⟩ d) := by
  obtain ⟨e0, e1, -⟩ := idx_facts t
  have h : (((cfg3.win 0).blk t).view.emb (ix2 r d) : S100000x36.Idx) = ix2 ⟨2000 * t.val + r.val, row_lt t r⟩ d := by
    funext a
    apply Fin.ext
    match a with
    | ⟨0, _⟩ => show win3_0.index t (0 : Fin 2) * 2000 + 1 * r.val = 2000 * t.val + r.val; rw [e0]; omega
    | ⟨1, _⟩ => show win3_0.index t (1 : Fin 2) * 36 + 1 * d.val = d.val; rw [e1]; omega
  exact congrArg (V c (Pipeline.arrRef spec3 0)) h

theorem idblk_apply (c : Dev nD) (t : Fin cfg3.N) (r : Fin 2000) (u : Fin 1) :
    idblk V c t (ix2 r u) = Iarr V c (ix2 ⟨2000 * t.val + r.val, row_lt t r⟩ u) := by
  obtain ⟨-, -, -, -, -, -, -, -, -, -, e0, e1, -⟩ := idx_facts t
  have h : (((cfg3.win 5).blk t).view.emb (ix2 r u) : S100000x1.Idx) = ix2 ⟨2000 * t.val + r.val, row_lt t r⟩ u := by
    funext a
    apply Fin.ext
    match a with
    | ⟨0, _⟩ => show win3_5.index t (0 : Fin 2) * 2000 + 1 * r.val = 2000 * t.val + r.val; rw [e0]; omega
    | ⟨1, _⟩ => show win3_5.index t (1 : Fin 2) * 1 + 1 * u.val = u.val; rw [e1]; omega
  exact congrArg (V c (Pipeline.arrRef spec3 5)) h

theorem mblk_apply (c : Dev nD) (t : Fin cfg3.N) (u : Fin 1) (d : Fin 36) :
    mblk V c t (ix2 u d) = Marr V c (ix2 u d) := by
  obtain ⟨-, -, e0, e1, -⟩ := idx_facts t
  have h : (((cfg3.win 1).blk t).view.emb (ix2 u d) : S1x36.Idx) = ix2 u d := by
    funext a
    apply Fin.ext
    match a with
    | ⟨0, _⟩ => show win3_1.index t (0 : Fin 2) * 1 + 1 * u.val = u.val; rw [e0]; omega
    | ⟨1, _⟩ => show win3_1.index t (1 : Fin 2) * 36 + 1 * d.val = d.val; rw [e1]; omega
  exact congrArg (V c (Pipeline.arrRef spec3 1)) h

theorem vblk_apply (c : Dev nD) (t : Fin cfg3.N) (u : Fin 1) (d : Fin 36) :
    vblk V c t (ix2 u d) = Varr V c (ix2 u d) := by
  obtain ⟨-, -, -, -, e0, e1, -⟩ := idx_facts t
  have h : (((cfg3.win 2).blk t).view.emb (ix2 u d) : S1x36.Idx) = ix2 u d := by
    funext a
    apply Fin.ext
    match a with
    | ⟨0, _⟩ => show win3_2.index t (0 : Fin 2) * 1 + 1 * u.val = u.val; rw [e0]; omega
    | ⟨1, _⟩ => show win3_2.index t (1 : Fin 2) * 36 + 1 * d.val = d.val; rw [e1]; omega
  exact congrArg (V c (Pipeline.arrRef spec3 2)) h

theorem gblk_apply (c : Dev nD) (t : Fin cfg3.N) (u : Fin 1) (d : Fin 36) :
    gblk V c t (ix2 u d) = Garr V c (ix2 u d) := by
  obtain ⟨-, -, -, -, -, -, e0, e1, -⟩ := idx_facts t
  have h : (((cfg3.win 3).blk t).view.emb (ix2 u d) : S1x36.Idx) = ix2 u d := by
    funext a
    apply Fin.ext
    match a with
    | ⟨0, _⟩ => show win3_3.index t (0 : Fin 2) * 1 + 1 * u.val = u.val; rw [e0]; omega
    | ⟨1, _⟩ => show win3_3.index t (1 : Fin 2) * 36 + 1 * d.val = d.val; rw [e1]; omega
  exact congrArg (V c (Pipeline.arrRef spec3 3)) h

theorem bblk_apply (c : Dev nD) (t : Fin cfg3.N) (u : Fin 1) (d : Fin 36) :
    bblk V c t (ix2 u d) = Barr V c (ix2 u d) := by
  obtain ⟨-, -, -, -, -, -, -, -, e0, e1, -⟩ := idx_facts t
  have h : (((cfg3.win 4).blk t).view.emb (ix2 u d) : S1x36.Idx) = ix2 u d := by
    funext a
    apply Fin.ext
    match a with
    | ⟨0, _⟩ => show win3_4.index t (0 : Fin 2) * 1 + 1 * u.val = u.val; rw [e0]; omega
    | ⟨1, _⟩ => show win3_4.index t (1 : Fin 2) * 36 + 1 * d.val = d.val; rw [e1]; omega
  exact congrArg (V c (Pipeline.arrRef spec3 4)) h

/-! ## One row's addend, from the block and from the array -/

/-- Row n's addend to entry (p,d) of the pool: its normalised entry at d if its graph id is the word p, else 0. -/
def addend (c : Dev nD) (p : Fin 512) (q : Fin 36) (n : Fin 100000) : EReal :=
  if Iarr V c (ix2 n 0) = BitVec.ofNat 32 p.val then
    Cert.GinMath.bnRow eps (Yarr V c) (Marr V c) (Varr V c) (Garr V c) (Barr V c) (ix2 n q) else 0

/-- A block's row and the array's row it is give the same addend, when the entries read agree. -/
theorem addend_of_entries (y : Vec Ideal S2000x36 .f32) (vr g mn b : Vec Ideal S1x36 .f32) (ids : Vec Ideal S2000x1 .i32)
    (Y : Vec Ideal S100000x36 .f32) (M Vr G Bt : Vec Ideal S1x36 .f32) (Ids : Vec Ideal S100000x1 .i32)
    (n : Fin 100000) (r : Fin 2000) (p : Fin 512) (q : Fin 36)
    (hy : y (ix2 r q) = Y (ix2 n q)) (hm : mn (ix2 0 q) = M (ix2 0 q)) (hv : vr (ix2 0 q) = Vr (ix2 0 q))
    (hg : g (ix2 0 q) = G (ix2 0 q)) (hb : b (ix2 0 q) = Bt (ix2 0 q)) (hi : ids (ix2 r 0) = Ids (ix2 n 0)) :
    (if ids (ix2 r 0) = BitVec.ofNat 32 p.val then hrow y vr g mn b r q else 0)
      = if Ids (ix2 n 0) = BitVec.ofNat 32 p.val then Cert.GinMath.bnRow eps Y M Vr G Bt (ix2 n q) else 0 := by
  unfold hrow
  rw [hy, hm, hv, hg, hb, hi]
  rfl

theorem block_addend (c : Dev nD) (t : Fin cfg3.N) (p : Fin 512) (q : Fin 36) (r : Fin 2000) :
    (if idblk V c t (ix2 r 0) = BitVec.ofNat 32 p.val then hrow (yblk V c t) (vblk V c t) (gblk V c t) (mblk V c t) (bblk V c t) r q else 0)
      = addend V c p q ⟨2000 * t.val + r.val, row_lt t r⟩ :=
  addend_of_entries (yblk V c t) (vblk V c t) (gblk V c t) (mblk V c t) (bblk V c t) (idblk V c t) (Yarr V c) (Marr V c) (Varr V c) (Garr V c) (Barr V c) (Iarr V c)
    ⟨2000 * t.val + r.val, row_lt t r⟩ r p q (yblk_apply V c t r q) (mblk_apply V c t 0 q) (vblk_apply V c t 0 q)
    (gblk_apply V c t 0 q) (bblk_apply V c t 0 q) (idblk_apply V c t r 0)

/-! ## The block after each point -/

/-- After the first point: the block's own 2000 addends. -/
theorem outsAt_first (c : Dev nD) (t : Fin cfg3.N) (h0 : t.val % 50 = 0) (p : Fin 512) (q : Fin 36) :
    outsAt3 V c t.val t.isLt (ix2 p q)
      = ∑ r : Fin 2000, (if idblk V c t (ix2 r 0) = BitVec.ofNat 32 p.val then hrow (yblk V c t) (vblk V c t) (gblk V c t) (mblk V c t) (bblk V c t) r q else 0) := by
  rw [outsAt3_A V c t h0]
  refine (congrFun (out_A (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) ((hcond3_0 t).mpr h0) (iblk3 V c 0 t) (iblk3 V c 1 t) (iblk3 V c 2 t) (iblk3 V c 3 t) (iblk3 V c 4 t) (iblk3 V c 5 t)) (ix2 p q)).trans ?_
  refine (pay2_apply (yblk V c t) (vblk V c t) (gblk V c t) (mblk V c t) (bblk V c t) (idblk V c t) (k3_pay1 (F := Ideal)) p q).trans ?_
  rw [pay1_apply, zero_add]

/-- After a later point: what the point before left, plus the block's own 2000 addends. -/
theorem outsAt_next (c : Dev nD) (t : Fin cfg3.N) (h0 : ¬t.val % 50 = 0) (p : Fin 512) (q : Fin 36) :
    outsAt3 V c t.val t.isLt (ix2 p q)
      = outsAt3 V c (t.val - 1) (Nat.lt_of_le_of_lt (Nat.sub_le _ _) t.isLt) (ix2 p q)
        + ∑ r : Fin 2000, (if idblk V c t (ix2 r 0) = BitVec.ofNat 32 p.val then hrow (yblk V c t) (vblk V c t) (gblk V c t) (mblk V c t) (bblk V c t) r q else 0) := by
  rw [outsAt3_B V c t h0]
  refine (congrFun (out_B (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (fun h => h0 ((hcond3_0 t).mp h)) (iblk3 V c 0 t) (iblk3 V c 1 t) (iblk3 V c 2 t) (iblk3 V c 3 t) (iblk3 V c 4 t) (iblk3 V c 5 t)
    (outsAt3 V c (t.val - 1) (Nat.lt_of_le_of_lt (Nat.sub_le _ _) t.isLt))) (ix2 p q)).trans ?_
  exact pay2_apply (yblk V c t) (vblk V c t) (gblk V c t) (mblk V c t) (bblk V c t) (idblk V c t) (outsAt3 V c (t.val - 1) (Nat.lt_of_le_of_lt (Nat.sub_le _ _) t.isLt)) p q

/-- After point n the block holds, at (p,d), the addends of the rows below 2000·(n+1): by induction on the point. -/
theorem outsAt_apply (c : Dev nD) : ∀ (n : ℕ) (h : n < cfg3.N) (p : Fin 512) (q : Fin 36),
    outsAt3 V c n h (ix2 p q) = ∑ m : Fin 100000, if m.val < 2000 * (n + 1) then addend V c p q m else 0
  | 0, h, p, q => by
    rw [PoolSum.sum_below_add_block (addend V c p q) 0 (by omega), PoolSum.sum_below_zero, zero_add]
    refine (outsAt_first V c ⟨0, h⟩ rfl p q).trans ?_
    exact Finset.sum_congr rfl fun r _ => block_addend V c ⟨0, h⟩ p q r
  | n + 1, h, p, q => by
    have hn : n + 1 < 50 := lt_of_lt_of_eq h N_3
    have hB : ¬(⟨n + 1, h⟩ : Fin cfg3.N).val % 50 = 0 := by dsimp only; omega
    rw [PoolSum.sum_below_add_block (addend V c p q) (n + 1) hn]
    refine (outsAt_next V c ⟨n + 1, h⟩ hB p q).trans ?_
    show outsAt3 V c n _ (ix2 p q) + _ = _
    rw [outsAt_apply c n (Nat.lt_of_succ_lt h) p q]
    exact congrArg (_ + ·) (Finset.sum_congr rfl fun r _ => block_addend V c ⟨n + 1, h⟩ p q r)

/-! ## The output array after the region -/

/-- The pool of the normalised rows by graph id: the whole-array value. -/
abbrev result (c : Dev nD) : Cert.GinMath.G36.Idx → EReal :=
  Cert.GinMath.poolSum (Cert.GinMath.bnRow eps (Yarr V c) (Marr V c) (Varr V c) (Garr V c) (Barr V c)) (Iarr V c)

/-- After the last point the block holds the pool over all 100000 rows. -/
theorem outsAt_last (c : Dev nD) (h : 49 < cfg3.N) : outsAt3 V c 49 h = result V c := by
  funext i
  obtain ⟨p, q, rfl⟩ : ∃ (p : Fin 512) (q : Fin 36), i = ix2 p q := ⟨i 0, i 1, eq_ix2 i⟩
  refine (outsAt_apply V c 49 h p q).trans ?_
  refine (PoolSum.sum_below_all (addend V c p q)).trans ?_
  rfl

/-- The one write-back, after point 49, writes the pool: block (0,0) of the 512 × 36 array is the array. -/
theorem flushed_eq (c : Dev nD) (t : Fin cfg3.N) (hf : (cfg3.win 6).flush t = true) :
    (dat3 V c).flushed 6 t = ((cfg3.win 6).blk t).view.read (Elt Ideal) (result V c) := by
  have h49 : t.val = 49 := by
    have h1 := (flush3_6 t).mp hf
    have h2 := point_lt t
    omega
  obtain ⟨-, -, -, -, -, -, -, -, -, -, -, -, e0, e1⟩ := idx_facts t
  show (cfg3.win 6).cut (grid3.coords t) ((dat3 V c).after 6 t) = _
  rw [after3_6]
  have hl : outsAt3 V c t.val t.isLt = result V c := by
    obtain ⟨n, hn⟩ := t
    dsimp only at h49
    subst h49
    exact outsAt_last V c hn
  rw [hl]
  generalize result V c = G
  funext j
  have h : (((cfg3.win 6).blk t).view.emb j : S512x36.Idx) = j := by
    funext a
    apply Fin.ext
    match a with
    | ⟨0, _⟩ => show win3_6.index t (0 : Fin 2) * 512 + 1 * (j 0).val = (j 0).val; rw [e0]; omega
    | ⟨1, _⟩ => show win3_6.index t (1 : Fin 2) * 36 + 1 * (j 1).val = (j 1).val; rw [e1]; omega
  exact (congrArg G h).symm

theorem last_lt : 49 < cfg3.N := by rw [show cfg3.N = 50 from N_3]; decide

/-- THE REGION'S VALUE: the output array after the region is the pool, by graph id, of the batch-normalised node
    rows of the input arrays as the region finds them. -/
theorem sums_eq (c : Dev nD) :
    (dat3 V c).arrAt 6 cfg3.N
      = Cert.GinMath.poolSum (Cert.GinMath.bnRow eps (Yarr V c) (Marr V c) (Varr V c) (Garr V c) (Barr V c)) (Iarr V c) :=
  (dat3 V c).arrAt_eq_of_cover 6 (result V c) (flushed_eq V c) fun i =>
    ⟨⟨49, last_lt⟩, (flush3_6 ⟨49, last_lt⟩).mpr rfl, by
      obtain ⟨-, -, -, -, -, -, -, -, -, -, -, -, e0, e1⟩ := idx_facts ⟨49, last_lt⟩
      show i ∈ ((View.whole main_v157).slice (win3_6.rect ⟨49, last_lt⟩)).set
      rw [View.set_slice_whole, Rect.mem_set_unit]
      intro a
      have h0 : (i 0 : Nat) < 512 := (i 0).isLt
      have h1 : (i 1 : Nat) < 36 := (i 1).isLt
      match a with
      | ⟨0, _⟩ =>
        show win3_6.index ⟨49, last_lt⟩ (0 : Fin 2) * 512 ≤ (i 0 : Nat) ∧ (i 0 : Nat) < win3_6.index ⟨49, last_lt⟩ (0 : Fin 2) * 512 + 512
        rw [e0]; omega
      | ⟨1, _⟩ =>
        show win3_6.index ⟨49, last_lt⟩ (1 : Fin 2) * 36 ≤ (i 1 : Nat) ∧ (i 1 : Nat) < win3_6.index ⟨49, last_lt⟩ (1 : Fin 2) * 36 + 36
        rw [e1]; omega⟩

end Cert.KernelIdeal.Reg3

end
-- ==== Proof.StageDPMath.lean ====
/-
  What batch normalisation of a layer's output needs, as whole arrays over the extended reals: the column means
  μ(d) = (Σₙ y(n,d))/100000 and the column variances in the form σ²(d) = (Σₙ y(n,d)²)/100000 − μ(d)², each a
  vector of 36; a vector of 36 laid out as one row of 36; a vector of 100000 words laid out as a column.
-/
import proofs.«408188_j34256659153341_2_alg».proof.Proof.BridgeDefs
import Idealize.ShloMosaic.Lib.ValueIdx
import Idealize.ShloMosaic.Lib.IdealHost

noncomputable section

namespace Cert.Bridge

open Idealize.ShloMosaic Idealize.ShloMosaic.ValueIdx Cert.GinMath

/-- The rank-0 shape of a scalar. -/
abbrev Sc : Shape := ⟨0, ![]⟩
/-- A vector of 100000 entries. -/
abbrev V1e5 : Shape := ⟨1, ![100000]⟩

theorem bcastSc : Sc.BroadcastsInDim C36 (![] : Fin 0 → Fin C36.rank) := by decide

/-- The number of node rows, 100000, at every one of 36 places. -/
abbrev n1e5 : FVec Ideal C36 .f32 := broadcastInDim C36 ![] bcastSc (constant Sc .f32 0x47C35000#32)

/-- The column means of y. -/
def meanV (Y : N36.Idx → EReal) : C36.Idx → EReal := Host.divf (F := Ideal) (φ := .f32) (colSum Y) n1e5

/-- The column variances of y: the mean of the squares less the square of the mean. -/
def varV (Y : N36.Idx → EReal) : C36.Idx → EReal :=
  subf (F := Ideal) (φ := .f32) (Host.divf (F := Ideal) (φ := .f32) (colSum (sq Y)) n1e5)
    (mulf (F := Ideal) (φ := .f32) (Host.divf (F := Ideal) (φ := .f32) (colSum Y) n1e5)
      (Host.divf (F := Ideal) (φ := .f32) (colSum Y) n1e5))

/-- A vector of 36 as one row of 36. -/
def rowOf {α : Type} (v : C36.Idx → α) : R36.Idx → α := fun i => v (ix1 (i 1))

/-- A vector of 100000 as a column. -/
def colOf {α : Type} (v : V1e5.Idx → α) : N1.Idx → α := fun i => v (ix1 (i 0))

end Cert.Bridge

end
-- ==== Proof.PoolMath.lean ====
/-
  The reference pools by an accumulating scatter: into a 512 × 36 array of zeros it adds row n of the node features
  at the row named by node n's graph id, the id read as a signed number and a row outside 0 … 511 dropped. Entry
  (g, c) of the result is therefore zero plus the sum of the entries (n, c) over the nodes n whose id, read signed,
  is g; and for g below 512 "the id read signed is g" says the same as "the id is the 32-bit word g". That is the
  pool of the layer's mathematics.
-/
import proofs.«408188_j34256659153341_2_alg».proof.ReferenceIdeal
import proofs.«408188_j34256659153341_2_alg».proof.Proof.GinMath
import Idealize.ShloMosaic.Lib.ValueIdx
import Idealize.ShloMosaic.Lib.IdealHost

noncomputable section

open scoped BigOperators

namespace Cert.ReferenceIdeal.PoolMath

open Idealize.ShloMosaic Idealize.ShloMosaic.ValueIdx
open Facts₀

variable [Facts₀]

/-! ## The scatter's dimension numbers, read at the literal axes

The updates' column axis is the window axis and goes to the operand's column axis; the operand's row axis is the
inserted one, named by the one component of the scatter index. -/

/-- On the column axis the window coordinate is the update's column. -/
theorem window1 (j : S100000x36.Idx) : scatter_S512x36_S100000x1_S100000x36_1_0_0_1.window j 1 = (j 1).val := rfl
/-- On the row axis there is no window coordinate. -/
theorem window0 (j : S100000x36.Idx) : scatter_S512x36_S100000x1_S100000x36_1_0_0_1.window j 0 = 0 := rfl
/-- The column axis is not indexed: its start is zero. -/
theorem start1 (j : S100000x36.Idx) (idx : IVec S100000x1 32) : scatter_S512x36_S100000x1_S100000x36_1_0_0_1.start j idx 1 = 0 := rfl
/-- The row axis starts at the scatter index of the update's row, read as a signed number. -/
theorem start0 (j : S100000x36.Idx) (idx : IVec S100000x1 32) : scatter_S512x36_S100000x1_S100000x36_1_0_0_1.start j idx 0 = (idx (ix2 (j 0) 0)).toInt := by
  have h : scatter_S512x36_S100000x1_S100000x36_1_0_0_1.siIdx j ⟨0, Nat.zero_lt_one⟩ = ix2 (j 0) 0 := by
    funext b; match b with | ⟨0, _⟩ => rfl | ⟨1, _⟩ => rfl
  exact congrArg (fun k => (idx k).toInt) h

/-- An update row lands on pool row g exactly when its graph id, read as a signed number, is g, and it keeps its column. -/
theorem resultIdx?_iff (idx : IVec S100000x1 32) (j : S100000x36.Idx) (i : S512x36.Idx) :
    scatter_S512x36_S100000x1_S100000x36_1_0_0_1.resultIdx? j idx = some i ↔ (idx (ix2 (j 0) 0)).toInt = ((i 0).val : Int) ∧ (j 1).val = (i 1).val := by
  have hi0 := idx2_lt0 i
  have hi1 := idx2_lt1 i
  have hs0 : S512x36.size 0 = 512 := rfl
  have hs1 : S512x36.size 1 = 36 := rfl
  unfold ScatterDims.resultIdx?
  split
  · next h =>
    have h0 := h 0
    have h1 := h 1
    rw [start0, window0] at h0
    rw [start1, window1] at h1
    constructor
    · intro e
      have e' := Option.some.inj e
      have e0 := congrArg (fun f => (f 0).val) e'
      have e1 := congrArg (fun f => (f 1).val) e'
      simp only [start0, window0, start1, window1] at e0 e1
      omega
    · rintro ⟨g0, g1⟩
      congr 1
      funext a
      apply Fin.ext
      match a with
      | ⟨0, _⟩ => show (scatter_S512x36_S100000x1_S100000x36_1_0_0_1.start j idx 0 + scatter_S512x36_S100000x1_S100000x36_1_0_0_1.window j 0).toNat = (i 0).val; rw [start0, window0]; omega
      | ⟨1, _⟩ => show (scatter_S512x36_S100000x1_S100000x36_1_0_0_1.start j idx 1 + scatter_S512x36_S100000x1_S100000x36_1_0_0_1.window j 1).toNat = (i 1).val; rw [start1, window1]; omega
  · next h =>
    constructor
    · intro e; exact absurd e (by simp)
    · rintro ⟨g0, g1⟩
      exfalso; apply h
      intro a
      match a with
      | ⟨0, _⟩ => show 0 ≤ scatter_S512x36_S100000x1_S100000x36_1_0_0_1.start j idx 0 + scatter_S512x36_S100000x1_S100000x36_1_0_0_1.window j 0 ∧ scatter_S512x36_S100000x1_S100000x36_1_0_0_1.start j idx 0 + scatter_S512x36_S100000x1_S100000x36_1_0_0_1.window j 0 < (S512x36.size 0 : Nat); rw [start0, window0, hs0]; omega
      | ⟨1, _⟩ => show 0 ≤ scatter_S512x36_S100000x1_S100000x36_1_0_0_1.start j idx 1 + scatter_S512x36_S100000x1_S100000x36_1_0_0_1.window j 1 ∧ scatter_S512x36_S100000x1_S100000x36_1_0_0_1.start j idx 1 + scatter_S512x36_S100000x1_S100000x36_1_0_0_1.window j 1 < (S512x36.size 1 : Nat); rw [start1, window1, hs1]; omega

/-- For g below 512, a 32-bit word reads as the signed number g exactly when it is the word g. -/
theorem toInt_eq_iff (x : BitVec 32) (g : Nat) (hg : g < 512) : x.toInt = (g : Int) ↔ x = BitVec.ofNat 32 g := by
  constructor
  · intro h
    apply BitVec.eq_of_toNat_eq
    rw [BitVec.toNat_ofNat]
    rw [BitVec.toInt_eq_toNat_cond] at h
    split at h <;> omega
  · rintro rfl
    rw [BitVec.toInt_eq_toNat_cond, BitVec.toNat_ofNat]
    split <;> omega

/-- The vector of graph ids laid out as a column reads, at row n, the vector's entry n. -/
theorem ids_col (ids : IVec S100000 32) :
    broadcastInDim S100000x1 ![0] bcast_S100000_S100000x1_0 ids = fun i => ids (ix1 (i 0)) := by
  funext i
  unfold broadcastInDim
  congr 1
  funext a
  match a with
  | ⟨0, _⟩ => rfl

/-- The array the scatter accumulates into is zero everywhere. -/
theorem zeros_apply (i : S512x36.Idx) :
    broadcastInDim S512x36 ![] bcast_S_S512x36 (constant (F := Ideal) S_ .f32 0x00000000#32) i = 0 := by
  rw [broadcastInDim_scalar_apply, constant_apply]; exact Ideal.ofBits_zero_f32

/-- Read through the scatter: row n of the updates reaches pool row g, column c, exactly when the graph id of n is the
    word g and c is the update's own column. -/
theorem lands_iff (ids : IVec S100000 32) (n : Fin 100000) (b : Fin 36) (i : S512x36.Idx) :
    scatter_S512x36_S100000x1_S100000x36_1_0_0_1.resultIdx? (ix2 n b) (broadcastInDim S100000x1 ![0] bcast_S100000_S100000x1_0 ids) = some i
      ↔ ids (ix1 n) = BitVec.ofNat 32 (i 0).val ∧ b.val = (i 1).val := by
  have hcol : (broadcastInDim S100000x1 ![0] bcast_S100000_S100000x1_0 ids) (ix2 n 0) = ids (ix1 n) := congrFun (ids_col ids) (ix2 n 0)
  have key := toInt_eq_iff ((broadcastInDim S100000x1 ![0] bcast_S100000_S100000x1_0 ids) (ix2 n 0)) (i 0).val (idx2_lt0 i)
  rw [hcol] at key
  refine (resultIdx?_iff _ _ _).trans ?_
  show ((broadcastInDim S100000x1 ![0] bcast_S100000_S100000x1_0 ids) (ix2 n 0)).toInt = ((i 0).val : Int) ∧ b.val = (i 1).val ↔ _
  rw [hcol]
  exact and_congr_left' key

/-- The reference's sum of node rows by graph id is the pool: each pool entry is zero plus the sum of the node
    entries of its column over the nodes of its graph. -/
theorem pool_eq (H : FVec Ideal S100000x36 .f32) (ids : IVec S100000 32) :
    Host.scatterAdd scatter_S512x36_S100000x1_S100000x36_1_0_0_1
      (broadcastInDim S512x36 ![] bcast_S_S512x36 (constant S_ .f32 0x00000000#32))
      (broadcastInDim S100000x1 ![0] bcast_S100000_S100000x1_0 ids) H
    = Cert.GinMath.poolSum H (fun i => ids (ix1 (i 0))) := by
  funext i
  show Ideal.hostScatterAdd scatter_S512x36_S100000x1_S100000x36_1_0_0_1 _ _ H i = _
  unfold Ideal.hostScatterAdd Cert.GinMath.poolSum
  rw [zeros_apply, zero_add, Finset.sum_filter, sum_idx2]
  refine Finset.sum_congr rfl fun n _ => ?_
  by_cases hc : ids (ix1 n) = BitVec.ofNat 32 (i 0).val
  · refine (Finset.sum_eq_single (i 1 : Fin 36) ?_ ?_).trans ?_
    · intro b _ hb; exact if_neg (fun h => hb (Fin.ext ((lands_iff ids n b i).1 h).2))
    · intro h; exact absurd (Finset.mem_univ _) h
    · exact (if_pos ((lands_iff ids n (i 1) i).2 ⟨hc, rfl⟩)).trans (if_pos hc).symm
  · refine (Finset.sum_eq_zero (fun b _ => if_neg (fun h => hc ((lands_iff ids n b i).1 h).1))).trans ?_
    exact (if_neg hc).symm

end Cert.ReferenceIdeal.PoolMath
end
-- ==== Proof.StageDPRef.lean ====
/-
  The pooled sums after the third layer, on the side that works on whole arrays. From the layer's output y
  (100000 × 36, every entry real) that side takes the column means μ and the column variances as the mean of
  (y − μ)², which for real entries is the mean of the squares less μ²; normalises
      h(n,d) = (g(d)·(y(n,d) − μ(d)))·rsqrt(σ²(d) + eps) + b(d)
  with the scale g and shift b of the third layer (row 2 of block 0 of two 2 × 3 × 36 arrays); and adds the rows
  h(n, ·) into the row of a zero 512 × 36 array that node n's graph id names (row 0 of the id array). That is the
  pool of the normalised rows by graph id.
-/
import proofs.«408188_j34256659153341_2_alg».proof.Proof.RefSegs
import proofs.«408188_j34256659153341_2_alg».proof.Proof.StageDPMath
import proofs.«408188_j34256659153341_2_alg».proof.Proof.Stats
import proofs.«408188_j34256659153341_2_alg».proof.Proof.StatsVar
import proofs.«408188_j34256659153341_2_alg».proof.Proof.RefMlp
import proofs.«408188_j34256659153341_2_alg».proof.Proof.PoolMath
import Idealize.ShloMosaic.Lib.StableHlo.Run
import Idealize.ShloMosaic.Lib.IdealHost

noncomputable section

namespace Cert.Bridge.DPRef

open Idealize.ShloMosaic Idealize.ShloMosaic.ValueIdx Idealize.SL.Sem Idealize.ShloMosaic.StableHlo
open Cert.ReferenceIdeal Cert.ReferenceIdeal.Gen Cert.ReferenceIdeal.RefRun
open Cert.Bridge

/-- Row 2 of block 0 of a 2 × 3 × 36 array, as a vector of 36. -/
abbrev row2 (A : FVec Ideal S2x3x36 .f32) : FVec Ideal S36 .f32 :=
  shapeCast S36 (extractStridedSlice S1x1x36 ![0, 2, 0] A slices_S2x3x36_S1x1x36_0_2_0) shapeCasts_S1x1x36_S36

/-- Row 0 of a 2 × 100000 array of words, as a vector of 100000. -/
abbrev row0 (A : IVec S2x100000 32) : IVec S100000 32 :=
  shapeCast S100000 (extractStridedSlice S1x100000 ![0, 0] A slices_S2x100000_S1x100000_0_0) shapeCasts_S1x100000_S100000

/-- The small constant under the inverse square root. -/
abbrev eps : EReal := Ideal.ofBits .f32 0x3727C5AC#32

/-- A vector of 36 made a row and spread over the 100000 node rows. -/
abbrev rowb (v : FVec Ideal S36 .f32) : FVec Ideal S100000x36 .f32 :=
  broadcastInDim S100000x36 ![0, 1] bcast_S1x36_S100000x36_0_1 (broadcastInDim S1x36 ![1] bcast_S36_S1x36_1 v)

/-- The scalars 0 and 100000. -/
abbrev zeroS : FVec Ideal S_ .f32 := constant (F := Ideal) S_ .f32 0x00000000#32
abbrev cntS : FVec Ideal S_ .f32 := constant (F := Ideal) S_ .f32 0x47C35000#32

/-- The column means as the operations compose them: the column sums over the count. -/
abbrev meanT (Y : FVec Ideal S100000x36 .f32) : FVec Ideal S36 .f32 :=
  Host.divf (Host.reduceAdd Y zeroS reducesTo_S100000x36_S36_d0 h_S_) (broadcastInDim S36 ![] bcast_S_S36 cntS)

/-- The deviations from the column means, the means taken as a row. -/
abbrev devT (Y : FVec Ideal S100000x36 .f32) : FVec Ideal S100000x36 .f32 :=
  subf Y (broadcastInDim S100000x36 ![0, 1] bcast_S1x36_S100000x36_0_1
    (Host.divf (broadcastInDim S1x36 ![1] bcast_S36_S1x36_1 (Host.reduceAdd Y zeroS reducesTo_S100000x36_S36_d0 h_S_))
      (broadcastInDim S1x36 ![] bcast_S_S1x36 cntS)))

/-- The count less the correction 0. -/
abbrev cnt0 : FVec Ideal S_ .f32 := subf cntS (sitofp (F := Ideal) .f32 (constantI S_ 32 0#32))

/-- The column variances as the operations compose them: the mean of the squared deviations, guarded by the test
    that the count is positive. -/
abbrev varT (Y : FVec Ideal S100000x36 .f32) : FVec Ideal S36 .f32 :=
  select (broadcastInDim S36 ![] bcast_S_S36 (cmpf (F := Ideal) .ogt cnt0 zeroS))
    (Host.divf (Host.reduceAdd (mulf (devT Y) (devT Y)) zeroS reducesTo_S100000x36_S36_d0 h_S_)
      (broadcastInDim S36 ![] bcast_S_S36 cnt0))
    (broadcastInDim S36 ![] bcast_S_S36 (constant (F := Ideal) S_ .f32 0x7FC00000#32))

/-- What the segment leaves in the buffer of the pooled sums, as the operations compose it over the contents X
    before the segment. -/
theorem sums_val (X : Valuation τ sig (Elt Ideal)) :
    after (seg6 (F := Ideal)) X (Proc.devRef .tc main_v172)
      = Host.scatterAdd scatter_S512x36_S100000x1_S100000x36_1_0_0_1
          (broadcastInDim S512x36 ![] bcast_S_S512x36 zeroS)
          (broadcastInDim S100000x1 ![0] bcast_S100000_S100000x1_0 (row0 (X (Proc.devRef .tc main_arg2))))
          (addf (mulf (mulf (rowb (row2 (X (Proc.devRef .tc main_arg15))))
                  (subf (X (Proc.devRef .tc main_v144)) (rowb (meanT (X (Proc.devRef .tc main_v144))))))
                (rowb (Host.rsqrt (addf (varT (X (Proc.devRef .tc main_v144)))
                  (broadcastInDim S36 ![] bcast_S_S36 (constant (F := Ideal) S_ .f32 0x3727C5AC#32))))))
            (rowb (row2 (X (Proc.devRef .tc main_arg16))))) := by
  dsimp only [seg6]
  after_results_simp
  rfl

/-- The normalised array, as the operations compose it, is the batch normalisation of y entry by entry. -/
theorem norm_eq (Y : FVec Ideal S100000x36 .f32) (mean var g b : FVec Ideal S36 .f32) :
    addf (mulf (mulf (rowb g) (subf Y (rowb mean)))
        (rowb (Host.rsqrt (addf var (broadcastInDim S36 ![] bcast_S_S36 (constant (F := Ideal) S_ .f32 0x3727C5AC#32))))))
      (rowb b)
    = GinMath.bnRow eps Y (rowOf mean) (rowOf var) (rowOf g) (rowOf b) := by
  funext i
  obtain ⟨n, k, rfl⟩ : ∃ (n : Fin 100000) (k : Fin 36), i = ix2 n k := ⟨i 0, i 1, eq_ix2 i⟩
  rw [addf_apply, mulf_apply, mulf_apply, subf_apply]
  dsimp only [rowb]
  rw [RefMlp.bias_apply, RefMlp.bias_apply, RefMlp.bias_apply, RefMlp.bias_apply]
  show g (ix1 k) * (Y (ix2 n k) - mean (ix1 k))
      * Ideal.rsqrt (var (ix1 k) + broadcastInDim S36 ![] bcast_S_S36 (constant (F := Ideal) S_ .f32 0x3727C5AC#32) (ix1 k))
      + b (ix1 k) = _
  rw [broadcastInDim_scalar_apply, constant_apply]
  rfl

/-- The composed column means are the column sums over 100000. -/
theorem meanT_eq (Y : FVec Ideal S100000x36 .f32) : meanT Y = meanV Y := by
  show Host.divf (Host.reduceAdd Y zeroS reducesTo_S100000x36_S36_d0 h_S_) (broadcastInDim S36 ![] bcast_S_S36 cntS) = _
  rw [GinStats.reduceAdd_rows reducesTo_S100000x36_S36_d0 h_S_ Y]
  rfl

/-- The composed column variances, for real entries, are the mean of the squares less the square of the mean. -/
theorem varT_eq (Y : FVec Ideal S100000x36 .f32) (hY : IsReal Y) : varT Y = varV Y :=
  (GinStats.var_eq reducesTo_S100000x36_S36_d0 h_S_ bcast_S36_S1x36_1 bcast_S_S1x36 bcast_S1x36_S100000x36_0_1
    bcast_S_S36 Y hY).trans rfl

/-- THE POOLED SUMS on the whole-array side, from any contents X of the buffers before the segment whose layer
    output y is real: the pool, by the graph ids of row 0 of the id array, of y normalised with its column means
    and variances and the third layer's scale and shift. -/
theorem sums_eq (X : Valuation τ sig (Elt Ideal)) (Y : FVec Ideal S100000x36 .f32) (hY : IsReal Y)
    (hX : X (Proc.devRef .tc main_v144) = Y) :
    after (seg6 (F := Ideal)) X (Proc.devRef .tc main_v172)
      = GinMath.poolSum (GinMath.bnRow eps Y (rowOf (meanV Y)) (rowOf (varV Y))
          (rowOf (row2 (X (Proc.devRef .tc main_arg15)))) (rowOf (row2 (X (Proc.devRef .tc main_arg16)))))
        (colOf (row0 (X (Proc.devRef .tc main_arg2)))) := by
  rw [sums_val, hX, PoolMath.pool_eq, norm_eq, meanT_eq, varT_eq Y hY]
  rfl

end Cert.Bridge.DPRef

end
-- ==== Proof.IdsReshape.lean ====
/-
  The tiled side lays the vector of graph ids out as a column: row n of the column is entry n of the vector.
-/
import proofs.«408188_j34256659153341_2_alg».proof.KernelIdeal
import Idealize.ShloMosaic.Lib.ValueIdx
import Idealize.ShloMosaic.Lib.Pipeline.Value

noncomputable section

namespace Cert.KernelIdeal.IdsReshape

open Idealize.ShloMosaic Idealize.ShloMosaic.ValueIdx
open Facts₀

variable [Facts₀]

/-- The vector of 100000 graph ids recast as a 100000 × 1 column reads, at row n, the vector's entry n. -/
theorem ids_reshape (ids : IVec S100000 32) :
    shapeCast S100000x1 ids shapeCasts_S100000_S100000x1 = fun i => ids (ix1 (i 0)) := by
  funext i
  refine shapeCast_apply ids shapeCasts_S100000_S100000x1 i (ix1 (i 0)) ?_
  rw [Shape.rowMajor_val_one, Shape.rowMajor_val_two]
  have h1 : (i 1).val = 0 := by have := idx2_lt1 i; omega
  show (i 0).val = (i 0).val * 1 + (i 1).val
  omega

end Cert.KernelIdeal.IdsReshape

end
-- ==== Proof.StageDPKer.lean ====
/-
  What the tiled side prepares for the pool after the third layer. From the per-tile partial column sums of the
  layer's output y and of its squares it takes the column means μ = (Σ y)/100000 and the variances
  (Σ y²)/100000 − μ², lays each out as one row of 36, as it does the third layer's scale and shift (row 2 of
  block 0 of two 2 × 3 × 36 arrays), and lays the graph ids (row 0 of the 2 × 100000 id array) out as a column;
  the layer's output itself is left as it was.
-/
import proofs.«408188_j34256659153341_2_alg».proof.Proof.Gen.KernelIdeal.Launch
import proofs.«408188_j34256659153341_2_alg».proof.Proof.KOpsGood
import proofs.«408188_j34256659153341_2_alg».proof.Proof.StageDPMath
import proofs.«408188_j34256659153341_2_alg».proof.Proof.Stats
import proofs.«408188_j34256659153341_2_alg».proof.Proof.RowReshape
import proofs.«408188_j34256659153341_2_alg».proof.Proof.IdsReshape
import Idealize.ShloMosaic.Lib.StableHlo.Run
import Idealize.ShloMosaic.Lib.IdealHost

noncomputable section

namespace Cert.Bridge.DPKer

open Idealize.ShloMosaic Idealize.ShloMosaic.ValueIdx Idealize.SL.Sem Idealize.ShloMosaic.StableHlo
open Cert.KernelIdeal Cert.KernelIdeal.Gen
open Cert.Bridge

/-- Row 2 of block 0 of a 2 × 3 × 36 array, as a vector of 36. -/
abbrev row2 (A : FVec Ideal S2x3x36 .f32) : FVec Ideal S36 .f32 :=
  shapeCast S36 (extractStridedSlice S1x1x36 ![0, 2, 0] A slices_S2x3x36_S1x1x36_0_2_0) shapeCasts_S1x1x36_S36

/-- Row 0 of a 2 × 100000 array of words, as a vector of 100000. -/
abbrev row0 (A : IVec S2x100000 32) : IVec S100000 32 :=
  shapeCast S100000 (extractStridedSlice S1x100000 ![0, 0] A slices_S2x100000_S1x100000_0_0) shapeCasts_S1x100000_S100000

/-- The scalars 0 and 100000, and 100000 at each of 36 places. -/
abbrev zeroS : FVec Ideal S_ .f32 := constant (F := Ideal) S_ .f32 0x00000000#32
abbrev cntV : FVec Ideal S36 .f32 := broadcastInDim S36 ![] bcast_S_S36 (constant (F := Ideal) S_ .f32 0x47C35000#32)

/-- The sum over the 160 rows of an array of per-tile partial sums. -/
abbrev rsum (P : FVec Ideal S160x36 .f32) : FVec Ideal S36 .f32 := Host.reduceAdd P zeroS reducesTo_S160x36_S36_d0 h_S_

variable (X : Valuation τ sig (Elt Ideal))

/-- The layer's output is not touched. -/
theorem y_keep : after (hostOps3 (F := Ideal)) X (Proc.devRef .tc main_v137_0) = X (Proc.devRef .tc main_v137_0) :=
  KOps.kkeep_3 main_v137_0 (by decide) X

/-- The row of means, as the operations compose it. -/
theorem mean_val : after (hostOps3 (F := Ideal)) X (Proc.devRef .tc main_v153)
    = shapeCast S1x36 (Host.divf (rsum (X (Proc.devRef .tc main_v137_1))) cntV) shapeCasts_S36_S1x36 := by
  dsimp only [hostOps3]
  after_results
  rfl

/-- The row of variances, as the operations compose it. -/
theorem var_val : after (hostOps3 (F := Ideal)) X (Proc.devRef .tc main_v154)
    = shapeCast S1x36 (subf (Host.divf (rsum (X (Proc.devRef .tc main_v137_2))) cntV)
        (mulf (Host.divf (rsum (X (Proc.devRef .tc main_v137_1))) cntV) (Host.divf (rsum (X (Proc.devRef .tc main_v137_1))) cntV)))
      shapeCasts_S36_S1x36 := by
  dsimp only [hostOps3]
  after_results
  rfl

/-- The rows of scales and of shifts and the column of graph ids, as the operations compose them. -/
theorem g_val : after (hostOps3 (F := Ideal)) X (Proc.devRef .tc main_v155)
    = shapeCast S1x36 (row2 (X (Proc.devRef .tc main_arg15))) shapeCasts_S36_S1x36 := by
  dsimp only [hostOps3]
  after_results
  rfl

theorem b_val : after (hostOps3 (F := Ideal)) X (Proc.devRef .tc main_v156)
    = shapeCast S1x36 (row2 (X (Proc.devRef .tc main_arg16))) shapeCasts_S36_S1x36 := by
  dsimp only [hostOps3]
  after_results
  rfl

theorem ids_val : after (hostOps3 (F := Ideal)) X (Proc.devRef .tc main_v152)
    = shapeCast S100000x1 (row0 (X (Proc.devRef .tc main_arg2))) shapeCasts_S100000_S100000x1 := by
  dsimp only [hostOps3]
  after_results
  rfl

/-- The row of means is the row of the column means of y. -/
theorem mean_row (Y : FVec Ideal S100000x36 .f32) (h1 : X (Proc.devRef .tc main_v137_1) = GinMath.tileSums Y) :
    after (hostOps3 (F := Ideal)) X (Proc.devRef .tc main_v153) = rowOf (meanV Y) := by
  rw [mean_val]
  dsimp only [rsum]
  rw [h1, GinStats.reduceAdd_tileSums reducesTo_S160x36_S36_d0 h_S_ Y, RowReshape.row_reshape]
  rfl

/-- The row of variances is the row of the column variances of y. -/
theorem var_row (Y : FVec Ideal S100000x36 .f32) (h1 : X (Proc.devRef .tc main_v137_1) = GinMath.tileSums Y)
    (h2 : X (Proc.devRef .tc main_v137_2) = GinMath.tileSums (GinMath.sq Y)) :
    after (hostOps3 (F := Ideal)) X (Proc.devRef .tc main_v154) = rowOf (varV Y) := by
  rw [var_val]
  dsimp only [rsum]
  rw [h1, h2, GinStats.reduceAdd_tileSums reducesTo_S160x36_S36_d0 h_S_ Y,
    GinStats.reduceAdd_tileSums reducesTo_S160x36_S36_d0 h_S_ (GinMath.sq Y), RowReshape.row_reshape]
  rfl

/-- The row of scales. -/
theorem g_row : after (hostOps3 (F := Ideal)) X (Proc.devRef .tc main_v155)
    = rowOf (row2 (X (Proc.devRef .tc main_arg15))) := by
  rw [g_val, RowReshape.row_reshape]
  rfl

/-- The row of shifts. -/
theorem b_row : after (hostOps3 (F := Ideal)) X (Proc.devRef .tc main_v156)
    = rowOf (row2 (X (Proc.devRef .tc main_arg16))) := by
  rw [b_val, RowReshape.row_reshape]
  rfl

/-- The column of graph ids. -/
theorem ids_col : after (hostOps3 (F := Ideal)) X (Proc.devRef .tc main_v152)
    = colOf (row0 (X (Proc.devRef .tc main_arg2))) := by
  rw [ids_val, IdsReshape.ids_reshape]
  rfl

end Cert.Bridge.DPKer

end
-- ==== Proof.StageDP.lean ====
/-
  The pooled sums after the third layer agree on the two sides. The tiled side's pool region leaves the pool, by
  graph id, of the layer's output normalised with the rows of means, variances, scales and shifts it was given;
  those rows are the column means and variances of the same output y, computed from the per-tile partial sums, and
  the third layer's scale and shift. The whole-array side pools the same normalised array. So if the two sides hold
  the same real output y (with the tiled side's partial sums of y and y²), and the same arguments, the two pools are
  the same array.
-/
import proofs.«408188_j34256659153341_2_alg».proof.Proof.FrameKI
import proofs.«408188_j34256659153341_2_alg».proof.Proof.Reg3Value
import proofs.«408188_j34256659153341_2_alg».proof.Proof.StageDPRef
import proofs.«408188_j34256659153341_2_alg».proof.Proof.StageDPKer
import proofs.«408188_j34256659153341_2_alg».proof.Proof.BridgeArgs

noncomputable section

namespace Cert.Bridge

open Idealize.ShloMosaic Idealize.ShloMosaic.TcCoe Idealize.ShloMosaic.ValueIdx Idealize.SL.Sem Idealize.ShloMosaic.StableHlo

variable (m : (ℓ : Loc Cert.KernelIdeal.nD Cert.KernelIdeal.τ Cert.KernelIdeal.sig) → Buf (Elt Ideal) ℓ)
  (ρ : Dev Cert.KernelIdeal.nD → PrngReg)

/-- The pool region's output after the region, from the contents before the stretch that prepares its rows. -/
theorem ker_sums (c : Dev Cert.KernelIdeal.nD) (Y : GinMath.N36.Idx → EReal)
    (h0 : (Cert.KernelIdeal.Gen.W6 (F := Ideal) m ρ c (Proc.devRef .tc Cert.KernelIdeal.main_v137_0) : GinMath.N36.Idx → EReal) = Y)
    (h1 : (Cert.KernelIdeal.Gen.W6 (F := Ideal) m ρ c (Proc.devRef .tc Cert.KernelIdeal.main_v137_1) : GinMath.P36.Idx → EReal)
      = GinMath.tileSums Y)
    (h2 : (Cert.KernelIdeal.Gen.W6 (F := Ideal) m ρ c (Proc.devRef .tc Cert.KernelIdeal.main_v137_2) : GinMath.P36.Idx → EReal)
      = GinMath.tileSums (GinMath.sq Y)) :
    (Cert.KernelIdeal.Gen.W8 (F := Ideal) m ρ c (Proc.devRef .tc Cert.KernelIdeal.main_v157) : GinMath.G36.Idx → EReal)
      = GinMath.poolSum (GinMath.bnRow DPRef.eps Y (rowOf (meanV Y)) (rowOf (varV Y))
          (rowOf (DPKer.row2 (Cert.KernelIdeal.Gen.W6 (F := Ideal) m ρ c (Proc.devRef .tc Cert.KernelIdeal.main_arg15))))
          (rowOf (DPKer.row2 (Cert.KernelIdeal.Gen.W6 (F := Ideal) m ρ c (Proc.devRef .tc Cert.KernelIdeal.main_arg16)))))
        (colOf (DPKer.row0 (Cert.KernelIdeal.Gen.W6 (F := Ideal) m ρ c (Proc.devRef .tc Cert.KernelIdeal.main_arg2)))) := by
  refine (Cert.KernelIdeal.Gen.W8_arr m ρ c 6).trans ?_
  refine (Cert.KernelIdeal.Reg3.sums_eq (Cert.KernelIdeal.Gen.V7 m ρ) c).trans ?_
  show GinMath.poolSum (GinMath.bnRow Cert.KernelIdeal.Reg3.eps
      (after (Cert.KernelIdeal.Gen.hostOps3 (F := Ideal)) (Cert.KernelIdeal.Gen.W6 m ρ c) (Proc.devRef .tc Cert.KernelIdeal.main_v137_0))
      (after (Cert.KernelIdeal.Gen.hostOps3 (F := Ideal)) (Cert.KernelIdeal.Gen.W6 m ρ c) (Proc.devRef .tc Cert.KernelIdeal.main_v153))
      (after (Cert.KernelIdeal.Gen.hostOps3 (F := Ideal)) (Cert.KernelIdeal.Gen.W6 m ρ c) (Proc.devRef .tc Cert.KernelIdeal.main_v154))
      (after (Cert.KernelIdeal.Gen.hostOps3 (F := Ideal)) (Cert.KernelIdeal.Gen.W6 m ρ c) (Proc.devRef .tc Cert.KernelIdeal.main_v155))
      (after (Cert.KernelIdeal.Gen.hostOps3 (F := Ideal)) (Cert.KernelIdeal.Gen.W6 m ρ c) (Proc.devRef .tc Cert.KernelIdeal.main_v156)))
      (after (Cert.KernelIdeal.Gen.hostOps3 (F := Ideal)) (Cert.KernelIdeal.Gen.W6 m ρ c) (Proc.devRef .tc Cert.KernelIdeal.main_v152)) = _
  rw [DPKer.y_keep (Cert.KernelIdeal.Gen.W6 (F := Ideal) m ρ c), DPKer.mean_row (Cert.KernelIdeal.Gen.W6 (F := Ideal) m ρ c) Y h1,
    DPKer.var_row (Cert.KernelIdeal.Gen.W6 (F := Ideal) m ρ c) Y h1 h2, DPKer.g_row (Cert.KernelIdeal.Gen.W6 (F := Ideal) m ρ c),
    DPKer.b_row (Cert.KernelIdeal.Gen.W6 (F := Ideal) m ρ c), DPKer.ids_col (Cert.KernelIdeal.Gen.W6 (F := Ideal) m ρ c), h0]
  all_goals rfl

/-- THE STAGE, over any contents X of the whole-array side's buffers before its segment: the two sides' pooled
    sums agree when they hold the same real layer output and the same three arguments. -/
theorem stage_DP_core (c : Dev Cert.KernelIdeal.nD)
    (X : Valuation Cert.ReferenceIdeal.τ Cert.ReferenceIdeal.sig (Elt Ideal))
    (hin : RelY (Cert.KernelIdeal.Gen.W6 (F := Ideal) m ρ c (Proc.devRef .tc Cert.KernelIdeal.main_v137_0))
      (Cert.KernelIdeal.Gen.W6 (F := Ideal) m ρ c (Proc.devRef .tc Cert.KernelIdeal.main_v137_1))
      (Cert.KernelIdeal.Gen.W6 (F := Ideal) m ρ c (Proc.devRef .tc Cert.KernelIdeal.main_v137_2))
      (X (Proc.devRef .tc Cert.ReferenceIdeal.main_v144)))
    (h15 : (X (Proc.devRef .tc Cert.ReferenceIdeal.main_arg15) : (⟨3, ![2, 3, 36]⟩ : Shape).Idx → EReal)
      = Cert.KernelIdeal.Gen.W6 (F := Ideal) m ρ c (Proc.devRef .tc Cert.KernelIdeal.main_arg15))
    (h16 : (X (Proc.devRef .tc Cert.ReferenceIdeal.main_arg16) : (⟨3, ![2, 3, 36]⟩ : Shape).Idx → EReal)
      = Cert.KernelIdeal.Gen.W6 (F := Ideal) m ρ c (Proc.devRef .tc Cert.KernelIdeal.main_arg16))
    (h2 : (X (Proc.devRef .tc Cert.ReferenceIdeal.main_arg2) : (⟨2, ![2, 100000]⟩ : Shape).Idx → BitVec 32)
      = Cert.KernelIdeal.Gen.W6 (F := Ideal) m ρ c (Proc.devRef .tc Cert.KernelIdeal.main_arg2)) :
    (Cert.KernelIdeal.Gen.W8 (F := Ideal) m ρ c (Proc.devRef .tc Cert.KernelIdeal.main_v157) : GinMath.G36.Idx → EReal)
      = after (Cert.ReferenceIdeal.RefRun.seg6 (F := Ideal)) X (Proc.devRef .tc Cert.ReferenceIdeal.main_v172) := by
  obtain ⟨e0, e1, e2, hY⟩ := hin
  rw [ker_sums m ρ c _ e0 e1 e2, DPRef.sums_eq X _ hY rfl, h15, h16, h2]
  all_goals rfl

/-- THE STAGE between the two runs' checkpoints: after the pool region on the tiled side and after the segment that
    ends in the pooled sums on the whole-array side, the pooled sums are the same array, given the layer's output
    related at the checkpoints before and the two memories' agreement on the graph ids and on the scales and shifts. -/
theorem stage_DP (m' : (ℓ : Loc Cert.ReferenceIdeal.nD Cert.ReferenceIdeal.τ Cert.ReferenceIdeal.sig) → Buf (Elt Ideal) ℓ)
    (c : Dev Cert.KernelIdeal.nD)
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h15 : m' ((c.tc : Thread Cert.ReferenceIdeal.nD Cert.ReferenceIdeal.τ).loc Cert.ReferenceIdeal.main_arg15)
      = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16)
      = m ((c.tc : Thread Cert.KernelIdeal.nD Cert.KernelIdeal.τ).loc Cert.KernelIdeal.main_arg16))
    (hin : RelY (Cert.KernelIdeal.Gen.W6 (F := Ideal) m ρ c (Proc.devRef .tc Cert.KernelIdeal.main_v137_0))
      (Cert.KernelIdeal.Gen.W6 (F := Ideal) m ρ c (Proc.devRef .tc Cert.KernelIdeal.main_v137_1))
      (Cert.KernelIdeal.Gen.W6 (F := Ideal) m ρ c (Proc.devRef .tc Cert.KernelIdeal.main_v137_2))
      (Cert.ReferenceIdeal.RefRun.R6 (F := Ideal) m' c (Proc.devRef .tc Cert.ReferenceIdeal.main_v144))) :
    (Cert.KernelIdeal.Gen.W8 (F := Ideal) m ρ c (Proc.devRef .tc Cert.KernelIdeal.main_v157) : GinMath.G36.Idx → EReal)
      = Cert.ReferenceIdeal.RefRun.R7 (F := Ideal) m' c (Proc.devRef .tc Cert.ReferenceIdeal.main_v172) :=
  stage_DP_core m ρ c (Cert.ReferenceIdeal.RefRun.R6 (F := Ideal) m' c) hin
    ((rarg_6 m' c Cert.ReferenceIdeal.main_arg15 (by decide)).trans
      (h15.trans (karg_6 m ρ c Cert.KernelIdeal.main_arg15 (by decide)).symm))
    ((rarg_6 m' c Cert.ReferenceIdeal.main_arg16 (by decide)).trans
      (h16.trans (karg_6 m ρ c Cert.KernelIdeal.main_arg16 (by decide)).symm))
    ((rarg_6 m' c Cert.ReferenceIdeal.main_arg2 (by decide)).trans
      (h2.trans (karg_6 m ρ c Cert.KernelIdeal.main_arg2 (by decide)).symm))

end Cert.Bridge

end
-- ==== Proof.StageEOps.lean ====
/-
  Between the two transforms, over any buffer contents at entry: the mean pool of transform 0 and the aggregate of
  transform 1 as each program's host operations compute them — the same operations up to buffer names.
-/
import proofs.«408188_j34256659153341_2_alg».proof.Proof.BridgeDefs
import proofs.«408188_j34256659153341_2_alg».proof.Proof.Gen.KernelIdeal.Launch
import proofs.«408188_j34256659153341_2_alg».proof.Proof.RefSegs
import proofs.«408188_j34256659153341_2_alg».proof.Proof.AggFin
import Idealize.ShloMosaic.Lib.ValueIdx

set_option maxRecDepth 16384

noncomputable section

namespace Cert.Bridge

open Idealize.ShloMosaic Idealize.SL.Sem Idealize.ShloMosaic.StableHlo

/-- The tiled program cuts transform 0's row of graph ids out of the argument before the pool region and keeps it. -/
theorem kids0_after (V : Valuation Cert.KernelIdeal.τ Cert.KernelIdeal.sig (Elt Ideal)) :
    (after Cert.KernelIdeal.Gen.hostOps3 V (Proc.devRef .tc Cert.KernelIdeal.main_v151) : Cert.KernelIdeal.S100000.Idx → BitVec 32)
      = shapeCast Cert.KernelIdeal.S100000 (extractStridedSlice Cert.KernelIdeal.S1x100000 ![0, 0] (V (Proc.devRef .tc Cert.KernelIdeal.main_arg2) : IVec Cert.KernelIdeal.S2x100000 32) Cert.KernelIdeal.Facts₀.slices_S2x100000_S1x100000_0_0) Cert.KernelIdeal.Facts₀.shapeCasts_S1x100000_S100000 := by
  dsimp only [Cert.KernelIdeal.Gen.hostOps3]
  after_results
  rfl

set_option maxHeartbeats 1600000 in
/-- The mean pool of transform 0: the pool sums divided, graph by graph, by the number of the graph's nodes (a
    scatter-add of ones along the graph ids), at least 1. The same operations in both programs. -/
theorem pool0_eq (V : Valuation Cert.KernelIdeal.τ Cert.KernelIdeal.sig (Elt Ideal)) (V' : Valuation Cert.ReferenceIdeal.τ Cert.ReferenceIdeal.sig (Elt Ideal))
    (es : (V (Proc.devRef .tc Cert.KernelIdeal.main_v157) : GinMath.G36.Idx → EReal) = V' (Proc.devRef .tc Cert.ReferenceIdeal.main_v172))
    (eid : (V (Proc.devRef .tc Cert.KernelIdeal.main_v151) : Cert.KernelIdeal.S100000.Idx → BitVec 32)
      = shapeCast Cert.ReferenceIdeal.S100000 (extractStridedSlice Cert.ReferenceIdeal.S1x100000 ![0, 0] (V' (Proc.devRef .tc Cert.ReferenceIdeal.main_arg2) : IVec Cert.ReferenceIdeal.S2x100000 32) Cert.ReferenceIdeal.Facts₀.slices_S2x100000_S1x100000_0_0) Cert.ReferenceIdeal.Facts₀.shapeCasts_S1x100000_S100000) :
    (after Cert.KernelIdeal.Gen.hostOps4 V (Proc.devRef .tc Cert.KernelIdeal.main_v166) : GinMath.G36.Idx → EReal)
      = after Cert.ReferenceIdeal.RefRun.seg7 V' (Proc.devRef .tc Cert.ReferenceIdeal.main_v183) := by
  dsimp only [Cert.KernelIdeal.Gen.hostOps4, Cert.ReferenceIdeal.RefRun.seg7]
  after_results_simp
  rw [es, eid]
  rfl

set_option maxHeartbeats 1600000 in
/-- Both programs add to each node's features of transform 1 those of its in-neighbours: a gather along the edges'
    sources, a scatter-add along their targets, the node's own row added. Rounding the gathered rows to bf16 and
    back, which the tiled program does, is the identity on extended reals. -/
theorem agg1_eq (V : Valuation Cert.KernelIdeal.τ Cert.KernelIdeal.sig (Elt Ideal)) (V' : Valuation Cert.ReferenceIdeal.τ Cert.ReferenceIdeal.sig (Elt Ideal))
    (e0 : V' (Proc.devRef .tc Cert.ReferenceIdeal.main_arg0) = V (Proc.devRef .tc Cert.KernelIdeal.main_arg0))
    (e1 : V' (Proc.devRef .tc Cert.ReferenceIdeal.main_arg1) = V (Proc.devRef .tc Cert.KernelIdeal.main_arg1)) :
    (after Cert.KernelIdeal.Gen.hostOps4 V (Proc.devRef .tc Cert.KernelIdeal.main_v185) : GinMath.N6.Idx → EReal)
      = after Cert.ReferenceIdeal.RefRun.seg7 V' (Proc.devRef .tc Cert.ReferenceIdeal.main_v208) := by
  dsimp only [Cert.KernelIdeal.Gen.hostOps4, Cert.ReferenceIdeal.RefRun.seg7]
  after_results_simp
  rw [e0, e1]
  rfl

set_option maxHeartbeats 1600000 in
/-- The plain program's aggregate of transform 1 is real when the node features are: a node's row plus a finite sum
    of gathered rows. -/
theorem ragg1_real (V' : Valuation Cert.ReferenceIdeal.τ Cert.ReferenceIdeal.sig (Elt Ideal))
    (hx : IsReal (S := Cert.ReferenceIdeal.S2x100000x6) (V' (Proc.devRef .tc Cert.ReferenceIdeal.main_arg0))) :
    IsReal (S := GinMath.N6) (after Cert.ReferenceIdeal.RefRun.seg7 V' (Proc.devRef .tc Cert.ReferenceIdeal.main_v208)) := by
  dsimp only [Cert.ReferenceIdeal.RefRun.seg7]
  after_results_simp
  refine Cert.ReferenceIdeal.AggFin.agg6_real _ _ _ ?_
  exact fun i => hx _

end Cert.Bridge

end
-- ==== Proof.StageE.lean ====
/-
  The checkpoint between the two transforms: given the same pool sums, both programs hold the same mean pool of
  transform 0 (the sums divided by the graphs' node counts, at least 1) and the same aggregate of transform 1's
  node features.
-/
import proofs.«408188_j34256659153341_2_alg».proof.Proof.BridgeDefs
import proofs.«408188_j34256659153341_2_alg».proof.Proof.BridgeArgs
import proofs.«408188_j34256659153341_2_alg».proof.Proof.StageEOps
import Idealize.ShloMosaic.Lib.ValueIdx

set_option maxRecDepth 16384

noncomputable section

namespace Cert.Bridge

open Idealize.ShloMosaic Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-- At the pool region's exit the tiled program's row of graph ids is the plain program's, cut from the argument. -/
theorem kids0 (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    (Cert.KernelIdeal.Gen.W8 (F := Ideal) m ρ c (Proc.devRef .tc Cert.KernelIdeal.main_v151) : Cert.KernelIdeal.S100000.Idx → BitVec 32)
      = shapeCast Cert.ReferenceIdeal.S100000 (extractStridedSlice Cert.ReferenceIdeal.S1x100000 ![0, 0] (Cert.ReferenceIdeal.RefRun.R7 (F := Ideal) m' c (Proc.devRef .tc Cert.ReferenceIdeal.main_arg2) : IVec Cert.ReferenceIdeal.S2x100000 32) Cert.ReferenceIdeal.Facts₀.slices_S2x100000_S1x100000_0_0) Cert.ReferenceIdeal.Facts₀.shapeCasts_S1x100000_S100000 := by
  rw [Cert.KernelIdeal.Gen.W8_of_ne m ρ c Cert.KernelIdeal.main_v151 (by decide)]
  refine (kids0_after (Cert.KernelIdeal.Gen.W6 m ρ c)).trans ?_
  have e2 : Cert.ReferenceIdeal.RefRun.R7 (F := Ideal) m' c (Proc.devRef .tc Cert.ReferenceIdeal.main_arg2) = Cert.KernelIdeal.Gen.W6 (F := Ideal) m ρ c (Proc.devRef .tc Cert.KernelIdeal.main_arg2) :=
    ((rarg_7 m' c Cert.ReferenceIdeal.main_arg2 (by decide)).trans h2).trans (karg_6 m ρ c Cert.KernelIdeal.main_arg2 (by decide)).symm
  rw [e2]

/-- Stage E: from equal pool sums to equal mean pools of transform 0 and equal, real aggregates of transform 1. -/
theorem stage_E (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (hreal0 : IsReal (S := Cert.KernelIdeal.S2x100000x6) (m ((c.tc : Thread Cert.KernelIdeal.nD Cert.KernelIdeal.τ).loc Cert.KernelIdeal.main_arg0)))
    (hin : (Cert.KernelIdeal.Gen.W8 (F := Ideal) m ρ c (Proc.devRef .tc Cert.KernelIdeal.main_v157) : GinMath.G36.Idx → EReal)
      = Cert.ReferenceIdeal.RefRun.R7 (F := Ideal) m' c (Proc.devRef .tc Cert.ReferenceIdeal.main_v172)) :
    (Cert.KernelIdeal.Gen.W9 (F := Ideal) m ρ c (Proc.devRef .tc Cert.KernelIdeal.main_v166) : GinMath.G36.Idx → EReal)
        = Cert.ReferenceIdeal.RefRun.R8 (F := Ideal) m' c (Proc.devRef .tc Cert.ReferenceIdeal.main_v183)
    ∧ RelAgg (Cert.KernelIdeal.Gen.W9 (F := Ideal) m ρ c (Proc.devRef .tc Cert.KernelIdeal.main_v185) : GinMath.N6.Idx → EReal)
        (Cert.ReferenceIdeal.RefRun.R8 (F := Ideal) m' c (Proc.devRef .tc Cert.ReferenceIdeal.main_v208)) := by
  have ea0 : Cert.ReferenceIdeal.RefRun.R7 (F := Ideal) m' c (Proc.devRef .tc Cert.ReferenceIdeal.main_arg0) = Cert.KernelIdeal.Gen.W8 (F := Ideal) m ρ c (Proc.devRef .tc Cert.KernelIdeal.main_arg0) :=
    ((rarg_7 m' c Cert.ReferenceIdeal.main_arg0 (by decide)).trans h0).trans (karg_8 m ρ c Cert.KernelIdeal.main_arg0 (by decide)).symm
  have ea1 : Cert.ReferenceIdeal.RefRun.R7 (F := Ideal) m' c (Proc.devRef .tc Cert.ReferenceIdeal.main_arg1) = Cert.KernelIdeal.Gen.W8 (F := Ideal) m ρ c (Proc.devRef .tc Cert.KernelIdeal.main_arg1) :=
    ((rarg_7 m' c Cert.ReferenceIdeal.main_arg1 (by decide)).trans h1).trans (karg_8 m ρ c Cert.KernelIdeal.main_arg1 (by decide)).symm
  have hx : IsReal (S := Cert.ReferenceIdeal.S2x100000x6) (Cert.ReferenceIdeal.RefRun.R7 (F := Ideal) m' c (Proc.devRef .tc Cert.ReferenceIdeal.main_arg0)) := by
    rw [(rarg_7 m' c Cert.ReferenceIdeal.main_arg0 (by decide)).trans h0]; exact hreal0
  have hreal : IsReal (S := GinMath.N6) (Cert.ReferenceIdeal.RefRun.R8 (F := Ideal) m' c (Proc.devRef .tc Cert.ReferenceIdeal.main_v208)) :=
    ragg1_real (Cert.ReferenceIdeal.RefRun.R7 m' c) hx
  have eagg : (Cert.KernelIdeal.Gen.W9 (F := Ideal) m ρ c (Proc.devRef .tc Cert.KernelIdeal.main_v185) : GinMath.N6.Idx → EReal)
      = Cert.ReferenceIdeal.RefRun.R8 (F := Ideal) m' c (Proc.devRef .tc Cert.ReferenceIdeal.main_v208) :=
    agg1_eq (Cert.KernelIdeal.Gen.W8 m ρ c) (Cert.ReferenceIdeal.RefRun.R7 m' c) ea0 ea1
  exact And.intro (pool0_eq (Cert.KernelIdeal.Gen.W8 m ρ c) (Cert.ReferenceIdeal.RefRun.R7 m' c) hin (kids0 m ρ m' c h2))
    (And.intro eagg (by rw [eagg]; exact hreal))

end Cert.Bridge

end
-- ==== Proof.Reg4Pay.lean ====
/-
  One tile of the two-layer perceptron, entry by entry. A tile is 5000 node rows of 6 features; with the weights
  and biases whole, row p of the tile's output is
      y(p,d) = max( Σ_k max( Σ_j x(p,j)·WA(j,k) + BA(k), 0 )·WB(k,d) + BB(d), 0 ),
  a block product being the sum over its one contracted axis and a change of float format being the identity on
  extended reals. The two 8-row blocks of partial sums hold, in row 0, the column sums of y and of y·y over the
  tile's rows, and zero in rows 1 to 7 (the row number compared with zero selects).
-/
import proofs.«408188_j34256659153341_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Reg4

open Idealize.ShloMosaic Idealize.ShloMosaic.ValueIdx
open Cert.KernelIdeal Cert.KernelIdeal.Gen

/-! ## The two block products, read at an entry -/

/-- The dimension numbers of the first product, [5000,6] by [6,36]. -/
abbrev DA : DotDims S5000x6 S6x36 S5000x36 := dot_S5000x6_S6x36_S5000x36_1_0_0_1_n_n
/-- The dimension numbers of the second product, [5000,36] by [36,36]. -/
abbrev DB : DotDims S5000x36 S36x36 S5000x36 := dot_S5000x36_S36x36_S5000x36_1_0_0_1_n_n

theorem lhsA_0 (i : S5000x36.Idx) (s : dot_S5000x6_S6x36_S5000x36_1_0_0_1_n_n.contr.Idx) :
    (dot_S5000x6_S6x36_S5000x36_1_0_0_1_n_n.lhsIdx i s 0).val = (i 0).val := by
  unfold DotDims.lhsIdx
  rw [dif_neg (show ¬(0 : Fin S5000x6.rank) ∈ dot_S5000x6_S6x36_S5000x36_1_0_0_1_n_n.lhsBatch by decide),
    dif_pos (show (0 : Fin S5000x6.rank) ∈ dot_S5000x6_S6x36_S5000x36_1_0_0_1_n_n.lhsNonContracting by decide)]
  rfl
theorem lhsA_1 (i : S5000x36.Idx) (s : dot_S5000x6_S6x36_S5000x36_1_0_0_1_n_n.contr.Idx) :
    (dot_S5000x6_S6x36_S5000x36_1_0_0_1_n_n.lhsIdx i s 1).val = (s ⟨0, by decide⟩).val :=
  dot_S5000x6_S6x36_S5000x36_1_0_0_1_n_n.lhsIdx_val_of_single rfl i s
theorem rhsA_0 (i : S5000x36.Idx) (s : dot_S5000x6_S6x36_S5000x36_1_0_0_1_n_n.contr.Idx) :
    (dot_S5000x6_S6x36_S5000x36_1_0_0_1_n_n.rhsIdx i s 0).val = (s ⟨0, by decide⟩).val :=
  dot_S5000x6_S6x36_S5000x36_1_0_0_1_n_n.rhsIdx_val_of_single rfl i s
theorem rhsA_1 (i : S5000x36.Idx) (s : dot_S5000x6_S6x36_S5000x36_1_0_0_1_n_n.contr.Idx) :
    (dot_S5000x6_S6x36_S5000x36_1_0_0_1_n_n.rhsIdx i s 1).val = (i 1).val := by
  unfold DotDims.rhsIdx
  rw [dif_neg (show ¬(1 : Fin S6x36.rank) ∈ dot_S5000x6_S6x36_S5000x36_1_0_0_1_n_n.rhsBatch by decide),
    dif_pos (show (1 : Fin S6x36.rank) ∈ dot_S5000x6_S6x36_S5000x36_1_0_0_1_n_n.rhsNonContracting by decide)]
  rfl

/-- The first product at (p, k): the sum over the 6 features. -/
theorem mmA_apply (a : FVec Ideal S5000x6 .bf16) (b : FVec Ideal S6x36 .bf16) (p : Fin 5000) (k : Fin 36) :
    matmul dot_S5000x6_S6x36_S5000x36_1_0_0_1_n_n none a b (constant (F := Ideal) S5000x36 .f32 0x00000000#32) (ix2 p k)
      = ∑ j : Fin 6, a (ix2 p j) * b (ix2 j k) := by
  refine (Ideal.matmul_constant_zero_apply dot_S5000x6_S6x36_S5000x36_1_0_0_1_n_n none a b (ix2 p k)).trans ?_
  rw [← Equiv.sum_comp (contrEquiv1 dot_S5000x6_S6x36_S5000x36_1_0_0_1_n_n 6 rfl rfl).symm]
  refine Finset.sum_congr rfl fun j _ => ?_
  have hk := contrEquiv1_symm_val dot_S5000x6_S6x36_S5000x36_1_0_0_1_n_n 6 rfl rfl j
  have el : dot_S5000x6_S6x36_S5000x36_1_0_0_1_n_n.lhsIdx (ix2 p k) ((contrEquiv1 dot_S5000x6_S6x36_S5000x36_1_0_0_1_n_n 6 rfl rfl).symm j) = ix2 p j :=
    funext fun c => Fin.ext (by
      match c with
      | ⟨0, _⟩ => exact lhsA_0 _ _
      | ⟨1, _⟩ => exact (lhsA_1 _ _).trans hk)
  have er : dot_S5000x6_S6x36_S5000x36_1_0_0_1_n_n.rhsIdx (ix2 p k) ((contrEquiv1 dot_S5000x6_S6x36_S5000x36_1_0_0_1_n_n 6 rfl rfl).symm j) = ix2 j k :=
    funext fun c => Fin.ext (by
      match c with
      | ⟨0, _⟩ => exact (rhsA_0 _ _).trans hk
      | ⟨1, _⟩ => exact rhsA_1 _ _)
  rw [el, er]

theorem lhsB_0 (i : S5000x36.Idx) (s : dot_S5000x36_S36x36_S5000x36_1_0_0_1_n_n.contr.Idx) :
    (dot_S5000x36_S36x36_S5000x36_1_0_0_1_n_n.lhsIdx i s 0).val = (i 0).val := by
  unfold DotDims.lhsIdx
  rw [dif_neg (show ¬(0 : Fin S5000x36.rank) ∈ dot_S5000x36_S36x36_S5000x36_1_0_0_1_n_n.lhsBatch by decide),
    dif_pos (show (0 : Fin S5000x36.rank) ∈ dot_S5000x36_S36x36_S5000x36_1_0_0_1_n_n.lhsNonContracting by decide)]
  rfl
theorem lhsB_1 (i : S5000x36.Idx) (s : dot_S5000x36_S36x36_S5000x36_1_0_0_1_n_n.contr.Idx) :
    (dot_S5000x36_S36x36_S5000x36_1_0_0_1_n_n.lhsIdx i s 1).val = (s ⟨0, by decide⟩).val :=
  dot_S5000x36_S36x36_S5000x36_1_0_0_1_n_n.lhsIdx_val_of_single rfl i s
theorem rhsB_0 (i : S5000x36.Idx) (s : dot_S5000x36_S36x36_S5000x36_1_0_0_1_n_n.contr.Idx) :
    (dot_S5000x36_S36x36_S5000x36_1_0_0_1_n_n.rhsIdx i s 0).val = (s ⟨0, by decide⟩).val :=
  dot_S5000x36_S36x36_S5000x36_1_0_0_1_n_n.rhsIdx_val_of_single rfl i s
theorem rhsB_1 (i : S5000x36.Idx) (s : dot_S5000x36_S36x36_S5000x36_1_0_0_1_n_n.contr.Idx) :
    (dot_S5000x36_S36x36_S5000x36_1_0_0_1_n_n.rhsIdx i s 1).val = (i 1).val := by
  unfold DotDims.rhsIdx
  rw [dif_neg (show ¬(1 : Fin S36x36.rank) ∈ dot_S5000x36_S36x36_S5000x36_1_0_0_1_n_n.rhsBatch by decide),
    dif_pos (show (1 : Fin S36x36.rank) ∈ dot_S5000x36_S36x36_S5000x36_1_0_0_1_n_n.rhsNonContracting by decide)]
  rfl

/-- The second product at (p, d): the sum over the 36 hidden units. -/
theorem mmB_apply (a : FVec Ideal S5000x36 .bf16) (b : FVec Ideal S36x36 .bf16) (p : Fin 5000) (d : Fin 36) :
    matmul dot_S5000x36_S36x36_S5000x36_1_0_0_1_n_n none a b (constant (F := Ideal) S5000x36 .f32 0x00000000#32) (ix2 p d)
      = ∑ k : Fin 36, a (ix2 p k) * b (ix2 k d) := by
  refine (Ideal.matmul_constant_zero_apply dot_S5000x36_S36x36_S5000x36_1_0_0_1_n_n none a b (ix2 p d)).trans ?_
  rw [← Equiv.sum_comp (contrEquiv1 dot_S5000x36_S36x36_S5000x36_1_0_0_1_n_n 36 rfl rfl).symm]
  refine Finset.sum_congr rfl fun k _ => ?_
  have hk := contrEquiv1_symm_val dot_S5000x36_S36x36_S5000x36_1_0_0_1_n_n 36 rfl rfl k
  have el : dot_S5000x36_S36x36_S5000x36_1_0_0_1_n_n.lhsIdx (ix2 p d) ((contrEquiv1 dot_S5000x36_S36x36_S5000x36_1_0_0_1_n_n 36 rfl rfl).symm k) = ix2 p k :=
    funext fun c => Fin.ext (by
      match c with
      | ⟨0, _⟩ => exact lhsB_0 _ _
      | ⟨1, _⟩ => exact (lhsB_1 _ _).trans hk)
  have er : dot_S5000x36_S36x36_S5000x36_1_0_0_1_n_n.rhsIdx (ix2 p d) ((contrEquiv1 dot_S5000x36_S36x36_S5000x36_1_0_0_1_n_n 36 rfl rfl).symm k) = ix2 k d :=
    funext fun c => Fin.ext (by
      match c with
      | ⟨0, _⟩ => exact (rhsB_0 _ _).trans hk
      | ⟨1, _⟩ => exact rhsB_1 _ _)
  rw [el, er]

/-! ## The tile's output -/

variable (x0 : FVec Ideal S5000x6 .f32) (x1 : FVec Ideal S6x36 .f32) (x2 : FVec Ideal S1x36 .f32)
  (x3 : FVec Ideal S36x36 .f32) (x4 : FVec Ideal S1x36 .f32)

/-- The hidden activation of the tile's row p, unit k. -/
def hidT (p : Fin 5000) (k : Fin 36) : EReal := max ((∑ j : Fin 6, x0 (ix2 p j) * x1 (ix2 j k)) + x2 (ix2 0 k)) 0

/-- The tile's output at row p, column d. -/
def outT (p : Fin 5000) (d : Fin 36) : EReal :=
  max ((∑ k : Fin 36, hidT x0 x1 x2 p k * x3 (ix2 k d)) + x4 (ix2 0 d)) 0

/-- The stored output block, entry by entry. -/
theorem pay2_apply (p : Fin 5000) (d : Fin 36) :
    k4_pay2 (F := Ideal) x0 x1 x2 x3 x4 (ix2 p d) = outT x0 x1 x2 x3 x4 p d := by
  unfold k4_pay2 outT hidT
  simp only [maximumf_apply, addf_apply, truncf_apply, broadcast_apply, mmA_apply, mmB_apply, broadcastTo_1b_ab_apply,
    shapeCast_self]
  rw [show FloatOps.ofBits (F := Ideal) .f32 0x00000000#32 = (0 : EReal) from Ideal.ofBits_zero_f32]

/-! ## The column sums over the tile's rows, and the row-0 selection -/

/-- A sum over the row axis of a [5000,36] block, read at column d. The accumulator word is the zero word. -/
theorem colsum_apply (src : FVec Ideal S5000x36 .f32) (hφ : FTy.f32 = FTy.f32 ∨ FTy.f32 = FTy.bf16)
    (hacc : (0x00000000#32 : BitVec 32) = 0x00000000#32) (d : Fin 36) :
    multiReduction .add [0] S36 src 0x00000000#32 Gen.reduces_S5000x36_S36 hφ hacc (ix1 d)
      = ∑ p : Fin 5000, src (ix2 p d) := by
  refine (Ideal.multiReduction_add_single src 0x00000000#32 Gen.reduces_S5000x36_S36 hφ hacc (ix1 d)).trans ?_
  refine Finset.sum_congr rfl fun p _ => congrArg src ?_
  funext c
  apply Fin.ext
  rw [Shape.Reduces.lift_val]
  unfold Shape.Reduces.liftVal
  match c with
  | ⟨0, _⟩ => rfl
  | ⟨1, _⟩ => rfl

theorem cmpi_apply {s : Shape} {w : Nat} (pr : CmpIPredicate) (x y : IVec s w) (i : s.Idx) :
    cmpi pr x y i = IntOp.cmpi pr (x i) (y i) := rfl

/-- Comparing a row number below 8 with zero selects the first branch on row 0 only. -/
theorem select_row0 {α : Type} (r : Nat) (hr : r < 8) (A B : α) :
    Scalar.select (IntOp.cmpi .eq (BitVec.ofNat 32 r) 0#32) A B = if r = 0 then A else B := by
  interval_cases r <;> rfl

/-- The block of column sums: row 0 holds the sum of the tile's output over its 5000 rows, rows 1 to 7 zero. -/
theorem pay4_apply (r : Fin 8) (d : Fin 36) :
    k4_pay4 (F := Ideal) x0 x1 x2 x3 x4 (ix2 r d) = if r.val = 0 then ∑ p : Fin 5000, outT x0 x1 x2 x3 x4 p d else 0 := by
  unfold k4_pay4
  simp only [select_apply, cmpi_apply, broadcast_apply, broadcastTo_1b_ab_apply, shapeCast_self, shapeCast_a_1a_apply,
    ]
  rw [iota_single_apply]
  show Scalar.select (IntOp.cmpi .eq (BitVec.ofNat 32 r.val) 0#32) _ _ = _
  rw [select_row0 _ r.isLt, show FloatOps.ofBits (F := Ideal) .f32 0x00000000#32 = (0 : EReal) from Ideal.ofBits_zero_f32]
  exact if_congr Iff.rfl ((colsum_apply _ _ _ d).trans (Finset.sum_congr rfl fun p _ => pay2_apply x0 x1 x2 x3 x4 p d)) rfl

/-- The block of column sums of squares. -/
theorem pay1_apply (r : Fin 8) (d : Fin 36) :
    k4_pay1 (F := Ideal) (k4_pay3 (F := Ideal) x0 x1 x2 x3 x4) (iota .tc S8x36 32 [0] Gen.iota_S8x36_d0_w32) (ix2 r d)
      = if r.val = 0 then ∑ p : Fin 5000, outT x0 x1 x2 x3 x4 p d * outT x0 x1 x2 x3 x4 p d else 0 := by
  unfold k4_pay1 k4_pay3
  simp only [select_apply, cmpi_apply, broadcast_apply, broadcastTo_1b_ab_apply, shapeCast_self, shapeCast_a_1a_apply,
    ]
  rw [iota_single_apply]
  show Scalar.select (IntOp.cmpi .eq (BitVec.ofNat 32 r.val) 0#32) _ _ = _
  rw [select_row0 _ r.isLt, show FloatOps.ofBits (F := Ideal) .f32 0x00000000#32 = (0 : EReal) from Ideal.ofBits_zero_f32]
  exact if_congr Iff.rfl ((colsum_apply _ _ _ d).trans (Finset.sum_congr rfl fun p _ => by
    rw [mulf_apply, pay2_apply])) rfl

end Cert.KernelIdeal.Reg4

end
-- ==== Proof.Reg4Point.lean ====
/-
  A tile inside the whole array. Tile t of the perceptron's output is rows 5000·t … 5000·t + 4999 of the
  whole-array perceptron, because a row of the output depends on the same row of the features only. Its block of
  partial sums is rows 8·t … 8·t + 7 of the 160-row array of tile sums: the sum over the rows n of the whole array
  with n / 5000 = t is the sum over the tile's 5000 rows, and row 8·t + r has remainder r and quotient t by 8.
-/
import proofs.«408188_j34256659153341_2_alg».proof.Proof.GinMath
import proofs.«408188_j34256659153341_2_alg».proof.Proof.Reg4Pay

noncomputable section

open scoped BigOperators

namespace Cert.KernelIdeal.Reg4

open Idealize.ShloMosaic Idealize.ShloMosaic.ValueIdx
open Cert.KernelIdeal Cert.KernelIdeal.Gen

open Cert.GinMath

/-- A sum over the rows of tile t of a 100000-row column is the sum over the tile's 5000 rows. -/
theorem tile_sum (f : Fin 100000 → EReal) (t : Nat) (ht : t < 20) :
    ∑ n : Fin 100000, (if n.val / 5000 = t then f n else 0)
      = ∑ p : Fin 5000, f ⟨5000 * t + p.val, by have := p.isLt; omega⟩ := by
  rw [← Finset.sum_filter]
  symm
  refine Finset.sum_bij (fun p _ => (⟨5000 * t + p.val, by have := p.isLt; omega⟩ : Fin 100000)) ?_ ?_ ?_ ?_
  · intro p _
    simp only [Finset.mem_filter, Finset.mem_univ, true_and]
    have := p.isLt; omega
  · intro p _ p' _ h
    apply Fin.ext
    have := congrArg Fin.val h
    simp only at this
    omega
  · intro n hn
    simp only [Finset.mem_filter, Finset.mem_univ, true_and] at hn
    have := n.isLt
    exact ⟨⟨n.val - 5000 * t, by omega⟩, Finset.mem_univ _, Fin.ext (by simp only; omega)⟩
  · intro p _; rfl

variable (x0 : FVec Ideal S5000x6 .f32) (x1 : FVec Ideal S6x36 .f32) (x2 : FVec Ideal S1x36 .f32)
  (x3 : FVec Ideal S36x36 .f32) (x4 : FVec Ideal S1x36 .f32)
variable (A : N6.Idx → EReal) (WA : W6.Idx → EReal) (BA : R36.Idx → EReal) (WB : W36.Idx → EReal) (BB : R36.Idx → EReal)

/-- Row p of a tile whose feature rows are rows of A is the perceptron's row of the whole array. -/
theorem out_point (p : Fin 5000) (d : Fin 36) (n : Fin 100000)
    (h0 : ∀ j : Fin 6, x0 (ix2 p j) = A (ix2 n j)) (h1 : x1 = WA) (h2 : x2 = BA) (h3 : x3 = WB) (h4 : x4 = BB) :
    outT x0 x1 x2 x3 x4 p d = mlp6 A WA BA WB BB (ix2 n d) := by
  subst h1 h2 h3 h4
  unfold outT hidT mlp6 hid6
  simp only [h0] <;> rfl

/-- The stored output block at a block index y, when y sits at array index i. -/
theorem y_point (y : S5000x36.Idx) (i : N36.Idx)
    (h0 : ∀ j : Fin 6, x0 (ix2 (y 0) j) = A (ix2 (i 0) j)) (h1 : x1 = WA) (h2 : x2 = BA) (h3 : x3 = WB) (h4 : x4 = BB)
    (hi : (i 1).val = (y 1).val) :
    k4_pay2 (F := Ideal) x0 x1 x2 x3 x4 y = mlp6 A WA BA WB BB i := by
  obtain ⟨p, d, rfl⟩ : ∃ (p : Fin 5000) (d : Fin 36), y = ix2 p d := ⟨y 0, y 1, eq_ix2 y⟩
  obtain ⟨n, e, rfl⟩ : ∃ (n : Fin 100000) (e : Fin 36), i = ix2 n e := ⟨i 0, i 1, eq_ix2 i⟩
  have he : e = d := Fin.ext hi
  rw [he]
  rw [pay2_apply]
  exact out_point x0 x1 x2 x3 x4 A WA BA WB BB p d n h0 h1 h2 h3 h4

/-- The block of column sums of tile t at a block index y, when y sits at array index i = (8t + y₀, y₁). -/
theorem s_point (t : Nat) (ht : t < 20) (y : S8x36.Idx) (i : P36.Idx)
    (h0 : ∀ (p : Fin 5000) (j : Fin 6), x0 (ix2 p j) = A (ix2 ⟨5000 * t + p.val, by have := p.isLt; omega⟩ j))
    (h1 : x1 = WA) (h2 : x2 = BA) (h3 : x3 = WB) (h4 : x4 = BB)
    (hi0 : (i 0).val = 8 * t + (y 0).val) (hi1 : (i 1).val = (y 1).val) :
    k4_pay4 (F := Ideal) x0 x1 x2 x3 x4 y = tileSums (mlp6 A WA BA WB BB) i := by
  obtain ⟨r, d, rfl⟩ : ∃ (r : Fin 8) (d : Fin 36), y = ix2 r d := ⟨y 0, y 1, eq_ix2 y⟩
  obtain ⟨m, e, rfl⟩ : ∃ (m : Fin 160) (e : Fin 36), i = ix2 m e := ⟨i 0, i 1, eq_ix2 i⟩
  have he : e = d := Fin.ext hi1
  rw [he]
  have hm : m.val = 8 * t + r.val := hi0
  have hr := r.isLt
  rw [pay4_apply]
  unfold tileSums
  refine if_congr (show r.val = 0 ↔ m.val % 8 = 0 by omega) ?_ rfl
  have hq : m.val / 8 = t := by omega
  show _ = ∑ n : Fin 100000, (if n.val / 5000 = m.val / 8 then mlp6 A WA BA WB BB (ix2 n d) else 0)
  rw [hq, tile_sum _ t ht]
  exact Finset.sum_congr rfl fun p _ => out_point x0 x1 x2 x3 x4 A WA BA WB BB p d _ (h0 p) h1 h2 h3 h4

/-- The block of column sums of squares of tile t, likewise. -/
theorem ss_point (t : Nat) (ht : t < 20) (y : S8x36.Idx) (i : P36.Idx)
    (h0 : ∀ (p : Fin 5000) (j : Fin 6), x0 (ix2 p j) = A (ix2 ⟨5000 * t + p.val, by have := p.isLt; omega⟩ j))
    (h1 : x1 = WA) (h2 : x2 = BA) (h3 : x3 = WB) (h4 : x4 = BB)
    (hi0 : (i 0).val = 8 * t + (y 0).val) (hi1 : (i 1).val = (y 1).val) :
    k4_pay1 (F := Ideal) (k4_pay3 (F := Ideal) x0 x1 x2 x3 x4) (iota .tc S8x36 32 [0] Gen.iota_S8x36_d0_w32) y
      = tileSums (Cert.GinMath.sq (mlp6 A WA BA WB BB)) i := by
  obtain ⟨r, d, rfl⟩ : ∃ (r : Fin 8) (d : Fin 36), y = ix2 r d := ⟨y 0, y 1, eq_ix2 y⟩
  obtain ⟨m, e, rfl⟩ : ∃ (m : Fin 160) (e : Fin 36), i = ix2 m e := ⟨i 0, i 1, eq_ix2 i⟩
  have he : e = d := Fin.ext hi1
  rw [he]
  have hm : m.val = 8 * t + r.val := hi0
  have hr := r.isLt
  rw [pay1_apply]
  unfold tileSums Cert.GinMath.sq
  refine if_congr (show r.val = 0 ↔ m.val % 8 = 0 by omega) ?_ rfl
  have hq : m.val / 8 = t := by omega
  show _ = ∑ n : Fin 100000, (if n.val / 5000 = m.val / 8 then mlp6 A WA BA WB BB (ix2 n d) * mlp6 A WA BA WB BB (ix2 n d) else 0)
  rw [hq, tile_sum _ t ht]
  exact Finset.sum_congr rfl fun p _ => by rw [out_point x0 x1 x2 x3 x4 A WA BA WB BB p d _ (h0 p) h1 h2 h3 h4]

end Cert.KernelIdeal.Reg4

end
-- ==== Proof.Reg4Value.lean ====
/-
  A perceptron region from 6 input features, as whole arrays. The region runs its body at 20 points; point t fetches rows
  5000·t … 5000·t + 4999 of the features (and the weights and biases whole), and writes back rows
  5000·t … 5000·t + 4999 of the output and rows 8·t … 8·t + 7 of the two arrays of partial sums. Every row of each
  output array lies in exactly the block of the point t = row / 5000 (resp. row / 8), so after the region the output
  is the whole-array perceptron of the features, and the two arrays of partial sums are its tile sums and the tile
  sums of its square.
-/
import proofs.«408188_j34256659153341_2_alg».proof.Proof.FrameKI
import proofs.«408188_j34256659153341_2_alg».proof.Proof.Reg4Point
import Idealize.ShloMosaic.Lib.Pipeline.Value
import Idealize.ShloMosaic.Lib.Tactic

noncomputable section

open scoped BigOperators

open Idealize.ShloMosaic Idealize.ShloMosaic.TcCoe Idealize.SL.Sem Idealize.ShloMosaic.ValueIdx
open Idealize.ShloMosaic.Pipeline (Dat)

namespace Cert.KernelIdeal.Reg4

open Cert.KernelIdeal Cert.KernelIdeal.Gen Cert.GinMath

-- the buffer contents when the region is entered
variable (V : (c : Dev nD) → (b : Ref sig .tc) → Buf (Elt Ideal) ((c : Thread nD τ).loc b))

/-- The aggregated features, as the region finds them. -/
abbrev arrA (c : Dev nD) : N6.Idx → EReal := V c (Pipeline.arrRef spec4 0)
/-- The first layer's weights. -/
abbrev arrWA (c : Dev nD) : W6.Idx → EReal := V c (Pipeline.arrRef spec4 1)
/-- The first layer's bias. -/
abbrev arrBA (c : Dev nD) : R36.Idx → EReal := V c (Pipeline.arrRef spec4 2)
/-- The second layer's weights. -/
abbrev arrWB (c : Dev nD) : W36.Idx → EReal := V c (Pipeline.arrRef spec4 3)
/-- The second layer's bias. -/
abbrev arrBB (c : Dev nD) : R36.Idx → EReal := V c (Pipeline.arrRef spec4 4)

/-- The whole-array perceptron of the arrays the region finds. -/
abbrev Y (c : Dev nD) : N36.Idx → EReal := mlp6 (arrA V c) (arrWA V c) (arrBA V c) (arrWB V c) (arrBB V c)

/-! ## The index maps, decided over the 20 points -/

theorem hz : (![0, 0] : Fin 2 → Nat) = fun _ => 0 := funext fun a => by fin_cases a <;> rfl

theorem lt20 (t : Fin cfg4.N) : t.val < 20 := lt_of_lt_of_eq t.isLt Gen.N_4

/-- The features' block moves down one tile per point. -/
theorem idx_0 : ∀ t : Fin cfg4.N, win4_0.index t (0 : Fin 2) = t.val ∧ win4_0.index t (1 : Fin 2) = 0 :=
  (by decide +kernel : ∀ t : Fin grid4.N, _)
/-- The weights and biases are whole at every point. -/
theorem idx_1 : ∀ t : Fin cfg4.N, win4_1.index t (0 : Fin 2) = 0 ∧ win4_1.index t (1 : Fin 2) = 0 :=
  (by decide +kernel : ∀ t : Fin grid4.N, _)
theorem idx_2 : ∀ t : Fin cfg4.N, win4_2.index t (0 : Fin 2) = 0 ∧ win4_2.index t (1 : Fin 2) = 0 :=
  (by decide +kernel : ∀ t : Fin grid4.N, _)
theorem idx_3 : ∀ t : Fin cfg4.N, win4_3.index t (0 : Fin 2) = 0 ∧ win4_3.index t (1 : Fin 2) = 0 :=
  (by decide +kernel : ∀ t : Fin grid4.N, _)
theorem idx_4 : ∀ t : Fin cfg4.N, win4_4.index t (0 : Fin 2) = 0 ∧ win4_4.index t (1 : Fin 2) = 0 :=
  (by decide +kernel : ∀ t : Fin grid4.N, _)
/-- Each output's block moves down one block per point. -/
theorem idx_5 : ∀ t : Fin cfg4.N, win4_5.index t (0 : Fin 2) = t.val ∧ win4_5.index t (1 : Fin 2) = 0 :=
  (by decide +kernel : ∀ t : Fin grid4.N, _)
theorem idx_6 : ∀ t : Fin cfg4.N, win4_6.index t (0 : Fin 2) = t.val ∧ win4_6.index t (1 : Fin 2) = 0 :=
  (by decide +kernel : ∀ t : Fin grid4.N, _)
theorem idx_7 : ∀ t : Fin cfg4.N, win4_7.index t (0 : Fin 2) = t.val ∧ win4_7.index t (1 : Fin 2) = 0 :=
  (by decide +kernel : ∀ t : Fin grid4.N, _)

/-! ## The input blocks, as parts of the arrays -/

/-- The features' block at point t is rows 5000·t … 5000·t + 4999 of the features. -/
theorem blk0_apply (c : Dev nD) (t : Fin cfg4.N) (x : S5000x6.Idx) (k : N6.Idx)
    (hk0 : (k 0).val = 5000 * t.val + (x 0).val) (hk1 : (k 1).val = (x 1).val) :
    (Gen.iblk4 V c 0 t : FVec Ideal S5000x6 .f32) x = arrA V c k := by
  obtain ⟨e0, e1⟩ := idx_0 t
  unfold Gen.iblk4
  rw [View.read_apply]
  show V c (Pipeline.arrRef spec4 0) _ = V c (Pipeline.arrRef spec4 0) _
  congr 1
  funext a
  apply Fin.ext
  match a with
  | ⟨0, _⟩ => show win4_0.index t (0 : Fin 2) * 5000 + 1 * (x 0).val = (k 0).val; rw [e0, hk0]; omega
  | ⟨1, _⟩ => show win4_0.index t (1 : Fin 2) * 6 + 1 * (x 1).val = (k 1).val; rw [e1, hk1]; omega

/-- The first layer's weights are fetched whole. -/
theorem blk1_eq (c : Dev nD) (t : Fin cfg4.N) : (Gen.iblk4 V c 1 t : FVec Ideal S6x36 .f32) = arrWA V c := by
  obtain ⟨e0, e1⟩ := idx_1 t
  funext x
  unfold Gen.iblk4
  rw [View.read_apply]
  show V c (Pipeline.arrRef spec4 1) _ = V c (Pipeline.arrRef spec4 1) x
  congr 1
  funext a
  apply Fin.ext
  match a with
  | ⟨0, _⟩ => show win4_1.index t (0 : Fin 2) * 6 + 1 * (x 0).val = (x 0).val; rw [e0]; omega
  | ⟨1, _⟩ => show win4_1.index t (1 : Fin 2) * 36 + 1 * (x 1).val = (x 1).val; rw [e1]; omega

/-- The first layer's bias is fetched whole. -/
theorem blk2_eq (c : Dev nD) (t : Fin cfg4.N) : (Gen.iblk4 V c 2 t : FVec Ideal S1x36 .f32) = arrBA V c := by
  obtain ⟨e0, e1⟩ := idx_2 t
  funext x
  unfold Gen.iblk4
  rw [View.read_apply]
  show V c (Pipeline.arrRef spec4 2) _ = V c (Pipeline.arrRef spec4 2) x
  congr 1
  funext a
  apply Fin.ext
  match a with
  | ⟨0, _⟩ => show win4_2.index t (0 : Fin 2) * 1 + 1 * (x 0).val = (x 0).val; rw [e0]; omega
  | ⟨1, _⟩ => show win4_2.index t (1 : Fin 2) * 36 + 1 * (x 1).val = (x 1).val; rw [e1]; omega

/-- The second layer's weights are fetched whole. -/
theorem blk3_eq (c : Dev nD) (t : Fin cfg4.N) : (Gen.iblk4 V c 3 t : FVec Ideal S36x36 .f32) = arrWB V c := by
  obtain ⟨e0, e1⟩ := idx_3 t
  funext x
  unfold Gen.iblk4
  rw [View.read_apply]
  show V c (Pipeline.arrRef spec4 3) _ = V c (Pipeline.arrRef spec4 3) x
  congr 1
  funext a
  apply Fin.ext
  match a with
  | ⟨0, _⟩ => show win4_3.index t (0 : Fin 2) * 36 + 1 * (x 0).val = (x 0).val; rw [e0]; omega
  | ⟨1, _⟩ => show win4_3.index t (1 : Fin 2) * 36 + 1 * (x 1).val = (x 1).val; rw [e1]; omega

/-- The second layer's bias is fetched whole. -/
theorem blk4_eq (c : Dev nD) (t : Fin cfg4.N) : (Gen.iblk4 V c 4 t : FVec Ideal S1x36 .f32) = arrBB V c := by
  obtain ⟨e0, e1⟩ := idx_4 t
  funext x
  unfold Gen.iblk4
  rw [View.read_apply]
  show V c (Pipeline.arrRef spec4 4) _ = V c (Pipeline.arrRef spec4 4) x
  congr 1
  funext a
  apply Fin.ext
  match a with
  | ⟨0, _⟩ => show win4_4.index t (0 : Fin 2) * 1 + 1 * (x 0).val = (x 0).val; rw [e0]; omega
  | ⟨1, _⟩ => show win4_4.index t (1 : Fin 2) * 36 + 1 * (x 1).val = (x 1).val; rw [e1]; omega

/-! ## What each point writes back -/

/-- Point t writes back block t of the whole-array perceptron. -/
theorem flushed5_eq (c : Dev nD) (t : Fin cfg4.N) :
    (Gen.dat4 V c).flushed 5 t = ((cfg4.win 5).blk t).view.read (Elt Ideal) (Y V c) := by
  show (cfg4.win 5).cut (grid4.coords t) ((Gen.dat4 V c).after 5 t) = _
  rw [Gen.after4_5]
  unfold Gen.out4_5
  rw [View.canon_unit_zero hz]
  simp only [View.ld_unit_zero (S := S5000x6) hz, View.ld_unit_zero (S := S6x36) hz, View.ld_unit_zero (S := S1x36) hz,
    View.ld_unit_zero (S := S36x36) hz]
  obtain ⟨e0, e1⟩ := idx_5 t
  funext y
  show k4_pay2 (F := Ideal) (Gen.iblk4 V c 0 t) (Gen.iblk4 V c 1 t) (Gen.iblk4 V c 2 t) (Gen.iblk4 V c 3 t) (Gen.iblk4 V c 4 t) y
    = Y V c (((cfg4.win 5).blk t).view.emb y)
  refine y_point (Gen.iblk4 V c 0 t) (Gen.iblk4 V c 1 t) (Gen.iblk4 V c 2 t) (Gen.iblk4 V c 3 t) (Gen.iblk4 V c 4 t)
    (arrA V c) (arrWA V c) (arrBA V c) (arrWB V c) (arrBB V c) y (((cfg4.win 5).blk t).view.emb y)
    (fun j => ?_) (blk1_eq V c t) (blk2_eq V c t) (blk3_eq V c t) (blk4_eq V c t) ?_
  · refine blk0_apply V c t _ _ ?_ rfl
    show win4_5.index t (0 : Fin 2) * 5000 + 1 * (y 0).val = 5000 * t.val + (y 0).val
    rw [e0]; omega
  · show win4_5.index t (1 : Fin 2) * 36 + 1 * (y 1).val = (y 1).val
    rw [e1]; omega

/-- Point t writes back block t of the tile sums: row 0 the column sums over tile t, rows 1 to 7 zero. -/
theorem flushed6_eq (c : Dev nD) (t : Fin cfg4.N) :
    (Gen.dat4 V c).flushed 6 t = ((cfg4.win 6).blk t).view.read (Elt Ideal) (tileSums (Y V c)) := by
  show (cfg4.win 6).cut (grid4.coords t) ((Gen.dat4 V c).after 6 t) = _
  rw [Gen.after4_6]
  unfold Gen.out4_6
  rw [View.canon_unit_zero hz]
  simp only [View.ld_unit_zero (S := S5000x6) hz, View.ld_unit_zero (S := S6x36) hz, View.ld_unit_zero (S := S1x36) hz,
    View.ld_unit_zero (S := S36x36) hz]
  obtain ⟨e0, e1⟩ := idx_6 t
  funext y
  show k4_pay4 (F := Ideal) (Gen.iblk4 V c 0 t) (Gen.iblk4 V c 1 t) (Gen.iblk4 V c 2 t) (Gen.iblk4 V c 3 t) (Gen.iblk4 V c 4 t) y
    = tileSums (Y V c) (((cfg4.win 6).blk t).view.emb y)
  refine s_point (Gen.iblk4 V c 0 t) (Gen.iblk4 V c 1 t) (Gen.iblk4 V c 2 t) (Gen.iblk4 V c 3 t) (Gen.iblk4 V c 4 t)
    (arrA V c) (arrWA V c) (arrBA V c) (arrWB V c) (arrBB V c) t.val (lt20 t) y (((cfg4.win 6).blk t).view.emb y)
    (fun p j => ?_) (blk1_eq V c t) (blk2_eq V c t) (blk3_eq V c t) (blk4_eq V c t) ?_ ?_
  · exact blk0_apply V c t _ _ rfl rfl
  · show win4_6.index t (0 : Fin 2) * 8 + 1 * (y 0).val = 8 * t.val + (y 0).val
    rw [e0]; omega
  · show win4_6.index t (1 : Fin 2) * 36 + 1 * (y 1).val = (y 1).val
    rw [e1]; omega

/-- Point t writes back block t of the tile sums of the square. -/
theorem flushed7_eq (c : Dev nD) (t : Fin cfg4.N) :
    (Gen.dat4 V c).flushed 7 t = ((cfg4.win 7).blk t).view.read (Elt Ideal) (tileSums (Cert.GinMath.sq (Y V c))) := by
  show (cfg4.win 7).cut (grid4.coords t) ((Gen.dat4 V c).after 7 t) = _
  rw [Gen.after4_7]
  unfold Gen.out4_7
  rw [View.canon_unit_zero hz]
  simp only [View.ld_unit_zero (S := S5000x6) hz, View.ld_unit_zero (S := S6x36) hz, View.ld_unit_zero (S := S1x36) hz,
    View.ld_unit_zero (S := S36x36) hz]
  obtain ⟨e0, e1⟩ := idx_7 t
  funext y
  show k4_pay1 (F := Ideal) (k4_pay3 (F := Ideal) (Gen.iblk4 V c 0 t) (Gen.iblk4 V c 1 t) (Gen.iblk4 V c 2 t) (Gen.iblk4 V c 3 t) (Gen.iblk4 V c 4 t))
      (iota .tc S8x36 32 [0] Gen.iota_S8x36_d0_w32) y
    = tileSums (Cert.GinMath.sq (Y V c)) (((cfg4.win 7).blk t).view.emb y)
  refine ss_point (Gen.iblk4 V c 0 t) (Gen.iblk4 V c 1 t) (Gen.iblk4 V c 2 t) (Gen.iblk4 V c 3 t) (Gen.iblk4 V c 4 t)
    (arrA V c) (arrWA V c) (arrBA V c) (arrWB V c) (arrBB V c) t.val (lt20 t) y (((cfg4.win 7).blk t).view.emb y)
    (fun p j => ?_) (blk1_eq V c t) (blk2_eq V c t) (blk3_eq V c t) (blk4_eq V c t) ?_ ?_
  · exact blk0_apply V c t _ _ rfl rfl
  · show win4_7.index t (0 : Fin 2) * 8 + 1 * (y 0).val = 8 * t.val + (y 0).val
    rw [e0]; omega
  · show win4_7.index t (1 : Fin 2) * 36 + 1 * (y 1).val = (y 1).val
    rw [e1]; omega

/-! ## The blocks cover each output array -/

/-- An index of the output is in point t's block iff each coordinate is in the block's range on its axis. -/
theorem mem_blk5 (t : Fin cfg4.N) (i : N36.Idx) :
    i ∈ ((cfg4.win 5).blk t).view.set ↔ ∀ a : Fin 2, win4_5.index t a * S5000x36.size a ≤ (i a).val ∧ (i a).val < win4_5.index t a * S5000x36.size a + S5000x36.size a := by
  show i ∈ ((View.whole main_v198_0).slice (win4_5.rect t)).set ↔ _
  rw [View.set_slice_whole, Rect.mem_set_unit]
  exact Iff.rfl

theorem mem_blk6 (t : Fin cfg4.N) (i : P36.Idx) :
    i ∈ ((cfg4.win 6).blk t).view.set ↔ ∀ a : Fin 2, win4_6.index t a * S8x36.size a ≤ (i a).val ∧ (i a).val < win4_6.index t a * S8x36.size a + S8x36.size a := by
  show i ∈ ((View.whole main_v198_1).slice (win4_6.rect t)).set ↔ _
  rw [View.set_slice_whole, Rect.mem_set_unit]
  exact Iff.rfl

theorem mem_blk7 (t : Fin cfg4.N) (i : P36.Idx) :
    i ∈ ((cfg4.win 7).blk t).view.set ↔ ∀ a : Fin 2, win4_7.index t a * S8x36.size a ≤ (i a).val ∧ (i a).val < win4_7.index t a * S8x36.size a + S8x36.size a := by
  show i ∈ ((View.whole main_v198_2).slice (win4_7.rect t)).set ↔ _
  rw [View.set_slice_whole, Rect.mem_set_unit]
  exact Iff.rfl

/-- Row n of the output is in the block of point n / 5000. -/
theorem cover5 (i : N36.Idx) : ∃ t : Fin cfg4.N, (cfg4.win 5).flush t = true ∧ i ∈ ((cfg4.win 5).blk t).view.set := by
  have hi0 : (i 0).val < 100000 := (i 0).isLt
  have hi1 : (i 1).val < 36 := (i 1).isLt
  have ht : (i 0).val / 5000 < cfg4.N := by rw [show cfg4.N = 20 from Gen.N_4]; omega
  have e0 : win4_5.index ⟨(i 0).val / 5000, ht⟩ (0 : Fin 2) = (i 0).val / 5000 := (idx_5 ⟨(i 0).val / 5000, ht⟩).1
  have e1 : win4_5.index ⟨(i 0).val / 5000, ht⟩ (1 : Fin 2) = 0 := (idx_5 ⟨(i 0).val / 5000, ht⟩).2
  refine ⟨⟨(i 0).val / 5000, ht⟩, Gen.flush4_5 _, ?_⟩
  rw [mem_blk5]
  intro a
  match a with
  | ⟨0, _⟩ =>
    show win4_5.index ⟨(i 0).val / 5000, ht⟩ (0 : Fin 2) * 5000 ≤ (i 0).val ∧ (i 0).val < win4_5.index ⟨(i 0).val / 5000, ht⟩ (0 : Fin 2) * 5000 + 5000
    rw [e0]; omega
  | ⟨1, _⟩ =>
    show win4_5.index ⟨(i 0).val / 5000, ht⟩ (1 : Fin 2) * 36 ≤ (i 1).val ∧ (i 1).val < win4_5.index ⟨(i 0).val / 5000, ht⟩ (1 : Fin 2) * 36 + 36
    rw [e1]; omega

/-- Row m of the tile sums is in the block of point m / 8. -/
theorem cover6 (i : P36.Idx) : ∃ t : Fin cfg4.N, (cfg4.win 6).flush t = true ∧ i ∈ ((cfg4.win 6).blk t).view.set := by
  have hi0 : (i 0).val < 160 := (i 0).isLt
  have hi1 : (i 1).val < 36 := (i 1).isLt
  have ht : (i 0).val / 8 < cfg4.N := by rw [show cfg4.N = 20 from Gen.N_4]; omega
  have e0 : win4_6.index ⟨(i 0).val / 8, ht⟩ (0 : Fin 2) = (i 0).val / 8 := (idx_6 ⟨(i 0).val / 8, ht⟩).1
  have e1 : win4_6.index ⟨(i 0).val / 8, ht⟩ (1 : Fin 2) = 0 := (idx_6 ⟨(i 0).val / 8, ht⟩).2
  refine ⟨⟨(i 0).val / 8, ht⟩, Gen.flush4_6 _, ?_⟩
  rw [mem_blk6]
  intro a
  match a with
  | ⟨0, _⟩ =>
    show win4_6.index ⟨(i 0).val / 8, ht⟩ (0 : Fin 2) * 8 ≤ (i 0).val ∧ (i 0).val < win4_6.index ⟨(i 0).val / 8, ht⟩ (0 : Fin 2) * 8 + 8
    rw [e0]; omega
  | ⟨1, _⟩ =>
    show win4_6.index ⟨(i 0).val / 8, ht⟩ (1 : Fin 2) * 36 ≤ (i 1).val ∧ (i 1).val < win4_6.index ⟨(i 0).val / 8, ht⟩ (1 : Fin 2) * 36 + 36
    rw [e1]; omega

theorem cover7 (i : P36.Idx) : ∃ t : Fin cfg4.N, (cfg4.win 7).flush t = true ∧ i ∈ ((cfg4.win 7).blk t).view.set := by
  have hi0 : (i 0).val < 160 := (i 0).isLt
  have hi1 : (i 1).val < 36 := (i 1).isLt
  have ht : (i 0).val / 8 < cfg4.N := by rw [show cfg4.N = 20 from Gen.N_4]; omega
  have e0 : win4_7.index ⟨(i 0).val / 8, ht⟩ (0 : Fin 2) = (i 0).val / 8 := (idx_7 ⟨(i 0).val / 8, ht⟩).1
  have e1 : win4_7.index ⟨(i 0).val / 8, ht⟩ (1 : Fin 2) = 0 := (idx_7 ⟨(i 0).val / 8, ht⟩).2
  refine ⟨⟨(i 0).val / 8, ht⟩, Gen.flush4_7 _, ?_⟩
  rw [mem_blk7]
  intro a
  match a with
  | ⟨0, _⟩ =>
    show win4_7.index ⟨(i 0).val / 8, ht⟩ (0 : Fin 2) * 8 ≤ (i 0).val ∧ (i 0).val < win4_7.index ⟨(i 0).val / 8, ht⟩ (0 : Fin 2) * 8 + 8
    rw [e0]; omega
  | ⟨1, _⟩ =>
    show win4_7.index ⟨(i 0).val / 8, ht⟩ (1 : Fin 2) * 36 ≤ (i 1).val ∧ (i 1).val < win4_7.index ⟨(i 0).val / 8, ht⟩ (1 : Fin 2) * 36 + 36
    rw [e1]; omega

/-! ## The arrays after the region -/

/-- The output array after the region is the whole-array perceptron of the arrays the region finds. -/
theorem y_eq (c : Dev nD) : (Gen.dat4 V c).arrAt 5 cfg4.N = Y V c :=
  (Gen.dat4 V c).arrAt_eq_of_cover 5 (Y V c) (fun t _ => flushed5_eq V c t) (fun i => cover5 i)

/-- The first array of partial sums after the region: the tile sums of the perceptron's output. -/
theorem s_eq (c : Dev nD) : (Gen.dat4 V c).arrAt 6 cfg4.N = tileSums (Y V c) :=
  (Gen.dat4 V c).arrAt_eq_of_cover 6 (tileSums (Y V c)) (fun t _ => flushed6_eq V c t) (fun i => cover6 i)

/-- The second array of partial sums after the region: the tile sums of the square of the perceptron's output. -/
theorem ss_eq (c : Dev nD) : (Gen.dat4 V c).arrAt 7 cfg4.N = tileSums (Cert.GinMath.sq (Y V c)) :=
  (Gen.dat4 V c).arrAt_eq_of_cover 7 (tileSums (Cert.GinMath.sq (Y V c))) (fun t _ => flushed7_eq V c t) (fun i => cover7 i)

end Cert.KernelIdeal.Reg4

end
-- ==== Proof.StageY1p.lean ====
/-
  Layer 1 of transform 1 on both sides. The tiled program's region 4 leaves the perceptron of its five input arrays —
  the aggregate, and the two weight matrices and two bias rows its host stretch prepared — together with the per-tile
  column sums of that output and of its squares. The reference computes the same perceptron as two matrix products,
  each followed by a bias spread over the node rows and a rectifier. Both sides prepare the weights from the same
  arguments: transform 1's slice of each stacked argument, the matrices transposed, the bias vectors read as rows.
  So from equal, real aggregates the two outputs are equal, the sums are the per-tile sums of the reference's output,
  and that output is real.
-/
import proofs.«408188_j34256659153341_2_alg».proof.Proof.FrameKI
import proofs.«408188_j34256659153341_2_alg».proof.Proof.Reg4Value
import proofs.«408188_j34256659153341_2_alg».proof.Proof.RefChain
import proofs.«408188_j34256659153341_2_alg».proof.Proof.RefMlp
import proofs.«408188_j34256659153341_2_alg».proof.Proof.RowReshape
import proofs.«408188_j34256659153341_2_alg».proof.Proof.BridgeArgs
import proofs.«408188_j34256659153341_2_alg».proof.Proof.GinReal
import Idealize.ShloMosaic.Lib.StableHlo.Run

noncomputable section

/-! ## The tiled program's host stretch before region 4: the four weight arrays it prepares -/

namespace Cert.Bridge.Y1pK

open Cert.KernelIdeal Cert.KernelIdeal.Gen Idealize.ShloMosaic Idealize.SL.Sem Idealize.ShloMosaic.StableHlo
open Idealize.ShloMosaic.ValueIdx

/-- Transform 1's first-layer matrix (36 × 6) cut out of the stacked argument. -/
abbrev wA (x : (⟨S2x36x6, .f32⟩ : BufTy).Contents (Elt Ideal)) : (⟨S36x6, .f32⟩ : BufTy).Contents (Elt Ideal) :=
  shapeCast S36x6 (extractStridedSlice S1x36x6 ![1, 0, 0] x slices_S2x36x6_S1x36x6_1_0_0) shapeCasts_S1x36x6_S36x6
/-- Transform 1's second-layer matrix (36 × 36) cut out of the stacked argument. -/
abbrev wB (x : (⟨S2x36x36, .f32⟩ : BufTy).Contents (Elt Ideal)) : (⟨S36x36, .f32⟩ : BufTy).Contents (Elt Ideal) :=
  shapeCast S36x36 (extractStridedSlice S1x36x36 ![1, 0, 0] x slices_S2x36x36_S1x36x36_1_0_0) shapeCasts_S1x36x36_S36x36
/-- Transform 1's bias vector (36 entries) cut out of the stacked argument. -/
abbrev bV (x : (⟨S2x36, .f32⟩ : BufTy).Contents (Elt Ideal)) : (⟨S36, .f32⟩ : BufTy).Contents (Elt Ideal) :=
  shapeCast S36 (extractStridedSlice S1x36 ![1, 0] x slices_S2x36_S1x36_1_0) shapeCasts_S1x36_S36

/-- The first product's right operand: the first-layer matrix, transposed. -/
theorem wa (V : Valuation τ sig (Elt Ideal)) :
    after (hostOps4 (F := Ideal)) V (Proc.devRef .tc Cert.KernelIdeal.main_v194)
      = transpose S6x36 [1, 0] (wA (V (Proc.devRef .tc Cert.KernelIdeal.main_arg3))) transposes_S36x6_S6x36_1_0 := by
  after_results_simp
  all_goals rfl
/-- The first bias, as one row. -/
theorem ba (V : Valuation τ sig (Elt Ideal)) :
    after (hostOps4 (F := Ideal)) V (Proc.devRef .tc Cert.KernelIdeal.main_v196)
      = shapeCast S1x36 (bV (V (Proc.devRef .tc Cert.KernelIdeal.main_arg4))) shapeCasts_S36_S1x36 := by
  after_results_simp
  all_goals rfl
/-- The second product's right operand: the second-layer matrix, transposed. -/
theorem wb (V : Valuation τ sig (Elt Ideal)) :
    after (hostOps4 (F := Ideal)) V (Proc.devRef .tc Cert.KernelIdeal.main_v195)
      = transpose S36x36 [1, 0] (wB (V (Proc.devRef .tc Cert.KernelIdeal.main_arg5))) transposes_S36x36_S36x36_1_0 := by
  after_results_simp
  all_goals rfl
/-- The second bias, as one row. -/
theorem bb (V : Valuation τ sig (Elt Ideal)) :
    after (hostOps4 (F := Ideal)) V (Proc.devRef .tc Cert.KernelIdeal.main_v197)
      = shapeCast S1x36 (bV (V (Proc.devRef .tc Cert.KernelIdeal.main_arg6))) shapeCasts_S36_S1x36 := by
  after_results_simp
  all_goals rfl

end Cert.Bridge.Y1pK

/-! ## The reference: the weights the stretch before cuts out, and its perceptron -/

namespace Cert.Bridge.Y1pR

open Cert.ReferenceIdeal Cert.ReferenceIdeal.Gen Cert.ReferenceIdeal.RefRun Idealize.ShloMosaic Idealize.SL.Sem
open Idealize.ShloMosaic.StableHlo Idealize.ShloMosaic.ValueIdx

/-- Transform 1's first-layer matrix (36 × 6) cut out of the stacked argument. -/
abbrev wA (x : (⟨S2x36x6, .f32⟩ : BufTy).Contents (Elt Ideal)) : (⟨S36x6, .f32⟩ : BufTy).Contents (Elt Ideal) :=
  shapeCast S36x6 (extractStridedSlice S1x36x6 ![1, 0, 0] x slices_S2x36x6_S1x36x6_1_0_0) shapeCasts_S1x36x6_S36x6
/-- Transform 1's second-layer matrix (36 × 36) cut out of the stacked argument. -/
abbrev wB (x : (⟨S2x36x36, .f32⟩ : BufTy).Contents (Elt Ideal)) : (⟨S36x36, .f32⟩ : BufTy).Contents (Elt Ideal) :=
  shapeCast S36x36 (extractStridedSlice S1x36x36 ![1, 0, 0] x slices_S2x36x36_S1x36x36_1_0_0) shapeCasts_S1x36x36_S36x36
/-- Transform 1's bias vector (36 entries) cut out of the stacked argument. -/
abbrev bV (x : (⟨S2x36, .f32⟩ : BufTy).Contents (Elt Ideal)) : (⟨S36, .f32⟩ : BufTy).Contents (Elt Ideal) :=
  shapeCast S36 (extractStridedSlice S1x36 ![1, 0] x slices_S2x36_S1x36_1_0) shapeCasts_S1x36_S36

theorem wa (V : Valuation τ sig (Elt Ideal)) :
    after (seg7 (F := Ideal)) V (Proc.devRef .tc Cert.ReferenceIdeal.main_v191) = wA (V (Proc.devRef .tc Cert.ReferenceIdeal.main_arg3)) := by
  after_results_simp
  all_goals rfl
theorem ba (V : Valuation τ sig (Elt Ideal)) :
    after (seg7 (F := Ideal)) V (Proc.devRef .tc Cert.ReferenceIdeal.main_v193) = bV (V (Proc.devRef .tc Cert.ReferenceIdeal.main_arg4)) := by
  after_results_simp
  all_goals rfl
theorem wb (V : Valuation τ sig (Elt Ideal)) :
    after (seg7 (F := Ideal)) V (Proc.devRef .tc Cert.ReferenceIdeal.main_v195) = wB (V (Proc.devRef .tc Cert.ReferenceIdeal.main_arg5)) := by
  after_results_simp
  all_goals rfl
theorem bb (V : Valuation τ sig (Elt Ideal)) :
    after (seg7 (F := Ideal)) V (Proc.devRef .tc Cert.ReferenceIdeal.main_v197) = bV (V (Proc.devRef .tc Cert.ReferenceIdeal.main_arg6)) := by
  after_results_simp
  all_goals rfl

-- the fold through the stretch's sixteen operations is long to evaluate
set_option maxHeartbeats 1000000 in
/-- The stretch of the two products: its last value is the perceptron of the aggregate with the weights transposed
    and the bias vectors read as rows. -/
theorem y (V : Valuation τ sig (Elt Ideal)) :
    after (seg8 (F := Ideal)) V (Proc.devRef .tc Cert.ReferenceIdeal.main_v220)
      = Cert.GinMath.mlp6 (V (Proc.devRef .tc Cert.ReferenceIdeal.main_v208))
          (transpose S6x36 [1, 0] (V (Proc.devRef .tc Cert.ReferenceIdeal.main_v191)) transposes_S36x6_S6x36_1_0)
          (fun i => V (Proc.devRef .tc Cert.ReferenceIdeal.main_v193) (ix1 (i 1)))
          (transpose S36x36 [1, 0] (V (Proc.devRef .tc Cert.ReferenceIdeal.main_v195)) transposes_S36x36_S36x36_1_0)
          (fun i => V (Proc.devRef .tc Cert.ReferenceIdeal.main_v197) (ix1 (i 1))) := by
  after_results
  exact RefMlp.mlp6_eq _ _ _ _ _

end Cert.Bridge.Y1pR

/-! ## The stage -/

namespace Cert.Bridge

open Idealize.ShloMosaic Idealize.SL.Sem Idealize.ShloMosaic.ValueIdx

/-- Region 4 against the reference's perceptron: from equal real aggregates, equal outputs with their per-tile
    sums, the output real. The two memories agree on the four weight arguments, which are real. -/
theorem stage_Y1p
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hWA : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (hBA : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (hWB : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (hBB : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (rWA : IsReal (m ((c.tc : Thread Cert.KernelIdeal.nD Cert.KernelIdeal.τ).loc Cert.KernelIdeal.main_arg3)))
    (rBA : IsReal (m ((c.tc : Thread Cert.KernelIdeal.nD Cert.KernelIdeal.τ).loc Cert.KernelIdeal.main_arg4)))
    (rWB : IsReal (m ((c.tc : Thread Cert.KernelIdeal.nD Cert.KernelIdeal.τ).loc Cert.KernelIdeal.main_arg5)))
    (rBB : IsReal (m ((c.tc : Thread Cert.KernelIdeal.nD Cert.KernelIdeal.τ).loc Cert.KernelIdeal.main_arg6)))
    (hin : RelAgg (S := GinMath.N6) (Cert.KernelIdeal.Gen.W9 (F := Ideal) m ρ c (Proc.devRef .tc Cert.KernelIdeal.main_v185))
        (Cert.ReferenceIdeal.RefRun.R8 (F := Ideal) m' c (Proc.devRef .tc Cert.ReferenceIdeal.main_v208))) :
    RelY (Cert.KernelIdeal.Gen.W10 (F := Ideal) m ρ c (Proc.devRef .tc Cert.KernelIdeal.main_v198_0))
      (Cert.KernelIdeal.Gen.W10 (F := Ideal) m ρ c (Proc.devRef .tc Cert.KernelIdeal.main_v198_1))
      (Cert.KernelIdeal.Gen.W10 (F := Ideal) m ρ c (Proc.devRef .tc Cert.KernelIdeal.main_v198_2))
      (Cert.ReferenceIdeal.RefRun.R9 (F := Ideal) m' c (Proc.devRef .tc Cert.ReferenceIdeal.main_v220)) := by
  unfold RelAgg at hin
  obtain ⟨hA, hAr⟩ := hin
  -- the tiled side's four weight arrays, from its arguments
  have kWA : Cert.KernelIdeal.Gen.W9 (F := Ideal) m ρ c (Proc.devRef .tc Cert.KernelIdeal.main_v194)
      = transpose Cert.KernelIdeal.S6x36 [1, 0] (Y1pK.wA (m ((c.tc : Thread Cert.KernelIdeal.nD Cert.KernelIdeal.τ).loc Cert.KernelIdeal.main_arg3))) Cert.KernelIdeal.Gen.transposes_S36x6_S6x36_1_0 :=
    (Y1pK.wa (Cert.KernelIdeal.Gen.W8 m ρ c)).trans
      (congrArg (fun x => transpose Cert.KernelIdeal.S6x36 [1, 0] (Y1pK.wA x) Cert.KernelIdeal.Gen.transposes_S36x6_S6x36_1_0) (karg_8 m ρ c Cert.KernelIdeal.main_arg3 (by decide)))
  have kBA : Cert.KernelIdeal.Gen.W9 (F := Ideal) m ρ c (Proc.devRef .tc Cert.KernelIdeal.main_v196)
      = shapeCast Cert.KernelIdeal.S1x36 (Y1pK.bV (m ((c.tc : Thread Cert.KernelIdeal.nD Cert.KernelIdeal.τ).loc Cert.KernelIdeal.main_arg4))) Cert.KernelIdeal.Gen.shapeCasts_S36_S1x36 :=
    (Y1pK.ba (Cert.KernelIdeal.Gen.W8 m ρ c)).trans
      (congrArg (fun x => shapeCast Cert.KernelIdeal.S1x36 (Y1pK.bV x) Cert.KernelIdeal.Gen.shapeCasts_S36_S1x36) (karg_8 m ρ c Cert.KernelIdeal.main_arg4 (by decide)))
  have kWB : Cert.KernelIdeal.Gen.W9 (F := Ideal) m ρ c (Proc.devRef .tc Cert.KernelIdeal.main_v195)
      = transpose Cert.KernelIdeal.S36x36 [1, 0] (Y1pK.wB (m ((c.tc : Thread Cert.KernelIdeal.nD Cert.KernelIdeal.τ).loc Cert.KernelIdeal.main_arg5))) Cert.KernelIdeal.Gen.transposes_S36x36_S36x36_1_0 :=
    (Y1pK.wb (Cert.KernelIdeal.Gen.W8 m ρ c)).trans
      (congrArg (fun x => transpose Cert.KernelIdeal.S36x36 [1, 0] (Y1pK.wB x) Cert.KernelIdeal.Gen.transposes_S36x36_S36x36_1_0) (karg_8 m ρ c Cert.KernelIdeal.main_arg5 (by decide)))
  have kBB : Cert.KernelIdeal.Gen.W9 (F := Ideal) m ρ c (Proc.devRef .tc Cert.KernelIdeal.main_v197)
      = shapeCast Cert.KernelIdeal.S1x36 (Y1pK.bV (m ((c.tc : Thread Cert.KernelIdeal.nD Cert.KernelIdeal.τ).loc Cert.KernelIdeal.main_arg6))) Cert.KernelIdeal.Gen.shapeCasts_S36_S1x36 :=
    (Y1pK.bb (Cert.KernelIdeal.Gen.W8 m ρ c)).trans
      (congrArg (fun x => shapeCast Cert.KernelIdeal.S1x36 (Y1pK.bV x) Cert.KernelIdeal.Gen.shapeCasts_S36_S1x36) (karg_8 m ρ c Cert.KernelIdeal.main_arg6 (by decide)))
  -- the reference's four, from its arguments
  have sWA : Cert.ReferenceIdeal.RefRun.R8 (F := Ideal) m' c (Proc.devRef .tc Cert.ReferenceIdeal.main_v191) = Y1pR.wA (m' ((c.tc : Thread Cert.ReferenceIdeal.nD Cert.ReferenceIdeal.τ).loc Cert.ReferenceIdeal.main_arg3)) :=
    (Y1pR.wa (Cert.ReferenceIdeal.RefRun.R7 m' c)).trans (congrArg Y1pR.wA (rarg_7 m' c Cert.ReferenceIdeal.main_arg3 (by decide)))
  have sBA : Cert.ReferenceIdeal.RefRun.R8 (F := Ideal) m' c (Proc.devRef .tc Cert.ReferenceIdeal.main_v193) = Y1pR.bV (m' ((c.tc : Thread Cert.ReferenceIdeal.nD Cert.ReferenceIdeal.τ).loc Cert.ReferenceIdeal.main_arg4)) :=
    (Y1pR.ba (Cert.ReferenceIdeal.RefRun.R7 m' c)).trans (congrArg Y1pR.bV (rarg_7 m' c Cert.ReferenceIdeal.main_arg4 (by decide)))
  have sWB : Cert.ReferenceIdeal.RefRun.R8 (F := Ideal) m' c (Proc.devRef .tc Cert.ReferenceIdeal.main_v195) = Y1pR.wB (m' ((c.tc : Thread Cert.ReferenceIdeal.nD Cert.ReferenceIdeal.τ).loc Cert.ReferenceIdeal.main_arg5)) :=
    (Y1pR.wb (Cert.ReferenceIdeal.RefRun.R7 m' c)).trans (congrArg Y1pR.wB (rarg_7 m' c Cert.ReferenceIdeal.main_arg5 (by decide)))
  have sBB : Cert.ReferenceIdeal.RefRun.R8 (F := Ideal) m' c (Proc.devRef .tc Cert.ReferenceIdeal.main_v197) = Y1pR.bV (m' ((c.tc : Thread Cert.ReferenceIdeal.nD Cert.ReferenceIdeal.τ).loc Cert.ReferenceIdeal.main_arg6)) :=
    (Y1pR.bb (Cert.ReferenceIdeal.RefRun.R7 m' c)).trans (congrArg Y1pR.bV (rarg_7 m' c Cert.ReferenceIdeal.main_arg6 (by decide)))
  -- the reference's output is the perceptron of its five arrays
  have hy := Y1pR.y (Cert.ReferenceIdeal.RefRun.R8 (F := Ideal) m' c)
  rw [sWA, sBA, sWB, sBB] at hy
  -- the tiled side's three outputs are the perceptron of its five arrays, and its per-tile sums
  have k0 := (Cert.KernelIdeal.Gen.W10_arr (F := Ideal) m ρ c 5).trans (Cert.KernelIdeal.Reg4.y_eq (Cert.KernelIdeal.Gen.V9 m ρ) c)
  have k1 := (Cert.KernelIdeal.Gen.W10_arr (F := Ideal) m ρ c 6).trans (Cert.KernelIdeal.Reg4.s_eq (Cert.KernelIdeal.Gen.V9 m ρ) c)
  have k2 := (Cert.KernelIdeal.Gen.W10_arr (F := Ideal) m ρ c 7).trans (Cert.KernelIdeal.Reg4.ss_eq (Cert.KernelIdeal.Gen.V9 m ρ) c)
  -- the two perceptrons are the same
  have e : Cert.KernelIdeal.Reg4.Y (Cert.KernelIdeal.Gen.V9 (F := Ideal) m ρ) c
      = Cert.ReferenceIdeal.RefRun.R9 (F := Ideal) m' c (Proc.devRef .tc Cert.ReferenceIdeal.main_v220) := by
    refine Eq.trans ?_ hy.symm
    refine mlp6_congr hA ?_ ?_ ?_ ?_
    · exact kWA.trans (congrArg (fun x => transpose Cert.ReferenceIdeal.S6x36 [1, 0] (Y1pR.wA x) Cert.ReferenceIdeal.Gen.transposes_S36x6_S6x36_1_0) hWA.symm)
    · exact (kBA.trans (Cert.KernelIdeal.RowReshape.row_reshape _ _)).trans
        (congrArg (fun x => fun i : GinMath.R36.Idx => Y1pR.bV x (ix1 (i 1))) hBA.symm)
    · exact kWB.trans (congrArg (fun x => transpose Cert.ReferenceIdeal.S36x36 [1, 0] (Y1pR.wB x) Cert.ReferenceIdeal.Gen.transposes_S36x36_S36x36_1_0) hWB.symm)
    · exact (kBB.trans (Cert.KernelIdeal.RowReshape.row_reshape _ _)).trans
        (congrArg (fun x => fun i : GinMath.R36.Idx => Y1pR.bV x (ix1 (i 1))) hBB.symm)
  -- the reference's output is real: a perceptron of real arrays
  have hr : IsReal (S := GinMath.N36) (Cert.ReferenceIdeal.RefRun.R9 (F := Ideal) m' c (Proc.devRef .tc Cert.ReferenceIdeal.main_v220)) :=
    IsReal.of_eq (isReal_mlp6 hAr
      (IsReal.of_eq (((rWA.slice _ _).reshape _).transpose _ _) kWA.symm)
      (IsReal.of_eq (((rBA.slice _ _).reshape _).reshape _) kBA.symm)
      (IsReal.of_eq (((rWB.slice _ _).reshape _).transpose _ _) kWB.symm)
      (IsReal.of_eq (((rBB.slice _ _).reshape _).reshape _) kBB.symm)) e
  unfold RelY
  exact ⟨k0.trans e, k1.trans (congrArg GinMath.tileSums e),
    k2.trans (congrArg (fun y => GinMath.tileSums (GinMath.sq y)) e), hr⟩

end Cert.Bridge

end
-- ==== Proof.StageB1t.lean ====
/-
  From a layer's output to the next layer's aggregate, in both programs. Both normalise the layer's output y by its
  column means and variances, scale and shift it by a row of each of the two parameter arrays, and add to every node
  row the rows of its in-neighbours. One takes the means and variances from the per-tile partial column sums of y
  and y² that its tiled layer left beside y, the other from y itself; for real y the two agree. One sends the
  normalised rows through a narrower float format on their way to the neighbours, which on extended reals changes
  nothing. The aggregate is an array of reals.
-/
import proofs.«408188_j34256659153341_2_alg».proof.Proof.FrameKI
import proofs.«408188_j34256659153341_2_alg».proof.Proof.KOpsGood
import proofs.«408188_j34256659153341_2_alg».proof.Proof.RefChain
import proofs.«408188_j34256659153341_2_alg».proof.Proof.BridgeArgs
import proofs.«408188_j34256659153341_2_alg».proof.Proof.BridgeDefs
import proofs.«408188_j34256659153341_2_alg».proof.Proof.BnAgg
import proofs.«408188_j34256659153341_2_alg».proof.Proof.EdgeRows

set_option maxRecDepth 16384

noncomputable section

namespace Cert.Bridge

open Idealize.ShloMosaic Idealize.SL.Sem Idealize.ShloMosaic.StableHlo

/-! ## The tiled program's host stretch -/
section Kernel

open Cert.KernelIdeal Cert.KernelIdeal.Gen

set_option maxHeartbeats 1600000 in
/-- The stretch's aggregate in terms of what it reads: the layer's three arrays, the two parameter arrays and the two
    rows of edge endpoints. -/
theorem kB1t_eval (V : Valuation τ sig (Elt Ideal))
    (y : FVec Ideal GinMath.N36 .f32) (s ss : FVec Ideal GinMath.P36 .f32) (a15 a16 : FVec Ideal BnAgg.A3 .f32)
    (src dst : IVec BnAgg.E 32)
    (hy : V (Proc.devRef .tc main_v198_0) = y) (hs : V (Proc.devRef .tc main_v198_1) = s)
    (hss : V (Proc.devRef .tc main_v198_2) = ss)
    (h15 : V (Proc.devRef .tc main_arg15) = a15) (h16 : V (Proc.devRef .tc main_arg16) = a16)
    (hsrc : V (Proc.devRef .tc main_v168) = src) (hdst : V (Proc.devRef .tc main_v170) = dst) :
    (after (hostOps5 (F := Ideal)) V (Proc.devRef .tc main_v238) : GinMath.N36.Idx → EReal)
      = BnAgg.aggK (by decide) (by decide) (by decide)
          gather_S100000x36_S1600000x1_S1600000x36_1_0_n_n_0_1_136 scatter_S100000x36_S1600000x1_S1600000x36_1_0_0_1
          (by decide)
          (BnAgg.bn (by decide) (by decide) (by decide)
            (BnAgg.meanK (by decide) (by decide) (by decide) s) (BnAgg.varK (by decide) (by decide) (by decide) s ss)
            (BnAgg.rowOf ![1, 0, 0] (by decide) (by decide) a15) (BnAgg.rowOf ![1, 0, 0] (by decide) (by decide) a16) y)
          src dst := by
  subst hy hs hss h15 h16 hsrc hdst
  after_results_simp
  unfold BnAgg.aggK BnAgg.bn BnAgg.varK BnAgg.meanK BnAgg.rowOf BnAgg.wrap
  rfl

end Kernel

/-! ## The plain program's segment -/
section Reference

open Cert.ReferenceIdeal Cert.ReferenceIdeal.Gen Cert.ReferenceIdeal.RefRun

set_option maxHeartbeats 1600000 in
/-- The segment's aggregate in terms of what it reads: the layer's output, the two parameter arrays and the two rows
    of edge endpoints. -/
theorem rB1t_eval (V : Valuation τ sig (Elt Ideal))
    (y : FVec Ideal GinMath.N36 .f32) (a15 a16 : FVec Ideal BnAgg.A3 .f32) (src dst : IVec BnAgg.E 32)
    (hy : V (Proc.devRef .tc main_v220) = y)
    (h15 : V (Proc.devRef .tc main_arg15) = a15) (h16 : V (Proc.devRef .tc main_arg16) = a16)
    (hsrc : V (Proc.devRef .tc main_v185) = src) (hdst : V (Proc.devRef .tc main_v187) = dst) :
    (after (seg9 (F := Ideal)) V (Proc.devRef .tc main_v262) : GinMath.N36.Idx → EReal)
      = BnAgg.agg (by decide) (by decide) (by decide)
          gather_S100000x36_S1600000x1_S1600000x36_1_0_n_n_0_1_136 scatter_S100000x36_S1600000x1_S1600000x36_1_0_0_1
          (BnAgg.bn (by decide) (by decide) (by decide)
            (BnAgg.meanR (by decide) (by decide) (by decide) y)
            (BnAgg.varR (by decide) (by decide) (by decide) (by decide) (by decide) (by decide) y)
            (BnAgg.rowOf ![1, 0, 0] (by decide) (by decide) a15) (BnAgg.rowOf ![1, 0, 0] (by decide) (by decide) a16) y)
          src dst := by
  subst hy h15 h16 hsrc hdst
  after_results_simp
  unfold BnAgg.agg BnAgg.bn BnAgg.varR BnAgg.meanR BnAgg.rowOf BnAgg.wrap
  rfl

end Reference

/-! ## The stage -/

/-- If at the tiled layer's exit its output, partial sums and partial sums of squares stand in the layer relation to
    the plain program's output, then after the next host stretch and the next segment the two aggregates are the same
    array of reals. The two programs' memories agree on the edge endpoints and on the two parameter arrays, and the
    parameter arrays are real. -/
theorem stage_B1t
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h15 : m' ((c.tc : Thread Cert.ReferenceIdeal.nD Cert.ReferenceIdeal.τ).loc Cert.ReferenceIdeal.main_arg15)
      = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16)
      = m ((c.tc : Thread Cert.KernelIdeal.nD Cert.KernelIdeal.τ).loc Cert.KernelIdeal.main_arg16))
    (hr15 : IsReal (S := BnAgg.A3) (m ((c.tc : Thread Cert.KernelIdeal.nD Cert.KernelIdeal.τ).loc Cert.KernelIdeal.main_arg15)))
    (hr16 : IsReal (S := BnAgg.A3) (m ((c.tc : Thread Cert.KernelIdeal.nD Cert.KernelIdeal.τ).loc Cert.KernelIdeal.main_arg16)))
    (hin : RelY (Cert.KernelIdeal.Gen.W10 (F := Ideal) m ρ c (Proc.devRef .tc Cert.KernelIdeal.main_v198_0))
      (Cert.KernelIdeal.Gen.W10 (F := Ideal) m ρ c (Proc.devRef .tc Cert.KernelIdeal.main_v198_1))
      (Cert.KernelIdeal.Gen.W10 (F := Ideal) m ρ c (Proc.devRef .tc Cert.KernelIdeal.main_v198_2))
      (Cert.ReferenceIdeal.RefRun.R9 (F := Ideal) m' c (Proc.devRef .tc Cert.ReferenceIdeal.main_v220))) :
    RelAgg (S := GinMath.N36)
      (Cert.KernelIdeal.Gen.W11 (F := Ideal) m ρ c (Proc.devRef .tc Cert.KernelIdeal.main_v238))
      (Cert.ReferenceIdeal.RefRun.R10 (F := Ideal) m' c (Proc.devRef .tc Cert.ReferenceIdeal.main_v262)) := by
  obtain ⟨hy, hs, hss, hre⟩ := hin
  have hK := kB1t_eval (Cert.KernelIdeal.Gen.W10 (F := Ideal) m ρ c) _ _ _ _ _ _ _ hy hs hss
    (karg_10 m ρ c Cert.KernelIdeal.main_arg15 (by decide)) (karg_10 m ρ c Cert.KernelIdeal.main_arg16 (by decide))
    (ksrc1_10 m ρ c) (kdst1_10 m ρ c)
  have hR := rB1t_eval (Cert.ReferenceIdeal.RefRun.R9 (F := Ideal) m' c) _ _ _ _ _ rfl
    ((rarg_9 m' c Cert.ReferenceIdeal.main_arg15 (by decide)).trans h15)
    ((rarg_9 m' c Cert.ReferenceIdeal.main_arg16 (by decide)).trans h16)
    ((rsrc1_9 m' c).trans (congrArg _ h1)) ((rdst1_9 m' c).trans (congrArg _ h1))
  rw [← gather36_eq, ← scatter36_eq] at hR
  have hKR := BnAgg.aggK_eq_aggR (by decide) (by decide) (by decide) (by decide) (by decide) (by decide) (by decide)
    (by decide) (by decide) (by decide)
    Cert.KernelIdeal.gather_S100000x36_S1600000x1_S1600000x36_1_0_n_n_0_1_136
    Cert.KernelIdeal.scatter_S100000x36_S1600000x1_S1600000x36_1_0_0_1 hre
    (BnAgg.rowOf ![1, 0, 0] (by decide) (by decide) (m ((c.tc : Thread Cert.KernelIdeal.nD Cert.KernelIdeal.τ).loc Cert.KernelIdeal.main_arg15)))
    (BnAgg.rowOf ![1, 0, 0] (by decide) (by decide) (m ((c.tc : Thread Cert.KernelIdeal.nD Cert.KernelIdeal.τ).loc Cert.KernelIdeal.main_arg16)))
    (BnAgg.edgeRow ![1, 0, 0] (by decide) (by decide) (m ((c.tc : Thread Cert.KernelIdeal.nD Cert.KernelIdeal.τ).loc Cert.KernelIdeal.main_arg1)))
    (BnAgg.edgeRow ![1, 1, 0] (by decide) (by decide) (m ((c.tc : Thread Cert.KernelIdeal.nD Cert.KernelIdeal.τ).loc Cert.KernelIdeal.main_arg1)))
  have hreal := BnAgg.aggR_real (by decide) (by decide) (by decide) (by decide) (by decide) (by decide)
    (by decide) (by decide) (by decide)
    Cert.KernelIdeal.gather_S100000x36_S1600000x1_S1600000x36_1_0_n_n_0_1_136
    Cert.KernelIdeal.scatter_S100000x36_S1600000x1_S1600000x36_1_0_0_1 hre
    (BnAgg.rowOf_real ![1, 0, 0] (by decide) (by decide) hr15) (BnAgg.rowOf_real ![1, 0, 0] (by decide) (by decide) hr16)
    (BnAgg.edgeRow ![1, 0, 0] (by decide) (by decide) (m ((c.tc : Thread Cert.KernelIdeal.nD Cert.KernelIdeal.τ).loc Cert.KernelIdeal.main_arg1)))
    (BnAgg.edgeRow ![1, 1, 0] (by decide) (by decide) (m ((c.tc : Thread Cert.KernelIdeal.nD Cert.KernelIdeal.τ).loc Cert.KernelIdeal.main_arg1)))
  have hKeq := (hK.trans (BnAgg.aggK_eq_agg (by decide) (by decide) (by decide)
    Cert.KernelIdeal.gather_S100000x36_S1600000x1_S1600000x36_1_0_n_n_0_1_136
    Cert.KernelIdeal.scatter_S100000x36_S1600000x1_S1600000x36_1_0_0_1 (by decide) _ _ _)).trans hKR
  refine ⟨hKeq.trans hR.symm, fun i => ?_⟩
  obtain ⟨r, hr⟩ := hreal i
  exact ⟨r, (congrFun hKeq i).trans hr⟩

end Cert.Bridge

end
-- ==== Proof.Reg5Pay.lean ====
/-
  One tile of the two-layer perceptron, entry by entry, on extended reals.

  A tile is 5000 node rows x of 36 features. One layer sends it to max(x·W + b, 0): entry (p, q) is
  max(Σ_k x(p,k)·W(k,q) + b(0,q), 0); the formats the products pass through change nothing at exact arithmetic.
  The tile's output y is two such layers. Besides y the tile yields two 8-row strips: row 0 of the first is the
  column sums of y over the tile's 5000 rows, row 0 of the second the column sums of y·y, and rows 1–7 are zero.
-/
import proofs.«408188_j34256659153341_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Reg5

open Idealize.ShloMosaic Idealize.ShloMosaic.ValueIdx Cert.KernelIdeal Cert.KernelIdeal.Gen

/-! ## The matrix product at an entry -/

/-- On the left operand's row axis the product reads the entry's row. -/
theorem lhs_ax0 (j : S5000x36.Idx) (k : dot_S5000x36_S36x36_S5000x36_1_0_0_1_n_n.contr.Idx) :
    (dot_S5000x36_S36x36_S5000x36_1_0_0_1_n_n.lhsIdx j k (0 : Fin 2)).val = (j 0).val := by
  unfold DotDims.lhsIdx
  rw [dif_neg (show ¬ (0 : Fin S5000x36.rank) ∈ dot_S5000x36_S36x36_S5000x36_1_0_0_1_n_n.lhsBatch by decide),
    dif_pos (show (0 : Fin S5000x36.rank) ∈ dot_S5000x36_S36x36_S5000x36_1_0_0_1_n_n.lhsNonContracting by decide)]
  rfl

/-- On the left operand's column axis it reads the summation index. -/
theorem lhs_ax1 (j : S5000x36.Idx) (k : dot_S5000x36_S36x36_S5000x36_1_0_0_1_n_n.contr.Idx) :
    (dot_S5000x36_S36x36_S5000x36_1_0_0_1_n_n.lhsIdx j k (1 : Fin 2)).val = (k ⟨0, by decide⟩).val :=
  dot_S5000x36_S36x36_S5000x36_1_0_0_1_n_n.lhsIdx_val_of_single (cl := (1 : Fin 2)) rfl j k

/-- On the right operand's row axis it reads the summation index. -/
theorem rhs_ax0 (j : S5000x36.Idx) (k : dot_S5000x36_S36x36_S5000x36_1_0_0_1_n_n.contr.Idx) :
    (dot_S5000x36_S36x36_S5000x36_1_0_0_1_n_n.rhsIdx j k (0 : Fin 2)).val = (k ⟨0, by decide⟩).val :=
  dot_S5000x36_S36x36_S5000x36_1_0_0_1_n_n.rhsIdx_val_of_single (cr := (0 : Fin 2)) rfl j k

/-- On the right operand's column axis it reads the entry's column. -/
theorem rhs_ax1 (j : S5000x36.Idx) (k : dot_S5000x36_S36x36_S5000x36_1_0_0_1_n_n.contr.Idx) :
    (dot_S5000x36_S36x36_S5000x36_1_0_0_1_n_n.rhsIdx j k (1 : Fin 2)).val = (j 1).val := by
  unfold DotDims.rhsIdx
  rw [dif_neg (show ¬ (1 : Fin S36x36.rank) ∈ dot_S5000x36_S36x36_S5000x36_1_0_0_1_n_n.rhsBatch by decide),
    dif_pos (show (1 : Fin S36x36.rank) ∈ dot_S5000x36_S36x36_S5000x36_1_0_0_1_n_n.rhsNonContracting by decide)]
  rfl

/-- A [5000,36] by [36,36] product into a zero accumulator, at entry (p, q): Σ_k l(p,k)·r(k,q). -/
theorem matmul_entry {φ₁ φ₂ : FTy} (l : FVec Ideal S5000x36 φ₁) (r : FVec Ideal S36x36 φ₂) (p : Fin 5000) (q : Fin 36) :
    matmul dot_S5000x36_S36x36_S5000x36_1_0_0_1_n_n none l r (constant (F := Ideal) S5000x36 .f32 0x00000000#32) (ix2 p q)
      = ∑ k : Fin 36, l (ix2 p k) * r (ix2 k q) := by
  refine (Ideal.matmul_constant_zero_apply dot_S5000x36_S36x36_S5000x36_1_0_0_1_n_n none l r (ix2 p q)).trans ?_
  rw [← Equiv.sum_comp (contrEquiv1 dot_S5000x36_S36x36_S5000x36_1_0_0_1_n_n 36 rfl rfl).symm]
  refine Finset.sum_congr rfl fun k _ => ?_
  have hk := contrEquiv1_symm_val dot_S5000x36_S36x36_S5000x36_1_0_0_1_n_n 36 rfl rfl k
  congr 1
  · refine congrArg l (funext fun a => Fin.ext ?_)
    match a with
    | ⟨0, _⟩ => exact lhs_ax0 _ _
    | ⟨1, _⟩ => exact (lhs_ax1 _ _).trans hk
  · refine congrArg r (funext fun a => Fin.ext ?_)
    match a with
    | ⟨0, _⟩ => exact (rhs_ax0 _ _).trans hk
    | ⟨1, _⟩ => exact rhs_ax1 _ _

/-! ## One layer of the perceptron on a tile -/

/-- One layer on a tile of 5000 rows: max(x·W + b, 0), the product taken through the narrower format. -/
def layer (x : FVec Ideal S5000x36 .f32) (w : FVec Ideal S36x36 .f32) (b : FVec Ideal S1x36 .f32) : FVec Ideal S5000x36 .f32 :=
  maximumf
    (addf
      (matmul dot_S5000x36_S36x36_S5000x36_1_0_0_1_n_n none (truncf .bf16 x bitsLt_bf16_f32)
        (truncf .bf16 (shapeCast S36x36 w shapeCasts_S36x36_S36x36) bitsLt_bf16_f32) (constant S5000x36 .f32 0x00000000#32))
      (broadcastTo S5000x36 (shapeCast S1x36 b shapeCasts_S1x36_S1x36) broadcasts_S1x36_S5000x36))
    (broadcast S5000x36 (Scalar.ofBits .f32 0x00000000#32))

/-- Entry (p, q) of a layer: max(Σ_k x(p,k)·W(k,q) + b(0,q), 0). -/
theorem layer_entry (x : FVec Ideal S5000x36 .f32) (w : FVec Ideal S36x36 .f32) (b : FVec Ideal S1x36 .f32) (p : Fin 5000) (q : Fin 36) :
    layer x w b (ix2 p q) = max ((∑ k : Fin 36, x (ix2 p k) * w (ix2 k q)) + b (ix2 0 q)) 0 := by
  show max (matmul dot_S5000x36_S36x36_S5000x36_1_0_0_1_n_n none (truncf .bf16 x bitsLt_bf16_f32)
        (truncf .bf16 (shapeCast S36x36 w shapeCasts_S36x36_S36x36) bitsLt_bf16_f32) (constant (F := Ideal) S5000x36 .f32 0x00000000#32) (ix2 p q)
      + broadcastTo S5000x36 (shapeCast S1x36 b shapeCasts_S1x36_S1x36) broadcasts_S1x36_S5000x36 (ix2 p q)) (Ideal.ofBits .f32 0x00000000#32) = _
  rw [matmul_entry, broadcastTo_1b_ab_apply, shapeCast_self, shapeCast_self, Ideal.ofBits_zero_f32]
  rfl

/-- The tile's output is two layers. -/
theorem pay2_eq (x0 : Vec Ideal S5000x36 .f32) (x1 : Vec Ideal S36x36 .f32) (x2 : Vec Ideal S1x36 .f32) (x3 : Vec Ideal S36x36 .f32) (x4 : Vec Ideal S1x36 .f32) :
    k5_pay2 x0 x1 x2 x3 x4 = layer (layer x0 x1 x2) x3 x4 := by
  unfold k5_pay2
  rw [shapeCast_self]
  rfl

/-- Entry (p, q) of the tile's output. -/
theorem pay2_entry (x0 : Vec Ideal S5000x36 .f32) (x1 : Vec Ideal S36x36 .f32) (x2 : Vec Ideal S1x36 .f32) (x3 : Vec Ideal S36x36 .f32) (x4 : Vec Ideal S1x36 .f32)
    (p : Fin 5000) (q : Fin 36) :
    k5_pay2 x0 x1 x2 x3 x4 (ix2 p q)
      = max ((∑ k : Fin 36, max ((∑ j : Fin 36, x0 (ix2 p j) * x1 (ix2 j k)) + x2 (ix2 0 k)) 0 * x3 (ix2 k q)) + x4 (ix2 0 q)) 0 := by
  rw [pay2_eq, layer_entry]
  simp only [layer_entry]

/-! ## The strips of column sums -/

/-- A select on "row r is row 0", r below 8, is the `if` on r. -/
theorem select_row0 {α : Type} (h : Nat) (hh : h < 8) (A B : α) :
    Scalar.select (IntOp.cmpi .eq (BitVec.ofNat 32 h) 0#32) A B = if h = 0 then A else B := by
  interval_cases h <;> rfl

/-- The 8-row strip made from a tile Y: its column sums laid on row 0, zero on the other rows. -/
def strip (Y : FVec Ideal S5000x36 .f32) : FVec Ideal S8x36 .f32 :=
  select (cmpi .eq (iota .tc S8x36 32 [0] iota_S8x36_d0_w32) (broadcast S8x36 0#32))
    (broadcastTo S8x36 (shapeCast S1x36 (shapeCast S1x36 (multiReduction .add [0] S36 Y 0x00000000#32 reduces_S5000x36_S36 (.inl rfl) rfl) shapeCasts_S36_S1x36) shapeCasts_S1x36_S1x36) broadcasts_S1x36_S8x36)
    (broadcast S8x36 (Scalar.ofBits .f32 0x00000000#32))

/-- Entry (r, q) of a strip: Σ_n Y(n, q) on row 0, zero below. -/
theorem strip_entry (Y : FVec Ideal S5000x36 .f32) (r : Fin 8) (q : Fin 36) :
    strip Y (ix2 r q) = if r.val = 0 then ∑ n : Fin 5000, Y (ix2 n q) else 0 := by
  show Scalar.select (IntOp.cmpi .eq (iota .tc S8x36 32 [0] iota_S8x36_d0_w32 (ix2 r q)) 0#32)
      (broadcastTo S8x36 (shapeCast S1x36 (shapeCast S1x36 (multiReduction .add [0] S36 Y 0x00000000#32 reduces_S5000x36_S36 (.inl rfl) rfl) shapeCasts_S36_S1x36) shapeCasts_S1x36_S1x36) broadcasts_S1x36_S8x36 (ix2 r q))
      (Ideal.ofBits .f32 0x00000000#32) = _
  rw [iota_single_apply]
  show Scalar.select (IntOp.cmpi .eq (BitVec.ofNat 32 r.val) 0#32) _ _ = _
  rw [select_row0 r.val r.isLt, broadcastTo_1b_ab_apply, shapeCast_self, shapeCast_a_1a_apply, Ideal.ofBits_zero_f32]
  refine if_congr Iff.rfl ?_ rfl
  refine (Ideal.multiReduction_add_single Y 0x00000000#32 reduces_S5000x36_S36 (.inl rfl) rfl (ix1 q)).trans ?_
  refine Finset.sum_congr rfl fun n _ => congrArg Y (funext fun a => Fin.ext ?_)
  match a with
  | ⟨0, _⟩ => rfl
  | ⟨1, _⟩ => rfl

/-- The first strip is made from the tile's output. -/
theorem pay4_eq (x0 : Vec Ideal S5000x36 .f32) (x1 : Vec Ideal S36x36 .f32) (x2 : Vec Ideal S1x36 .f32) (x3 : Vec Ideal S36x36 .f32) (x4 : Vec Ideal S1x36 .f32) :
    k5_pay4 x0 x1 x2 x3 x4 = strip (k5_pay2 x0 x1 x2 x3 x4) := rfl

/-- The second strip is made from the squares of the tile's output. -/
theorem pay1_eq (x0 : Vec Ideal S5000x36 .f32) (x1 : Vec Ideal S36x36 .f32) (x2 : Vec Ideal S1x36 .f32) (x3 : Vec Ideal S36x36 .f32) (x4 : Vec Ideal S1x36 .f32) :
    k5_pay1 (k5_pay3 x0 x1 x2 x3 x4) (iota .tc S8x36 32 [0] iota_S8x36_d0_w32)
      = strip (mulf (k5_pay2 x0 x1 x2 x3 x4) (k5_pay2 x0 x1 x2 x3 x4)) := rfl

end Cert.KernelIdeal.Reg5

end
-- ==== Proof.Reg5Point.lean ====
/-
  One tile of the perceptron against the whole-array functions.

  Tile t holds node rows 5000·t … 5000·t + 4999. If a tile's input block is those rows of the feature array A and the
  four parameter blocks are the whole parameter arrays, then the tile's output at (p, q) is the perceptron's value at
  node row 5000·t + p, column q; the tile's first strip is rows 8·t … 8·t + 7 of the partial column sums of the
  perceptron's output, and its second strip those rows of the partial column sums of the squares.
-/
import proofs.«408188_j34256659153341_2_alg».proof.Proof.GinMath
import proofs.«408188_j34256659153341_2_alg».proof.Proof.TileSum
import proofs.«408188_j34256659153341_2_alg».proof.Proof.Reg5Pay

noncomputable section

open scoped BigOperators

namespace Cert.KernelIdeal.Reg5

open Idealize.ShloMosaic Idealize.ShloMosaic.ValueIdx Cert.KernelIdeal Cert.KernelIdeal.Gen Cert.GinMath

variable (A : N36.Idx → EReal) (WA : W36.Idx → EReal) (BA : R36.Idx → EReal) (WB : W36.Idx → EReal) (BB : R36.Idx → EReal)

/-- The tile's output at (p, q) is the perceptron at node row n, column q, when the tile's row p is row n of A. -/
theorem pay2_mlp (x0 : Vec Ideal S5000x36 .f32) (x1 : Vec Ideal S36x36 .f32) (x2 : Vec Ideal S1x36 .f32) (x3 : Vec Ideal S36x36 .f32) (x4 : Vec Ideal S1x36 .f32)
    (h1 : x1 = WA) (h2 : x2 = BA) (h3 : x3 = WB) (h4 : x4 = BB)
    (p : Fin 5000) (q : Fin 36) (n : Fin 100000) (h0 : ∀ k : Fin 36, x0 (ix2 p k) = A (ix2 n k)) :
    k5_pay2 x0 x1 x2 x3 x4 (ix2 p q) = mlp36 A WA BA WB BB (ix2 n q) := by
  subst h1 h2 h3 h4
  rw [pay2_entry]
  simp only [h0]
  rfl

/-- The same at indices given by their coordinates' values. -/
theorem blk5_point (x0 : Vec Ideal S5000x36 .f32) (x1 : Vec Ideal S36x36 .f32) (x2 : Vec Ideal S1x36 .f32) (x3 : Vec Ideal S36x36 .f32) (x4 : Vec Ideal S1x36 .f32)
    (h1 : x1 = WA) (h2 : x2 = BA) (h3 : x3 = WB) (h4 : x4 = BB)
    (t : ℕ) (h0 : ∀ (b : Fin 5000) (k : Fin 36) (n : Fin 100000), n.val = 5000 * t + b.val → x0 (ix2 b k) = A (ix2 n k))
    (y : S5000x36.Idx) (i : N36.Idx) (hi0 : (i 0).val = 5000 * t + (y 0).val) (hi1 : (i 1).val = (y 1).val) :
    k5_pay2 x0 x1 x2 x3 x4 y = mlp36 A WA BA WB BB i := by
  obtain ⟨p, q, rfl⟩ : ∃ (p : Fin 5000) (q : Fin 36), y = ix2 p q := ⟨y 0, y 1, eq_ix2 y⟩
  obtain ⟨n, d, rfl⟩ : ∃ (n : Fin 100000) (d : Fin 36), i = ix2 n d := ⟨i 0, i 1, eq_ix2 i⟩
  obtain rfl : d = q := Fin.ext hi1
  exact pay2_mlp A WA BA WB BB x0 x1 x2 x3 x4 h1 h2 h3 h4 p d n fun k => h0 p k n hi0

/-- A strip of tile t is rows 8·t … 8·t + 7 of the partial sums by tile of the array Y the tile is cut from. -/
theorem strip_tileSums (Y : N36.Idx → EReal) (Yt : FVec Ideal S5000x36 .f32) (t : ℕ) (ht : t < 20)
    (hY : ∀ (b : Fin 5000) (q : Fin 36), Yt (ix2 b q) = Y (ix2 ⟨5000 * t + b.val, by have := b.isLt; omega⟩ q))
    (y : S8x36.Idx) (i : P36.Idx) (hi0 : (i 0).val = 8 * t + (y 0).val) (hi1 : (i 1).val = (y 1).val) :
    strip Yt y = tileSums Y i := by
  obtain ⟨r, q, rfl⟩ : ∃ (r : Fin 8) (q : Fin 36), y = ix2 r q := ⟨y 0, y 1, eq_ix2 y⟩
  obtain ⟨g, d, rfl⟩ : ∃ (g : Fin 160) (d : Fin 36), i = ix2 g d := ⟨i 0, i 1, eq_ix2 i⟩
  obtain rfl : d = q := Fin.ext hi1
  have hg : g.val = 8 * t + r.val := hi0
  have hr := r.isLt
  rw [strip_entry]
  show _ = if g.val % 8 = 0 then ∑ n : Fin 100000, (if n.val / 5000 = g.val / 8 then Y (ix2 n d) else 0) else 0
  rw [show g.val / 8 = t by omega]
  refine if_congr (by omega) ?_ rfl
  rw [Cert.TileSum.sum_tile (fun n => Y (ix2 n d)) t ht]
  exact Finset.sum_congr rfl fun b _ => hY b d

end Cert.KernelIdeal.Reg5

end
-- ==== Proof.Reg5Value.lean ====
/-
  What the perceptron's pipeline leaves in its three output arrays, as whole-array functions of the five arrays it reads.

  The grid has 20 points; point t reads rows 5000·t … 5000·t + 4999 of the feature array and the four parameter arrays
  whole, and writes back rows 5000·t … 5000·t + 4999 of y and rows 8·t … 8·t + 7 of the two arrays of partial sums.
  Every written block is the matching block of one whole-array function (the perceptron; its partial column sums by
  tile; those of its squares), and the blocks of the 20 points cover each output array, so the arrays end at those
  functions.
-/
import proofs.«408188_j34256659153341_2_alg».proof.Proof.FrameKI
import proofs.«408188_j34256659153341_2_alg».proof.Proof.Reg5Point
import Idealize.ShloMosaic.Lib.Pipeline.Value

noncomputable section

open scoped BigOperators

open Idealize.ShloMosaic Idealize.ShloMosaic.TcCoe Idealize.SL.Sem Idealize.ShloMosaic.ValueIdx
open Idealize.ShloMosaic.Pipeline (Dat)

namespace Cert.KernelIdeal.Reg5

open Cert.KernelIdeal Cert.KernelIdeal.Gen Cert.GinMath

variable (V : (c : Dev nD) → (b : Ref sig .tc) → Buf (Elt Ideal) ((c : Thread nD τ).loc b))

/-! ## The five arrays the region reads, as it finds them -/

/-- The aggregated features, [100000, 36]. -/
abbrev arrA (c : Dev nD) : N36.Idx → EReal := V c (Pipeline.arrRef spec5 0)
/-- The first layer's weights, [36, 36]. -/
abbrev arrWA (c : Dev nD) : W36.Idx → EReal := V c (Pipeline.arrRef spec5 1)
/-- The first layer's bias, [1, 36]. -/
abbrev arrBA (c : Dev nD) : R36.Idx → EReal := V c (Pipeline.arrRef spec5 2)
/-- The second layer's weights, [36, 36]. -/
abbrev arrWB (c : Dev nD) : W36.Idx → EReal := V c (Pipeline.arrRef spec5 3)
/-- The second layer's bias, [1, 36]. -/
abbrev arrBB (c : Dev nD) : R36.Idx → EReal := V c (Pipeline.arrRef spec5 4)

/-- The perceptron's output as a whole array. -/
abbrev Y (c : Dev nD) : N36.Idx → EReal := mlp36 (arrA V c) (arrWA V c) (arrBA V c) (arrWB V c) (arrBB V c)

/-! ## Where each window's block sits at grid point t -/

theorem hz : (![0, 0] : Fin 2 → Nat) = fun _ => 0 := funext fun a => by fin_cases a <;> rfl

/-- The block indices at point t: the feature rows and the three outputs move with t along the rows, the parameter
    arrays stay whole. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 2) = t.val ∧ win5_6.index t (1 : Fin 2) = 0
    ∧ win5_7.index t (0 : Fin 2) = t.val ∧ win5_7.index t (1 : Fin 2) = 0 :=
  (by decide +kernel : ∀ t : Fin grid5.N, _)

theorem t_lt (t : Fin cfg5.N) : t.val < 20 := by
  have h : cfg5.N = 20 := N_5
  have := t.isLt
  omega

/-! ## The input blocks, read off the arrays -/

/-- The feature block at point t is rows 5000·t … 5000·t + 4999 of the feature array. -/
theorem inA_rows (c : Dev nD) (t : Fin cfg5.N) (x : S5000x36.Idx) (k : N36.Idx)
    (hk0 : (k 0).val = 5000 * t.val + (x 0).val) (hk1 : (k 1).val = (x 1).val) :
    (iblk5 V c 0 t : Vec Ideal S5000x36 .f32) x = arrA V c k := by
  obtain ⟨e0, e1, -⟩ := idx_facts t
  unfold iblk5
  rw [View.read_apply]
  show V c (Pipeline.arrRef spec5 0) _ = V c (Pipeline.arrRef spec5 0) _
  congr 1
  funext a
  apply Fin.ext
  match a with
  | ⟨0, _⟩ => show win5_0.index t (0 : Fin 2) * 5000 + 1 * (x 0).val = (k 0).val; rw [e0, hk0]; omega
  | ⟨1, _⟩ => show win5_0.index t (1 : Fin 2) * 36 + 1 * (x 1).val = (k 1).val; rw [e1, hk1]; omega

/-- The first layer's weights arrive whole at every point. -/
theorem inWA_whole (c : Dev nD) (t : Fin cfg5.N) : (iblk5 V c 1 t : Vec Ideal S36x36 .f32) = arrWA V c := by
  obtain ⟨-, -, e0, e1, -⟩ := idx_facts t
  funext x
  unfold iblk5
  rw [View.read_apply]
  show V c (Pipeline.arrRef spec5 1) _ = V c (Pipeline.arrRef spec5 1) _
  congr 1
  funext a
  apply Fin.ext
  match a with
  | ⟨0, _⟩ => show win5_1.index t (0 : Fin 2) * 36 + 1 * (x 0).val = (x 0).val; rw [e0]; omega
  | ⟨1, _⟩ => show win5_1.index t (1 : Fin 2) * 36 + 1 * (x 1).val = (x 1).val; rw [e1]; omega

/-- The first layer's bias arrives whole at every point. -/
theorem inBA_whole (c : Dev nD) (t : Fin cfg5.N) : (iblk5 V c 2 t : Vec Ideal S1x36 .f32) = arrBA V c := by
  obtain ⟨-, -, -, -, e0, e1, -⟩ := idx_facts t
  funext x
  unfold iblk5
  rw [View.read_apply]
  show V c (Pipeline.arrRef spec5 2) _ = V c (Pipeline.arrRef spec5 2) _
  congr 1
  funext a
  apply Fin.ext
  match a with
  | ⟨0, _⟩ => show win5_2.index t (0 : Fin 2) * 1 + 1 * (x 0).val = (x 0).val; rw [e0]; omega
  | ⟨1, _⟩ => show win5_2.index t (1 : Fin 2) * 36 + 1 * (x 1).val = (x 1).val; rw [e1]; omega

/-- The second layer's weights arrive whole at every point. -/
theorem inWB_whole (c : Dev nD) (t : Fin cfg5.N) : (iblk5 V c 3 t : Vec Ideal S36x36 .f32) = arrWB V c := by
  obtain ⟨-, -, -, -, -, -, e0, e1, -⟩ := idx_facts t
  funext x
  unfold iblk5
  rw [View.read_apply]
  show V c (Pipeline.arrRef spec5 3) _ = V c (Pipeline.arrRef spec5 3) _
  congr 1
  funext a
  apply Fin.ext
  match a with
  | ⟨0, _⟩ => show win5_3.index t (0 : Fin 2) * 36 + 1 * (x 0).val = (x 0).val; rw [e0]; omega
  | ⟨1, _⟩ => show win5_3.index t (1 : Fin 2) * 36 + 1 * (x 1).val = (x 1).val; rw [e1]; omega

/-- The second layer's bias arrives whole at every point. -/
theorem inBB_whole (c : Dev nD) (t : Fin cfg5.N) : (iblk5 V c 4 t : Vec Ideal S1x36 .f32) = arrBB V c := by
  obtain ⟨-, -, -, -, -, -, -, -, e0, e1, -⟩ := idx_facts t
  funext x
  unfold iblk5
  rw [View.read_apply]
  show V c (Pipeline.arrRef spec5 4) _ = V c (Pipeline.arrRef spec5 4) _
  congr 1
  funext a
  apply Fin.ext
  match a with
  | ⟨0, _⟩ => show win5_4.index t (0 : Fin 2) * 1 + 1 * (x 0).val = (x 0).val; rw [e0]; omega
  | ⟨1, _⟩ => show win5_4.index t (1 : Fin 2) * 36 + 1 * (x 1).val = (x 1).val; rw [e1]; omega

/-- The tile computed at point t is rows 5000·t … of the perceptron's output. -/
theorem tile_eq (c : Dev nD) (t : Fin cfg5.N) (b : Fin 5000) (q : Fin 36) :
    k5_pay2 (iblk5 V c 0 t) (iblk5 V c 1 t) (iblk5 V c 2 t) (iblk5 V c 3 t) (iblk5 V c 4 t) (ix2 b q)
      = Y V c (ix2 ⟨5000 * t.val + b.val, by have := t_lt t; have := b.isLt; omega⟩ q) :=
  pay2_mlp (arrA V c) (arrWA V c) (arrBA V c) (arrWB V c) (arrBB V c)
    (iblk5 V c 0 t) (iblk5 V c 1 t) (iblk5 V c 2 t) (iblk5 V c 3 t) (iblk5 V c 4 t)
    (inWA_whole V c t) (inBA_whole V c t) (inWB_whole V c t) (inBB_whole V c t) b q _
    fun k => inA_rows V c t (ix2 b k) (ix2 _ k) rfl rfl

/-! ## What each point writes back -/

/-- Point t writes back rows 5000·t … 5000·t + 4999 of the perceptron's output. -/
theorem flushed5_eq (c : Dev nD) (t : Fin cfg5.N) :
    (dat5 V c).flushed 5 t = ((cfg5.win 5).blk t).view.read (Elt Ideal) (Y V c) := by
  show (cfg5.win 5).cut (grid5.coords t) ((dat5 V c).after 5 t) = _
  rw [after5_5]
  unfold out5_5
  rw [View.canon_unit_zero hz]
  simp only [View.ld_unit_zero (S := S5000x36) hz, View.ld_unit_zero (S := S36x36) hz, View.ld_unit_zero (S := S1x36) hz]
  obtain ⟨-, -, -, -, -, -, -, -, -, -, e0, e1, -⟩ := idx_facts t
  funext j
  rw [View.read_apply]
  show k5_pay2 (iblk5 V c 0 t) (iblk5 V c 1 t) (iblk5 V c 2 t) (iblk5 V c 3 t) (iblk5 V c 4 t) j = Y V c (((cfg5.win 5).blk t).view.emb j)
  refine blk5_point (arrA V c) (arrWA V c) (arrBA V c) (arrWB V c) (arrBB V c)
    (iblk5 V c 0 t) (iblk5 V c 1 t) (iblk5 V c 2 t) (iblk5 V c 3 t) (iblk5 V c 4 t)
    (inWA_whole V c t) (inBA_whole V c t) (inWB_whole V c t) (inBB_whole V c t) t.val
    (fun b k n hn => inA_rows V c t (ix2 b k) (ix2 n k) hn rfl) j (((cfg5.win 5).blk t).view.emb j) ?_ ?_
  · show win5_5.index t (0 : Fin 2) * 5000 + 1 * (j 0).val = 5000 * t.val + (j 0).val; rw [e0]; omega
  · show win5_5.index t (1 : Fin 2) * 36 + 1 * (j 1).val = (j 1).val; rw [e1]; omega

/-- Point t writes back rows 8·t … 8·t + 7 of the partial column sums of the perceptron's output. -/
theorem flushed6_eq (c : Dev nD) (t : Fin cfg5.N) :
    (dat5 V c).flushed 6 t = ((cfg5.win 6).blk t).view.read (Elt Ideal) (tileSums (Y V c)) := by
  show (cfg5.win 6).cut (grid5.coords t) ((dat5 V c).after 6 t) = _
  rw [after5_6]
  unfold out5_6
  rw [View.canon_unit_zero hz]
  simp only [View.ld_unit_zero (S := S5000x36) hz, View.ld_unit_zero (S := S36x36) hz, View.ld_unit_zero (S := S1x36) hz]
  rw [pay4_eq]
  obtain ⟨-, -, -, -, -, -, -, -, -, -, -, -, e0, e1, -⟩ := idx_facts t
  funext j
  rw [View.read_apply]
  show strip (k5_pay2 (iblk5 V c 0 t) (iblk5 V c 1 t) (iblk5 V c 2 t) (iblk5 V c 3 t) (iblk5 V c 4 t)) j = tileSums (Y V c) (((cfg5.win 6).blk t).view.emb j)
  refine strip_tileSums (Y V c) _ t.val (t_lt t) (fun b q => tile_eq V c t b q) j (((cfg5.win 6).blk t).view.emb j) ?_ ?_
  · show win5_6.index t (0 : Fin 2) * 8 + 1 * (j 0).val = 8 * t.val + (j 0).val; rw [e0]; omega
  · show win5_6.index t (1 : Fin 2) * 36 + 1 * (j 1).val = (j 1).val; rw [e1]; omega

/-- Point t writes back rows 8·t … 8·t + 7 of the partial column sums of the squares. -/
theorem flushed7_eq (c : Dev nD) (t : Fin cfg5.N) :
    (dat5 V c).flushed 7 t = ((cfg5.win 7).blk t).view.read (Elt Ideal) (tileSums (sq (Y V c))) := by
  show (cfg5.win 7).cut (grid5.coords t) ((dat5 V c).after 7 t) = _
  rw [after5_7]
  unfold out5_7
  rw [View.canon_unit_zero hz]
  simp only [View.ld_unit_zero (S := S5000x36) hz, View.ld_unit_zero (S := S36x36) hz, View.ld_unit_zero (S := S1x36) hz]
  rw [pay1_eq]
  obtain ⟨-, -, -, -, -, -, -, -, -, -, -, -, -, -, e0, e1⟩ := idx_facts t
  funext j
  rw [View.read_apply]
  show strip (mulf (k5_pay2 (iblk5 V c 0 t) (iblk5 V c 1 t) (iblk5 V c 2 t) (iblk5 V c 3 t) (iblk5 V c 4 t))
      (k5_pay2 (iblk5 V c 0 t) (iblk5 V c 1 t) (iblk5 V c 2 t) (iblk5 V c 3 t) (iblk5 V c 4 t))) j
    = tileSums (sq (Y V c)) (((cfg5.win 7).blk t).view.emb j)
  refine strip_tileSums (sq (Y V c)) _ t.val (t_lt t) (fun b q => ?_) j (((cfg5.win 7).blk t).view.emb j) ?_ ?_
  · show k5_pay2 (iblk5 V c 0 t) (iblk5 V c 1 t) (iblk5 V c 2 t) (iblk5 V c 3 t) (iblk5 V c 4 t) (ix2 b q)
        * k5_pay2 (iblk5 V c 0 t) (iblk5 V c 1 t) (iblk5 V c 2 t) (iblk5 V c 3 t) (iblk5 V c 4 t) (ix2 b q) = _
    rw [tile_eq V c t b q]
    rfl
  · show win5_7.index t (0 : Fin 2) * 8 + 1 * (j 0).val = 8 * t.val + (j 0).val; rw [e0]; omega
  · show win5_7.index t (1 : Fin 2) * 36 + 1 * (j 1).val = (j 1).val; rw [e1]; omega

/-! ## The blocks cover the arrays -/

/-- Row r of y lies in the block of point r / 5000. -/
theorem cover5 (i : N36.Idx) : ∃ t : Fin cfg5.N, (cfg5.win 5).flush t = true ∧ i ∈ ((cfg5.win 5).blk t).view.set := by
  have hi0 : (i 0).val < 100000 := (i 0).isLt
  have hi1 : (i 1).val < 36 := (i 1).isLt
  have hN : cfg5.N = 20 := N_5
  have ht : (i 0).val / 5000 < cfg5.N := by rw [hN]; omega
  obtain ⟨-, -, -, -, -, -, -, -, -, -, e0, e1, -⟩ := idx_facts ⟨(i 0).val / 5000, ht⟩
  refine ⟨⟨(i 0).val / 5000, ht⟩, flush5_5 _, ?_⟩
  show i ∈ ((View.whole main_v251_0).slice (win5_5.rect ⟨(i 0).val / 5000, ht⟩)).set
  rw [View.set_slice_whole, Rect.mem_set_unit]
  intro a
  match a with
  | ⟨0, _⟩ =>
    show win5_5.index ⟨(i 0).val / 5000, ht⟩ (0 : Fin 2) * 5000 ≤ (i 0).val ∧ (i 0).val < win5_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win5_5.index ⟨(i 0).val / 5000, ht⟩ (1 : Fin 2) * 36 ≤ (i 1).val ∧ (i 1).val < win5_5.index ⟨(i 0).val / 5000, ht⟩ (1 : Fin 2) * 36 + 36
    rw [e1]; omega

/-- Row r of the first array of partial sums lies in the block of point r / 8. -/
theorem cover6 (i : P36.Idx) : ∃ t : Fin cfg5.N, (cfg5.win 6).flush t = true ∧ i ∈ ((cfg5.win 6).blk t).view.set := by
  have hi0 : (i 0).val < 160 := (i 0).isLt
  have hi1 : (i 1).val < 36 := (i 1).isLt
  have hN : cfg5.N = 20 := N_5
  have ht : (i 0).val / 8 < cfg5.N := by rw [hN]; omega
  obtain ⟨-, -, -, -, -, -, -, -, -, -, -, -, e0, e1, -⟩ := idx_facts ⟨(i 0).val / 8, ht⟩
  refine ⟨⟨(i 0).val / 8, ht⟩, flush5_6 _, ?_⟩
  show i ∈ ((View.whole main_v251_1).slice (win5_6.rect ⟨(i 0).val / 8, ht⟩)).set
  rw [View.set_slice_whole, Rect.mem_set_unit]
  intro a
  match a with
  | ⟨0, _⟩ =>
    show win5_6.index ⟨(i 0).val / 8, ht⟩ (0 : Fin 2) * 8 ≤ (i 0).val ∧ (i 0).val < win5_6.index ⟨(i 0).val / 8, ht⟩ (0 : Fin 2) * 8 + 8
    rw [e0]; show (i 0).val / 8 * 8 ≤ (i 0).val ∧ (i 0).val < (i 0).val / 8 * 8 + 8; omega
  | ⟨1, _⟩ =>
    show win5_6.index ⟨(i 0).val / 8, ht⟩ (1 : Fin 2) * 36 ≤ (i 1).val ∧ (i 1).val < win5_6.index ⟨(i 0).val / 8, ht⟩ (1 : Fin 2) * 36 + 36
    rw [e1]; omega

/-- Row r of the second array of partial sums lies in the block of point r / 8. -/
theorem cover7 (i : P36.Idx) : ∃ t : Fin cfg5.N, (cfg5.win 7).flush t = true ∧ i ∈ ((cfg5.win 7).blk t).view.set := by
  have hi0 : (i 0).val < 160 := (i 0).isLt
  have hi1 : (i 1).val < 36 := (i 1).isLt
  have hN : cfg5.N = 20 := N_5
  have ht : (i 0).val / 8 < cfg5.N := by rw [hN]; omega
  obtain ⟨-, -, -, -, -, -, -, -, -, -, -, -, -, -, e0, e1⟩ := idx_facts ⟨(i 0).val / 8, ht⟩
  refine ⟨⟨(i 0).val / 8, ht⟩, flush5_7 _, ?_⟩
  show i ∈ ((View.whole main_v251_2).slice (win5_7.rect ⟨(i 0).val / 8, ht⟩)).set
  rw [View.set_slice_whole, Rect.mem_set_unit]
  intro a
  match a with
  | ⟨0, _⟩ =>
    show win5_7.index ⟨(i 0).val / 8, ht⟩ (0 : Fin 2) * 8 ≤ (i 0).val ∧ (i 0).val < win5_7.index ⟨(i 0).val / 8, ht⟩ (0 : Fin 2) * 8 + 8
    rw [e0]; show (i 0).val / 8 * 8 ≤ (i 0).val ∧ (i 0).val < (i 0).val / 8 * 8 + 8; omega
  | ⟨1, _⟩ =>
    show win5_7.index ⟨(i 0).val / 8, ht⟩ (1 : Fin 2) * 36 ≤ (i 1).val ∧ (i 1).val < win5_7.index ⟨(i 0).val / 8, ht⟩ (1 : Fin 2) * 36 + 36
    rw [e1]; omega

/-! ## The three output arrays after the region -/

/-- y ends at the perceptron of the five arrays. -/
theorem y_eq (c : Dev nD) : (dat5 V c).arrAt 5 cfg5.N = Y V c :=
  (dat5 V c).arrAt_eq_of_cover 5 (Y V c) (fun t _ => flushed5_eq V c t) cover5

/-- The first array of partial sums ends at the partial column sums, by tile, of the perceptron's output. -/
theorem s_eq (c : Dev nD) : (dat5 V c).arrAt 6 cfg5.N = tileSums (Y V c) :=
  (dat5 V c).arrAt_eq_of_cover 6 (tileSums (Y V c)) (fun t _ => flushed6_eq V c t) cover6

/-- The second ends at the partial column sums, by tile, of its squares. -/
theorem ss_eq (c : Dev nD) : (dat5 V c).arrAt 7 cfg5.N = tileSums (sq (Y V c)) :=
  (dat5 V c).arrAt_eq_of_cover 7 (tileSums (sq (Y V c))) (fun t _ => flushed7_eq V c t) cover7

end Cert.KernelIdeal.Reg5

end
-- ==== Proof.StageY2p.lean ====
/-
  Layer 2 of transform 1 on both sides. The tiled program's region 5 leaves the perceptron of its five input arrays —
  the aggregate, and the two weight matrices and two bias rows its host stretch prepared — together with the per-tile
  column sums of that output and of its squares. The reference computes the same perceptron as two matrix products,
  each followed by a bias spread over the node rows and a rectifier. Both sides prepare the weights from the same
  arguments: transform 1's slice of each stacked argument, the matrices transposed, the bias vectors read as rows.
  So from equal, real aggregates the two outputs are equal, the sums are the per-tile sums of the reference's output,
  and that output is real.
-/
import proofs.«408188_j34256659153341_2_alg».proof.Proof.FrameKI
import proofs.«408188_j34256659153341_2_alg».proof.Proof.Reg5Value
import proofs.«408188_j34256659153341_2_alg».proof.Proof.RefChain
import proofs.«408188_j34256659153341_2_alg».proof.Proof.RefMlp
import proofs.«408188_j34256659153341_2_alg».proof.Proof.RowReshape
import proofs.«408188_j34256659153341_2_alg».proof.Proof.BridgeArgs
import proofs.«408188_j34256659153341_2_alg».proof.Proof.GinReal
import Idealize.ShloMosaic.Lib.StableHlo.Run

noncomputable section

/-! ## The tiled program's host stretch before region 5: the four weight arrays it prepares -/

namespace Cert.Bridge.Y2pK

open Cert.KernelIdeal Cert.KernelIdeal.Gen Idealize.ShloMosaic Idealize.SL.Sem Idealize.ShloMosaic.StableHlo
open Idealize.ShloMosaic.ValueIdx

/-- Transform 1's first-layer matrix (36 × 36) cut out of the stacked argument. -/
abbrev wA (x : (⟨S2x36x36, .f32⟩ : BufTy).Contents (Elt Ideal)) : (⟨S36x36, .f32⟩ : BufTy).Contents (Elt Ideal) :=
  shapeCast S36x36 (extractStridedSlice S1x36x36 ![1, 0, 0] x slices_S2x36x36_S1x36x36_1_0_0) shapeCasts_S1x36x36_S36x36
/-- Transform 1's second-layer matrix (36 × 36) cut out of the stacked argument. -/
abbrev wB (x : (⟨S2x36x36, .f32⟩ : BufTy).Contents (Elt Ideal)) : (⟨S36x36, .f32⟩ : BufTy).Contents (Elt Ideal) :=
  shapeCast S36x36 (extractStridedSlice S1x36x36 ![1, 0, 0] x slices_S2x36x36_S1x36x36_1_0_0) shapeCasts_S1x36x36_S36x36
/-- Transform 1's bias vector (36 entries) cut out of the stacked argument. -/
abbrev bV (x : (⟨S2x36, .f32⟩ : BufTy).Contents (Elt Ideal)) : (⟨S36, .f32⟩ : BufTy).Contents (Elt Ideal) :=
  shapeCast S36 (extractStridedSlice S1x36 ![1, 0] x slices_S2x36_S1x36_1_0) shapeCasts_S1x36_S36

/-- The first product's right operand: the first-layer matrix, transposed. -/
theorem wa (V : Valuation τ sig (Elt Ideal)) :
    after (hostOps5 (F := Ideal)) V (Proc.devRef .tc Cert.KernelIdeal.main_v247)
      = transpose S36x36 [1, 0] (wA (V (Proc.devRef .tc Cert.KernelIdeal.main_arg7))) transposes_S36x36_S36x36_1_0 := by
  after_results_simp
  all_goals rfl
/-- The first bias, as one row. -/
theorem ba (V : Valuation τ sig (Elt Ideal)) :
    after (hostOps5 (F := Ideal)) V (Proc.devRef .tc Cert.KernelIdeal.main_v249)
      = shapeCast S1x36 (bV (V (Proc.devRef .tc Cert.KernelIdeal.main_arg8))) shapeCasts_S36_S1x36 := by
  after_results_simp
  all_goals rfl
/-- The second product's right operand: the second-layer matrix, transposed. -/
theorem wb (V : Valuation τ sig (Elt Ideal)) :
    after (hostOps5 (F := Ideal)) V (Proc.devRef .tc Cert.KernelIdeal.main_v248)
      = transpose S36x36 [1, 0] (wB (V (Proc.devRef .tc Cert.KernelIdeal.main_arg9))) transposes_S36x36_S36x36_1_0 := by
  after_results_simp
  all_goals rfl
/-- The second bias, as one row. -/
theorem bb (V : Valuation τ sig (Elt Ideal)) :
    after (hostOps5 (F := Ideal)) V (Proc.devRef .tc Cert.KernelIdeal.main_v250)
      = shapeCast S1x36 (bV (V (Proc.devRef .tc Cert.KernelIdeal.main_arg10))) shapeCasts_S36_S1x36 := by
  after_results_simp
  all_goals rfl

end Cert.Bridge.Y2pK

/-! ## The reference: the weights the stretch before cuts out, and its perceptron -/

namespace Cert.Bridge.Y2pR

open Cert.ReferenceIdeal Cert.ReferenceIdeal.Gen Cert.ReferenceIdeal.RefRun Idealize.ShloMosaic Idealize.SL.Sem
open Idealize.ShloMosaic.StableHlo Idealize.ShloMosaic.ValueIdx

/-- Transform 1's first-layer matrix (36 × 36) cut out of the stacked argument. -/
abbrev wA (x : (⟨S2x36x36, .f32⟩ : BufTy).Contents (Elt Ideal)) : (⟨S36x36, .f32⟩ : BufTy).Contents (Elt Ideal) :=
  shapeCast S36x36 (extractStridedSlice S1x36x36 ![1, 0, 0] x slices_S2x36x36_S1x36x36_1_0_0) shapeCasts_S1x36x36_S36x36
/-- Transform 1's second-layer matrix (36 × 36) cut out of the stacked argument. -/
abbrev wB (x : (⟨S2x36x36, .f32⟩ : BufTy).Contents (Elt Ideal)) : (⟨S36x36, .f32⟩ : BufTy).Contents (Elt Ideal) :=
  shapeCast S36x36 (extractStridedSlice S1x36x36 ![1, 0, 0] x slices_S2x36x36_S1x36x36_1_0_0) shapeCasts_S1x36x36_S36x36
/-- Transform 1's bias vector (36 entries) cut out of the stacked argument. -/
abbrev bV (x : (⟨S2x36, .f32⟩ : BufTy).Contents (Elt Ideal)) : (⟨S36, .f32⟩ : BufTy).Contents (Elt Ideal) :=
  shapeCast S36 (extractStridedSlice S1x36 ![1, 0] x slices_S2x36_S1x36_1_0) shapeCasts_S1x36_S36

theorem wa (V : Valuation τ sig (Elt Ideal)) :
    after (seg9 (F := Ideal)) V (Proc.devRef .tc Cert.ReferenceIdeal.main_v245) = wA (V (Proc.devRef .tc Cert.ReferenceIdeal.main_arg7)) := by
  after_results_simp
  all_goals rfl
theorem ba (V : Valuation τ sig (Elt Ideal)) :
    after (seg9 (F := Ideal)) V (Proc.devRef .tc Cert.ReferenceIdeal.main_v247) = bV (V (Proc.devRef .tc Cert.ReferenceIdeal.main_arg8)) := by
  after_results_simp
  all_goals rfl
theorem wb (V : Valuation τ sig (Elt Ideal)) :
    after (seg9 (F := Ideal)) V (Proc.devRef .tc Cert.ReferenceIdeal.main_v249) = wB (V (Proc.devRef .tc Cert.ReferenceIdeal.main_arg9)) := by
  after_results_simp
  all_goals rfl
theorem bb (V : Valuation τ sig (Elt Ideal)) :
    after (seg9 (F := Ideal)) V (Proc.devRef .tc Cert.ReferenceIdeal.main_v251) = bV (V (Proc.devRef .tc Cert.ReferenceIdeal.main_arg10)) := by
  after_results_simp
  all_goals rfl

-- the fold through the stretch's sixteen operations is long to evaluate
set_option maxHeartbeats 1000000 in
/-- The stretch of the two products: its last value is the perceptron of the aggregate with the weights transposed
    and the bias vectors read as rows. -/
theorem y (V : Valuation τ sig (Elt Ideal)) :
    after (seg10 (F := Ideal)) V (Proc.devRef .tc Cert.ReferenceIdeal.main_v274)
      = Cert.GinMath.mlp36 (V (Proc.devRef .tc Cert.ReferenceIdeal.main_v262))
          (transpose S36x36 [1, 0] (V (Proc.devRef .tc Cert.ReferenceIdeal.main_v245)) transposes_S36x36_S36x36_1_0)
          (fun i => V (Proc.devRef .tc Cert.ReferenceIdeal.main_v247) (ix1 (i 1)))
          (transpose S36x36 [1, 0] (V (Proc.devRef .tc Cert.ReferenceIdeal.main_v249)) transposes_S36x36_S36x36_1_0)
          (fun i => V (Proc.devRef .tc Cert.ReferenceIdeal.main_v251) (ix1 (i 1))) := by
  after_results
  exact RefMlp.mlp36_eq _ _ _ _ _

end Cert.Bridge.Y2pR

/-! ## The stage -/

namespace Cert.Bridge

open Idealize.ShloMosaic Idealize.SL.Sem Idealize.ShloMosaic.ValueIdx

/-- Region 5 against the reference's perceptron: from equal real aggregates, equal outputs with their per-tile
    sums, the output real. The two memories agree on the four weight arguments, which are real. -/
theorem stage_Y2p
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hWA : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (hBA : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (hWB : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (hBB : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (rWA : IsReal (m ((c.tc : Thread Cert.KernelIdeal.nD Cert.KernelIdeal.τ).loc Cert.KernelIdeal.main_arg7)))
    (rBA : IsReal (m ((c.tc : Thread Cert.KernelIdeal.nD Cert.KernelIdeal.τ).loc Cert.KernelIdeal.main_arg8)))
    (rWB : IsReal (m ((c.tc : Thread Cert.KernelIdeal.nD Cert.KernelIdeal.τ).loc Cert.KernelIdeal.main_arg9)))
    (rBB : IsReal (m ((c.tc : Thread Cert.KernelIdeal.nD Cert.KernelIdeal.τ).loc Cert.KernelIdeal.main_arg10)))
    (hin : RelAgg (S := GinMath.N36) (Cert.KernelIdeal.Gen.W11 (F := Ideal) m ρ c (Proc.devRef .tc Cert.KernelIdeal.main_v238))
        (Cert.ReferenceIdeal.RefRun.R10 (F := Ideal) m' c (Proc.devRef .tc Cert.ReferenceIdeal.main_v262))) :
    RelY (Cert.KernelIdeal.Gen.W12 (F := Ideal) m ρ c (Proc.devRef .tc Cert.KernelIdeal.main_v251_0))
      (Cert.KernelIdeal.Gen.W12 (F := Ideal) m ρ c (Proc.devRef .tc Cert.KernelIdeal.main_v251_1))
      (Cert.KernelIdeal.Gen.W12 (F := Ideal) m ρ c (Proc.devRef .tc Cert.KernelIdeal.main_v251_2))
      (Cert.ReferenceIdeal.RefRun.R11 (F := Ideal) m' c (Proc.devRef .tc Cert.ReferenceIdeal.main_v274)) := by
  unfold RelAgg at hin
  obtain ⟨hA, hAr⟩ := hin
  -- the tiled side's four weight arrays, from its arguments
  have kWA : Cert.KernelIdeal.Gen.W11 (F := Ideal) m ρ c (Proc.devRef .tc Cert.KernelIdeal.main_v247)
      = transpose Cert.KernelIdeal.S36x36 [1, 0] (Y2pK.wA (m ((c.tc : Thread Cert.KernelIdeal.nD Cert.KernelIdeal.τ).loc Cert.KernelIdeal.main_arg7))) Cert.KernelIdeal.Gen.transposes_S36x36_S36x36_1_0 :=
    (Y2pK.wa (Cert.KernelIdeal.Gen.W10 m ρ c)).trans
      (congrArg (fun x => transpose Cert.KernelIdeal.S36x36 [1, 0] (Y2pK.wA x) Cert.KernelIdeal.Gen.transposes_S36x36_S36x36_1_0) (karg_10 m ρ c Cert.KernelIdeal.main_arg7 (by decide)))
  have kBA : Cert.KernelIdeal.Gen.W11 (F := Ideal) m ρ c (Proc.devRef .tc Cert.KernelIdeal.main_v249)
      = shapeCast Cert.KernelIdeal.S1x36 (Y2pK.bV (m ((c.tc : Thread Cert.KernelIdeal.nD Cert.KernelIdeal.τ).loc Cert.KernelIdeal.main_arg8))) Cert.KernelIdeal.Gen.shapeCasts_S36_S1x36 :=
    (Y2pK.ba (Cert.KernelIdeal.Gen.W10 m ρ c)).trans
      (congrArg (fun x => shapeCast Cert.KernelIdeal.S1x36 (Y2pK.bV x) Cert.KernelIdeal.Gen.shapeCasts_S36_S1x36) (karg_10 m ρ c Cert.KernelIdeal.main_arg8 (by decide)))
  have kWB : Cert.KernelIdeal.Gen.W11 (F := Ideal) m ρ c (Proc.devRef .tc Cert.KernelIdeal.main_v248)
      = transpose Cert.KernelIdeal.S36x36 [1, 0] (Y2pK.wB (m ((c.tc : Thread Cert.KernelIdeal.nD Cert.KernelIdeal.τ).loc Cert.KernelIdeal.main_arg9))) Cert.KernelIdeal.Gen.transposes_S36x36_S36x36_1_0 :=
    (Y2pK.wb (Cert.KernelIdeal.Gen.W10 m ρ c)).trans
      (congrArg (fun x => transpose Cert.KernelIdeal.S36x36 [1, 0] (Y2pK.wB x) Cert.KernelIdeal.Gen.transposes_S36x36_S36x36_1_0) (karg_10 m ρ c Cert.KernelIdeal.main_arg9 (by decide)))
  have kBB : Cert.KernelIdeal.Gen.W11 (F := Ideal) m ρ c (Proc.devRef .tc Cert.KernelIdeal.main_v250)
      = shapeCast Cert.KernelIdeal.S1x36 (Y2pK.bV (m ((c.tc : Thread Cert.KernelIdeal.nD Cert.KernelIdeal.τ).loc Cert.KernelIdeal.main_arg10))) Cert.KernelIdeal.Gen.shapeCasts_S36_S1x36 :=
    (Y2pK.bb (Cert.KernelIdeal.Gen.W10 m ρ c)).trans
      (congrArg (fun x => shapeCast Cert.KernelIdeal.S1x36 (Y2pK.bV x) Cert.KernelIdeal.Gen.shapeCasts_S36_S1x36) (karg_10 m ρ c Cert.KernelIdeal.main_arg10 (by decide)))
  -- the reference's four, from its arguments
  have sWA : Cert.ReferenceIdeal.RefRun.R10 (F := Ideal) m' c (Proc.devRef .tc Cert.ReferenceIdeal.main_v245) = Y2pR.wA (m' ((c.tc : Thread Cert.ReferenceIdeal.nD Cert.ReferenceIdeal.τ).loc Cert.ReferenceIdeal.main_arg7)) :=
    (Y2pR.wa (Cert.ReferenceIdeal.RefRun.R9 m' c)).trans (congrArg Y2pR.wA (rarg_9 m' c Cert.ReferenceIdeal.main_arg7 (by decide)))
  have sBA : Cert.ReferenceIdeal.RefRun.R10 (F := Ideal) m' c (Proc.devRef .tc Cert.ReferenceIdeal.main_v247) = Y2pR.bV (m' ((c.tc : Thread Cert.ReferenceIdeal.nD Cert.ReferenceIdeal.τ).loc Cert.ReferenceIdeal.main_arg8)) :=
    (Y2pR.ba (Cert.ReferenceIdeal.RefRun.R9 m' c)).trans (congrArg Y2pR.bV (rarg_9 m' c Cert.ReferenceIdeal.main_arg8 (by decide)))
  have sWB : Cert.ReferenceIdeal.RefRun.R10 (F := Ideal) m' c (Proc.devRef .tc Cert.ReferenceIdeal.main_v249) = Y2pR.wB (m' ((c.tc : Thread Cert.ReferenceIdeal.nD Cert.ReferenceIdeal.τ).loc Cert.ReferenceIdeal.main_arg9)) :=
    (Y2pR.wb (Cert.ReferenceIdeal.RefRun.R9 m' c)).trans (congrArg Y2pR.wB (rarg_9 m' c Cert.ReferenceIdeal.main_arg9 (by decide)))
  have sBB : Cert.ReferenceIdeal.RefRun.R10 (F := Ideal) m' c (Proc.devRef .tc Cert.ReferenceIdeal.main_v251) = Y2pR.bV (m' ((c.tc : Thread Cert.ReferenceIdeal.nD Cert.ReferenceIdeal.τ).loc Cert.ReferenceIdeal.main_arg10)) :=
    (Y2pR.bb (Cert.ReferenceIdeal.RefRun.R9 m' c)).trans (congrArg Y2pR.bV (rarg_9 m' c Cert.ReferenceIdeal.main_arg10 (by decide)))
  -- the reference's output is the perceptron of its five arrays
  have hy := Y2pR.y (Cert.ReferenceIdeal.RefRun.R10 (F := Ideal) m' c)
  rw [sWA, sBA, sWB, sBB] at hy
  -- the tiled side's three outputs are the perceptron of its five arrays, and its per-tile sums
  have k0 := (Cert.KernelIdeal.Gen.W12_arr (F := Ideal) m ρ c 5).trans (Cert.KernelIdeal.Reg5.y_eq (Cert.KernelIdeal.Gen.V11 m ρ) c)
  have k1 := (Cert.KernelIdeal.Gen.W12_arr (F := Ideal) m ρ c 6).trans (Cert.KernelIdeal.Reg5.s_eq (Cert.KernelIdeal.Gen.V11 m ρ) c)
  have k2 := (Cert.KernelIdeal.Gen.W12_arr (F := Ideal) m ρ c 7).trans (Cert.KernelIdeal.Reg5.ss_eq (Cert.KernelIdeal.Gen.V11 m ρ) c)
  -- the two perceptrons are the same
  have e : Cert.KernelIdeal.Reg5.Y (Cert.KernelIdeal.Gen.V11 (F := Ideal) m ρ) c
      = Cert.ReferenceIdeal.RefRun.R11 (F := Ideal) m' c (Proc.devRef .tc Cert.ReferenceIdeal.main_v274) := by
    refine Eq.trans ?_ hy.symm
    refine mlp36_congr hA ?_ ?_ ?_ ?_
    · exact kWA.trans (congrArg (fun x => transpose Cert.ReferenceIdeal.S36x36 [1, 0] (Y2pR.wA x) Cert.ReferenceIdeal.Gen.transposes_S36x36_S36x36_1_0) hWA.symm)
    · exact (kBA.trans (Cert.KernelIdeal.RowReshape.row_reshape _ _)).trans
        (congrArg (fun x => fun i : GinMath.R36.Idx => Y2pR.bV x (ix1 (i 1))) hBA.symm)
    · exact kWB.trans (congrArg (fun x => transpose Cert.ReferenceIdeal.S36x36 [1, 0] (Y2pR.wB x) Cert.ReferenceIdeal.Gen.transposes_S36x36_S36x36_1_0) hWB.symm)
    · exact (kBB.trans (Cert.KernelIdeal.RowReshape.row_reshape _ _)).trans
        (congrArg (fun x => fun i : GinMath.R36.Idx => Y2pR.bV x (ix1 (i 1))) hBB.symm)
  -- the reference's output is real: a perceptron of real arrays
  have hr : IsReal (S := GinMath.N36) (Cert.ReferenceIdeal.RefRun.R11 (F := Ideal) m' c (Proc.devRef .tc Cert.ReferenceIdeal.main_v274)) :=
    IsReal.of_eq (isReal_mlp36 hAr
      (IsReal.of_eq (((rWA.slice _ _).reshape _).transpose _ _) kWA.symm)
      (IsReal.of_eq (((rBA.slice _ _).reshape _).reshape _) kBA.symm)
      (IsReal.of_eq (((rWB.slice _ _).reshape _).transpose _ _) kWB.symm)
      (IsReal.of_eq (((rBB.slice _ _).reshape _).reshape _) kBB.symm)) e
  unfold RelY
  exact ⟨k0.trans e, k1.trans (congrArg GinMath.tileSums e),
    k2.trans (congrArg (fun y => GinMath.tileSums (GinMath.sq y)) e), hr⟩

end Cert.Bridge

end
-- ==== Proof.StageB2t.lean ====
/-
  From a layer's output to the next layer's aggregate, in both programs. Both normalise the layer's output y by its
  column means and variances, scale and shift it by a row of each of the two parameter arrays, and add to every node
  row the rows of its in-neighbours. One takes the means and variances from the per-tile partial column sums of y
  and y² that its tiled layer left beside y, the other from y itself; for real y the two agree. One sends the
  normalised rows through a narrower float format on their way to the neighbours, which on extended reals changes
  nothing. The aggregate is an array of reals.
-/
import proofs.«408188_j34256659153341_2_alg».proof.Proof.FrameKI
import proofs.«408188_j34256659153341_2_alg».proof.Proof.KOpsGood
import proofs.«408188_j34256659153341_2_alg».proof.Proof.RefChain
import proofs.«408188_j34256659153341_2_alg».proof.Proof.BridgeArgs
import proofs.«408188_j34256659153341_2_alg».proof.Proof.BridgeDefs
import proofs.«408188_j34256659153341_2_alg».proof.Proof.BnAgg
import proofs.«408188_j34256659153341_2_alg».proof.Proof.EdgeRows

set_option maxRecDepth 16384

noncomputable section

namespace Cert.Bridge

open Idealize.ShloMosaic Idealize.SL.Sem Idealize.ShloMosaic.StableHlo

/-! ## The tiled program's host stretch -/
section Kernel

open Cert.KernelIdeal Cert.KernelIdeal.Gen

set_option maxHeartbeats 1600000 in
/-- The stretch's aggregate in terms of what it reads: the layer's three arrays, the two parameter arrays and the two
    rows of edge endpoints. -/
theorem kB2t_eval (V : Valuation τ sig (Elt Ideal))
    (y : FVec Ideal GinMath.N36 .f32) (s ss : FVec Ideal GinMath.P36 .f32) (a15 a16 : FVec Ideal BnAgg.A3 .f32)
    (src dst : IVec BnAgg.E 32)
    (hy : V (Proc.devRef .tc main_v251_0) = y) (hs : V (Proc.devRef .tc main_v251_1) = s)
    (hss : V (Proc.devRef .tc main_v251_2) = ss)
    (h15 : V (Proc.devRef .tc main_arg15) = a15) (h16 : V (Proc.devRef .tc main_arg16) = a16)
    (hsrc : V (Proc.devRef .tc main_v168) = src) (hdst : V (Proc.devRef .tc main_v170) = dst) :
    (after (hostOps6 (F := Ideal)) V (Proc.devRef .tc main_v291) : GinMath.N36.Idx → EReal)
      = BnAgg.aggK (by decide) (by decide) (by decide)
          gather_S100000x36_S1600000x1_S1600000x36_1_0_n_n_0_1_136 scatter_S100000x36_S1600000x1_S1600000x36_1_0_0_1
          (by decide)
          (BnAgg.bn (by decide) (by decide) (by decide)
            (BnAgg.meanK (by decide) (by decide) (by decide) s) (BnAgg.varK (by decide) (by decide) (by decide) s ss)
            (BnAgg.rowOf ![1, 1, 0] (by decide) (by decide) a15) (BnAgg.rowOf ![1, 1, 0] (by decide) (by decide) a16) y)
          src dst := by
  subst hy hs hss h15 h16 hsrc hdst
  after_results_simp
  unfold BnAgg.aggK BnAgg.bn BnAgg.varK BnAgg.meanK BnAgg.rowOf BnAgg.wrap
  rfl

end Kernel

/-! ## The plain program's segment -/
section Reference

open Cert.ReferenceIdeal Cert.ReferenceIdeal.Gen Cert.ReferenceIdeal.RefRun

set_option maxHeartbeats 1600000 in
/-- The segment's aggregate in terms of what it reads: the layer's output, the two parameter arrays and the two rows
    of edge endpoints. -/
theorem rB2t_eval (V : Valuation τ sig (Elt Ideal))
    (y : FVec Ideal GinMath.N36 .f32) (a15 a16 : FVec Ideal BnAgg.A3 .f32) (src dst : IVec BnAgg.E 32)
    (hy : V (Proc.devRef .tc main_v274) = y)
    (h15 : V (Proc.devRef .tc main_arg15) = a15) (h16 : V (Proc.devRef .tc main_arg16) = a16)
    (hsrc : V (Proc.devRef .tc main_v185) = src) (hdst : V (Proc.devRef .tc main_v187) = dst) :
    (after (seg11 (F := Ideal)) V (Proc.devRef .tc main_v316) : GinMath.N36.Idx → EReal)
      = BnAgg.agg (by decide) (by decide) (by decide)
          gather_S100000x36_S1600000x1_S1600000x36_1_0_n_n_0_1_136 scatter_S100000x36_S1600000x1_S1600000x36_1_0_0_1
          (BnAgg.bn (by decide) (by decide) (by decide)
            (BnAgg.meanR (by decide) (by decide) (by decide) y)
            (BnAgg.varR (by decide) (by decide) (by decide) (by decide) (by decide) (by decide) y)
            (BnAgg.rowOf ![1, 1, 0] (by decide) (by decide) a15) (BnAgg.rowOf ![1, 1, 0] (by decide) (by decide) a16) y)
          src dst := by
  subst hy h15 h16 hsrc hdst
  after_results_simp
  unfold BnAgg.agg BnAgg.bn BnAgg.varR BnAgg.meanR BnAgg.rowOf BnAgg.wrap
  rfl

end Reference

/-! ## The stage -/

/-- If at the tiled layer's exit its output, partial sums and partial sums of squares stand in the layer relation to
    the plain program's output, then after the next host stretch and the next segment the two aggregates are the same
    array of reals. The two programs' memories agree on the edge endpoints and on the two parameter arrays, and the
    parameter arrays are real. -/
theorem stage_B2t
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h15 : m' ((c.tc : Thread Cert.ReferenceIdeal.nD Cert.ReferenceIdeal.τ).loc Cert.ReferenceIdeal.main_arg15)
      = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16)
      = m ((c.tc : Thread Cert.KernelIdeal.nD Cert.KernelIdeal.τ).loc Cert.KernelIdeal.main_arg16))
    (hr15 : IsReal (S := BnAgg.A3) (m ((c.tc : Thread Cert.KernelIdeal.nD Cert.KernelIdeal.τ).loc Cert.KernelIdeal.main_arg15)))
    (hr16 : IsReal (S := BnAgg.A3) (m ((c.tc : Thread Cert.KernelIdeal.nD Cert.KernelIdeal.τ).loc Cert.KernelIdeal.main_arg16)))
    (hin : RelY (Cert.KernelIdeal.Gen.W12 (F := Ideal) m ρ c (Proc.devRef .tc Cert.KernelIdeal.main_v251_0))
      (Cert.KernelIdeal.Gen.W12 (F := Ideal) m ρ c (Proc.devRef .tc Cert.KernelIdeal.main_v251_1))
      (Cert.KernelIdeal.Gen.W12 (F := Ideal) m ρ c (Proc.devRef .tc Cert.KernelIdeal.main_v251_2))
      (Cert.ReferenceIdeal.RefRun.R11 (F := Ideal) m' c (Proc.devRef .tc Cert.ReferenceIdeal.main_v274))) :
    RelAgg (S := GinMath.N36)
      (Cert.KernelIdeal.Gen.W13 (F := Ideal) m ρ c (Proc.devRef .tc Cert.KernelIdeal.main_v291))
      (Cert.ReferenceIdeal.RefRun.R12 (F := Ideal) m' c (Proc.devRef .tc Cert.ReferenceIdeal.main_v316)) := by
  obtain ⟨hy, hs, hss, hre⟩ := hin
  have hK := kB2t_eval (Cert.KernelIdeal.Gen.W12 (F := Ideal) m ρ c) _ _ _ _ _ _ _ hy hs hss
    (karg_12 m ρ c Cert.KernelIdeal.main_arg15 (by decide)) (karg_12 m ρ c Cert.KernelIdeal.main_arg16 (by decide))
    (ksrc1_12 m ρ c) (kdst1_12 m ρ c)
  have hR := rB2t_eval (Cert.ReferenceIdeal.RefRun.R11 (F := Ideal) m' c) _ _ _ _ _ rfl
    ((rarg_11 m' c Cert.ReferenceIdeal.main_arg15 (by decide)).trans h15)
    ((rarg_11 m' c Cert.ReferenceIdeal.main_arg16 (by decide)).trans h16)
    ((rsrc1_11 m' c).trans (congrArg _ h1)) ((rdst1_11 m' c).trans (congrArg _ h1))
  rw [← gather36_eq, ← scatter36_eq] at hR
  have hKR := BnAgg.aggK_eq_aggR (by decide) (by decide) (by decide) (by decide) (by decide) (by decide) (by decide)
    (by decide) (by decide) (by decide)
    Cert.KernelIdeal.gather_S100000x36_S1600000x1_S1600000x36_1_0_n_n_0_1_136
    Cert.KernelIdeal.scatter_S100000x36_S1600000x1_S1600000x36_1_0_0_1 hre
    (BnAgg.rowOf ![1, 1, 0] (by decide) (by decide) (m ((c.tc : Thread Cert.KernelIdeal.nD Cert.KernelIdeal.τ).loc Cert.KernelIdeal.main_arg15)))
    (BnAgg.rowOf ![1, 1, 0] (by decide) (by decide) (m ((c.tc : Thread Cert.KernelIdeal.nD Cert.KernelIdeal.τ).loc Cert.KernelIdeal.main_arg16)))
    (BnAgg.edgeRow ![1, 0, 0] (by decide) (by decide) (m ((c.tc : Thread Cert.KernelIdeal.nD Cert.KernelIdeal.τ).loc Cert.KernelIdeal.main_arg1)))
    (BnAgg.edgeRow ![1, 1, 0] (by decide) (by decide) (m ((c.tc : Thread Cert.KernelIdeal.nD Cert.KernelIdeal.τ).loc Cert.KernelIdeal.main_arg1)))
  have hreal := BnAgg.aggR_real (by decide) (by decide) (by decide) (by decide) (by decide) (by decide)
    (by decide) (by decide) (by decide)
    Cert.KernelIdeal.gather_S100000x36_S1600000x1_S1600000x36_1_0_n_n_0_1_136
    Cert.KernelIdeal.scatter_S100000x36_S1600000x1_S1600000x36_1_0_0_1 hre
    (BnAgg.rowOf_real ![1, 1, 0] (by decide) (by decide) hr15) (BnAgg.rowOf_real ![1, 1, 0] (by decide) (by decide) hr16)
    (BnAgg.edgeRow ![1, 0, 0] (by decide) (by decide) (m ((c.tc : Thread Cert.KernelIdeal.nD Cert.KernelIdeal.τ).loc Cert.KernelIdeal.main_arg1)))
    (BnAgg.edgeRow ![1, 1, 0] (by decide) (by decide) (m ((c.tc : Thread Cert.KernelIdeal.nD Cert.KernelIdeal.τ).loc Cert.KernelIdeal.main_arg1)))
  have hKeq := (hK.trans (BnAgg.aggK_eq_agg (by decide) (by decide) (by decide)
    Cert.KernelIdeal.gather_S100000x36_S1600000x1_S1600000x36_1_0_n_n_0_1_136
    Cert.KernelIdeal.scatter_S100000x36_S1600000x1_S1600000x36_1_0_0_1 (by decide) _ _ _)).trans hKR
  refine ⟨hKeq.trans hR.symm, fun i => ?_⟩
  obtain ⟨r, hr⟩ := hreal i
  exact ⟨r, (congrFun hKeq i).trans hr⟩

end Cert.Bridge

end
-- ==== Proof.Reg6Pay.lean ====
/-
  One tile of the two-layer perceptron, entry by entry, on extended reals.

  A tile is 5000 node rows x of 36 features. One layer sends it to max(x·W + b, 0): entry (p, q) is
  max(Σ_k x(p,k)·W(k,q) + b(0,q), 0); the formats the products pass through change nothing at exact arithmetic.
  The tile's output y is two such layers. Besides y the tile yields two 8-row strips: row 0 of the first is the
  column sums of y over the tile's 5000 rows, row 0 of the second the column sums of y·y, and rows 1–7 are zero.
-/
import proofs.«408188_j34256659153341_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Reg6

open Idealize.ShloMosaic Idealize.ShloMosaic.ValueIdx Cert.KernelIdeal Cert.KernelIdeal.Gen

/-! ## The matrix product at an entry -/

/-- On the left operand's row axis the product reads the entry's row. -/
theorem lhs_ax0 (j : S5000x36.Idx) (k : dot_S5000x36_S36x36_S5000x36_1_0_0_1_n_n.contr.Idx) :
    (dot_S5000x36_S36x36_S5000x36_1_0_0_1_n_n.lhsIdx j k (0 : Fin 2)).val = (j 0).val := by
  unfold DotDims.lhsIdx
  rw [dif_neg (show ¬ (0 : Fin S5000x36.rank) ∈ dot_S5000x36_S36x36_S5000x36_1_0_0_1_n_n.lhsBatch by decide),
    dif_pos (show (0 : Fin S5000x36.rank) ∈ dot_S5000x36_S36x36_S5000x36_1_0_0_1_n_n.lhsNonContracting by decide)]
  rfl

/-- On the left operand's column axis it reads the summation index. -/
theorem lhs_ax1 (j : S5000x36.Idx) (k : dot_S5000x36_S36x36_S5000x36_1_0_0_1_n_n.contr.Idx) :
    (dot_S5000x36_S36x36_S5000x36_1_0_0_1_n_n.lhsIdx j k (1 : Fin 2)).val = (k ⟨0, by decide⟩).val :=
  dot_S5000x36_S36x36_S5000x36_1_0_0_1_n_n.lhsIdx_val_of_single (cl := (1 : Fin 2)) rfl j k

/-- On the right operand's row axis it reads the summation index. -/
theorem rhs_ax0 (j : S5000x36.Idx) (k : dot_S5000x36_S36x36_S5000x36_1_0_0_1_n_n.contr.Idx) :
    (dot_S5000x36_S36x36_S5000x36_1_0_0_1_n_n.rhsIdx j k (0 : Fin 2)).val = (k ⟨0, by decide⟩).val :=
  dot_S5000x36_S36x36_S5000x36_1_0_0_1_n_n.rhsIdx_val_of_single (cr := (0 : Fin 2)) rfl j k

/-- On the right operand's column axis it reads the entry's column. -/
theorem rhs_ax1 (j : S5000x36.Idx) (k : dot_S5000x36_S36x36_S5000x36_1_0_0_1_n_n.contr.Idx) :
    (dot_S5000x36_S36x36_S5000x36_1_0_0_1_n_n.rhsIdx j k (1 : Fin 2)).val = (j 1).val := by
  unfold DotDims.rhsIdx
  rw [dif_neg (show ¬ (1 : Fin S36x36.rank) ∈ dot_S5000x36_S36x36_S5000x36_1_0_0_1_n_n.rhsBatch by decide),
    dif_pos (show (1 : Fin S36x36.rank) ∈ dot_S5000x36_S36x36_S5000x36_1_0_0_1_n_n.rhsNonContracting by decide)]
  rfl

/-- A [5000,36] by [36,36] product into a zero accumulator, at entry (p, q): Σ_k l(p,k)·r(k,q). -/
theorem matmul_entry {φ₁ φ₂ : FTy} (l : FVec Ideal S5000x36 φ₁) (r : FVec Ideal S36x36 φ₂) (p : Fin 5000) (q : Fin 36) :
    matmul dot_S5000x36_S36x36_S5000x36_1_0_0_1_n_n none l r (constant (F := Ideal) S5000x36 .f32 0x00000000#32) (ix2 p q)
      = ∑ k : Fin 36, l (ix2 p k) * r (ix2 k q) := by
  refine (Ideal.matmul_constant_zero_apply dot_S5000x36_S36x36_S5000x36_1_0_0_1_n_n none l r (ix2 p q)).trans ?_
  rw [← Equiv.sum_comp (contrEquiv1 dot_S5000x36_S36x36_S5000x36_1_0_0_1_n_n 36 rfl rfl).symm]
  refine Finset.sum_congr rfl fun k _ => ?_
  have hk := contrEquiv1_symm_val dot_S5000x36_S36x36_S5000x36_1_0_0_1_n_n 36 rfl rfl k
  congr 1
  · refine congrArg l (funext fun a => Fin.ext ?_)
    match a with
    | ⟨0, _⟩ => exact lhs_ax0 _ _
    | ⟨1, _⟩ => exact (lhs_ax1 _ _).trans hk
  · refine congrArg r (funext fun a => Fin.ext ?_)
    match a with
    | ⟨0, _⟩ => exact (rhs_ax0 _ _).trans hk
    | ⟨1, _⟩ => exact rhs_ax1 _ _

/-! ## One layer of the perceptron on a tile -/

/-- One layer on a tile of 5000 rows: max(x·W + b, 0), the product taken through the narrower format. -/
def layer (x : FVec Ideal S5000x36 .f32) (w : FVec Ideal S36x36 .f32) (b : FVec Ideal S1x36 .f32) : FVec Ideal S5000x36 .f32 :=
  maximumf
    (addf
      (matmul dot_S5000x36_S36x36_S5000x36_1_0_0_1_n_n none (truncf .bf16 x bitsLt_bf16_f32)
        (truncf .bf16 (shapeCast S36x36 w shapeCasts_S36x36_S36x36) bitsLt_bf16_f32) (constant S5000x36 .f32 0x00000000#32))
      (broadcastTo S5000x36 (shapeCast S1x36 b shapeCasts_S1x36_S1x36) broadcasts_S1x36_S5000x36))
    (broadcast S5000x36 (Scalar.ofBits .f32 0x00000000#32))

/-- Entry (p, q) of a layer: max(Σ_k x(p,k)·W(k,q) + b(0,q), 0). -/
theorem layer_entry (x : FVec Ideal S5000x36 .f32) (w : FVec Ideal S36x36 .f32) (b : FVec Ideal S1x36 .f32) (p : Fin 5000) (q : Fin 36) :
    layer x w b (ix2 p q) = max ((∑ k : Fin 36, x (ix2 p k) * w (ix2 k q)) + b (ix2 0 q)) 0 := by
  show max (matmul dot_S5000x36_S36x36_S5000x36_1_0_0_1_n_n none (truncf .bf16 x bitsLt_bf16_f32)
        (truncf .bf16 (shapeCast S36x36 w shapeCasts_S36x36_S36x36) bitsLt_bf16_f32) (constant (F := Ideal) S5000x36 .f32 0x00000000#32) (ix2 p q)
      + broadcastTo S5000x36 (shapeCast S1x36 b shapeCasts_S1x36_S1x36) broadcasts_S1x36_S5000x36 (ix2 p q)) (Ideal.ofBits .f32 0x00000000#32) = _
  rw [matmul_entry, broadcastTo_1b_ab_apply, shapeCast_self, shapeCast_self, Ideal.ofBits_zero_f32]
  rfl

/-- The tile's output is two layers. -/
theorem pay2_eq (x0 : Vec Ideal S5000x36 .f32) (x1 : Vec Ideal S36x36 .f32) (x2 : Vec Ideal S1x36 .f32) (x3 : Vec Ideal S36x36 .f32) (x4 : Vec Ideal S1x36 .f32) :
    k6_pay2 x0 x1 x2 x3 x4 = layer (layer x0 x1 x2) x3 x4 := by
  unfold k6_pay2
  rw [shapeCast_self]
  rfl

/-- Entry (p, q) of the tile's output. -/
theorem pay2_entry (x0 : Vec Ideal S5000x36 .f32) (x1 : Vec Ideal S36x36 .f32) (x2 : Vec Ideal S1x36 .f32) (x3 : Vec Ideal S36x36 .f32) (x4 : Vec Ideal S1x36 .f32)
    (p : Fin 5000) (q : Fin 36) :
    k6_pay2 x0 x1 x2 x3 x4 (ix2 p q)
      = max ((∑ k : Fin 36, max ((∑ j : Fin 36, x0 (ix2 p j) * x1 (ix2 j k)) + x2 (ix2 0 k)) 0 * x3 (ix2 k q)) + x4 (ix2 0 q)) 0 := by
  rw [pay2_eq, layer_entry]
  simp only [layer_entry]

/-! ## The strips of column sums -/

/-- A select on "row r is row 0", r below 8, is the `if` on r. -/
theorem select_row0 {α : Type} (h : Nat) (hh : h < 8) (A B : α) :
    Scalar.select (IntOp.cmpi .eq (BitVec.ofNat 32 h) 0#32) A B = if h = 0 then A else B := by
  interval_cases h <;> rfl

/-- The 8-row strip made from a tile Y: its column sums laid on row 0, zero on the other rows. -/
def strip (Y : FVec Ideal S5000x36 .f32) : FVec Ideal S8x36 .f32 :=
  select (cmpi .eq (iota .tc S8x36 32 [0] iota_S8x36_d0_w32) (broadcast S8x36 0#32))
    (broadcastTo S8x36 (shapeCast S1x36 (shapeCast S1x36 (multiReduction .add [0] S36 Y 0x00000000#32 reduces_S5000x36_S36 (.inl rfl) rfl) shapeCasts_S36_S1x36) shapeCasts_S1x36_S1x36) broadcasts_S1x36_S8x36)
    (broadcast S8x36 (Scalar.ofBits .f32 0x00000000#32))

/-- Entry (r, q) of a strip: Σ_n Y(n, q) on row 0, zero below. -/
theorem strip_entry (Y : FVec Ideal S5000x36 .f32) (r : Fin 8) (q : Fin 36) :
    strip Y (ix2 r q) = if r.val = 0 then ∑ n : Fin 5000, Y (ix2 n q) else 0 := by
  show Scalar.select (IntOp.cmpi .eq (iota .tc S8x36 32 [0] iota_S8x36_d0_w32 (ix2 r q)) 0#32)
      (broadcastTo S8x36 (shapeCast S1x36 (shapeCast S1x36 (multiReduction .add [0] S36 Y 0x00000000#32 reduces_S5000x36_S36 (.inl rfl) rfl) shapeCasts_S36_S1x36) shapeCasts_S1x36_S1x36) broadcasts_S1x36_S8x36 (ix2 r q))
      (Ideal.ofBits .f32 0x00000000#32) = _
  rw [iota_single_apply]
  show Scalar.select (IntOp.cmpi .eq (BitVec.ofNat 32 r.val) 0#32) _ _ = _
  rw [select_row0 r.val r.isLt, broadcastTo_1b_ab_apply, shapeCast_self, shapeCast_a_1a_apply, Ideal.ofBits_zero_f32]
  refine if_congr Iff.rfl ?_ rfl
  refine (Ideal.multiReduction_add_single Y 0x00000000#32 reduces_S5000x36_S36 (.inl rfl) rfl (ix1 q)).trans ?_
  refine Finset.sum_congr rfl fun n _ => congrArg Y (funext fun a => Fin.ext ?_)
  match a with
  | ⟨0, _⟩ => rfl
  | ⟨1, _⟩ => rfl

/-- The first strip is made from the tile's output. -/
theorem pay4_eq (x0 : Vec Ideal S5000x36 .f32) (x1 : Vec Ideal S36x36 .f32) (x2 : Vec Ideal S1x36 .f32) (x3 : Vec Ideal S36x36 .f32) (x4 : Vec Ideal S1x36 .f32) :
    k6_pay4 x0 x1 x2 x3 x4 = strip (k6_pay2 x0 x1 x2 x3 x4) := rfl

/-- The second strip is made from the squares of the tile's output. -/
theorem pay1_eq (x0 : Vec Ideal S5000x36 .f32) (x1 : Vec Ideal S36x36 .f32) (x2 : Vec Ideal S1x36 .f32) (x3 : Vec Ideal S36x36 .f32) (x4 : Vec Ideal S1x36 .f32) :
    k6_pay1 (k6_pay3 x0 x1 x2 x3 x4) (iota .tc S8x36 32 [0] iota_S8x36_d0_w32)
      = strip (mulf (k6_pay2 x0 x1 x2 x3 x4) (k6_pay2 x0 x1 x2 x3 x4)) := rfl

end Cert.KernelIdeal.Reg6

end
-- ==== Proof.Reg6Point.lean ====
/-
  One tile of the perceptron against the whole-array functions.

  Tile t holds node rows 5000·t … 5000·t + 4999. If a tile's input block is those rows of the feature array A and the
  four parameter blocks are the whole parameter arrays, then the tile's output at (p, q) is the perceptron's value at
  node row 5000·t + p, column q; the tile's first strip is rows 8·t … 8·t + 7 of the partial column sums of the
  perceptron's output, and its second strip those rows of the partial column sums of the squares.
-/
import proofs.«408188_j34256659153341_2_alg».proof.Proof.GinMath
import proofs.«408188_j34256659153341_2_alg».proof.Proof.TileSum
import proofs.«408188_j34256659153341_2_alg».proof.Proof.Reg6Pay

noncomputable section

open scoped BigOperators

namespace Cert.KernelIdeal.Reg6

open Idealize.ShloMosaic Idealize.ShloMosaic.ValueIdx Cert.KernelIdeal Cert.KernelIdeal.Gen Cert.GinMath

variable (A : N36.Idx → EReal) (WA : W36.Idx → EReal) (BA : R36.Idx → EReal) (WB : W36.Idx → EReal) (BB : R36.Idx → EReal)

/-- The tile's output at (p, q) is the perceptron at node row n, column q, when the tile's row p is row n of A. -/
theorem pay2_mlp (x0 : Vec Ideal S5000x36 .f32) (x1 : Vec Ideal S36x36 .f32) (x2 : Vec Ideal S1x36 .f32) (x3 : Vec Ideal S36x36 .f32) (x4 : Vec Ideal S1x36 .f32)
    (h1 : x1 = WA) (h2 : x2 = BA) (h3 : x3 = WB) (h4 : x4 = BB)
    (p : Fin 5000) (q : Fin 36) (n : Fin 100000) (h0 : ∀ k : Fin 36, x0 (ix2 p k) = A (ix2 n k)) :
    k6_pay2 x0 x1 x2 x3 x4 (ix2 p q) = mlp36 A WA BA WB BB (ix2 n q) := by
  subst h1 h2 h3 h4
  rw [pay2_entry]
  simp only [h0]
  rfl

/-- The same at indices given by their coordinates' values. -/
theorem blk5_point (x0 : Vec Ideal S5000x36 .f32) (x1 : Vec Ideal S36x36 .f32) (x2 : Vec Ideal S1x36 .f32) (x3 : Vec Ideal S36x36 .f32) (x4 : Vec Ideal S1x36 .f32)
    (h1 : x1 = WA) (h2 : x2 = BA) (h3 : x3 = WB) (h4 : x4 = BB)
    (t : ℕ) (h0 : ∀ (b : Fin 5000) (k : Fin 36) (n : Fin 100000), n.val = 5000 * t + b.val → x0 (ix2 b k) = A (ix2 n k))
    (y : S5000x36.Idx) (i : N36.Idx) (hi0 : (i 0).val = 5000 * t + (y 0).val) (hi1 : (i 1).val = (y 1).val) :
    k6_pay2 x0 x1 x2 x3 x4 y = mlp36 A WA BA WB BB i := by
  obtain ⟨p, q, rfl⟩ : ∃ (p : Fin 5000) (q : Fin 36), y = ix2 p q := ⟨y 0, y 1, eq_ix2 y⟩
  obtain ⟨n, d, rfl⟩ : ∃ (n : Fin 100000) (d : Fin 36), i = ix2 n d := ⟨i 0, i 1, eq_ix2 i⟩
  obtain rfl : d = q := Fin.ext hi1
  exact pay2_mlp A WA BA WB BB x0 x1 x2 x3 x4 h1 h2 h3 h4 p d n fun k => h0 p k n hi0

/-- A strip of tile t is rows 8·t … 8·t + 7 of the partial sums by tile of the array Y the tile is cut from. -/
theorem strip_tileSums (Y : N36.Idx → EReal) (Yt : FVec Ideal S5000x36 .f32) (t : ℕ) (ht : t < 20)
    (hY : ∀ (b : Fin 5000) (q : Fin 36), Yt (ix2 b q) = Y (ix2 ⟨5000 * t + b.val, by have := b.isLt; omega⟩ q))
    (y : S8x36.Idx) (i : P36.Idx) (hi0 : (i 0).val = 8 * t + (y 0).val) (hi1 : (i 1).val = (y 1).val) :
    strip Yt y = tileSums Y i := by
  obtain ⟨r, q, rfl⟩ : ∃ (r : Fin 8) (q : Fin 36), y = ix2 r q := ⟨y 0, y 1, eq_ix2 y⟩
  obtain ⟨g, d, rfl⟩ : ∃ (g : Fin 160) (d : Fin 36), i = ix2 g d := ⟨i 0, i 1, eq_ix2 i⟩
  obtain rfl : d = q := Fin.ext hi1
  have hg : g.val = 8 * t + r.val := hi0
  have hr := r.isLt
  rw [strip_entry]
  show _ = if g.val % 8 = 0 then ∑ n : Fin 100000, (if n.val / 5000 = g.val / 8 then Y (ix2 n d) else 0) else 0
  rw [show g.val / 8 = t by omega]
  refine if_congr (by omega) ?_ rfl
  rw [Cert.TileSum.sum_tile (fun n => Y (ix2 n d)) t ht]
  exact Finset.sum_congr rfl fun b _ => hY b d

end Cert.KernelIdeal.Reg6

end
-- ==== Proof.Reg6Value.lean ====
/-
  What the perceptron's pipeline leaves in its three output arrays, as whole-array functions of the five arrays it reads.

  The grid has 20 points; point t reads rows 5000·t … 5000·t + 4999 of the feature array and the four parameter arrays
  whole, and writes back rows 5000·t … 5000·t + 4999 of y and rows 8·t … 8·t + 7 of the two arrays of partial sums.
  Every written block is the matching block of one whole-array function (the perceptron; its partial column sums by
  tile; those of its squares), and the blocks of the 20 points cover each output array, so the arrays end at those
  functions.
-/
import proofs.«408188_j34256659153341_2_alg».proof.Proof.FrameKI
import proofs.«408188_j34256659153341_2_alg».proof.Proof.Reg6Point
import Idealize.ShloMosaic.Lib.Pipeline.Value

noncomputable section

open scoped BigOperators

open Idealize.ShloMosaic Idealize.ShloMosaic.TcCoe Idealize.SL.Sem Idealize.ShloMosaic.ValueIdx
open Idealize.ShloMosaic.Pipeline (Dat)

namespace Cert.KernelIdeal.Reg6

open Cert.KernelIdeal Cert.KernelIdeal.Gen Cert.GinMath

variable (V : (c : Dev nD) → (b : Ref sig .tc) → Buf (Elt Ideal) ((c : Thread nD τ).loc b))

/-! ## The five arrays the region reads, as it finds them -/

/-- The aggregated features, [100000, 36]. -/
abbrev arrA (c : Dev nD) : N36.Idx → EReal := V c (Pipeline.arrRef spec6 0)
/-- The first layer's weights, [36, 36]. -/
abbrev arrWA (c : Dev nD) : W36.Idx → EReal := V c (Pipeline.arrRef spec6 1)
/-- The first layer's bias, [1, 36]. -/
abbrev arrBA (c : Dev nD) : R36.Idx → EReal := V c (Pipeline.arrRef spec6 2)
/-- The second layer's weights, [36, 36]. -/
abbrev arrWB (c : Dev nD) : W36.Idx → EReal := V c (Pipeline.arrRef spec6 3)
/-- The second layer's bias, [1, 36]. -/
abbrev arrBB (c : Dev nD) : R36.Idx → EReal := V c (Pipeline.arrRef spec6 4)

/-- The perceptron's output as a whole array. -/
abbrev Y (c : Dev nD) : N36.Idx → EReal := mlp36 (arrA V c) (arrWA V c) (arrBA V c) (arrWB V c) (arrBB V c)

/-! ## Where each window's block sits at grid point t -/

theorem hz : (![0, 0] : Fin 2 → Nat) = fun _ => 0 := funext fun a => by fin_cases a <;> rfl

/-- The block indices at point t: the feature rows and the three outputs move with t along the rows, the parameter
    arrays stay whole. -/
theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0
    ∧ win6_6.index t (0 : Fin 2) = t.val ∧ win6_6.index t (1 : Fin 2) = 0
    ∧ win6_7.index t (0 : Fin 2) = t.val ∧ win6_7.index t (1 : Fin 2) = 0 :=
  (by decide +kernel : ∀ t : Fin grid6.N, _)

theorem t_lt (t : Fin cfg6.N) : t.val < 20 := by
  have h : cfg6.N = 20 := N_6
  have := t.isLt
  omega

/-! ## The input blocks, read off the arrays -/

/-- The feature block at point t is rows 5000·t … 5000·t + 4999 of the feature array. -/
theorem inA_rows (c : Dev nD) (t : Fin cfg6.N) (x : S5000x36.Idx) (k : N36.Idx)
    (hk0 : (k 0).val = 5000 * t.val + (x 0).val) (hk1 : (k 1).val = (x 1).val) :
    (iblk6 V c 0 t : Vec Ideal S5000x36 .f32) x = arrA V c k := by
  obtain ⟨e0, e1, -⟩ := idx_facts t
  unfold iblk6
  rw [View.read_apply]
  show V c (Pipeline.arrRef spec6 0) _ = V c (Pipeline.arrRef spec6 0) _
  congr 1
  funext a
  apply Fin.ext
  match a with
  | ⟨0, _⟩ => show win6_0.index t (0 : Fin 2) * 5000 + 1 * (x 0).val = (k 0).val; rw [e0, hk0]; omega
  | ⟨1, _⟩ => show win6_0.index t (1 : Fin 2) * 36 + 1 * (x 1).val = (k 1).val; rw [e1, hk1]; omega

/-- The first layer's weights arrive whole at every point. -/
theorem inWA_whole (c : Dev nD) (t : Fin cfg6.N) : (iblk6 V c 1 t : Vec Ideal S36x36 .f32) = arrWA V c := by
  obtain ⟨-, -, e0, e1, -⟩ := idx_facts t
  funext x
  unfold iblk6
  rw [View.read_apply]
  show V c (Pipeline.arrRef spec6 1) _ = V c (Pipeline.arrRef spec6 1) _
  congr 1
  funext a
  apply Fin.ext
  match a with
  | ⟨0, _⟩ => show win6_1.index t (0 : Fin 2) * 36 + 1 * (x 0).val = (x 0).val; rw [e0]; omega
  | ⟨1, _⟩ => show win6_1.index t (1 : Fin 2) * 36 + 1 * (x 1).val = (x 1).val; rw [e1]; omega

/-- The first layer's bias arrives whole at every point. -/
theorem inBA_whole (c : Dev nD) (t : Fin cfg6.N) : (iblk6 V c 2 t : Vec Ideal S1x36 .f32) = arrBA V c := by
  obtain ⟨-, -, -, -, e0, e1, -⟩ := idx_facts t
  funext x
  unfold iblk6
  rw [View.read_apply]
  show V c (Pipeline.arrRef spec6 2) _ = V c (Pipeline.arrRef spec6 2) _
  congr 1
  funext a
  apply Fin.ext
  match a with
  | ⟨0, _⟩ => show win6_2.index t (0 : Fin 2) * 1 + 1 * (x 0).val = (x 0).val; rw [e0]; omega
  | ⟨1, _⟩ => show win6_2.index t (1 : Fin 2) * 36 + 1 * (x 1).val = (x 1).val; rw [e1]; omega

/-- The second layer's weights arrive whole at every point. -/
theorem inWB_whole (c : Dev nD) (t : Fin cfg6.N) : (iblk6 V c 3 t : Vec Ideal S36x36 .f32) = arrWB V c := by
  obtain ⟨-, -, -, -, -, -, e0, e1, -⟩ := idx_facts t
  funext x
  unfold iblk6
  rw [View.read_apply]
  show V c (Pipeline.arrRef spec6 3) _ = V c (Pipeline.arrRef spec6 3) _
  congr 1
  funext a
  apply Fin.ext
  match a with
  | ⟨0, _⟩ => show win6_3.index t (0 : Fin 2) * 36 + 1 * (x 0).val = (x 0).val; rw [e0]; omega
  | ⟨1, _⟩ => show win6_3.index t (1 : Fin 2) * 36 + 1 * (x 1).val = (x 1).val; rw [e1]; omega

/-- The second layer's bias arrives whole at every point. -/
theorem inBB_whole (c : Dev nD) (t : Fin cfg6.N) : (iblk6 V c 4 t : Vec Ideal S1x36 .f32) = arrBB V c := by
  obtain ⟨-, -, -, -, -, -, -, -, e0, e1, -⟩ := idx_facts t
  funext x
  unfold iblk6
  rw [View.read_apply]
  show V c (Pipeline.arrRef spec6 4) _ = V c (Pipeline.arrRef spec6 4) _
  congr 1
  funext a
  apply Fin.ext
  match a with
  | ⟨0, _⟩ => show win6_4.index t (0 : Fin 2) * 1 + 1 * (x 0).val = (x 0).val; rw [e0]; omega
  | ⟨1, _⟩ => show win6_4.index t (1 : Fin 2) * 36 + 1 * (x 1).val = (x 1).val; rw [e1]; omega

/-- The tile computed at point t is rows 5000·t … of the perceptron's output. -/
theorem tile_eq (c : Dev nD) (t : Fin cfg6.N) (b : Fin 5000) (q : Fin 36) :
    k6_pay2 (iblk6 V c 0 t) (iblk6 V c 1 t) (iblk6 V c 2 t) (iblk6 V c 3 t) (iblk6 V c 4 t) (ix2 b q)
      = Y V c (ix2 ⟨5000 * t.val + b.val, by have := t_lt t; have := b.isLt; omega⟩ q) :=
  pay2_mlp (arrA V c) (arrWA V c) (arrBA V c) (arrWB V c) (arrBB V c)
    (iblk6 V c 0 t) (iblk6 V c 1 t) (iblk6 V c 2 t) (iblk6 V c 3 t) (iblk6 V c 4 t)
    (inWA_whole V c t) (inBA_whole V c t) (inWB_whole V c t) (inBB_whole V c t) b q _
    fun k => inA_rows V c t (ix2 b k) (ix2 _ k) rfl rfl

/-! ## What each point writes back -/

/-- Point t writes back rows 5000·t … 5000·t + 4999 of the perceptron's output. -/
theorem flushed5_eq (c : Dev nD) (t : Fin cfg6.N) :
    (dat6 V c).flushed 5 t = ((cfg6.win 5).blk t).view.read (Elt Ideal) (Y V c) := by
  show (cfg6.win 5).cut (grid6.coords t) ((dat6 V c).after 5 t) = _
  rw [after6_5]
  unfold out6_5
  rw [View.canon_unit_zero hz]
  simp only [View.ld_unit_zero (S := S5000x36) hz, View.ld_unit_zero (S := S36x36) hz, View.ld_unit_zero (S := S1x36) hz]
  obtain ⟨-, -, -, -, -, -, -, -, -, -, e0, e1, -⟩ := idx_facts t
  funext j
  rw [View.read_apply]
  show k6_pay2 (iblk6 V c 0 t) (iblk6 V c 1 t) (iblk6 V c 2 t) (iblk6 V c 3 t) (iblk6 V c 4 t) j = Y V c (((cfg6.win 5).blk t).view.emb j)
  refine blk5_point (arrA V c) (arrWA V c) (arrBA V c) (arrWB V c) (arrBB V c)
    (iblk6 V c 0 t) (iblk6 V c 1 t) (iblk6 V c 2 t) (iblk6 V c 3 t) (iblk6 V c 4 t)
    (inWA_whole V c t) (inBA_whole V c t) (inWB_whole V c t) (inBB_whole V c t) t.val
    (fun b k n hn => inA_rows V c t (ix2 b k) (ix2 n k) hn rfl) j (((cfg6.win 5).blk t).view.emb j) ?_ ?_
  · show win6_5.index t (0 : Fin 2) * 5000 + 1 * (j 0).val = 5000 * t.val + (j 0).val; rw [e0]; omega
  · show win6_5.index t (1 : Fin 2) * 36 + 1 * (j 1).val = (j 1).val; rw [e1]; omega

/-- Point t writes back rows 8·t … 8·t + 7 of the partial column sums of the perceptron's output. -/
theorem flushed6_eq (c : Dev nD) (t : Fin cfg6.N) :
    (dat6 V c).flushed 6 t = ((cfg6.win 6).blk t).view.read (Elt Ideal) (tileSums (Y V c)) := by
  show (cfg6.win 6).cut (grid6.coords t) ((dat6 V c).after 6 t) = _
  rw [after6_6]
  unfold out6_6
  rw [View.canon_unit_zero hz]
  simp only [View.ld_unit_zero (S := S5000x36) hz, View.ld_unit_zero (S := S36x36) hz, View.ld_unit_zero (S := S1x36) hz]
  rw [pay4_eq]
  obtain ⟨-, -, -, -, -, -, -, -, -, -, -, -, e0, e1, -⟩ := idx_facts t
  funext j
  rw [View.read_apply]
  show strip (k6_pay2 (iblk6 V c 0 t) (iblk6 V c 1 t) (iblk6 V c 2 t) (iblk6 V c 3 t) (iblk6 V c 4 t)) j = tileSums (Y V c) (((cfg6.win 6).blk t).view.emb j)
  refine strip_tileSums (Y V c) _ t.val (t_lt t) (fun b q => tile_eq V c t b q) j (((cfg6.win 6).blk t).view.emb j) ?_ ?_
  · show win6_6.index t (0 : Fin 2) * 8 + 1 * (j 0).val = 8 * t.val + (j 0).val; rw [e0]; omega
  · show win6_6.index t (1 : Fin 2) * 36 + 1 * (j 1).val = (j 1).val; rw [e1]; omega

/-- Point t writes back rows 8·t … 8·t + 7 of the partial column sums of the squares. -/
theorem flushed7_eq (c : Dev nD) (t : Fin cfg6.N) :
    (dat6 V c).flushed 7 t = ((cfg6.win 7).blk t).view.read (Elt Ideal) (tileSums (sq (Y V c))) := by
  show (cfg6.win 7).cut (grid6.coords t) ((dat6 V c).after 7 t) = _
  rw [after6_7]
  unfold out6_7
  rw [View.canon_unit_zero hz]
  simp only [View.ld_unit_zero (S := S5000x36) hz, View.ld_unit_zero (S := S36x36) hz, View.ld_unit_zero (S := S1x36) hz]
  rw [pay1_eq]
  obtain ⟨-, -, -, -, -, -, -, -, -, -, -, -, -, -, e0, e1⟩ := idx_facts t
  funext j
  rw [View.read_apply]
  show strip (mulf (k6_pay2 (iblk6 V c 0 t) (iblk6 V c 1 t) (iblk6 V c 2 t) (iblk6 V c 3 t) (iblk6 V c 4 t))
      (k6_pay2 (iblk6 V c 0 t) (iblk6 V c 1 t) (iblk6 V c 2 t) (iblk6 V c 3 t) (iblk6 V c 4 t))) j
    = tileSums (sq (Y V c)) (((cfg6.win 7).blk t).view.emb j)
  refine strip_tileSums (sq (Y V c)) _ t.val (t_lt t) (fun b q => ?_) j (((cfg6.win 7).blk t).view.emb j) ?_ ?_
  · show k6_pay2 (iblk6 V c 0 t) (iblk6 V c 1 t) (iblk6 V c 2 t) (iblk6 V c 3 t) (iblk6 V c 4 t) (ix2 b q)
        * k6_pay2 (iblk6 V c 0 t) (iblk6 V c 1 t) (iblk6 V c 2 t) (iblk6 V c 3 t) (iblk6 V c 4 t) (ix2 b q) = _
    rw [tile_eq V c t b q]
    rfl
  · show win6_7.index t (0 : Fin 2) * 8 + 1 * (j 0).val = 8 * t.val + (j 0).val; rw [e0]; omega
  · show win6_7.index t (1 : Fin 2) * 36 + 1 * (j 1).val = (j 1).val; rw [e1]; omega

/-! ## The blocks cover the arrays -/

/-- Row r of y lies in the block of point r / 5000. -/
theorem cover5 (i : N36.Idx) : ∃ t : Fin cfg6.N, (cfg6.win 5).flush t = true ∧ i ∈ ((cfg6.win 5).blk t).view.set := by
  have hi0 : (i 0).val < 100000 := (i 0).isLt
  have hi1 : (i 1).val < 36 := (i 1).isLt
  have hN : cfg6.N = 20 := N_6
  have ht : (i 0).val / 5000 < cfg6.N := by rw [hN]; omega
  obtain ⟨-, -, -, -, -, -, -, -, -, -, e0, e1, -⟩ := idx_facts ⟨(i 0).val / 5000, ht⟩
  refine ⟨⟨(i 0).val / 5000, ht⟩, flush6_5 _, ?_⟩
  show i ∈ ((View.whole main_v304_0).slice (win6_5.rect ⟨(i 0).val / 5000, ht⟩)).set
  rw [View.set_slice_whole, Rect.mem_set_unit]
  intro a
  match a with
  | ⟨0, _⟩ =>
    show win6_5.index ⟨(i 0).val / 5000, ht⟩ (0 : Fin 2) * 5000 ≤ (i 0).val ∧ (i 0).val < win6_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win6_5.index ⟨(i 0).val / 5000, ht⟩ (1 : Fin 2) * 36 ≤ (i 1).val ∧ (i 1).val < win6_5.index ⟨(i 0).val / 5000, ht⟩ (1 : Fin 2) * 36 + 36
    rw [e1]; omega

/-- Row r of the first array of partial sums lies in the block of point r / 8. -/
theorem cover6 (i : P36.Idx) : ∃ t : Fin cfg6.N, (cfg6.win 6).flush t = true ∧ i ∈ ((cfg6.win 6).blk t).view.set := by
  have hi0 : (i 0).val < 160 := (i 0).isLt
  have hi1 : (i 1).val < 36 := (i 1).isLt
  have hN : cfg6.N = 20 := N_6
  have ht : (i 0).val / 8 < cfg6.N := by rw [hN]; omega
  obtain ⟨-, -, -, -, -, -, -, -, -, -, -, -, e0, e1, -⟩ := idx_facts ⟨(i 0).val / 8, ht⟩
  refine ⟨⟨(i 0).val / 8, ht⟩, flush6_6 _, ?_⟩
  show i ∈ ((View.whole main_v304_1).slice (win6_6.rect ⟨(i 0).val / 8, ht⟩)).set
  rw [View.set_slice_whole, Rect.mem_set_unit]
  intro a
  match a with
  | ⟨0, _⟩ =>
    show win6_6.index ⟨(i 0).val / 8, ht⟩ (0 : Fin 2) * 8 ≤ (i 0).val ∧ (i 0).val < win6_6.index ⟨(i 0).val / 8, ht⟩ (0 : Fin 2) * 8 + 8
    rw [e0]; show (i 0).val / 8 * 8 ≤ (i 0).val ∧ (i 0).val < (i 0).val / 8 * 8 + 8; omega
  | ⟨1, _⟩ =>
    show win6_6.index ⟨(i 0).val / 8, ht⟩ (1 : Fin 2) * 36 ≤ (i 1).val ∧ (i 1).val < win6_6.index ⟨(i 0).val / 8, ht⟩ (1 : Fin 2) * 36 + 36
    rw [e1]; omega

/-- Row r of the second array of partial sums lies in the block of point r / 8. -/
theorem cover7 (i : P36.Idx) : ∃ t : Fin cfg6.N, (cfg6.win 7).flush t = true ∧ i ∈ ((cfg6.win 7).blk t).view.set := by
  have hi0 : (i 0).val < 160 := (i 0).isLt
  have hi1 : (i 1).val < 36 := (i 1).isLt
  have hN : cfg6.N = 20 := N_6
  have ht : (i 0).val / 8 < cfg6.N := by rw [hN]; omega
  obtain ⟨-, -, -, -, -, -, -, -, -, -, -, -, -, -, e0, e1⟩ := idx_facts ⟨(i 0).val / 8, ht⟩
  refine ⟨⟨(i 0).val / 8, ht⟩, flush6_7 _, ?_⟩
  show i ∈ ((View.whole main_v304_2).slice (win6_7.rect ⟨(i 0).val / 8, ht⟩)).set
  rw [View.set_slice_whole, Rect.mem_set_unit]
  intro a
  match a with
  | ⟨0, _⟩ =>
    show win6_7.index ⟨(i 0).val / 8, ht⟩ (0 : Fin 2) * 8 ≤ (i 0).val ∧ (i 0).val < win6_7.index ⟨(i 0).val / 8, ht⟩ (0 : Fin 2) * 8 + 8
    rw [e0]; show (i 0).val / 8 * 8 ≤ (i 0).val ∧ (i 0).val < (i 0).val / 8 * 8 + 8; omega
  | ⟨1, _⟩ =>
    show win6_7.index ⟨(i 0).val / 8, ht⟩ (1 : Fin 2) * 36 ≤ (i 1).val ∧ (i 1).val < win6_7.index ⟨(i 0).val / 8, ht⟩ (1 : Fin 2) * 36 + 36
    rw [e1]; omega

/-! ## The three output arrays after the region -/

/-- y ends at the perceptron of the five arrays. -/
theorem y_eq (c : Dev nD) : (dat6 V c).arrAt 5 cfg6.N = Y V c :=
  (dat6 V c).arrAt_eq_of_cover 5 (Y V c) (fun t _ => flushed5_eq V c t) cover5

/-- The first array of partial sums ends at the partial column sums, by tile, of the perceptron's output. -/
theorem s_eq (c : Dev nD) : (dat6 V c).arrAt 6 cfg6.N = tileSums (Y V c) :=
  (dat6 V c).arrAt_eq_of_cover 6 (tileSums (Y V c)) (fun t _ => flushed6_eq V c t) cover6

/-- The second ends at the partial column sums, by tile, of its squares. -/
theorem ss_eq (c : Dev nD) : (dat6 V c).arrAt 7 cfg6.N = tileSums (sq (Y V c)) :=
  (dat6 V c).arrAt_eq_of_cover 7 (tileSums (sq (Y V c))) (fun t _ => flushed7_eq V c t) cover7

end Cert.KernelIdeal.Reg6

end
-- ==== Proof.StageY3p.lean ====
/-
  Layer 3 of transform 1 on both sides. The tiled program's region 6 leaves the perceptron of its five input arrays —
  the aggregate, and the two weight matrices and two bias rows its host stretch prepared — together with the per-tile
  column sums of that output and of its squares. The reference computes the same perceptron as two matrix products,
  each followed by a bias spread over the node rows and a rectifier. Both sides prepare the weights from the same
  arguments: transform 1's slice of each stacked argument, the matrices transposed, the bias vectors read as rows.
  So from equal, real aggregates the two outputs are equal, the sums are the per-tile sums of the reference's output,
  and that output is real.
-/
import proofs.«408188_j34256659153341_2_alg».proof.Proof.FrameKI
import proofs.«408188_j34256659153341_2_alg».proof.Proof.Reg6Value
import proofs.«408188_j34256659153341_2_alg».proof.Proof.RefChain
import proofs.«408188_j34256659153341_2_alg».proof.Proof.RefMlp
import proofs.«408188_j34256659153341_2_alg».proof.Proof.RowReshape
import proofs.«408188_j34256659153341_2_alg».proof.Proof.BridgeArgs
import proofs.«408188_j34256659153341_2_alg».proof.Proof.GinReal
import Idealize.ShloMosaic.Lib.StableHlo.Run

noncomputable section

/-! ## The tiled program's host stretch before region 6: the four weight arrays it prepares -/

namespace Cert.Bridge.Y3pK

open Cert.KernelIdeal Cert.KernelIdeal.Gen Idealize.ShloMosaic Idealize.SL.Sem Idealize.ShloMosaic.StableHlo
open Idealize.ShloMosaic.ValueIdx

/-- Transform 1's first-layer matrix (36 × 36) cut out of the stacked argument. -/
abbrev wA (x : (⟨S2x36x36, .f32⟩ : BufTy).Contents (Elt Ideal)) : (⟨S36x36, .f32⟩ : BufTy).Contents (Elt Ideal) :=
  shapeCast S36x36 (extractStridedSlice S1x36x36 ![1, 0, 0] x slices_S2x36x36_S1x36x36_1_0_0) shapeCasts_S1x36x36_S36x36
/-- Transform 1's second-layer matrix (36 × 36) cut out of the stacked argument. -/
abbrev wB (x : (⟨S2x36x36, .f32⟩ : BufTy).Contents (Elt Ideal)) : (⟨S36x36, .f32⟩ : BufTy).Contents (Elt Ideal) :=
  shapeCast S36x36 (extractStridedSlice S1x36x36 ![1, 0, 0] x slices_S2x36x36_S1x36x36_1_0_0) shapeCasts_S1x36x36_S36x36
/-- Transform 1's bias vector (36 entries) cut out of the stacked argument. -/
abbrev bV (x : (⟨S2x36, .f32⟩ : BufTy).Contents (Elt Ideal)) : (⟨S36, .f32⟩ : BufTy).Contents (Elt Ideal) :=
  shapeCast S36 (extractStridedSlice S1x36 ![1, 0] x slices_S2x36_S1x36_1_0) shapeCasts_S1x36_S36

/-- The first product's right operand: the first-layer matrix, transposed. -/
theorem wa (V : Valuation τ sig (Elt Ideal)) :
    after (hostOps6 (F := Ideal)) V (Proc.devRef .tc Cert.KernelIdeal.main_v300)
      = transpose S36x36 [1, 0] (wA (V (Proc.devRef .tc Cert.KernelIdeal.main_arg11))) transposes_S36x36_S36x36_1_0 := by
  after_results_simp
  all_goals rfl
/-- The first bias, as one row. -/
theorem ba (V : Valuation τ sig (Elt Ideal)) :
    after (hostOps6 (F := Ideal)) V (Proc.devRef .tc Cert.KernelIdeal.main_v302)
      = shapeCast S1x36 (bV (V (Proc.devRef .tc Cert.KernelIdeal.main_arg12))) shapeCasts_S36_S1x36 := by
  after_results_simp
  all_goals rfl
/-- The second product's right operand: the second-layer matrix, transposed. -/
theorem wb (V : Valuation τ sig (Elt Ideal)) :
    after (hostOps6 (F := Ideal)) V (Proc.devRef .tc Cert.KernelIdeal.main_v301)
      = transpose S36x36 [1, 0] (wB (V (Proc.devRef .tc Cert.KernelIdeal.main_arg13))) transposes_S36x36_S36x36_1_0 := by
  after_results_simp
  all_goals rfl
/-- The second bias, as one row. -/
theorem bb (V : Valuation τ sig (Elt Ideal)) :
    after (hostOps6 (F := Ideal)) V (Proc.devRef .tc Cert.KernelIdeal.main_v303)
      = shapeCast S1x36 (bV (V (Proc.devRef .tc Cert.KernelIdeal.main_arg14))) shapeCasts_S36_S1x36 := by
  after_results_simp
  all_goals rfl

end Cert.Bridge.Y3pK

/-! ## The reference: the weights the stretch before cuts out, and its perceptron -/

namespace Cert.Bridge.Y3pR

open Cert.ReferenceIdeal Cert.ReferenceIdeal.Gen Cert.ReferenceIdeal.RefRun Idealize.ShloMosaic Idealize.SL.Sem
open Idealize.ShloMosaic.StableHlo Idealize.ShloMosaic.ValueIdx

/-- Transform 1's first-layer matrix (36 × 36) cut out of the stacked argument. -/
abbrev wA (x : (⟨S2x36x36, .f32⟩ : BufTy).Contents (Elt Ideal)) : (⟨S36x36, .f32⟩ : BufTy).Contents (Elt Ideal) :=
  shapeCast S36x36 (extractStridedSlice S1x36x36 ![1, 0, 0] x slices_S2x36x36_S1x36x36_1_0_0) shapeCasts_S1x36x36_S36x36
/-- Transform 1's second-layer matrix (36 × 36) cut out of the stacked argument. -/
abbrev wB (x : (⟨S2x36x36, .f32⟩ : BufTy).Contents (Elt Ideal)) : (⟨S36x36, .f32⟩ : BufTy).Contents (Elt Ideal) :=
  shapeCast S36x36 (extractStridedSlice S1x36x36 ![1, 0, 0] x slices_S2x36x36_S1x36x36_1_0_0) shapeCasts_S1x36x36_S36x36
/-- Transform 1's bias vector (36 entries) cut out of the stacked argument. -/
abbrev bV (x : (⟨S2x36, .f32⟩ : BufTy).Contents (Elt Ideal)) : (⟨S36, .f32⟩ : BufTy).Contents (Elt Ideal) :=
  shapeCast S36 (extractStridedSlice S1x36 ![1, 0] x slices_S2x36_S1x36_1_0) shapeCasts_S1x36_S36

theorem wa (V : Valuation τ sig (Elt Ideal)) :
    after (seg11 (F := Ideal)) V (Proc.devRef .tc Cert.ReferenceIdeal.main_v299) = wA (V (Proc.devRef .tc Cert.ReferenceIdeal.main_arg11)) := by
  after_results_simp
  all_goals rfl
theorem ba (V : Valuation τ sig (Elt Ideal)) :
    after (seg11 (F := Ideal)) V (Proc.devRef .tc Cert.ReferenceIdeal.main_v301) = bV (V (Proc.devRef .tc Cert.ReferenceIdeal.main_arg12)) := by
  after_results_simp
  all_goals rfl
theorem wb (V : Valuation τ sig (Elt Ideal)) :
    after (seg11 (F := Ideal)) V (Proc.devRef .tc Cert.ReferenceIdeal.main_v303) = wB (V (Proc.devRef .tc Cert.ReferenceIdeal.main_arg13)) := by
  after_results_simp
  all_goals rfl
theorem bb (V : Valuation τ sig (Elt Ideal)) :
    after (seg11 (F := Ideal)) V (Proc.devRef .tc Cert.ReferenceIdeal.main_v305) = bV (V (Proc.devRef .tc Cert.ReferenceIdeal.main_arg14)) := by
  after_results_simp
  all_goals rfl

-- the fold through the stretch's sixteen operations is long to evaluate
set_option maxHeartbeats 1000000 in
/-- The stretch of the two products: its last value is the perceptron of the aggregate with the weights transposed
    and the bias vectors read as rows. -/
theorem y (V : Valuation τ sig (Elt Ideal)) :
    after (seg12 (F := Ideal)) V (Proc.devRef .tc Cert.ReferenceIdeal.main_v328)
      = Cert.GinMath.mlp36 (V (Proc.devRef .tc Cert.ReferenceIdeal.main_v316))
          (transpose S36x36 [1, 0] (V (Proc.devRef .tc Cert.ReferenceIdeal.main_v299)) transposes_S36x36_S36x36_1_0)
          (fun i => V (Proc.devRef .tc Cert.ReferenceIdeal.main_v301) (ix1 (i 1)))
          (transpose S36x36 [1, 0] (V (Proc.devRef .tc Cert.ReferenceIdeal.main_v303)) transposes_S36x36_S36x36_1_0)
          (fun i => V (Proc.devRef .tc Cert.ReferenceIdeal.main_v305) (ix1 (i 1))) := by
  after_results
  exact RefMlp.mlp36_eq _ _ _ _ _

end Cert.Bridge.Y3pR

/-! ## The stage -/

namespace Cert.Bridge

open Idealize.ShloMosaic Idealize.SL.Sem Idealize.ShloMosaic.ValueIdx

/-- Region 6 against the reference's perceptron: from equal real aggregates, equal outputs with their per-tile
    sums, the output real. The two memories agree on the four weight arguments, which are real. -/
theorem stage_Y3p
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hWA : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (hBA : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (hWB : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (hBB : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (rWA : IsReal (m ((c.tc : Thread Cert.KernelIdeal.nD Cert.KernelIdeal.τ).loc Cert.KernelIdeal.main_arg11)))
    (rBA : IsReal (m ((c.tc : Thread Cert.KernelIdeal.nD Cert.KernelIdeal.τ).loc Cert.KernelIdeal.main_arg12)))
    (rWB : IsReal (m ((c.tc : Thread Cert.KernelIdeal.nD Cert.KernelIdeal.τ).loc Cert.KernelIdeal.main_arg13)))
    (rBB : IsReal (m ((c.tc : Thread Cert.KernelIdeal.nD Cert.KernelIdeal.τ).loc Cert.KernelIdeal.main_arg14)))
    (hin : RelAgg (S := GinMath.N36) (Cert.KernelIdeal.Gen.W13 (F := Ideal) m ρ c (Proc.devRef .tc Cert.KernelIdeal.main_v291))
        (Cert.ReferenceIdeal.RefRun.R12 (F := Ideal) m' c (Proc.devRef .tc Cert.ReferenceIdeal.main_v316))) :
    RelY (Cert.KernelIdeal.Gen.W14 (F := Ideal) m ρ c (Proc.devRef .tc Cert.KernelIdeal.main_v304_0))
      (Cert.KernelIdeal.Gen.W14 (F := Ideal) m ρ c (Proc.devRef .tc Cert.KernelIdeal.main_v304_1))
      (Cert.KernelIdeal.Gen.W14 (F := Ideal) m ρ c (Proc.devRef .tc Cert.KernelIdeal.main_v304_2))
      (Cert.ReferenceIdeal.RefRun.R13 (F := Ideal) m' c (Proc.devRef .tc Cert.ReferenceIdeal.main_v328)) := by
  unfold RelAgg at hin
  obtain ⟨hA, hAr⟩ := hin
  -- the tiled side's four weight arrays, from its arguments
  have kWA : Cert.KernelIdeal.Gen.W13 (F := Ideal) m ρ c (Proc.devRef .tc Cert.KernelIdeal.main_v300)
      = transpose Cert.KernelIdeal.S36x36 [1, 0] (Y3pK.wA (m ((c.tc : Thread Cert.KernelIdeal.nD Cert.KernelIdeal.τ).loc Cert.KernelIdeal.main_arg11))) Cert.KernelIdeal.Gen.transposes_S36x36_S36x36_1_0 :=
    (Y3pK.wa (Cert.KernelIdeal.Gen.W12 m ρ c)).trans
      (congrArg (fun x => transpose Cert.KernelIdeal.S36x36 [1, 0] (Y3pK.wA x) Cert.KernelIdeal.Gen.transposes_S36x36_S36x36_1_0) (karg_12 m ρ c Cert.KernelIdeal.main_arg11 (by decide)))
  have kBA : Cert.KernelIdeal.Gen.W13 (F := Ideal) m ρ c (Proc.devRef .tc Cert.KernelIdeal.main_v302)
      = shapeCast Cert.KernelIdeal.S1x36 (Y3pK.bV (m ((c.tc : Thread Cert.KernelIdeal.nD Cert.KernelIdeal.τ).loc Cert.KernelIdeal.main_arg12))) Cert.KernelIdeal.Gen.shapeCasts_S36_S1x36 :=
    (Y3pK.ba (Cert.KernelIdeal.Gen.W12 m ρ c)).trans
      (congrArg (fun x => shapeCast Cert.KernelIdeal.S1x36 (Y3pK.bV x) Cert.KernelIdeal.Gen.shapeCasts_S36_S1x36) (karg_12 m ρ c Cert.KernelIdeal.main_arg12 (by decide)))
  have kWB : Cert.KernelIdeal.Gen.W13 (F := Ideal) m ρ c (Proc.devRef .tc Cert.KernelIdeal.main_v301)
      = transpose Cert.KernelIdeal.S36x36 [1, 0] (Y3pK.wB (m ((c.tc : Thread Cert.KernelIdeal.nD Cert.KernelIdeal.τ).loc Cert.KernelIdeal.main_arg13))) Cert.KernelIdeal.Gen.transposes_S36x36_S36x36_1_0 :=
    (Y3pK.wb (Cert.KernelIdeal.Gen.W12 m ρ c)).trans
      (congrArg (fun x => transpose Cert.KernelIdeal.S36x36 [1, 0] (Y3pK.wB x) Cert.KernelIdeal.Gen.transposes_S36x36_S36x36_1_0) (karg_12 m ρ c Cert.KernelIdeal.main_arg13 (by decide)))
  have kBB : Cert.KernelIdeal.Gen.W13 (F := Ideal) m ρ c (Proc.devRef .tc Cert.KernelIdeal.main_v303)
      = shapeCast Cert.KernelIdeal.S1x36 (Y3pK.bV (m ((c.tc : Thread Cert.KernelIdeal.nD Cert.KernelIdeal.τ).loc Cert.KernelIdeal.main_arg14))) Cert.KernelIdeal.Gen.shapeCasts_S36_S1x36 :=
    (Y3pK.bb (Cert.KernelIdeal.Gen.W12 m ρ c)).trans
      (congrArg (fun x => shapeCast Cert.KernelIdeal.S1x36 (Y3pK.bV x) Cert.KernelIdeal.Gen.shapeCasts_S36_S1x36) (karg_12 m ρ c Cert.KernelIdeal.main_arg14 (by decide)))
  -- the reference's four, from its arguments
  have sWA : Cert.ReferenceIdeal.RefRun.R12 (F := Ideal) m' c (Proc.devRef .tc Cert.ReferenceIdeal.main_v299) = Y3pR.wA (m' ((c.tc : Thread Cert.ReferenceIdeal.nD Cert.ReferenceIdeal.τ).loc Cert.ReferenceIdeal.main_arg11)) :=
    (Y3pR.wa (Cert.ReferenceIdeal.RefRun.R11 m' c)).trans (congrArg Y3pR.wA (rarg_11 m' c Cert.ReferenceIdeal.main_arg11 (by decide)))
  have sBA : Cert.ReferenceIdeal.RefRun.R12 (F := Ideal) m' c (Proc.devRef .tc Cert.ReferenceIdeal.main_v301) = Y3pR.bV (m' ((c.tc : Thread Cert.ReferenceIdeal.nD Cert.ReferenceIdeal.τ).loc Cert.ReferenceIdeal.main_arg12)) :=
    (Y3pR.ba (Cert.ReferenceIdeal.RefRun.R11 m' c)).trans (congrArg Y3pR.bV (rarg_11 m' c Cert.ReferenceIdeal.main_arg12 (by decide)))
  have sWB : Cert.ReferenceIdeal.RefRun.R12 (F := Ideal) m' c (Proc.devRef .tc Cert.ReferenceIdeal.main_v303) = Y3pR.wB (m' ((c.tc : Thread Cert.ReferenceIdeal.nD Cert.ReferenceIdeal.τ).loc Cert.ReferenceIdeal.main_arg13)) :=
    (Y3pR.wb (Cert.ReferenceIdeal.RefRun.R11 m' c)).trans (congrArg Y3pR.wB (rarg_11 m' c Cert.ReferenceIdeal.main_arg13 (by decide)))
  have sBB : Cert.ReferenceIdeal.RefRun.R12 (F := Ideal) m' c (Proc.devRef .tc Cert.ReferenceIdeal.main_v305) = Y3pR.bV (m' ((c.tc : Thread Cert.ReferenceIdeal.nD Cert.ReferenceIdeal.τ).loc Cert.ReferenceIdeal.main_arg14)) :=
    (Y3pR.bb (Cert.ReferenceIdeal.RefRun.R11 m' c)).trans (congrArg Y3pR.bV (rarg_11 m' c Cert.ReferenceIdeal.main_arg14 (by decide)))
  -- the reference's output is the perceptron of its five arrays
  have hy := Y3pR.y (Cert.ReferenceIdeal.RefRun.R12 (F := Ideal) m' c)
  rw [sWA, sBA, sWB, sBB] at hy
  -- the tiled side's three outputs are the perceptron of its five arrays, and its per-tile sums
  have k0 := (Cert.KernelIdeal.Gen.W14_arr (F := Ideal) m ρ c 5).trans (Cert.KernelIdeal.Reg6.y_eq (Cert.KernelIdeal.Gen.V13 m ρ) c)
  have k1 := (Cert.KernelIdeal.Gen.W14_arr (F := Ideal) m ρ c 6).trans (Cert.KernelIdeal.Reg6.s_eq (Cert.KernelIdeal.Gen.V13 m ρ) c)
  have k2 := (Cert.KernelIdeal.Gen.W14_arr (F := Ideal) m ρ c 7).trans (Cert.KernelIdeal.Reg6.ss_eq (Cert.KernelIdeal.Gen.V13 m ρ) c)
  -- the two perceptrons are the same
  have e : Cert.KernelIdeal.Reg6.Y (Cert.KernelIdeal.Gen.V13 (F := Ideal) m ρ) c
      = Cert.ReferenceIdeal.RefRun.R13 (F := Ideal) m' c (Proc.devRef .tc Cert.ReferenceIdeal.main_v328) := by
    refine Eq.trans ?_ hy.symm
    refine mlp36_congr hA ?_ ?_ ?_ ?_
    · exact kWA.trans (congrArg (fun x => transpose Cert.ReferenceIdeal.S36x36 [1, 0] (Y3pR.wA x) Cert.ReferenceIdeal.Gen.transposes_S36x36_S36x36_1_0) hWA.symm)
    · exact (kBA.trans (Cert.KernelIdeal.RowReshape.row_reshape _ _)).trans
        (congrArg (fun x => fun i : GinMath.R36.Idx => Y3pR.bV x (ix1 (i 1))) hBA.symm)
    · exact kWB.trans (congrArg (fun x => transpose Cert.ReferenceIdeal.S36x36 [1, 0] (Y3pR.wB x) Cert.ReferenceIdeal.Gen.transposes_S36x36_S36x36_1_0) hWB.symm)
    · exact (kBB.trans (Cert.KernelIdeal.RowReshape.row_reshape _ _)).trans
        (congrArg (fun x => fun i : GinMath.R36.Idx => Y3pR.bV x (ix1 (i 1))) hBB.symm)
  -- the reference's output is real: a perceptron of real arrays
  have hr : IsReal (S := GinMath.N36) (Cert.ReferenceIdeal.RefRun.R13 (F := Ideal) m' c (Proc.devRef .tc Cert.ReferenceIdeal.main_v328)) :=
    IsReal.of_eq (isReal_mlp36 hAr
      (IsReal.of_eq (((rWA.slice _ _).reshape _).transpose _ _) kWA.symm)
      (IsReal.of_eq (((rBA.slice _ _).reshape _).reshape _) kBA.symm)
      (IsReal.of_eq (((rWB.slice _ _).reshape _).transpose _ _) kWB.symm)
      (IsReal.of_eq (((rBB.slice _ _).reshape _).reshape _) kBB.symm)) e
  unfold RelY
  exact ⟨k0.trans e, k1.trans (congrArg GinMath.tileSums e),
    k2.trans (congrArg (fun y => GinMath.tileSums (GinMath.sq y)) e), hr⟩

end Cert.Bridge

end
-- ==== Proof.Reg7Pay.lean ====
/-
  The pool's arithmetic at one index. One grid point of the pooling kernel holds a block of 2000 node rows:
  their features y (2000 × 36), their graph ids (2000 × 1, 32-bit words), and the four rows of 36 that
  batch normalisation needs (mean, variance, scale, shift). It forms the normalised rows
      h(r,d) = (g(d)·(y(r,d) − mean(d)))·rsqrt(var(d) + eps) + b(d),
  the one-hot matrix  e(r,p) = 1 if ids(r) is the word p, else 0  (2000 × 512), and adds eᵀ·h to the carried
  512 × 36 block.  Over the extended reals 1·x = x and 0·x = 0 for every x, so entry (p,d) of eᵀ·h is the sum of
  h(r,d) over the rows r of the block whose graph id is the word p: no finiteness is needed.
-/
import proofs.«408188_j34256659153341_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Reg7

open Idealize.ShloMosaic Idealize.ShloMosaic.ValueIdx Cert.KernelIdeal Cert.KernelIdeal.Gen

/-- The small constant under the inverse square root: the extended real of the body's literal word. -/
abbrev eps : EReal := Ideal.ofBits .f32 0x3727C5AC#32

/-- The normalised row entry of a block: ((g·(y − mean))·rsqrt(var + eps)) + b at row r, column d. -/
def hrow (y : Vec Ideal S2000x36 .f32) (vr g mn b : Vec Ideal S1x36 .f32) (r : Fin 2000) (d : Fin 36) : EReal :=
  g (ix2 0 d) * (y (ix2 r d) - mn (ix2 0 d)) * Ideal.rsqrt (vr (ix2 0 d) + eps) + b (ix2 0 d)

/-- The reset block is zero everywhere. -/
theorem pay1_apply (p : Fin 512) (q : Fin 36) : k7_pay1 (F := Ideal) (ix2 p q) = 0 := by
  show Ideal.ofBits .f32 0x00000000#32 = 0
  exact Ideal.ofBits_zero_f32

/-! ## The one-hot matrix -/

/-- A column of 2000 words broadcast along 512 lanes reads its row's word at every lane. -/
theorem bcast_col_apply (x : IVec S2000x1 32) (r : Fin 2000) (p : Fin 512) :
    broadcastTo S2000x512 x broadcasts_S2000x1_S2000x512 (ix2 r p) = x (ix2 r 0) := by
  refine broadcastTo_apply x _ (ix2 r p) (ix2 r (0 : Fin 1)) fun ax => ?_
  match ax with
  | ⟨0, _⟩ => rfl
  | ⟨1, _⟩ => rfl

/-- The one-hot matrix of a block's graph ids, as the body builds it: compare each row's id with the lane
    number, widen the bit, convert to a float. -/
def onehot (ids : Vec Ideal S2000x1 .i32) : FVec Ideal S2000x512 .bf16 :=
  truncf .bf16 (sitofp .f32 (extui 32 (cmpi .eq
    (broadcastTo S2000x512 (shapeCast S2000x1 ids shapeCasts_S2000x1_S2000x1) broadcasts_S2000x1_S2000x512)
    (iota .tc S2000x512 32 [1] iota_S2000x512_d1_w32)) natLt_1_32)) bitsLt_bf16_f32

/-- A compared bit, widened and converted, is the extended real 1 or 0. -/
theorem bit_to_real (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · subst h
    rw [if_pos rfl]
    have : ((IntOp.cmpi .eq a a).setWidth 32) = 1#32 := by simp [IntOp.cmpi]
    rw [this]; norm_num
  · rw [if_neg h]
    have hb : (a == b) = false := beq_eq_false_iff_ne.mpr h
    have : ((IntOp.cmpi .eq a b).setWidth 32) = 0#32 := by simp [IntOp.cmpi, hb]
    rw [this]; norm_num

/-- Entry (r,p) of the one-hot matrix: 1 when row r's graph id is the word p, else 0. -/
theorem onehot_apply (ids : Vec Ideal S2000x1 .i32) (r : Fin 2000) (p : Fin 512) :
    onehot ids (ix2 r p) = if ids (ix2 r 0) = BitVec.ofNat 32 p.val then 1 else 0 := by
  have ha : broadcastTo S2000x512 (shapeCast S2000x1 ids shapeCasts_S2000x1_S2000x1) broadcasts_S2000x1_S2000x512 (ix2 r p)
      = ids (ix2 r 0) := by
    rw [shapeCast_self]; exact bcast_col_apply ids r p
  have hb : iota .tc S2000x512 32 [1] iota_S2000x512_d1_w32 (ix2 r p) = BitVec.ofNat 32 p.val :=
    iota_single_apply .tc S2000x512 32 1 iota_S2000x512_d1_w32 (ix2 r p)
  show (FloatOps.sitofp (F := Ideal) .f32 ((IntOp.cmpi .eq
      (broadcastTo S2000x512 (shapeCast S2000x1 ids shapeCasts_S2000x1_S2000x1) broadcasts_S2000x1_S2000x512 (ix2 r p))
      (iota .tc S2000x512 32 [1] iota_S2000x512_d1_w32 (ix2 r p))).setWidth 32) : EReal) = _
  rw [ha, hb]
  exact bit_to_real _ _

/-! ## The normalised rows -/

/-- The block of normalised rows, as the body builds it. -/
def hblk (y : Vec Ideal S2000x36 .f32) (vr g mn b : Vec Ideal S1x36 .f32) : FVec Ideal S2000x36 .bf16 :=
  truncf .bf16 (addf (mulf (mulf
      (broadcastTo S2000x36 (shapeCast S1x36 g shapeCasts_S1x36_S1x36) broadcasts_S1x36_S2000x36)
      (subf (shapeCast S2000x36 y shapeCasts_S2000x36_S2000x36)
        (broadcastTo S2000x36 (shapeCast S1x36 mn shapeCasts_S1x36_S1x36) broadcasts_S1x36_S2000x36)))
      (broadcastTo S2000x36 (rsqrt (addf (shapeCast S1x36 vr shapeCasts_S1x36_S1x36)
        (broadcast S1x36 (Scalar.ofBits (F := Ideal) .f32 0x3727C5AC#32)))) broadcasts_S1x36_S2000x36))
      (broadcastTo S2000x36 (shapeCast S1x36 b shapeCasts_S1x36_S1x36) broadcasts_S1x36_S2000x36)) bitsLt_bf16_f32

/-- Entry (r,d) of the block of normalised rows. -/
theorem hblk_apply (y : Vec Ideal S2000x36 .f32) (vr g mn b : Vec Ideal S1x36 .f32) (r : Fin 2000) (d : Fin 36) :
    hblk y vr g mn b (ix2 r d) = hrow y vr g mn b r d := by
  unfold hblk hrow
  rw [shapeCast_self, shapeCast_self, shapeCast_self, shapeCast_self, shapeCast_self]
  show (broadcastTo S2000x36 g broadcasts_S1x36_S2000x36 (ix2 r d)
        * (y (ix2 r d) - broadcastTo S2000x36 mn broadcasts_S1x36_S2000x36 (ix2 r d)))
        * broadcastTo S2000x36 (rsqrt (addf vr (broadcast S1x36 (Scalar.ofBits (F := Ideal) .f32 0x3727C5AC#32))))
            broadcasts_S1x36_S2000x36 (ix2 r d)
        + broadcastTo S2000x36 b broadcasts_S1x36_S2000x36 (ix2 r d) = _
  rw [broadcastTo_1b_ab_apply, broadcastTo_1b_ab_apply, broadcastTo_1b_ab_apply, broadcastTo_1b_ab_apply]
  rfl

/-! ## The product eᵀ·h and the accumulating store -/

/-- The body's accumulating payload is the carried block plus the product of the one-hot matrix (transposed by
    the contraction over rows) with the block of normalised rows, into a zero accumulator. -/
theorem pay2_eq (y : Vec Ideal S2000x36 .f32) (vr g mn b : Vec Ideal S1x36 .f32) (ids : Vec Ideal S2000x1 .i32)
    (acc : Vec Ideal S512x36 .f32) :
    k7_pay2 (F := Ideal) y vr g mn b ids acc
      = addf (shapeCast S512x36 acc shapeCasts_S512x36_S512x36)
          (matmul dot_S2000x512_S2000x36_S512x36_0_0_1_1_n_n none (onehot ids) (hblk y vr g mn b)
            (constant S512x36 .f32 0x00000000#32)) := rfl

/-- The contraction runs over the row axis of both operands: the left operand is read at (row, p) … -/
theorem lhs_pool_0 (i : S512x36.Idx) (q : dot_S2000x512_S2000x36_S512x36_0_0_1_1_n_n.contr.Idx) :
    (dot_S2000x512_S2000x36_S512x36_0_0_1_1_n_n.lhsIdx i q 0).val = (q ⟨0, by decide⟩).val :=
  dot_S2000x512_S2000x36_S512x36_0_0_1_1_n_n.lhsIdx_val_of_single rfl i q
theorem lhs_pool_1 (i : S512x36.Idx) (q : dot_S2000x512_S2000x36_S512x36_0_0_1_1_n_n.contr.Idx) :
    (dot_S2000x512_S2000x36_S512x36_0_0_1_1_n_n.lhsIdx i q 1).val = (i 0).val := by
  unfold DotDims.lhsIdx
  rw [dif_neg (show ¬(1 : Fin S2000x512.rank) ∈ dot_S2000x512_S2000x36_S512x36_0_0_1_1_n_n.lhsBatch by decide),
    dif_pos (show (1 : Fin S2000x512.rank) ∈ dot_S2000x512_S2000x36_S512x36_0_0_1_1_n_n.lhsNonContracting by decide)]
  rfl
/-- … and the right operand at (row, d). -/
theorem rhs_pool_0 (i : S512x36.Idx) (q : dot_S2000x512_S2000x36_S512x36_0_0_1_1_n_n.contr.Idx) :
    (dot_S2000x512_S2000x36_S512x36_0_0_1_1_n_n.rhsIdx i q 0).val = (q ⟨0, by decide⟩).val :=
  dot_S2000x512_S2000x36_S512x36_0_0_1_1_n_n.rhsIdx_val_of_single rfl i q
theorem rhs_pool_1 (i : S512x36.Idx) (q : dot_S2000x512_S2000x36_S512x36_0_0_1_1_n_n.contr.Idx) :
    (dot_S2000x512_S2000x36_S512x36_0_0_1_1_n_n.rhsIdx i q 1).val = (i 1).val := by
  unfold DotDims.rhsIdx
  rw [dif_neg (show ¬(1 : Fin S2000x36.rank) ∈ dot_S2000x512_S2000x36_S512x36_0_0_1_1_n_n.rhsBatch by decide),
    dif_pos (show (1 : Fin S2000x36.rank) ∈ dot_S2000x512_S2000x36_S512x36_0_0_1_1_n_n.rhsNonContracting by decide)]
  rfl

/-- Entry (p,d) of the product into a zero accumulator: the sum over the block's rows of e(r,p)·h(r,d). -/
theorem pool_matmul_apply (e : FVec Ideal S2000x512 .bf16) (h : FVec Ideal S2000x36 .bf16) (p : Fin 512) (d : Fin 36) :
    matmul dot_S2000x512_S2000x36_S512x36_0_0_1_1_n_n none e h (constant S512x36 .f32 0x00000000#32) (ix2 p d)
      = ∑ r : Fin 2000, e (ix2 r p) * h (ix2 r d) := by
  refine (Ideal.matmul_constant_zero_apply dot_S2000x512_S2000x36_S512x36_0_0_1_1_n_n none e h (ix2 p d)).trans ?_
  rw [← Equiv.sum_comp (contrEquiv1 dot_S2000x512_S2000x36_S512x36_0_0_1_1_n_n 2000 rfl rfl).symm]
  refine Finset.sum_congr rfl fun r _ => ?_
  have hk := contrEquiv1_symm_val dot_S2000x512_S2000x36_S512x36_0_0_1_1_n_n 2000 rfl rfl r
  have el : dot_S2000x512_S2000x36_S512x36_0_0_1_1_n_n.lhsIdx (ix2 p d)
      ((contrEquiv1 dot_S2000x512_S2000x36_S512x36_0_0_1_1_n_n 2000 rfl rfl).symm r) = ix2 r p := funext fun a => Fin.ext (by
    match a with
    | ⟨0, _⟩ => exact (lhs_pool_0 _ _).trans hk
    | ⟨1, _⟩ => exact lhs_pool_1 _ _)
  have er : dot_S2000x512_S2000x36_S512x36_0_0_1_1_n_n.rhsIdx (ix2 p d)
      ((contrEquiv1 dot_S2000x512_S2000x36_S512x36_0_0_1_1_n_n 2000 rfl rfl).symm r) = ix2 r d := funext fun a => Fin.ext (by
    match a with
    | ⟨0, _⟩ => exact (rhs_pool_0 _ _).trans hk
    | ⟨1, _⟩ => exact rhs_pool_1 _ _)
  rw [el, er]

/-- The accumulating store at entry (p,d): the carried entry plus the sum of the normalised entries h(r,d) over
    the block's rows r whose graph id is the word p. -/
theorem pay2_apply (y : Vec Ideal S2000x36 .f32) (vr g mn b : Vec Ideal S1x36 .f32) (ids : Vec Ideal S2000x1 .i32)
    (acc : Vec Ideal S512x36 .f32) (p : Fin 512) (q : Fin 36) :
    k7_pay2 (F := Ideal) y vr g mn b ids acc (ix2 p q)
      = acc (ix2 p q) + ∑ r : Fin 2000, (if ids (ix2 r 0) = BitVec.ofNat 32 p.val then hrow y vr g mn b r q else 0) := by
  rw [pay2_eq, shapeCast_self]
  show acc (ix2 p q) + matmul dot_S2000x512_S2000x36_S512x36_0_0_1_1_n_n none (onehot ids) (hblk y vr g mn b)
      (constant S512x36 .f32 0x00000000#32) (ix2 p q) = _
  rw [pool_matmul_apply]
  refine congrArg (acc (ix2 p q) + ·) (Finset.sum_congr rfl fun r _ => ?_)
  rw [onehot_apply, hblk_apply]
  split
  · exact one_mul _
  · exact zero_mul _

end Cert.KernelIdeal.Reg7

end
-- ==== Proof.Reg7Value.lean ====
/-
  The pool region's value. The grid has 50 points; point t holds rows 2000·t … 2000·t + 1999 of the node features
  and of the graph ids, the four batch-normalisation rows whole, and ONE output block of 512 × 36 that stays in
  place from point to point: point 0 first stores zeros into it, and every point adds to entry (p,d) the sum of the
  normalised entries h(n,d) over its own rows n whose graph id is the word p. So after point t the block holds, at
  (p,d), the sum over the rows below 2000·(t+1) — by induction on the point, each step one more block of the sum —
  and after the last point the sum over all 100000 rows. The block is written back once, after point 49, and it is
  the whole output array.
-/
import proofs.«408188_j34256659153341_2_alg».proof.Proof.FrameKI
import proofs.«408188_j34256659153341_2_alg».proof.Proof.GinMath
import proofs.«408188_j34256659153341_2_alg».proof.Proof.Reg7Pay
import proofs.«408188_j34256659153341_2_alg».proof.Proof.PoolSum
import Idealize.ShloMosaic.Lib.Pipeline.Value
import Idealize.ShloMosaic.Lib.Tactic

noncomputable section

open scoped BigOperators

open Idealize.ShloMosaic Idealize.ShloMosaic.TcCoe Idealize.SL.Sem Idealize.ShloMosaic.ValueIdx
open Idealize.ShloMosaic.Pipeline (Dat)

namespace Cert.KernelIdeal.Reg7

open Cert.KernelIdeal Cert.KernelIdeal.Gen

theorem hz : (![0, 0] : Fin 2 → Nat) = fun _ => 0 := funext fun a => by fin_cases a <;> rfl

/-! ## What one point leaves in the output block, for any float values -/

section Pieces

variable {F : FTy → Type} [FloatOps F]

/-- A later point: the block holding xo is left at the accumulating payload of the point's input blocks and xo. -/
theorem out_B (c : Dev nD) (i : grid7.Coords) (a1 : Memref sig .tc .vmem S2000x36 .f32) (h1 : a1.IsWhole) (a2 : Memref sig .tc .vmem S1x36 .f32) (h2 : a2.IsWhole)
    (a3 : Memref sig .tc .vmem S1x36 .f32) (h3 : a3.IsWhole) (a4 : Memref sig .tc .vmem S1x36 .f32) (h4 : a4.IsWhole)
    (a5 : Memref sig .tc .vmem S1x36 .f32) (h5 : a5.IsWhole) (a6 : Memref sig .tc .vmem S2000x1 .i32) (h6 : a6.IsWhole)
    (a7 : Memref sig .tc .vmem S512x36 .f32) (h7 : a7.IsWhole) (hc : ¬cond7_0 i)
    (x0 : Vec F S2000x36 .f32) (x1 x2 x3 x4 : Vec F S1x36 .f32) (x5 : Vec F S2000x1 .i32) (xo : Vec F S512x36 .f32) :
    out7_B_6 c i a1 h1 a2 h2 a3 h3 a4 h4 a5 h5 a6 h6 a7 h7 hc x0 x1 x2 x3 x4 x5 xo = k7_pay2 x0 x2 x3 x1 x4 x5 xo := by
  unfold out7_B_6
  rw [View.read_writes_eq_canon _ _ _ (cover7_B_6 c i a1 h1 a2 h2 a3 h3 a4 h4 a5 h5 a6 h6 a7 h7 hc x0 x1 x2 x3 x4 x5 xo)]
  unfold kernelRun7_B
  dsimp only
  sl_unfold_words
  rw [View.canon_unit_zero hz]
  simp only [View.readAt_eq_ld, h1.read_unread, h2.read_unread, h3.read_unread, h4.read_unread, h5.read_unread,
    h6.read_unread, h7.read_unread, View.ld_unit_zero (S := S2000x36) hz, View.ld_unit_zero (S := S1x36) hz,
    View.ld_unit_zero (S := S2000x1) hz, View.ld_unit_zero (S := S512x36) hz]

/-- The first point: zeros are stored, read back, and the accumulating payload of the point's input blocks over
    the zero block is left. -/
theorem out_A (c : Dev nD) (i : grid7.Coords) (a1 : Memref sig .tc .vmem S2000x36 .f32) (h1 : a1.IsWhole) (a2 : Memref sig .tc .vmem S1x36 .f32) (h2 : a2.IsWhole)
    (a3 : Memref sig .tc .vmem S1x36 .f32) (h3 : a3.IsWhole) (a4 : Memref sig .tc .vmem S1x36 .f32) (h4 : a4.IsWhole)
    (a5 : Memref sig .tc .vmem S1x36 .f32) (h5 : a5.IsWhole) (a6 : Memref sig .tc .vmem S2000x1 .i32) (h6 : a6.IsWhole)
    (a7 : Memref sig .tc .vmem S512x36 .f32) (h7 : a7.IsWhole) (hc : cond7_0 i)
    (x0 : Vec F S2000x36 .f32) (x1 x2 x3 x4 : Vec F S1x36 .f32) (x5 : Vec F S2000x1 .i32) :
    out7_A_6 c i a1 h1 a2 h2 a3 h3 a4 h4 a5 h5 a6 h6 a7 h7 hc x0 x1 x2 x3 x4 x5 = k7_pay2 x0 x2 x3 x1 x4 x5 (k7_pay1 (F := F)) := by
  unfold out7_A_6
  rw [View.read_writes_eq_canon _ _ _ (cover7_A_6 c i a1 h1 a2 h2 a3 h3 a4 h4 a5 h5 a6 h6 a7 h7 hc x0 x1 x2 x3 x4 x5)]
  unfold kernelRun7_A
  dsimp only
  sl_unfold_words
  rw [View.canon_cons_unit_zero (S := S512x36) hz, View.readCov_unit_zero (S := S512x36) _ hz]
  simp only [View.readAt_eq_ld, h1.read_unread, h2.read_unread, h3.read_unread, h4.read_unread, h5.read_unread,
    h6.read_unread, View.ld_unit_zero (S := S2000x36) hz, View.ld_unit_zero (S := S1x36) hz,
    View.ld_unit_zero (S := S2000x1) hz, View.ld_unit_zero (S := S512x36) hz]

end Pieces

/-! ## The arrays and the blocks, at the extended reals -/

variable (V : (c : Dev nD) → (b : Ref sig .tc) → Buf (Elt Ideal) ((c : Thread nD τ).loc b))

/-- The six input arrays as the region finds them: node features, means, variances, scales, shifts, graph ids. -/
abbrev Yarr (c : Dev nD) : Vec Ideal S100000x36 .f32 := V c (Pipeline.arrRef spec7 0)
abbrev Marr (c : Dev nD) : Vec Ideal S1x36 .f32 := V c (Pipeline.arrRef spec7 1)
abbrev Varr (c : Dev nD) : Vec Ideal S1x36 .f32 := V c (Pipeline.arrRef spec7 2)
abbrev Garr (c : Dev nD) : Vec Ideal S1x36 .f32 := V c (Pipeline.arrRef spec7 3)
abbrev Barr (c : Dev nD) : Vec Ideal S1x36 .f32 := V c (Pipeline.arrRef spec7 4)
abbrev Iarr (c : Dev nD) : Vec Ideal S100000x1 .i32 := V c (Pipeline.arrRef spec7 5)

/-- Their blocks at point t. -/
abbrev yblk (c : Dev nD) (t : Fin cfg7.N) : Vec Ideal S2000x36 .f32 := iblk7 V c 0 t
abbrev mblk (c : Dev nD) (t : Fin cfg7.N) : Vec Ideal S1x36 .f32 := iblk7 V c 1 t
abbrev vblk (c : Dev nD) (t : Fin cfg7.N) : Vec Ideal S1x36 .f32 := iblk7 V c 2 t
abbrev gblk (c : Dev nD) (t : Fin cfg7.N) : Vec Ideal S1x36 .f32 := iblk7 V c 3 t
abbrev bblk (c : Dev nD) (t : Fin cfg7.N) : Vec Ideal S1x36 .f32 := iblk7 V c 4 t
abbrev idblk (c : Dev nD) (t : Fin cfg7.N) : Vec Ideal S2000x1 .i32 := iblk7 V c 5 t

/-- The block indices of the seven windows, decided over the 50 points: the row blocks move with the point, the
    rows of 36 and the output block stay at (0,0). -/
theorem idx_facts : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0
    ∧ win7_6.index t (0 : Fin 2) = 0 ∧ win7_6.index t (1 : Fin 2) = 0 :=
  (by decide +kernel : ∀ t : Fin grid7.N, _)

theorem point_lt (t : Fin cfg7.N) : t.val < 50 := lt_of_lt_of_eq t.isLt N_7

/-- Row r of point t's block is row 2000·t + r of the array. -/
theorem row_lt (t : Fin cfg7.N) (r : Fin 2000) : 2000 * t.val + r.val < 100000 := by
  have h1 := point_lt t
  have h2 := r.isLt
  omega

theorem yblk_apply (c : Dev nD) (t : Fin cfg7.N) (r : Fin 2000) (d : Fin 36) :
    yblk V c t (ix2 r d) = Yarr V c (ix2 ⟨2000 * t.val + r.val, row_lt t r⟩ d) := by
  obtain ⟨e0, e1, -⟩ := idx_facts t
  have h : (((cfg7.win 0).blk t).view.emb (ix2 r d) : S100000x36.Idx) = ix2 ⟨2000 * t.val + r.val, row_lt t r⟩ d := by
    funext a
    apply Fin.ext
    match a with
    | ⟨0, _⟩ => show win7_0.index t (0 : Fin 2) * 2000 + 1 * r.val = 2000 * t.val + r.val; rw [e0]; omega
    | ⟨1, _⟩ => show win7_0.index t (1 : Fin 2) * 36 + 1 * d.val = d.val; rw [e1]; omega
  exact congrArg (V c (Pipeline.arrRef spec7 0)) h

theorem idblk_apply (c : Dev nD) (t : Fin cfg7.N) (r : Fin 2000) (u : Fin 1) :
    idblk V c t (ix2 r u) = Iarr V c (ix2 ⟨2000 * t.val + r.val, row_lt t r⟩ u) := by
  obtain ⟨-, -, -, -, -, -, -, -, -, -, e0, e1, -⟩ := idx_facts t
  have h : (((cfg7.win 5).blk t).view.emb (ix2 r u) : S100000x1.Idx) = ix2 ⟨2000 * t.val + r.val, row_lt t r⟩ u := by
    funext a
    apply Fin.ext
    match a with
    | ⟨0, _⟩ => show win7_5.index t (0 : Fin 2) * 2000 + 1 * r.val = 2000 * t.val + r.val; rw [e0]; omega
    | ⟨1, _⟩ => show win7_5.index t (1 : Fin 2) * 1 + 1 * u.val = u.val; rw [e1]; omega
  exact congrArg (V c (Pipeline.arrRef spec7 5)) h

theorem mblk_apply (c : Dev nD) (t : Fin cfg7.N) (u : Fin 1) (d : Fin 36) :
    mblk V c t (ix2 u d) = Marr V c (ix2 u d) := by
  obtain ⟨-, -, e0, e1, -⟩ := idx_facts t
  have h : (((cfg7.win 1).blk t).view.emb (ix2 u d) : S1x36.Idx) = ix2 u d := by
    funext a
    apply Fin.ext
    match a with
    | ⟨0, _⟩ => show win7_1.index t (0 : Fin 2) * 1 + 1 * u.val = u.val; rw [e0]; omega
    | ⟨1, _⟩ => show win7_1.index t (1 : Fin 2) * 36 + 1 * d.val = d.val; rw [e1]; omega
  exact congrArg (V c (Pipeline.arrRef spec7 1)) h

theorem vblk_apply (c : Dev nD) (t : Fin cfg7.N) (u : Fin 1) (d : Fin 36) :
    vblk V c t (ix2 u d) = Varr V c (ix2 u d) := by
  obtain ⟨-, -, -, -, e0, e1, -⟩ := idx_facts t
  have h : (((cfg7.win 2).blk t).view.emb (ix2 u d) : S1x36.Idx) = ix2 u d := by
    funext a
    apply Fin.ext
    match a with
    | ⟨0, _⟩ => show win7_2.index t (0 : Fin 2) * 1 + 1 * u.val = u.val; rw [e0]; omega
    | ⟨1, _⟩ => show win7_2.index t (1 : Fin 2) * 36 + 1 * d.val = d.val; rw [e1]; omega
  exact congrArg (V c (Pipeline.arrRef spec7 2)) h

theorem gblk_apply (c : Dev nD) (t : Fin cfg7.N) (u : Fin 1) (d : Fin 36) :
    gblk V c t (ix2 u d) = Garr V c (ix2 u d) := by
  obtain ⟨-, -, -, -, -, -, e0, e1, -⟩ := idx_facts t
  have h : (((cfg7.win 3).blk t).view.emb (ix2 u d) : S1x36.Idx) = ix2 u d := by
    funext a
    apply Fin.ext
    match a with
    | ⟨0, _⟩ => show win7_3.index t (0 : Fin 2) * 1 + 1 * u.val = u.val; rw [e0]; omega
    | ⟨1, _⟩ => show win7_3.index t (1 : Fin 2) * 36 + 1 * d.val = d.val; rw [e1]; omega
  exact congrArg (V c (Pipeline.arrRef spec7 3)) h

theorem bblk_apply (c : Dev nD) (t : Fin cfg7.N) (u : Fin 1) (d : Fin 36) :
    bblk V c t (ix2 u d) = Barr V c (ix2 u d) := by
  obtain ⟨-, -, -, -, -, -, -, -, e0, e1, -⟩ := idx_facts t
  have h : (((cfg7.win 4).blk t).view.emb (ix2 u d) : S1x36.Idx) = ix2 u d := by
    funext a
    apply Fin.ext
    match a with
    | ⟨0, _⟩ => show win7_4.index t (0 : Fin 2) * 1 + 1 * u.val = u.val; rw [e0]; omega
    | ⟨1, _⟩ => show win7_4.index t (1 : Fin 2) * 36 + 1 * d.val = d.val; rw [e1]; omega
  exact congrArg (V c (Pipeline.arrRef spec7 4)) h

/-! ## One row's addend, from the block and from the array -/

/-- Row n's addend to entry (p,d) of the pool: its normalised entry at d if its graph id is the word p, else 0. -/
def addend (c : Dev nD) (p : Fin 512) (q : Fin 36) (n : Fin 100000) : EReal :=
  if Iarr V c (ix2 n 0) = BitVec.ofNat 32 p.val then
    Cert.GinMath.bnRow eps (Yarr V c) (Marr V c) (Varr V c) (Garr V c) (Barr V c) (ix2 n q) else 0

/-- A block's row and the array's row it is give the same addend, when the entries read agree. -/
theorem addend_of_entries (y : Vec Ideal S2000x36 .f32) (vr g mn b : Vec Ideal S1x36 .f32) (ids : Vec Ideal S2000x1 .i32)
    (Y : Vec Ideal S100000x36 .f32) (M Vr G Bt : Vec Ideal S1x36 .f32) (Ids : Vec Ideal S100000x1 .i32)
    (n : Fin 100000) (r : Fin 2000) (p : Fin 512) (q : Fin 36)
    (hy : y (ix2 r q) = Y (ix2 n q)) (hm : mn (ix2 0 q) = M (ix2 0 q)) (hv : vr (ix2 0 q) = Vr (ix2 0 q))
    (hg : g (ix2 0 q) = G (ix2 0 q)) (hb : b (ix2 0 q) = Bt (ix2 0 q)) (hi : ids (ix2 r 0) = Ids (ix2 n 0)) :
    (if ids (ix2 r 0) = BitVec.ofNat 32 p.val then hrow y vr g mn b r q else 0)
      = if Ids (ix2 n 0) = BitVec.ofNat 32 p.val then Cert.GinMath.bnRow eps Y M Vr G Bt (ix2 n q) else 0 := by
  unfold hrow
  rw [hy, hm, hv, hg, hb, hi]
  rfl

theorem block_addend (c : Dev nD) (t : Fin cfg7.N) (p : Fin 512) (q : Fin 36) (r : Fin 2000) :
    (if idblk V c t (ix2 r 0) = BitVec.ofNat 32 p.val then hrow (yblk V c t) (vblk V c t) (gblk V c t) (mblk V c t) (bblk V c t) r q else 0)
      = addend V c p q ⟨2000 * t.val + r.val, row_lt t r⟩ :=
  addend_of_entries (yblk V c t) (vblk V c t) (gblk V c t) (mblk V c t) (bblk V c t) (idblk V c t) (Yarr V c) (Marr V c) (Varr V c) (Garr V c) (Barr V c) (Iarr V c)
    ⟨2000 * t.val + r.val, row_lt t r⟩ r p q (yblk_apply V c t r q) (mblk_apply V c t 0 q) (vblk_apply V c t 0 q)
    (gblk_apply V c t 0 q) (bblk_apply V c t 0 q) (idblk_apply V c t r 0)

/-! ## The block after each point -/

/-- After the first point: the block's own 2000 addends. -/
theorem outsAt_first (c : Dev nD) (t : Fin cfg7.N) (h0 : t.val % 50 = 0) (p : Fin 512) (q : Fin 36) :
    outsAt7 V c t.val t.isLt (ix2 p q)
      = ∑ r : Fin 2000, (if idblk V c t (ix2 r 0) = BitVec.ofNat 32 p.val then hrow (yblk V c t) (vblk V c t) (gblk V c t) (mblk V c t) (bblk V c t) r q else 0) := by
  rw [outsAt7_A V c t h0]
  refine (congrFun (out_A (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) ((hcond7_0 t).mpr h0) (iblk7 V c 0 t) (iblk7 V c 1 t) (iblk7 V c 2 t) (iblk7 V c 3 t) (iblk7 V c 4 t) (iblk7 V c 5 t)) (ix2 p q)).trans ?_
  refine (pay2_apply (yblk V c t) (vblk V c t) (gblk V c t) (mblk V c t) (bblk V c t) (idblk V c t) (k7_pay1 (F := Ideal)) p q).trans ?_
  rw [pay1_apply, zero_add]

/-- After a later point: what the point before left, plus the block's own 2000 addends. -/
theorem outsAt_next (c : Dev nD) (t : Fin cfg7.N) (h0 : ¬t.val % 50 = 0) (p : Fin 512) (q : Fin 36) :
    outsAt7 V c t.val t.isLt (ix2 p q)
      = outsAt7 V c (t.val - 1) (Nat.lt_of_le_of_lt (Nat.sub_le _ _) t.isLt) (ix2 p q)
        + ∑ r : Fin 2000, (if idblk V c t (ix2 r 0) = BitVec.ofNat 32 p.val then hrow (yblk V c t) (vblk V c t) (gblk V c t) (mblk V c t) (bblk V c t) r q else 0) := by
  rw [outsAt7_B V c t h0]
  refine (congrFun (out_B (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (fun h => h0 ((hcond7_0 t).mp h)) (iblk7 V c 0 t) (iblk7 V c 1 t) (iblk7 V c 2 t) (iblk7 V c 3 t) (iblk7 V c 4 t) (iblk7 V c 5 t)
    (outsAt7 V c (t.val - 1) (Nat.lt_of_le_of_lt (Nat.sub_le _ _) t.isLt))) (ix2 p q)).trans ?_
  exact pay2_apply (yblk V c t) (vblk V c t) (gblk V c t) (mblk V c t) (bblk V c t) (idblk V c t) (outsAt7 V c (t.val - 1) (Nat.lt_of_le_of_lt (Nat.sub_le _ _) t.isLt)) p q

/-- After point n the block holds, at (p,d), the addends of the rows below 2000·(n+1): by induction on the point. -/
theorem outsAt_apply (c : Dev nD) : ∀ (n : ℕ) (h : n < cfg7.N) (p : Fin 512) (q : Fin 36),
    outsAt7 V c n h (ix2 p q) = ∑ m : Fin 100000, if m.val < 2000 * (n + 1) then addend V c p q m else 0
  | 0, h, p, q => by
    rw [PoolSum.sum_below_add_block (addend V c p q) 0 (by omega), PoolSum.sum_below_zero, zero_add]
    refine (outsAt_first V c ⟨0, h⟩ rfl p q).trans ?_
    exact Finset.sum_congr rfl fun r _ => block_addend V c ⟨0, h⟩ p q r
  | n + 1, h, p, q => by
    have hn : n + 1 < 50 := lt_of_lt_of_eq h N_7
    have hB : ¬(⟨n + 1, h⟩ : Fin cfg7.N).val % 50 = 0 := by dsimp only; omega
    rw [PoolSum.sum_below_add_block (addend V c p q) (n + 1) hn]
    refine (outsAt_next V c ⟨n + 1, h⟩ hB p q).trans ?_
    show outsAt7 V c n _ (ix2 p q) + _ = _
    rw [outsAt_apply c n (Nat.lt_of_succ_lt h) p q]
    exact congrArg (_ + ·) (Finset.sum_congr rfl fun r _ => block_addend V c ⟨n + 1, h⟩ p q r)

/-! ## The output array after the region -/

/-- The pool of the normalised rows by graph id: the whole-array value. -/
abbrev result (c : Dev nD) : Cert.GinMath.G36.Idx → EReal :=
  Cert.GinMath.poolSum (Cert.GinMath.bnRow eps (Yarr V c) (Marr V c) (Varr V c) (Garr V c) (Barr V c)) (Iarr V c)

/-- After the last point the block holds the pool over all 100000 rows. -/
theorem outsAt_last (c : Dev nD) (h : 49 < cfg7.N) : outsAt7 V c 49 h = result V c := by
  funext i
  obtain ⟨p, q, rfl⟩ : ∃ (p : Fin 512) (q : Fin 36), i = ix2 p q := ⟨i 0, i 1, eq_ix2 i⟩
  refine (outsAt_apply V c 49 h p q).trans ?_
  refine (PoolSum.sum_below_all (addend V c p q)).trans ?_
  rfl

/-- The one write-back, after point 49, writes the pool: block (0,0) of the 512 × 36 array is the array. -/
theorem flushed_eq (c : Dev nD) (t : Fin cfg7.N) (hf : (cfg7.win 6).flush t = true) :
    (dat7 V c).flushed 6 t = ((cfg7.win 6).blk t).view.read (Elt Ideal) (result V c) := by
  have h49 : t.val = 49 := by
    have h1 := (flush7_6 t).mp hf
    have h2 := point_lt t
    omega
  obtain ⟨-, -, -, -, -, -, -, -, -, -, -, -, e0, e1⟩ := idx_facts t
  show (cfg7.win 6).cut (grid7.coords t) ((dat7 V c).after 6 t) = _
  rw [after7_6]
  have hl : outsAt7 V c t.val t.isLt = result V c := by
    obtain ⟨n, hn⟩ := t
    dsimp only at h49
    subst h49
    exact outsAt_last V c hn
  rw [hl]
  generalize result V c = G
  funext j
  have h : (((cfg7.win 6).blk t).view.emb j : S512x36.Idx) = j := by
    funext a
    apply Fin.ext
    match a with
    | ⟨0, _⟩ => show win7_6.index t (0 : Fin 2) * 512 + 1 * (j 0).val = (j 0).val; rw [e0]; omega
    | ⟨1, _⟩ => show win7_6.index t (1 : Fin 2) * 36 + 1 * (j 1).val = (j 1).val; rw [e1]; omega
  exact (congrArg G h).symm

theorem last_lt : 49 < cfg7.N := by rw [show cfg7.N = 50 from N_7]; decide

/-- THE REGION'S VALUE: the output array after the region is the pool, by graph id, of the batch-normalised node
    rows of the input arrays as the region finds them. -/
theorem sums_eq (c : Dev nD) :
    (dat7 V c).arrAt 6 cfg7.N
      = Cert.GinMath.poolSum (Cert.GinMath.bnRow eps (Yarr V c) (Marr V c) (Varr V c) (Garr V c) (Barr V c)) (Iarr V c) :=
  (dat7 V c).arrAt_eq_of_cover 6 (result V c) (flushed_eq V c) fun i =>
    ⟨⟨49, last_lt⟩, (flush7_6 ⟨49, last_lt⟩).mpr rfl, by
      obtain ⟨-, -, -, -, -, -, -, -, -, -, -, -, e0, e1⟩ := idx_facts ⟨49, last_lt⟩
      show i ∈ ((View.whole main_v324).slice (win7_6.rect ⟨49, last_lt⟩)).set
      rw [View.set_slice_whole, Rect.mem_set_unit]
      intro a
      have h0 : (i 0 : Nat) < 512 := (i 0).isLt
      have h1 : (i 1 : Nat) < 36 := (i 1).isLt
      match a with
      | ⟨0, _⟩ =>
        show win7_6.index ⟨49, last_lt⟩ (0 : Fin 2) * 512 ≤ (i 0 : Nat) ∧ (i 0 : Nat) < win7_6.index ⟨49, last_lt⟩ (0 : Fin 2) * 512 + 512
        rw [e0]; omega
      | ⟨1, _⟩ =>
        show win7_6.index ⟨49, last_lt⟩ (1 : Fin 2) * 36 ≤ (i 1 : Nat) ∧ (i 1 : Nat) < win7_6.index ⟨49, last_lt⟩ (1 : Fin 2) * 36 + 36
        rw [e1]; omega⟩

end Cert.KernelIdeal.Reg7

end
-- ==== Proof.StageDP1Ref.lean ====
/-
  The pooled sums after the third layer, on the side that works on whole arrays. From the layer's output y
  (100000 × 36, every entry real) that side takes the column means μ and the column variances as the mean of
  (y − μ)², which for real entries is the mean of the squares less μ²; normalises
      h(n,d) = (g(d)·(y(n,d) − μ(d)))·rsqrt(σ²(d) + eps) + b(d)
  with the scale g and shift b of the third layer (row 2 of block 1 of two 2 × 3 × 36 arrays); and adds the rows
  h(n, ·) into the row of a zero 512 × 36 array that node n's graph id names (row 1 of the id array). That is the
  pool of the normalised rows by graph id.
-/
import proofs.«408188_j34256659153341_2_alg».proof.Proof.RefSegs
import proofs.«408188_j34256659153341_2_alg».proof.Proof.StageDPMath
import proofs.«408188_j34256659153341_2_alg».proof.Proof.Stats
import proofs.«408188_j34256659153341_2_alg».proof.Proof.StatsVar
import proofs.«408188_j34256659153341_2_alg».proof.Proof.RefMlp
import proofs.«408188_j34256659153341_2_alg».proof.Proof.PoolMath
import Idealize.ShloMosaic.Lib.StableHlo.Run
import Idealize.ShloMosaic.Lib.IdealHost

noncomputable section

namespace Cert.Bridge.DPRef1

open Idealize.ShloMosaic Idealize.ShloMosaic.ValueIdx Idealize.SL.Sem Idealize.ShloMosaic.StableHlo
open Cert.ReferenceIdeal Cert.ReferenceIdeal.Gen Cert.ReferenceIdeal.RefRun
open Cert.Bridge

/-- Row 2 of block 1 of a 2 × 3 × 36 array, as a vector of 36. -/
abbrev row2 (A : FVec Ideal S2x3x36 .f32) : FVec Ideal S36 .f32 :=
  shapeCast S36 (extractStridedSlice S1x1x36 ![1, 2, 0] A slices_S2x3x36_S1x1x36_1_2_0) shapeCasts_S1x1x36_S36

/-- Row 1 of a 2 × 100000 array of words, as a vector of 100000. -/
abbrev row0 (A : IVec S2x100000 32) : IVec S100000 32 :=
  shapeCast S100000 (extractStridedSlice S1x100000 ![1, 0] A slices_S2x100000_S1x100000_1_0) shapeCasts_S1x100000_S100000

/-- The small constant under the inverse square root. -/
abbrev eps : EReal := Ideal.ofBits .f32 0x3727C5AC#32

/-- A vector of 36 made a row and spread over the 100000 node rows. -/
abbrev rowb (v : FVec Ideal S36 .f32) : FVec Ideal S100000x36 .f32 :=
  broadcastInDim S100000x36 ![0, 1] bcast_S1x36_S100000x36_0_1 (broadcastInDim S1x36 ![1] bcast_S36_S1x36_1 v)

/-- The scalars 0 and 100000. -/
abbrev zeroS : FVec Ideal S_ .f32 := constant (F := Ideal) S_ .f32 0x00000000#32
abbrev cntS : FVec Ideal S_ .f32 := constant (F := Ideal) S_ .f32 0x47C35000#32

/-- The column means as the operations compose them: the column sums over the count. -/
abbrev meanT (Y : FVec Ideal S100000x36 .f32) : FVec Ideal S36 .f32 :=
  Host.divf (Host.reduceAdd Y zeroS reducesTo_S100000x36_S36_d0 h_S_) (broadcastInDim S36 ![] bcast_S_S36 cntS)

/-- The deviations from the column means, the means taken as a row. -/
abbrev devT (Y : FVec Ideal S100000x36 .f32) : FVec Ideal S100000x36 .f32 :=
  subf Y (broadcastInDim S100000x36 ![0, 1] bcast_S1x36_S100000x36_0_1
    (Host.divf (broadcastInDim S1x36 ![1] bcast_S36_S1x36_1 (Host.reduceAdd Y zeroS reducesTo_S100000x36_S36_d0 h_S_))
      (broadcastInDim S1x36 ![] bcast_S_S1x36 cntS)))

/-- The count less the correction 0. -/
abbrev cnt0 : FVec Ideal S_ .f32 := subf cntS (sitofp (F := Ideal) .f32 (constantI S_ 32 0#32))

/-- The column variances as the operations compose them: the mean of the squared deviations, guarded by the test
    that the count is positive. -/
abbrev varT (Y : FVec Ideal S100000x36 .f32) : FVec Ideal S36 .f32 :=
  select (broadcastInDim S36 ![] bcast_S_S36 (cmpf (F := Ideal) .ogt cnt0 zeroS))
    (Host.divf (Host.reduceAdd (mulf (devT Y) (devT Y)) zeroS reducesTo_S100000x36_S36_d0 h_S_)
      (broadcastInDim S36 ![] bcast_S_S36 cnt0))
    (broadcastInDim S36 ![] bcast_S_S36 (constant (F := Ideal) S_ .f32 0x7FC00000#32))

/-- What the segment leaves in the buffer of the pooled sums, as the operations compose it over the contents X
    before the segment. -/
theorem sums_val (X : Valuation τ sig (Elt Ideal)) :
    after (seg13 (F := Ideal)) X (Proc.devRef .tc main_v356)
      = Host.scatterAdd scatter_S512x36_S100000x1_S100000x36_1_0_0_1
          (broadcastInDim S512x36 ![] bcast_S_S512x36 zeroS)
          (broadcastInDim S100000x1 ![0] bcast_S100000_S100000x1_0 (row0 (X (Proc.devRef .tc main_arg2))))
          (addf (mulf (mulf (rowb (row2 (X (Proc.devRef .tc main_arg15))))
                  (subf (X (Proc.devRef .tc main_v328)) (rowb (meanT (X (Proc.devRef .tc main_v328))))))
                (rowb (Host.rsqrt (addf (varT (X (Proc.devRef .tc main_v328)))
                  (broadcastInDim S36 ![] bcast_S_S36 (constant (F := Ideal) S_ .f32 0x3727C5AC#32))))))
            (rowb (row2 (X (Proc.devRef .tc main_arg16))))) := by
  dsimp only [seg13]
  after_results_simp
  rfl

/-- The normalised array, as the operations compose it, is the batch normalisation of y entry by entry. -/
theorem norm_eq (Y : FVec Ideal S100000x36 .f32) (mean var g b : FVec Ideal S36 .f32) :
    addf (mulf (mulf (rowb g) (subf Y (rowb mean)))
        (rowb (Host.rsqrt (addf var (broadcastInDim S36 ![] bcast_S_S36 (constant (F := Ideal) S_ .f32 0x3727C5AC#32))))))
      (rowb b)
    = GinMath.bnRow eps Y (rowOf mean) (rowOf var) (rowOf g) (rowOf b) := by
  funext i
  obtain ⟨n, k, rfl⟩ : ∃ (n : Fin 100000) (k : Fin 36), i = ix2 n k := ⟨i 0, i 1, eq_ix2 i⟩
  rw [addf_apply, mulf_apply, mulf_apply, subf_apply]
  dsimp only [rowb]
  rw [RefMlp.bias_apply, RefMlp.bias_apply, RefMlp.bias_apply, RefMlp.bias_apply]
  show g (ix1 k) * (Y (ix2 n k) - mean (ix1 k))
      * Ideal.rsqrt (var (ix1 k) + broadcastInDim S36 ![] bcast_S_S36 (constant (F := Ideal) S_ .f32 0x3727C5AC#32) (ix1 k))
      + b (ix1 k) = _
  rw [broadcastInDim_scalar_apply, constant_apply]
  rfl

/-- The composed column means are the column sums over 100000. -/
theorem meanT_eq (Y : FVec Ideal S100000x36 .f32) : meanT Y = meanV Y := by
  show Host.divf (Host.reduceAdd Y zeroS reducesTo_S100000x36_S36_d0 h_S_) (broadcastInDim S36 ![] bcast_S_S36 cntS) = _
  rw [GinStats.reduceAdd_rows reducesTo_S100000x36_S36_d0 h_S_ Y]
  rfl

/-- The composed column variances, for real entries, are the mean of the squares less the square of the mean. -/
theorem varT_eq (Y : FVec Ideal S100000x36 .f32) (hY : IsReal Y) : varT Y = varV Y :=
  (GinStats.var_eq reducesTo_S100000x36_S36_d0 h_S_ bcast_S36_S1x36_1 bcast_S_S1x36 bcast_S1x36_S100000x36_0_1
    bcast_S_S36 Y hY).trans rfl

/-- THE POOLED SUMS on the whole-array side, from any contents X of the buffers before the segment whose layer
    output y is real: the pool, by the graph ids of row 1 of the id array, of y normalised with its column means
    and variances and the third layer's scale and shift. -/
theorem sums_eq (X : Valuation τ sig (Elt Ideal)) (Y : FVec Ideal S100000x36 .f32) (hY : IsReal Y)
    (hX : X (Proc.devRef .tc main_v328) = Y) :
    after (seg13 (F := Ideal)) X (Proc.devRef .tc main_v356)
      = GinMath.poolSum (GinMath.bnRow eps Y (rowOf (meanV Y)) (rowOf (varV Y))
          (rowOf (row2 (X (Proc.devRef .tc main_arg15)))) (rowOf (row2 (X (Proc.devRef .tc main_arg16)))))
        (colOf (row0 (X (Proc.devRef .tc main_arg2)))) := by
  rw [sums_val, hX, PoolMath.pool_eq, norm_eq, meanT_eq, varT_eq Y hY]
  rfl

end Cert.Bridge.DPRef1

end
-- ==== Proof.StageDP1Ker.lean ====
/-
  What the tiled side prepares for the pool after the third layer. From the per-tile partial column sums of the
  layer's output y and of its squares it takes the column means μ = (Σ y)/100000 and the variances
  (Σ y²)/100000 − μ², lays each out as one row of 36, as it does the third layer's scale and shift (row 2 of
  block 1 of two 2 × 3 × 36 arrays), and lays the graph ids (row 1 of the 2 × 100000 id array) out as a column;
  the layer's output itself is left as it was.
-/
import proofs.«408188_j34256659153341_2_alg».proof.Proof.Gen.KernelIdeal.Launch
import proofs.«408188_j34256659153341_2_alg».proof.Proof.KOpsGood
import proofs.«408188_j34256659153341_2_alg».proof.Proof.StageDPMath
import proofs.«408188_j34256659153341_2_alg».proof.Proof.Stats
import proofs.«408188_j34256659153341_2_alg».proof.Proof.RowReshape
import proofs.«408188_j34256659153341_2_alg».proof.Proof.IdsReshape
import Idealize.ShloMosaic.Lib.StableHlo.Run
import Idealize.ShloMosaic.Lib.IdealHost

noncomputable section

namespace Cert.Bridge.DPKer1

open Idealize.ShloMosaic Idealize.ShloMosaic.ValueIdx Idealize.SL.Sem Idealize.ShloMosaic.StableHlo
open Cert.KernelIdeal Cert.KernelIdeal.Gen
open Cert.Bridge

/-- Row 2 of block 1 of a 2 × 3 × 36 array, as a vector of 36. -/
abbrev row2 (A : FVec Ideal S2x3x36 .f32) : FVec Ideal S36 .f32 :=
  shapeCast S36 (extractStridedSlice S1x1x36 ![1, 2, 0] A slices_S2x3x36_S1x1x36_1_2_0) shapeCasts_S1x1x36_S36

/-- Row 1 of a 2 × 100000 array of words, as a vector of 100000. -/
abbrev row0 (A : IVec S2x100000 32) : IVec S100000 32 :=
  shapeCast S100000 (extractStridedSlice S1x100000 ![1, 0] A slices_S2x100000_S1x100000_1_0) shapeCasts_S1x100000_S100000

/-- The scalars 0 and 100000, and 100000 at each of 36 places. -/
abbrev zeroS : FVec Ideal S_ .f32 := constant (F := Ideal) S_ .f32 0x00000000#32
abbrev cntV : FVec Ideal S36 .f32 := broadcastInDim S36 ![] bcast_S_S36 (constant (F := Ideal) S_ .f32 0x47C35000#32)

/-- The sum over the 160 rows of an array of per-tile partial sums. -/
abbrev rsum (P : FVec Ideal S160x36 .f32) : FVec Ideal S36 .f32 := Host.reduceAdd P zeroS reducesTo_S160x36_S36_d0 h_S_

variable (X : Valuation τ sig (Elt Ideal))

/-- The layer's output is not touched. -/
theorem y_keep : after (hostOps7 (F := Ideal)) X (Proc.devRef .tc main_v304_0) = X (Proc.devRef .tc main_v304_0) :=
  KOps.kkeep_7 main_v304_0 (by decide) X

/-- The row of means, as the operations compose it. -/
theorem mean_val : after (hostOps7 (F := Ideal)) X (Proc.devRef .tc main_v320)
    = shapeCast S1x36 (Host.divf (rsum (X (Proc.devRef .tc main_v304_1))) cntV) shapeCasts_S36_S1x36 := by
  dsimp only [hostOps7]
  after_results
  rfl

/-- The row of variances, as the operations compose it. -/
theorem var_val : after (hostOps7 (F := Ideal)) X (Proc.devRef .tc main_v321)
    = shapeCast S1x36 (subf (Host.divf (rsum (X (Proc.devRef .tc main_v304_2))) cntV)
        (mulf (Host.divf (rsum (X (Proc.devRef .tc main_v304_1))) cntV) (Host.divf (rsum (X (Proc.devRef .tc main_v304_1))) cntV)))
      shapeCasts_S36_S1x36 := by
  dsimp only [hostOps7]
  after_results
  rfl

/-- The rows of scales and of shifts and the column of graph ids, as the operations compose them. -/
theorem g_val : after (hostOps7 (F := Ideal)) X (Proc.devRef .tc main_v322)
    = shapeCast S1x36 (row2 (X (Proc.devRef .tc main_arg15))) shapeCasts_S36_S1x36 := by
  dsimp only [hostOps7]
  after_results
  rfl

theorem b_val : after (hostOps7 (F := Ideal)) X (Proc.devRef .tc main_v323)
    = shapeCast S1x36 (row2 (X (Proc.devRef .tc main_arg16))) shapeCasts_S36_S1x36 := by
  dsimp only [hostOps7]
  after_results
  rfl

theorem ids_val : after (hostOps7 (F := Ideal)) X (Proc.devRef .tc main_v319)
    = shapeCast S100000x1 (row0 (X (Proc.devRef .tc main_arg2))) shapeCasts_S100000_S100000x1 := by
  dsimp only [hostOps7]
  after_results
  rfl

/-- The row of means is the row of the column means of y. -/
theorem mean_row (Y : FVec Ideal S100000x36 .f32) (h1 : X (Proc.devRef .tc main_v304_1) = GinMath.tileSums Y) :
    after (hostOps7 (F := Ideal)) X (Proc.devRef .tc main_v320) = rowOf (meanV Y) := by
  rw [mean_val]
  dsimp only [rsum]
  rw [h1, GinStats.reduceAdd_tileSums reducesTo_S160x36_S36_d0 h_S_ Y, RowReshape.row_reshape]
  rfl

/-- The row of variances is the row of the column variances of y. -/
theorem var_row (Y : FVec Ideal S100000x36 .f32) (h1 : X (Proc.devRef .tc main_v304_1) = GinMath.tileSums Y)
    (h2 : X (Proc.devRef .tc main_v304_2) = GinMath.tileSums (GinMath.sq Y)) :
    after (hostOps7 (F := Ideal)) X (Proc.devRef .tc main_v321) = rowOf (varV Y) := by
  rw [var_val]
  dsimp only [rsum]
  rw [h1, h2, GinStats.reduceAdd_tileSums reducesTo_S160x36_S36_d0 h_S_ Y,
    GinStats.reduceAdd_tileSums reducesTo_S160x36_S36_d0 h_S_ (GinMath.sq Y), RowReshape.row_reshape]
  rfl

/-- The row of scales. -/
theorem g_row : after (hostOps7 (F := Ideal)) X (Proc.devRef .tc main_v322)
    = rowOf (row2 (X (Proc.devRef .tc main_arg15))) := by
  rw [g_val, RowReshape.row_reshape]
  rfl

/-- The row of shifts. -/
theorem b_row : after (hostOps7 (F := Ideal)) X (Proc.devRef .tc main_v323)
    = rowOf (row2 (X (Proc.devRef .tc main_arg16))) := by
  rw [b_val, RowReshape.row_reshape]
  rfl

/-- The column of graph ids. -/
theorem ids_col : after (hostOps7 (F := Ideal)) X (Proc.devRef .tc main_v319)
    = colOf (row0 (X (Proc.devRef .tc main_arg2))) := by
  rw [ids_val, IdsReshape.ids_reshape]
  rfl

end Cert.Bridge.DPKer1

end
-- ==== Proof.StageDP1.lean ====
/-
  The pooled sums after the third layer agree on the two sides. The tiled side's pool region leaves the pool, by
  graph id, of the layer's output normalised with the rows of means, variances, scales and shifts it was given;
  those rows are the column means and variances of the same output y, computed from the per-tile partial sums, and
  the third layer's scale and shift. The whole-array side pools the same normalised array. So if the two sides hold
  the same real output y (with the tiled side's partial sums of y and y²), and the same arguments, the two pools are
  the same array.
-/
import proofs.«408188_j34256659153341_2_alg».proof.Proof.FrameKI
import proofs.«408188_j34256659153341_2_alg».proof.Proof.Reg7Value
import proofs.«408188_j34256659153341_2_alg».proof.Proof.StageDP1Ref
import proofs.«408188_j34256659153341_2_alg».proof.Proof.StageDP1Ker
import proofs.«408188_j34256659153341_2_alg».proof.Proof.BridgeArgs

noncomputable section

namespace Cert.Bridge

open Idealize.ShloMosaic Idealize.ShloMosaic.TcCoe Idealize.ShloMosaic.ValueIdx Idealize.SL.Sem Idealize.ShloMosaic.StableHlo

variable (m : (ℓ : Loc Cert.KernelIdeal.nD Cert.KernelIdeal.τ Cert.KernelIdeal.sig) → Buf (Elt Ideal) ℓ)
  (ρ : Dev Cert.KernelIdeal.nD → PrngReg)

/-- The pool region's output after the region, from the contents before the stretch that prepares its rows. -/
theorem ker_sums1 (c : Dev Cert.KernelIdeal.nD) (Y : GinMath.N36.Idx → EReal)
    (h0 : (Cert.KernelIdeal.Gen.W14 (F := Ideal) m ρ c (Proc.devRef .tc Cert.KernelIdeal.main_v304_0) : GinMath.N36.Idx → EReal) = Y)
    (h1 : (Cert.KernelIdeal.Gen.W14 (F := Ideal) m ρ c (Proc.devRef .tc Cert.KernelIdeal.main_v304_1) : GinMath.P36.Idx → EReal)
      = GinMath.tileSums Y)
    (h2 : (Cert.KernelIdeal.Gen.W14 (F := Ideal) m ρ c (Proc.devRef .tc Cert.KernelIdeal.main_v304_2) : GinMath.P36.Idx → EReal)
      = GinMath.tileSums (GinMath.sq Y)) :
    (Cert.KernelIdeal.Gen.W16 (F := Ideal) m ρ c (Proc.devRef .tc Cert.KernelIdeal.main_v324) : GinMath.G36.Idx → EReal)
      = GinMath.poolSum (GinMath.bnRow DPRef1.eps Y (rowOf (meanV Y)) (rowOf (varV Y))
          (rowOf (DPKer1.row2 (Cert.KernelIdeal.Gen.W14 (F := Ideal) m ρ c (Proc.devRef .tc Cert.KernelIdeal.main_arg15))))
          (rowOf (DPKer1.row2 (Cert.KernelIdeal.Gen.W14 (F := Ideal) m ρ c (Proc.devRef .tc Cert.KernelIdeal.main_arg16)))))
        (colOf (DPKer1.row0 (Cert.KernelIdeal.Gen.W14 (F := Ideal) m ρ c (Proc.devRef .tc Cert.KernelIdeal.main_arg2)))) := by
  refine (Cert.KernelIdeal.Gen.W16_arr m ρ c 6).trans ?_
  refine (Cert.KernelIdeal.Reg7.sums_eq (Cert.KernelIdeal.Gen.V15 m ρ) c).trans ?_
  show GinMath.poolSum (GinMath.bnRow Cert.KernelIdeal.Reg7.eps
      (after (Cert.KernelIdeal.Gen.hostOps7 (F := Ideal)) (Cert.KernelIdeal.Gen.W14 m ρ c) (Proc.devRef .tc Cert.KernelIdeal.main_v304_0))
      (after (Cert.KernelIdeal.Gen.hostOps7 (F := Ideal)) (Cert.KernelIdeal.Gen.W14 m ρ c) (Proc.devRef .tc Cert.KernelIdeal.main_v320))
      (after (Cert.KernelIdeal.Gen.hostOps7 (F := Ideal)) (Cert.KernelIdeal.Gen.W14 m ρ c) (Proc.devRef .tc Cert.KernelIdeal.main_v321))
      (after (Cert.KernelIdeal.Gen.hostOps7 (F := Ideal)) (Cert.KernelIdeal.Gen.W14 m ρ c) (Proc.devRef .tc Cert.KernelIdeal.main_v322))
      (after (Cert.KernelIdeal.Gen.hostOps7 (F := Ideal)) (Cert.KernelIdeal.Gen.W14 m ρ c) (Proc.devRef .tc Cert.KernelIdeal.main_v323)))
      (after (Cert.KernelIdeal.Gen.hostOps7 (F := Ideal)) (Cert.KernelIdeal.Gen.W14 m ρ c) (Proc.devRef .tc Cert.KernelIdeal.main_v319)) = _
  rw [DPKer1.y_keep (Cert.KernelIdeal.Gen.W14 (F := Ideal) m ρ c), DPKer1.mean_row (Cert.KernelIdeal.Gen.W14 (F := Ideal) m ρ c) Y h1,
    DPKer1.var_row (Cert.KernelIdeal.Gen.W14 (F := Ideal) m ρ c) Y h1 h2, DPKer1.g_row (Cert.KernelIdeal.Gen.W14 (F := Ideal) m ρ c),
    DPKer1.b_row (Cert.KernelIdeal.Gen.W14 (F := Ideal) m ρ c), DPKer1.ids_col (Cert.KernelIdeal.Gen.W14 (F := Ideal) m ρ c), h0]
  all_goals rfl

/-- THE STAGE, over any contents X of the whole-array side's buffers before its segment: the two sides' pooled
    sums agree when they hold the same real layer output and the same three arguments. -/
theorem stage_DP1_core (c : Dev Cert.KernelIdeal.nD)
    (X : Valuation Cert.ReferenceIdeal.τ Cert.ReferenceIdeal.sig (Elt Ideal))
    (hin : RelY (Cert.KernelIdeal.Gen.W14 (F := Ideal) m ρ c (Proc.devRef .tc Cert.KernelIdeal.main_v304_0))
      (Cert.KernelIdeal.Gen.W14 (F := Ideal) m ρ c (Proc.devRef .tc Cert.KernelIdeal.main_v304_1))
      (Cert.KernelIdeal.Gen.W14 (F := Ideal) m ρ c (Proc.devRef .tc Cert.KernelIdeal.main_v304_2))
      (X (Proc.devRef .tc Cert.ReferenceIdeal.main_v328)))
    (h15 : (X (Proc.devRef .tc Cert.ReferenceIdeal.main_arg15) : (⟨3, ![2, 3, 36]⟩ : Shape).Idx → EReal)
      = Cert.KernelIdeal.Gen.W14 (F := Ideal) m ρ c (Proc.devRef .tc Cert.KernelIdeal.main_arg15))
    (h16 : (X (Proc.devRef .tc Cert.ReferenceIdeal.main_arg16) : (⟨3, ![2, 3, 36]⟩ : Shape).Idx → EReal)
      = Cert.KernelIdeal.Gen.W14 (F := Ideal) m ρ c (Proc.devRef .tc Cert.KernelIdeal.main_arg16))
    (h2 : (X (Proc.devRef .tc Cert.ReferenceIdeal.main_arg2) : (⟨2, ![2, 100000]⟩ : Shape).Idx → BitVec 32)
      = Cert.KernelIdeal.Gen.W14 (F := Ideal) m ρ c (Proc.devRef .tc Cert.KernelIdeal.main_arg2)) :
    (Cert.KernelIdeal.Gen.W16 (F := Ideal) m ρ c (Proc.devRef .tc Cert.KernelIdeal.main_v324) : GinMath.G36.Idx → EReal)
      = after (Cert.ReferenceIdeal.RefRun.seg13 (F := Ideal)) X (Proc.devRef .tc Cert.ReferenceIdeal.main_v356) := by
  obtain ⟨e0, e1, e2, hY⟩ := hin
  rw [ker_sums1 m ρ c _ e0 e1 e2, DPRef1.sums_eq X _ hY rfl, h15, h16, h2]
  all_goals rfl

/-- THE STAGE between the two runs' checkpoints: after the pool region on the tiled side and after the segment that
    ends in the pooled sums on the whole-array side, the pooled sums are the same array, given the layer's output
    related at the checkpoints before and the two memories' agreement on the graph ids and on the scales and shifts. -/
theorem stage_DP1 (m' : (ℓ : Loc Cert.ReferenceIdeal.nD Cert.ReferenceIdeal.τ Cert.ReferenceIdeal.sig) → Buf (Elt Ideal) ℓ)
    (c : Dev Cert.KernelIdeal.nD)
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h15 : m' ((c.tc : Thread Cert.ReferenceIdeal.nD Cert.ReferenceIdeal.τ).loc Cert.ReferenceIdeal.main_arg15)
      = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16)
      = m ((c.tc : Thread Cert.KernelIdeal.nD Cert.KernelIdeal.τ).loc Cert.KernelIdeal.main_arg16))
    (hin : RelY (Cert.KernelIdeal.Gen.W14 (F := Ideal) m ρ c (Proc.devRef .tc Cert.KernelIdeal.main_v304_0))
      (Cert.KernelIdeal.Gen.W14 (F := Ideal) m ρ c (Proc.devRef .tc Cert.KernelIdeal.main_v304_1))
      (Cert.KernelIdeal.Gen.W14 (F := Ideal) m ρ c (Proc.devRef .tc Cert.KernelIdeal.main_v304_2))
      (Cert.ReferenceIdeal.RefRun.R13 (F := Ideal) m' c (Proc.devRef .tc Cert.ReferenceIdeal.main_v328))) :
    (Cert.KernelIdeal.Gen.W16 (F := Ideal) m ρ c (Proc.devRef .tc Cert.KernelIdeal.main_v324) : GinMath.G36.Idx → EReal)
      = Cert.ReferenceIdeal.RefRun.R14 (F := Ideal) m' c (Proc.devRef .tc Cert.ReferenceIdeal.main_v356) :=
  stage_DP1_core m ρ c (Cert.ReferenceIdeal.RefRun.R13 (F := Ideal) m' c) hin
    ((rarg_13 m' c Cert.ReferenceIdeal.main_arg15 (by decide)).trans
      (h15.trans (karg_14 m ρ c Cert.KernelIdeal.main_arg15 (by decide)).symm))
    ((rarg_13 m' c Cert.ReferenceIdeal.main_arg16 (by decide)).trans
      (h16.trans (karg_14 m ρ c Cert.KernelIdeal.main_arg16 (by decide)).symm))
    ((rarg_13 m' c Cert.ReferenceIdeal.main_arg2 (by decide)).trans
      (h2.trans (karg_14 m ρ c Cert.KernelIdeal.main_arg2 (by decide)).symm))

end Cert.Bridge

end
-- ==== Proof.StageHOps.lean ====
/-
  The head, over any buffer contents at entry: from the two pools to the scores, the tiled program's five
  stretches of host operations are the plain program's last segment up to buffer names.
-/
import proofs.«408188_j34256659153341_2_alg».proof.Proof.BridgeDefs
import proofs.«408188_j34256659153341_2_alg».proof.Proof.Gen.KernelIdeal.Launch
import proofs.«408188_j34256659153341_2_alg».proof.Proof.RefSegs
import Idealize.ShloMosaic.Lib.ValueIdx

set_option maxRecDepth 16384

noncomputable section

namespace Cert.Bridge

open Idealize.ShloMosaic Idealize.SL.Sem Idealize.ShloMosaic.StableHlo

/-- The tiled program cuts transform 1's row of graph ids out of the argument before the second pool region and keeps it. -/
theorem kids1_after (V : Valuation Cert.KernelIdeal.τ Cert.KernelIdeal.sig (Elt Ideal)) :
    (after Cert.KernelIdeal.Gen.hostOps7 V (Proc.devRef .tc Cert.KernelIdeal.main_v318) : Cert.KernelIdeal.S100000.Idx → BitVec 32)
      = shapeCast Cert.KernelIdeal.S100000 (extractStridedSlice Cert.KernelIdeal.S1x100000 ![1, 0] (V (Proc.devRef .tc Cert.KernelIdeal.main_arg2) : IVec Cert.KernelIdeal.S2x100000 32) Cert.KernelIdeal.Facts₀.slices_S2x100000_S1x100000_1_0) Cert.KernelIdeal.Facts₀.shapeCasts_S1x100000_S100000 := by
  dsimp only [Cert.KernelIdeal.Gen.hostOps7]
  after_results
  rfl

set_option maxHeartbeats 1600000 in
/-- The head: from the two pools to the scores, operation by operation the same in both programs (the tiled
    program's five stretches are the plain program's last segment). -/
theorem head_eq (V : Valuation Cert.KernelIdeal.τ Cert.KernelIdeal.sig (Elt Ideal)) (V' : Valuation Cert.ReferenceIdeal.τ Cert.ReferenceIdeal.sig (Elt Ideal))
    (ep0 : (V (Proc.devRef .tc Cert.KernelIdeal.main_v166) : GinMath.G36.Idx → EReal) = V' (Proc.devRef .tc Cert.ReferenceIdeal.main_v183))
    (es1 : (V (Proc.devRef .tc Cert.KernelIdeal.main_v324) : GinMath.G36.Idx → EReal) = V' (Proc.devRef .tc Cert.ReferenceIdeal.main_v356))
    (eid : (V (Proc.devRef .tc Cert.KernelIdeal.main_v318) : Cert.KernelIdeal.S100000.Idx → BitVec 32)
      = shapeCast Cert.ReferenceIdeal.S100000 (extractStridedSlice Cert.ReferenceIdeal.S1x100000 ![1, 0] (V' (Proc.devRef .tc Cert.ReferenceIdeal.main_arg2) : IVec Cert.ReferenceIdeal.S2x100000 32) Cert.ReferenceIdeal.Facts₀.slices_S2x100000_S1x100000_1_0) Cert.ReferenceIdeal.Facts₀.shapeCasts_S1x100000_S100000)
    (e17 : V (Proc.devRef .tc Cert.KernelIdeal.main_arg17) = V' (Proc.devRef .tc Cert.ReferenceIdeal.main_arg17))
    (e18 : V (Proc.devRef .tc Cert.KernelIdeal.main_arg18) = V' (Proc.devRef .tc Cert.ReferenceIdeal.main_arg18))
    (e19 : V (Proc.devRef .tc Cert.KernelIdeal.main_arg19) = V' (Proc.devRef .tc Cert.ReferenceIdeal.main_arg19))
    (e20 : V (Proc.devRef .tc Cert.KernelIdeal.main_arg20) = V' (Proc.devRef .tc Cert.ReferenceIdeal.main_arg20))
    (e21 : V (Proc.devRef .tc Cert.KernelIdeal.main_arg21) = V' (Proc.devRef .tc Cert.ReferenceIdeal.main_arg21))
    (e22 : V (Proc.devRef .tc Cert.KernelIdeal.main_arg22) = V' (Proc.devRef .tc Cert.ReferenceIdeal.main_arg22)) :
    (after Cert.KernelIdeal.Gen.hostOps8_4 (after Cert.KernelIdeal.Gen.hostOps8_3 (after Cert.KernelIdeal.Gen.hostOps8_2 (after Cert.KernelIdeal.Gen.hostOps8_1
        (after Cert.KernelIdeal.Gen.hostOps8 V)))) (Proc.devRef .tc Cert.KernelIdeal.main_v357) : Cert.KernelIdeal.S512x1.Idx → EReal)
      = after Cert.ReferenceIdeal.RefRun.seg14 V' (Proc.devRef .tc Cert.ReferenceIdeal.main_v391) := by
  dsimp only [Cert.KernelIdeal.Gen.hostOps8, Cert.KernelIdeal.Gen.hostOps8_1, Cert.KernelIdeal.Gen.hostOps8_2, Cert.KernelIdeal.Gen.hostOps8_3, Cert.KernelIdeal.Gen.hostOps8_4, Cert.ReferenceIdeal.RefRun.seg14]
  after_results_simp
  simp only [TRef.ofBuf, TRef.toBuf, cast_eq]
  -- the two pools enter the concatenation as a list of shape–array pairs: their reads are evaluated there one by one
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [ep0, es1, eid, e17, e18, e19, e20, e21, e22]
  rfl

end Cert.Bridge

end
-- ==== Proof.StageH.lean ====
/-
  The last checkpoint: given the same mean pool of transform 0 and the same pool sums of transform 1, both
  programs return the same scores: the mean pool of transform 1, the two pools side by side, three dense layers
  with rectifiers between them, and the logistic 1/(1 + exp(−x)) — the same operations in both programs.
-/
import proofs.«408188_j34256659153341_2_alg».proof.Proof.BridgeDefs
import proofs.«408188_j34256659153341_2_alg».proof.Proof.BridgeArgs
import proofs.«408188_j34256659153341_2_alg».proof.Proof.StageHOps
import Idealize.ShloMosaic.Lib.ValueIdx

set_option maxRecDepth 16384

noncomputable section

namespace Cert.Bridge

open Idealize.ShloMosaic Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-- At the second pool region's exit the tiled program's row of graph ids is the plain program's, cut from the argument. -/
theorem kids1 (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    (Cert.KernelIdeal.Gen.W16 (F := Ideal) m ρ c (Proc.devRef .tc Cert.KernelIdeal.main_v318) : Cert.KernelIdeal.S100000.Idx → BitVec 32)
      = shapeCast Cert.ReferenceIdeal.S100000 (extractStridedSlice Cert.ReferenceIdeal.S1x100000 ![1, 0] (Cert.ReferenceIdeal.RefRun.R14 (F := Ideal) m' c (Proc.devRef .tc Cert.ReferenceIdeal.main_arg2) : IVec Cert.ReferenceIdeal.S2x100000 32) Cert.ReferenceIdeal.Facts₀.slices_S2x100000_S1x100000_1_0) Cert.ReferenceIdeal.Facts₀.shapeCasts_S1x100000_S100000 := by
  rw [Cert.KernelIdeal.Gen.W16_of_ne m ρ c Cert.KernelIdeal.main_v318 (by decide)]
  refine (kids1_after (Cert.KernelIdeal.Gen.W14 m ρ c)).trans ?_
  have e2 : Cert.ReferenceIdeal.RefRun.R14 (F := Ideal) m' c (Proc.devRef .tc Cert.ReferenceIdeal.main_arg2) = Cert.KernelIdeal.Gen.W14 (F := Ideal) m ρ c (Proc.devRef .tc Cert.KernelIdeal.main_arg2) :=
    ((rarg_14 m' c Cert.ReferenceIdeal.main_arg2 (by decide)).trans h2).trans (karg_14 m ρ c Cert.KernelIdeal.main_arg2 (by decide)).symm
  rw [e2]

/-- Transform 0's mean pool is written once and read at the end: no stretch or region of transform 1 writes it. -/
theorem kpool0_keep : Cert.KernelIdeal.Gen.W16 (F := Ideal) m ρ c (Proc.devRef .tc Cert.KernelIdeal.main_v166) = Cert.KernelIdeal.Gen.W9 (F := Ideal) m ρ c (Proc.devRef .tc Cert.KernelIdeal.main_v166) :=
  (Cert.KernelIdeal.Gen.W16_of_ne m ρ c Cert.KernelIdeal.main_v166 (by decide)).trans <|
  (Cert.KernelIdeal.KOps.kkeep_7 Cert.KernelIdeal.main_v166 (by decide) _).trans <|
  (Cert.KernelIdeal.Gen.W14_of_ne m ρ c Cert.KernelIdeal.main_v166 (by decide)).trans <|
  (Cert.KernelIdeal.KOps.kkeep_6 Cert.KernelIdeal.main_v166 (by decide) _).trans <|
  (Cert.KernelIdeal.Gen.W12_of_ne m ρ c Cert.KernelIdeal.main_v166 (by decide)).trans <|
  (Cert.KernelIdeal.KOps.kkeep_5 Cert.KernelIdeal.main_v166 (by decide) _).trans <|
  (Cert.KernelIdeal.Gen.W10_of_ne m ρ c Cert.KernelIdeal.main_v166 (by decide))

theorem rpool0_keep : Cert.ReferenceIdeal.RefRun.R14 (F := Ideal) m' c (Proc.devRef .tc Cert.ReferenceIdeal.main_v183) = Cert.ReferenceIdeal.RefRun.R8 (F := Ideal) m' c (Proc.devRef .tc Cert.ReferenceIdeal.main_v183) :=
  (Cert.ReferenceIdeal.RefRun.keep13 Cert.ReferenceIdeal.main_v183 (by decide) _).trans <|
  (Cert.ReferenceIdeal.RefRun.keep12 Cert.ReferenceIdeal.main_v183 (by decide) _).trans <|
  (Cert.ReferenceIdeal.RefRun.keep11 Cert.ReferenceIdeal.main_v183 (by decide) _).trans <|
  (Cert.ReferenceIdeal.RefRun.keep10 Cert.ReferenceIdeal.main_v183 (by decide) _).trans <|
  (Cert.ReferenceIdeal.RefRun.keep9 Cert.ReferenceIdeal.main_v183 (by decide) _).trans <|
  (Cert.ReferenceIdeal.RefRun.keep8 Cert.ReferenceIdeal.main_v183 (by decide) _)

/-- Stage H: from the two pools to the returned scores. -/
theorem stage_H (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (hin0 : (Cert.KernelIdeal.Gen.W9 (F := Ideal) m ρ c (Proc.devRef .tc Cert.KernelIdeal.main_v166) : GinMath.G36.Idx → EReal)
      = Cert.ReferenceIdeal.RefRun.R8 (F := Ideal) m' c (Proc.devRef .tc Cert.ReferenceIdeal.main_v183))
    (hin1 : (Cert.KernelIdeal.Gen.W16 (F := Ideal) m ρ c (Proc.devRef .tc Cert.KernelIdeal.main_v324) : GinMath.G36.Idx → EReal)
      = Cert.ReferenceIdeal.RefRun.R14 (F := Ideal) m' c (Proc.devRef .tc Cert.ReferenceIdeal.main_v356)) :
    (Cert.KernelIdeal.Gen.W21 (F := Ideal) m ρ c (Proc.devRef .tc Cert.KernelIdeal.main_v357) : Cert.KernelIdeal.S512x1.Idx → EReal)
      = Cert.ReferenceIdeal.RefRun.R15 (F := Ideal) m' c (Proc.devRef .tc Cert.ReferenceIdeal.main_v391) := by
  have ep0 : (Cert.KernelIdeal.Gen.W16 (F := Ideal) m ρ c (Proc.devRef .tc Cert.KernelIdeal.main_v166) : GinMath.G36.Idx → EReal)
      = Cert.ReferenceIdeal.RefRun.R14 (F := Ideal) m' c (Proc.devRef .tc Cert.ReferenceIdeal.main_v183) :=
    (kpool0_keep m ρ c).trans (hin0.trans (rpool0_keep m' c).symm)
  have e17 : Cert.KernelIdeal.Gen.W16 (F := Ideal) m ρ c (Proc.devRef .tc Cert.KernelIdeal.main_arg17) = Cert.ReferenceIdeal.RefRun.R14 (F := Ideal) m' c (Proc.devRef .tc Cert.ReferenceIdeal.main_arg17) :=
    (karg_16 m ρ c Cert.KernelIdeal.main_arg17 (by decide)).trans (h17.symm.trans (rarg_14 m' c Cert.ReferenceIdeal.main_arg17 (by decide)).symm)
  have e18 : Cert.KernelIdeal.Gen.W16 (F := Ideal) m ρ c (Proc.devRef .tc Cert.KernelIdeal.main_arg18) = Cert.ReferenceIdeal.RefRun.R14 (F := Ideal) m' c (Proc.devRef .tc Cert.ReferenceIdeal.main_arg18) :=
    (karg_16 m ρ c Cert.KernelIdeal.main_arg18 (by decide)).trans (h18.symm.trans (rarg_14 m' c Cert.ReferenceIdeal.main_arg18 (by decide)).symm)
  have e19 : Cert.KernelIdeal.Gen.W16 (F := Ideal) m ρ c (Proc.devRef .tc Cert.KernelIdeal.main_arg19) = Cert.ReferenceIdeal.RefRun.R14 (F := Ideal) m' c (Proc.devRef .tc Cert.ReferenceIdeal.main_arg19) :=
    (karg_16 m ρ c Cert.KernelIdeal.main_arg19 (by decide)).trans (h19.symm.trans (rarg_14 m' c Cert.ReferenceIdeal.main_arg19 (by decide)).symm)
  have e20 : Cert.KernelIdeal.Gen.W16 (F := Ideal) m ρ c (Proc.devRef .tc Cert.KernelIdeal.main_arg20) = Cert.ReferenceIdeal.RefRun.R14 (F := Ideal) m' c (Proc.devRef .tc Cert.ReferenceIdeal.main_arg20) :=
    (karg_16 m ρ c Cert.KernelIdeal.main_arg20 (by decide)).trans (h20.symm.trans (rarg_14 m' c Cert.ReferenceIdeal.main_arg20 (by decide)).symm)
  have e21 : Cert.KernelIdeal.Gen.W16 (F := Ideal) m ρ c (Proc.devRef .tc Cert.KernelIdeal.main_arg21) = Cert.ReferenceIdeal.RefRun.R14 (F := Ideal) m' c (Proc.devRef .tc Cert.ReferenceIdeal.main_arg21) :=
    (karg_16 m ρ c Cert.KernelIdeal.main_arg21 (by decide)).trans (h21.symm.trans (rarg_14 m' c Cert.ReferenceIdeal.main_arg21 (by decide)).symm)
  have e22 : Cert.KernelIdeal.Gen.W16 (F := Ideal) m ρ c (Proc.devRef .tc Cert.KernelIdeal.main_arg22) = Cert.ReferenceIdeal.RefRun.R14 (F := Ideal) m' c (Proc.devRef .tc Cert.ReferenceIdeal.main_arg22) :=
    (karg_16 m ρ c Cert.KernelIdeal.main_arg22 (by decide)).trans (h22.symm.trans (rarg_14 m' c Cert.ReferenceIdeal.main_arg22 (by decide)).symm)
  exact head_eq (Cert.KernelIdeal.Gen.W16 m ρ c) (Cert.ReferenceIdeal.RefRun.R14 m' c) ep0 hin1 (kids1 m ρ m' c h2) e17 e18 e19 e20 e21 e22

end Cert.Bridge

end
-- ==== Proof.Assemble.lean ====
/-
  The chain of checkpoints: from the arguments' agreement and finiteness, layer by layer and transform by
  transform, the aggregates, the layer outputs with their tile sums, the pool sums and the pooled embeddings are the
  same on both sides, hence the head's result.
-/
import proofs.«408188_j34256659153341_2_alg».proof.Defs
import proofs.«408188_j34256659153341_2_alg».proof.Proof.Gen.Pre_finite_inputs
import proofs.«408188_j34256659153341_2_alg».proof.Proof.PreFin
import proofs.«408188_j34256659153341_2_alg».proof.Proof.StageA
import proofs.«408188_j34256659153341_2_alg».proof.Proof.StageY1
import proofs.«408188_j34256659153341_2_alg».proof.Proof.StageB1
import proofs.«408188_j34256659153341_2_alg».proof.Proof.StageY2
import proofs.«408188_j34256659153341_2_alg».proof.Proof.StageB2
import proofs.«408188_j34256659153341_2_alg».proof.Proof.StageY3
import proofs.«408188_j34256659153341_2_alg».proof.Proof.StageDP
import proofs.«408188_j34256659153341_2_alg».proof.Proof.StageE
import proofs.«408188_j34256659153341_2_alg».proof.Proof.StageY1p
import proofs.«408188_j34256659153341_2_alg».proof.Proof.StageB1t
import proofs.«408188_j34256659153341_2_alg».proof.Proof.StageY2p
import proofs.«408188_j34256659153341_2_alg».proof.Proof.StageB2t
import proofs.«408188_j34256659153341_2_alg».proof.Proof.StageY3p
import proofs.«408188_j34256659153341_2_alg».proof.Proof.StageDP1
import proofs.«408188_j34256659153341_2_alg».proof.Proof.StageH

noncomputable section

namespace Cert.Bridge

open Idealize.ShloMosaic

/-- The tiled program's result at its last boundary is the plain program's result at the end of its chain. -/
theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hpre : Cert.Pre_KernelIdeal m)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) :
    (Cert.KernelIdeal.Gen.W21 (F := Ideal) m ρ c (Proc.devRef .tc Cert.KernelIdeal.main_v357) : Cert.KernelIdeal.S512x1.Idx → EReal)
      = Cert.ReferenceIdeal.RefRun.R15 (F := Ideal) m' c (Proc.devRef .tc Cert.ReferenceIdeal.main_v391) := by
  obtain ⟨h0, h1, h2, h3, h4, h5, h6, h7, h8, h9, h10, h11, h12, h13, h14, h15, h16, h17, h18, h19, h20, h21, h22⟩ := hag
  -- transform 0
  have a := stage_A m ρ m' c h0 h1 (Cert.PreFin.real_arg0 m hpre c)
  have y1 := stage_Y1 m ρ m' c h3 h4 h5 h6 (Cert.PreFin.real_arg3 m hpre c) (Cert.PreFin.real_arg4 m hpre c) (Cert.PreFin.real_arg5 m hpre c) (Cert.PreFin.real_arg6 m hpre c) a
  have b1 := stage_B1 m ρ m' c h1 h15 h16 (Cert.PreFin.real_arg15 m hpre c) (Cert.PreFin.real_arg16 m hpre c) y1
  have y2 := stage_Y2 m ρ m' c h7 h8 h9 h10 (Cert.PreFin.real_arg7 m hpre c) (Cert.PreFin.real_arg8 m hpre c) (Cert.PreFin.real_arg9 m hpre c) (Cert.PreFin.real_arg10 m hpre c) b1
  have b2 := stage_B2 m ρ m' c h1 h15 h16 (Cert.PreFin.real_arg15 m hpre c) (Cert.PreFin.real_arg16 m hpre c) y2
  have y3 := stage_Y3 m ρ m' c h11 h12 h13 h14 (Cert.PreFin.real_arg11 m hpre c) (Cert.PreFin.real_arg12 m hpre c) (Cert.PreFin.real_arg13 m hpre c) (Cert.PreFin.real_arg14 m hpre c) b2
  have dp := stage_DP m ρ m' c h2 h15 h16 y3
  have e := stage_E m ρ m' c h0 h1 h2 (Cert.PreFin.real_arg0 m hpre c) dp
  -- transform 1
  have y1' := stage_Y1p m ρ m' c h3 h4 h5 h6 (Cert.PreFin.real_arg3 m hpre c) (Cert.PreFin.real_arg4 m hpre c) (Cert.PreFin.real_arg5 m hpre c) (Cert.PreFin.real_arg6 m hpre c) e.2
  have b1' := stage_B1t m ρ m' c h1 h15 h16 (Cert.PreFin.real_arg15 m hpre c) (Cert.PreFin.real_arg16 m hpre c) y1'
  have y2' := stage_Y2p m ρ m' c h7 h8 h9 h10 (Cert.PreFin.real_arg7 m hpre c) (Cert.PreFin.real_arg8 m hpre c) (Cert.PreFin.real_arg9 m hpre c) (Cert.PreFin.real_arg10 m hpre c) b1'
  have b2' := stage_B2t m ρ m' c h1 h15 h16 (Cert.PreFin.real_arg15 m hpre c) (Cert.PreFin.real_arg16 m hpre c) y2'
  have y3' := stage_Y3p m ρ m' c h11 h12 h13 h14 (Cert.PreFin.real_arg11 m hpre c) (Cert.PreFin.real_arg12 m hpre c) (Cert.PreFin.real_arg13 m hpre c) (Cert.PreFin.real_arg14 m hpre c) b2'
  have dp' := stage_DP1 m ρ m' c h2 h15 h16 y3'
  -- the head
  exact stage_H m ρ m' c h2 h17 h18 h19 h20 h21 h22 e.1 dp'

end Cert.Bridge

end
-- ==== Proof.lean ====
/-
  Two programs for one network: per transform, three graph-isomorphism layers (aggregate the neighbours' rows,
  a two-layer perceptron with rectifiers, batch normalisation over the 100000 nodes), a mean pool by graph id,
  and a three-layer head with a logistic output. The tiled program computes each layer's perceptron per tile of
  5000 node rows together with the tile's column sums of y and of y², so that its variance is E[y²] − mean², and
  the pool as a product with a one-hot matrix accumulated over tiles of 2000 rows; the plain program computes
  mean((y − mean)²) and a segment sum. On extended reals the two agree when every input is finite:
  the perceptron, the sums by tile and the one-hot product are rearrangements of the same finite sums, and the two
  variances are equal for real y (Σ(y − μ)²/N = Σy²/N − μ²), every intermediate staying real because a variance is
  nonnegative and the constant added under the inverse square root is positive.
  The frames are the generated ones; the reference's frame is its run with the result dropped.
-/
import proofs.«408188_j34256659153341_2_alg».proof.Defs
import proofs.«408188_j34256659153341_2_alg».proof.Proof.Gen.Kernel
import proofs.«408188_j34256659153341_2_alg».proof.Proof.Gen.Kernel.Skeleton
import proofs.«408188_j34256659153341_2_alg».proof.Proof.Gen.Kernel.Launch
import proofs.«408188_j34256659153341_2_alg».proof.Proof.Gen.Kernel.Points
import proofs.«408188_j34256659153341_2_alg».proof.Proof.FrameK
import proofs.«408188_j34256659153341_2_alg».proof.Proof.Gen.KernelIdeal
import proofs.«408188_j34256659153341_2_alg».proof.Proof.Gen.KernelIdeal.Skeleton
import proofs.«408188_j34256659153341_2_alg».proof.Proof.Gen.KernelIdeal.Launch
import proofs.«408188_j34256659153341_2_alg».proof.Proof.Gen.KernelIdeal.Points
import proofs.«408188_j34256659153341_2_alg».proof.Proof.FrameKI
import proofs.«408188_j34256659153341_2_alg».proof.Proof.Gen.ReferenceIdeal
import proofs.«408188_j34256659153341_2_alg».proof.Proof.Gen.Pre_finite_inputs
import proofs.«408188_j34256659153341_2_alg».proof.Proof.KRun
import proofs.«408188_j34256659153341_2_alg».proof.Proof.RefRun
import proofs.«408188_j34256659153341_2_alg».proof.Proof.RefChain
import proofs.«408188_j34256659153341_2_alg».proof.Proof.Assemble
import Idealize.ShloMosaic.Adequacy
import Idealize.ShloMosaic.Init

noncomputable section

namespace Cert.Proof

open Idealize.ShloMosaic Idealize.SL.Sem

/-- The word-level program runs and leaves its arguments as launched (the generated frame). -/
theorem frame_k : Cert.frame_Kernel := fun m ρ _ => Cert.Kernel.Gen.frame m ρ

/-- The idealized tiled program runs and leaves its arguments as launched (the generated frame). -/
theorem frame_ki : Cert.frame_KernelIdeal := fun m ρ _ => Cert.KernelIdeal.Gen.frame m ρ

/-- The plain program runs and leaves its arguments as launched: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- From memories agreeing on the arguments, every argument entry finite, both programs end with the same result:
    the tiled program's at the last boundary's contents, the plain one's at the end of its chain, equal by the
    chain of checkpoints. -/
theorem algebraic : Cert.algebraic_KernelIdeal_ReferenceIdeal := by
  intro m ρ m' ρ' hpre hagree
  refine ⟨fun c => Cert.KernelIdeal.Gen.W21 (F := Ideal) m ρ c (Proc.devRef .tc Cert.KernelIdeal.main_v357),
    Cert.KernelIdeal.KRun.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefRun.after_ops]
  exact (Cert.Bridge.result_eq m ρ m' c hpre (hagree c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
